-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v39_1)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v70_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_1) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v70_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x64 : Shape := ⟨2, ![800000, 64]⟩
abbrev S1000x64 : Shape := ⟨2, ![1000, 64]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x64 : Shape := ⟨2, ![32, 64]⟩
abbrev S192x64 : Shape := ⟨2, ![192, 64]⟩
abbrev S800000 : Shape := ⟨1, ![800000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S192x64 : S_.BroadcastsInDim S192x64 (![] : Fin 0 → Fin S192x64.rank)
  reducesTo_S192x64_S_d0_1 : S192x64.ReducesTo [0, 1] S_
  bcast_S_S800000 : S_.BroadcastsInDim S800000 (![] : Fin 0 → Fin S800000.rank)
  reducesTo_S800000_S_d0 : S800000.ReducesTo [0] S_
  bcast_S_S100000 : S_.BroadcastsInDim S100000 (![] : Fin 0 → Fin S100000.rank)
  reducesTo_S100000_S_d0 : S100000.ReducesTo [0] S_

variable [Facts]

def fn_part11 {F : FTy → Type} [FloatOps F] (main_arg36 : IVec S800000 32) (main_v184 : IVec S_ 1) (main_v186 : IVec S800000 1) (main_c_74 : IVec S_ 32) : IVec S_ 1 :=
  let main_v187 : IVec S800000 32 := broadcastInDim S800000 ![] bcast_S_S800000 main_c_74
  let main_v188 : IVec S800000 1 := cmpi .sle main_arg36 main_v187
  let main_v189 : IVec S800000 1 := andi main_v186 main_v188
  let main_c_75 : IVec S_ 1 := constantI S_ 1 1#1
  let main_v190 : IVec S_ 1 := (fun x v => Host.reduce IntOp.andi x v reducesTo_S800000_S_d0 h_S_) main_v189 main_c_75
  let main_v191 : IVec S_ 1 := andi main_v184 main_v190
  main_v191

def fn_part10 {F : FTy → Type} [FloatOps F] (main_arg34 : IVec S800000 32) (main_arg35 : IVec S100000 32) (main_arg36 : IVec S800000 32) (main_v170 : IVec S_ 1) : IVec S_ 1 :=
  let main_c_67 : IVec S_ 32 := constantI S_ 32 0#32
  let main_v171 : IVec S800000 32 := broadcastInDim S800000 ![] bcast_S_S800000 main_c_67
  let main_v172 : IVec S800000 1 := cmpi .sge main_arg34 main_v171
  let main_c_68 : IVec S_ 32 := constantI S_ 32 99999#32
  let main_v173 : IVec S800000 32 := broadcastInDim S800000 ![] bcast_S_S800000 main_c_68
  let main_v174 : IVec S800000 1 := cmpi .sle main_arg34 main_v173
  let main_v175 : IVec S800000 1 := andi main_v172 main_v174
  let main_c_69 : IVec S_ 1 := constantI S_ 1 1#1
  let main_v176 : IVec S_ 1 := (fun x v => Host.reduce IntOp.andi x v reducesTo_S800000_S_d0 h_S_) main_v175 main_c_69
  let main_v177 : IVec S_ 1 := andi main_v170 main_v176
  let main_c_70 : IVec S_ 32 := constantI S_ 32 0#32
  let main_v178 : IVec S100000 32 := broadcastInDim S100000 ![] bcast_S_S100000 main_c_70
  let main_v179 : IVec S100000 1 := cmpi .sge main_arg35 main_v178
  let main_c_71 : IVec S_ 32 := constantI S_ 32 999#32
  let main_v180 : IVec S100000 32 := broadcastInDim S100000 ![] bcast_S_S100000 main_c_71
  let main_v181 : IVec S100000 1 := cmpi .sle main_arg35 main_v180
  let main_v182 : IVec S100000 1 := andi main_v179 main_v181
  let main_c_72 : IVec S_ 1 := constantI S_ 1 1#1
  let main_v183 : IVec S_ 1 := (fun x v => Host.reduce IntOp.andi x v reducesTo_S100000_S_d0 h_S_) main_v182 main_c_72
  let main_v184 : IVec S_ 1 := andi main_v177 main_v183
  let main_c_73 : IVec S_ 32 := constantI S_ 32 0#32
  let main_v185 : IVec S800000 32 := broadcastInDim S800000 ![] bcast_S_S800000 main_c_73
  let main_v186 : IVec S800000 1 := cmpi .sge main_arg36 main_v185
  let main_c_74 : IVec S_ 32 := constantI S_ 32 999#32
  fn_part11 (F := F) main_arg36 main_v184 main_v186 main_c_74

def fn_part9 {F : FTy → Type} [FloatOps F] (main_arg31 : FVec F S32x64 .f32) (main_arg32 : FVec F S64 .f32) (main_arg33 : IVec S800000 32) (main_arg34 : IVec S800000 32) (main_arg35 : IVec S100000 32) (main_arg36 : IVec S800000 32) (main_v153 : IVec S_ 1) : IVec S_ 1 :=
  let main_v154 : FVec F S32x64 .f32 := Host.absf main_arg31
  let main_cst_60 : FVec F S_ .f32 := constant S_ .f32 0x7F800000#32
  let main_v155 : FVec F S32x64 .f32 := broadcastInDim S32x64 ![] bcast_S_S32x64 main_cst_60
  let main_v156 : IVec S32x64 1 := cmpf .olt main_v154 main_v155
  let main_c_61 : IVec S_ 1 := constantI S_ 1 1#1
  let main_v157 : IVec S_ 1 := (fun x v => Host.reduce IntOp.andi x v reducesTo_S32x64_S_d0_1 h_S_) main_v156 main_c_61
  let main_v158 : IVec S_ 1 := andi main_v153 main_v157
  let main_v159 : FVec F S64 .f32 := Host.absf main_arg32
  let main_cst_62 : FVec F S_ .f32 := constant S_ .f32 0x7F800000#32
  let main_v160 : FVec F S64 .f32 := broadcastInDim S64 ![] bcast_S_S64 main_cst_62
  let main_v161 : IVec S64 1 := cmpf .olt main_v159 main_v160
  let main_c_63 : IVec S_ 1 := constantI S_ 1 1#1
  let main_v162 : IVec S_ 1 := (fun x v => Host.reduce IntOp.andi x v reducesTo_S64_S_d0 h_S_) main_v161 main_c_63
  let main_v163 : IVec S_ 1 := andi main_v158 main_v162
  let main_c_64 : IVec S_ 32 := constantI S_ 32 0#32
  let main_v164 : IVec S800000 32 := broadcastInDim S800000 ![] bcast_S_S800000 main_c_64
  let main_v165 : IVec S800000 1 := cmpi .sge main_arg33 main_v164
  let main_c_65 : IVec S_ 32 := constantI S_ 32 99999#32
  let main_v166 : IVec S800000 32 := broadcastInDim S800000 ![] bcast_S_S800000 main_c_65
  let main_v167 : IVec S800000 1 := cmpi .sle main_arg33 main_v166
  let main_v168 : IVec S800000 1 := andi main_v165 main_v167
  let main_c_66 : IVec S_ 1 := constantI S_ 1 1#1
  let main_v169 : IVec S_ 1 := (fun x v => Host.reduce IntOp.andi x v reducesTo_S800000_S_d0 h_S_) main_v168 main_c_66
  let main_v170 : IVec S_ 1 := andi main_v163 main_v169
  fn_part10 (F := F) main_arg34 main_arg35 main_arg36 main_v170

def fn_part8 {F : FTy → Type} [FloatOps F] (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v133 : IVec S_ 1) (main_v136 : IVec S192x64 1) : IVec S_ 1 :=
  let main_c_53 : IVec S_ 1 := constantI S_ 1 1#1
  let main_v137 : IVec S_ 1 := (fun x v => Host.reduce IntOp.andi x v reducesTo_S192x64_S_d0_1 h_S_) main_v136 main_c_53
  let main_v138 : IVec S_ 1 := andi main_v133 main_v137
  let main_v139 : FVec F S64 .f32 := Host.absf main_arg28
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64x32 .f32 := Host.absf main_arg29
  let main_cst_56 : FVec F S_ .f32 := constant S_ .f32 0x7F800000#32
  let main_v145 : FVec F S64x32 .f32 := broadcastInDim S64x32 ![] bcast_S_S64x32 main_cst_56
  let main_v146 : IVec S64x32 1 := cmpf .olt main_v144 main_v145
  let main_c_57 : IVec S_ 1 := constantI S_ 1 1#1
  let main_v147 : IVec S_ 1 := (fun x v => Host.reduce IntOp.andi x v reducesTo_S64x32_S_d0_1 h_S_) main_v146 main_c_57
  let main_v148 : IVec S_ 1 := andi main_v143 main_v147
  let main_v149 : FVec F S32 .f32 := Host.absf main_arg30
  let main_cst_58 : FVec F S_ .f32 := constant S_ .f32 0x7F800000#32
  let main_v150 : FVec F S32 .f32 := broadcastInDim S32 ![] bcast_S_S32 main_cst_58
  let main_v151 : IVec S32 1 := cmpf .olt main_v149 main_v150
  let main_c_59 : IVec S_ 1 := constantI S_ 1 1#1
  let main_v152 : IVec S_ 1 := (fun x v => Host.reduce IntOp.andi x v reducesTo_S32_S_d0 h_S_) main_v151 main_c_59
  let main_v153 : IVec S_ 1 := andi main_v148 main_v152
  fn_part9 (F := F) main_arg31 main_arg32 main_arg33 main_arg34 main_arg35 main_arg36 main_v153

def fn_part7 {F : FTy → Type} [FloatOps F] (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x64 .f32 := Host.absf main_arg25
  let main_cst_48 : FVec F S_ .f32 := constant S_ .f32 0x7F800000#32
  let main_v125 : FVec F S32x64 .f32 := broadcastInDim S32x64 ![] bcast_S_S32x64 main_cst_48
  let main_v126 : IVec S32x64 1 := cmpf .olt main_v124 main_v125
  let main_c_49 : IVec S_ 1 := constantI S_ 1 1#1
  let main_v127 : IVec S_ 1 := (fun x v => Host.reduce IntOp.andi x v reducesTo_S32x64_S_d0_1 h_S_) main_v126 main_c_49
  let main_v128 : IVec S_ 1 := andi main_v123 main_v127
  let main_v129 : FVec F S64 .f32 := Host.absf main_arg26
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S192x64 .f32 := Host.absf main_arg27
  let main_cst_52 : FVec F S_ .f32 := constant S_ .f32 0x7F800000#32
  let main_v135 : FVec F S192x64 .f32 := broadcastInDim S192x64 ![] bcast_S_S192x64 main_cst_52
  let main_v136 : IVec S192x64 1 := cmpf .olt main_v134 main_v135
  fn_part8 (F := F) main_arg28 main_arg29 main_arg30 main_arg31 main_arg32 main_arg33 main_arg34 main_arg35 main_arg36 main_v133 main_v136

def fn_part6 {F : FTy → Type} [FloatOps F] (main_arg21 : FVec F S192x64 .f32) (main_arg22 : FVec F S64 .f32) (main_arg23 : FVec F S64x32 .f32) (main_arg24 : FVec F S32 .f32) (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S192x64 .f32 := Host.absf main_arg21
  let main_cst_40 : FVec F S_ .f32 := constant S_ .f32 0x7F800000#32
  let main_v105 : FVec F S192x64 .f32 := broadcastInDim S192x64 ![] bcast_S_S192x64 main_cst_40
  let main_v106 : IVec S192x64 1 := cmpf .olt main_v104 main_v105
  let main_c_41 : IVec S_ 1 := constantI S_ 1 1#1
  let main_v107 : IVec S_ 1 := (fun x v => Host.reduce IntOp.andi x v reducesTo_S192x64_S_d0_1 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x32 .f32 := Host.absf main_arg23
  let main_cst_44 : FVec F S_ .f32 := constant S_ .f32 0x7F800000#32
  let main_v115 : FVec F S64x32 .f32 := broadcastInDim S64x32 ![] bcast_S_S64x32 main_cst_44
  let main_v116 : IVec S64x32 1 := cmpf .olt main_v114 main_v115
  let main_c_45 : IVec S_ 1 := constantI S_ 1 1#1
  let main_v117 : IVec S_ 1 := (fun x v => Host.reduce IntOp.andi x v reducesTo_S64x32_S_d0_1 h_S_) main_v116 main_c_45
  let main_v118 : IVec S_ 1 := andi main_v113 main_v117
  let main_v119 : FVec F S32 .f32 := Host.absf main_arg24
  fn_part7 (F := F) main_arg25 main_arg26 main_arg27 main_arg28 main_arg29 main_arg30 main_arg31 main_arg32 main_arg33 main_arg34 main_arg35 main_arg36 main_v118 main_v119

def fn_part5 {F : FTy → Type} [FloatOps F] (main_arg18 : FVec F S32 .f32) (main_arg19 : FVec F S32x64 .f32) (main_arg20 : FVec F S64 .f32) (main_arg21 : FVec F S192x64 .f32) (main_arg22 : FVec F S64 .f32) (main_arg23 : FVec F S64x32 .f32) (main_arg24 : FVec F S32 .f32) (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x64 .f32 := Host.absf main_arg19
  let main_cst_36 : FVec F S_ .f32 := constant S_ .f32 0x7F800000#32
  let main_v95 : FVec F S32x64 .f32 := broadcastInDim S32x64 ![] bcast_S_S32x64 main_cst_36
  let main_v96 : IVec S32x64 1 := cmpf .olt main_v94 main_v95
  let main_c_37 : IVec S_ 1 := constantI S_ 1 1#1
  let main_v97 : IVec S_ 1 := (fun x v => Host.reduce IntOp.andi x v reducesTo_S32x64_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg14 : FVec F S64 .f32) (main_arg15 : FVec F S256x64 .f32) (main_arg16 : FVec F S64 .f32) (main_arg17 : FVec F S64x32 .f32) (main_arg18 : FVec F S32 .f32) (main_arg19 : FVec F S32x64 .f32) (main_arg20 : FVec F S64 .f32) (main_arg21 : FVec F S192x64 .f32) (main_arg22 : FVec F S64 .f32) (main_arg23 : FVec F S64x32 .f32) (main_arg24 : FVec F S32 .f32) (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S256x64 .f32 := Host.absf main_arg15
  let main_cst_28 : FVec F S_ .f32 := constant S_ .f32 0x7F800000#32
  let main_v75 : FVec F S256x64 .f32 := broadcastInDim S256x64 ![] bcast_S_S256x64 main_cst_28
  let main_v76 : IVec S256x64 1 := cmpf .olt main_v74 main_v75
  let main_c_29 : IVec S_ 1 := constantI S_ 1 1#1
  let main_v77 : IVec S_ 1 := (fun x v => Host.reduce IntOp.andi x v reducesTo_S256x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg11 : FVec F S64x64 .f32) (main_arg12 : FVec F S64 .f32) (main_arg13 : FVec F S64x64 .f32) (main_arg14 : FVec F S64 .f32) (main_arg15 : FVec F S256x64 .f32) (main_arg16 : FVec F S64 .f32) (main_arg17 : FVec F S64x32 .f32) (main_arg18 : FVec F S32 .f32) (main_arg19 : FVec F S32x64 .f32) (main_arg20 : FVec F S64 .f32) (main_arg21 : FVec F S192x64 .f32) (main_arg22 : FVec F S64 .f32) (main_arg23 : FVec F S64x32 .f32) (main_arg24 : FVec F S32 .f32) (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S256x64 .f32) (main_arg16 : FVec F S64 .f32) (main_arg17 : FVec F S64x32 .f32) (main_arg18 : FVec F S32 .f32) (main_arg19 : FVec F S32x64 .f32) (main_arg20 : FVec F S64 .f32) (main_arg21 : FVec F S192x64 .f32) (main_arg22 : FVec F S64 .f32) (main_arg23 : FVec F S64x32 .f32) (main_arg24 : FVec F S32 .f32) (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S256x64 .f32) (main_arg16 : FVec F S64 .f32) (main_arg17 : FVec F S64x32 .f32) (main_arg18 : FVec F S32 .f32) (main_arg19 : FVec F S32x64 .f32) (main_arg20 : FVec F S64 .f32) (main_arg21 : FVec F S192x64 .f32) (main_arg22 : FVec F S64 .f32) (main_arg23 : FVec F S64x32 .f32) (main_arg24 : FVec F S32 .f32) (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S100000x64 .f32) (main_arg1 : FVec F S800000x64 .f32) (main_arg2 : FVec F S1000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S256x64 .f32) (main_arg16 : FVec F S64 .f32) (main_arg17 : FVec F S64x32 .f32) (main_arg18 : FVec F S32 .f32) (main_arg19 : FVec F S32x64 .f32) (main_arg20 : FVec F S64 .f32) (main_arg21 : FVec F S192x64 .f32) (main_arg22 : FVec F S64 .f32) (main_arg23 : FVec F S64x32 .f32) (main_arg24 : FVec F S32 .f32) (main_arg25 : FVec F S32x64 .f32) (main_arg26 : FVec F S64 .f32) (main_arg27 : FVec F S192x64 .f32) (main_arg28 : FVec F S64 .f32) (main_arg29 : FVec F S64x32 .f32) (main_arg30 : FVec F S32 .f32) (main_arg31 : FVec F S32x64 .f32) (main_arg32 : FVec F S64 .f32) (main_arg33 : IVec S800000 32) (main_arg34 : IVec S800000 32) (main_arg35 : IVec S100000 32) (main_arg36 : IVec S800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1000x64 .f32 := Host.absf main_arg2
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S100000x64 : Shape := ⟨2, ![100000, 64]⟩
abbrev S800000x64 : Shape := ⟨2, ![800000, 64]⟩
abbrev S1000x64 : Shape := ⟨2, ![1000, 64]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x64 : Shape := ⟨2, ![32, 64]⟩
abbrev S192x64 : Shape := ⟨2, ![192, 64]⟩
abbrev S800000 : Shape := ⟨1, ![800000]⟩
abbrev S100000 : Shape := ⟨1, ![100000]⟩
abbrev S1x64 : Shape := ⟨2, ![1, 64]⟩
abbrev S5000x64 : Shape := ⟨2, ![5000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x32 : Shape := ⟨2, ![1, 32]⟩
abbrev S5000x32 : Shape := ⟨2, ![5000, 32]⟩
abbrev S100000x1 : Shape := ⟨2, ![100000, 1]⟩
abbrev S1000 : Shape := ⟨1, ![1000]⟩
abbrev S1000x1 : Shape := ⟨2, ![1000, 1]⟩
abbrev S1000x32 : Shape := ⟨2, ![1000, 32]⟩

abbrev nBuf : Space → Nat
  | .hbm => 211
  | .vmem => 79
  | .smem => 0
  | _ => 0

abbrev hbmTy0_0 (i : Nat) : BufTy := match i % 128 with
  | 0 => ⟨S100000x64, .f32⟩
  | 1 => ⟨S800000x64, .f32⟩
  | 2 => ⟨S1000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S256x64, .f32⟩
  | 16 => ⟨S64, .f32⟩
  | 17 => ⟨S64x32, .f32⟩
  | 18 => ⟨S32, .f32⟩
  | 19 => ⟨S32x64, .f32⟩
  | 20 => ⟨S64, .f32⟩
  | 21 => ⟨S192x64, .f32⟩
  | 22 => ⟨S64, .f32⟩
  | 23 => ⟨S64x32, .f32⟩
  | 24 => ⟨S32, .f32⟩
  | 25 => ⟨S32x64, .f32⟩
  | 26 => ⟨S64, .f32⟩
  | 27 => ⟨S192x64, .f32⟩
  | 28 => ⟨S64, .f32⟩
  | 29 => ⟨S64x32, .f32⟩
  | 30 => ⟨S32, .f32⟩
  | 31 => ⟨S32x64, .f32⟩
  | 32 => ⟨S64, .f32⟩
  | 33 => ⟨S800000, .i32⟩
  | 34 => ⟨S800000, .i32⟩
  | 35 => ⟨S100000, .i32⟩
  | 36 => ⟨S800000, .i32⟩
  | 37 => ⟨S1x64, .f32⟩
  | 38 => ⟨S1x64, .f32⟩
  | 39 => ⟨S100000x64, .f32⟩
  | 40 => ⟨S1x64, .f32⟩
  | 41 => ⟨S1x64, .f32⟩
  | 42 => ⟨S800000x64, .f32⟩
  | 43 => ⟨S1x64, .f32⟩
  | 44 => ⟨S1x64, .f32⟩
  | 45 => ⟨S1000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S1, .i32⟩
  | 55 => ⟨S_, .i32⟩
  | 56 => ⟨S800000x1, .i32⟩
  | 57 => ⟨S800000x1, .i1⟩
  | 58 => ⟨S1x1, .i32⟩
  | 59 => ⟨S800000x1, .i32⟩
  | 60 => ⟨S800000x1, .i1⟩
  | 61 => ⟨S800000x1, .i1⟩
  | 62 => ⟨S_, .i1⟩
  | 63 => ⟨S800000, .i1⟩
  | 64 => ⟨S800000x64, .f32⟩
  | 65 => ⟨S800000x64, .i1⟩
  | 66 => ⟨S_, .f32⟩
  | 67 => ⟨S800000x64, .f32⟩
  | 68 => ⟨S800000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S1, .i32⟩
  | 78 => ⟨S_, .i32⟩
  | 79 => ⟨S800000x1, .i32⟩
  | 80 => ⟨S800000x1, .i1⟩
  | 81 => ⟨S1x1, .i32⟩
  | 82 => ⟨S800000x1, .i32⟩
  | 83 => ⟨S800000x1, .i1⟩
  | 84 => ⟨S800000x1, .i1⟩
  | 85 => ⟨S_, .i1⟩
  | 86 => ⟨S800000, .i1⟩
  | 87 => ⟨S800000x64, .f32⟩
  | 88 => ⟨S800000x64, .i1⟩
  | 89 => ⟨S_, .f32⟩
  | 90 => ⟨S800000x64, .f32⟩
  | 91 => ⟨S800000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S1, .i32⟩
  | 101 => ⟨S_, .i32⟩
  | 102 => ⟨S800000x1, .i32⟩
  | 103 => ⟨S800000x1, .i1⟩
  | 104 => ⟨S1x1, .i32⟩
  | 105 => ⟨S800000x1, .i32⟩
  | 106 => ⟨S800000x1, .i1⟩
  | 107 => ⟨S800000x1, .i1⟩
  | 108 => ⟨S_, .i1⟩
  | 109 => ⟨S800000, .i1⟩
  | 110 => ⟨S800000x64, .f32⟩
  | 111 => ⟨S800000x64, .i1⟩
  | 112 => ⟨S_, .f32⟩
  | 113 => ⟨S800000x64, .f32⟩
  | 114 => ⟨S800000x64, .f32⟩
  | 115 => ⟨S64x64, .f32⟩
  | 116 => ⟨S64x64, .f32⟩
  | 117 => ⟨S64x64, .f32⟩
  | 118 => ⟨S64x64, .f32⟩
  | 119 => ⟨S1x64, .f32⟩
  | 120 => ⟨S1x32, .f32⟩
  | 121 => ⟨S1x64, .f32⟩
  | 122 => ⟨S800000x64, .f32⟩
  | 123 => ⟨S800000x64, .f32⟩
  | 124 => ⟨S_, .f32⟩
  | 125 => ⟨S100000x64, .f32⟩
  | 126 => ⟨S800000x1, .i32⟩
  | 127 => ⟨S100000x64, .f32⟩
  | _ => ⟨S100000x64, .f32⟩

abbrev hbmTy0_1 (i : Nat) : BufTy := match i % 128 with
  | 0 => ⟨S_, .f32⟩
  | 1 => ⟨S800000, .f32⟩
  | 2 => ⟨S_, .f32⟩
  | 3 => ⟨S100000, .f32⟩
  | 4 => ⟨S800000x1, .i32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x64, .f32⟩
  | 11 => ⟨S100000x64, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S1, .i32⟩
  | 21 => ⟨S_, .i32⟩
  | 22 => ⟨S100000x1, .i32⟩
  | 23 => ⟨S100000x1, .i1⟩
  | 24 => ⟨S1x1, .i32⟩
  | 25 => ⟨S100000x1, .i32⟩
  | 26 => ⟨S100000x1, .i1⟩
  | 27 => ⟨S100000x1, .i1⟩
  | 28 => ⟨S_, .i1⟩
  | 29 => ⟨S100000, .i1⟩
  | 30 => ⟨S100000x64, .f32⟩
  | 31 => ⟨S100000x64, .i1⟩
  | 32 => ⟨S_, .f32⟩
  | 33 => ⟨S100000x64, .f32⟩
  | 34 => ⟨S100000x64, .f32⟩
  | 35 => ⟨S64x64, .f32⟩
  | 36 => ⟨S64x64, .f32⟩
  | 37 => ⟨S64x64, .f32⟩
  | 38 => ⟨S1x64, .f32⟩
  | 39 => ⟨S1x32, .f32⟩
  | 40 => ⟨S1x64, .f32⟩
  | 41 => ⟨S100000x64, .f32⟩
  | 42 => ⟨S100000x64, .f32⟩
  | 43 => ⟨S_, .f32⟩
  | 44 => ⟨S1000x64, .f32⟩
  | 45 => ⟨S800000x1, .i32⟩
  | 46 => ⟨S1000x64, .f32⟩
  | 47 => ⟨S_, .f32⟩
  | 48 => ⟨S800000, .f32⟩
  | 49 => ⟨S_, .f32⟩
  | 50 => ⟨S1000, .f32⟩
  | 51 => ⟨S800000x1, .i32⟩
  | 52 => ⟨S1000, .f32⟩
  | 53 => ⟨S_, .f32⟩
  | 54 => ⟨S1000, .f32⟩
  | 55 => ⟨S1000, .f32⟩
  | 56 => ⟨S1000x1, .f32⟩
  | 57 => ⟨S1000x64, .f32⟩
  | 58 => ⟨S1000x64, .f32⟩
  | 59 => ⟨S_, .f32⟩
  | 60 => ⟨S1000x64, .f32⟩
  | 61 => ⟨S100000x1, .i32⟩
  | 62 => ⟨S1000x64, .f32⟩
  | 63 => ⟨S_, .f32⟩
  | 64 => ⟨S100000, .f32⟩
  | 65 => ⟨S_, .f32⟩
  | 66 => ⟨S1000, .f32⟩
  | 67 => ⟨S100000x1, .i32⟩
  | 68 => ⟨S1000, .f32⟩
  | 69 => ⟨S_, .f32⟩
  | 70 => ⟨S1000, .f32⟩
  | 71 => ⟨S1000, .f32⟩
  | 72 => ⟨S1000x1, .f32⟩
  | 73 => ⟨S1000x64, .f32⟩
  | 74 => ⟨S1000x64, .f32⟩
  | 75 => ⟨S64x64, .f32⟩
  | 76 => ⟨S64x64, .f32⟩
  | 77 => ⟨S64x64, .f32⟩
  | 78 => ⟨S1x64, .f32⟩
  | 79 => ⟨S1x32, .f32⟩
  | 80 => ⟨S1x64, .f32⟩
  | 81 => ⟨S1000x64, .f32⟩
  | 82 => ⟨S1000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S1000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S64x64, .f32⟩
  | .local _ .vmem, ⟨32, _⟩ => ⟨S64x64, .f32⟩
  | .local _ .vmem, ⟨33, _⟩ => ⟨S64x64, .f32⟩
  | .local _ .vmem, ⟨34, _⟩ => ⟨S1x64, .f32⟩
  | .local _ .vmem, ⟨35, _⟩ => ⟨S64x32, .f32⟩
  | .local _ .vmem, ⟨36, _⟩ => ⟨S1x32, .f32⟩
  | .local _ .vmem, ⟨37, _⟩ => ⟨S32x64, .f32⟩
  | .local _ .vmem, ⟨38, _⟩ => ⟨S1x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S64x64, .f32⟩
  | .local _ .vmem, ⟨52, _⟩ => ⟨S64x64, .f32⟩
  | .local _ .vmem, ⟨53, _⟩ => ⟨S64x64, .f32⟩
  | .local _ .vmem, ⟨54, _⟩ => ⟨S1x64, .f32⟩
  | .local _ .vmem, ⟨55, _⟩ => ⟨S64x32, .f32⟩
  | .local _ .vmem, ⟨56, _⟩ => ⟨S1x32, .f32⟩
  | .local _ .vmem, ⟨57, _⟩ => ⟨S32x64, .f32⟩
  | .local _ .vmem, ⟨58, _⟩ => ⟨S1x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S1000x64, .f32⟩
  | .local _ .vmem, ⟨66, _⟩ => ⟨S1000x64, .f32⟩
  | .local _ .vmem, ⟨67, _⟩ => ⟨S1000x64, .f32⟩
  | .local _ .vmem, ⟨68, _⟩ => ⟨S64x64, .f32⟩
  | .local _ .vmem, ⟨69, _⟩ => ⟨S64x64, .f32⟩
  | .local _ .vmem, ⟨70, _⟩ => ⟨S64x64, .f32⟩
  | .local _ .vmem, ⟨71, _⟩ => ⟨S1x64, .f32⟩
  | .local _ .vmem, ⟨72, _⟩ => ⟨S64x32, .f32⟩
  | .local _ .vmem, ⟨73, _⟩ => ⟨S1x32, .f32⟩
  | .local _ .vmem, ⟨74, _⟩ => ⟨S32x64, .f32⟩
  | .local _ .vmem, ⟨75, _⟩ => ⟨S1x64, .f32⟩
  | .local _ .vmem, ⟨76, _⟩ => ⟨S1000x64, .f32⟩
  | .local _ .vmem, ⟨77, _⟩ => ⟨S1000x64, .f32⟩
  | .local _ .vmem, ⟨78, _⟩ => ⟨S1000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v9 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v10 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_v14 : Ref sig .tc := ⟨.hbm, 117, rfl⟩
abbrev main_v15 : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_v19_0 : Ref sig .tc := ⟨.hbm, 122, rfl⟩
abbrev main_v19_1 : Ref sig .tc := ⟨.hbm, 123, rfl⟩
abbrev main_cst : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_cst_0 : Ref sig .tc := ⟨.hbm, 128, rfl⟩
abbrev main_v23 : Ref sig .tc := ⟨.hbm, 129, rfl⟩
abbrev main_cst_1 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_cst_2 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_call3_c : Ref sig .tc := ⟨.hbm, 140, rfl⟩
abbrev main_call3_v0 : Ref sig .tc := ⟨.hbm, 141, rfl⟩
abbrev main_call3_v1 : Ref sig .tc := ⟨.hbm, 142, rfl⟩
abbrev main_call3_c_0 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_c_1 : Ref sig .tc := ⟨.hbm, 148, rfl⟩
abbrev main_call3_c_2 : Ref sig .tc := ⟨.hbm, 149, rfl⟩
abbrev main_call3_v6 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_c_3 : Ref sig .tc := ⟨.hbm, 156, rfl⟩
abbrev main_call3_v12 : Ref sig .tc := ⟨.hbm, 157, rfl⟩
abbrev main_call3_v13 : Ref sig .tc := ⟨.hbm, 158, rfl⟩
abbrev main_call3_v14 : Ref sig .tc := ⟨.hbm, 159, rfl⟩
abbrev main_call3_cst : Ref sig .tc := ⟨.hbm, 160, rfl⟩
abbrev main_call3_v15 : Ref sig .tc := ⟨.hbm, 161, rfl⟩
abbrev main_v32 : Ref sig .tc := ⟨.hbm, 162, rfl⟩
abbrev main_v33 : Ref sig .tc := ⟨.hbm, 163, rfl⟩
abbrev main_v34 : Ref sig .tc := ⟨.hbm, 164, rfl⟩
abbrev main_v35 : Ref sig .tc := ⟨.hbm, 165, rfl⟩
abbrev main_v36 : Ref sig .tc := ⟨.hbm, 166, rfl⟩
abbrev main_v37 : Ref sig .tc := ⟨.hbm, 167, rfl⟩
abbrev main_v38 : Ref sig .tc := ⟨.hbm, 168, rfl⟩
abbrev main_v39_0 : Ref sig .tc := ⟨.hbm, 169, rfl⟩
abbrev main_v39_1 : Ref sig .tc := ⟨.hbm, 170, rfl⟩
abbrev main_cst_3 : Ref sig .tc := ⟨.hbm, 171, rfl⟩
abbrev main_v40 : Ref sig .tc := ⟨.hbm, 172, rfl⟩
abbrev main_v41 : Ref sig .tc := ⟨.hbm, 173, rfl⟩
abbrev main_v42 : Ref sig .tc := ⟨.hbm, 174, rfl⟩
abbrev main_cst_4 : Ref sig .tc := ⟨.hbm, 175, rfl⟩
abbrev main_v43 : Ref sig .tc := ⟨.hbm, 176, rfl⟩
abbrev main_cst_5 : Ref sig .tc := ⟨.hbm, 177, rfl⟩
abbrev main_v44 : Ref sig .tc := ⟨.hbm, 178, rfl⟩
abbrev main_v45 : Ref sig .tc := ⟨.hbm, 179, rfl⟩
abbrev main_v46 : Ref sig .tc := ⟨.hbm, 180, rfl⟩
abbrev main_cst_6 : Ref sig .tc := ⟨.hbm, 181, rfl⟩
abbrev main_v47 : Ref sig .tc := ⟨.hbm, 182, rfl⟩
abbrev main_v48 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_cst_7 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_cst_8 : Ref sig .tc := ⟨.hbm, 191, rfl⟩
abbrev main_v55 : Ref sig .tc := ⟨.hbm, 192, rfl⟩
abbrev main_cst_9 : Ref sig .tc := ⟨.hbm, 193, rfl⟩
abbrev main_v56 : Ref sig .tc := ⟨.hbm, 194, rfl⟩
abbrev main_v57 : Ref sig .tc := ⟨.hbm, 195, rfl⟩
abbrev main_v58 : Ref sig .tc := ⟨.hbm, 196, rfl⟩
abbrev main_cst_10 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_v69 : Ref sig .tc := ⟨.hbm, 208, rfl⟩
abbrev main_v70_0 : Ref sig .tc := ⟨.hbm, 209, rfl⟩
abbrev main_v70_1 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg12_0 : Ref sig .tc := ⟨.vmem, 38, rfl⟩
abbrev cc3_stg13_0 : Ref sig .tc := ⟨.vmem, 39, rfl⟩
abbrev cc3_stg13_1 : Ref sig .tc := ⟨.vmem, 40, rfl⟩
abbrev cc3_stg14_0 : Ref sig .tc := ⟨.vmem, 41, rfl⟩
abbrev cc3_stg14_1 : Ref sig .tc := ⟨.vmem, 42, rfl⟩
abbrev cc3_stg15_0 : Ref sig .tc := ⟨.vmem, 43, rfl⟩
abbrev cc3_stg15_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg10_0 : Ref sig .tc := ⟨.vmem, 58, rfl⟩
abbrev cc4_stg11_0 : Ref sig .tc := ⟨.vmem, 59, rfl⟩
abbrev cc4_stg11_1 : Ref sig .tc := ⟨.vmem, 60, rfl⟩
abbrev cc4_stg12_0 : Ref sig .tc := ⟨.vmem, 61, rfl⟩
abbrev cc4_stg12_1 : Ref sig .tc := ⟨.vmem, 62, rfl⟩
abbrev cc4_stg13_0 : Ref sig .tc := ⟨.vmem, 63, rfl⟩
abbrev cc4_stg13_1 : Ref sig .tc := ⟨.vmem, 64, rfl⟩
abbrev cc5_stg0_0 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg6_0 : Ref sig .tc := ⟨.vmem, 71, rfl⟩
abbrev cc5_stg7_0 : Ref sig .tc := ⟨.vmem, 72, rfl⟩
abbrev cc5_stg8_0 : Ref sig .tc := ⟨.vmem, 73, rfl⟩
abbrev cc5_stg9_0 : Ref sig .tc := ⟨.vmem, 74, rfl⟩
abbrev cc5_stg10_0 : Ref sig .tc := ⟨.vmem, 75, rfl⟩
abbrev cc5_stg11_0 : Ref sig .tc := ⟨.vmem, 76, rfl⟩
abbrev cc5_stg12_0 : Ref sig .tc := ⟨.vmem, 77, rfl⟩
abbrev cc5_stg13_0 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem10_0 : DmaSem sig := 36
abbrev cc3_sem11_0 : DmaSem sig := 37
abbrev cc3_sem12_0 : DmaSem sig := 38
abbrev cc3_sem13_0 : DmaSem sig := 39
abbrev cc3_sem13_1 : DmaSem sig := 40
abbrev cc3_sem14_0 : DmaSem sig := 41
abbrev cc3_sem14_1 : DmaSem sig := 42
abbrev cc3_sem15_0 : DmaSem sig := 43
abbrev cc3_sem15_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem10_0 : DmaSem sig := 58
abbrev cc4_sem11_0 : DmaSem sig := 59
abbrev cc4_sem11_1 : DmaSem sig := 60
abbrev cc4_sem12_0 : DmaSem sig := 61
abbrev cc4_sem12_1 : DmaSem sig := 62
abbrev cc4_sem13_0 : DmaSem sig := 63
abbrev cc4_sem13_1 : DmaSem sig := 64
abbrev cc5_sem0_0 : DmaSem sig := 65
abbrev cc5_sem1_0 : DmaSem sig := 66
abbrev cc5_sem2_0 : DmaSem sig := 67
abbrev cc5_sem3_0 : DmaSem sig := 68
abbrev cc5_sem4_0 : DmaSem sig := 69
abbrev cc5_sem5_0 : DmaSem sig := 70
abbrev cc5_sem6_0 : DmaSem sig := 71
abbrev cc5_sem7_0 : DmaSem sig := 72
abbrev cc5_sem8_0 : DmaSem sig := 73
abbrev cc5_sem9_0 : DmaSem sig := 74
abbrev cc5_sem10_0 : DmaSem sig := 75
abbrev cc5_sem11_0 : DmaSem sig := 76
abbrev cc5_sem12_0 : DmaSem sig := 77
abbrev cc5_sem13_0 : DmaSem sig := 78

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1000x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x32 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x32 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S32x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S5000x64 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S5000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S5000x64 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S32x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x64 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S5000x64 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S5000x64 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1000x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1000x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x32 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S32x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1000x64 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![true]

abbrev stage5_12 : Fin 1 → Memref sig .tc .vmem S1000x64 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![true]

abbrev stage5_13 : Fin 1 → Memref sig .tc .vmem S1000x64 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S1000x64_S1000x64_0_0 : ∀ a, (![0, 0] : Fin 2 → Nat) a + S1000x64.size a ≤ S1000x64.size a
  h_S1000x64 : 0 < S1000x64.numel
  broadcasts_S1x64_S1000x64 : S1x64.Broadcasts S1000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S32_S1x32 : S32.ShapeCasts S1x32
  shapeCasts_S5000x64_S5000x64 : S5000x64.ShapeCasts S5000x64
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x64_0 : S100000.BroadcastsInDim S100000x64 (![0] : Fin 1 → Fin S100000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  shapeCasts_S1000x64_S1000x64 : S1000x64.ShapeCasts S1000x64
  broadcasts_S1x32_S1000x32 : S1x32.Broadcasts S1000x32
  dot_S5000x64_S64x64_S5000x64_1_0_0_1_n_n_wf : DotDims.WF S5000x64 S64x64 S5000x64 [1] [0] [0] [1] [] []
  dot_S1000x64_S64x64_S1000x64_1_0_0_1_n_n_wf : DotDims.WF S1000x64 S64x64 S1000x64 [1] [0] [0] [1] [] []
  gather_S100000x64_S800000x1_S800000x64_1_0_n_n_0_1_164_wf : GatherDims.WF S100000x64 S800000x1 S800000x64 [1] [0] [] [0] [] 1 ![1, 64]
  gather_S1000x64_S800000x1_S800000x64_1_0_n_n_0_1_164_wf : GatherDims.WF S1000x64 S800000x1 S800000x64 [1] [0] [] [0] [] 1 ![1, 64]
  dot_S5000x64_S64x32_S5000x32_1_0_0_1_n_n_wf : DotDims.WF S5000x64 S64x32 S5000x32 [1] [0] [0] [1] [] []
  dot_S5000x32_S32x64_S5000x64_1_0_0_1_n_n_wf : DotDims.WF S5000x32 S32x64 S5000x64 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  gather_S1000x64_S100000x1_S100000x64_1_0_n_n_0_1_164_wf : GatherDims.WF S1000x64 S100000x1 S100000x64 [1] [0] [] [0] [] 1 ![1, 64]
  scatter_S1000x64_S800000x1_S800000x64_1_0_0_1_wf : ScatterDims.WF S1000x64 S800000x1 S800000x64 [1] [0] [0] 1
  scatter_S1000_S800000x1_S800000_n_0_0_1_wf : ScatterDims.WF S1000 S800000x1 S800000 [] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x32_S1000x32_1_0_0_1_n_n_wf : DotDims.WF S1000x64 S64x32 S1000x32 [1] [0] [0] [1] [] []
  dot_S1000x32_S32x64_S1000x64_1_0_0_1_n_n_wf : DotDims.WF S1000x32 S32x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S800000x64.size a
  hwx1_0 : ∀ i : grid1.Coords, EltTy.bits .f32 = 32 ∨ (Rect.block (s := S800000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S800000x64.size a
  hwx1_5 : ∀ i : grid1.Coords, EltTy.bits .f32 = 32 ∨ (Rect.block (s := S800000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S1000x64.size a
  hwx2_0 : ∀ i : grid2.Coords, EltTy.bits .f32 = 32 ∨ (Rect.block (s := S1000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S1000x64.size a
  hwx2_5 : ∀ i : grid2.Coords, EltTy.bits .f32 = 32 ∨ (Rect.block (s := S1000x64) S1000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S800000x64.size a
  hwx3_0 : ∀ i : grid3.Coords, EltTy.bits .f32 = 32 ∨ (Rect.block (s := S800000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S800000x64.size a
  hwx3_1 : ∀ i : grid3.Coords, EltTy.bits .f32 = 32 ∨ (Rect.block (s := S800000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S800000x64.size a
  hwx3_2 : ∀ i : grid3.Coords, EltTy.bits .f32 = 32 ∨ (Rect.block (s := S800000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S800000x64.size a
  hwx3_3 : ∀ i : grid3.Coords, EltTy.bits .f32 = 32 ∨ (Rect.block (s := S800000x64) S5000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x32.size a ≤ S64x32.size a
  hwx3_9 : ∀ i : grid3.Coords, EltTy.bits .f32 = 32 ∨ (Rect.block (s := S64x32) S64x32.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x32.size a ≤ S1x32.size a
  hwx3_10 : ∀ i : grid3.Coords, EltTy.bits .f32 = 32 ∨ (Rect.block (s := S1x32) S1x32.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S32x64.size a ≤ S32x64.size a
  hwx3_11 : ∀ i : grid3.Coords, EltTy.bits .f32 = 32 ∨ (Rect.block (s := S32x64) S32x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x64.size a ≤ S1x64.size a
  hwx3_12 : ∀ i : grid3.Coords, EltTy.bits .f32 = 32 ∨ (Rect.block (s := S1x64) S1x64.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S5000x64.size a ≤ S800000x64.size a
  hwx3_13 : ∀ i : grid3.Coords, EltTy.bits .f32 = 32 ∨ (Rect.block (s := S800000x64) S5000x64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x64.size a ≤ S800000x64.size a
  hwx3_14 : ∀ i : grid3.Coords, EltTy.bits .f32 = 32 ∨ (Rect.block (s := S800000x64) S5000x64.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S5000x64.size a ≤ S800000x64.size a
  hwx3_15 : ∀ i : grid3.Coords, EltTy.bits .f32 = 32 ∨ (Rect.block (s := S800000x64) S5000x64.size (cc3_transform_15 i) (hinb3_15 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x32.size a ≤ S64x32.size a
  hwx4_7 : ∀ i : grid4.Coords, EltTy.bits .f32 = 32 ∨ (Rect.block (s := S64x32) S64x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x32.size a ≤ S1x32.size a
  hwx4_8 : ∀ i : grid4.Coords, EltTy.bits .f32 = 32 ∨ (Rect.block (s := S1x32) S1x32.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S32x64.size a ≤ S32x64.size a
  hwx4_9 : ∀ i : grid4.Coords, EltTy.bits .f32 = 32 ∨ (Rect.block (s := S32x64) S32x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x64.size a ≤ S100000x64.size a
  hwx4_11 : ∀ i : grid4.Coords, EltTy.bits .f32 = 32 ∨ (Rect.block (s := S100000x64) S5000x64.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S5000x64.size a ≤ S100000x64.size a
  hwx4_12 : ∀ i : grid4.Coords, EltTy.bits .f32 = 32 ∨ (Rect.block (s := S100000x64) S5000x64.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S5000x64.size a ≤ S100000x64.size a
  hwx4_13 : ∀ i : grid4.Coords, EltTy.bits .f32 = 32 ∨ (Rect.block (s := S100000x64) S5000x64.size (cc4_transform_13 i) (hinb4_13 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S1000x64.size a
  hwx5_0 : ∀ i : grid5.Coords, EltTy.bits .f32 = 32 ∨ (Rect.block (s := S1000x64) S1000x64.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S1000x64.size a
  hwx5_1 : ∀ i : grid5.Coords, EltTy.bits .f32 = 32 ∨ (Rect.block (s := S1000x64) S1000x64.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1000x64.size a ≤ S1000x64.size a
  hwx5_2 : ∀ i : grid5.Coords, EltTy.bits .f32 = 32 ∨ (Rect.block (s := S1000x64) S1000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x32.size a ≤ S64x32.size a
  hwx5_7 : ∀ i : grid5.Coords, EltTy.bits .f32 = 32 ∨ (Rect.block (s := S64x32) S64x32.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x32.size a ≤ S1x32.size a
  hwx5_8 : ∀ i : grid5.Coords, EltTy.bits .f32 = 32 ∨ (Rect.block (s := S1x32) S1x32.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S32x64.size a ≤ S32x64.size a
  hwx5_9 : ∀ i : grid5.Coords, EltTy.bits .f32 = 32 ∨ (Rect.block (s := S32x64) S32x64.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x64.size a ≤ S1x64.size a
  hwx5_10 : ∀ i : grid5.Coords, EltTy.bits .f32 = 32 ∨ (Rect.block (s := S1x64) S1x64.size (cc5_transform_10 i) (hinb5_10 i)).WholeWords (EltTy.packing .f32)
  hstage5_11 : ∀ j, (stage5_11 j).IsWhole
  nbuf5_11 : grid5.bufCount reads5_11 false = 1
  hreads5_11 : ∀ i i' : grid5.Coords, (∀ a, reads5_11 a = true → i a = i' a) → cc5_transform_11 i = cc5_transform_11 i'
  hinb5_11 : ∀ (i : grid5.Coords) a, (cc5_transform_11 i a + 1) * S1000x64.size a ≤ S1000x64.size a
  hwx5_11 : ∀ i : grid5.Coords, EltTy.bits .f32 = 32 ∨ (Rect.block (s := S1000x64) S1000x64.size (cc5_transform_11 i) (hinb5_11 i)).WholeWords (EltTy.packing .f32)
  hstage5_12 : ∀ j, (stage5_12 j).IsWhole
  nbuf5_12 : grid5.bufCount reads5_12 false = 1
  hreads5_12 : ∀ i i' : grid5.Coords, (∀ a, reads5_12 a = true → i a = i' a) → cc5_transform_12 i = cc5_transform_12 i'
  hinb5_12 : ∀ (i : grid5.Coords) a, (cc5_transform_12 i a + 1) * S1000x64.size a ≤ S1000x64.size a
  hwx5_12 : ∀ i : grid5.Coords, EltTy.bits .f32 = 32 ∨ (Rect.block (s := S1000x64) S1000x64.size (cc5_transform_12 i) (hinb5_12 i)).WholeWords (EltTy.packing .f32)
  hstage5_13 : ∀ j, (stage5_13 j).IsWhole
  nbuf5_13 : grid5.bufCount reads5_13 false = 1
  hreads5_13 : ∀ i i' : grid5.Coords, (∀ a, reads5_13 a = true → i a = i' a) → cc5_transform_13 i = cc5_transform_13 i'
  hinb5_13 : ∀ (i : grid5.Coords) a, (cc5_transform_13 i a + 1) * S1000x64.size a ≤ S1000x64.size a
  hwx5_13 : ∀ i : grid5.Coords, EltTy.bits .f32 = 32 ∨ (Rect.block (s := S1000x64) S1000x64.size (cc5_transform_13 i) (hinb5_13 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def gather_S1000x64_S800000x1_S800000x64_1_0_n_n_0_1_164 : GatherDims S1000x64 S800000x1 S800000x64 where
  offsetDims := [1]
  collapsedSliceDims := [0]
  operandBatchingDims := []
  startIndicesBatchingDims := []
  startIndexMap := [0]
  indexVectorDim := 1
  sliceSizes := ![1, 64]
  wf := gather_S1000x64_S800000x1_S800000x64_1_0_n_n_0_1_164_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def scatter_S1000x64_S800000x1_S800000x64_1_0_0_1 : ScatterDims S1000x64 S800000x1 S800000x64 where
  updateWindowDims := [1]
  insertedWindowDims := [0]
  scatterDimsToOperandDims := [0]
  indexVectorDim := 1
  wf := scatter_S1000x64_S800000x1_S800000x64_1_0_0_1_wf
def scatter_S1000_S800000x1_S800000_n_0_0_1 : ScatterDims S1000 S800000x1 S800000 where
  updateWindowDims := []
  insertedWindowDims := [0]
  scatterDimsToOperandDims := [0]
  indexVectorDim := 1
  wf := scatter_S1000_S800000x1_S800000_n_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S1000x64.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1000x64.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v9) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v14) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v15) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v16) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg17) S64x32.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v17) S1x32.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg19) S32x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v18) S1x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v5) S5000x64.size cc3_transform_13 reads3_13 false false 2 stage3_13 sem3_13
    hrank3 hreads3_13 hinb3_13 nbuf3_13 (Memref.isWhole_whole _) hwx3_13 hstage3_13

abbrev win3_14 : Pipeline.Window sig grid3 :=
  Pipeline.Window.ofSpec (Memref.whole main_v19_0) S5000x64.size cc3_transform_14 reads3_14 true false 2 stage3_14 sem3_14
    hrank3 hreads3_14 hinb3_14 nbuf3_14 (Memref.isWhole_whole _) hwx3_14 hstage3_14

abbrev win3_15 : Pipeline.Window sig grid3 :=
  Pipeline.Window.ofSpec (Memref.whole main_v19_1) S5000x64.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev win4_0 : Pipeline.Window sig grid4 :=
  Pipeline.Window.ofSpec (Memref.whole main_v31) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v33) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v35) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v36) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg23) S64x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v37) S1x32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg25) S32x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v38) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v2) S5000x64.size cc4_transform_11 reads4_11 false false 2 stage4_11 sem4_11
    hrank4 hreads4_11 hinb4_11 nbuf4_11 (Memref.isWhole_whole _) hwx4_11 hstage4_11

abbrev win4_12 : Pipeline.Window sig grid4 :=
  Pipeline.Window.ofSpec (Memref.whole main_v39_0) S5000x64.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v39_1) S5000x64.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev win5_0 : Pipeline.Window sig grid5 :=
  Pipeline.Window.ofSpec (Memref.whole main_v51) S1000x64.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v63) S1000x64.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v8) S1000x64.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v67) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg29) S64x32.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v68) S1x32.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg31) S32x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v69) S1x64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v8) S1000x64.size cc5_transform_11 reads5_11 false false 1 stage5_11 sem5_11
    hrank5 hreads5_11 hinb5_11 nbuf5_11 (Memref.isWhole_whole _) hwx5_11 hstage5_11

abbrev win5_12 : Pipeline.Window sig grid5 :=
  Pipeline.Window.ofSpec (Memref.whole main_v70_0) S1000x64.size cc5_transform_12 reads5_12 true false 1 stage5_12 sem5_12
    hrank5 hreads5_12 hinb5_12 nbuf5_12 (Memref.isWhole_whole _) hwx5_12 hstage5_12

abbrev win5_13 : Pipeline.Window sig grid5 :=
  Pipeline.Window.ofSpec (Memref.whole main_v70_1) S1000x64.size cc5_transform_13 reads5_13 true false 1 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

class Facts : Prop extends Facts₀ where

variable [Facts]
-- ==== ReferenceIdeal.lean ====
abbrev S100000x64 : Shape := ⟨2, ![100000, 64]⟩
abbrev S800000x64 : Shape := ⟨2, ![800000, 64]⟩
abbrev S1000x64 : Shape := ⟨2, ![1000, 64]⟩
abbrev S64x64 : Shape := ⟨2, ![64, 64]⟩
abbrev S64 : Shape := ⟨1, ![64]⟩
abbrev S256x64 : Shape := ⟨2, ![256, 64]⟩
abbrev S64x32 : Shape := ⟨2, ![64, 32]⟩
abbrev S32 : Shape := ⟨1, ![32]⟩
abbrev S32x64 : Shape := ⟨2, ![32, 64]⟩
abbrev S192x64 : Shape := ⟨2, ![192, 64]⟩
abbrev S800000 : Shape := ⟨1, ![800000]⟩
abbrev S100000 : Shape := ⟨1, ![100000]⟩
abbrev S1x64 : Shape := ⟨2, ![1, 64]⟩
abbrev S_ : Shape := ⟨0, ![]⟩
abbrev S800000x1 : Shape := ⟨2, ![800000, 1]⟩
abbrev S800000x256 : Shape := ⟨2, ![800000, 256]⟩
abbrev S800000x32 : Shape := ⟨2, ![800000, 32]⟩
abbrev S1x32 : Shape := ⟨2, ![1, 32]⟩
abbrev S100000x1 : Shape := ⟨2, ![100000, 1]⟩
abbrev S100000x192 : Shape := ⟨2, ![100000, 192]⟩
abbrev S100000x32 : Shape := ⟨2, ![100000, 32]⟩
abbrev S1000 : Shape := ⟨1, ![1000]⟩
abbrev S1000x1 : Shape := ⟨2, ![1000, 1]⟩
abbrev S1000x192 : Shape := ⟨2, ![1000, 192]⟩
abbrev S1000x32 : Shape := ⟨2, ![1000, 32]⟩

abbrev nBuf : Space → Nat
  | .hbm => 232
  | .vmem => 0
  | .smem => 0
  | _ => 0

abbrev hbmTy0_0 (i : Nat) : BufTy := match i % 128 with
  | 0 => ⟨S100000x64, .f32⟩
  | 1 => ⟨S800000x64, .f32⟩
  | 2 => ⟨S1000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S256x64, .f32⟩
  | 16 => ⟨S64, .f32⟩
  | 17 => ⟨S64x32, .f32⟩
  | 18 => ⟨S32, .f32⟩
  | 19 => ⟨S32x64, .f32⟩
  | 20 => ⟨S64, .f32⟩
  | 21 => ⟨S192x64, .f32⟩
  | 22 => ⟨S64, .f32⟩
  | 23 => ⟨S64x32, .f32⟩
  | 24 => ⟨S32, .f32⟩
  | 25 => ⟨S32x64, .f32⟩
  | 26 => ⟨S64, .f32⟩
  | 27 => ⟨S192x64, .f32⟩
  | 28 => ⟨S64, .f32⟩
  | 29 => ⟨S64x32, .f32⟩
  | 30 => ⟨S32, .f32⟩
  | 31 => ⟨S32x64, .f32⟩
  | 32 => ⟨S64, .f32⟩
  | 33 => ⟨S800000, .i32⟩
  | 34 => ⟨S800000, .i32⟩
  | 35 => ⟨S100000, .i32⟩
  | 36 => ⟨S800000, .i32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S800000x64, .f32⟩
  | 52 => ⟨S1x64, .f32⟩
  | 53 => ⟨S800000x64, .f32⟩
  | 54 => ⟨S800000x64, .f32⟩
  | 55 => ⟨S_, .f32⟩
  | 56 => ⟨S800000x64, .f32⟩
  | 57 => ⟨S800000x64, .f32⟩
  | 58 => ⟨S800000x64, .f32⟩
  | 59 => ⟨S1x64, .f32⟩
  | 60 => ⟨S800000x64, .f32⟩
  | 61 => ⟨S800000x64, .f32⟩
  | 62 => ⟨S_, .f32⟩
  | 63 => ⟨S800000x64, .f32⟩
  | 64 => ⟨S800000x64, .f32⟩
  | 65 => ⟨S1000x64, .f32⟩
  | 66 => ⟨S1x64, .f32⟩
  | 67 => ⟨S1000x64, .f32⟩
  | 68 => ⟨S1000x64, .f32⟩
  | 69 => ⟨S_, .f32⟩
  | 70 => ⟨S1000x64, .f32⟩
  | 71 => ⟨S1000x64, .f32⟩
  | 72 => ⟨S1000x64, .f32⟩
  | 73 => ⟨S1x64, .f32⟩
  | 74 => ⟨S1000x64, .f32⟩
  | 75 => ⟨S1000x64, .f32⟩
  | 76 => ⟨S_, .f32⟩
  | 77 => ⟨S1000x64, .f32⟩
  | 78 => ⟨S1000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x256, .f32⟩
  | 107 => ⟨S800000x64, .f32⟩
  | 108 => ⟨S1x64, .f32⟩
  | 109 => ⟨S800000x64, .f32⟩
  | 110 => ⟨S800000x64, .f32⟩
  | 111 => ⟨S_, .f32⟩
  | 112 => ⟨S800000x64, .f32⟩
  | 113 => ⟨S800000x64, .f32⟩
  | 114 => ⟨S800000x32, .f32⟩
  | 115 => ⟨S1x32, .f32⟩
  | 116 => ⟨S800000x32, .f32⟩
  | 117 => ⟨S800000x32, .f32⟩
  | 118 => ⟨S_, .f32⟩
  | 119 => ⟨S800000x32, .f32⟩
  | 120 => ⟨S800000x32, .f32⟩
  | 121 => ⟨S800000x64, .f32⟩
  | 122 => ⟨S1x64, .f32⟩
  | 123 => ⟨S800000x64, .f32⟩
  | 124 => ⟨S800000x64, .f32⟩
  | 125 => ⟨S_, .f32⟩
  | 126 => ⟨S800000x64, .f32⟩
  | 127 => ⟨S800000x64, .f32⟩
  | _ => ⟨S100000x64, .f32⟩

abbrev hbmTy0_1 (i : Nat) : BufTy := match i % 128 with
  | 0 => ⟨S_, .f32⟩
  | 1 => ⟨S100000x64, .f32⟩
  | 2 => ⟨S800000x1, .i32⟩
  | 3 => ⟨S100000x64, .f32⟩
  | 4 => ⟨S_, .f32⟩
  | 5 => ⟨S800000, .f32⟩
  | 6 => ⟨S_, .f32⟩
  | 7 => ⟨S100000, .f32⟩
  | 8 => ⟨S800000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x64, .f32⟩
  | 15 => ⟨S100000x64, .f32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x64, .f32⟩
  | 25 => ⟨S100000x192, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x32, .f32⟩
  | 34 => ⟨S1x32, .f32⟩
  | 35 => ⟨S100000x32, .f32⟩
  | 36 => ⟨S100000x32, .f32⟩
  | 37 => ⟨S_, .f32⟩
  | 38 => ⟨S100000x32, .f32⟩
  | 39 => ⟨S100000x32, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .f32⟩
  | 48 => ⟨S1000x64, .f32⟩
  | 49 => ⟨S800000x1, .i32⟩
  | 50 => ⟨S1000x64, .f32⟩
  | 51 => ⟨S_, .f32⟩
  | 52 => ⟨S800000, .f32⟩
  | 53 => ⟨S_, .f32⟩
  | 54 => ⟨S1000, .f32⟩
  | 55 => ⟨S800000x1, .i32⟩
  | 56 => ⟨S1000, .f32⟩
  | 57 => ⟨S_, .f32⟩
  | 58 => ⟨S1000, .f32⟩
  | 59 => ⟨S1000, .f32⟩
  | 60 => ⟨S1000x1, .f32⟩
  | 61 => ⟨S1000x64, .f32⟩
  | 62 => ⟨S1000x64, .f32⟩
  | 63 => ⟨S_, .f32⟩
  | 64 => ⟨S1000x64, .f32⟩
  | 65 => ⟨S100000x1, .i32⟩
  | 66 => ⟨S1000x64, .f32⟩
  | 67 => ⟨S_, .f32⟩
  | 68 => ⟨S100000, .f32⟩
  | 69 => ⟨S_, .f32⟩
  | 70 => ⟨S1000, .f32⟩
  | 71 => ⟨S100000x1, .i32⟩
  | 72 => ⟨S1000, .f32⟩
  | 73 => ⟨S_, .f32⟩
  | 74 => ⟨S1000, .f32⟩
  | 75 => ⟨S1000, .f32⟩
  | 76 => ⟨S1000x1, .f32⟩
  | 77 => ⟨S1000x64, .f32⟩
  | 78 => ⟨S1000x64, .f32⟩
  | 79 => ⟨S1000x192, .f32⟩
  | 80 => ⟨S1000x64, .f32⟩
  | 81 => ⟨S1x64, .f32⟩
  | 82 => ⟨S1000x64, .f32⟩
  | 83 => ⟨S1000x64, .f32⟩
  | 84 => ⟨S_, .f32⟩
  | 85 => ⟨S1000x64, .f32⟩
  | 86 => ⟨S1000x64, .f32⟩
  | 87 => ⟨S1000x32, .f32⟩
  | 88 => ⟨S1x32, .f32⟩
  | 89 => ⟨S1000x32, .f32⟩
  | 90 => ⟨S1000x32, .f32⟩
  | 91 => ⟨S_, .f32⟩
  | 92 => ⟨S1000x32, .f32⟩
  | 93 => ⟨S1000x32, .f32⟩
  | 94 => ⟨S1000x64, .f32⟩
  | 95 => ⟨S1x64, .f32⟩
  | 96 => ⟨S1000x64, .f32⟩
  | 97 => ⟨S1000x64, .f32⟩
  | 98 => ⟨S_, .f32⟩
  | 99 => ⟨S1000x64, .f32⟩
  | 100 => ⟨S1000x64, .f32⟩
  | 101 => ⟨S100000x64, .f32⟩
  | 102 => ⟨S800000x64, .f32⟩
  | 103 => ⟨S1000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_call0_cst : Ref sig .tc := ⟨.hbm, 41, rfl⟩
abbrev main_call0_v0 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_call1_cst : Ref sig .tc := ⟨.hbm, 48, rfl⟩
abbrev main_call1_v0 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call2_cst : Ref sig .tc := ⟨.hbm, 55, rfl⟩
abbrev main_call2_v0 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_call3_cst : Ref sig .tc := ⟨.hbm, 62, rfl⟩
abbrev main_call3_v0 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_call4_cst : Ref sig .tc := ⟨.hbm, 69, rfl⟩
abbrev main_call4_v0 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_call5_cst : Ref sig .tc := ⟨.hbm, 76, rfl⟩
abbrev main_call5_v0 : Ref sig .tc := ⟨.hbm, 77, rfl⟩
abbrev main_v29 : Ref sig .tc := ⟨.hbm, 78, rfl⟩
abbrev main_c : Ref sig .tc := ⟨.hbm, 79, rfl⟩
abbrev main_v30 : Ref sig .tc := ⟨.hbm, 80, rfl⟩
abbrev main_v31 : Ref sig .tc := ⟨.hbm, 81, rfl⟩
abbrev main_c_0 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_1 : Ref sig .tc := ⟨.hbm, 88, rfl⟩
abbrev main_v37 : Ref sig .tc := ⟨.hbm, 89, rfl⟩
abbrev main_v38 : Ref sig .tc := ⟨.hbm, 90, rfl⟩
abbrev main_c_2 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_c_3 : Ref sig .tc := ⟨.hbm, 97, rfl⟩
abbrev main_v44 : Ref sig .tc := ⟨.hbm, 98, rfl⟩
abbrev main_v45 : Ref sig .tc := ⟨.hbm, 99, rfl⟩
abbrev main_c_4 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_call6_cst : Ref sig .tc := ⟨.hbm, 111, rfl⟩
abbrev main_call6_v0 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_call7_cst : Ref sig .tc := ⟨.hbm, 118, rfl⟩
abbrev main_call7_v0 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_call8_cst : Ref sig .tc := ⟨.hbm, 125, rfl⟩
abbrev main_call8_v0 : Ref sig .tc := ⟨.hbm, 126, rfl⟩
abbrev main_v66 : Ref sig .tc := ⟨.hbm, 127, rfl⟩
abbrev main_cst : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_5 : Ref sig .tc := ⟨.hbm, 132, rfl⟩
abbrev main_v70 : Ref sig .tc := ⟨.hbm, 133, rfl⟩
abbrev main_cst_6 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_cst_7 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_c_8 : Ref sig .tc := ⟨.hbm, 144, rfl⟩
abbrev main_v79 : Ref sig .tc := ⟨.hbm, 145, rfl⟩
abbrev main_v80 : Ref sig .tc := ⟨.hbm, 146, rfl⟩
abbrev main_c_9 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_call9_cst : Ref sig .tc := ⟨.hbm, 158, rfl⟩
abbrev main_call9_v0 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_call10_cst : Ref sig .tc := ⟨.hbm, 165, rfl⟩
abbrev main_call10_v0 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_call11_cst : Ref sig .tc := ⟨.hbm, 172, rfl⟩
abbrev main_call11_v0 : Ref sig .tc := ⟨.hbm, 173, rfl⟩
abbrev main_v101 : Ref sig .tc := ⟨.hbm, 174, rfl⟩
abbrev main_cst_10 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_cst_11 : Ref sig .tc := ⟨.hbm, 179, rfl⟩
abbrev main_v105 : Ref sig .tc := ⟨.hbm, 180, rfl⟩
abbrev main_cst_12 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_cst_13 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_cst_14 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_cst_15 : Ref sig .tc := ⟨.hbm, 195, rfl⟩
abbrev main_v117 : Ref sig .tc := ⟨.hbm, 196, rfl⟩
abbrev main_cst_16 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_17 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_call12_cst : Ref sig .tc := ⟨.hbm, 212, rfl⟩
abbrev main_call12_v0 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_call13_cst : Ref sig .tc := ⟨.hbm, 219, rfl⟩
abbrev main_call13_v0 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_call14_cst : Ref sig .tc := ⟨.hbm, 226, rfl⟩
abbrev main_call14_v0 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1x64_S1000x64_0_1 : S1x64.BroadcastsInDim S1000x64 (![0, 1] : Fin 2 → Fin S1000x64.rank)
  bcast_S_S1000x64 : S_.BroadcastsInDim S1000x64 (![] : Fin 0 → Fin S1000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x64_S800000x256_d1 : Shape.Concatenates [S800000x64, S800000x64, S800000x64, S800000x64] S800000x256 1
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  concatenates_S1000x64_S1000x64_S1000x64_S1000x192_d1 : Shape.Concatenates [S1000x64, S1000x64, S1000x64] S1000x192 1
  bcast_S1x32_S1000x32_0_1 : S1x32.BroadcastsInDim S1000x32 (![0, 1] : Fin 2 → Fin S1000x32.rank)
  bcast_S_S1000x32 : S_.BroadcastsInDim S1000x32 (![] : Fin 0 → Fin S1000x32.rank)
  dot_S100000x64_S64x64_S100000x64_1_0_0_1_n_n_wf : DotDims.WF S100000x64 S64x64 S100000x64 [1] [0] [0] [1] [] []
  dot_S800000x64_S64x64_S800000x64_1_0_0_1_n_n_wf : DotDims.WF S800000x64 S64x64 S800000x64 [1] [0] [0] [1] [] []
  dot_S1000x64_S64x64_S1000x64_1_0_0_1_n_n_wf : DotDims.WF S1000x64 S64x64 S1000x64 [1] [0] [0] [1] [] []
  gather_S100000x64_S800000x1_S800000x64_1_0_n_n_0_1_164_wf : GatherDims.WF S100000x64 S800000x1 S800000x64 [1] [0] [] [0] [] 1 ![1, 64]
  gather_S1000x64_S800000x1_S800000x64_1_0_n_n_0_1_164_wf : GatherDims.WF S1000x64 S800000x1 S800000x64 [1] [0] [] [0] [] 1 ![1, 64]
  dot_S800000x256_S256x64_S800000x64_1_0_0_1_n_n_wf : DotDims.WF S800000x256 S256x64 S800000x64 [1] [0] [0] [1] [] []
  dot_S800000x64_S64x32_S800000x32_1_0_0_1_n_n_wf : DotDims.WF S800000x64 S64x32 S800000x32 [1] [0] [0] [1] [] []
  dot_S800000x32_S32x64_S800000x64_1_0_0_1_n_n_wf : DotDims.WF S800000x32 S32x64 S800000x64 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  gather_S1000x64_S100000x1_S100000x64_1_0_n_n_0_1_164_wf : GatherDims.WF S1000x64 S100000x1 S100000x64 [1] [0] [] [0] [] 1 ![1, 64]
  dot_S100000x192_S192x64_S100000x64_1_0_0_1_n_n_wf : DotDims.WF S100000x192 S192x64 S100000x64 [1] [0] [0] [1] [] []
  dot_S100000x64_S64x32_S100000x32_1_0_0_1_n_n_wf : DotDims.WF S100000x64 S64x32 S100000x32 [1] [0] [0] [1] [] []
  dot_S100000x32_S32x64_S100000x64_1_0_0_1_n_n_wf : DotDims.WF S100000x32 S32x64 S100000x64 [1] [0] [0] [1] [] []
  scatter_S1000x64_S800000x1_S800000x64_1_0_0_1_wf : ScatterDims.WF S1000x64 S800000x1 S800000x64 [1] [0] [0] 1
  scatter_S1000_S800000x1_S800000_n_0_0_1_wf : ScatterDims.WF S1000 S800000x1 S800000 [] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x192_S192x64_S1000x64_1_0_0_1_n_n_wf : DotDims.WF S1000x192 S192x64 S1000x64 [1] [0] [0] [1] [] []
  dot_S1000x64_S64x32_S1000x32_1_0_0_1_n_n_wf : DotDims.WF S1000x64 S64x32 S1000x32 [1] [0] [0] [1] [] []
  dot_S1000x32_S32x64_S1000x64_1_0_0_1_n_n_wf : DotDims.WF S1000x32 S32x64 S1000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def gather_S1000x64_S800000x1_S800000x64_1_0_n_n_0_1_164 : GatherDims S1000x64 S800000x1 S800000x64 where
  offsetDims := [1]
  collapsedSliceDims := [0]
  operandBatchingDims := []
  startIndicesBatchingDims := []
  startIndexMap := [0]
  indexVectorDim := 1
  sliceSizes := ![1, 64]
  wf := gather_S1000x64_S800000x1_S800000x64_1_0_n_n_0_1_164_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S1000x64_S800000x1_S800000x64_1_0_0_1 : ScatterDims S1000x64 S800000x1 S800000x64 where
  updateWindowDims := [1]
  insertedWindowDims := [0]
  scatterDimsToOperandDims := [0]
  indexVectorDim := 1
  wf := scatter_S1000x64_S800000x1_S800000x64_1_0_0_1_wf
def scatter_S1000_S800000x1_S800000_n_0_0_1 : ScatterDims S1000 S800000x1 S800000 where
  updateWindowDims := []
  insertedWindowDims := [0]
  scatterDimsToOperandDims := [0]
  indexVectorDim := 1
  wf := scatter_S1000_S800000x1_S800000_n_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x192_S192x64_S1000x64_1_0_0_1_n_n : DotDims S1000x192 S192x64 S1000x64 where
  lhsContracting := [1]
  rhsContracting := [0]
  lhsNonContracting := [0]
  rhsNonContracting := [1]
  lhsBatch := []
  rhsBatch := []
  wf := dot_S1000x192_S192x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf

class Facts : Prop extends Facts₀ where

variable [Facts]
-- ==== Proof.RefRun.lean ====
/-
  The reference program's run, read back stage by stage.

  @main is a straight line of host operations. It is cut here into fourteen stretches at the block's stage boundaries:
  the three two-layer blocks, the three row gathers, the bond update, a pooled mean and a gather, the site update, two
  pooled means, the state update, and the three residual sums. From any contents that hold the stages a stretch reads,
  the stretch leaves its last buffer at that buffer's stage; a buffer a stretch does not write is carried across it, and
  no operation writes an argument. Folded from the launch memory this gives, on every core, each result array at its
  stage of the launch memory's arguments and the arguments unchanged.
-/
import proofs.«424920_j53549652246920_2_alg».proof.Proof.Gen.ReferenceIdeal
import proofs.«424920_j53549652246920_2_alg».proof.Proof.RefRead
import Idealize.ShloMosaic.Lib.StableHlo.Run
import Idealize.ShloMosaic.Lib.Pipeline.Frame

noncomputable section

namespace Cert.ReferenceIdeal.HandRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- An operation's one written reference lies in a list of references. -/
macro "writes_mem" : tactic => `(tactic| (simp only [nullary_writes, unary_writes, binary_writes, ternary_writes, quaternary_writes, reshape_writes,
  binaryIndexed_writes, unaryIndexed_writes, nary_writes, Finset.singleton_subset_iff, List.mem_toFinset]; exact List.mem_map_of_mem (by decide)))

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36]

/-! ## Typed references: contents carried to a typed reference's buffer and back -/

theorem ofBuf_toBuf {Val : EltTy → Type} {T : BufTy} (x : TRef sig T) (v : T.Contents Val) : x.ofBuf (x.toBuf v) = v := by
  obtain ⟨r, h, a, b⟩ := x
  subst h
  rfl
theorem cast_main_call0_cst_in (v : (⟨S_, .f32⟩ : BufTy).Contents (Elt F)) : (TRef.of (T := ⟨S_, .f32⟩) main_call0_cst).ofBuf (Val := Elt F) v = v := rfl
theorem cast_main_call0_cst_out (v : (⟨S_, .f32⟩ : BufTy).Contents (Elt F)) : (TRef.of (T := ⟨S_, .f32⟩) main_call0_cst).toBuf (Val := Elt F) v = v := rfl
theorem cast_main_call0_v0_in (v : (⟨S100000x64, .f32⟩ : BufTy).Contents (Elt F)) : (TRef.of (T := ⟨S100000x64, .f32⟩) main_call0_v0).ofBuf (Val := Elt F) v = v := rfl
theorem cast_main_call0_v0_out (v : (⟨S100000x64, .f32⟩ : BufTy).Contents (Elt F)) : (TRef.of (T := ⟨S100000x64, .f32⟩) main_call0_v0).toBuf (Val := Elt F) v = v := rfl
theorem cast_main_v3_in (v : (⟨S100000x64, .f32⟩ : BufTy).Contents (Elt F)) : (TRef.of (T := ⟨S100000x64, .f32⟩) main_v3).ofBuf (Val := Elt F) v = v := rfl
theorem cast_main_v3_out (v : (⟨S100000x64, .f32⟩ : BufTy).Contents (Elt F)) : (TRef.of (T := ⟨S100000x64, .f32⟩) main_v3).toBuf (Val := Elt F) v = v := rfl
theorem cast_main_v4_in (v : (⟨S100000x64, .f32⟩ : BufTy).Contents (Elt F)) : (TRef.of (T := ⟨S100000x64, .f32⟩) main_v4).ofBuf (Val := Elt F) v = v := rfl
theorem cast_main_v4_out (v : (⟨S100000x64, .f32⟩ : BufTy).Contents (Elt F)) : (TRef.of (T := ⟨S100000x64, .f32⟩) main_v4).toBuf (Val := Elt F) v = v := rfl
theorem cast_main_call1_cst_in (v : (⟨S_, .f32⟩ : BufTy).Contents (Elt F)) : (TRef.of (T := ⟨S_, .f32⟩) main_call1_cst).ofBuf (Val := Elt F) v = v := rfl
theorem cast_main_call1_cst_out (v : (⟨S_, .f32⟩ : BufTy).Contents (Elt F)) : (TRef.of (T := ⟨S_, .f32⟩) main_call1_cst).toBuf (Val := Elt F) v = v := rfl
theorem cast_main_call1_v0_in (v : (⟨S100000x64, .f32⟩ : BufTy).Contents (Elt F)) : (TRef.of (T := ⟨S100000x64, .f32⟩) main_call1_v0).ofBuf (Val := Elt F) v = v := rfl
theorem cast_main_call1_v0_out (v : (⟨S100000x64, .f32⟩ : BufTy).Contents (Elt F)) : (TRef.of (T := ⟨S100000x64, .f32⟩) main_call1_v0).toBuf (Val := Elt F) v = v := rfl
theorem cast_main_v8_in (v : (⟨S100000x64, .f32⟩ : BufTy).Contents (Elt F)) : (TRef.of (T := ⟨S100000x64, .f32⟩) main_v8).ofBuf (Val := Elt F) v = v := rfl
theorem cast_main_v8_out (v : (⟨S100000x64, .f32⟩ : BufTy).Contents (Elt F)) : (TRef.of (T := ⟨S100000x64, .f32⟩) main_v8).toBuf (Val := Elt F) v = v := rfl
theorem cast_main_v9_in (v : (⟨S100000x64, .f32⟩ : BufTy).Contents (Elt F)) : (TRef.of (T := ⟨S100000x64, .f32⟩) main_v9).ofBuf (Val := Elt F) v = v := rfl
theorem cast_main_v9_out (v : (⟨S100000x64, .f32⟩ : BufTy).Contents (Elt F)) : (TRef.of (T := ⟨S100000x64, .f32⟩) main_v9).toBuf (Val := Elt F) v = v := rfl
theorem cast_main_call2_cst_in (v : (⟨S_, .f32⟩ : BufTy).Contents (Elt F)) : (TRef.of (T := ⟨S_, .f32⟩) main_call2_cst).ofBuf (Val := Elt F) v = v := rfl
theorem cast_main_call2_cst_out (v : (⟨S_, .f32⟩ : BufTy).Contents (Elt F)) : (TRef.of (T := ⟨S_, .f32⟩) main_call2_cst).toBuf (Val := Elt F) v = v := rfl
theorem cast_main_call2_v0_in (v : (⟨S800000x64, .f32⟩ : BufTy).Contents (Elt F)) : (TRef.of (T := ⟨S800000x64, .f32⟩) main_call2_v0).ofBuf (Val := Elt F) v = v := rfl
theorem cast_main_call2_v0_out (v : (⟨S800000x64, .f32⟩ : BufTy).Contents (Elt F)) : (TRef.of (T := ⟨S800000x64, .f32⟩) main_call2_v0).toBuf (Val := Elt F) v = v := rfl
theorem cast_main_v13_in (v : (⟨S800000x64, .f32⟩ : BufTy).Contents (Elt F)) : (TRef.of (T := ⟨S800000x64, .f32⟩) main_v13).ofBuf (Val := Elt F) v = v := rfl
theorem cast_main_v13_out (v : (⟨S800000x64, .f32⟩ : BufTy).Contents (Elt F)) : (TRef.of (T := ⟨S800000x64, .f32⟩) main_v13).toBuf (Val := Elt F) v = v := rfl
theorem cast_main_v14_in (v : (⟨S800000x64, .f32⟩ : BufTy).Contents (Elt F)) : (TRef.of (T := ⟨S800000x64, .f32⟩) main_v14).ofBuf (Val := Elt F) v = v := rfl
theorem cast_main_v14_out (v : (⟨S800000x64, .f32⟩ : BufTy).Contents (Elt F)) : (TRef.of (T := ⟨S800000x64, .f32⟩) main_v14).toBuf (Val := Elt F) v = v := rfl
theorem cast_main_call3_cst_in (v : (⟨S_, .f32⟩ : BufTy).Contents (Elt F)) : (TRef.of (T := ⟨S_, .f32⟩) main_call3_cst).ofBuf (Val := Elt F) v = v := rfl
theorem cast_main_call3_cst_out (v : (⟨S_, .f32⟩ : BufTy).Contents (Elt F)) : (TRef.of (T := ⟨S_, .f32⟩) main_call3_cst).toBuf (Val := Elt F) v = v := rfl
theorem cast_main_call3_v0_in (v : (⟨S800000x64, .f32⟩ : BufTy).Contents (Elt F)) : (TRef.of (T := ⟨S800000x64, .f32⟩) main_call3_v0).ofBuf (Val := Elt F) v = v := rfl
theorem cast_main_call3_v0_out (v : (⟨S800000x64, .f32⟩ : BufTy).Contents (Elt F)) : (TRef.of (T := ⟨S800000x64, .f32⟩) main_call3_v0).toBuf (Val := Elt F) v = v := rfl
theorem cast_main_v18_in (v : (⟨S800000x64, .f32⟩ : BufTy).Contents (Elt F)) : (TRef.of (T := ⟨S800000x64, .f32⟩) main_v18).ofBuf (Val := Elt F) v = v := rfl
theorem cast_main_v18_out (v : (⟨S800000x64, .f32⟩ : BufTy).Contents (Elt F)) : (TRef.of (T := ⟨S800000x64, .f32⟩) main_v18).toBuf (Val := Elt F) v = v := rfl
theorem cast_main_v19_in (v : (⟨S800000x64, .f32⟩ : BufTy).Contents (Elt F)) : (TRef.of (T := ⟨S800000x64, .f32⟩) main_v19).ofBuf (Val := Elt F) v = v := rfl
theorem cast_main_v19_out (v : (⟨S800000x64, .f32⟩ : BufTy).Contents (Elt F)) : (TRef.of (T := ⟨S800000x64, .f32⟩) main_v19).toBuf (Val := Elt F) v = v := rfl
theorem cast_main_call4_cst_in (v : (⟨S_, .f32⟩ : BufTy).Contents (Elt F)) : (TRef.of (T := ⟨S_, .f32⟩) main_call4_cst).ofBuf (Val := Elt F) v = v := rfl
theorem cast_main_call4_cst_out (v : (⟨S_, .f32⟩ : BufTy).Contents (Elt F)) : (TRef.of (T := ⟨S_, .f32⟩) main_call4_cst).toBuf (Val := Elt F) v = v := rfl
theorem cast_main_call4_v0_in (v : (⟨S1000x64, .f32⟩ : BufTy).Contents (Elt F)) : (TRef.of (T := ⟨S1000x64, .f32⟩) main_call4_v0).ofBuf (Val := Elt F) v = v := rfl
theorem cast_main_call4_v0_out (v : (⟨S1000x64, .f32⟩ : BufTy).Contents (Elt F)) : (TRef.of (T := ⟨S1000x64, .f32⟩) main_call4_v0).toBuf (Val := Elt F) v = v := rfl
theorem cast_main_v23_in (v : (⟨S1000x64, .f32⟩ : BufTy).Contents (Elt F)) : (TRef.of (T := ⟨S1000x64, .f32⟩) main_v23).ofBuf (Val := Elt F) v = v := rfl
theorem cast_main_v23_out (v : (⟨S1000x64, .f32⟩ : BufTy).Contents (Elt F)) : (TRef.of (T := ⟨S1000x64, .f32⟩) main_v23).toBuf (Val := Elt F) v = v := rfl
theorem cast_main_v24_in (v : (⟨S1000x64, .f32⟩ : BufTy).Contents (Elt F)) : (TRef.of (T := ⟨S1000x64, .f32⟩) main_v24).ofBuf (Val := Elt F) v = v := rfl
theorem cast_main_v24_out (v : (⟨S1000x64, .f32⟩ : BufTy).Contents (Elt F)) : (TRef.of (T := ⟨S1000x64, .f32⟩) main_v24).toBuf (Val := Elt F) v = v := rfl
theorem cast_main_call5_cst_in (v : (⟨S_, .f32⟩ : BufTy).Contents (Elt F)) : (TRef.of (T := ⟨S_, .f32⟩) main_call5_cst).ofBuf (Val := Elt F) v = v := rfl
theorem cast_main_call5_cst_out (v : (⟨S_, .f32⟩ : BufTy).Contents (Elt F)) : (TRef.of (T := ⟨S_, .f32⟩) main_call5_cst).toBuf (Val := Elt F) v = v := rfl
theorem cast_main_call5_v0_in (v : (⟨S1000x64, .f32⟩ : BufTy).Contents (Elt F)) : (TRef.of (T := ⟨S1000x64, .f32⟩) main_call5_v0).ofBuf (Val := Elt F) v = v := rfl
theorem cast_main_call5_v0_out (v : (⟨S1000x64, .f32⟩ : BufTy).Contents (Elt F)) : (TRef.of (T := ⟨S1000x64, .f32⟩) main_call5_v0).toBuf (Val := Elt F) v = v := rfl
theorem cast_main_v28_in (v : (⟨S1000x64, .f32⟩ : BufTy).Contents (Elt F)) : (TRef.of (T := ⟨S1000x64, .f32⟩) main_v28).ofBuf (Val := Elt F) v = v := rfl
theorem cast_main_v28_out (v : (⟨S1000x64, .f32⟩ : BufTy).Contents (Elt F)) : (TRef.of (T := ⟨S1000x64, .f32⟩) main_v28).toBuf (Val := Elt F) v = v := rfl
theorem cast_main_v29_in (v : (⟨S1000x64, .f32⟩ : BufTy).Contents (Elt F)) : (TRef.of (T := ⟨S1000x64, .f32⟩) main_v29).ofBuf (Val := Elt F) v = v := rfl
theorem cast_main_v29_out (v : (⟨S1000x64, .f32⟩ : BufTy).Contents (Elt F)) : (TRef.of (T := ⟨S1000x64, .f32⟩) main_v29).toBuf (Val := Elt F) v = v := rfl
theorem cast_main_call6_cst_in (v : (⟨S_, .f32⟩ : BufTy).Contents (Elt F)) : (TRef.of (T := ⟨S_, .f32⟩) main_call6_cst).ofBuf (Val := Elt F) v = v := rfl
theorem cast_main_call6_cst_out (v : (⟨S_, .f32⟩ : BufTy).Contents (Elt F)) : (TRef.of (T := ⟨S_, .f32⟩) main_call6_cst).toBuf (Val := Elt F) v = v := rfl
theorem cast_main_call6_v0_in (v : (⟨S800000x64, .f32⟩ : BufTy).Contents (Elt F)) : (TRef.of (T := ⟨S800000x64, .f32⟩) main_call6_v0).ofBuf (Val := Elt F) v = v := rfl
theorem cast_main_call6_v0_out (v : (⟨S800000x64, .f32⟩ : BufTy).Contents (Elt F)) : (TRef.of (T := ⟨S800000x64, .f32⟩) main_call6_v0).toBuf (Val := Elt F) v = v := rfl
theorem cast_main_v55_in (v : (⟨S800000x64, .f32⟩ : BufTy).Contents (Elt F)) : (TRef.of (T := ⟨S800000x64, .f32⟩) main_v55).ofBuf (Val := Elt F) v = v := rfl
theorem cast_main_v55_out (v : (⟨S800000x64, .f32⟩ : BufTy).Contents (Elt F)) : (TRef.of (T := ⟨S800000x64, .f32⟩) main_v55).toBuf (Val := Elt F) v = v := rfl
theorem cast_main_v56_in (v : (⟨S800000x64, .f32⟩ : BufTy).Contents (Elt F)) : (TRef.of (T := ⟨S800000x64, .f32⟩) main_v56).ofBuf (Val := Elt F) v = v := rfl
theorem cast_main_v56_out (v : (⟨S800000x64, .f32⟩ : BufTy).Contents (Elt F)) : (TRef.of (T := ⟨S800000x64, .f32⟩) main_v56).toBuf (Val := Elt F) v = v := rfl
theorem cast_main_call7_cst_in (v : (⟨S_, .f32⟩ : BufTy).Contents (Elt F)) : (TRef.of (T := ⟨S_, .f32⟩) main_call7_cst).ofBuf (Val := Elt F) v = v := rfl
theorem cast_main_call7_cst_out (v : (⟨S_, .f32⟩ : BufTy).Contents (Elt F)) : (TRef.of (T := ⟨S_, .f32⟩) main_call7_cst).toBuf (Val := Elt F) v = v := rfl
theorem cast_main_call7_v0_in (v : (⟨S800000x32, .f32⟩ : BufTy).Contents (Elt F)) : (TRef.of (T := ⟨S800000x32, .f32⟩) main_call7_v0).ofBuf (Val := Elt F) v = v := rfl
theorem cast_main_call7_v0_out (v : (⟨S800000x32, .f32⟩ : BufTy).Contents (Elt F)) : (TRef.of (T := ⟨S800000x32, .f32⟩) main_call7_v0).toBuf (Val := Elt F) v = v := rfl
theorem cast_main_v60_in (v : (⟨S800000x32, .f32⟩ : BufTy).Contents (Elt F)) : (TRef.of (T := ⟨S800000x32, .f32⟩) main_v60).ofBuf (Val := Elt F) v = v := rfl
theorem cast_main_v60_out (v : (⟨S800000x32, .f32⟩ : BufTy).Contents (Elt F)) : (TRef.of (T := ⟨S800000x32, .f32⟩) main_v60).toBuf (Val := Elt F) v = v := rfl
theorem cast_main_v61_in (v : (⟨S800000x32, .f32⟩ : BufTy).Contents (Elt F)) : (TRef.of (T := ⟨S800000x32, .f32⟩) main_v61).ofBuf (Val := Elt F) v = v := rfl
theorem cast_main_v61_out (v : (⟨S800000x32, .f32⟩ : BufTy).Contents (Elt F)) : (TRef.of (T := ⟨S800000x32, .f32⟩) main_v61).toBuf (Val := Elt F) v = v := rfl
theorem cast_main_call8_cst_in (v : (⟨S_, .f32⟩ : BufTy).Contents (Elt F)) : (TRef.of (T := ⟨S_, .f32⟩) main_call8_cst).ofBuf (Val := Elt F) v = v := rfl
theorem cast_main_call8_cst_out (v : (⟨S_, .f32⟩ : BufTy).Contents (Elt F)) : (TRef.of (T := ⟨S_, .f32⟩) main_call8_cst).toBuf (Val := Elt F) v = v := rfl
theorem cast_main_call8_v0_in (v : (⟨S800000x64, .f32⟩ : BufTy).Contents (Elt F)) : (TRef.of (T := ⟨S800000x64, .f32⟩) main_call8_v0).ofBuf (Val := Elt F) v = v := rfl
theorem cast_main_call8_v0_out (v : (⟨S800000x64, .f32⟩ : BufTy).Contents (Elt F)) : (TRef.of (T := ⟨S800000x64, .f32⟩) main_call8_v0).toBuf (Val := Elt F) v = v := rfl
theorem cast_main_v65_in (v : (⟨S800000x64, .f32⟩ : BufTy).Contents (Elt F)) : (TRef.of (T := ⟨S800000x64, .f32⟩) main_v65).ofBuf (Val := Elt F) v = v := rfl
theorem cast_main_v65_out (v : (⟨S800000x64, .f32⟩ : BufTy).Contents (Elt F)) : (TRef.of (T := ⟨S800000x64, .f32⟩) main_v65).toBuf (Val := Elt F) v = v := rfl
theorem cast_main_v66_in (v : (⟨S800000x64, .f32⟩ : BufTy).Contents (Elt F)) : (TRef.of (T := ⟨S800000x64, .f32⟩) main_v66).ofBuf (Val := Elt F) v = v := rfl
theorem cast_main_v66_out (v : (⟨S800000x64, .f32⟩ : BufTy).Contents (Elt F)) : (TRef.of (T := ⟨S800000x64, .f32⟩) main_v66).toBuf (Val := Elt F) v = v := rfl
theorem cast_main_call9_cst_in (v : (⟨S_, .f32⟩ : BufTy).Contents (Elt F)) : (TRef.of (T := ⟨S_, .f32⟩) main_call9_cst).ofBuf (Val := Elt F) v = v := rfl
theorem cast_main_call9_cst_out (v : (⟨S_, .f32⟩ : BufTy).Contents (Elt F)) : (TRef.of (T := ⟨S_, .f32⟩) main_call9_cst).toBuf (Val := Elt F) v = v := rfl
theorem cast_main_call9_v0_in (v : (⟨S100000x64, .f32⟩ : BufTy).Contents (Elt F)) : (TRef.of (T := ⟨S100000x64, .f32⟩) main_call9_v0).ofBuf (Val := Elt F) v = v := rfl
theorem cast_main_call9_v0_out (v : (⟨S100000x64, .f32⟩ : BufTy).Contents (Elt F)) : (TRef.of (T := ⟨S100000x64, .f32⟩) main_call9_v0).toBuf (Val := Elt F) v = v := rfl
theorem cast_main_v90_in (v : (⟨S100000x64, .f32⟩ : BufTy).Contents (Elt F)) : (TRef.of (T := ⟨S100000x64, .f32⟩) main_v90).ofBuf (Val := Elt F) v = v := rfl
theorem cast_main_v90_out (v : (⟨S100000x64, .f32⟩ : BufTy).Contents (Elt F)) : (TRef.of (T := ⟨S100000x64, .f32⟩) main_v90).toBuf (Val := Elt F) v = v := rfl
theorem cast_main_v91_in (v : (⟨S100000x64, .f32⟩ : BufTy).Contents (Elt F)) : (TRef.of (T := ⟨S100000x64, .f32⟩) main_v91).ofBuf (Val := Elt F) v = v := rfl
theorem cast_main_v91_out (v : (⟨S100000x64, .f32⟩ : BufTy).Contents (Elt F)) : (TRef.of (T := ⟨S100000x64, .f32⟩) main_v91).toBuf (Val := Elt F) v = v := rfl
theorem cast_main_call10_cst_in (v : (⟨S_, .f32⟩ : BufTy).Contents (Elt F)) : (TRef.of (T := ⟨S_, .f32⟩) main_call10_cst).ofBuf (Val := Elt F) v = v := rfl
theorem cast_main_call10_cst_out (v : (⟨S_, .f32⟩ : BufTy).Contents (Elt F)) : (TRef.of (T := ⟨S_, .f32⟩) main_call10_cst).toBuf (Val := Elt F) v = v := rfl
theorem cast_main_call10_v0_in (v : (⟨S100000x32, .f32⟩ : BufTy).Contents (Elt F)) : (TRef.of (T := ⟨S100000x32, .f32⟩) main_call10_v0).ofBuf (Val := Elt F) v = v := rfl
theorem cast_main_call10_v0_out (v : (⟨S100000x32, .f32⟩ : BufTy).Contents (Elt F)) : (TRef.of (T := ⟨S100000x32, .f32⟩) main_call10_v0).toBuf (Val := Elt F) v = v := rfl
theorem cast_main_v95_in (v : (⟨S100000x32, .f32⟩ : BufTy).Contents (Elt F)) : (TRef.of (T := ⟨S100000x32, .f32⟩) main_v95).ofBuf (Val := Elt F) v = v := rfl
theorem cast_main_v95_out (v : (⟨S100000x32, .f32⟩ : BufTy).Contents (Elt F)) : (TRef.of (T := ⟨S100000x32, .f32⟩) main_v95).toBuf (Val := Elt F) v = v := rfl
theorem cast_main_v96_in (v : (⟨S100000x32, .f32⟩ : BufTy).Contents (Elt F)) : (TRef.of (T := ⟨S100000x32, .f32⟩) main_v96).ofBuf (Val := Elt F) v = v := rfl
theorem cast_main_v96_out (v : (⟨S100000x32, .f32⟩ : BufTy).Contents (Elt F)) : (TRef.of (T := ⟨S100000x32, .f32⟩) main_v96).toBuf (Val := Elt F) v = v := rfl
theorem cast_main_call11_cst_in (v : (⟨S_, .f32⟩ : BufTy).Contents (Elt F)) : (TRef.of (T := ⟨S_, .f32⟩) main_call11_cst).ofBuf (Val := Elt F) v = v := rfl
theorem cast_main_call11_cst_out (v : (⟨S_, .f32⟩ : BufTy).Contents (Elt F)) : (TRef.of (T := ⟨S_, .f32⟩) main_call11_cst).toBuf (Val := Elt F) v = v := rfl
theorem cast_main_call11_v0_in (v : (⟨S100000x64, .f32⟩ : BufTy).Contents (Elt F)) : (TRef.of (T := ⟨S100000x64, .f32⟩) main_call11_v0).ofBuf (Val := Elt F) v = v := rfl
theorem cast_main_call11_v0_out (v : (⟨S100000x64, .f32⟩ : BufTy).Contents (Elt F)) : (TRef.of (T := ⟨S100000x64, .f32⟩) main_call11_v0).toBuf (Val := Elt F) v = v := rfl
theorem cast_main_v100_in (v : (⟨S100000x64, .f32⟩ : BufTy).Contents (Elt F)) : (TRef.of (T := ⟨S100000x64, .f32⟩) main_v100).ofBuf (Val := Elt F) v = v := rfl
theorem cast_main_v100_out (v : (⟨S100000x64, .f32⟩ : BufTy).Contents (Elt F)) : (TRef.of (T := ⟨S100000x64, .f32⟩) main_v100).toBuf (Val := Elt F) v = v := rfl
theorem cast_main_v101_in (v : (⟨S100000x64, .f32⟩ : BufTy).Contents (Elt F)) : (TRef.of (T := ⟨S100000x64, .f32⟩) main_v101).ofBuf (Val := Elt F) v = v := rfl
theorem cast_main_v101_out (v : (⟨S100000x64, .f32⟩ : BufTy).Contents (Elt F)) : (TRef.of (T := ⟨S100000x64, .f32⟩) main_v101).toBuf (Val := Elt F) v = v := rfl
theorem cast_main_call12_cst_in (v : (⟨S_, .f32⟩ : BufTy).Contents (Elt F)) : (TRef.of (T := ⟨S_, .f32⟩) main_call12_cst).ofBuf (Val := Elt F) v = v := rfl
theorem cast_main_call12_cst_out (v : (⟨S_, .f32⟩ : BufTy).Contents (Elt F)) : (TRef.of (T := ⟨S_, .f32⟩) main_call12_cst).toBuf (Val := Elt F) v = v := rfl
theorem cast_main_call12_v0_in (v : (⟨S1000x64, .f32⟩ : BufTy).Contents (Elt F)) : (TRef.of (T := ⟨S1000x64, .f32⟩) main_call12_v0).ofBuf (Val := Elt F) v = v := rfl
theorem cast_main_call12_v0_out (v : (⟨S1000x64, .f32⟩ : BufTy).Contents (Elt F)) : (TRef.of (T := ⟨S1000x64, .f32⟩) main_call12_v0).toBuf (Val := Elt F) v = v := rfl
theorem cast_main_v130_in (v : (⟨S1000x64, .f32⟩ : BufTy).Contents (Elt F)) : (TRef.of (T := ⟨S1000x64, .f32⟩) main_v130).ofBuf (Val := Elt F) v = v := rfl
theorem cast_main_v130_out (v : (⟨S1000x64, .f32⟩ : BufTy).Contents (Elt F)) : (TRef.of (T := ⟨S1000x64, .f32⟩) main_v130).toBuf (Val := Elt F) v = v := rfl
theorem cast_main_v131_in (v : (⟨S1000x64, .f32⟩ : BufTy).Contents (Elt F)) : (TRef.of (T := ⟨S1000x64, .f32⟩) main_v131).ofBuf (Val := Elt F) v = v := rfl
theorem cast_main_v131_out (v : (⟨S1000x64, .f32⟩ : BufTy).Contents (Elt F)) : (TRef.of (T := ⟨S1000x64, .f32⟩) main_v131).toBuf (Val := Elt F) v = v := rfl
theorem cast_main_call13_cst_in (v : (⟨S_, .f32⟩ : BufTy).Contents (Elt F)) : (TRef.of (T := ⟨S_, .f32⟩) main_call13_cst).ofBuf (Val := Elt F) v = v := rfl
theorem cast_main_call13_cst_out (v : (⟨S_, .f32⟩ : BufTy).Contents (Elt F)) : (TRef.of (T := ⟨S_, .f32⟩) main_call13_cst).toBuf (Val := Elt F) v = v := rfl
theorem cast_main_call13_v0_in (v : (⟨S1000x32, .f32⟩ : BufTy).Contents (Elt F)) : (TRef.of (T := ⟨S1000x32, .f32⟩) main_call13_v0).ofBuf (Val := Elt F) v = v := rfl
theorem cast_main_call13_v0_out (v : (⟨S1000x32, .f32⟩ : BufTy).Contents (Elt F)) : (TRef.of (T := ⟨S1000x32, .f32⟩) main_call13_v0).toBuf (Val := Elt F) v = v := rfl
theorem cast_main_v135_in (v : (⟨S1000x32, .f32⟩ : BufTy).Contents (Elt F)) : (TRef.of (T := ⟨S1000x32, .f32⟩) main_v135).ofBuf (Val := Elt F) v = v := rfl
theorem cast_main_v135_out (v : (⟨S1000x32, .f32⟩ : BufTy).Contents (Elt F)) : (TRef.of (T := ⟨S1000x32, .f32⟩) main_v135).toBuf (Val := Elt F) v = v := rfl
theorem cast_main_v136_in (v : (⟨S1000x32, .f32⟩ : BufTy).Contents (Elt F)) : (TRef.of (T := ⟨S1000x32, .f32⟩) main_v136).ofBuf (Val := Elt F) v = v := rfl
theorem cast_main_v136_out (v : (⟨S1000x32, .f32⟩ : BufTy).Contents (Elt F)) : (TRef.of (T := ⟨S1000x32, .f32⟩) main_v136).toBuf (Val := Elt F) v = v := rfl
theorem cast_main_call14_cst_in (v : (⟨S_, .f32⟩ : BufTy).Contents (Elt F)) : (TRef.of (T := ⟨S_, .f32⟩) main_call14_cst).ofBuf (Val := Elt F) v = v := rfl
theorem cast_main_call14_cst_out (v : (⟨S_, .f32⟩ : BufTy).Contents (Elt F)) : (TRef.of (T := ⟨S_, .f32⟩) main_call14_cst).toBuf (Val := Elt F) v = v := rfl
theorem cast_main_call14_v0_in (v : (⟨S1000x64, .f32⟩ : BufTy).Contents (Elt F)) : (TRef.of (T := ⟨S1000x64, .f32⟩) main_call14_v0).ofBuf (Val := Elt F) v = v := rfl
theorem cast_main_call14_v0_out (v : (⟨S1000x64, .f32⟩ : BufTy).Contents (Elt F)) : (TRef.of (T := ⟨S1000x64, .f32⟩) main_call14_v0).toBuf (Val := Elt F) v = v := rfl
theorem cast_main_v140_in (v : (⟨S1000x64, .f32⟩ : BufTy).Contents (Elt F)) : (TRef.of (T := ⟨S1000x64, .f32⟩) main_v140).ofBuf (Val := Elt F) v = v := rfl
theorem cast_main_v140_out (v : (⟨S1000x64, .f32⟩ : BufTy).Contents (Elt F)) : (TRef.of (T := ⟨S1000x64, .f32⟩) main_v140).toBuf (Val := Elt F) v = v := rfl
theorem cast_main_v141_in (v : (⟨S1000x64, .f32⟩ : BufTy).Contents (Elt F)) : (TRef.of (T := ⟨S1000x64, .f32⟩) main_v141).ofBuf (Val := Elt F) v = v := rfl
theorem cast_main_v141_out (v : (⟨S1000x64, .f32⟩ : BufTy).Contents (Elt F)) : (TRef.of (T := ⟨S1000x64, .f32⟩) main_v141).toBuf (Val := Elt F) v = v := rfl

/-- A three-operand operation's result, each operand's contents at its own reference. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-! ## The stretches -/

/-! ### Operations 0 to 13 -/

/-- Operations 0 to 13 of @main, in order. -/
abbrev opsA1 : List (HloOp τ sig (Elt F)) :=
  [ binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v3) (TRef.of (T := ⟨S100000x64, .f32⟩) main_call0_v0) (TRef.of (T := ⟨S100000x64, .f32⟩) main_v4) maximumf,
    binary main_v4 main_arg5 main_v5 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S100000x64 ![0, 1] bcast_S1x64_S100000x64_0_1 : (⟨S1x64, .f32⟩ : BufTy).Contents (Elt F) → (⟨S100000x64, .f32⟩ : BufTy).Contents (Elt F)),
    binary main_v5 main_v7 main_v8 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v8) (TRef.of (T := ⟨S100000x64, .f32⟩) main_call1_v0) (TRef.of (T := ⟨S100000x64, .f32⟩) main_v9) maximumf ]
set_option maxRecDepth 8192 in
/-- Each touches TensorCore references only. -/
theorem opsA1_sub : (opsA1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Every operation determines its results. -/
theorem opsA1_fresh : ∀ op ∈ (opsA1 : List (HloOp τ sig (Elt F))), op.fresh = ∅ := by
  intro _ h; (repeat (cases h with | head => rfl | tail _ h => ?_)); exact nomatch h
/-- The references the operations write. -/
abbrev opsA1_W : List (Ref sig .tc) := [main_v0, main_v1, main_v2, main_v3, main_call0_cst, main_call0_v0, main_v4, main_v5, main_v6, main_v7, main_v8, main_call1_cst, main_call1_v0, main_v9]
theorem opsA1_writes : (opsA1 : List (HloOp τ sig (Elt F))).Forall fun op => op.writes ⊆ (opsA1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem⟩
/-- No operation writes an argument. -/
theorem opsA1_args : ∀ r ∈ argRefs, r ∉ opsA1_W := by decide

set_option maxHeartbeats 4000000 in
/-- `main_v9` after operations 0 to 13, from contents `W` that hold the stages read: the stage `val_main_v9`. -/
theorem stage_main_v9 (W : Valuation τ sig (Elt F)) (x0 : (⟨S100000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    : after (opsA1 (F := F)) W (Proc.devRef .tc main_v9) = val_main_v9 (F := F) x0 x3 x4 x5 x6 := by
  after_results_simp
  simp only [ofBuf_toBuf, cast_main_v8_in, cast_main_call1_v0_in, cast_main_v9_in, cast_main_call1_cst_in, cast_main_v3_in, cast_main_call0_v0_in, cast_main_v4_in, cast_main_call0_cst_in, cast_main_v8_out, cast_main_call1_v0_out, cast_main_v9_out, cast_main_call1_cst_out, cast_main_v3_out, cast_main_call0_v0_out, cast_main_v4_out, cast_main_call0_cst_out, h_main_arg0, h_main_arg3, h_main_arg4, h_main_arg5, h_main_arg6, val_main_v9, val_main_call1_v0, val_main_call1_cst, val_main_v8, val_main_v7, val_main_v6, val_main_v5, val_main_v4, val_main_call0_v0, val_main_call0_cst, val_main_v3, val_main_v2, val_main_v1, val_main_v0]
  <;> rfl

/-! ### Operations 14 to 27 -/

/-- Operations 14 to 27 of @main, in order. -/
abbrev opsA2 : List (HloOp τ sig (Elt F)) :=
  [ binary main_arg1 main_arg7 main_v10 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg8 main_v11 (broadcastInDim S1x64 ![1] bcast_S64_S1x64_1 : (⟨S64, .f32⟩ : BufTy).Contents (Elt F) → (⟨S1x64, .f32⟩ : BufTy).Contents (Elt F)),
    unary main_v11 main_v12 (broadcastInDim S800000x64 ![0, 1] bcast_S1x64_S800000x64_0_1 : (⟨S1x64, .f32⟩ : BufTy).Contents (Elt F) → (⟨S800000x64, .f32⟩ : BufTy).Contents (Elt F)),
    binary main_v10 main_v12 main_v13 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v13) (TRef.of (T := ⟨S800000x64, .f32⟩) main_call2_v0) (TRef.of (T := ⟨S800000x64, .f32⟩) main_v14) maximumf,
    binary main_v14 main_arg9 main_v15 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v16 (broadcastInDim S1x64 ![1] bcast_S64_S1x64_1 : (⟨S64, .f32⟩ : BufTy).Contents (Elt F) → (⟨S1x64, .f32⟩ : BufTy).Contents (Elt F)),
    unary main_v16 main_v17 (broadcastInDim S800000x64 ![0, 1] bcast_S1x64_S800000x64_0_1 : (⟨S1x64, .f32⟩ : BufTy).Contents (Elt F) → (⟨S800000x64, .f32⟩ : BufTy).Contents (Elt F)),
    binary main_v15 main_v17 main_v18 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v18) (TRef.of (T := ⟨S800000x64, .f32⟩) main_call3_v0) (TRef.of (T := ⟨S800000x64, .f32⟩) main_v19) maximumf ]
set_option maxRecDepth 8192 in
/-- Each touches TensorCore references only. -/
theorem opsA2_sub : (opsA2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Every operation determines its results. -/
theorem opsA2_fresh : ∀ op ∈ (opsA2 : List (HloOp τ sig (Elt F))), op.fresh = ∅ := by
  intro _ h; (repeat (cases h with | head => rfl | tail _ h => ?_)); exact nomatch h
/-- The references the operations write. -/
abbrev opsA2_W : List (Ref sig .tc) := [main_v10, main_v11, main_v12, main_v13, main_call2_cst, main_call2_v0, main_v14, main_v15, main_v16, main_v17, main_v18, main_call3_cst, main_call3_v0, main_v19]
theorem opsA2_writes : (opsA2 : List (HloOp τ sig (Elt F))).Forall fun op => op.writes ⊆ (opsA2_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem⟩
/-- No operation writes an argument. -/
theorem opsA2_args : ∀ r ∈ argRefs, r ∉ opsA2_W := by decide

set_option maxHeartbeats 4000000 in
/-- `main_v19` after operations 14 to 27, from contents `W` that hold the stages read: the stage `val_main_v19`. -/
theorem stage_main_v19 (W : Valuation τ sig (Elt F)) (x1 : (⟨S800000x64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F))
    (h_main_arg1 : W (Proc.devRef .tc main_arg1) = x1)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    : after (opsA2 (F := F)) W (Proc.devRef .tc main_v19) = val_main_v19 (F := F) x1 x7 x8 x9 x10 := by
  after_results_simp
  simp only [ofBuf_toBuf, cast_main_v18_in, cast_main_call3_v0_in, cast_main_v19_in, cast_main_call3_cst_in, cast_main_v13_in, cast_main_call2_v0_in, cast_main_v14_in, cast_main_call2_cst_in, cast_main_v18_out, cast_main_call3_v0_out, cast_main_v19_out, cast_main_call3_cst_out, cast_main_v13_out, cast_main_call2_v0_out, cast_main_v14_out, cast_main_call2_cst_out, h_main_arg1, h_main_arg7, h_main_arg8, h_main_arg9, h_main_arg10, val_main_v19, val_main_call3_v0, val_main_call3_cst, val_main_v18, val_main_v17, val_main_v16, val_main_v15, val_main_v14, val_main_call2_v0, val_main_call2_cst, val_main_v13, val_main_v12, val_main_v11, val_main_v10]
  <;> rfl

/-! ### Operations 28 to 41 -/

/-- Operations 28 to 41 of @main, in order. -/
abbrev opsA3 : List (HloOp τ sig (Elt F)) :=
  [ binary main_arg2 main_arg11 main_v20 ((fun l r => Host.dotGeneral dot_S1000x64_S64x64_S1000x64_1_0_0_1_n_n none l r) : (⟨S1000x64, .f32⟩ : BufTy).Contents (Elt F) → (⟨S64x64, .f32⟩ : BufTy).Contents (Elt F) → (⟨S1000x64, .f32⟩ : BufTy).Contents (Elt F)),
    unary main_arg12 main_v21 (broadcastInDim S1x64 ![1] bcast_S64_S1x64_1 : (⟨S64, .f32⟩ : BufTy).Contents (Elt F) → (⟨S1x64, .f32⟩ : BufTy).Contents (Elt F)),
    unary main_v21 main_v22 (broadcastInDim S1000x64 ![0, 1] bcast_S1x64_S1000x64_0_1 : (⟨S1x64, .f32⟩ : BufTy).Contents (Elt F) → (⟨S1000x64, .f32⟩ : BufTy).Contents (Elt F)),
    binary main_v20 main_v22 main_v23 (addf : (⟨S1000x64, .f32⟩ : BufTy).Contents (Elt F) → (⟨S1000x64, .f32⟩ : BufTy).Contents (Elt F) → (⟨S1000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1000x64, .f32⟩) main_call4_v0) (broadcastInDim S1000x64 ![] bcast_S_S1000x64),
    TRef.binary (TRef.of (T := ⟨S1000x64, .f32⟩) main_v23) (TRef.of (T := ⟨S1000x64, .f32⟩) main_call4_v0) (TRef.of (T := ⟨S1000x64, .f32⟩) main_v24) maximumf,
    binary main_v24 main_arg13 main_v25 ((fun l r => Host.dotGeneral dot_S1000x64_S64x64_S1000x64_1_0_0_1_n_n none l r) : (⟨S1000x64, .f32⟩ : BufTy).Contents (Elt F) → (⟨S64x64, .f32⟩ : BufTy).Contents (Elt F) → (⟨S1000x64, .f32⟩ : BufTy).Contents (Elt F)),
    unary main_arg14 main_v26 (broadcastInDim S1x64 ![1] bcast_S64_S1x64_1 : (⟨S64, .f32⟩ : BufTy).Contents (Elt F) → (⟨S1x64, .f32⟩ : BufTy).Contents (Elt F)),
    unary main_v26 main_v27 (broadcastInDim S1000x64 ![0, 1] bcast_S1x64_S1000x64_0_1 : (⟨S1x64, .f32⟩ : BufTy).Contents (Elt F) → (⟨S1000x64, .f32⟩ : BufTy).Contents (Elt F)),
    binary main_v25 main_v27 main_v28 (addf : (⟨S1000x64, .f32⟩ : BufTy).Contents (Elt F) → (⟨S1000x64, .f32⟩ : BufTy).Contents (Elt F) → (⟨S1000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1000x64, .f32⟩) main_call5_v0) (broadcastInDim S1000x64 ![] bcast_S_S1000x64),
    TRef.binary (TRef.of (T := ⟨S1000x64, .f32⟩) main_v28) (TRef.of (T := ⟨S1000x64, .f32⟩) main_call5_v0) (TRef.of (T := ⟨S1000x64, .f32⟩) main_v29) maximumf ]
set_option maxRecDepth 8192 in
/-- Each touches TensorCore references only. -/
theorem opsA3_sub : (opsA3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Every operation determines its results. -/
theorem opsA3_fresh : ∀ op ∈ (opsA3 : List (HloOp τ sig (Elt F))), op.fresh = ∅ := by
  intro _ h; (repeat (cases h with | head => rfl | tail _ h => ?_)); exact nomatch h
/-- The references the operations write. -/
abbrev opsA3_W : List (Ref sig .tc) := [main_v20, main_v21, main_v22, main_v23, main_call4_cst, main_call4_v0, main_v24, main_v25, main_v26, main_v27, main_v28, main_call5_cst, main_call5_v0, main_v29]
theorem opsA3_writes : (opsA3 : List (HloOp τ sig (Elt F))).Forall fun op => op.writes ⊆ (opsA3_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem⟩
/-- No operation writes an argument. -/
theorem opsA3_args : ∀ r ∈ argRefs, r ∉ opsA3_W := by decide

set_option maxHeartbeats 4000000 in
/-- `main_v29` after operations 28 to 41, from contents `W` that hold the stages read: the stage `val_main_v29`. -/
theorem stage_main_v29 (W : Valuation τ sig (Elt F)) (x2 : (⟨S1000x64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F))
    (h_main_arg2 : W (Proc.devRef .tc main_arg2) = x2)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    : after (opsA3 (F := F)) W (Proc.devRef .tc main_v29) = val_main_v29 (F := F) x2 x11 x12 x13 x14 := by
  after_results_simp
  simp only [ofBuf_toBuf, cast_main_v28_in, cast_main_call5_v0_in, cast_main_v29_in, cast_main_call5_cst_in, cast_main_v23_in, cast_main_call4_v0_in, cast_main_v24_in, cast_main_call4_cst_in, cast_main_v28_out, cast_main_call5_v0_out, cast_main_v29_out, cast_main_call5_cst_out, cast_main_v23_out, cast_main_call4_v0_out, cast_main_v24_out, cast_main_call4_cst_out, h_main_arg2, h_main_arg11, h_main_arg12, h_main_arg13, h_main_arg14, val_main_v29, val_main_call5_v0, val_main_call5_cst, val_main_v28, val_main_v27, val_main_v26, val_main_v25, val_main_v24, val_main_call4_v0, val_main_call4_cst, val_main_v23, val_main_v22, val_main_v21, val_main_v20]
  <;> rfl

/-! ### Operations 42 to 50 -/

/-- Operations 42 to 50 of @main, in order. -/
abbrev opsB1 : List (HloOp τ sig (Elt F)) :=
  [ nullary main_c (constantI S_ 32 0#32),
    unary main_c main_v30 (broadcastInDim S800000 ![] bcast_S_S800000 : (⟨S_, .i32⟩ : BufTy).Contents (Elt F) → (⟨S800000, .i32⟩ : BufTy).Contents (Elt F)),
    binary main_arg33 main_v30 main_v31 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v32 (broadcastInDim S800000 ![] bcast_S_S800000 : (⟨S_, .i32⟩ : BufTy).Contents (Elt F) → (⟨S800000, .i32⟩ : BufTy).Contents (Elt F)),
    binary main_arg33 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_arg33 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v9 main_v35 main_v36 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) ]
set_option maxRecDepth 8192 in
/-- Each touches TensorCore references only. -/
theorem opsB1_sub : (opsB1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
/-- Every operation determines its results. -/
theorem opsB1_fresh : ∀ op ∈ (opsB1 : List (HloOp τ sig (Elt F))), op.fresh = ∅ := by
  intro _ h; (repeat (cases h with | head => rfl | tail _ h => ?_)); exact nomatch h
/-- The references the operations write. -/
abbrev opsB1_W : List (Ref sig .tc) := [main_c, main_v30, main_v31, main_c_0, main_v32, main_v33, main_v34, main_v35, main_v36]
theorem opsB1_writes : (opsB1 : List (HloOp τ sig (Elt F))).Forall fun op => op.writes ⊆ (opsB1_W.map (Proc.devRef (τ := τ) .tc)).toFinset := by
  simp only [List.Forall]; exact ⟨by writes_mem, by writes_mem, by writes_mem, by writes_mem, by writes_mem, by writes_mem, by writes_mem, by writes_mem, by writes_mem⟩
/-- No operation writes an argument. -/
theorem opsB1_args : ∀ r ∈ argRefs, r ∉ opsB1_W := by decide

set_option maxHeartbeats 4000000 in
/-- `main_v36` after operations 42 to 50, from contents `W` that hold the stages read: the stage `val_main_v36`. -/
theorem stage_main_v36 (W : Valuation τ sig (Elt F)) (x0 : (⟨S100000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x33 : (⟨S800000, .i32⟩ : BufTy).Contents (Elt F))
    (h_main_v9 : W (Proc.devRef .tc main_v9) = val_main_v9 (F := F) x0 x3 x4 x5 x6)
    (h_main_arg33 : W (Proc.devRef .tc main_arg33) = x33)
    : after (opsB1 (F := F)) W (Proc.devRef .tc main_v36) = val_main_v36 (F := F) x0 x3 x4 x5 x6 x33 := by
  after_results_simp
  simp only [ofBuf_toBuf, h_main_v9, h_main_arg33, val_main_v36, val_main_v35, val_main_v34, val_main_v33, val_main_v32, val_main_c_0, val_main_v31, val_main_v30, val_main_c]
  <;> rfl

/-! ### Operations 51 to 59 -/

/-- Operations 51 to 59 of @main, in order. -/
abbrev opsB2 : List (HloOp τ sig (Elt F)) :=
  [ nullary main_c_1 (constantI S_ 32 0#32),
    unary main_c_1 main_v37 (broadcastInDim S800000 ![] bcast_S_S800000 : (⟨S_, .i32⟩ : BufTy).Contents (Elt F) → (⟨S800000, .i32⟩ : BufTy).Contents (Elt F)),
    binary main_arg34 main_v37 main_v38 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v39 (broadcastInDim S800000 ![] bcast_S_S800000 : (⟨S_, .i32⟩ : BufTy).Contents (Elt F) → (⟨S800000, .i32⟩ : BufTy).Contents (Elt F)),
    binary main_arg34 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_arg34 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v9 main_v42 main_v43 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) ]
set_option maxRecDepth 8192 in
/-- Each touches TensorCore references only. -/
theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
/-- Every operation determines its results. -/
theorem opsB2_fresh : ∀ op ∈ (opsB2 : List (HloOp τ sig (Elt F))), op.fresh = ∅ := by
  intro _ h; (repeat (cases h with | head => rfl | tail _ h => ?_)); exact nomatch h
/-- The references the operations write. -/
abbrev opsB2_W : List (Ref sig .tc) := [main_c_1, main_v37, main_v38, main_c_2, main_v39, main_v40, main_v41, main_v42, main_v43]
theorem opsB2_writes : (opsB2 : List (HloOp τ sig (Elt F))).Forall fun op => op.writes ⊆ (opsB2_W.map (Proc.devRef (τ := τ) .tc)).toFinset := by
  simp only [List.Forall]; exact ⟨by writes_mem, by writes_mem, by writes_mem, by writes_mem, by writes_mem, by writes_mem, by writes_mem, by writes_mem, by writes_mem⟩
/-- No operation writes an argument. -/
theorem opsB2_args : ∀ r ∈ argRefs, r ∉ opsB2_W := by decide

set_option maxHeartbeats 4000000 in
/-- `main_v43` after operations 51 to 59, from contents `W` that hold the stages read: the stage `val_main_v43`. -/
theorem stage_main_v43 (W : Valuation τ sig (Elt F)) (x0 : (⟨S100000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x34 : (⟨S800000, .i32⟩ : BufTy).Contents (Elt F))
    (h_main_v9 : W (Proc.devRef .tc main_v9) = val_main_v9 (F := F) x0 x3 x4 x5 x6)
    (h_main_arg34 : W (Proc.devRef .tc main_arg34) = x34)
    : after (opsB2 (F := F)) W (Proc.devRef .tc main_v43) = val_main_v43 (F := F) x0 x3 x4 x5 x6 x34 := by
  after_results_simp
  simp only [ofBuf_toBuf, h_main_v9, h_main_arg34, val_main_v43, val_main_v42, val_main_v41, val_main_v40, val_main_v39, val_main_c_2, val_main_v38, val_main_v37, val_main_c_1]
  <;> rfl

/-! ### Operations 60 to 68 -/

/-- Operations 60 to 68 of @main, in order. -/
abbrev opsB3 : List (HloOp τ sig (Elt F)) :=
  [ nullary main_c_3 (constantI S_ 32 0#32),
    unary main_c_3 main_v44 (broadcastInDim S800000 ![] bcast_S_S800000 : (⟨S_, .i32⟩ : BufTy).Contents (Elt F) → (⟨S800000, .i32⟩ : BufTy).Contents (Elt F)),
    binary main_arg36 main_v44 main_v45 (cmpi .slt : (⟨S800000, .i32⟩ : BufTy).Contents (Elt F) → (⟨S800000, .i32⟩ : BufTy).Contents (Elt F) → (⟨S800000, .i1⟩ : BufTy).Contents (Elt F)),
    nullary main_c_4 (constantI S_ 32 1000#32),
    unary main_c_4 main_v46 (broadcastInDim S800000 ![] bcast_S_S800000 : (⟨S_, .i32⟩ : BufTy).Contents (Elt F) → (⟨S800000, .i32⟩ : BufTy).Contents (Elt F)),
    binary main_arg36 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_arg36 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v29 main_v49 main_v50 ((fun x i => Host.gather gather_S1000x64_S800000x1_S800000x64_1_0_n_n_0_1_164 x i) : (⟨S1000x64, .f32⟩ : BufTy).Contents (Elt F) → (⟨S800000x1, .i32⟩ : BufTy).Contents (Elt F) → (⟨S800000x64, .f32⟩ : BufTy).Contents (Elt F)) ]
set_option maxRecDepth 8192 in
/-- Each touches TensorCore references only. -/
theorem opsB3_sub : (opsB3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
/-- Every operation determines its results. -/
theorem opsB3_fresh : ∀ op ∈ (opsB3 : List (HloOp τ sig (Elt F))), op.fresh = ∅ := by
  intro _ h; (repeat (cases h with | head => rfl | tail _ h => ?_)); exact nomatch h
/-- The references the operations write. -/
abbrev opsB3_W : List (Ref sig .tc) := [main_c_3, main_v44, main_v45, main_c_4, main_v46, main_v47, main_v48, main_v49, main_v50]
theorem opsB3_writes : (opsB3 : List (HloOp τ sig (Elt F))).Forall fun op => op.writes ⊆ (opsB3_W.map (Proc.devRef (τ := τ) .tc)).toFinset := by
  simp only [List.Forall]; exact ⟨by writes_mem, by writes_mem, by writes_mem, by writes_mem, by writes_mem, by writes_mem, by writes_mem, by writes_mem, by writes_mem⟩
/-- No operation writes an argument. -/
theorem opsB3_args : ∀ r ∈ argRefs, r ∉ opsB3_W := by decide

set_option maxHeartbeats 4000000 in
/-- `main_v50` after operations 60 to 68, from contents `W` that hold the stages read: the stage `val_main_v50`. -/
theorem stage_main_v50 (W : Valuation τ sig (Elt F)) (x2 : (⟨S1000x64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x36 : (⟨S800000, .i32⟩ : BufTy).Contents (Elt F))
    (h_main_v29 : W (Proc.devRef .tc main_v29) = val_main_v29 (F := F) x2 x11 x12 x13 x14)
    (h_main_arg36 : W (Proc.devRef .tc main_arg36) = x36)
    : after (opsB3 (F := F)) W (Proc.devRef .tc main_v50) = val_main_v50 (F := F) x2 x11 x12 x13 x14 x36 := by
  after_results_simp
  simp only [ofBuf_toBuf, h_main_v29, h_main_arg36, val_main_v50, val_main_v49, val_main_v48, val_main_v47, val_main_v46, val_main_c_4, val_main_v45, val_main_v44, val_main_c_3]
  <;> rfl

/-! ### Operations 69 to 69 -/

/-- Operations 69 to 69 of @main, in order. -/
abbrev opsC0 : List (HloOp τ sig (Elt F)) :=
  [ nary ![main_v36, main_v43, main_v19, main_v50] main_v51 (fun u => concatenate S800000x256 1 [⟨S800000x64, u 0⟩, ⟨S800000x64, u 1⟩, ⟨S800000x64, u 2⟩, ⟨S800000x64, u 3⟩] concatenates_S800000x64_S800000x64_S800000x64_S800000x64_S800000x256_d1) ]
set_option maxRecDepth 8192 in
/-- Each touches TensorCore references only. -/
theorem opsC0_sub : (opsC0 : List (HloOp τ sig (Elt F))).Forall fun op => op.bufs ⊆ tcRefs τ sig :=
  nary_bufs_sub ..
/-- Every operation determines its results. -/
theorem opsC0_fresh : ∀ op ∈ (opsC0 : List (HloOp τ sig (Elt F))), op.fresh = ∅ := by
  intro _ h; (repeat (cases h with | head => rfl | tail _ h => ?_)); exact nomatch h
/-- The references the operations write. -/
abbrev opsC0_W : List (Ref sig .tc) := [main_v51]
theorem opsC0_writes : (opsC0 : List (HloOp τ sig (Elt F))).Forall fun op => op.writes ⊆ (opsC0_W.map (Proc.devRef (τ := τ) .tc)).toFinset := by
  simp only [List.Forall]; exact (by writes_mem)
/-- No operation writes an argument. -/
theorem opsC0_args : ∀ r ∈ argRefs, r ∉ opsC0_W := by decide

set_option maxHeartbeats 4000000 in
/-- `main_v51` after operations 69 to 69, from contents `W` that hold the stages read: the stage `val_main_v51`. -/
theorem stage_main_v51 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x33 : (⟨S800000, .i32⟩ : BufTy).Contents (Elt F)) (x34 : (⟨S800000, .i32⟩ : BufTy).Contents (Elt F)) (x36 : (⟨S800000, .i32⟩ : BufTy).Contents (Elt F))
    (h_main_v19 : W (Proc.devRef .tc main_v19) = val_main_v19 (F := F) x1 x7 x8 x9 x10)
    (h_main_v36 : W (Proc.devRef .tc main_v36) = val_main_v36 (F := F) x0 x3 x4 x5 x6 x33)
    (h_main_v43 : W (Proc.devRef .tc main_v43) = val_main_v43 (F := F) x0 x3 x4 x5 x6 x34)
    (h_main_v50 : W (Proc.devRef .tc main_v50) = val_main_v50 (F := F) x2 x11 x12 x13 x14 x36)
    : after (opsC0 (F := F)) W (Proc.devRef .tc main_v51) = val_main_v51 (F := F) x0 x1 x2 x3 x4 x5 x6 x7 x8 x9 x10 x11 x12 x13 x14 x33 x34 x36 := by
  simp only [after_cons, after_nil]
  rw [nary4_result]
  show concatenate S800000x256 1 [⟨S800000x64, W (Proc.devRef .tc main_v36)⟩, ⟨S800000x64, W (Proc.devRef .tc main_v43)⟩, ⟨S800000x64, W (Proc.devRef .tc main_v19)⟩, ⟨S800000x64, W (Proc.devRef .tc main_v50)⟩] concatenates_S800000x64_S800000x64_S800000x64_S800000x64_S800000x256_d1 = _
  rw [h_main_v19, h_main_v36, h_main_v43, h_main_v50]
  simp only [val_main_v51]

/-! ### Operations 70 to 90 -/

/-- Operations 70 to 90 of @main, in order. -/
abbrev opsC : List (HloOp τ sig (Elt F)) :=
  [ binary main_v51 main_arg15 main_v52 ((fun l r => Host.dotGeneral dot_S800000x256_S256x64_S800000x64_1_0_0_1_n_n none l r) : (⟨S800000x256, .f32⟩ : BufTy).Contents (Elt F) → (⟨S256x64, .f32⟩ : BufTy).Contents (Elt F) → (⟨S800000x64, .f32⟩ : BufTy).Contents (Elt F)),
    unary main_arg16 main_v53 (broadcastInDim S1x64 ![1] bcast_S64_S1x64_1 : (⟨S64, .f32⟩ : BufTy).Contents (Elt F) → (⟨S1x64, .f32⟩ : BufTy).Contents (Elt F)),
    unary main_v53 main_v54 (broadcastInDim S800000x64 ![0, 1] bcast_S1x64_S800000x64_0_1 : (⟨S1x64, .f32⟩ : BufTy).Contents (Elt F) → (⟨S800000x64, .f32⟩ : BufTy).Contents (Elt F)),
    binary main_v52 main_v54 main_v55 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000x64, .f32⟩) main_call6_v0) (broadcastInDim S800000x64 ![] bcast_S_S800000x64),
    TRef.binary (TRef.of (T := ⟨S800000x64, .f32⟩) main_v55) (TRef.of (T := ⟨S800000x64, .f32⟩) main_call6_v0) (TRef.of (T := ⟨S800000x64, .f32⟩) main_v56) maximumf,
    binary main_v56 main_arg17 main_v57 ((fun l r => Host.dotGeneral dot_S800000x64_S64x32_S800000x32_1_0_0_1_n_n none l r) : (⟨S800000x64, .f32⟩ : BufTy).Contents (Elt F) → (⟨S64x32, .f32⟩ : BufTy).Contents (Elt F) → (⟨S800000x32, .f32⟩ : BufTy).Contents (Elt F)),
    unary main_arg18 main_v58 (broadcastInDim S1x32 ![1] bcast_S32_S1x32_1 : (⟨S32, .f32⟩ : BufTy).Contents (Elt F) → (⟨S1x32, .f32⟩ : BufTy).Contents (Elt F)),
    unary main_v58 main_v59 (broadcastInDim S800000x32 ![0, 1] bcast_S1x32_S800000x32_0_1 : (⟨S1x32, .f32⟩ : BufTy).Contents (Elt F) → (⟨S800000x32, .f32⟩ : BufTy).Contents (Elt F)),
    binary main_v57 main_v59 main_v60 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S800000x32, .f32⟩) main_call7_v0) (broadcastInDim S800000x32 ![] bcast_S_S800000x32),
    TRef.binary (TRef.of (T := ⟨S800000x32, .f32⟩) main_v60) (TRef.of (T := ⟨S800000x32, .f32⟩) main_call7_v0) (TRef.of (T := ⟨S800000x32, .f32⟩) main_v61) maximumf,
    binary main_v61 main_arg19 main_v62 ((fun l r => Host.dotGeneral dot_S800000x32_S32x64_S800000x64_1_0_0_1_n_n none l r) : (⟨S800000x32, .f32⟩ : BufTy).Contents (Elt F) → (⟨S32x64, .f32⟩ : BufTy).Contents (Elt F) → (⟨S800000x64, .f32⟩ : BufTy).Contents (Elt F)),
    unary main_arg20 main_v63 (broadcastInDim S1x64 ![1] bcast_S64_S1x64_1 : (⟨S64, .f32⟩ : BufTy).Contents (Elt F) → (⟨S1x64, .f32⟩ : BufTy).Contents (Elt F)),
    unary main_v63 main_v64 (broadcastInDim S800000x64 ![0, 1] bcast_S1x64_S800000x64_0_1 : (⟨S1x64, .f32⟩ : BufTy).Contents (Elt F) → (⟨S800000x64, .f32⟩ : BufTy).Contents (Elt F)),
    binary main_v62 main_v64 main_v65 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S800000x64, .f32⟩) main_call8_v0) (broadcastInDim S800000x64 ![] bcast_S_S800000x64),
    TRef.binary (TRef.of (T := ⟨S800000x64, .f32⟩) main_v65) (TRef.of (T := ⟨S800000x64, .f32⟩) main_call8_v0) (TRef.of (T := ⟨S800000x64, .f32⟩) main_v66) maximumf ]
set_option maxRecDepth 8192 in
/-- Each touches TensorCore references only. -/
theorem opsC_sub : (opsC : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Every operation determines its results. -/
theorem opsC_fresh : ∀ op ∈ (opsC : List (HloOp τ sig (Elt F))), op.fresh = ∅ := by
  intro _ h; (repeat (cases h with | head => rfl | tail _ h => ?_)); exact nomatch h
/-- The references the operations write. -/
abbrev opsC_W : List (Ref sig .tc) := [main_v52, main_v53, main_v54, main_v55, main_call6_cst, main_call6_v0, main_v56, main_v57, main_v58, main_v59, main_v60, main_call7_cst, main_call7_v0, main_v61, main_v62, main_v63, main_v64, main_v65, main_call8_cst, main_call8_v0, main_v66]
theorem opsC_writes : (opsC : List (HloOp τ sig (Elt F))).Forall fun op => op.writes ⊆ (opsC_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- No operation writes an argument. -/
theorem opsC_args : ∀ r ∈ argRefs, r ∉ opsC_W := by decide

set_option maxHeartbeats 4000000 in
/-- `main_v66` after operations 70 to 90, from contents `W` that hold the stages read: the stage `val_main_v66`. -/
theorem stage_main_v66 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x33 : (⟨S800000, .i32⟩ : BufTy).Contents (Elt F)) (x34 : (⟨S800000, .i32⟩ : BufTy).Contents (Elt F)) (x36 : (⟨S800000, .i32⟩ : BufTy).Contents (Elt F))
    (h_main_v51 : W (Proc.devRef .tc main_v51) = val_main_v51 (F := F) x0 x1 x2 x3 x4 x5 x6 x7 x8 x9 x10 x11 x12 x13 x14 x33 x34 x36)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_arg20 : W (Proc.devRef .tc main_arg20) = x20)
    : after (opsC (F := F)) W (Proc.devRef .tc main_v66) = val_main_v66 (F := F) x0 x1 x2 x3 x4 x5 x6 x7 x8 x9 x10 x11 x12 x13 x14 x15 x16 x17 x18 x19 x20 x33 x34 x36 := by
  after_results_simp
  simp only [ofBuf_toBuf, cast_main_v65_in, cast_main_call8_v0_in, cast_main_v66_in, cast_main_call8_cst_in, cast_main_v60_in, cast_main_call7_v0_in, cast_main_v61_in, cast_main_call7_cst_in, cast_main_v55_in, cast_main_call6_v0_in, cast_main_v56_in, cast_main_call6_cst_in, cast_main_v65_out, cast_main_call8_v0_out, cast_main_v66_out, cast_main_call8_cst_out, cast_main_v60_out, cast_main_call7_v0_out, cast_main_v61_out, cast_main_call7_cst_out, cast_main_v55_out, cast_main_call6_v0_out, cast_main_v56_out, cast_main_call6_cst_out, h_main_v51, h_main_arg15, h_main_arg16, h_main_arg17, h_main_arg18, h_main_arg19, h_main_arg20, val_main_v66, val_main_call8_v0, val_main_call8_cst, val_main_v65, val_main_v64, val_main_v63, val_main_v62, val_main_v61, val_main_call7_v0, val_main_call7_cst, val_main_v60, val_main_v59, val_main_v58, val_main_v57, val_main_v56, val_main_call6_v0, val_main_call6_cst, val_main_v55, val_main_v54, val_main_v53, val_main_v52]
  <;> rfl

/-! ### Operations 91 to 106 -/

/-- Operations 91 to 106 of @main, in order. -/
abbrev opsD1 : List (HloOp τ sig (Elt F)) :=
  [ nullary main_cst (constant S_ .f32 0x00000000#32),
    unary main_cst main_v67 (broadcastInDim S100000x64 ![] bcast_S_S100000x64 : (⟨S_, .f32⟩ : BufTy).Contents (Elt F) → (⟨S100000x64, .f32⟩ : BufTy).Contents (Elt F)),
    unary main_arg33 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_5 (constant S_ .f32 0x3F800000#32),
    unary main_cst_5 main_v70 (broadcastInDim S800000 ![] bcast_S_S800000 : (⟨S_, .f32⟩ : BufTy).Contents (Elt F) → (⟨S800000, .f32⟩ : BufTy).Contents (Elt F)),
    nullary main_cst_6 (constant S_ .f32 0x00000000#32),
    unary main_cst_6 main_v71 (broadcastInDim S100000 ![] bcast_S_S100000 : (⟨S_, .f32⟩ : BufTy).Contents (Elt F) → (⟨S100000, .f32⟩ : BufTy).Contents (Elt F)),
    unary main_arg33 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_7 (constant S_ .f32 0x3F800000#32),
    unary main_cst_7 main_v74 (broadcastInDim S100000 ![] bcast_S_S100000 : (⟨S_, .f32⟩ : BufTy).Contents (Elt F) → (⟨S100000, .f32⟩ : BufTy).Contents (Elt F)),
    binary main_v73 main_v74 main_v75 (maximumf : (⟨S100000, .f32⟩ : BufTy).Contents (Elt F) → (⟨S100000, .f32⟩ : BufTy).Contents (Elt F) → (⟨S100000, .f32⟩ : BufTy).Contents (Elt F)),
    unary main_v75 main_v76 (broadcastInDim S100000x1 ![0] bcast_S100000_S100000x1_0 : (⟨S100000, .f32⟩ : BufTy).Contents (Elt F) → (⟨S100000x1, .f32⟩ : BufTy).Contents (Elt F)),
    unary main_v76 main_v77 (broadcastInDim S100000x64 ![0, 1] bcast_S100000x1_S100000x64_0_1 : (⟨S100000x1, .f32⟩ : BufTy).Contents (Elt F) → (⟨S100000x64, .f32⟩ : BufTy).Contents (Elt F)),
    binary main_v69 main_v77 main_v78 (Host.divf : (⟨S100000x64, .f32⟩ : BufTy).Contents (Elt F) → (⟨S100000x64, .f32⟩ : BufTy).Contents (Elt F) → (⟨S100000x64, .f32⟩ : BufTy).Contents (Elt F)) ]
set_option maxRecDepth 8192 in
/-- Each touches TensorCore references only. -/
theorem opsD1_sub : (opsD1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
/-- Every operation determines its results. -/
theorem opsD1_fresh : ∀ op ∈ (opsD1 : List (HloOp τ sig (Elt F))), op.fresh = ∅ := by
  intro _ h; (repeat (cases h with | head => rfl | tail _ h => ?_)); exact nomatch h
/-- The references the operations write. -/
abbrev opsD1_W : List (Ref sig .tc) := [main_cst, main_v67, main_v68, main_v69, main_cst_5, main_v70, main_cst_6, main_v71, main_v72, main_v73, main_cst_7, main_v74, main_v75, main_v76, main_v77, main_v78]
theorem opsD1_writes : (opsD1 : List (HloOp τ sig (Elt F))).Forall fun op => op.writes ⊆ (opsD1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem⟩
/-- No operation writes an argument. -/
theorem opsD1_args : ∀ r ∈ argRefs, r ∉ opsD1_W := by decide

set_option maxHeartbeats 4000000 in
/-- `main_v78` after operations 91 to 106, from contents `W` that hold the stages read: the stage `val_main_v78`. -/
theorem stage_main_v78 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x33 : (⟨S800000, .i32⟩ : BufTy).Contents (Elt F)) (x34 : (⟨S800000, .i32⟩ : BufTy).Contents (Elt F)) (x36 : (⟨S800000, .i32⟩ : BufTy).Contents (Elt F))
    (h_main_v66 : W (Proc.devRef .tc main_v66) = val_main_v66 (F := F) x0 x1 x2 x3 x4 x5 x6 x7 x8 x9 x10 x11 x12 x13 x14 x15 x16 x17 x18 x19 x20 x33 x34 x36)
    (h_main_arg33 : W (Proc.devRef .tc main_arg33) = x33)
    : after (opsD1 (F := F)) W (Proc.devRef .tc main_v78) = val_main_v78 (F := F) x0 x1 x2 x3 x4 x5 x6 x7 x8 x9 x10 x11 x12 x13 x14 x15 x16 x17 x18 x19 x20 x33 x34 x36 := by
  after_results_simp
  simp only [ofBuf_toBuf, h_main_v66, h_main_arg33, val_main_v78, val_main_v77, val_main_v76, val_main_v75, val_main_v74, val_main_cst_7, val_main_v73, val_main_v72, val_main_v71, val_main_cst_6, val_main_v70, val_main_cst_5, val_main_v69, val_main_v68, val_main_v67, val_main_cst]
  <;> rfl

/-! ### Operations 107 to 115 -/

/-- Operations 107 to 115 of @main, in order. -/
abbrev opsD2 : List (HloOp τ sig (Elt F)) :=
  [ nullary main_c_8 (constantI S_ 32 0#32),
    unary main_c_8 main_v79 (broadcastInDim S100000 ![] bcast_S_S100000 : (⟨S_, .i32⟩ : BufTy).Contents (Elt F) → (⟨S100000, .i32⟩ : BufTy).Contents (Elt F)),
    binary main_arg35 main_v79 main_v80 (cmpi .slt : (⟨S100000, .i32⟩ : BufTy).Contents (Elt F) → (⟨S100000, .i32⟩ : BufTy).Contents (Elt F) → (⟨S100000, .i1⟩ : BufTy).Contents (Elt F)),
    nullary main_c_9 (constantI S_ 32 1000#32),
    unary main_c_9 main_v81 (broadcastInDim S100000 ![] bcast_S_S100000 : (⟨S_, .i32⟩ : BufTy).Contents (Elt F) → (⟨S100000, .i32⟩ : BufTy).Contents (Elt F)),
    binary main_arg35 main_v81 main_v82 (addi : (⟨S100000, .i32⟩ : BufTy).Contents (Elt F) → (⟨S100000, .i32⟩ : BufTy).Contents (Elt F) → (⟨S100000, .i32⟩ : BufTy).Contents (Elt F)),
    ternary main_v80 main_v82 main_arg35 main_v83 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v83 main_v84 (broadcastInDim S100000x1 ![0] bcast_S100000_S100000x1_0 : (⟨S100000, .i32⟩ : BufTy).Contents (Elt F) → (⟨S100000x1, .i32⟩ : BufTy).Contents (Elt F)),
    binary main_v29 main_v84 main_v85 ((fun x i => Host.gather gather_S1000x64_S100000x1_S100000x64_1_0_n_n_0_1_164 x i) : (⟨S1000x64, .f32⟩ : BufTy).Contents (Elt F) → (⟨S100000x1, .i32⟩ : BufTy).Contents (Elt F) → (⟨S100000x64, .f32⟩ : BufTy).Contents (Elt F)) ]
set_option maxRecDepth 8192 in
/-- Each touches TensorCore references only. -/
theorem opsD2_sub : (opsD2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
/-- Every operation determines its results. -/
theorem opsD2_fresh : ∀ op ∈ (opsD2 : List (HloOp τ sig (Elt F))), op.fresh = ∅ := by
  intro _ h; (repeat (cases h with | head => rfl | tail _ h => ?_)); exact nomatch h
/-- The references the operations write. -/
abbrev opsD2_W : List (Ref sig .tc) := [main_c_8, main_v79, main_v80, main_c_9, main_v81, main_v82, main_v83, main_v84, main_v85]
theorem opsD2_writes : (opsD2 : List (HloOp τ sig (Elt F))).Forall fun op => op.writes ⊆ (opsD2_W.map (Proc.devRef (τ := τ) .tc)).toFinset := by
  simp only [List.Forall]; exact ⟨by writes_mem, by writes_mem, by writes_mem, by writes_mem, by writes_mem, by writes_mem, by writes_mem, by writes_mem, by writes_mem⟩
/-- No operation writes an argument. -/
theorem opsD2_args : ∀ r ∈ argRefs, r ∉ opsD2_W := by decide

set_option maxHeartbeats 4000000 in
/-- `main_v85` after operations 107 to 115, from contents `W` that hold the stages read: the stage `val_main_v85`. -/
theorem stage_main_v85 (W : Valuation τ sig (Elt F)) (x2 : (⟨S1000x64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x35 : (⟨S100000, .i32⟩ : BufTy).Contents (Elt F))
    (h_main_v29 : W (Proc.devRef .tc main_v29) = val_main_v29 (F := F) x2 x11 x12 x13 x14)
    (h_main_arg35 : W (Proc.devRef .tc main_arg35) = x35)
    : after (opsD2 (F := F)) W (Proc.devRef .tc main_v85) = val_main_v85 (F := F) x2 x11 x12 x13 x14 x35 := by
  after_results_simp
  simp only [ofBuf_toBuf, h_main_v29, h_main_arg35, val_main_v85, val_main_v84, val_main_v83, val_main_v82, val_main_v81, val_main_c_9, val_main_v80, val_main_v79, val_main_c_8]
  <;> rfl

/-! ### Operations 116 to 116 -/

/-- Operations 116 to 116 of @main, in order. -/
abbrev opsE0 : List (HloOp τ sig (Elt F)) :=
  [ nary ![main_v78, main_v9, main_v85] main_v86 (fun u => concatenate S100000x192 1 [⟨S100000x64, u 0⟩, ⟨S100000x64, u 1⟩, ⟨S100000x64, u 2⟩] concatenates_S100000x64_S100000x64_S100000x64_S100000x192_d1) ]
set_option maxRecDepth 8192 in
/-- Each touches TensorCore references only. -/
theorem opsE0_sub : (opsE0 : List (HloOp τ sig (Elt F))).Forall fun op => op.bufs ⊆ tcRefs τ sig :=
  nary_bufs_sub ..
/-- Every operation determines its results. -/
theorem opsE0_fresh : ∀ op ∈ (opsE0 : List (HloOp τ sig (Elt F))), op.fresh = ∅ := by
  intro _ h; (repeat (cases h with | head => rfl | tail _ h => ?_)); exact nomatch h
/-- The references the operations write. -/
abbrev opsE0_W : List (Ref sig .tc) := [main_v86]
theorem opsE0_writes : (opsE0 : List (HloOp τ sig (Elt F))).Forall fun op => op.writes ⊆ (opsE0_W.map (Proc.devRef (τ := τ) .tc)).toFinset := by
  simp only [List.Forall]; exact (by writes_mem)
/-- No operation writes an argument. -/
theorem opsE0_args : ∀ r ∈ argRefs, r ∉ opsE0_W := by decide

set_option maxHeartbeats 4000000 in
/-- `main_v86` after operations 116 to 116, from contents `W` that hold the stages read: the stage `val_main_v86`. -/
theorem stage_main_v86 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x33 : (⟨S800000, .i32⟩ : BufTy).Contents (Elt F)) (x34 : (⟨S800000, .i32⟩ : BufTy).Contents (Elt F)) (x35 : (⟨S100000, .i32⟩ : BufTy).Contents (Elt F)) (x36 : (⟨S800000, .i32⟩ : BufTy).Contents (Elt F))
    (h_main_v9 : W (Proc.devRef .tc main_v9) = val_main_v9 (F := F) x0 x3 x4 x5 x6)
    (h_main_v78 : W (Proc.devRef .tc main_v78) = val_main_v78 (F := F) x0 x1 x2 x3 x4 x5 x6 x7 x8 x9 x10 x11 x12 x13 x14 x15 x16 x17 x18 x19 x20 x33 x34 x36)
    (h_main_v85 : W (Proc.devRef .tc main_v85) = val_main_v85 (F := F) x2 x11 x12 x13 x14 x35)
    : after (opsE0 (F := F)) W (Proc.devRef .tc main_v86) = val_main_v86 (F := F) x0 x1 x2 x3 x4 x5 x6 x7 x8 x9 x10 x11 x12 x13 x14 x15 x16 x17 x18 x19 x20 x33 x34 x35 x36 := by
  simp only [after_cons, after_nil]
  rw [nary3_result]
  show concatenate S100000x192 1 [⟨S100000x64, W (Proc.devRef .tc main_v78)⟩, ⟨S100000x64, W (Proc.devRef .tc main_v9)⟩, ⟨S100000x64, W (Proc.devRef .tc main_v85)⟩] concatenates_S100000x64_S100000x64_S100000x64_S100000x192_d1 = _
  rw [h_main_v9, h_main_v78, h_main_v85]
  simp only [val_main_v86]

/-! ### Operations 117 to 137 -/

/-- Operations 117 to 137 of @main, in order. -/
abbrev opsE : List (HloOp τ sig (Elt F)) :=
  [ binary main_v86 main_arg21 main_v87 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_arg22 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v87 main_v89 main_v90 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v90) (TRef.of (T := ⟨S100000x64, .f32⟩) main_call9_v0) (TRef.of (T := ⟨S100000x64, .f32⟩) main_v91) maximumf,
    binary main_v91 main_arg23 main_v92 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg24 main_v93 (broadcastInDim S1x32 ![1] bcast_S32_S1x32_1 : (⟨S32, .f32⟩ : BufTy).Contents (Elt F) → (⟨S1x32, .f32⟩ : BufTy).Contents (Elt F)),
    unary main_v93 main_v94 (broadcastInDim S100000x32 ![0, 1] bcast_S1x32_S100000x32_0_1 : (⟨S1x32, .f32⟩ : BufTy).Contents (Elt F) → (⟨S100000x32, .f32⟩ : BufTy).Contents (Elt F)),
    binary main_v92 main_v94 main_v95 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x32, .f32⟩) main_call10_v0) (broadcastInDim S100000x32 ![] bcast_S_S100000x32),
    TRef.binary (TRef.of (T := ⟨S100000x32, .f32⟩) main_v95) (TRef.of (T := ⟨S100000x32, .f32⟩) main_call10_v0) (TRef.of (T := ⟨S100000x32, .f32⟩) main_v96) maximumf,
    binary main_v96 main_arg25 main_v97 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg26 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v97 main_v99 main_v100 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x64, .f32⟩) main_call11_v0) (broadcastInDim S100000x64 ![] bcast_S_S100000x64),
    TRef.binary (TRef.of (T := ⟨S100000x64, .f32⟩) main_v100) (TRef.of (T := ⟨S100000x64, .f32⟩) main_call11_v0) (TRef.of (T := ⟨S100000x64, .f32⟩) main_v101) maximumf ]
set_option maxRecDepth 8192 in
/-- Each touches TensorCore references only. -/
theorem opsE_sub : (opsE : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Every operation determines its results. -/
theorem opsE_fresh : ∀ op ∈ (opsE : List (HloOp τ sig (Elt F))), op.fresh = ∅ := by
  intro _ h; (repeat (cases h with | head => rfl | tail _ h => ?_)); exact nomatch h
/-- The references the operations write. -/
abbrev opsE_W : List (Ref sig .tc) := [main_v87, main_v88, main_v89, main_v90, main_call9_cst, main_call9_v0, main_v91, main_v92, main_v93, main_v94, main_v95, main_call10_cst, main_call10_v0, main_v96, main_v97, main_v98, main_v99, main_v100, main_call11_cst, main_call11_v0, main_v101]
theorem opsE_writes : (opsE : List (HloOp τ sig (Elt F))).Forall fun op => op.writes ⊆ (opsE_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- No operation writes an argument. -/
theorem opsE_args : ∀ r ∈ argRefs, r ∉ opsE_W := by decide

set_option maxHeartbeats 4000000 in
/-- `main_v101` after operations 117 to 137, from contents `W` that hold the stages read: the stage `val_main_v101`. -/
theorem stage_main_v101 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x21 : (⟨S192x64, .f32⟩ : BufTy).Contents (Elt F)) (x22 : (⟨S64, .f32⟩ : BufTy).Contents (Elt F)) (x23 : (⟨S64x32, .f32⟩ : BufTy).Contents (Elt F)) (x24 : (⟨S32, .f32⟩ : BufTy).Contents (Elt F)) (x25 : (⟨S32x64, .f32⟩ : BufTy).Contents (Elt F)) (x26 : (⟨S64, .f32⟩ : BufTy).Contents (Elt F)) (x33 : (⟨S800000, .i32⟩ : BufTy).Contents (Elt F)) (x34 : (⟨S800000, .i32⟩ : BufTy).Contents (Elt F)) (x35 : (⟨S100000, .i32⟩ : BufTy).Contents (Elt F)) (x36 : (⟨S800000, .i32⟩ : BufTy).Contents (Elt F))
    (h_main_v86 : W (Proc.devRef .tc main_v86) = val_main_v86 (F := F) x0 x1 x2 x3 x4 x5 x6 x7 x8 x9 x10 x11 x12 x13 x14 x15 x16 x17 x18 x19 x20 x33 x34 x35 x36)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24)
    (h_main_arg25 : W (Proc.devRef .tc main_arg25) = x25)
    (h_main_arg26 : W (Proc.devRef .tc main_arg26) = x26)
    : after (opsE (F := F)) W (Proc.devRef .tc main_v101) = val_main_v101 (F := F) x0 x1 x2 x3 x4 x5 x6 x7 x8 x9 x10 x11 x12 x13 x14 x15 x16 x17 x18 x19 x20 x21 x22 x23 x24 x25 x26 x33 x34 x35 x36 := by
  after_results_simp
  simp only [ofBuf_toBuf, cast_main_v100_in, cast_main_call11_v0_in, cast_main_v101_in, cast_main_call11_cst_in, cast_main_v95_in, cast_main_call10_v0_in, cast_main_v96_in, cast_main_call10_cst_in, cast_main_v90_in, cast_main_call9_v0_in, cast_main_v91_in, cast_main_call9_cst_in, cast_main_v100_out, cast_main_call11_v0_out, cast_main_v101_out, cast_main_call11_cst_out, cast_main_v95_out, cast_main_call10_v0_out, cast_main_v96_out, cast_main_call10_cst_out, cast_main_v90_out, cast_main_call9_v0_out, cast_main_v91_out, cast_main_call9_cst_out, h_main_v86, h_main_arg21, h_main_arg22, h_main_arg23, h_main_arg24, h_main_arg25, h_main_arg26, val_main_v101, val_main_call11_v0, val_main_call11_cst, val_main_v100, val_main_v99, val_main_v98, val_main_v97, val_main_v96, val_main_call10_v0, val_main_call10_cst, val_main_v95, val_main_v94, val_main_v93, val_main_v92, val_main_v91, val_main_call9_v0, val_main_call9_cst, val_main_v90, val_main_v89, val_main_v88, val_main_v87]
  <;> rfl

/-! ### Operations 138 to 153 -/

/-- Operations 138 to 153 of @main, in order. -/
abbrev opsF1 : List (HloOp τ sig (Elt F)) :=
  [ nullary main_cst_10 (constant S_ .f32 0x00000000#32),
    unary main_cst_10 main_v102 (broadcastInDim S1000x64 ![] bcast_S_S1000x64 : (⟨S_, .f32⟩ : BufTy).Contents (Elt F) → (⟨S1000x64, .f32⟩ : BufTy).Contents (Elt F)),
    unary main_arg36 main_v103 (broadcastInDim S800000x1 ![0] bcast_S800000_S800000x1_0 : (⟨S800000, .i32⟩ : BufTy).Contents (Elt F) → (⟨S800000x1, .i32⟩ : BufTy).Contents (Elt F)),
    ternary main_v102 main_v103 main_v66 main_v104 ((fun x i u => Host.scatterAdd scatter_S1000x64_S800000x1_S800000x64_1_0_0_1 x i u) : (⟨S1000x64, .f32⟩ : BufTy).Contents (Elt F) → (⟨S800000x1, .i32⟩ : BufTy).Contents (Elt F) → (⟨S800000x64, .f32⟩ : BufTy).Contents (Elt F) → (⟨S1000x64, .f32⟩ : BufTy).Contents (Elt F)),
    nullary main_cst_11 (constant S_ .f32 0x3F800000#32),
    unary main_cst_11 main_v105 (broadcastInDim S800000 ![] bcast_S_S800000 : (⟨S_, .f32⟩ : BufTy).Contents (Elt F) → (⟨S800000, .f32⟩ : BufTy).Contents (Elt F)),
    nullary main_cst_12 (constant S_ .f32 0x00000000#32),
    unary main_cst_12 main_v106 (broadcastInDim S1000 ![] bcast_S_S1000 : (⟨S_, .f32⟩ : BufTy).Contents (Elt F) → (⟨S1000, .f32⟩ : BufTy).Contents (Elt F)),
    unary main_arg36 main_v107 (broadcastInDim S800000x1 ![0] bcast_S800000_S800000x1_0 : (⟨S800000, .i32⟩ : BufTy).Contents (Elt F) → (⟨S800000x1, .i32⟩ : BufTy).Contents (Elt F)),
    ternary main_v106 main_v107 main_v105 main_v108 ((fun x i u => Host.scatterAdd scatter_S1000_S800000x1_S800000_n_0_0_1 x i u) : (⟨S1000, .f32⟩ : BufTy).Contents (Elt F) → (⟨S800000x1, .i32⟩ : BufTy).Contents (Elt F) → (⟨S800000, .f32⟩ : BufTy).Contents (Elt F) → (⟨S1000, .f32⟩ : BufTy).Contents (Elt F)),
    nullary main_cst_13 (constant S_ .f32 0x3F800000#32),
    unary main_cst_13 main_v109 (broadcastInDim S1000 ![] bcast_S_S1000 : (⟨S_, .f32⟩ : BufTy).Contents (Elt F) → (⟨S1000, .f32⟩ : BufTy).Contents (Elt F)),
    binary main_v108 main_v109 main_v110 (maximumf : (⟨S1000, .f32⟩ : BufTy).Contents (Elt F) → (⟨S1000, .f32⟩ : BufTy).Contents (Elt F) → (⟨S1000, .f32⟩ : BufTy).Contents (Elt F)),
    unary main_v110 main_v111 (broadcastInDim S1000x1 ![0] bcast_S1000_S1000x1_0 : (⟨S1000, .f32⟩ : BufTy).Contents (Elt F) → (⟨S1000x1, .f32⟩ : BufTy).Contents (Elt F)),
    unary main_v111 main_v112 (broadcastInDim S1000x64 ![0, 1] bcast_S1000x1_S1000x64_0_1 : (⟨S1000x1, .f32⟩ : BufTy).Contents (Elt F) → (⟨S1000x64, .f32⟩ : BufTy).Contents (Elt F)),
    binary main_v104 main_v112 main_v113 (Host.divf : (⟨S1000x64, .f32⟩ : BufTy).Contents (Elt F) → (⟨S1000x64, .f32⟩ : BufTy).Contents (Elt F) → (⟨S1000x64, .f32⟩ : BufTy).Contents (Elt F)) ]
set_option maxRecDepth 8192 in
/-- Each touches TensorCore references only. -/
theorem opsF1_sub : (opsF1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
/-- Every operation determines its results. -/
theorem opsF1_fresh : ∀ op ∈ (opsF1 : List (HloOp τ sig (Elt F))), op.fresh = ∅ := by
  intro _ h; (repeat (cases h with | head => rfl | tail _ h => ?_)); exact nomatch h
/-- The references the operations write. -/
abbrev opsF1_W : List (Ref sig .tc) := [main_cst_10, main_v102, main_v103, main_v104, main_cst_11, main_v105, main_cst_12, main_v106, main_v107, main_v108, main_cst_13, main_v109, main_v110, main_v111, main_v112, main_v113]
theorem opsF1_writes : (opsF1 : List (HloOp τ sig (Elt F))).Forall fun op => op.writes ⊆ (opsF1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem⟩
/-- No operation writes an argument. -/
theorem opsF1_args : ∀ r ∈ argRefs, r ∉ opsF1_W := by decide

set_option maxHeartbeats 4000000 in
/-- `main_v113` after operations 138 to 153, from contents `W` that hold the stages read: the stage `val_main_v113`. -/
theorem stage_main_v113 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x33 : (⟨S800000, .i32⟩ : BufTy).Contents (Elt F)) (x34 : (⟨S800000, .i32⟩ : BufTy).Contents (Elt F)) (x36 : (⟨S800000, .i32⟩ : BufTy).Contents (Elt F))
    (h_main_v66 : W (Proc.devRef .tc main_v66) = val_main_v66 (F := F) x0 x1 x2 x3 x4 x5 x6 x7 x8 x9 x10 x11 x12 x13 x14 x15 x16 x17 x18 x19 x20 x33 x34 x36)
    (h_main_arg36 : W (Proc.devRef .tc main_arg36) = x36)
    : after (opsF1 (F := F)) W (Proc.devRef .tc main_v113) = val_main_v113 (F := F) x0 x1 x2 x3 x4 x5 x6 x7 x8 x9 x10 x11 x12 x13 x14 x15 x16 x17 x18 x19 x20 x33 x34 x36 := by
  after_results_simp
  simp only [ofBuf_toBuf, h_main_v66, h_main_arg36, val_main_v113, val_main_v112, val_main_v111, val_main_v110, val_main_v109, val_main_cst_13, val_main_v108, val_main_v107, val_main_v106, val_main_cst_12, val_main_v105, val_main_cst_11, val_main_v104, val_main_v103, val_main_v102, val_main_cst_10]
  <;> rfl

/-! ### Operations 154 to 169 -/

/-- Operations 154 to 169 of @main, in order. -/
abbrev opsF2 : List (HloOp τ sig (Elt F)) :=
  [ nullary main_cst_14 (constant S_ .f32 0x00000000#32),
    unary main_cst_14 main_v114 (broadcastInDim S1000x64 ![] bcast_S_S1000x64 : (⟨S_, .f32⟩ : BufTy).Contents (Elt F) → (⟨S1000x64, .f32⟩ : BufTy).Contents (Elt F)),
    unary main_arg35 main_v115 (broadcastInDim S100000x1 ![0] bcast_S100000_S100000x1_0 : (⟨S100000, .i32⟩ : BufTy).Contents (Elt F) → (⟨S100000x1, .i32⟩ : BufTy).Contents (Elt F)),
    ternary main_v114 main_v115 main_v101 main_v116 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)),
    nullary main_cst_15 (constant S_ .f32 0x3F800000#32),
    unary main_cst_15 main_v117 (broadcastInDim S100000 ![] bcast_S_S100000 : (⟨S_, .f32⟩ : BufTy).Contents (Elt F) → (⟨S100000, .f32⟩ : BufTy).Contents (Elt F)),
    nullary main_cst_16 (constant S_ .f32 0x00000000#32),
    unary main_cst_16 main_v118 (broadcastInDim S1000 ![] bcast_S_S1000 : (⟨S_, .f32⟩ : BufTy).Contents (Elt F) → (⟨S1000, .f32⟩ : BufTy).Contents (Elt F)),
    unary main_arg35 main_v119 (broadcastInDim S100000x1 ![0] bcast_S100000_S100000x1_0 : (⟨S100000, .i32⟩ : BufTy).Contents (Elt F) → (⟨S100000x1, .i32⟩ : BufTy).Contents (Elt F)),
    ternary main_v118 main_v119 main_v117 main_v120 ((fun x i u => Host.scatterAdd scatter_S1000_S100000x1_S100000_n_0_0_1 x i u) : (⟨S1000, .f32⟩ : BufTy).Contents (Elt F) → (⟨S100000x1, .i32⟩ : BufTy).Contents (Elt F) → (⟨S100000, .f32⟩ : BufTy).Contents (Elt F) → (⟨S1000, .f32⟩ : BufTy).Contents (Elt F)),
    nullary main_cst_17 (constant S_ .f32 0x3F800000#32),
    unary main_cst_17 main_v121 (broadcastInDim S1000 ![] bcast_S_S1000 : (⟨S_, .f32⟩ : BufTy).Contents (Elt F) → (⟨S1000, .f32⟩ : BufTy).Contents (Elt F)),
    binary main_v120 main_v121 main_v122 (maximumf : (⟨S1000, .f32⟩ : BufTy).Contents (Elt F) → (⟨S1000, .f32⟩ : BufTy).Contents (Elt F) → (⟨S1000, .f32⟩ : BufTy).Contents (Elt F)),
    unary main_v122 main_v123 (broadcastInDim S1000x1 ![0] bcast_S1000_S1000x1_0 : (⟨S1000, .f32⟩ : BufTy).Contents (Elt F) → (⟨S1000x1, .f32⟩ : BufTy).Contents (Elt F)),
    unary main_v123 main_v124 (broadcastInDim S1000x64 ![0, 1] bcast_S1000x1_S1000x64_0_1 : (⟨S1000x1, .f32⟩ : BufTy).Contents (Elt F) → (⟨S1000x64, .f32⟩ : BufTy).Contents (Elt F)),
    binary main_v116 main_v124 main_v125 (Host.divf : (⟨S1000x64, .f32⟩ : BufTy).Contents (Elt F) → (⟨S1000x64, .f32⟩ : BufTy).Contents (Elt F) → (⟨S1000x64, .f32⟩ : BufTy).Contents (Elt F)) ]
set_option maxRecDepth 8192 in
/-- Each touches TensorCore references only. -/
theorem opsF2_sub : (opsF2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
/-- Every operation determines its results. -/
theorem opsF2_fresh : ∀ op ∈ (opsF2 : List (HloOp τ sig (Elt F))), op.fresh = ∅ := by
  intro _ h; (repeat (cases h with | head => rfl | tail _ h => ?_)); exact nomatch h
/-- The references the operations write. -/
abbrev opsF2_W : List (Ref sig .tc) := [main_cst_14, main_v114, main_v115, main_v116, main_cst_15, main_v117, main_cst_16, main_v118, main_v119, main_v120, main_cst_17, main_v121, main_v122, main_v123, main_v124, main_v125]
theorem opsF2_writes : (opsF2 : List (HloOp τ sig (Elt F))).Forall fun op => op.writes ⊆ (opsF2_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem⟩
/-- No operation writes an argument. -/
theorem opsF2_args : ∀ r ∈ argRefs, r ∉ opsF2_W := by decide

set_option maxHeartbeats 4000000 in
/-- `main_v125` after operations 154 to 169, from contents `W` that hold the stages read: the stage `val_main_v125`. -/
theorem stage_main_v125 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x21 : (⟨S192x64, .f32⟩ : BufTy).Contents (Elt F)) (x22 : (⟨S64, .f32⟩ : BufTy).Contents (Elt F)) (x23 : (⟨S64x32, .f32⟩ : BufTy).Contents (Elt F)) (x24 : (⟨S32, .f32⟩ : BufTy).Contents (Elt F)) (x25 : (⟨S32x64, .f32⟩ : BufTy).Contents (Elt F)) (x26 : (⟨S64, .f32⟩ : BufTy).Contents (Elt F)) (x33 : (⟨S800000, .i32⟩ : BufTy).Contents (Elt F)) (x34 : (⟨S800000, .i32⟩ : BufTy).Contents (Elt F)) (x35 : (⟨S100000, .i32⟩ : BufTy).Contents (Elt F)) (x36 : (⟨S800000, .i32⟩ : BufTy).Contents (Elt F))
    (h_main_v101 : W (Proc.devRef .tc main_v101) = val_main_v101 (F := F) x0 x1 x2 x3 x4 x5 x6 x7 x8 x9 x10 x11 x12 x13 x14 x15 x16 x17 x18 x19 x20 x21 x22 x23 x24 x25 x26 x33 x34 x35 x36)
    (h_main_arg35 : W (Proc.devRef .tc main_arg35) = x35)
    : after (opsF2 (F := F)) W (Proc.devRef .tc main_v125) = val_main_v125 (F := F) x0 x1 x2 x3 x4 x5 x6 x7 x8 x9 x10 x11 x12 x13 x14 x15 x16 x17 x18 x19 x20 x21 x22 x23 x24 x25 x26 x33 x34 x35 x36 := by
  after_results_simp
  simp only [ofBuf_toBuf, h_main_v101, h_main_arg35, val_main_v125, val_main_v124, val_main_v123, val_main_v122, val_main_v121, val_main_cst_17, val_main_v120, val_main_v119, val_main_v118, val_main_cst_16, val_main_v117, val_main_cst_15, val_main_v116, val_main_v115, val_main_v114, val_main_cst_14]
  <;> rfl

/-! ### Operations 170 to 170 -/

/-- Operations 170 to 170 of @main, in order. -/
abbrev opsG0 : List (HloOp τ sig (Elt F)) :=
  [ nary ![main_v113, main_v125, main_v29] main_v126 (fun u => concatenate S1000x192 1 [⟨S1000x64, u 0⟩, ⟨S1000x64, u 1⟩, ⟨S1000x64, u 2⟩] concatenates_S1000x64_S1000x64_S1000x64_S1000x192_d1) ]
set_option maxRecDepth 8192 in
/-- Each touches TensorCore references only. -/
theorem opsG0_sub : (opsG0 : List (HloOp τ sig (Elt F))).Forall fun op => op.bufs ⊆ tcRefs τ sig :=
  nary_bufs_sub ..
/-- Every operation determines its results. -/
theorem opsG0_fresh : ∀ op ∈ (opsG0 : List (HloOp τ sig (Elt F))), op.fresh = ∅ := by
  intro _ h; (repeat (cases h with | head => rfl | tail _ h => ?_)); exact nomatch h
/-- The references the operations write. -/
abbrev opsG0_W : List (Ref sig .tc) := [main_v126]
theorem opsG0_writes : (opsG0 : List (HloOp τ sig (Elt F))).Forall fun op => op.writes ⊆ (opsG0_W.map (Proc.devRef (τ := τ) .tc)).toFinset := by
  simp only [List.Forall]; exact (by writes_mem)
/-- No operation writes an argument. -/
theorem opsG0_args : ∀ r ∈ argRefs, r ∉ opsG0_W := by decide

set_option maxHeartbeats 4000000 in
/-- `main_v126` after operations 170 to 170, from contents `W` that hold the stages read: the stage `val_main_v126`. -/
theorem stage_main_v126 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x21 : (⟨S192x64, .f32⟩ : BufTy).Contents (Elt F)) (x22 : (⟨S64, .f32⟩ : BufTy).Contents (Elt F)) (x23 : (⟨S64x32, .f32⟩ : BufTy).Contents (Elt F)) (x24 : (⟨S32, .f32⟩ : BufTy).Contents (Elt F)) (x25 : (⟨S32x64, .f32⟩ : BufTy).Contents (Elt F)) (x26 : (⟨S64, .f32⟩ : BufTy).Contents (Elt F)) (x33 : (⟨S800000, .i32⟩ : BufTy).Contents (Elt F)) (x34 : (⟨S800000, .i32⟩ : BufTy).Contents (Elt F)) (x35 : (⟨S100000, .i32⟩ : BufTy).Contents (Elt F)) (x36 : (⟨S800000, .i32⟩ : BufTy).Contents (Elt F))
    (h_main_v29 : W (Proc.devRef .tc main_v29) = val_main_v29 (F := F) x2 x11 x12 x13 x14)
    (h_main_v113 : W (Proc.devRef .tc main_v113) = val_main_v113 (F := F) x0 x1 x2 x3 x4 x5 x6 x7 x8 x9 x10 x11 x12 x13 x14 x15 x16 x17 x18 x19 x20 x33 x34 x36)
    (h_main_v125 : W (Proc.devRef .tc main_v125) = val_main_v125 (F := F) x0 x1 x2 x3 x4 x5 x6 x7 x8 x9 x10 x11 x12 x13 x14 x15 x16 x17 x18 x19 x20 x21 x22 x23 x24 x25 x26 x33 x34 x35 x36)
    : after (opsG0 (F := F)) W (Proc.devRef .tc main_v126) = val_main_v126 (F := F) x0 x1 x2 x3 x4 x5 x6 x7 x8 x9 x10 x11 x12 x13 x14 x15 x16 x17 x18 x19 x20 x21 x22 x23 x24 x25 x26 x33 x34 x35 x36 := by
  simp only [after_cons, after_nil]
  rw [nary3_result]
  show concatenate S1000x192 1 [⟨S1000x64, W (Proc.devRef .tc main_v113)⟩, ⟨S1000x64, W (Proc.devRef .tc main_v125)⟩, ⟨S1000x64, W (Proc.devRef .tc main_v29)⟩] concatenates_S1000x64_S1000x64_S1000x64_S1000x192_d1 = _
  rw [h_main_v29, h_main_v113, h_main_v125]
  simp only [val_main_v126]

/-! ### Operations 171 to 191 -/

/-- Operations 171 to 191 of @main, in order. -/
abbrev opsG : List (HloOp τ sig (Elt F)) :=
  [ binary main_v126 main_arg27 main_v127 ((fun l r => Host.dotGeneral dot_S1000x192_S192x64_S1000x64_1_0_0_1_n_n none l r) : (⟨S1000x192, .f32⟩ : BufTy).Contents (Elt F) → (⟨S192x64, .f32⟩ : BufTy).Contents (Elt F) → (⟨S1000x64, .f32⟩ : BufTy).Contents (Elt F)),
    unary main_arg28 main_v128 (broadcastInDim S1x64 ![1] bcast_S64_S1x64_1 : (⟨S64, .f32⟩ : BufTy).Contents (Elt F) → (⟨S1x64, .f32⟩ : BufTy).Contents (Elt F)),
    unary main_v128 main_v129 (broadcastInDim S1000x64 ![0, 1] bcast_S1x64_S1000x64_0_1 : (⟨S1x64, .f32⟩ : BufTy).Contents (Elt F) → (⟨S1000x64, .f32⟩ : BufTy).Contents (Elt F)),
    binary main_v127 main_v129 main_v130 (addf : (⟨S1000x64, .f32⟩ : BufTy).Contents (Elt F) → (⟨S1000x64, .f32⟩ : BufTy).Contents (Elt F) → (⟨S1000x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1000x64, .f32⟩) main_call12_v0) (broadcastInDim S1000x64 ![] bcast_S_S1000x64),
    TRef.binary (TRef.of (T := ⟨S1000x64, .f32⟩) main_v130) (TRef.of (T := ⟨S1000x64, .f32⟩) main_call12_v0) (TRef.of (T := ⟨S1000x64, .f32⟩) main_v131) maximumf,
    binary main_v131 main_arg29 main_v132 ((fun l r => Host.dotGeneral dot_S1000x64_S64x32_S1000x32_1_0_0_1_n_n none l r) : (⟨S1000x64, .f32⟩ : BufTy).Contents (Elt F) → (⟨S64x32, .f32⟩ : BufTy).Contents (Elt F) → (⟨S1000x32, .f32⟩ : BufTy).Contents (Elt F)),
    unary main_arg30 main_v133 (broadcastInDim S1x32 ![1] bcast_S32_S1x32_1 : (⟨S32, .f32⟩ : BufTy).Contents (Elt F) → (⟨S1x32, .f32⟩ : BufTy).Contents (Elt F)),
    unary main_v133 main_v134 (broadcastInDim S1000x32 ![0, 1] bcast_S1x32_S1000x32_0_1 : (⟨S1x32, .f32⟩ : BufTy).Contents (Elt F) → (⟨S1000x32, .f32⟩ : BufTy).Contents (Elt F)),
    binary main_v132 main_v134 main_v135 (addf : (⟨S1000x32, .f32⟩ : BufTy).Contents (Elt F) → (⟨S1000x32, .f32⟩ : BufTy).Contents (Elt F) → (⟨S1000x32, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S1000x32, .f32⟩) main_call13_v0) (broadcastInDim S1000x32 ![] bcast_S_S1000x32),
    TRef.binary (TRef.of (T := ⟨S1000x32, .f32⟩) main_v135) (TRef.of (T := ⟨S1000x32, .f32⟩) main_call13_v0) (TRef.of (T := ⟨S1000x32, .f32⟩) main_v136) maximumf,
    binary main_v136 main_arg31 main_v137 ((fun l r => Host.dotGeneral dot_S1000x32_S32x64_S1000x64_1_0_0_1_n_n none l r) : (⟨S1000x32, .f32⟩ : BufTy).Contents (Elt F) → (⟨S32x64, .f32⟩ : BufTy).Contents (Elt F) → (⟨S1000x64, .f32⟩ : BufTy).Contents (Elt F)),
    unary main_arg32 main_v138 (broadcastInDim S1x64 ![1] bcast_S64_S1x64_1 : (⟨S64, .f32⟩ : BufTy).Contents (Elt F) → (⟨S1x64, .f32⟩ : BufTy).Contents (Elt F)),
    unary main_v138 main_v139 (broadcastInDim S1000x64 ![0, 1] bcast_S1x64_S1000x64_0_1 : (⟨S1x64, .f32⟩ : BufTy).Contents (Elt F) → (⟨S1000x64, .f32⟩ : BufTy).Contents (Elt F)),
    binary main_v137 main_v139 main_v140 (addf : (⟨S1000x64, .f32⟩ : BufTy).Contents (Elt F) → (⟨S1000x64, .f32⟩ : BufTy).Contents (Elt F) → (⟨S1000x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S1000x64, .f32⟩) main_call14_v0) (broadcastInDim S1000x64 ![] bcast_S_S1000x64),
    TRef.binary (TRef.of (T := ⟨S1000x64, .f32⟩) main_v140) (TRef.of (T := ⟨S1000x64, .f32⟩) main_call14_v0) (TRef.of (T := ⟨S1000x64, .f32⟩) main_v141) maximumf ]
set_option maxRecDepth 8192 in
/-- Each touches TensorCore references only. -/
theorem opsG_sub : (opsG : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Every operation determines its results. -/
theorem opsG_fresh : ∀ op ∈ (opsG : List (HloOp τ sig (Elt F))), op.fresh = ∅ := by
  intro _ h; (repeat (cases h with | head => rfl | tail _ h => ?_)); exact nomatch h
/-- The references the operations write. -/
abbrev opsG_W : List (Ref sig .tc) := [main_v127, main_v128, main_v129, main_v130, main_call12_cst, main_call12_v0, main_v131, main_v132, main_v133, main_v134, main_v135, main_call13_cst, main_call13_v0, main_v136, main_v137, main_v138, main_v139, main_v140, main_call14_cst, main_call14_v0, main_v141]
theorem opsG_writes : (opsG : List (HloOp τ sig (Elt F))).Forall fun op => op.writes ⊆ (opsG_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- No operation writes an argument. -/
theorem opsG_args : ∀ r ∈ argRefs, r ∉ opsG_W := by decide

set_option maxHeartbeats 4000000 in
/-- `main_v141` after operations 171 to 191, from contents `W` that hold the stages read: the stage `val_main_v141`. -/
theorem stage_main_v141 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x21 : (⟨S192x64, .f32⟩ : BufTy).Contents (Elt F)) (x22 : (⟨S64, .f32⟩ : BufTy).Contents (Elt F)) (x23 : (⟨S64x32, .f32⟩ : BufTy).Contents (Elt F)) (x24 : (⟨S32, .f32⟩ : BufTy).Contents (Elt F)) (x25 : (⟨S32x64, .f32⟩ : BufTy).Contents (Elt F)) (x26 : (⟨S64, .f32⟩ : BufTy).Contents (Elt F)) (x27 : (⟨S192x64, .f32⟩ : BufTy).Contents (Elt F)) (x28 : (⟨S64, .f32⟩ : BufTy).Contents (Elt F)) (x29 : (⟨S64x32, .f32⟩ : BufTy).Contents (Elt F)) (x30 : (⟨S32, .f32⟩ : BufTy).Contents (Elt F)) (x31 : (⟨S32x64, .f32⟩ : BufTy).Contents (Elt F)) (x32 : (⟨S64, .f32⟩ : BufTy).Contents (Elt F)) (x33 : (⟨S800000, .i32⟩ : BufTy).Contents (Elt F)) (x34 : (⟨S800000, .i32⟩ : BufTy).Contents (Elt F)) (x35 : (⟨S100000, .i32⟩ : BufTy).Contents (Elt F)) (x36 : (⟨S800000, .i32⟩ : BufTy).Contents (Elt F))
    (h_main_v126 : W (Proc.devRef .tc main_v126) = val_main_v126 (F := F) x0 x1 x2 x3 x4 x5 x6 x7 x8 x9 x10 x11 x12 x13 x14 x15 x16 x17 x18 x19 x20 x21 x22 x23 x24 x25 x26 x33 x34 x35 x36)
    (h_main_arg27 : W (Proc.devRef .tc main_arg27) = x27)
    (h_main_arg28 : W (Proc.devRef .tc main_arg28) = x28)
    (h_main_arg29 : W (Proc.devRef .tc main_arg29) = x29)
    (h_main_arg30 : W (Proc.devRef .tc main_arg30) = x30)
    (h_main_arg31 : W (Proc.devRef .tc main_arg31) = x31)
    (h_main_arg32 : W (Proc.devRef .tc main_arg32) = x32)
    : after (opsG (F := F)) W (Proc.devRef .tc main_v141) = val_main_v141 (F := F) x0 x1 x2 x3 x4 x5 x6 x7 x8 x9 x10 x11 x12 x13 x14 x15 x16 x17 x18 x19 x20 x21 x22 x23 x24 x25 x26 x27 x28 x29 x30 x31 x32 x33 x34 x35 x36 := by
  after_results_simp
  simp only [ofBuf_toBuf, cast_main_v140_in, cast_main_call14_v0_in, cast_main_v141_in, cast_main_call14_cst_in, cast_main_v135_in, cast_main_call13_v0_in, cast_main_v136_in, cast_main_call13_cst_in, cast_main_v130_in, cast_main_call12_v0_in, cast_main_v131_in, cast_main_call12_cst_in, cast_main_v140_out, cast_main_call14_v0_out, cast_main_v141_out, cast_main_call14_cst_out, cast_main_v135_out, cast_main_call13_v0_out, cast_main_v136_out, cast_main_call13_cst_out, cast_main_v130_out, cast_main_call12_v0_out, cast_main_v131_out, cast_main_call12_cst_out, h_main_v126, h_main_arg27, h_main_arg28, h_main_arg29, h_main_arg30, h_main_arg31, h_main_arg32, val_main_v141, val_main_call14_v0, val_main_call14_cst, val_main_v140, val_main_v139, val_main_v138, val_main_v137, val_main_v136, val_main_call13_v0, val_main_call13_cst, val_main_v135, val_main_v134, val_main_v133, val_main_v132, val_main_v131, val_main_call12_v0, val_main_call12_cst, val_main_v130, val_main_v129, val_main_v128, val_main_v127]
  <;> rfl

/-! ### Operations 192 to 194 -/

/-- Operations 192 to 194 of @main, in order. -/
abbrev opsH : List (HloOp τ sig (Elt F)) :=
  [ binary main_v101 main_v9 main_v142 (addf : (⟨S100000x64, .f32⟩ : BufTy).Contents (Elt F) → (⟨S100000x64, .f32⟩ : BufTy).Contents (Elt F) → (⟨S100000x64, .f32⟩ : BufTy).Contents (Elt F)),
    binary main_v66 main_v19 main_v143 (addf : (⟨S800000x64, .f32⟩ : BufTy).Contents (Elt F) → (⟨S800000x64, .f32⟩ : BufTy).Contents (Elt F) → (⟨S800000x64, .f32⟩ : BufTy).Contents (Elt F)),
    binary main_v141 main_v29 main_v144 (addf : (⟨S1000x64, .f32⟩ : BufTy).Contents (Elt F) → (⟨S1000x64, .f32⟩ : BufTy).Contents (Elt F) → (⟨S1000x64, .f32⟩ : BufTy).Contents (Elt F)) ]
set_option maxRecDepth 8192 in
/-- Each touches TensorCore references only. -/
theorem opsH_sub : (opsH : List (HloOp τ sig (Elt F))).Forall fun op => op.bufs ⊆ tcRefs τ sig :=
  ⟨binary_bufs_sub .., binary_bufs_sub .., binary_bufs_sub ..⟩
/-- Every operation determines its results. -/
theorem opsH_fresh : ∀ op ∈ (opsH : List (HloOp τ sig (Elt F))), op.fresh = ∅ := by
  intro _ h; (repeat (cases h with | head => rfl | tail _ h => ?_)); exact nomatch h
/-- The references the operations write. -/
abbrev opsH_W : List (Ref sig .tc) := [main_v142, main_v143, main_v144]
theorem opsH_writes : (opsH : List (HloOp τ sig (Elt F))).Forall fun op => op.writes ⊆ (opsH_W.map (Proc.devRef (τ := τ) .tc)).toFinset := by
  simp only [List.Forall]; exact ⟨by writes_mem, by writes_mem, by writes_mem⟩
/-- No operation writes an argument. -/
theorem opsH_args : ∀ r ∈ argRefs, r ∉ opsH_W := by decide

set_option maxHeartbeats 4000000 in
/-- `main_v142` after operations 192 to 194, from contents `W` that hold the stages read: the stage `val_main_v142`. -/
theorem stage_main_v142 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x21 : (⟨S192x64, .f32⟩ : BufTy).Contents (Elt F)) (x22 : (⟨S64, .f32⟩ : BufTy).Contents (Elt F)) (x23 : (⟨S64x32, .f32⟩ : BufTy).Contents (Elt F)) (x24 : (⟨S32, .f32⟩ : BufTy).Contents (Elt F)) (x25 : (⟨S32x64, .f32⟩ : BufTy).Contents (Elt F)) (x26 : (⟨S64, .f32⟩ : BufTy).Contents (Elt F)) (x33 : (⟨S800000, .i32⟩ : BufTy).Contents (Elt F)) (x34 : (⟨S800000, .i32⟩ : BufTy).Contents (Elt F)) (x35 : (⟨S100000, .i32⟩ : BufTy).Contents (Elt F)) (x36 : (⟨S800000, .i32⟩ : BufTy).Contents (Elt F))
    (h_main_v9 : W (Proc.devRef .tc main_v9) = val_main_v9 (F := F) x0 x3 x4 x5 x6)
    (h_main_v101 : W (Proc.devRef .tc main_v101) = val_main_v101 (F := F) x0 x1 x2 x3 x4 x5 x6 x7 x8 x9 x10 x11 x12 x13 x14 x15 x16 x17 x18 x19 x20 x21 x22 x23 x24 x25 x26 x33 x34 x35 x36)
    : after (opsH (F := F)) W (Proc.devRef .tc main_v142) = val_main_v142 (F := F) x0 x1 x2 x3 x4 x5 x6 x7 x8 x9 x10 x11 x12 x13 x14 x15 x16 x17 x18 x19 x20 x21 x22 x23 x24 x25 x26 x33 x34 x35 x36 := by
  after_results_simp
  simp only [ofBuf_toBuf, h_main_v9, h_main_v101, val_main_v142]
  <;> rfl

set_option maxHeartbeats 4000000 in
/-- `main_v143` after operations 192 to 194, from contents `W` that hold the stages read: the stage `val_main_v143`. -/
theorem stage_main_v143 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x33 : (⟨S800000, .i32⟩ : BufTy).Contents (Elt F)) (x34 : (⟨S800000, .i32⟩ : BufTy).Contents (Elt F)) (x36 : (⟨S800000, .i32⟩ : BufTy).Contents (Elt F))
    (h_main_v19 : W (Proc.devRef .tc main_v19) = val_main_v19 (F := F) x1 x7 x8 x9 x10)
    (h_main_v66 : W (Proc.devRef .tc main_v66) = val_main_v66 (F := F) x0 x1 x2 x3 x4 x5 x6 x7 x8 x9 x10 x11 x12 x13 x14 x15 x16 x17 x18 x19 x20 x33 x34 x36)
    : after (opsH (F := F)) W (Proc.devRef .tc main_v143) = val_main_v143 (F := F) x0 x1 x2 x3 x4 x5 x6 x7 x8 x9 x10 x11 x12 x13 x14 x15 x16 x17 x18 x19 x20 x33 x34 x36 := by
  after_results_simp
  simp only [ofBuf_toBuf, h_main_v19, h_main_v66, val_main_v143]
  <;> rfl

set_option maxHeartbeats 4000000 in
/-- `main_v144` after operations 192 to 194, from contents `W` that hold the stages read: the stage `val_main_v144`. -/
theorem stage_main_v144 (W : Valuation τ sig (Elt F)) (x0 : (⟨S100000x64, .f32⟩ : BufTy).Contents (Elt F)) (x1 : (⟨S800000x64, .f32⟩ : BufTy).Contents (Elt F)) (x2 : (⟨S1000x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S256x64, .f32⟩ : BufTy).Contents (Elt F)) (x16 : (⟨S64, .f32⟩ : BufTy).Contents (Elt F)) (x17 : (⟨S64x32, .f32⟩ : BufTy).Contents (Elt F)) (x18 : (⟨S32, .f32⟩ : BufTy).Contents (Elt F)) (x19 : (⟨S32x64, .f32⟩ : BufTy).Contents (Elt F)) (x20 : (⟨S64, .f32⟩ : BufTy).Contents (Elt F)) (x21 : (⟨S192x64, .f32⟩ : BufTy).Contents (Elt F)) (x22 : (⟨S64, .f32⟩ : BufTy).Contents (Elt F)) (x23 : (⟨S64x32, .f32⟩ : BufTy).Contents (Elt F)) (x24 : (⟨S32, .f32⟩ : BufTy).Contents (Elt F)) (x25 : (⟨S32x64, .f32⟩ : BufTy).Contents (Elt F)) (x26 : (⟨S64, .f32⟩ : BufTy).Contents (Elt F)) (x27 : (⟨S192x64, .f32⟩ : BufTy).Contents (Elt F)) (x28 : (⟨S64, .f32⟩ : BufTy).Contents (Elt F)) (x29 : (⟨S64x32, .f32⟩ : BufTy).Contents (Elt F)) (x30 : (⟨S32, .f32⟩ : BufTy).Contents (Elt F)) (x31 : (⟨S32x64, .f32⟩ : BufTy).Contents (Elt F)) (x32 : (⟨S64, .f32⟩ : BufTy).Contents (Elt F)) (x33 : (⟨S800000, .i32⟩ : BufTy).Contents (Elt F)) (x34 : (⟨S800000, .i32⟩ : BufTy).Contents (Elt F)) (x35 : (⟨S100000, .i32⟩ : BufTy).Contents (Elt F)) (x36 : (⟨S800000, .i32⟩ : BufTy).Contents (Elt F))
    (h_main_v29 : W (Proc.devRef .tc main_v29) = val_main_v29 (F := F) x2 x11 x12 x13 x14)
    (h_main_v141 : W (Proc.devRef .tc main_v141) = val_main_v141 (F := F) x0 x1 x2 x3 x4 x5 x6 x7 x8 x9 x10 x11 x12 x13 x14 x15 x16 x17 x18 x19 x20 x21 x22 x23 x24 x25 x26 x27 x28 x29 x30 x31 x32 x33 x34 x35 x36)
    : after (opsH (F := F)) W (Proc.devRef .tc main_v144) = val_main_v144 (F := F) x0 x1 x2 x3 x4 x5 x6 x7 x8 x9 x10 x11 x12 x13 x14 x15 x16 x17 x18 x19 x20 x21 x22 x23 x24 x25 x26 x27 x28 x29 x30 x31 x32 x33 x34 x35 x36 := by
  after_results_simp
  simp only [ofBuf_toBuf, h_main_v29, h_main_v141, val_main_v144]
  <;> rfl

/-! ## The fold from the launch memory -/

variable (m : (ℓ : Loc nD τ sig) → Buf (Elt F) ℓ) (c : Dev nD)

/-- The contents at launch. -/
abbrev VL : Valuation τ sig (Elt F) := launchContents m c
theorem argL (r : Ref sig .tc) (hr : r ∈ argRefs) : VL m c (Proc.devRef .tc r) = m ((c.tc : Thread nD τ).loc r) := rfl

/-- The contents after operations 0 to 13. -/
def VA1 : Valuation τ sig (Elt F) := after (opsA1 (F := F)) (VL m c)
theorem argA1 (r : Ref sig .tc) (hr : r ∈ argRefs) : VA1 m c (Proc.devRef .tc r) = m ((c.tc : Thread nD τ).loc r) :=
  (after_of_writes_sub opsA1 _ opsA1_writes (opsA1_args r hr)).trans (argL m c r hr)
theorem atA1_main_v9 : VA1 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  stage_main_v9 (VL m c) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (argL m c main_arg0 (by decide)) (argL m c main_arg3 (by decide)) (argL m c main_arg4 (by decide)) (argL m c main_arg5 (by decide)) (argL m c main_arg6 (by decide))

/-- The contents after operations 14 to 27. -/
def VA2 : Valuation τ sig (Elt F) := after (opsA2 (F := F)) (VA1 m c)
theorem argA2 (r : Ref sig .tc) (hr : r ∈ argRefs) : VA2 m c (Proc.devRef .tc r) = m ((c.tc : Thread nD τ).loc r) :=
  (after_of_writes_sub opsA2 _ opsA2_writes (opsA2_args r hr)).trans (argA1 m c r hr)
theorem atA2_main_v9 : VA2 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsA2 _ opsA2_writes (by decide)).trans (atA1_main_v9 m c)
theorem atA2_main_v19 : VA2 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  stage_main_v19 (VA1 m c) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) (argA1 m c main_arg1 (by decide)) (argA1 m c main_arg7 (by decide)) (argA1 m c main_arg8 (by decide)) (argA1 m c main_arg9 (by decide)) (argA1 m c main_arg10 (by decide))

/-- The contents after operations 28 to 41. -/
def VA3 : Valuation τ sig (Elt F) := after (opsA3 (F := F)) (VA2 m c)
theorem argA3 (r : Ref sig .tc) (hr : r ∈ argRefs) : VA3 m c (Proc.devRef .tc r) = m ((c.tc : Thread nD τ).loc r) :=
  (after_of_writes_sub opsA3 _ opsA3_writes (opsA3_args r hr)).trans (argA2 m c r hr)
theorem atA3_main_v9 : VA3 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsA3 _ opsA3_writes (by decide)).trans (atA2_main_v9 m c)
theorem atA3_main_v19 : VA3 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsA3 _ opsA3_writes (by decide)).trans (atA2_main_v19 m c)
theorem atA3_main_v29 : VA3 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  stage_main_v29 (VA2 m c) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (argA2 m c main_arg2 (by decide)) (argA2 m c main_arg11 (by decide)) (argA2 m c main_arg12 (by decide)) (argA2 m c main_arg13 (by decide)) (argA2 m c main_arg14 (by decide))

/-- The contents after operations 42 to 50. -/
def VB1 : Valuation τ sig (Elt F) := after (opsB1 (F := F)) (VA3 m c)
theorem argB1 (r : Ref sig .tc) (hr : r ∈ argRefs) : VB1 m c (Proc.devRef .tc r) = m ((c.tc : Thread nD τ).loc r) :=
  (after_of_writes_sub opsB1 _ opsB1_writes (opsB1_args r hr)).trans (argA3 m c r hr)
theorem atB1_main_v9 : VB1 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsB1 _ opsB1_writes (by decide)).trans (atA3_main_v9 m c)
theorem atB1_main_v19 : VB1 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsB1 _ opsB1_writes (by decide)).trans (atA3_main_v19 m c)
theorem atB1_main_v29 : VB1 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsB1 _ opsB1_writes (by decide)).trans (atA3_main_v29 m c)
theorem atB1_main_v36 : VB1 m c (Proc.devRef .tc main_v36) = val_main_v36 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg33)) :=
  stage_main_v36 (VA3 m c) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg33)) (atA3_main_v9 m c) (argA3 m c main_arg33 (by decide))

/-- The contents after operations 51 to 59. -/
def VB2 : Valuation τ sig (Elt F) := after (opsB2 (F := F)) (VB1 m c)
theorem argB2 (r : Ref sig .tc) (hr : r ∈ argRefs) : VB2 m c (Proc.devRef .tc r) = m ((c.tc : Thread nD τ).loc r) :=
  (after_of_writes_sub opsB2 _ opsB2_writes (opsB2_args r hr)).trans (argB1 m c r hr)
theorem atB2_main_v9 : VB2 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsB2 _ opsB2_writes (by decide)).trans (atB1_main_v9 m c)
theorem atB2_main_v19 : VB2 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsB2 _ opsB2_writes (by decide)).trans (atB1_main_v19 m c)
theorem atB2_main_v29 : VB2 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsB2 _ opsB2_writes (by decide)).trans (atB1_main_v29 m c)
theorem atB2_main_v36 : VB2 m c (Proc.devRef .tc main_v36) = val_main_v36 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg33)) :=
  (after_of_writes_sub opsB2 _ opsB2_writes (by decide)).trans (atB1_main_v36 m c)
theorem atB2_main_v43 : VB2 m c (Proc.devRef .tc main_v43) = val_main_v43 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg34)) :=
  stage_main_v43 (VB1 m c) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg34)) (atB1_main_v9 m c) (argB1 m c main_arg34 (by decide))

/-- The contents after operations 60 to 68. -/
def VB3 : Valuation τ sig (Elt F) := after (opsB3 (F := F)) (VB2 m c)
theorem argB3 (r : Ref sig .tc) (hr : r ∈ argRefs) : VB3 m c (Proc.devRef .tc r) = m ((c.tc : Thread nD τ).loc r) :=
  (after_of_writes_sub opsB3 _ opsB3_writes (opsB3_args r hr)).trans (argB2 m c r hr)
theorem atB3_main_v9 : VB3 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsB3 _ opsB3_writes (by decide)).trans (atB2_main_v9 m c)
theorem atB3_main_v19 : VB3 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsB3 _ opsB3_writes (by decide)).trans (atB2_main_v19 m c)
theorem atB3_main_v29 : VB3 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsB3 _ opsB3_writes (by decide)).trans (atB2_main_v29 m c)
theorem atB3_main_v36 : VB3 m c (Proc.devRef .tc main_v36) = val_main_v36 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg33)) :=
  (after_of_writes_sub opsB3 _ opsB3_writes (by decide)).trans (atB2_main_v36 m c)
theorem atB3_main_v43 : VB3 m c (Proc.devRef .tc main_v43) = val_main_v43 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg34)) :=
  (after_of_writes_sub opsB3 _ opsB3_writes (by decide)).trans (atB2_main_v43 m c)
theorem atB3_main_v50 : VB3 m c (Proc.devRef .tc main_v50) = val_main_v50 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg36)) :=
  stage_main_v50 (VB2 m c) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg36)) (atB2_main_v29 m c) (argB2 m c main_arg36 (by decide))

/-- The contents after operations 69 to 69. -/
def VC0 : Valuation τ sig (Elt F) := after (opsC0 (F := F)) (VB3 m c)
theorem argC0 (r : Ref sig .tc) (hr : r ∈ argRefs) : VC0 m c (Proc.devRef .tc r) = m ((c.tc : Thread nD τ).loc r) :=
  (after_of_writes_sub opsC0 _ opsC0_writes (opsC0_args r hr)).trans (argB3 m c r hr)
theorem atC0_main_v9 : VC0 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsC0 _ opsC0_writes (by decide)).trans (atB3_main_v9 m c)
theorem atC0_main_v19 : VC0 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsC0 _ opsC0_writes (by decide)).trans (atB3_main_v19 m c)
theorem atC0_main_v29 : VC0 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsC0 _ opsC0_writes (by decide)).trans (atB3_main_v29 m c)
theorem atC0_main_v51 : VC0 m c (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg33)) (m ((c.tc : Thread nD τ).loc main_arg34)) (m ((c.tc : Thread nD τ).loc main_arg36)) :=
  stage_main_v51 (VB3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg33)) (m ((c.tc : Thread nD τ).loc main_arg34)) (m ((c.tc : Thread nD τ).loc main_arg36)) (atB3_main_v19 m c) (atB3_main_v36 m c) (atB3_main_v43 m c) (atB3_main_v50 m c)

/-- The contents after operations 70 to 90. -/
def VC : Valuation τ sig (Elt F) := after (opsC (F := F)) (VC0 m c)
theorem argC (r : Ref sig .tc) (hr : r ∈ argRefs) : VC m c (Proc.devRef .tc r) = m ((c.tc : Thread nD τ).loc r) :=
  (after_of_writes_sub opsC _ opsC_writes (opsC_args r hr)).trans (argC0 m c r hr)
theorem atC_main_v9 : VC m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsC _ opsC_writes (by decide)).trans (atC0_main_v9 m c)
theorem atC_main_v19 : VC m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsC _ opsC_writes (by decide)).trans (atC0_main_v19 m c)
theorem atC_main_v29 : VC m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsC _ opsC_writes (by decide)).trans (atC0_main_v29 m c)
theorem atC_main_v66 : VC m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  stage_main_v66 (VC0 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) (atC0_main_v51 m c) (argC0 m c main_arg15 (by decide)) (argC0 m c main_arg16 (by decide)) (argC0 m c main_arg17 (by decide)) (argC0 m c main_arg18 (by decide)) (argC0 m c main_arg19 (by decide)) (argC0 m c main_arg20 (by decide))

/-- The contents after operations 91 to 106. -/
def VD1 : Valuation τ sig (Elt F) := after (opsD1 (F := F)) (VC m c)
theorem argD1 (r : Ref sig .tc) (hr : r ∈ argRefs) : VD1 m c (Proc.devRef .tc r) = m ((c.tc : Thread nD τ).loc r) :=
  (after_of_writes_sub opsD1 _ opsD1_writes (opsD1_args r hr)).trans (argC m c r hr)
theorem atD1_main_v9 : VD1 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsD1 _ opsD1_writes (by decide)).trans (atC_main_v9 m c)
theorem atD1_main_v19 : VD1 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsD1 _ opsD1_writes (by decide)).trans (atC_main_v19 m c)
theorem atD1_main_v29 : VD1 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsD1 _ opsD1_writes (by decide)).trans (atC_main_v29 m c)
theorem atD1_main_v66 : VD1 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsD1 _ opsD1_writes (by decide)).trans (atC_main_v66 m c)
theorem atD1_main_v78 : VD1 m c (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  stage_main_v78 (VC m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) (atC_main_v66 m c) (argC m c main_arg33 (by decide))

/-- The contents after operations 107 to 115. -/
def VD2 : Valuation τ sig (Elt F) := after (opsD2 (F := F)) (VD1 m c)
theorem argD2 (r : Ref sig .tc) (hr : r ∈ argRefs) : VD2 m c (Proc.devRef .tc r) = m ((c.tc : Thread nD τ).loc r) :=
  (after_of_writes_sub opsD2 _ opsD2_writes (opsD2_args r hr)).trans (argD1 m c r hr)
theorem atD2_main_v9 : VD2 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsD2 _ opsD2_writes (by decide)).trans (atD1_main_v9 m c)
theorem atD2_main_v19 : VD2 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsD2 _ opsD2_writes (by decide)).trans (atD1_main_v19 m c)
theorem atD2_main_v29 : VD2 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsD2 _ opsD2_writes (by decide)).trans (atD1_main_v29 m c)
theorem atD2_main_v66 : VD2 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsD2 _ opsD2_writes (by decide)).trans (atD1_main_v66 m c)
theorem atD2_main_v78 : VD2 m c (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsD2 _ opsD2_writes (by decide)).trans (atD1_main_v78 m c)
theorem atD2_main_v85 : VD2 m c (Proc.devRef .tc main_v85) = val_main_v85 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg35)) :=
  stage_main_v85 (VD1 m c) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg35)) (atD1_main_v29 m c) (argD1 m c main_arg35 (by decide))

/-- The contents after operations 116 to 116. -/
def VE0 : Valuation τ sig (Elt F) := after (opsE0 (F := F)) (VD2 m c)
theorem argE0 (r : Ref sig .tc) (hr : r ∈ argRefs) : VE0 m c (Proc.devRef .tc r) = m ((c.tc : Thread nD τ).loc r) :=
  (after_of_writes_sub opsE0 _ opsE0_writes (opsE0_args r hr)).trans (argD2 m c r hr)
theorem atE0_main_v9 : VE0 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsE0 _ opsE0_writes (by decide)).trans (atD2_main_v9 m c)
theorem atE0_main_v19 : VE0 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsE0 _ opsE0_writes (by decide)).trans (atD2_main_v19 m c)
theorem atE0_main_v29 : VE0 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsE0 _ opsE0_writes (by decide)).trans (atD2_main_v29 m c)
theorem atE0_main_v66 : VE0 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsE0 _ opsE0_writes (by decide)).trans (atD2_main_v66 m c)
theorem atE0_main_v86 : VE0 m c (Proc.devRef .tc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg35)) (m ((c.tc : Thread nD τ).loc main_arg36)) :=
  stage_main_v86 (VD2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg35)) (m ((c.tc : Thread nD τ).loc main_arg36)) (atD2_main_v9 m c) (atD2_main_v78 m c) (atD2_main_v85 m c)

/-- The contents after operations 117 to 137. -/
def VE : Valuation τ sig (Elt F) := after (opsE (F := F)) (VE0 m c)
theorem argE (r : Ref sig .tc) (hr : r ∈ argRefs) : VE m c (Proc.devRef .tc r) = m ((c.tc : Thread nD τ).loc r) :=
  (after_of_writes_sub opsE _ opsE_writes (opsE_args r hr)).trans (argE0 m c r hr)
theorem atE_main_v9 : VE m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsE _ opsE_writes (by decide)).trans (atE0_main_v9 m c)
theorem atE_main_v19 : VE m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsE _ opsE_writes (by decide)).trans (atE0_main_v19 m c)
theorem atE_main_v29 : VE m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsE _ opsE_writes (by decide)).trans (atE0_main_v29 m c)
theorem atE_main_v66 : VE m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsE _ opsE_writes (by decide)).trans (atE0_main_v66 m c)
theorem atE_main_v101 : VE m c (Proc.devRef .tc main_v101) = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  stage_main_v101 (VE0 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) (atE0_main_v86 m c) (argE0 m c main_arg21 (by decide)) (argE0 m c main_arg22 (by decide)) (argE0 m c main_arg23 (by decide)) (argE0 m c main_arg24 (by decide)) (argE0 m c main_arg25 (by decide)) (argE0 m c main_arg26 (by decide))

/-- The contents after operations 138 to 153. -/
def VF1 : Valuation τ sig (Elt F) := after (opsF1 (F := F)) (VE m c)
theorem argF1 (r : Ref sig .tc) (hr : r ∈ argRefs) : VF1 m c (Proc.devRef .tc r) = m ((c.tc : Thread nD τ).loc r) :=
  (after_of_writes_sub opsF1 _ opsF1_writes (opsF1_args r hr)).trans (argE m c r hr)
theorem atF1_main_v9 : VF1 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsF1 _ opsF1_writes (by decide)).trans (atE_main_v9 m c)
theorem atF1_main_v19 : VF1 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsF1 _ opsF1_writes (by decide)).trans (atE_main_v19 m c)
theorem atF1_main_v29 : VF1 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsF1 _ opsF1_writes (by decide)).trans (atE_main_v29 m c)
theorem atF1_main_v66 : VF1 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsF1 _ opsF1_writes (by decide)).trans (atE_main_v66 m c)
theorem atF1_main_v101 : VF1 m c (Proc.devRef .tc main_v101) = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  (after_of_writes_sub opsF1 _ opsF1_writes (by decide)).trans (atE_main_v101 m c)
theorem atF1_main_v113 : VF1 m c (Proc.devRef .tc main_v113) = val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  stage_main_v113 (VE m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) (atE_main_v66 m c) (argE m c main_arg36 (by decide))

/-- The contents after operations 154 to 169. -/
def VF2 : Valuation τ sig (Elt F) := after (opsF2 (F := F)) (VF1 m c)
theorem argF2 (r : Ref sig .tc) (hr : r ∈ argRefs) : VF2 m c (Proc.devRef .tc r) = m ((c.tc : Thread nD τ).loc r) :=
  (after_of_writes_sub opsF2 _ opsF2_writes (opsF2_args r hr)).trans (argF1 m c r hr)
theorem atF2_main_v9 : VF2 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsF2 _ opsF2_writes (by decide)).trans (atF1_main_v9 m c)
theorem atF2_main_v19 : VF2 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsF2 _ opsF2_writes (by decide)).trans (atF1_main_v19 m c)
theorem atF2_main_v29 : VF2 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsF2 _ opsF2_writes (by decide)).trans (atF1_main_v29 m c)
theorem atF2_main_v66 : VF2 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsF2 _ opsF2_writes (by decide)).trans (atF1_main_v66 m c)
theorem atF2_main_v101 : VF2 m c (Proc.devRef .tc main_v101) = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  (after_of_writes_sub opsF2 _ opsF2_writes (by decide)).trans (atF1_main_v101 m c)
theorem atF2_main_v113 : VF2 m c (Proc.devRef .tc main_v113) = val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsF2 _ opsF2_writes (by decide)).trans (atF1_main_v113 m c)
theorem atF2_main_v125 : VF2 m c (Proc.devRef .tc main_v125) = val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  stage_main_v125 (VF1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) (atF1_main_v101 m c) (argF1 m c main_arg35 (by decide))

/-- The contents after operations 170 to 170. -/
def VG0 : Valuation τ sig (Elt F) := after (opsG0 (F := F)) (VF2 m c)
theorem argG0 (r : Ref sig .tc) (hr : r ∈ argRefs) : VG0 m c (Proc.devRef .tc r) = m ((c.tc : Thread nD τ).loc r) :=
  (after_of_writes_sub opsG0 _ opsG0_writes (opsG0_args r hr)).trans (argF2 m c r hr)
theorem atG0_main_v9 : VG0 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsG0 _ opsG0_writes (by decide)).trans (atF2_main_v9 m c)
theorem atG0_main_v19 : VG0 m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsG0 _ opsG0_writes (by decide)).trans (atF2_main_v19 m c)
theorem atG0_main_v29 : VG0 m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsG0 _ opsG0_writes (by decide)).trans (atF2_main_v29 m c)
theorem atG0_main_v66 : VG0 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsG0 _ opsG0_writes (by decide)).trans (atF2_main_v66 m c)
theorem atG0_main_v101 : VG0 m c (Proc.devRef .tc main_v101) = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  (after_of_writes_sub opsG0 _ opsG0_writes (by decide)).trans (atF2_main_v101 m c)
theorem atG0_main_v126 : VG0 m c (Proc.devRef .tc main_v126) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  stage_main_v126 (VF2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) (atF2_main_v29 m c) (atF2_main_v113 m c) (atF2_main_v125 m c)

/-- The contents after operations 171 to 191. -/
def VG : Valuation τ sig (Elt F) := after (opsG (F := F)) (VG0 m c)
theorem argG (r : Ref sig .tc) (hr : r ∈ argRefs) : VG m c (Proc.devRef .tc r) = m ((c.tc : Thread nD τ).loc r) :=
  (after_of_writes_sub opsG _ opsG_writes (opsG_args r hr)).trans (argG0 m c r hr)
theorem atG_main_v9 : VG m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (after_of_writes_sub opsG _ opsG_writes (by decide)).trans (atG0_main_v9 m c)
theorem atG_main_v19 : VG m c (Proc.devRef .tc main_v19) = val_main_v19 (F := F) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) :=
  (after_of_writes_sub opsG _ opsG_writes (by decide)).trans (atG0_main_v19 m c)
theorem atG_main_v29 : VG m c (Proc.devRef .tc main_v29) = val_main_v29 (F := F) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) :=
  (after_of_writes_sub opsG _ opsG_writes (by decide)).trans (atG0_main_v29 m c)
theorem atG_main_v66 : VG m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  (after_of_writes_sub opsG _ opsG_writes (by decide)).trans (atG0_main_v66 m c)
theorem atG_main_v101 : VG m c (Proc.devRef .tc main_v101) = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  (after_of_writes_sub opsG _ opsG_writes (by decide)).trans (atG0_main_v101 m c)
theorem atG_main_v141 : VG m c (Proc.devRef .tc main_v141) = val_main_v141 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) :=
  stage_main_v141 (VG0 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (atG0_main_v126 m c) (argG0 m c main_arg27 (by decide)) (argG0 m c main_arg28 (by decide)) (argG0 m c main_arg29 (by decide)) (argG0 m c main_arg30 (by decide)) (argG0 m c main_arg31 (by decide)) (argG0 m c main_arg32 (by decide))

/-- The contents after operations 192 to 194. -/
def VH : Valuation τ sig (Elt F) := after (opsH (F := F)) (VG m c)
theorem argH (r : Ref sig .tc) (hr : r ∈ argRefs) : VH m c (Proc.devRef .tc r) = m ((c.tc : Thread nD τ).loc r) :=
  (after_of_writes_sub opsH _ opsH_writes (opsH_args r hr)).trans (argG m c r hr)
theorem atH_main_v142 : VH m c (Proc.devRef .tc main_v142) = val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) :=
  stage_main_v142 (VG m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36)) (atG_main_v9 m c) (atG_main_v101 m c)
theorem atH_main_v143 : VH m c (Proc.devRef .tc main_v143) = val_main_v143 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) :=
  stage_main_v143 (VG m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36)) (atG_main_v19 m c) (atG_main_v66 m c)
theorem atH_main_v144 : VH m c (Proc.devRef .tc main_v144) = val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) :=
  stage_main_v144 (VG m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (atG_main_v29 m c) (atG_main_v141 m c)

/-! ## @main and its run -/

/-- @main's 195 operations, in order: the stretches in a row. -/
abbrev ops : List (HloOp τ sig (Elt F)) :=
  opsA1 ++ (opsA2 ++ (opsA3 ++ (opsB1 ++ (opsB2 ++ (opsB3 ++ (opsC0 ++ (opsC ++ (opsD1 ++ (opsD2 ++ (opsE0 ++ (opsE ++ (opsF1 ++ (opsF2 ++ (opsG0 ++ (opsG ++ (opsH))))))))))))))))
set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 4000000 in
theorem ops_sub : (ops : List (HloOp τ sig (Elt F))).Forall fun op => op.bufs ⊆ tcRefs τ sig :=
  List.forall_append.mpr ⟨opsA1_sub, List.forall_append.mpr ⟨opsA2_sub, List.forall_append.mpr ⟨opsA3_sub, List.forall_append.mpr ⟨opsB1_sub, List.forall_append.mpr ⟨opsB2_sub, List.forall_append.mpr ⟨opsB3_sub, List.forall_append.mpr ⟨opsC0_sub, List.forall_append.mpr ⟨opsC_sub, List.forall_append.mpr ⟨opsD1_sub, List.forall_append.mpr ⟨opsD2_sub, List.forall_append.mpr ⟨opsE0_sub, List.forall_append.mpr ⟨opsE_sub, List.forall_append.mpr ⟨opsF1_sub, List.forall_append.mpr ⟨opsF2_sub, List.forall_append.mpr ⟨opsG0_sub, List.forall_append.mpr ⟨opsG_sub, opsH_sub⟩⟩⟩⟩⟩⟩⟩⟩⟩⟩⟩⟩⟩⟩⟩⟩
set_option maxHeartbeats 4000000 in
theorem ops_fresh : ∀ op ∈ (ops : List (HloOp τ sig (Elt F))), op.fresh = ∅ :=
  fun op => fun h => (List.mem_append.mp h).elim (opsA1_fresh op) (fun h => (List.mem_append.mp h).elim (opsA2_fresh op) (fun h => (List.mem_append.mp h).elim (opsA3_fresh op) (fun h => (List.mem_append.mp h).elim (opsB1_fresh op) (fun h => (List.mem_append.mp h).elim (opsB2_fresh op) (fun h => (List.mem_append.mp h).elim (opsB3_fresh op) (fun h => (List.mem_append.mp h).elim (opsC0_fresh op) (fun h => (List.mem_append.mp h).elim (opsC_fresh op) (fun h => (List.mem_append.mp h).elim (opsD1_fresh op) (fun h => (List.mem_append.mp h).elim (opsD2_fresh op) (fun h => (List.mem_append.mp h).elim (opsE0_fresh op) (fun h => (List.mem_append.mp h).elim (opsE_fresh op) (fun h => (List.mem_append.mp h).elim (opsF1_fresh op) (fun h => (List.mem_append.mp h).elim (opsF2_fresh op) (fun h => (List.mem_append.mp h).elim (opsG0_fresh op) (fun h => (List.mem_append.mp h).elim (opsG_fresh op) (opsH_fresh op))))))))))))))))
set_option maxHeartbeats 4000000 in
/-- The run of all the operations is the stretches' runs in a row. -/
theorem after_ops : after (ops (F := F)) (launchContents m c) = VH m c := by
  simp only [ops, after_append]
  rfl

set_option maxRecDepth 8192 in
set_option maxHeartbeats 40000000 in
/-- On every device, for any float values, from any memory with zero counters: every weakly fair execution of @main
    terminates with each result array at its stage of the launch memory's arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142) = val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36))
      ∧ r.2.mem ((c.tc : Thread nD τ).loc main_v143) = val_main_v143 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg33)) (m ((c.tc : Thread nD τ).loc main_arg34)) (m ((c.tc : Thread nD τ).loc main_arg36))
      ∧ r.2.mem ((c.tc : Thread nD τ).loc main_v144) = val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36) :=
  (θ_run defs _ _).mono (fun _ h c => ⟨(h c main_v142).trans ((congrFun (after_ops m c) _).trans (atH_main_v142 m c)),
      (h c main_v143).trans ((congrFun (after_ops m c) _).trans (atH_main_v143 m c)),
      (h c main_v144).trans ((congrFun (after_ops m c) _).trans (atH_main_v144 m c)),
      (h c main_arg0).trans ((congrFun (after_ops m c) _).trans (argH m c main_arg0 (by decide))),
      (h c main_arg1).trans ((congrFun (after_ops m c) _).trans (argH m c main_arg1 (by decide))),
      (h c main_arg2).trans ((congrFun (after_ops m c) _).trans (argH m c main_arg2 (by decide))),
      (h c main_arg3).trans ((congrFun (after_ops m c) _).trans (argH m c main_arg3 (by decide))),
      (h c main_arg4).trans ((congrFun (after_ops m c) _).trans (argH m c main_arg4 (by decide))),
      (h c main_arg5).trans ((congrFun (after_ops m c) _).trans (argH m c main_arg5 (by decide))),
      (h c main_arg6).trans ((congrFun (after_ops m c) _).trans (argH m c main_arg6 (by decide))),
      (h c main_arg7).trans ((congrFun (after_ops m c) _).trans (argH m c main_arg7 (by decide))),
      (h c main_arg8).trans ((congrFun (after_ops m c) _).trans (argH m c main_arg8 (by decide))),
      (h c main_arg9).trans ((congrFun (after_ops m c) _).trans (argH m c main_arg9 (by decide))),
      (h c main_arg10).trans ((congrFun (after_ops m c) _).trans (argH m c main_arg10 (by decide))),
      (h c main_arg11).trans ((congrFun (after_ops m c) _).trans (argH m c main_arg11 (by decide))),
      (h c main_arg12).trans ((congrFun (after_ops m c) _).trans (argH m c main_arg12 (by decide))),
      (h c main_arg13).trans ((congrFun (after_ops m c) _).trans (argH m c main_arg13 (by decide))),
      (h c main_arg14).trans ((congrFun (after_ops m c) _).trans (argH m c main_arg14 (by decide))),
      (h c main_arg15).trans ((congrFun (after_ops m c) _).trans (argH m c main_arg15 (by decide))),
      (h c main_arg16).trans ((congrFun (after_ops m c) _).trans (argH m c main_arg16 (by decide))),
      (h c main_arg17).trans ((congrFun (after_ops m c) _).trans (argH m c main_arg17 (by decide))),
      (h c main_arg18).trans ((congrFun (after_ops m c) _).trans (argH m c main_arg18 (by decide))),
      (h c main_arg19).trans ((congrFun (after_ops m c) _).trans (argH m c main_arg19 (by decide))),
      (h c main_arg20).trans ((congrFun (after_ops m c) _).trans (argH m c main_arg20 (by decide))),
      (h c main_arg21).trans ((congrFun (after_ops m c) _).trans (argH m c main_arg21 (by decide))),
      (h c main_arg22).trans ((congrFun (after_ops m c) _).trans (argH m c main_arg22 (by decide))),
      (h c main_arg23).trans ((congrFun (after_ops m c) _).trans (argH m c main_arg23 (by decide))),
      (h c main_arg24).trans ((congrFun (after_ops m c) _).trans (argH m c main_arg24 (by decide))),
      (h c main_arg25).trans ((congrFun (after_ops m c) _).trans (argH m c main_arg25 (by decide))),
      (h c main_arg26).trans ((congrFun (after_ops m c) _).trans (argH m c main_arg26 (by decide))),
      (h c main_arg27).trans ((congrFun (after_ops m c) _).trans (argH m c main_arg27 (by decide))),
      (h c main_arg28).trans ((congrFun (after_ops m c) _).trans (argH m c main_arg28 (by decide))),
      (h c main_arg29).trans ((congrFun (after_ops m c) _).trans (argH m c main_arg29 (by decide))),
      (h c main_arg30).trans ((congrFun (after_ops m c) _).trans (argH m c main_arg30 (by decide))),
      (h c main_arg31).trans ((congrFun (after_ops m c) _).trans (argH m c main_arg31 (by decide))),
      (h c main_arg32).trans ((congrFun (after_ops m c) _).trans (argH m c main_arg32 (by decide))),
      (h c main_arg33).trans ((congrFun (after_ops m c) _).trans (argH m c main_arg33 (by decide))),
      (h c main_arg34).trans ((congrFun (after_ops m c) _).trans (argH m c main_arg34 (by decide))),
      (h c main_arg35).trans ((congrFun (after_ops m c) _).trans (argH m c main_arg35 (by decide))),
      (h c main_arg36).trans ((congrFun (after_ops m c) _).trans (argH m c main_arg36 (by decide)))⟩)
    (run_seq scopedRefs_eq scopedSems_eq defs main (fun _ => ops) main_eq (fun _ => ops_sub) m ρ (fun _ => ops_fresh))

end Cert.ReferenceIdeal.HandRun

end
-- ==== Proof.KReg0.lean ====
/-
  Region 0 of the kernel: the two-layer perceptron on a block of 5000 site rows.
  One grid point loads a 5000×64 block of rows, the two 64×64 weight matrices and the two 1×64 bias rows,
  and stores relu(relu(x·W₁ + b₁)·W₂ + b₂) over the whole 5000×64 output block. Stated at a parameter V,
  the contents every buffer holds when the region is entered: the blocks a point reads, what the body
  leaves in the output block, the body's triple, the pipeline's proof data and the body obligation.
-/
import proofs.«424920_j53549652246920_2_alg».proof.Proof.Gen.Kernel.Launch
import proofs.«424920_j53549652246920_2_alg».proof.Proof.Gen.Kernel.Skeleton
import proofs.«424920_j53549652246920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    window's block index has not moved since the point that fetched it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rRows0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block, from the five input blocks: its one store, of the whole block. -/
def out0_5 (x0 : Vec F S5000x64 .f32) (x1 : Vec F S64x64 .f32) (x2 : Vec F S1x64 .f32) (x3 : Vec F S64x64 .f32) (x4 : Vec F S1x64 .f32) :
    Vec F S5000x64 .f32 :=
  View.canon [⟨rRows0, k0_pay1 (View.ld x0 rRows0) (View.ld x1 rW0) (View.ld x2 rB0) (View.ld x3 rW0) (View.ld x4 rB0)⟩]

/-- The one store covers the block. -/
theorem cover0_5 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body on whole staging memrefs, the inputs at read contents x₀ … x₄ and the output at anything, runs to the
    continuation with the inputs as they were and the output at out0_5 of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core c: the arrays as the region finds them; after the body at point t each
    input's buffer at its block and the output's at out0_5 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so sound_kernel0 applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KReg1.lean ====
/-
  Region 1 of the kernel: the two-layer perceptron on a block of 5000 bond rows.
  One grid point loads a 5000×64 block of rows, the two 64×64 weight matrices and the two 1×64 bias rows,
  and stores relu(relu(x·W₁ + b₁)·W₂ + b₂) over the whole 5000×64 output block. Stated at a parameter V,
  the contents every buffer holds when the region is entered: the blocks a point reads, what the body
  leaves in the output block, the body's triple, the pipeline's proof data and the body obligation.
-/
import proofs.«424920_j53549652246920_2_alg».proof.Proof.Gen.Kernel.Launch
import proofs.«424920_j53549652246920_2_alg».proof.Proof.Gen.Kernel.Skeleton
import proofs.«424920_j53549652246920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    window's block index has not moved since the point that fetched it. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rRows1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block, from the five input blocks: its one store, of the whole block. -/
def out1_5 (x0 : Vec F S5000x64 .f32) (x1 : Vec F S64x64 .f32) (x2 : Vec F S1x64 .f32) (x3 : Vec F S64x64 .f32) (x4 : Vec F S1x64 .f32) :
    Vec F S5000x64 .f32 :=
  View.canon [⟨rRows1, k1_pay1 (View.ld x0 rRows1) (View.ld x1 rW1) (View.ld x2 rB1) (View.ld x3 rW1) (View.ld x4 rB1)⟩]

/-- The one store covers the block. -/
theorem cover1_5 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging memrefs, the inputs at read contents x₀ … x₄ and the output at anything, runs to the
    continuation with the inputs as they were and the output at out1_5 of the inputs. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core c: the arrays as the region finds them; after the body at point t each
    input's buffer at its block and the output's at out1_5 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so sound_kernel1 applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KReg2.lean ====
/-
  Region 2 of the kernel: the two-layer perceptron on a block of 1000 state rows.
  One grid point loads a 1000×64 block of rows, the two 64×64 weight matrices and the two 1×64 bias rows,
  and stores relu(relu(x·W₁ + b₁)·W₂ + b₂) over the whole 1000×64 output block. Stated at a parameter V,
  the contents every buffer holds when the region is entered: the blocks a point reads, what the body
  leaves in the output block, the body's triple, the pipeline's proof data and the body obligation.
-/
import proofs.«424920_j53549652246920_2_alg».proof.Proof.Gen.Kernel.Launch
import proofs.«424920_j53549652246920_2_alg».proof.Proof.Gen.Kernel.Skeleton
import proofs.«424920_j53549652246920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: an unfetched
    window's block index has not moved since the point that fetched it. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rRows2 : Rect S1000x64 := Rect.unit (s := S1000x64) ![0, 0] S1000x64.size inb_S1000x64_S1000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- What the body leaves in the output block, from the five input blocks: its one store, of the whole block. -/
def out2_5 (x0 : Vec F S1000x64 .f32) (x1 : Vec F S64x64 .f32) (x2 : Vec F S1x64 .f32) (x3 : Vec F S64x64 .f32) (x4 : Vec F S1x64 .f32) :
    Vec F S1000x64 .f32 :=
  View.canon [⟨rRows2, k2_pay1 (View.ld x0 rRows2) (View.ld x1 rW2) (View.ld x2 rB2) (View.ld x3 rW2) (View.ld x4 rB2)⟩]

/-- The one store covers the block. -/
theorem cover2_5 (p0 : Vec F S1000x64 .f32) (y : S1000x64.Idx) :
    ∃ pc ∈ ([⟨rRows2, p0⟩] : List (View.Piece (Elt F) S1000x64 .f32)), y ∈ pc.1.set :=
  View.cover_of_tiled [⟨rRows2, p0⟩] S1000x64.size (by rfl) y

set_option maxHeartbeats 1000000 in
/-- The body on whole staging memrefs, the inputs at read contents x₀ … x₄ and the output at anything, runs to the
    continuation with the inputs as they were and the output at out2_5 of the inputs. -/
theorem sound_kernel2 (c : Dev nD) (E : Set ℕ) (i : grid2.Coords)
    (arg1 : Memref sig .tc .vmem S1000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1000x64 .f32) (harg6 : arg6.IsWhole)
    (x0 : Vec F S1000x64 .f32) (x1 : Vec F S64x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__mlp2_kernel i arg1 harg1 arg2 harg2 arg3 harg3 arg4 harg4 arg5 harg5 arg6 harg6) K := by
  simp only [cc2__mlp2_kernel_eq_skeleton]; unfold cc2__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core c: the arrays as the region finds them; after the body at point t each
    input's buffer at its block and the output's at out2_5 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so sound_kernel2 applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KReg3.lean ====
/-
  Region 3 of the kernel: the three-layer perceptron on a block of 5000 bond rows.
  One grid point loads four 5000×64 blocks of rows (the two gathered endpoint sites, the bonds, the gathered graph
  states), the four 64×64 slices of the first layer's weight and its 1×64 bias, the 64×32 second weight and its
  1×32 bias, the 32×64 third weight and its 1×64 bias, and the residual's 5000×64 block (the bonds again).
  With h₁ = relu(x₀·W₀ + x₁·W₁ + x₂·W₂ + x₃·W₃ + b₁), h₂ = relu(h₁·W' + b₂) and y = relu(h₂·W'' + b₃), it stores y
  over the whole first output block and y + r over the whole second, r the residual block. Stated at a parameter V,
  the contents every buffer holds when the region is entered: the blocks a point reads, what the body leaves in
  the two output blocks, the body's triple, the pipeline's proof data and the body obligation. The bonds' array is
  read through two windows, so its full share is dealt between them: the left half to window 2, the right half to
  window 13.
-/
import proofs.«424920_j53549652246920_2_alg».proof.Proof.Gen.Kernel.Launch
import proofs.«424920_j53549652246920_2_alg».proof.Proof.Gen.Kernel.Skeleton
import proofs.«424920_j53549652246920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: an unfetched
    window's block index has not moved since the point that fetched it. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rRows3 : Rect S5000x64 := Rect.unit (s := S5000x64) ![0, 0] S5000x64.size inb_S5000x64_S5000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0
abbrev rWb3 : Rect S64x32 := Rect.unit (s := S64x32) ![0, 0] S64x32.size inb_S64x32_S64x32_0_0
abbrev rBb3 : Rect S1x32 := Rect.unit (s := S1x32) ![0, 0] S1x32.size inb_S1x32_S1x32_0_0
abbrev rWc3 : Rect S32x64 := Rect.unit (s := S32x64) ![0, 0] S32x64.size inb_S32x64_S32x64_0_0

/-- What the body leaves in the first output block, from the fourteen input blocks: its one store there, of the
    whole block — the relu of the third layer over the relu of the second over the relu of the first, the first
    the sum of the four row blocks' products with their weight slices plus the bias. The residual block x₁₃ is
    not read by this store. -/
def out3_14 (x0 : Vec F S5000x64 .f32) (x1 : Vec F S5000x64 .f32) (x2 : Vec F S5000x64 .f32) (x3 : Vec F S5000x64 .f32)
    (x4 : Vec F S64x64 .f32) (x5 : Vec F S64x64 .f32) (x6 : Vec F S64x64 .f32) (x7 : Vec F S64x64 .f32) (x8 : Vec F S1x64 .f32)
    (x9 : Vec F S64x32 .f32) (x10 : Vec F S1x32 .f32) (x11 : Vec F S32x64 .f32) (x12 : Vec F S1x64 .f32) (x13 : Vec F S5000x64 .f32) :
    Vec F S5000x64 .f32 :=
  View.canon [⟨rRows3, k3_pay1 (k3_pay3 (View.ld x0 rRows3) (View.ld x4 rW3) (View.ld x1 rRows3) (View.ld x5 rW3) (View.ld x2 rRows3) (View.ld x6 rW3) (View.ld x3 rRows3) (View.ld x7 rW3) (View.ld x8 rB3))
    (k3_pay4 (F := F)) (View.ld x9 rWb3) (View.ld x10 rBb3) (View.ld x11 rWc3) (View.ld x12 rB3)⟩]

/-- What the body leaves in the second output block: its one store there, of the whole block — the first output
    plus the residual block x₁₃. -/
def out3_15 (x0 : Vec F S5000x64 .f32) (x1 : Vec F S5000x64 .f32) (x2 : Vec F S5000x64 .f32) (x3 : Vec F S5000x64 .f32)
    (x4 : Vec F S64x64 .f32) (x5 : Vec F S64x64 .f32) (x6 : Vec F S64x64 .f32) (x7 : Vec F S64x64 .f32) (x8 : Vec F S1x64 .f32)
    (x9 : Vec F S64x32 .f32) (x10 : Vec F S1x32 .f32) (x11 : Vec F S32x64 .f32) (x12 : Vec F S1x64 .f32) (x13 : Vec F S5000x64 .f32) :
    Vec F S5000x64 .f32 :=
  View.canon [⟨rRows3, k3_pay2 (k3_pay3 (View.ld x0 rRows3) (View.ld x4 rW3) (View.ld x1 rRows3) (View.ld x5 rW3) (View.ld x2 rRows3) (View.ld x6 rW3) (View.ld x3 rRows3) (View.ld x7 rW3) (View.ld x8 rB3))
    (k3_pay4 (F := F)) (View.ld x9 rWb3) (View.ld x10 rBb3) (View.ld x11 rWc3) (View.ld x12 rB3) (View.ld x13 rRows3)⟩]

/-- The one store into each output covers its block. -/
theorem cover3_14 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y
theorem cover3_15 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y

set_option maxHeartbeats 1000000 in
/-- The body on whole staging memrefs, the inputs at read contents x₀ … x₁₃ and the two outputs at anything, runs to
    the continuation with the inputs as they were and the outputs at out3_14 and out3_15 of the inputs. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S5000x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x32 .f32) (harg10 : arg10.IsWhole)
    (arg11 : Memref sig .tc .vmem S1x32 .f32) (harg11 : arg11.IsWhole) (arg12 : Memref sig .tc .vmem S32x64 .f32) (harg12 : arg12.IsWhole)
    (arg13 : Memref sig .tc .vmem S1x64 .f32) (harg13 : arg13.IsWhole) (arg14 : Memref sig .tc .vmem S5000x64 .f32) (harg14 : arg14.IsWhole)
    (arg15 : Memref sig .tc .vmem S5000x64 .f32) (harg15 : arg15.IsWhole) (arg16 : Memref sig .tc .vmem S5000x64 .f32) (harg16 : arg16.IsWhole)
    (x0 : Vec F S5000x64 .f32) (x1 : Vec F S5000x64 .f32) (x2 : Vec F S5000x64 .f32) (x3 : Vec F S5000x64 .f32)
    (x4 : Vec F S64x64 .f32) (x5 : Vec F S64x64 .f32) (x6 : Vec F S64x64 .f32) (x7 : Vec F S64x64 .f32) (x8 : Vec F S1x64 .f32)
    (x9 : Vec F S64x32 .f32) (x10 : Vec F S1x32 .f32) (x11 : Vec F S32x64 .f32) (x12 : Vec F S1x64 .f32) (x13 : Vec F S5000x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare (out3_14 x0 x1 x2 x3 x4 x5 x6 x7 x8 x9 x10 x11 x12 x13)
            ∗ owns (c : Thread nD τ) arg16 fullShare (out3_15 x0 x1 x2 x3 x4 x5 x6 x7 x8 x9 x10 x11 x12 x13)) -∗ K ⟨⟩))
      ⊢ wp frame (wpE (defs₀ (F := F)) Variants.none c none) E
          (cc3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover3_14 _)
  iexists _; isplitr
  swap; · iexact H15
  ipureintro
  exact View.read_writes_eq_canon _ _ _ (cover3_15 _)

/-- The proof data of pipeline 3 on core c: the arrays as the region finds them; after the body at point t each
    input's buffer at its block and the outputs' at out3_14 and out3_15 of the input blocks; nothing owed. The
    bonds' array lies behind windows 2 and 13: window 2 holds the left half of its full share, window 13 the
    right half; every other window's array is held at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨_ + 16, h⟩ => absurd h (Nat.not_lt.2 (Nat.le_add_left _ _))
  Φ _ := Pipeline.ΦA spec3 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare.right
    | ⟨14, _⟩ => fullShare
    | ⟨15, _⟩ => fullShare
    | ⟨_ + 16, h⟩ => absurd h (Nat.not_lt.2 (Nat.le_add_left _ _))
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t
    = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]
theorem after3_15 (c : Dev nD) (t : Fin cfg3.N) : (dat3 V c).after 15 t
    = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d

/-- The shares of the proof data: the bonds' array, read through windows 2 and 13, is held by halves; -/
theorem share3_a (c : Dev nD) : (dat3 V c).share 2 = fullShare.left := by dsimp only [Dat.share, dat3]; rfl
theorem share3_b (c : Dev nD) : (dat3 V c).share 13 = fullShare.right := by dsimp only [Dat.share, dat3]; rfl
/-- every other array whole. -/
theorem share3_rest (c : Dev nD) : ∀ w, w ≠ 2 → w ≠ 13 → (dat3 V c).share w = fullShare := fun w => match w with
  | ⟨0, _⟩ => fun _ _ => by dsimp only [Dat.share, dat3]; rfl
  | ⟨1, _⟩ => fun _ _ => by dsimp only [Dat.share, dat3]; rfl
  | ⟨2, _⟩ => fun h _ => absurd rfl h
  | ⟨3, _⟩ => fun _ _ => by dsimp only [Dat.share, dat3]; rfl
  | ⟨4, _⟩ => fun _ _ => by dsimp only [Dat.share, dat3]; rfl
  | ⟨5, _⟩ => fun _ _ => by dsimp only [Dat.share, dat3]; rfl
  | ⟨6, _⟩ => fun _ _ => by dsimp only [Dat.share, dat3]; rfl
  | ⟨7, _⟩ => fun _ _ => by dsimp only [Dat.share, dat3]; rfl
  | ⟨8, _⟩ => fun _ _ => by dsimp only [Dat.share, dat3]; rfl
  | ⟨9, _⟩ => fun _ _ => by dsimp only [Dat.share, dat3]; rfl
  | ⟨10, _⟩ => fun _ _ => by dsimp only [Dat.share, dat3]; rfl
  | ⟨11, _⟩ => fun _ _ => by dsimp only [Dat.share, dat3]; rfl
  | ⟨12, _⟩ => fun _ _ => by dsimp only [Dat.share, dat3]; rfl
  | ⟨13, _⟩ => fun _ h => absurd rfl h
  | ⟨14, _⟩ => fun _ _ => by dsimp only [Dat.share, dat3]; rfl
  | ⟨15, _⟩ => fun _ _ => by dsimp only [Dat.share, dat3]; rfl
  | ⟨_ + 16, h⟩ => absurd h (Nat.not_lt.2 (Nat.le_add_left _ _))

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

/-- The body at any point: the inputs' memrefs hold their blocks, so sound_kernel3 applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel3 c Set.univ _ _ _ _ _ _ _ _ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KReg4.lean ====
/-
  Region 4 of the kernel: the three-layer perceptron block with a residual, on a block of 5000 site rows.
  One grid point loads three 5000×64 row blocks (the pooled bonds, the sites, the gathered graph states), the three
  64×64 slices of the first layer's weight with its 1×64 bias, the 64×32 second weight with its 1×32 bias, the 32×64
  third weight with its 1×64 bias, and the residual's 5000×64 block (the sites again). With
  h₁ = relu(x₀·W₀ + x₁·W₁ + x₂·W₂ + b₁), h₂ = relu(h₁·W' + b₂), y = relu(h₂·W'' + b₃), it stores y over the whole
  first output block and y + r (r the residual block) over the whole second. Stated at a parameter V, the contents
  every buffer holds when the region is entered: the blocks a point reads, what the body leaves in the two output
  blocks, the body's triple, the pipeline's proof data and the body obligation.
-/
import proofs.«424920_j53549652246920_2_alg».proof.Proof.Gen.Kernel.Launch
import proofs.«424920_j53549652246920_2_alg».proof.Proof.Gen.Kernel.Skeleton
import proofs.«424920_j53549652246920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: an unfetched
    window's block index has not moved since the point that fetched it. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through: the row blocks, the first layer's weight slices,
    the 1×64 bias rows, the second weight, its bias row, the third weight. -/
abbrev rRows4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0
abbrev rWm4 : Rect S64x32 := Rect.unit (s := S64x32) ![0, 0] S64x32.size inb_S64x32_S64x32_0_0
abbrev rBm4 : Rect S1x32 := Rect.unit (s := S1x32) ![0, 0] S1x32.size inb_S1x32_S1x32_0_0
abbrev rWo4 : Rect S32x64 := Rect.unit (s := S32x64) ![0, 0] S32x64.size inb_S32x64_S32x64_0_0

/-- What the body leaves in the first output block, from the twelve input blocks: its one store there, of the whole
    block, the relu of the third layer on the second layer's pre-activation (the product and the broadcast bias). -/
def out4_12 (xa : Vec F S5000x64 .f32) (xb : Vec F S5000x64 .f32) (xc : Vec F S5000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S5000x64 .f32) :
    Vec F S5000x64 .f32 :=
  View.canon [⟨rRows4, k4_pay1 (k4_pay3 (View.ld xa rRows4) (View.ld xd rW4) (View.ld xb rRows4) (View.ld xe rW4) (View.ld xc rRows4) (View.ld xf rW4) (View.ld xg rB4) (View.ld xh rWm4))
      (k4_pay4 (View.ld xi rBm4)) (View.ld xj rWo4) (View.ld xk rB4)⟩]

/-- What the body leaves in the second output block: its one store there, the same value plus the residual block. -/
def out4_13 (xa : Vec F S5000x64 .f32) (xb : Vec F S5000x64 .f32) (xc : Vec F S5000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S5000x64 .f32) :
    Vec F S5000x64 .f32 :=
  View.canon [⟨rRows4, k4_pay2 (k4_pay3 (View.ld xa rRows4) (View.ld xd rW4) (View.ld xb rRows4) (View.ld xe rW4) (View.ld xc rRows4) (View.ld xf rW4) (View.ld xg rB4) (View.ld xh rWm4))
      (k4_pay4 (View.ld xi rBm4)) (View.ld xj rWo4) (View.ld xk rB4) (View.ld xl rRows4)⟩]

/-- The one store covers the block, in either output. -/
theorem cover4_12 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y
theorem cover4_13 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y

set_option maxHeartbeats 1000000 in
/-- The body on whole staging memrefs, the inputs at read contents and each output at anything, runs to the
    continuation with the inputs as they were and the outputs at out4_12 and out4_13 of the inputs. -/
theorem sound_kernel4 (c : Dev nD) (E : Set ℕ) (i : grid4.Coords)
    (ma : Memref sig .tc .vmem S5000x64 .f32) (hma : ma.IsWhole) (mb : Memref sig .tc .vmem S5000x64 .f32) (hmb : mb.IsWhole)
    (mc : Memref sig .tc .vmem S5000x64 .f32) (hmc : mc.IsWhole) (md : Memref sig .tc .vmem S64x64 .f32) (hmd : md.IsWhole)
    (me : Memref sig .tc .vmem S64x64 .f32) (hme : me.IsWhole) (mf : Memref sig .tc .vmem S64x64 .f32) (hmf : mf.IsWhole)
    (mg : Memref sig .tc .vmem S1x64 .f32) (hmg : mg.IsWhole) (mh : Memref sig .tc .vmem S64x32 .f32) (hmh : mh.IsWhole)
    (mi : Memref sig .tc .vmem S1x32 .f32) (hmi : mi.IsWhole) (mj : Memref sig .tc .vmem S32x64 .f32) (hmj : mj.IsWhole)
    (mk : Memref sig .tc .vmem S1x64 .f32) (hmk : mk.IsWhole) (ml : Memref sig .tc .vmem S5000x64 .f32) (hml : ml.IsWhole)
    (mm : Memref sig .tc .vmem S5000x64 .f32) (hmm : mm.IsWhole) (mn : Memref sig .tc .vmem S5000x64 .f32) (hmn : mn.IsWhole)
    (xa : Vec F S5000x64 .f32) (xb : Vec F S5000x64 .f32) (xc : Vec F S5000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S5000x64 .f32)
    (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe ∗ owns (c : Thread nD τ) mf fullShare xf
        ∗ owns (c : Thread nD τ) mg fullShare xg ∗ owns (c : Thread nD τ) mh fullShare xh ∗ owns (c : Thread nD τ) mi fullShare xi
        ∗ owns (c : Thread nD τ) mj fullShare xj ∗ owns (c : Thread nD τ) mk fullShare xk ∗ owns (c : Thread nD τ) ml fullShare xl
        ∗ (∃ d, owns (c : Thread nD τ) mm fullShare d) ∗ (∃ d, owns (c : Thread nD τ) mn fullShare d)
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg ∗ owns (c : Thread nD τ) mh fullShare xh ∗ owns (c : Thread nD τ) mi fullShare xi
            ∗ owns (c : Thread nD τ) mj fullShare xj ∗ owns (c : Thread nD τ) mk fullShare xk ∗ owns (c : Thread nD τ) ml fullShare xl
            ∗ owns (c : Thread nD τ) mm fullShare (out4_12 xa xb xc xd xe xf xg xh xi xj xk xl)
            ∗ owns (c : Thread nD τ) mn fullShare (out4_13 xa xb xc xd xe xf xg xh xi xj xk xl)) -∗ K ⟨⟩))
      ⊢ wp frame (wpE (defs₀ (F := F)) Variants.none c none) E
          (cc4_kernel i ma hma mb hmb mc hmc md hmd me hme mf hmf mg hmg mh hmh mi hmi mj hmj mk hmk ml hml mm hmm mn hmn) K := by
  simp only [cc4_kernel_eq_skeleton]; unfold cc4_kernel_skel
  simp only [k4_part1_eq_skeleton]; unfold k4_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, ⟨%dm, %fm, -, Hm⟩, ⟨%dn, %fn, -, Hn⟩, Hk⟩
  subst hfa; subst hfb; subst hfc; subst hfd; subst hfe; subst hff; subst hfg; subst hfh; subst hfi; subst hfj; subst hfk; subst hfl
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists fk; isplitr; · ipureintro; rfl
    iexact Hk
  isplitl [Hl]
  · iexists fl; isplitr; · ipureintro; rfl
    iexact Hl
  isplitl [Hm]
  · iexists _; isplitr
    swap; · iexact Hm
    ipureintro
    exact View.read_writes_eq_canon _ _ _ (cover4_12 _)
  iexists _; isplitr
  swap; · iexact Hn
  ipureintro
  exact View.read_writes_eq_canon _ _ _ (cover4_13 _)

/-- The proof data of pipeline 4 on core c: the arrays as the region finds them; after the body at point t each
    input's buffer at its block and each output's at its out4 of the input blocks; nothing owed; the sites' array,
    read through two windows (the second row block and the residual), is held at the two halves of the full share,
    every other array at the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
    | ⟨13, _⟩ => out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
  Φ _ := Pipeline.ΦA spec4 c
  q w := match w with
    | ⟨0, _⟩ => fullShare
    | ⟨1, _⟩ => fullShare.left
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare.right
    | ⟨12, _⟩ => fullShare
    | ⟨13, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t
    = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]
theorem after4_13 (c : Dev nD) (t : Fin cfg4.N) : (dat4 V c).after 13 t
    = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d

/-- The shares the arrays are held at: the sites' array at the left half through the second row block's window and at
    the right half through the residual's, every other array at the full share. -/
theorem share4_a (c : Dev nD) : (dat4 V c).share 1 = fullShare.left := rfl
theorem share4_b (c : Dev nD) : (dat4 V c).share 11 = fullShare.right := rfl
theorem share4_rest (c : Dev nD) : ∀ w, w ≠ 1 → w ≠ 11 → (dat4 V c).share w = fullShare := fun w => match w with
    | ⟨0, _⟩ => fun _ _ => rfl
    | ⟨1, _⟩ => fun h _ => absurd rfl h
    | ⟨2, _⟩ => fun _ _ => rfl
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ h => absurd rfl h
    | ⟨12, _⟩ => fun _ _ => rfl
    | ⟨13, _⟩ => fun _ _ => rfl

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t))

/-- The body at any point: the inputs' memrefs hold their blocks, so sound_kernel4 applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩, ⟨%dl, Hl⟩, ⟨%dm, Hm⟩, ⟨%dn, Hn⟩⟩
  iapply (sound_kernel4 c Set.univ _ _ _ _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexists _; iexact Hm
  isplitl [Hn]; · iexists _; iexact Hn
  iintro ⟨Ha, Hb, Hc, Hd, He, Hf, Hg, Hh, Hi, Hj, Hk, Hl, Hm, Hn⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexact Hm
  iexact Hn

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.KReg5.lean ====
/-
  Region 5 of the kernel: the three-layer perceptron block with a residual, on the one block of 1000 state rows.
  One grid point loads three 1000×64 row blocks (the bonds pooled by graph, the sites pooled by graph, the states), the three
  64×64 slices of the first layer's weight with its 1×64 bias, the 64×32 second weight with its 1×32 bias, the 32×64
  third weight with its 1×64 bias, and the residual's 1000×64 block (the states again). With
  h₁ = relu(x₀·W₀ + x₁·W₁ + x₂·W₂ + b₁), h₂ = relu(h₁·W' + b₂), y = relu(h₂·W'' + b₃), it stores y over the whole
  first output block and y + r (r the residual block) over the whole second. Stated at a parameter V, the contents
  every buffer holds when the region is entered: the blocks a point reads, what the body leaves in the two output
  blocks, the body's triple, the pipeline's proof data and the body obligation.
-/
import proofs.«424920_j53549652246920_2_alg».proof.Proof.Gen.Kernel.Launch
import proofs.«424920_j53549652246920_2_alg».proof.Proof.Gen.Kernel.Skeleton
import proofs.«424920_j53549652246920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not: an unfetched
    window's block index has not moved since the point that fetched it. One statement per input window. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through: the row blocks, the first layer's weight slices,
    the 1×64 bias rows, the second weight, its bias row, the third weight. -/
abbrev rRows5 : Rect S1000x64 := Rect.unit (s := S1000x64) ![0, 0] S1000x64.size inb_S1000x64_S1000x64_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0
abbrev rWm5 : Rect S64x32 := Rect.unit (s := S64x32) ![0, 0] S64x32.size inb_S64x32_S64x32_0_0
abbrev rBm5 : Rect S1x32 := Rect.unit (s := S1x32) ![0, 0] S1x32.size inb_S1x32_S1x32_0_0
abbrev rWo5 : Rect S32x64 := Rect.unit (s := S32x64) ![0, 0] S32x64.size inb_S32x64_S32x64_0_0

/-- What the body leaves in the first output block, from the twelve input blocks: its one store there, of the whole
    block, the relu of the third layer on the second layer's pre-activation (the product and the broadcast bias). -/
def out5_12 (xa : Vec F S1000x64 .f32) (xb : Vec F S1000x64 .f32) (xc : Vec F S1000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S1000x64 .f32) :
    Vec F S1000x64 .f32 :=
  View.canon [⟨rRows5, k5_pay1 (k5_pay3 (View.ld xa rRows5) (View.ld xd rW5) (View.ld xb rRows5) (View.ld xe rW5) (View.ld xc rRows5) (View.ld xf rW5) (View.ld xg rB5) (View.ld xh rWm5))
      (k5_pay4 (View.ld xi rBm5)) (View.ld xj rWo5) (View.ld xk rB5)⟩]

/-- What the body leaves in the second output block: its one store there, the same value plus the residual block. -/
def out5_13 (xa : Vec F S1000x64 .f32) (xb : Vec F S1000x64 .f32) (xc : Vec F S1000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S1000x64 .f32) :
    Vec F S1000x64 .f32 :=
  View.canon [⟨rRows5, k5_pay2 (k5_pay3 (View.ld xa rRows5) (View.ld xd rW5) (View.ld xb rRows5) (View.ld xe rW5) (View.ld xc rRows5) (View.ld xf rW5) (View.ld xg rB5) (View.ld xh rWm5))
      (k5_pay4 (View.ld xi rBm5)) (View.ld xj rWo5) (View.ld xk rB5) (View.ld xl rRows5)⟩]

/-- The one store covers the block, in either output. -/
theorem cover5_12 (p0 : Vec F S1000x64 .f32) (y : S1000x64.Idx) :
    ∃ pc ∈ ([⟨rRows5, p0⟩] : List (View.Piece (Elt F) S1000x64 .f32)), y ∈ pc.1.set :=
  View.cover_of_tiled [⟨rRows5, p0⟩] S1000x64.size (by rfl) y
theorem cover5_13 (p0 : Vec F S1000x64 .f32) (y : S1000x64.Idx) :
    ∃ pc ∈ ([⟨rRows5, p0⟩] : List (View.Piece (Elt F) S1000x64 .f32)), y ∈ pc.1.set :=
  View.cover_of_tiled [⟨rRows5, p0⟩] S1000x64.size (by rfl) y

set_option maxHeartbeats 1000000 in
/-- The body on whole staging memrefs, the inputs at read contents and each output at anything, runs to the
    continuation with the inputs as they were and the outputs at out5_12 and out5_13 of the inputs. -/
theorem sound_kernel5 (c : Dev nD) (E : Set ℕ) (i : grid5.Coords)
    (ma : Memref sig .tc .vmem S1000x64 .f32) (hma : ma.IsWhole) (mb : Memref sig .tc .vmem S1000x64 .f32) (hmb : mb.IsWhole)
    (mc : Memref sig .tc .vmem S1000x64 .f32) (hmc : mc.IsWhole) (md : Memref sig .tc .vmem S64x64 .f32) (hmd : md.IsWhole)
    (me : Memref sig .tc .vmem S64x64 .f32) (hme : me.IsWhole) (mf : Memref sig .tc .vmem S64x64 .f32) (hmf : mf.IsWhole)
    (mg : Memref sig .tc .vmem S1x64 .f32) (hmg : mg.IsWhole) (mh : Memref sig .tc .vmem S64x32 .f32) (hmh : mh.IsWhole)
    (mi : Memref sig .tc .vmem S1x32 .f32) (hmi : mi.IsWhole) (mj : Memref sig .tc .vmem S32x64 .f32) (hmj : mj.IsWhole)
    (mk : Memref sig .tc .vmem S1x64 .f32) (hmk : mk.IsWhole) (ml : Memref sig .tc .vmem S1000x64 .f32) (hml : ml.IsWhole)
    (mm : Memref sig .tc .vmem S1000x64 .f32) (hmm : mm.IsWhole) (mn : Memref sig .tc .vmem S1000x64 .f32) (hmn : mn.IsWhole)
    (xa : Vec F S1000x64 .f32) (xb : Vec F S1000x64 .f32) (xc : Vec F S1000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S1000x64 .f32)
    (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe ∗ owns (c : Thread nD τ) mf fullShare xf
        ∗ owns (c : Thread nD τ) mg fullShare xg ∗ owns (c : Thread nD τ) mh fullShare xh ∗ owns (c : Thread nD τ) mi fullShare xi
        ∗ owns (c : Thread nD τ) mj fullShare xj ∗ owns (c : Thread nD τ) mk fullShare xk ∗ owns (c : Thread nD τ) ml fullShare xl
        ∗ (∃ d, owns (c : Thread nD τ) mm fullShare d) ∗ (∃ d, owns (c : Thread nD τ) mn fullShare d)
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg ∗ owns (c : Thread nD τ) mh fullShare xh ∗ owns (c : Thread nD τ) mi fullShare xi
            ∗ owns (c : Thread nD τ) mj fullShare xj ∗ owns (c : Thread nD τ) mk fullShare xk ∗ owns (c : Thread nD τ) ml fullShare xl
            ∗ owns (c : Thread nD τ) mm fullShare (out5_12 xa xb xc xd xe xf xg xh xi xj xk xl)
            ∗ owns (c : Thread nD τ) mn fullShare (out5_13 xa xb xc xd xe xf xg xh xi xj xk xl)) -∗ K ⟨⟩))
      ⊢ wp frame (wpE (defs₀ (F := F)) Variants.none c none) E
          (cc5_kernel i ma hma mb hmb mc hmc md hmd me hme mf hmf mg hmg mh hmh mi hmi mj hmj mk hmk ml hml mm hmm mn hmn) K := by
  simp only [cc5_kernel_eq_skeleton]; unfold cc5_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, ⟨%dm, %fm, -, Hm⟩, ⟨%dn, %fn, -, Hn⟩, Hk⟩
  subst hfa; subst hfb; subst hfc; subst hfd; subst hfe; subst hff; subst hfg; subst hfh; subst hfi; subst hfj; subst hfk; subst hfl
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists fk; isplitr; · ipureintro; rfl
    iexact Hk
  isplitl [Hl]
  · iexists fl; isplitr; · ipureintro; rfl
    iexact Hl
  isplitl [Hm]
  · iexists _; isplitr
    swap; · iexact Hm
    ipureintro
    exact View.read_writes_eq_canon _ _ _ (cover5_12 _)
  iexists _; isplitr
  swap; · iexact Hn
  ipureintro
  exact View.read_writes_eq_canon _ _ _ (cover5_13 _)

/-- The proof data of pipeline 5 on core c: the arrays as the region finds them; after the body at point t each
    input's buffer at its block and each output's at its out5 of the input blocks; nothing owed; the states' array,
    read through two windows (the third row block and the residual), is held at the two halves of the full share,
    every other array at the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t)
    | ⟨13, _⟩ => out5_13 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t)
  Φ _ := Pipeline.ΦA spec5 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare.right
    | ⟨12, _⟩ => fullShare
    | ⟨13, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t
    = out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) := by dsimp only [dat5]
theorem after5_13 (c : Dev nD) (t : Fin cfg5.N) : (dat5 V c).after 13 t
    = out5_13 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d

/-- The shares the arrays are held at: the states' array at the left half through the third row block's window and at
    the right half through the residual's, every other array at the full share. -/
theorem share5_a (c : Dev nD) : (dat5 V c).share 2 = fullShare.left := rfl
theorem share5_b (c : Dev nD) : (dat5 V c).share 11 = fullShare.right := rfl
theorem share5_rest (c : Dev nD) : ∀ w, w ≠ 2 → w ≠ 11 → (dat5 V c).share w = fullShare := fun w => match w with
    | ⟨0, _⟩ => fun _ _ => rfl
    | ⟨1, _⟩ => fun _ _ => rfl
    | ⟨2, _⟩ => fun h _ => absurd rfl h
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ h => absurd rfl h
    | ⟨12, _⟩ => fun _ _ => rfl
    | ⟨13, _⟩ => fun _ _ => rfl

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t))

/-- The body at any point: the inputs' memrefs hold their blocks, so sound_kernel5 applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩, ⟨%dl, Hl⟩, ⟨%dm, Hm⟩, ⟨%dn, Hn⟩⟩
  iapply (sound_kernel5 c Set.univ _ _ _ _ _ _ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexists _; iexact Hm
  isplitl [Hn]; · iexists _; iexact Hn
  iintro ⟨Ha, Hb, Hc, Hd, He, Hf, Hg, Hh, Hi, Hj, Hk, Hl, Hm, Hn⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexact Hm
  iexact Hn

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.KChain.lean ====
/-
  The buffers' contents at every boundary of the kernel's @main, folded from the launch memory:
  a stretch of host operations applies them in order; a kernel region leaves every buffer as it found it
  except its output arrays, which end at what the pipeline's write-backs leave (the proof data's array
  after the last point). Each region's proof data is taken at the contents its region is entered from.
  Proved here: at a region's exit each of its arrays holds what the pipeline leaves and every other buffer
  what it held at entry; no item of @main writes an argument, so the last boundary holds each argument as
  launched.
-/
import proofs.«424920_j53549652246920_2_alg».proof.Proof.KReg0
import proofs.«424920_j53549652246920_2_alg».proof.Proof.KReg1
import proofs.«424920_j53549652246920_2_alg».proof.Proof.KReg2
import proofs.«424920_j53549652246920_2_alg».proof.Proof.KReg3
import proofs.«424920_j53549652246920_2_alg».proof.Proof.KReg4
import proofs.«424920_j53549652246920_2_alg».proof.Proof.KReg5
import proofs.«424920_j53549652246920_2_alg».proof.Proof.Gen.Kernel.Regions

set_option maxRecDepth 16384

noncomputable section

namespace Cert.Kernel.Frame

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A boundary's contents read at the TensorCore's references. -/
abbrev atTc (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
/-- What region 0 leaves in its output array. -/
def o2 (c : Dev nD) : Buf (Elt F) ((c : Thread nD τ).loc main_v2) := (dat0 (atTc (W1 m)) c).arrAt 5 cfg0.N
/-- At region 0's exit. -/
def W2 : Dev nD → Valuation τ sig (Elt F) := fun c => Function.update (W1 m c) main_v2 (o2 m c)
abbrev W3 : Dev nD → Valuation τ sig (Elt F) := fun c => StableHlo.after hostOps1 (W2 m c)
def o4 (c : Dev nD) : Buf (Elt F) ((c : Thread nD τ).loc main_v5) := (dat1 (atTc (W3 m)) c).arrAt 5 cfg1.N
def W4 : Dev nD → Valuation τ sig (Elt F) := fun c => Function.update (W3 m c) main_v5 (o4 m c)
abbrev W5 : Dev nD → Valuation τ sig (Elt F) := fun c => StableHlo.after hostOps2 (W4 m c)
def o6 (c : Dev nD) : Buf (Elt F) ((c : Thread nD τ).loc main_v8) := (dat2 (atTc (W5 m)) c).arrAt 5 cfg2.N
def W6 : Dev nD → Valuation τ sig (Elt F) := fun c => Function.update (W5 m c) main_v8 (o6 m c)
abbrev W7 : Dev nD → Valuation τ sig (Elt F) := fun c => StableHlo.after hostOps3 (W6 m c)
abbrev W8 : Dev nD → Valuation τ sig (Elt F) := fun c => StableHlo.after hostOps3_1 (W7 m c)
abbrev W9 : Dev nD → Valuation τ sig (Elt F) := fun c => StableHlo.after hostOps3_2 (W8 m c)
abbrev W10 : Dev nD → Valuation τ sig (Elt F) := fun c => StableHlo.after hostOps3_3 (W9 m c)
def o11a (c : Dev nD) : Buf (Elt F) ((c : Thread nD τ).loc main_v19_0) := (dat3 (atTc (W10 m)) c).arrAt 14 cfg3.N
def o11b (c : Dev nD) : Buf (Elt F) ((c : Thread nD τ).loc main_v19_1) := (dat3 (atTc (W10 m)) c).arrAt 15 cfg3.N
def W11 : Dev nD → Valuation τ sig (Elt F) := fun c =>
  Function.update (Function.update (W10 m c) main_v19_0 (o11a m c)) main_v19_1 (o11b m c)
abbrev W12 : Dev nD → Valuation τ sig (Elt F) := fun c => StableHlo.after hostOps4 (W11 m c)
abbrev W13 : Dev nD → Valuation τ sig (Elt F) := fun c => StableHlo.after hostOps4_1 (W12 m c)
abbrev W14 : Dev nD → Valuation τ sig (Elt F) := fun c => StableHlo.after hostOps4_2 (W13 m c)
def o15a (c : Dev nD) : Buf (Elt F) ((c : Thread nD τ).loc main_v39_0) := (dat4 (atTc (W14 m)) c).arrAt 12 cfg4.N
def o15b (c : Dev nD) : Buf (Elt F) ((c : Thread nD τ).loc main_v39_1) := (dat4 (atTc (W14 m)) c).arrAt 13 cfg4.N
def W15 : Dev nD → Valuation τ sig (Elt F) := fun c =>
  Function.update (Function.update (W14 m c) main_v39_0 (o15a m c)) main_v39_1 (o15b m c)
abbrev W16 : Dev nD → Valuation τ sig (Elt F) := fun c => StableHlo.after hostOps5 (W15 m c)
def o17a (c : Dev nD) : Buf (Elt F) ((c : Thread nD τ).loc main_v70_0) := (dat5 (atTc (W16 m)) c).arrAt 12 cfg5.N
def o17b (c : Dev nD) : Buf (Elt F) ((c : Thread nD τ).loc main_v70_1) := (dat5 (atTc (W16 m)) c).arrAt 13 cfg5.N
def W17 : Dev nD → Valuation τ sig (Elt F) := fun c =>
  Function.update (Function.update (W16 m c) main_v70_0 (o17a m c)) main_v70_1 (o17b m c)

/-! ## A region's exit: its outputs at what it leaves, every other reference as entered -/

theorem W2_out (c : Dev nD) : W2 m c main_v2 = o2 m c := by unfold W2; exact Function.update_self _ _ _
theorem W2_of (c : Dev nD) (r : Ref sig .tc) (h : r ≠ main_v2) : W2 m c r = W1 m c r := by
  unfold W2; exact Function.update_of_ne (StableHlo.devRef_ne_of_ne h) _ _
theorem W4_out (c : Dev nD) : W4 m c main_v5 = o4 m c := by unfold W4; exact Function.update_self _ _ _
theorem W4_of (c : Dev nD) (r : Ref sig .tc) (h : r ≠ main_v5) : W4 m c r = W3 m c r := by
  unfold W4; exact Function.update_of_ne (StableHlo.devRef_ne_of_ne h) _ _
theorem W6_out (c : Dev nD) : W6 m c main_v8 = o6 m c := by unfold W6; exact Function.update_self _ _ _
theorem W6_of (c : Dev nD) (r : Ref sig .tc) (h : r ≠ main_v8) : W6 m c r = W5 m c r := by
  unfold W6; exact Function.update_of_ne (StableHlo.devRef_ne_of_ne h) _ _
theorem W11_outb (c : Dev nD) : W11 m c main_v19_1 = o11b m c := by unfold W11; exact Function.update_self _ _ _
theorem W11_outa (c : Dev nD) : W11 m c main_v19_0 = o11a m c := by
  unfold W11; rw [Function.update_of_ne (StableHlo.devRef_ne_of_ne (by decide))]; exact Function.update_self _ _ _
theorem W11_of (c : Dev nD) (r : Ref sig .tc) (h0 : r ≠ main_v19_0) (h1 : r ≠ main_v19_1) : W11 m c r = W10 m c r := by
  unfold W11; rw [Function.update_of_ne (StableHlo.devRef_ne_of_ne h1), Function.update_of_ne (StableHlo.devRef_ne_of_ne h0)]
theorem W15_outb (c : Dev nD) : W15 m c main_v39_1 = o15b m c := by unfold W15; exact Function.update_self _ _ _
theorem W15_outa (c : Dev nD) : W15 m c main_v39_0 = o15a m c := by
  unfold W15; rw [Function.update_of_ne (StableHlo.devRef_ne_of_ne (by decide))]; exact Function.update_self _ _ _
theorem W15_of (c : Dev nD) (r : Ref sig .tc) (h0 : r ≠ main_v39_0) (h1 : r ≠ main_v39_1) : W15 m c r = W14 m c r := by
  unfold W15; rw [Function.update_of_ne (StableHlo.devRef_ne_of_ne h1), Function.update_of_ne (StableHlo.devRef_ne_of_ne h0)]
theorem W17_outb (c : Dev nD) : W17 m c main_v70_1 = o17b m c := by unfold W17; exact Function.update_self _ _ _
theorem W17_outa (c : Dev nD) : W17 m c main_v70_0 = o17a m c := by
  unfold W17; rw [Function.update_of_ne (StableHlo.devRef_ne_of_ne (by decide))]; exact Function.update_self _ _ _
theorem W17_of (c : Dev nD) (r : Ref sig .tc) (h0 : r ≠ main_v70_0) (h1 : r ≠ main_v70_1) : W17 m c r = W16 m c r := by
  unfold W17; rw [Function.update_of_ne (StableHlo.devRef_ne_of_ne h1), Function.update_of_ne (StableHlo.devRef_ne_of_ne h0)]

/-! ## A host stretch leaves every reference it does not write -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h
theorem W8_of (c : Dev nD) (r : Ref sig .tc) (h : r ∉ hostOps3_1_W) : W8 m c r = W7 m c r :=
  StableHlo.after_of_writes_sub hostOps3_1 _ hostOps3_1_writes h
theorem W9_of (c : Dev nD) (r : Ref sig .tc) (h : r ∉ hostOps3_2_W) : W9 m c r = W8 m c r :=
  StableHlo.after_of_writes_sub hostOps3_2 _ hostOps3_2_writes h
theorem W10_of (c : Dev nD) (r : Ref sig .tc) (h : r ∉ hostOps3_3_W) : W10 m c r = W9 m c r :=
  StableHlo.after_of_writes_sub hostOps3_3 _ hostOps3_3_writes h
theorem W12_of (c : Dev nD) (r : Ref sig .tc) (h : r ∉ hostOps4_W) : W12 m c r = W11 m c r :=
  StableHlo.after_of_writes_sub hostOps4 _ hostOps4_writes h
theorem W13_of (c : Dev nD) (r : Ref sig .tc) (h : r ∉ hostOps4_1_W) : W13 m c r = W12 m c r :=
  StableHlo.after_of_writes_sub hostOps4_1 _ hostOps4_1_writes h
theorem W14_of (c : Dev nD) (r : Ref sig .tc) (h : r ∉ hostOps4_2_W) : W14 m c r = W13 m c r :=
  StableHlo.after_of_writes_sub hostOps4_2 _ hostOps4_2_writes h
theorem W16_of (c : Dev nD) (r : Ref sig .tc) (h : r ∉ hostOps5_W) : W16 m c r = W15 m c r :=
  StableHlo.after_of_writes_sub hostOps5 _ hostOps5_writes h

/-- Every reference some item of @main may write: the host stretches' results and the regions' outputs. -/
abbrev written : List (Ref sig .tc) :=
  hostOps0_W ++ hostOps1_W ++ hostOps2_W ++ hostOps3_W ++ hostOps3_1_W ++ hostOps3_2_W ++ hostOps3_3_W ++ hostOps4_W
    ++ hostOps4_1_W ++ hostOps4_2_W ++ hostOps5_W
    ++ [main_v2, main_v5, main_v8, main_v19_0, main_v19_1, main_v39_0, main_v39_1, main_v70_0, main_v70_1]

/-- A reference no item writes holds at the last boundary what the launch memory holds. -/
theorem W17_unwritten (c : Dev nD) (r : Ref sig .tc)
    (h0 : r ∉ hostOps0_W) (h1 : r ∉ hostOps1_W) (h2 : r ∉ hostOps2_W) (h3 : r ∉ hostOps3_W) (h31 : r ∉ hostOps3_1_W)
    (h32 : r ∉ hostOps3_2_W) (h33 : r ∉ hostOps3_3_W) (h4 : r ∉ hostOps4_W) (h41 : r ∉ hostOps4_1_W) (h42 : r ∉ hostOps4_2_W)
    (h5 : r ∉ hostOps5_W)
    (ho : r ∉ ([main_v2, main_v5, main_v8, main_v19_0, main_v19_1, main_v39_0, main_v39_1, main_v70_0, main_v70_1] : List (Ref sig .tc))) :
    W17 m c r = m ((c : Thread nD τ).loc r) := by
  have hne : ∀ x ∈ ([main_v2, main_v5, main_v8, main_v19_0, main_v19_1, main_v39_0, main_v39_1, main_v70_0, main_v70_1] : List (Ref sig .tc)), r ≠ x :=
    fun x hx e => ho (e ▸ hx)
  rw [W17_of m c r (hne _ (by simp)) (hne _ (by simp)), W16_of m c r h5,
    W15_of m c r (hne _ (by simp)) (hne _ (by simp)), W14_of m c r h42, W13_of m c r h41, W12_of m c r h4,
    W11_of m c r (hne _ (by simp)) (hne _ (by simp)), W10_of m c r h33, W9_of m c r h32, W8_of m c r h31, W7_of m c r h3,
    W6_of m c r (hne _ (by simp)), W5_of m c r h2, W4_of m c r (hne _ (by simp)), W3_of m c r h1,
    W2_of m c r (hne _ (by simp)), W1_of m c r h0]

end Cert.Kernel.Frame

end
-- ==== Proof.LibSharedArrays.lean ====
/-
  Windows that share an array: one array handed to a pipeline through two input windows.

  A pipeline's entry and exit lemmas for a core's unscoped buffers are stated for pairwise distinct arrays.
  Here two windows `a ≠ b` lie on one array and every other window's array is distinct from all others.
  The array's full share is dealt between the two windows, the left half to `a` and the right half to `b`;
  every other window holds its array at the full share.
-/
import Idealize.ShloMosaic.Lib.Pipeline.RegionsLoop

noncomputable section

namespace Idealize.ShloMosaic

open Idealize.SL
open Idealize.SL.BI (sProp bigSep bigSep_sep' bigSep_mono bigSep_congr bigSep_subset bigSep_sdiff_split bigSep_insert bigSep_erase
  bigSep_univ_split bigSep_image_of_injOn)
open scoped Idealize.SL.BI
open Idealize.SL.BI.BIBase Idealize.SL.BI.Laws Idealize.SL.Sem Idealize.SL.ProofMode
open Idealize.SL.RA
open TcCoe

set_option Elab.async false

namespace Pipeline.SharedArrays

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- Rotating the first two of three separated assertions. -/
theorem sep_rotate (P Q R : sProp 𝕄) : iprop((P ∗ Q) ∗ R) = iprop(Q ∗ P ∗ R) := by
  have h1 : iprop((P ∗ Q) ∗ R) ⊢ iprop(Q ∗ P ∗ R) := by
    iintro ⟨⟨HP, HQ⟩, HR⟩
    isplitl [HQ]; · iexact HQ
    isplitl [HP]; · iexact HP
    iexact HR
  have h2 : iprop(Q ∗ P ∗ R) ⊢ iprop((P ∗ Q) ∗ R) := by
    iintro ⟨HQ, HP, HR⟩
    isplitr [HR]
    · isplitl [HP]; · iexact HP
      iexact HQ
    · iexact HR
  exact h1.antisymm h2

/-- A whole-buffer points-to read along an equation of references: the buffer behind `r` at `V r` is the buffer
    behind `r'` at `V r'` when `r = r'`. -/
theorem pointsTo_ref_congr (c : Dev nD) (V : (r : Ref sig .tc) → Buf Val ((c.tc : Thread nD τ).loc r))
    (q : PosShare TreeShare) {r r' : Ref sig .tc} (h : r = r') :
    ((((c.tc : Thread nD τ).loc r) ↦{q} V r : sProp 𝕄)) = (((c.tc : Thread nD τ).loc r') ↦{q} V r') := by
  subst h; rfl

/-- A core's unscoped buffers at contents `V` are the distinct buffers behind the windows' arrays at `V` and the
    rest, whether or not the arrays are distinct. -/
theorem unscopedBufs_eq {cfg : Cfg sig Λ₀} (c : Dev nD) (hun : ∀ w, (arrRef cfg.spec w).isScoped = false)
    (V : (r : Ref sig .tc) → Buf Val ((c.tc : Thread nD τ).loc r)) :
    (unscopedBufs c V : sProp 𝕄) = iprop((arrBufs cfg.spec c V : sProp 𝕄) ∗ unscopedRest cfg.spec c V) := by
  classical
  have hA : Finset.univ.image (arrRef cfg.spec) ⊆ Finset.univ.filter fun r : Ref sig .tc => ¬ r.isScoped := fun r hr => by
    obtain ⟨w, -, rfl⟩ := Finset.mem_image.mp hr
    exact Finset.mem_filter.mpr ⟨Finset.mem_univ _, by simp [hun w]⟩
  unfold unscopedBufs unscopedRest arrBufs
  rw [bigSep_sdiff_split hA]
  rfl

/-- THE SPLIT. Two windows `a ≠ b` on one array (`heq`), every other coincidence of arrays excluded (`hinj`), every
    array a whole buffer (`harr`); window `a` holds the left half of the full share, window `b` the right half, every
    other window the full share. Then the distinct buffers behind the arrays, each whole at the full share at
    contents `V`, ARE the proof data's `arrays` at the contents `F` read off `V` (`hF`). -/
theorem arrBufs_eq_arrays_shared {cfg : Cfg sig Λ₀} {c : Dev nD} (dat : Dat τ Val Ix Name U Lvl cfg c)
    (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (arrBufs cfg.spec c V : sProp 𝕄) = dat.arrays F := by
  classical
  -- the arrays' buffers are those of the windows other than `b`, on which the map to buffers is injective
  have himg : Finset.univ.image (arrRef cfg.spec) = (Finset.univ.erase b).image (arrRef cfg.spec) := by
    ext r
    simp only [Finset.mem_image, Finset.mem_univ, true_and, Finset.mem_erase, and_true]
    constructor
    · rintro ⟨w, rfl⟩
      by_cases hw : w = b
      · exact ⟨a, hab, by rw [hw, heq]⟩
      · exact ⟨w, hw, rfl⟩
    · rintro ⟨w, -, rfl⟩; exact ⟨w, rfl⟩
  have hinjOn : Set.InjOn (arrRef cfg.spec) (Finset.univ.erase b : Finset (Fin cfg.W)) := fun w hw w' hw' e =>
    hinj w w' (Finset.ne_of_mem_erase (Finset.mem_coe.mp hw)) (Finset.ne_of_mem_erase (Finset.mem_coe.mp hw')) e
  have ha : a ∈ (Finset.univ.erase b : Finset (Fin cfg.W)) := Finset.mem_erase.mpr ⟨hab, Finset.mem_univ _⟩
  -- each window's term of `arrays`, spelled as a whole-buffer points-to at contents read off `V`
  have hterm : ∀ w, (((cfg.win w).arr.view.loc (c.tc : Thread nD τ) ↦[(cfg.win w).arr.view.set]{dat.share w} F w : sProp 𝕄))
      = (((c.tc : Thread nD τ).loc (arrRef cfg.spec w)) ↦{dat.share w} V (arrRef cfg.spec w)) := fun w => by
    rw [(harr w).set_eq_univ, hF]
  -- the full share of `a`'s buffer, dealt into its halves
  have hshare : ((((c.tc : Thread nD τ).loc (arrRef cfg.spec a)) ↦{fullShare} V (arrRef cfg.spec a) : sProp 𝕄))
      = iprop((((c.tc : Thread nD τ).loc (arrRef cfg.spec a)) ↦{fullShare.left} V (arrRef cfg.spec a))
          ∗ (((c.tc : Thread nD τ).loc (arrRef cfg.spec a)) ↦{fullShare.right} V (arrRef cfg.spec a))) :=
    have h := pointsTo_share (ℓ := (c.tc : Thread nD τ).loc (arrRef cfg.spec a)) (I := Finset.univ) (f := V (arrRef cfg.spec a))
      (Ix := Ix) (Name := Name) (U := U) (Lvl := Lvl) (PosShare.mem_left_op_right fullShare)
    BI.equiv_iff.mp ⟨h.1, h.2⟩
  -- the windows on neither side of the shared array
  have hrest : (bigSep ((Finset.univ.erase b).erase a) fun w : Fin cfg.W =>
        ((cfg.win w).arr.view.loc (c.tc : Thread nD τ) ↦[(cfg.win w).arr.view.set]{dat.share w} F w : sProp 𝕄))
      = bigSep ((Finset.univ.erase b).erase a) fun w : Fin cfg.W =>
        ((((c.tc : Thread nD τ).loc (arrRef cfg.spec w)) ↦{fullShare} V (arrRef cfg.spec w) : sProp 𝕄)) :=
    bigSep_congr fun w hw => by
      rw [hterm w, hs w (Finset.ne_of_mem_erase hw) (Finset.ne_of_mem_erase (Finset.mem_of_mem_erase hw))]
  have hL : (arrBufs cfg.spec c V : sProp 𝕄)
      = iprop(((((c.tc : Thread nD τ).loc (arrRef cfg.spec a)) ↦{fullShare.left} V (arrRef cfg.spec a))
          ∗ (((c.tc : Thread nD τ).loc (arrRef cfg.spec a)) ↦{fullShare.right} V (arrRef cfg.spec a)))
        ∗ bigSep ((Finset.univ.erase b).erase a) fun w : Fin cfg.W =>
          ((((c.tc : Thread nD τ).loc (arrRef cfg.spec w)) ↦{fullShare} V (arrRef cfg.spec w) : sProp 𝕄))) := by
    unfold arrBufs
    rw [himg, bigSep_image_of_injOn hinjOn, bigSep_erase ha, hshare]
    rfl
  have hR : dat.arrays F
      = iprop((((c.tc : Thread nD τ).loc (arrRef cfg.spec a)) ↦{fullShare.right} V (arrRef cfg.spec a))
        ∗ (((c.tc : Thread nD τ).loc (arrRef cfg.spec a)) ↦{fullShare.left} V (arrRef cfg.spec a))
        ∗ bigSep ((Finset.univ.erase b).erase a) fun w : Fin cfg.W =>
          ((((c.tc : Thread nD τ).loc (arrRef cfg.spec w)) ↦{fullShare} V (arrRef cfg.spec w) : sProp 𝕄))) := by
    unfold Dat.arrays
    rw [bigSep_univ_split b, bigSep_erase ha, hrest, hterm a, hterm b, hsa, hsb, pointsTo_ref_congr c V fullShare.right heq]
    rfl
  rw [hL, hR]; exact sep_rotate _ _ _

/-- ENTRY, the arrays' part, for two windows `a ≠ b` on one array: a core's unscoped buffers at contents `V` are the
    proof data's `arrays` at the contents `F` read off `V` (`hF`) — window `a` at the left half of the full share,
    window `b` at the right half, every other window at the full share — and the unscoped rest. -/
theorem arrays_of_unscopedBufs_shared {cfg : Cfg sig Λ₀} {c : Dev nD} (dat : Dat τ Val Ix Name U Lvl cfg c)
    (hun : ∀ w, (arrRef cfg.spec w).isScoped = false) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (unscopedBufs c V : sProp 𝕄) ⊢ iprop(dat.arrays F ∗ unscopedRest cfg.spec c V) := by
  rw [unscopedBufs_eq (cfg := cfg) c hun V, arrBufs_eq_arrays_shared dat harr a b hab heq hinj hsa hsb hs V F hF]

/-- EXIT, the arrays' part, for two windows `a ≠ b` on one array: the proof data's `arrays` at contents `F` — the two
    halves of the shared array's full share held by `a` and `b` — and the unscoped rest at `V` are the core's unscoped
    buffers at any valuation `V'` that has the arrays at `F` (`hF`) and agrees with `V` off them (`hrest`). -/
theorem unscopedBufs_of_arrays_shared {cfg : Cfg sig Λ₀} {c : Dev nD} (dat : Dat τ Val Ix Name U Lvl cfg c)
    (hun : ∀ w, (arrRef cfg.spec w).isScoped = false) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V V' : (r : Ref sig .tc) → Buf Val ((c.tc : Thread nD τ).loc r))
    (F : (w : Fin cfg.W) → Buf Val ((cfg.spec w).arr.view.loc (c.tc : Thread nD τ)))
    (hF : ∀ w, F w = V' (arrRef cfg.spec w))
    (hrest : ∀ r, r ∉ Finset.univ.image (arrRef cfg.spec) → V' r = V r) :
    iprop(dat.arrays F ∗ unscopedRest cfg.spec c V) ⊢ (unscopedBufs c V' : sProp 𝕄) := by
  rw [unscopedBufs_eq (cfg := cfg) c hun V', arrBufs_eq_arrays_shared dat harr a b hab heq hinj hsa hsb hs V' F hF]
  refine sep_mono .rfl (Entails.of_eq ?_)
  unfold unscopedRest
  exact bigSep_congr fun r hr => by rw [hrest r (Finset.mem_sdiff.mp hr).2]

/-- `arrays_of_unscopedBufs_shared` with the arrays' unscopedness read off the launch's facts about the windows. -/
theorem arrays_of_unscopedBufs_shared' {cfg : Cfg sig Λ₀} {c : Dev nD} (dat : Dat τ Val Ix Name U Lvl cfg c)
    (hw : WinFacts₀ cfg.spec) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V : (r : Ref sig .tc) → Buf Val ((c.tc : Thread nD τ).loc r))
    (F : (w : Fin cfg.W) → Buf Val ((cfg.spec w).arr.view.loc (c.tc : Thread nD τ)))
    (hF : ∀ w, F w = V (arrRef cfg.spec w)) :
    (unscopedBufs c V : sProp 𝕄) ⊢ iprop(dat.arrays F ∗ unscopedRest cfg.spec c V) :=
  arrays_of_unscopedBufs_shared dat hw.arr_unscoped harr a b hab heq hinj hsa hsb hs V F hF

/-- `unscopedBufs_of_arrays_shared` with the arrays' unscopedness read off the launch's facts about the windows. -/
theorem unscopedBufs_of_arrays_shared' {cfg : Cfg sig Λ₀} {c : Dev nD} (dat : Dat τ Val Ix Name U Lvl cfg c)
    (hw : WinFacts₀ cfg.spec) (harr : ∀ w, (cfg.spec w).arr.IsWhole)
    (a b : Fin cfg.W) (hab : a ≠ b) (heq : arrRef cfg.spec b = arrRef cfg.spec a)
    (hinj : ∀ w w', w ≠ b → w' ≠ b → arrRef cfg.spec w = arrRef cfg.spec w' → w = w')
    (hsa : dat.share a = fullShare.left) (hsb : dat.share b = fullShare.right)
    (hs : ∀ w, w ≠ a → w ≠ b → dat.share w = fullShare)
    (V V' : (r : Ref sig .tc) → Buf Val ((c.tc : Thread nD τ).loc r))
    (F : (w : Fin cfg.W) → Buf Val ((cfg.spec w).arr.view.loc (c.tc : Thread nD τ)))
    (hF : ∀ w, F w = V' (arrRef cfg.spec w))
    (hrest : ∀ r, r ∉ Finset.univ.image (arrRef cfg.spec) → V' r = V r) :
    iprop(dat.arrays F ∗ unscopedRest cfg.spec c V) ⊢ (unscopedBufs c V' : sProp 𝕄) :=
  unscopedBufs_of_arrays_shared dat hw.arr_unscoped harr a b hab heq hinj hsa hsb hs V V' F hF hrest

end Pipeline.SharedArrays

end Idealize.ShloMosaic
-- ==== Proof.KRun.lean ====
/-
  The idealized kernel's run: @main as six kernel regions among stretches of host operations, composed by the
  library's several-regions launch. Each region is a record over the thread state "every unscoped buffer at the
  boundary's contents, the generator register at some state, nothing owed"; each host stretch carries the same
  state from one boundary's contents to the next. Conclusion: every weakly fair execution from a memory with zero
  counters terminates, without a fault, with every unscoped buffer at the last boundary's contents.
-/
import proofs.«424920_j53549652246920_2_alg».proof.Proof.KChain
import proofs.«424920_j53549652246920_2_alg».proof.Proof.LibSharedArrays

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' arrays at their exits -/

/-- At region 0's exit each of its arrays holds what the pipeline leaves: an input's array is never written and is no
    output of the region, so it holds its entry contents; an output's is what the update put there. -/
theorem hF0 (c : Dev nD) (w : Fin cfg0.W) :
    (dat0 (atTc (W1 m)) c).arrAt w cfg0.N = atTc (W2 m) c (Pipeline.arrRef spec0 w) :=
  match w with
  | ⟨0, _⟩ => ((dat0 (atTc (W1 m)) c).arrAt_in 0 rfl _).trans ((A_eq0 (atTc (W1 m)) c 0).trans (W2_of m c main_arg0 (by decide)).symm)
  | ⟨1, _⟩ => ((dat0 (atTc (W1 m)) c).arrAt_in 1 rfl _).trans ((A_eq0 (atTc (W1 m)) c 1).trans (W2_of m c main_arg3 (by decide)).symm)
  | ⟨2, _⟩ => ((dat0 (atTc (W1 m)) c).arrAt_in 2 rfl _).trans ((A_eq0 (atTc (W1 m)) c 2).trans (W2_of m c main_v0 (by decide)).symm)
  | ⟨3, _⟩ => ((dat0 (atTc (W1 m)) c).arrAt_in 3 rfl _).trans ((A_eq0 (atTc (W1 m)) c 3).trans (W2_of m c main_arg5 (by decide)).symm)
  | ⟨4, _⟩ => ((dat0 (atTc (W1 m)) c).arrAt_in 4 rfl _).trans ((A_eq0 (atTc (W1 m)) c 4).trans (W2_of m c main_v1 (by decide)).symm)
  | ⟨5, _⟩ => (W2_out m c).symm
/-- and every reference that is none of its arrays holds what it held at entry. -/
theorem hrest0 (c : Dev nD) : ∀ b, b ∉ Finset.univ.image (Pipeline.arrRef spec0) → atTc (W2 m) c b = atTc (W1 m) c b :=
  fun b hb => W2_of m c b (fun e => hb (e ▸ Finset.mem_image.mpr ⟨5, Finset.mem_univ _, rfl⟩))

/-- At region 1's exit each of its arrays holds what the pipeline leaves: an input's array is never written and is no
    output of the region, so it holds its entry contents; an output's is what the update put there. -/
theorem hF1 (c : Dev nD) (w : Fin cfg1.W) :
    (dat1 (atTc (W3 m)) c).arrAt w cfg1.N = atTc (W4 m) c (Pipeline.arrRef spec1 w) :=
  match w with
  | ⟨0, _⟩ => ((dat1 (atTc (W3 m)) c).arrAt_in 0 rfl _).trans ((A_eq1 (atTc (W3 m)) c 0).trans (W4_of m c main_arg1 (by decide)).symm)
  | ⟨1, _⟩ => ((dat1 (atTc (W3 m)) c).arrAt_in 1 rfl _).trans ((A_eq1 (atTc (W3 m)) c 1).trans (W4_of m c main_arg7 (by decide)).symm)
  | ⟨2, _⟩ => ((dat1 (atTc (W3 m)) c).arrAt_in 2 rfl _).trans ((A_eq1 (atTc (W3 m)) c 2).trans (W4_of m c main_v3 (by decide)).symm)
  | ⟨3, _⟩ => ((dat1 (atTc (W3 m)) c).arrAt_in 3 rfl _).trans ((A_eq1 (atTc (W3 m)) c 3).trans (W4_of m c main_arg9 (by decide)).symm)
  | ⟨4, _⟩ => ((dat1 (atTc (W3 m)) c).arrAt_in 4 rfl _).trans ((A_eq1 (atTc (W3 m)) c 4).trans (W4_of m c main_v4 (by decide)).symm)
  | ⟨5, _⟩ => (W4_out m c).symm
/-- and every reference that is none of its arrays holds what it held at entry. -/
theorem hrest1 (c : Dev nD) : ∀ b, b ∉ Finset.univ.image (Pipeline.arrRef spec1) → atTc (W4 m) c b = atTc (W3 m) c b :=
  fun b hb => W4_of m c b (fun e => hb (e ▸ Finset.mem_image.mpr ⟨5, Finset.mem_univ _, rfl⟩))

/-- At region 2's exit each of its arrays holds what the pipeline leaves: an input's array is never written and is no
    output of the region, so it holds its entry contents; an output's is what the update put there. -/
theorem hF2 (c : Dev nD) (w : Fin cfg2.W) :
    (dat2 (atTc (W5 m)) c).arrAt w cfg2.N = atTc (W6 m) c (Pipeline.arrRef spec2 w) :=
  match w with
  | ⟨0, _⟩ => ((dat2 (atTc (W5 m)) c).arrAt_in 0 rfl _).trans ((A_eq2 (atTc (W5 m)) c 0).trans (W6_of m c main_arg2 (by decide)).symm)
  | ⟨1, _⟩ => ((dat2 (atTc (W5 m)) c).arrAt_in 1 rfl _).trans ((A_eq2 (atTc (W5 m)) c 1).trans (W6_of m c main_arg11 (by decide)).symm)
  | ⟨2, _⟩ => ((dat2 (atTc (W5 m)) c).arrAt_in 2 rfl _).trans ((A_eq2 (atTc (W5 m)) c 2).trans (W6_of m c main_v6 (by decide)).symm)
  | ⟨3, _⟩ => ((dat2 (atTc (W5 m)) c).arrAt_in 3 rfl _).trans ((A_eq2 (atTc (W5 m)) c 3).trans (W6_of m c main_arg13 (by decide)).symm)
  | ⟨4, _⟩ => ((dat2 (atTc (W5 m)) c).arrAt_in 4 rfl _).trans ((A_eq2 (atTc (W5 m)) c 4).trans (W6_of m c main_v7 (by decide)).symm)
  | ⟨5, _⟩ => (W6_out m c).symm
/-- and every reference that is none of its arrays holds what it held at entry. -/
theorem hrest2 (c : Dev nD) : ∀ b, b ∉ Finset.univ.image (Pipeline.arrRef spec2) → atTc (W6 m) c b = atTc (W5 m) c b :=
  fun b hb => W6_of m c b (fun e => hb (e ▸ Finset.mem_image.mpr ⟨5, Finset.mem_univ _, rfl⟩))

set_option maxHeartbeats 4000000 in
/-- At region 3's exit each of its arrays holds what the pipeline leaves: an input's array is never written and is no
    output of the region, so it holds its entry contents; an output's is what the update put there. -/
theorem hF3 (c : Dev nD) (w : Fin cfg3.W) :
    (dat3 (atTc (W10 m)) c).arrAt w cfg3.N = atTc (W11 m) c (Pipeline.arrRef spec3 w) :=
  match w with
  | ⟨0, _⟩ => ((dat3 (atTc (W10 m)) c).arrAt_in 0 rfl _).trans ((A_eq3 (atTc (W10 m)) c 0).trans (W11_of m c main_v9 (by decide) (by decide)).symm)
  | ⟨1, _⟩ => ((dat3 (atTc (W10 m)) c).arrAt_in 1 rfl _).trans ((A_eq3 (atTc (W10 m)) c 1).trans (W11_of m c main_v10 (by decide) (by decide)).symm)
  | ⟨2, _⟩ => ((dat3 (atTc (W10 m)) c).arrAt_in 2 rfl _).trans ((A_eq3 (atTc (W10 m)) c 2).trans (W11_of m c main_v5 (by decide) (by decide)).symm)
  | ⟨3, _⟩ => ((dat3 (atTc (W10 m)) c).arrAt_in 3 rfl _).trans ((A_eq3 (atTc (W10 m)) c 3).trans (W11_of m c main_v11 (by decide) (by decide)).symm)
  | ⟨4, _⟩ => ((dat3 (atTc (W10 m)) c).arrAt_in 4 rfl _).trans ((A_eq3 (atTc (W10 m)) c 4).trans (W11_of m c main_v12 (by decide) (by decide)).symm)
  | ⟨5, _⟩ => ((dat3 (atTc (W10 m)) c).arrAt_in 5 rfl _).trans ((A_eq3 (atTc (W10 m)) c 5).trans (W11_of m c main_v13 (by decide) (by decide)).symm)
  | ⟨6, _⟩ => ((dat3 (atTc (W10 m)) c).arrAt_in 6 rfl _).trans ((A_eq3 (atTc (W10 m)) c 6).trans (W11_of m c main_v14 (by decide) (by decide)).symm)
  | ⟨7, _⟩ => ((dat3 (atTc (W10 m)) c).arrAt_in 7 rfl _).trans ((A_eq3 (atTc (W10 m)) c 7).trans (W11_of m c main_v15 (by decide) (by decide)).symm)
  | ⟨8, _⟩ => ((dat3 (atTc (W10 m)) c).arrAt_in 8 rfl _).trans ((A_eq3 (atTc (W10 m)) c 8).trans (W11_of m c main_v16 (by decide) (by decide)).symm)
  | ⟨9, _⟩ => ((dat3 (atTc (W10 m)) c).arrAt_in 9 rfl _).trans ((A_eq3 (atTc (W10 m)) c 9).trans (W11_of m c main_arg17 (by decide) (by decide)).symm)
  | ⟨10, _⟩ => ((dat3 (atTc (W10 m)) c).arrAt_in 10 rfl _).trans ((A_eq3 (atTc (W10 m)) c 10).trans (W11_of m c main_v17 (by decide) (by decide)).symm)
  | ⟨11, _⟩ => ((dat3 (atTc (W10 m)) c).arrAt_in 11 rfl _).trans ((A_eq3 (atTc (W10 m)) c 11).trans (W11_of m c main_arg19 (by decide) (by decide)).symm)
  | ⟨12, _⟩ => ((dat3 (atTc (W10 m)) c).arrAt_in 12 rfl _).trans ((A_eq3 (atTc (W10 m)) c 12).trans (W11_of m c main_v18 (by decide) (by decide)).symm)
  | ⟨13, _⟩ => ((dat3 (atTc (W10 m)) c).arrAt_in 13 rfl _).trans ((A_eq3 (atTc (W10 m)) c 13).trans (W11_of m c main_v5 (by decide) (by decide)).symm)
  | ⟨14, _⟩ => (W11_outa m c).symm
  | ⟨15, _⟩ => (W11_outb m c).symm
  | ⟨_ + 16, h⟩ => absurd h (Nat.not_lt.2 (Nat.le_add_left _ _))
/-- and every reference that is none of its arrays holds what it held at entry. -/
theorem hrest3 (c : Dev nD) : ∀ b, b ∉ Finset.univ.image (Pipeline.arrRef spec3) → atTc (W11 m) c b = atTc (W10 m) c b :=
  fun b hb => W11_of m c b (fun e => hb (e ▸ Finset.mem_image.mpr ⟨14, Finset.mem_univ _, rfl⟩)) (fun e => hb (e ▸ Finset.mem_image.mpr ⟨15, Finset.mem_univ _, rfl⟩))

set_option maxHeartbeats 4000000 in
/-- At region 4's exit each of its arrays holds what the pipeline leaves: an input's array is never written and is no
    output of the region, so it holds its entry contents; an output's is what the update put there. -/
theorem hF4 (c : Dev nD) (w : Fin cfg4.W) :
    (dat4 (atTc (W14 m)) c).arrAt w cfg4.N = atTc (W15 m) c (Pipeline.arrRef spec4 w) :=
  match w with
  | ⟨0, _⟩ => ((dat4 (atTc (W14 m)) c).arrAt_in 0 rfl _).trans ((A_eq4 (atTc (W14 m)) c 0).trans (W15_of m c main_v31 (by decide) (by decide)).symm)
  | ⟨1, _⟩ => ((dat4 (atTc (W14 m)) c).arrAt_in 1 rfl _).trans ((A_eq4 (atTc (W14 m)) c 1).trans (W15_of m c main_v2 (by decide) (by decide)).symm)
  | ⟨2, _⟩ => ((dat4 (atTc (W14 m)) c).arrAt_in 2 rfl _).trans ((A_eq4 (atTc (W14 m)) c 2).trans (W15_of m c main_v32 (by decide) (by decide)).symm)
  | ⟨3, _⟩ => ((dat4 (atTc (W14 m)) c).arrAt_in 3 rfl _).trans ((A_eq4 (atTc (W14 m)) c 3).trans (W15_of m c main_v33 (by decide) (by decide)).symm)
  | ⟨4, _⟩ => ((dat4 (atTc (W14 m)) c).arrAt_in 4 rfl _).trans ((A_eq4 (atTc (W14 m)) c 4).trans (W15_of m c main_v34 (by decide) (by decide)).symm)
  | ⟨5, _⟩ => ((dat4 (atTc (W14 m)) c).arrAt_in 5 rfl _).trans ((A_eq4 (atTc (W14 m)) c 5).trans (W15_of m c main_v35 (by decide) (by decide)).symm)
  | ⟨6, _⟩ => ((dat4 (atTc (W14 m)) c).arrAt_in 6 rfl _).trans ((A_eq4 (atTc (W14 m)) c 6).trans (W15_of m c main_v36 (by decide) (by decide)).symm)
  | ⟨7, _⟩ => ((dat4 (atTc (W14 m)) c).arrAt_in 7 rfl _).trans ((A_eq4 (atTc (W14 m)) c 7).trans (W15_of m c main_arg23 (by decide) (by decide)).symm)
  | ⟨8, _⟩ => ((dat4 (atTc (W14 m)) c).arrAt_in 8 rfl _).trans ((A_eq4 (atTc (W14 m)) c 8).trans (W15_of m c main_v37 (by decide) (by decide)).symm)
  | ⟨9, _⟩ => ((dat4 (atTc (W14 m)) c).arrAt_in 9 rfl _).trans ((A_eq4 (atTc (W14 m)) c 9).trans (W15_of m c main_arg25 (by decide) (by decide)).symm)
  | ⟨10, _⟩ => ((dat4 (atTc (W14 m)) c).arrAt_in 10 rfl _).trans ((A_eq4 (atTc (W14 m)) c 10).trans (W15_of m c main_v38 (by decide) (by decide)).symm)
  | ⟨11, _⟩ => ((dat4 (atTc (W14 m)) c).arrAt_in 11 rfl _).trans ((A_eq4 (atTc (W14 m)) c 11).trans (W15_of m c main_v2 (by decide) (by decide)).symm)
  | ⟨12, _⟩ => (W15_outa m c).symm
  | ⟨13, _⟩ => (W15_outb m c).symm
/-- and every reference that is none of its arrays holds what it held at entry. -/
theorem hrest4 (c : Dev nD) : ∀ b, b ∉ Finset.univ.image (Pipeline.arrRef spec4) → atTc (W15 m) c b = atTc (W14 m) c b :=
  fun b hb => W15_of m c b (fun e => hb (e ▸ Finset.mem_image.mpr ⟨12, Finset.mem_univ _, rfl⟩)) (fun e => hb (e ▸ Finset.mem_image.mpr ⟨13, Finset.mem_univ _, rfl⟩))

set_option maxHeartbeats 4000000 in
/-- At region 5's exit each of its arrays holds what the pipeline leaves: an input's array is never written and is no
    output of the region, so it holds its entry contents; an output's is what the update put there. -/
theorem hF5 (c : Dev nD) (w : Fin cfg5.W) :
    (dat5 (atTc (W16 m)) c).arrAt w cfg5.N = atTc (W17 m) c (Pipeline.arrRef spec5 w) :=
  match w with
  | ⟨0, _⟩ => ((dat5 (atTc (W16 m)) c).arrAt_in 0 rfl _).trans ((A_eq5 (atTc (W16 m)) c 0).trans (W17_of m c main_v51 (by decide) (by decide)).symm)
  | ⟨1, _⟩ => ((dat5 (atTc (W16 m)) c).arrAt_in 1 rfl _).trans ((A_eq5 (atTc (W16 m)) c 1).trans (W17_of m c main_v63 (by decide) (by decide)).symm)
  | ⟨2, _⟩ => ((dat5 (atTc (W16 m)) c).arrAt_in 2 rfl _).trans ((A_eq5 (atTc (W16 m)) c 2).trans (W17_of m c main_v8 (by decide) (by decide)).symm)
  | ⟨3, _⟩ => ((dat5 (atTc (W16 m)) c).arrAt_in 3 rfl _).trans ((A_eq5 (atTc (W16 m)) c 3).trans (W17_of m c main_v64 (by decide) (by decide)).symm)
  | ⟨4, _⟩ => ((dat5 (atTc (W16 m)) c).arrAt_in 4 rfl _).trans ((A_eq5 (atTc (W16 m)) c 4).trans (W17_of m c main_v65 (by decide) (by decide)).symm)
  | ⟨5, _⟩ => ((dat5 (atTc (W16 m)) c).arrAt_in 5 rfl _).trans ((A_eq5 (atTc (W16 m)) c 5).trans (W17_of m c main_v66 (by decide) (by decide)).symm)
  | ⟨6, _⟩ => ((dat5 (atTc (W16 m)) c).arrAt_in 6 rfl _).trans ((A_eq5 (atTc (W16 m)) c 6).trans (W17_of m c main_v67 (by decide) (by decide)).symm)
  | ⟨7, _⟩ => ((dat5 (atTc (W16 m)) c).arrAt_in 7 rfl _).trans ((A_eq5 (atTc (W16 m)) c 7).trans (W17_of m c main_arg29 (by decide) (by decide)).symm)
  | ⟨8, _⟩ => ((dat5 (atTc (W16 m)) c).arrAt_in 8 rfl _).trans ((A_eq5 (atTc (W16 m)) c 8).trans (W17_of m c main_v68 (by decide) (by decide)).symm)
  | ⟨9, _⟩ => ((dat5 (atTc (W16 m)) c).arrAt_in 9 rfl _).trans ((A_eq5 (atTc (W16 m)) c 9).trans (W17_of m c main_arg31 (by decide) (by decide)).symm)
  | ⟨10, _⟩ => ((dat5 (atTc (W16 m)) c).arrAt_in 10 rfl _).trans ((A_eq5 (atTc (W16 m)) c 10).trans (W17_of m c main_v69 (by decide) (by decide)).symm)
  | ⟨11, _⟩ => ((dat5 (atTc (W16 m)) c).arrAt_in 11 rfl _).trans ((A_eq5 (atTc (W16 m)) c 11).trans (W17_of m c main_v8 (by decide) (by decide)).symm)
  | ⟨12, _⟩ => (W17_outa m c).symm
  | ⟨13, _⟩ => (W17_outb m c).symm
/-- and every reference that is none of its arrays holds what it held at entry. -/
theorem hrest5 (c : Dev nD) : ∀ b, b ∉ Finset.univ.image (Pipeline.arrRef spec5) → atTc (W17 m) c b = atTc (W16 m) c b :=
  fun b hb => W17_of m c b (fun e => hb (e ▸ Finset.mem_image.mpr ⟨12, Finset.mem_univ _, rfl⟩)) (fun e => hb (e ▸ Finset.mem_image.mpr ⟨13, Finset.mem_univ _, rfl⟩))

/-! ## The two windows on one array, in the regions that have them -/

theorem shared3_ne : (2 : Fin cfg3.W) ≠ 13 := by decide
theorem shared3_eq : Pipeline.arrRef spec3 13 = Pipeline.arrRef spec3 2 := by decide
theorem shared3_inj : ∀ w w' : Fin cfg3.W, w ≠ 13 → w' ≠ 13 → Pipeline.arrRef spec3 w = Pipeline.arrRef spec3 w' → w = w' := by decide
theorem shared4_ne : (1 : Fin cfg4.W) ≠ 11 := by decide
theorem shared4_eq : Pipeline.arrRef spec4 11 = Pipeline.arrRef spec4 1 := by decide
theorem shared4_inj : ∀ w w' : Fin cfg4.W, w ≠ 11 → w' ≠ 11 → Pipeline.arrRef spec4 w = Pipeline.arrRef spec4 w' → w = w' := by decide
theorem shared5_ne : (2 : Fin cfg5.W) ≠ 11 := by decide
theorem shared5_eq : Pipeline.arrRef spec5 11 = Pipeline.arrRef spec5 2 := by decide
theorem shared5_inj : ∀ w w' : Fin cfg5.W, w ≠ 11 → w' ≠ 11 → Pipeline.arrRef spec5 w = Pipeline.arrRef spec5 w' → w = w' := by decide

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W10 m)) c
  | ⟨4, _⟩ => fun c => dat4 (atTc (W14 m)) c
  | ⟨5, _⟩ => fun c => dat5 (atTc (W16 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W17 m c) ∗ ∃ r, prngReg c r)

/-! ## The regions as segments -/

set_option backward.isDefEq.respectTransparency.types false in
/-- Region 0 over the thread state: entered from every unscoped buffer at the boundary before it, left at the boundary
    after it. Its arrays are split out of the unscoped buffers at entry and put back at the exit contents; the
    generator register goes into the pipeline's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the boundary
    after it. Its arrays are split out of the unscoped buffers at entry and put back at the exit contents; the
    generator register goes into the pipeline's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the boundary
    after it. Its arrays are split out of the unscoped buffers at entry and put back at the exit contents; the
    generator register goes into the pipeline's invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (atTc (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W5 m) c) (atTc (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state. Two of its input windows (2 and 13) read ONE array: at entry that array's full
    share is dealt between them, a half each, and at exit the halves are joined again; every other array is held whole. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (atTc (W10 m)) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (atTc (W10 m) c)
  hentry c := by
    rw [Pipeline.ownSems0_none]
    have hsplit := Pipeline.SharedArrays.arrays_of_unscopedBufs_shared (Ix := Unit) (Name := ℕ) (U := UR sig nD τ) (Lvl := ℕ)
      (pdats m 3 c) winFacts₀3.arr_unscoped arr_whole3 2 13 shared3_ne shared3_eq shared3_inj
      (share3_a (atTc (W10 m)) c) (share3_b (atTc (W10 m)) c) (share3_rest (atTc (W10 m)) c)
      (atTc (W10 m) c) ((pdats m 3 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.SharedArrays.unscopedBufs_of_arrays_shared (Ix := Unit) (Name := ℕ) (U := UR sig nD τ) (Lvl := ℕ)
      (pdats m 3 c) winFacts₀3.arr_unscoped arr_whole3 2 13 shared3_ne shared3_eq shared3_inj
      (share3_a (atTc (W10 m)) c) (share3_b (atTc (W10 m)) c) (share3_rest (atTc (W10 m)) c)
      (atTc (W10 m) c) (atTc (W11 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state. Two of its input windows (1 and 11) read ONE array: at entry that array's full
    share is dealt between them, a half each, and at exit the halves are joined again; every other array is held whole. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (atTc (W14 m)) c).loose
  hwaits := Pipeline.hwaits_of_owed_zero _ _ _ _ L lv 4 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec4 c (atTc (W14 m) c)
  hentry c := by
    rw [Pipeline.ownSems0_none]
    have hsplit := Pipeline.SharedArrays.arrays_of_unscopedBufs_shared (Ix := Unit) (Name := ℕ) (U := UR sig nD τ) (Lvl := ℕ)
      (pdats m 4 c) winFacts₀4.arr_unscoped arr_whole4 1 11 shared4_ne shared4_eq shared4_inj
      (share4_a (atTc (W14 m)) c) (share4_b (atTc (W14 m)) c) (share4_rest (atTc (W14 m)) c)
      (atTc (W14 m) c) ((pdats m 4 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.SharedArrays.unscopedBufs_of_arrays_shared (Ix := Unit) (Name := ℕ) (U := UR sig nD τ) (Lvl := ℕ)
      (pdats m 4 c) winFacts₀4.arr_unscoped arr_whole4 1 11 shared4_ne shared4_eq shared4_inj
      (share4_a (atTc (W14 m)) c) (share4_b (atTc (W14 m)) c) (share4_rest (atTc (W14 m)) c)
      (atTc (W14 m) c) (atTc (W15 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state. Two of its input windows (2 and 11) read ONE array: at entry that array's full
    share is dealt between them, a half each, and at exit the halves are joined again; every other array is held whole. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (atTc (W16 m)) c).loose
  hwaits := Pipeline.hwaits_of_owed_zero _ _ _ _ L lv 5 fun _ _ => rfl
  pre c := iprop(StableHlo.held (c : Thread nD τ) (Pipeline.ucRefs τ sig) (W16 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (atTc (W16 m) c)
  hentry c := by
    rw [Pipeline.ownSems0_none]
    have hsplit := Pipeline.SharedArrays.arrays_of_unscopedBufs_shared (Ix := Unit) (Name := ℕ) (U := UR sig nD τ) (Lvl := ℕ)
      (pdats m 5 c) winFacts₀5.arr_unscoped arr_whole5 2 11 shared5_ne shared5_eq shared5_inj
      (share5_a (atTc (W16 m)) c) (share5_b (atTc (W16 m)) c) (share5_rest (atTc (W16 m)) c)
      (atTc (W16 m) c) ((pdats m 5 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.SharedArrays.unscopedBufs_of_arrays_shared (Ix := Unit) (Name := ℕ) (U := UR sig nD τ) (Lvl := ℕ)
      (pdats m 5 c) winFacts₀5.arr_unscoped arr_whole5 2 11 shared5_ne shared5_eq shared5_inj
      (share5_a (atTc (W16 m)) c) (share5_b (atTc (W16 m)) c) (share5_rest (atTc (W16 m)) c)
      (atTc (W16 m) c) (atTc (W17 m) c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 17 items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)),
    .host (hseg hostOps3_2 hostOps3_2_sub hostOps3_2_fresh (W8 m)),
    .host (hseg hostOps3_3 hostOps3_3_sub hostOps3_3_fresh (W9 m)),
    .region (reg3 m),
    .host (hseg hostOps4 hostOps4_sub hostOps4_fresh (W11 m)),
    .host (hseg hostOps4_1 hostOps4_1_sub hostOps4_1_fresh (W12 m)),
    .host (hseg hostOps4_2 hostOps4_2_sub hostOps4_2_fresh (W13 m)),
    .region (reg4 m),
    .host (hseg hostOps5 hostOps5_sub hostOps5_fresh (W15 m)),
    .region (reg5 m) ]

/-- @main IS the run of the segments: the program's chain of items, then the segments' run against that chain by
    definitional unfolding. -/
theorem main_run (c : Dev nD) : main (F := F) c = Pipeline.Seg.run (segs m) := (main_chain c).trans (by chain_rfl)

set_option backward.isDefEq.respectTransparency.types false in
/-- Every weakly fair execution of @main from memory m with zero counters terminates, nothing faulting, and every
    final state holds each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

/-- The frame: every argument array ends as launched (no item of @main writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c => ⟨(h c _ (mem_uc main_arg0 (by decide))).trans (W17_unwritten m c main_arg0 (by decide) (by decide) (by decide) (by decide) (by decide) (by decide) (by decide) (by decide) (by decide) (by decide) (by decide) (by decide)),
    (h c _ (mem_uc main_arg1 (by decide))).trans (W17_unwritten m c main_arg1 (by decide) (by decide) (by decide) (by decide) (by decide) (by decide) (by decide) (by decide) (by decide) (by decide) (by decide) (by decide)),
    (h c _ (mem_uc main_arg2 (by decide))).trans (W17_unwritten m c main_arg2 (by decide) (by decide) (by decide) (by decide) (by decide) (by decide) (by decide) (by decide) (by decide) (by decide) (by decide) (by decide)),
    (h c _ (mem_uc main_arg3 (by decide))).trans (W17_unwritten m c main_arg3 (by decide) (by decide) (by decide) (by decide) (by decide) (by decide) (by decide) (by decide) (by decide) (by decide) (by decide) (by decide)),
    (h c _ (mem_uc main_arg4 (by decide))).trans (W17_unwritten m c main_arg4 (by decide) (by decide) (by decide) (by decide) (by decide) (by decide) (by decide) (by decide) (by decide) (by decide) (by decide) (by decide)),
    (h c _ (mem_uc main_arg5 (by decide))).trans (W17_unwritten m c main_arg5 (by decide) (by decide) (by decide) (by decide) (by decide) (by decide) (by decide) (by decide) (by decide) (by decide) (by decide) (by decide)),
    (h c _ (mem_uc main_arg6 (by decide))).trans (W17_unwritten m c main_arg6 (by decide) (by decide) (by decide) (by decide) (by decide) (by decide) (by decide) (by decide) (by decide) (by decide) (by decide) (by decide)),
    (h c _ (mem_uc main_arg7 (by decide))).trans (W17_unwritten m c main_arg7 (by decide) (by decide) (by decide) (by decide) (by decide) (by decide) (by decide) (by decide) (by decide) (by decide) (by decide) (by decide)),
    (h c _ (mem_uc main_arg8 (by decide))).trans (W17_unwritten m c main_arg8 (by decide) (by decide) (by decide) (by decide) (by decide) (by decide) (by decide) (by decide) (by decide) (by decide) (by decide) (by decide)),
    (h c _ (mem_uc main_arg9 (by decide))).trans (W17_unwritten m c main_arg9 (by decide) (by decide) (by decide) (by decide) (by decide) (by decide) (by decide) (by decide) (by decide) (by decide) (by decide) (by decide)),
    (h c _ (mem_uc main_arg10 (by decide))).trans (W17_unwritten m c main_arg10 (by decide) (by decide) (by decide) (by decide) (by decide) (by decide) (by decide) (by decide) (by decide) (by decide) (by decide) (by decide)),
    (h c _ (mem_uc main_arg11 (by decide))).trans (W17_unwritten m c main_arg11 (by decide) (by decide) (by decide) (by decide) (by decide) (by decide) (by decide) (by decide) (by decide) (by decide) (by decide) (by decide)),
    (h c _ (mem_uc main_arg12 (by decide))).trans (W17_unwritten m c main_arg12 (by decide) (by decide) (by decide) (by decide) (by decide) (by decide) (by decide) (by decide) (by decide) (by decide) (by decide) (by decide)),
    (h c _ (mem_uc main_arg13 (by decide))).trans (W17_unwritten m c main_arg13 (by decide) (by decide) (by decide) (by decide) (by decide) (by decide) (by decide) (by decide) (by decide) (by decide) (by decide) (by decide)),
    (h c _ (mem_uc main_arg14 (by decide))).trans (W17_unwritten m c main_arg14 (by decide) (by decide) (by decide) (by decide) (by decide) (by decide) (by decide) (by decide) (by decide) (by decide) (by decide) (by decide)),
    (h c _ (mem_uc main_arg15 (by decide))).trans (W17_unwritten m c main_arg15 (by decide) (by decide) (by decide) (by decide) (by decide) (by decide) (by decide) (by decide) (by decide) (by decide) (by decide) (by decide)),
    (h c _ (mem_uc main_arg16 (by decide))).trans (W17_unwritten m c main_arg16 (by decide) (by decide) (by decide) (by decide) (by decide) (by decide) (by decide) (by decide) (by decide) (by decide) (by decide) (by decide)),
    (h c _ (mem_uc main_arg17 (by decide))).trans (W17_unwritten m c main_arg17 (by decide) (by decide) (by decide) (by decide) (by decide) (by decide) (by decide) (by decide) (by decide) (by decide) (by decide) (by decide)),
    (h c _ (mem_uc main_arg18 (by decide))).trans (W17_unwritten m c main_arg18 (by decide) (by decide) (by decide) (by decide) (by decide) (by decide) (by decide) (by decide) (by decide) (by decide) (by decide) (by decide)),
    (h c _ (mem_uc main_arg19 (by decide))).trans (W17_unwritten m c main_arg19 (by decide) (by decide) (by decide) (by decide) (by decide) (by decide) (by decide) (by decide) (by decide) (by decide) (by decide) (by decide)),
    (h c _ (mem_uc main_arg20 (by decide))).trans (W17_unwritten m c main_arg20 (by decide) (by decide) (by decide) (by decide) (by decide) (by decide) (by decide) (by decide) (by decide) (by decide) (by decide) (by decide)),
    (h c _ (mem_uc main_arg21 (by decide))).trans (W17_unwritten m c main_arg21 (by decide) (by decide) (by decide) (by decide) (by decide) (by decide) (by decide) (by decide) (by decide) (by decide) (by decide) (by decide)),
    (h c _ (mem_uc main_arg22 (by decide))).trans (W17_unwritten m c main_arg22 (by decide) (by decide) (by decide) (by decide) (by decide) (by decide) (by decide) (by decide) (by decide) (by decide) (by decide) (by decide)),
    (h c _ (mem_uc main_arg23 (by decide))).trans (W17_unwritten m c main_arg23 (by decide) (by decide) (by decide) (by decide) (by decide) (by decide) (by decide) (by decide) (by decide) (by decide) (by decide) (by decide)),
    (h c _ (mem_uc main_arg24 (by decide))).trans (W17_unwritten m c main_arg24 (by decide) (by decide) (by decide) (by decide) (by decide) (by decide) (by decide) (by decide) (by decide) (by decide) (by decide) (by decide)),
    (h c _ (mem_uc main_arg25 (by decide))).trans (W17_unwritten m c main_arg25 (by decide) (by decide) (by decide) (by decide) (by decide) (by decide) (by decide) (by decide) (by decide) (by decide) (by decide) (by decide)),
    (h c _ (mem_uc main_arg26 (by decide))).trans (W17_unwritten m c main_arg26 (by decide) (by decide) (by decide) (by decide) (by decide) (by decide) (by decide) (by decide) (by decide) (by decide) (by decide) (by decide)),
    (h c _ (mem_uc main_arg27 (by decide))).trans (W17_unwritten m c main_arg27 (by decide) (by decide) (by decide) (by decide) (by decide) (by decide) (by decide) (by decide) (by decide) (by decide) (by decide) (by decide)),
    (h c _ (mem_uc main_arg28 (by decide))).trans (W17_unwritten m c main_arg28 (by decide) (by decide) (by decide) (by decide) (by decide) (by decide) (by decide) (by decide) (by decide) (by decide) (by decide) (by decide)),
    (h c _ (mem_uc main_arg29 (by decide))).trans (W17_unwritten m c main_arg29 (by decide) (by decide) (by decide) (by decide) (by decide) (by decide) (by decide) (by decide) (by decide) (by decide) (by decide) (by decide)),
    (h c _ (mem_uc main_arg30 (by decide))).trans (W17_unwritten m c main_arg30 (by decide) (by decide) (by decide) (by decide) (by decide) (by decide) (by decide) (by decide) (by decide) (by decide) (by decide) (by decide)),
    (h c _ (mem_uc main_arg31 (by decide))).trans (W17_unwritten m c main_arg31 (by decide) (by decide) (by decide) (by decide) (by decide) (by decide) (by decide) (by decide) (by decide) (by decide) (by decide) (by decide)),
    (h c _ (mem_uc main_arg32 (by decide))).trans (W17_unwritten m c main_arg32 (by decide) (by decide) (by decide) (by decide) (by decide) (by decide) (by decide) (by decide) (by decide) (by decide) (by decide) (by decide)),
    (h c _ (mem_uc main_arg33 (by decide))).trans (W17_unwritten m c main_arg33 (by decide) (by decide) (by decide) (by decide) (by decide) (by decide) (by decide) (by decide) (by decide) (by decide) (by decide) (by decide)),
    (h c _ (mem_uc main_arg34 (by decide))).trans (W17_unwritten m c main_arg34 (by decide) (by decide) (by decide) (by decide) (by decide) (by decide) (by decide) (by decide) (by decide) (by decide) (by decide) (by decide)),
    (h c _ (mem_uc main_arg35 (by decide))).trans (W17_unwritten m c main_arg35 (by decide) (by decide) (by decide) (by decide) (by decide) (by decide) (by decide) (by decide) (by decide) (by decide) (by decide) (by decide)),
    (h c _ (mem_uc main_arg36 (by decide))).trans (W17_unwritten m c main_arg36 (by decide) (by decide) (by decide) (by decide) (by decide) (by decide) (by decide) (by decide) (by decide) (by decide) (by decide) (by decide))⟩) (run_all m ρ)

/-- The run with its three results named: each result array ends at the last boundary's contents, the arguments as launched. -/
theorem run_results : θ_run defs (onTc (τ := τ) (main (F := F))) ⟨m, fun _ => 0, ρ⟩ (fun r => ∀ c : Dev nD,
      r.2.mem ((c.tc : Thread nD τ).loc main_v39_1) = W17 m c main_v39_1
      ∧ r.2.mem ((c.tc : Thread nD τ).loc main_v19_1) = W17 m c main_v19_1
      ∧ r.2.mem ((c.tc : Thread nD τ).loc main_v70_1) = W17 m c main_v70_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c => ⟨h c _ (mem_uc main_v39_1 (by decide)), h c _ (mem_uc main_v19_1 (by decide)), h c _ (mem_uc main_v70_1 (by decide)),
    (h c _ (mem_uc main_arg0 (by decide))).trans (W17_unwritten m c main_arg0 (by decide) (by decide) (by decide) (by decide) (by decide) (by decide) (by decide) (by decide) (by decide) (by decide) (by decide) (by decide)),
    (h c _ (mem_uc main_arg1 (by decide))).trans (W17_unwritten m c main_arg1 (by decide) (by decide) (by decide) (by decide) (by decide) (by decide) (by decide) (by decide) (by decide) (by decide) (by decide) (by decide)),
    (h c _ (mem_uc main_arg2 (by decide))).trans (W17_unwritten m c main_arg2 (by decide) (by decide) (by decide) (by decide) (by decide) (by decide) (by decide) (by decide) (by decide) (by decide) (by decide) (by decide)),
    (h c _ (mem_uc main_arg3 (by decide))).trans (W17_unwritten m c main_arg3 (by decide) (by decide) (by decide) (by decide) (by decide) (by decide) (by decide) (by decide) (by decide) (by decide) (by decide) (by decide)),
    (h c _ (mem_uc main_arg4 (by decide))).trans (W17_unwritten m c main_arg4 (by decide) (by decide) (by decide) (by decide) (by decide) (by decide) (by decide) (by decide) (by decide) (by decide) (by decide) (by decide)),
    (h c _ (mem_uc main_arg5 (by decide))).trans (W17_unwritten m c main_arg5 (by decide) (by decide) (by decide) (by decide) (by decide) (by decide) (by decide) (by decide) (by decide) (by decide) (by decide) (by decide)),
    (h c _ (mem_uc main_arg6 (by decide))).trans (W17_unwritten m c main_arg6 (by decide) (by decide) (by decide) (by decide) (by decide) (by decide) (by decide) (by decide) (by decide) (by decide) (by decide) (by decide)),
    (h c _ (mem_uc main_arg7 (by decide))).trans (W17_unwritten m c main_arg7 (by decide) (by decide) (by decide) (by decide) (by decide) (by decide) (by decide) (by decide) (by decide) (by decide) (by decide) (by decide)),
    (h c _ (mem_uc main_arg8 (by decide))).trans (W17_unwritten m c main_arg8 (by decide) (by decide) (by decide) (by decide) (by decide) (by decide) (by decide) (by decide) (by decide) (by decide) (by decide) (by decide)),
    (h c _ (mem_uc main_arg9 (by decide))).trans (W17_unwritten m c main_arg9 (by decide) (by decide) (by decide) (by decide) (by decide) (by decide) (by decide) (by decide) (by decide) (by decide) (by decide) (by decide)),
    (h c _ (mem_uc main_arg10 (by decide))).trans (W17_unwritten m c main_arg10 (by decide) (by decide) (by decide) (by decide) (by decide) (by decide) (by decide) (by decide) (by decide) (by decide) (by decide) (by decide)),
    (h c _ (mem_uc main_arg11 (by decide))).trans (W17_unwritten m c main_arg11 (by decide) (by decide) (by decide) (by decide) (by decide) (by decide) (by decide) (by decide) (by decide) (by decide) (by decide) (by decide)),
    (h c _ (mem_uc main_arg12 (by decide))).trans (W17_unwritten m c main_arg12 (by decide) (by decide) (by decide) (by decide) (by decide) (by decide) (by decide) (by decide) (by decide) (by decide) (by decide) (by decide)),
    (h c _ (mem_uc main_arg13 (by decide))).trans (W17_unwritten m c main_arg13 (by decide) (by decide) (by decide) (by decide) (by decide) (by decide) (by decide) (by decide) (by decide) (by decide) (by decide) (by decide)),
    (h c _ (mem_uc main_arg14 (by decide))).trans (W17_unwritten m c main_arg14 (by decide) (by decide) (by decide) (by decide) (by decide) (by decide) (by decide) (by decide) (by decide) (by decide) (by decide) (by decide)),
    (h c _ (mem_uc main_arg15 (by decide))).trans (W17_unwritten m c main_arg15 (by decide) (by decide) (by decide) (by decide) (by decide) (by decide) (by decide) (by decide) (by decide) (by decide) (by decide) (by decide)),
    (h c _ (mem_uc main_arg16 (by decide))).trans (W17_unwritten m c main_arg16 (by decide) (by decide) (by decide) (by decide) (by decide) (by decide) (by decide) (by decide) (by decide) (by decide) (by decide) (by decide)),
    (h c _ (mem_uc main_arg17 (by decide))).trans (W17_unwritten m c main_arg17 (by decide) (by decide) (by decide) (by decide) (by decide) (by decide) (by decide) (by decide) (by decide) (by decide) (by decide) (by decide)),
    (h c _ (mem_uc main_arg18 (by decide))).trans (W17_unwritten m c main_arg18 (by decide) (by decide) (by decide) (by decide) (by decide) (by decide) (by decide) (by decide) (by decide) (by decide) (by decide) (by decide)),
    (h c _ (mem_uc main_arg19 (by decide))).trans (W17_unwritten m c main_arg19 (by decide) (by decide) (by decide) (by decide) (by decide) (by decide) (by decide) (by decide) (by decide) (by decide) (by decide) (by decide)),
    (h c _ (mem_uc main_arg20 (by decide))).trans (W17_unwritten m c main_arg20 (by decide) (by decide) (by decide) (by decide) (by decide) (by decide) (by decide) (by decide) (by decide) (by decide) (by decide) (by decide)),
    (h c _ (mem_uc main_arg21 (by decide))).trans (W17_unwritten m c main_arg21 (by decide) (by decide) (by decide) (by decide) (by decide) (by decide) (by decide) (by decide) (by decide) (by decide) (by decide) (by decide)),
    (h c _ (mem_uc main_arg22 (by decide))).trans (W17_unwritten m c main_arg22 (by decide) (by decide) (by decide) (by decide) (by decide) (by decide) (by decide) (by decide) (by decide) (by decide) (by decide) (by decide)),
    (h c _ (mem_uc main_arg23 (by decide))).trans (W17_unwritten m c main_arg23 (by decide) (by decide) (by decide) (by decide) (by decide) (by decide) (by decide) (by decide) (by decide) (by decide) (by decide) (by decide)),
    (h c _ (mem_uc main_arg24 (by decide))).trans (W17_unwritten m c main_arg24 (by decide) (by decide) (by decide) (by decide) (by decide) (by decide) (by decide) (by decide) (by decide) (by decide) (by decide) (by decide)),
    (h c _ (mem_uc main_arg25 (by decide))).trans (W17_unwritten m c main_arg25 (by decide) (by decide) (by decide) (by decide) (by decide) (by decide) (by decide) (by decide) (by decide) (by decide) (by decide) (by decide)),
    (h c _ (mem_uc main_arg26 (by decide))).trans (W17_unwritten m c main_arg26 (by decide) (by decide) (by decide) (by decide) (by decide) (by decide) (by decide) (by decide) (by decide) (by decide) (by decide) (by decide)),
    (h c _ (mem_uc main_arg27 (by decide))).trans (W17_unwritten m c main_arg27 (by decide) (by decide) (by decide) (by decide) (by decide) (by decide) (by decide) (by decide) (by decide) (by decide) (by decide) (by decide)),
    (h c _ (mem_uc main_arg28 (by decide))).trans (W17_unwritten m c main_arg28 (by decide) (by decide) (by decide) (by decide) (by decide) (by decide) (by decide) (by decide) (by decide) (by decide) (by decide) (by decide)),
    (h c _ (mem_uc main_arg29 (by decide))).trans (W17_unwritten m c main_arg29 (by decide) (by decide) (by decide) (by decide) (by decide) (by decide) (by decide) (by decide) (by decide) (by decide) (by decide) (by decide)),
    (h c _ (mem_uc main_arg30 (by decide))).trans (W17_unwritten m c main_arg30 (by decide) (by decide) (by decide) (by decide) (by decide) (by decide) (by decide) (by decide) (by decide) (by decide) (by decide) (by decide)),
    (h c _ (mem_uc main_arg31 (by decide))).trans (W17_unwritten m c main_arg31 (by decide) (by decide) (by decide) (by decide) (by decide) (by decide) (by decide) (by decide) (by decide) (by decide) (by decide) (by decide)),
    (h c _ (mem_uc main_arg32 (by decide))).trans (W17_unwritten m c main_arg32 (by decide) (by decide) (by decide) (by decide) (by decide) (by decide) (by decide) (by decide) (by decide) (by decide) (by decide) (by decide)),
    (h c _ (mem_uc main_arg33 (by decide))).trans (W17_unwritten m c main_arg33 (by decide) (by decide) (by decide) (by decide) (by decide) (by decide) (by decide) (by decide) (by decide) (by decide) (by decide) (by decide)),
    (h c _ (mem_uc main_arg34 (by decide))).trans (W17_unwritten m c main_arg34 (by decide) (by decide) (by decide) (by decide) (by decide) (by decide) (by decide) (by decide) (by decide) (by decide) (by decide) (by decide)),
    (h c _ (mem_uc main_arg35 (by decide))).trans (W17_unwritten m c main_arg35 (by decide) (by decide) (by decide) (by decide) (by decide) (by decide) (by decide) (by decide) (by decide) (by decide) (by decide) (by decide)),
    (h c _ (mem_uc main_arg36 (by decide))).trans (W17_unwritten m c main_arg36 (by decide) (by decide) (by decide) (by decide) (by decide) (by decide) (by decide) (by decide) (by decide) (by decide) (by decide) (by decide))⟩) (run_all m ρ)

end Cert.Kernel.Frame

end
-- ==== Proof.KiReg0.lean ====
/-
  Region 0 of the idealized kernel: the two-layer perceptron on a block of 5000 site rows.
  One grid point loads a 5000×64 block of rows, the two 64×64 weight matrices and the two 1×64 bias rows,
  and stores relu(relu(x·W₁ + b₁)·W₂ + b₂) over the whole 5000×64 output block. Stated at a parameter V,
  the contents every buffer holds when the region is entered: the blocks a point reads, what the body
  leaves in the output block, the body's triple, the pipeline's proof data and the body obligation.
-/
import proofs.«424920_j53549652246920_2_alg».proof.Proof.Gen.KernelIdeal.Launch
import proofs.«424920_j53549652246920_2_alg».proof.Proof.Gen.KernelIdeal.Skeleton
import proofs.«424920_j53549652246920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    window's block index has not moved since the point that fetched it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rRows0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block, from the five input blocks: its one store, of the whole block. -/
def out0_5 (x0 : Vec F S5000x64 .f32) (x1 : Vec F S64x64 .f32) (x2 : Vec F S1x64 .f32) (x3 : Vec F S64x64 .f32) (x4 : Vec F S1x64 .f32) :
    Vec F S5000x64 .f32 :=
  View.canon [⟨rRows0, k0_pay1 (View.ld x0 rRows0) (View.ld x1 rW0) (View.ld x2 rB0) (View.ld x3 rW0) (View.ld x4 rB0)⟩]

/-- The one store covers the block. -/
theorem cover0_5 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body on whole staging memrefs, the inputs at read contents x₀ … x₄ and the output at anything, runs to the
    continuation with the inputs as they were and the output at out0_5 of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core c: the arrays as the region finds them; after the body at point t each
    input's buffer at its block and the output's at out0_5 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so sound_kernel0 applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KiReg1.lean ====
/-
  Region 1 of the idealized kernel: the two-layer perceptron on a block of 5000 bond rows.
  One grid point loads a 5000×64 block of rows, the two 64×64 weight matrices and the two 1×64 bias rows,
  and stores relu(relu(x·W₁ + b₁)·W₂ + b₂) over the whole 5000×64 output block. Stated at a parameter V,
  the contents every buffer holds when the region is entered: the blocks a point reads, what the body
  leaves in the output block, the body's triple, the pipeline's proof data and the body obligation.
-/
import proofs.«424920_j53549652246920_2_alg».proof.Proof.Gen.KernelIdeal.Launch
import proofs.«424920_j53549652246920_2_alg».proof.Proof.Gen.KernelIdeal.Skeleton
import proofs.«424920_j53549652246920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    window's block index has not moved since the point that fetched it. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rRows1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block, from the five input blocks: its one store, of the whole block. -/
def out1_5 (x0 : Vec F S5000x64 .f32) (x1 : Vec F S64x64 .f32) (x2 : Vec F S1x64 .f32) (x3 : Vec F S64x64 .f32) (x4 : Vec F S1x64 .f32) :
    Vec F S5000x64 .f32 :=
  View.canon [⟨rRows1, k1_pay1 (View.ld x0 rRows1) (View.ld x1 rW1) (View.ld x2 rB1) (View.ld x3 rW1) (View.ld x4 rB1)⟩]

/-- The one store covers the block. -/
theorem cover1_5 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging memrefs, the inputs at read contents x₀ … x₄ and the output at anything, runs to the
    continuation with the inputs as they were and the output at out1_5 of the inputs. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core c: the arrays as the region finds them; after the body at point t each
    input's buffer at its block and the output's at out1_5 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so sound_kernel1 applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KiReg2.lean ====
/-
  Region 2 of the idealized kernel: the two-layer perceptron on a block of 1000 state rows.
  One grid point loads a 1000×64 block of rows, the two 64×64 weight matrices and the two 1×64 bias rows,
  and stores relu(relu(x·W₁ + b₁)·W₂ + b₂) over the whole 1000×64 output block. Stated at a parameter V,
  the contents every buffer holds when the region is entered: the blocks a point reads, what the body
  leaves in the output block, the body's triple, the pipeline's proof data and the body obligation.
-/
import proofs.«424920_j53549652246920_2_alg».proof.Proof.Gen.KernelIdeal.Launch
import proofs.«424920_j53549652246920_2_alg».proof.Proof.Gen.KernelIdeal.Skeleton
import proofs.«424920_j53549652246920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: an unfetched
    window's block index has not moved since the point that fetched it. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rRows2 : Rect S1000x64 := Rect.unit (s := S1000x64) ![0, 0] S1000x64.size inb_S1000x64_S1000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- What the body leaves in the output block, from the five input blocks: its one store, of the whole block. -/
def out2_5 (x0 : Vec F S1000x64 .f32) (x1 : Vec F S64x64 .f32) (x2 : Vec F S1x64 .f32) (x3 : Vec F S64x64 .f32) (x4 : Vec F S1x64 .f32) :
    Vec F S1000x64 .f32 :=
  View.canon [⟨rRows2, k2_pay1 (View.ld x0 rRows2) (View.ld x1 rW2) (View.ld x2 rB2) (View.ld x3 rW2) (View.ld x4 rB2)⟩]

/-- The one store covers the block. -/
theorem cover2_5 (p0 : Vec F S1000x64 .f32) (y : S1000x64.Idx) :
    ∃ pc ∈ ([⟨rRows2, p0⟩] : List (View.Piece (Elt F) S1000x64 .f32)), y ∈ pc.1.set :=
  View.cover_of_tiled [⟨rRows2, p0⟩] S1000x64.size (by rfl) y

set_option maxHeartbeats 1000000 in
/-- The body on whole staging memrefs, the inputs at read contents x₀ … x₄ and the output at anything, runs to the
    continuation with the inputs as they were and the output at out2_5 of the inputs. -/
theorem sound_kernel2 (c : Dev nD) (E : Set ℕ) (i : grid2.Coords)
    (arg1 : Memref sig .tc .vmem S1000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1000x64 .f32) (harg6 : arg6.IsWhole)
    (x0 : Vec F S1000x64 .f32) (x1 : Vec F S64x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__mlp2_kernel i arg1 harg1 arg2 harg2 arg3 harg3 arg4 harg4 arg5 harg5 arg6 harg6) K := by
  simp only [cc2__mlp2_kernel_eq_skeleton]; unfold cc2__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core c: the arrays as the region finds them; after the body at point t each
    input's buffer at its block and the output's at out2_5 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so sound_kernel2 applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KiReg3.lean ====
/-
  Region 3 of the idealized kernel: the three-layer perceptron on a block of 5000 bond rows.
  One grid point loads four 5000×64 blocks of rows (the two gathered endpoint sites, the bonds, the gathered graph
  states), the four 64×64 slices of the first layer's weight and its 1×64 bias, the 64×32 second weight and its
  1×32 bias, the 32×64 third weight and its 1×64 bias, and the residual's 5000×64 block (the bonds again).
  With h₁ = relu(x₀·W₀ + x₁·W₁ + x₂·W₂ + x₃·W₃ + b₁), h₂ = relu(h₁·W' + b₂) and y = relu(h₂·W'' + b₃), it stores y
  over the whole first output block and y + r over the whole second, r the residual block. Stated at a parameter V,
  the contents every buffer holds when the region is entered: the blocks a point reads, what the body leaves in
  the two output blocks, the body's triple, the pipeline's proof data and the body obligation. The bonds' array is
  read through two windows, so its full share is dealt between them: the left half to window 2, the right half to
  window 13.
-/
import proofs.«424920_j53549652246920_2_alg».proof.Proof.Gen.KernelIdeal.Launch
import proofs.«424920_j53549652246920_2_alg».proof.Proof.Gen.KernelIdeal.Skeleton
import proofs.«424920_j53549652246920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: an unfetched
    window's block index has not moved since the point that fetched it. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rRows3 : Rect S5000x64 := Rect.unit (s := S5000x64) ![0, 0] S5000x64.size inb_S5000x64_S5000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0
abbrev rWb3 : Rect S64x32 := Rect.unit (s := S64x32) ![0, 0] S64x32.size inb_S64x32_S64x32_0_0
abbrev rBb3 : Rect S1x32 := Rect.unit (s := S1x32) ![0, 0] S1x32.size inb_S1x32_S1x32_0_0
abbrev rWc3 : Rect S32x64 := Rect.unit (s := S32x64) ![0, 0] S32x64.size inb_S32x64_S32x64_0_0

/-- What the body leaves in the first output block, from the fourteen input blocks: its one store there, of the
    whole block — the relu of the third layer over the relu of the second over the relu of the first, the first
    the sum of the four row blocks' products with their weight slices plus the bias. The residual block x₁₃ is
    not read by this store. -/
def out3_14 (x0 : Vec F S5000x64 .f32) (x1 : Vec F S5000x64 .f32) (x2 : Vec F S5000x64 .f32) (x3 : Vec F S5000x64 .f32)
    (x4 : Vec F S64x64 .f32) (x5 : Vec F S64x64 .f32) (x6 : Vec F S64x64 .f32) (x7 : Vec F S64x64 .f32) (x8 : Vec F S1x64 .f32)
    (x9 : Vec F S64x32 .f32) (x10 : Vec F S1x32 .f32) (x11 : Vec F S32x64 .f32) (x12 : Vec F S1x64 .f32) (x13 : Vec F S5000x64 .f32) :
    Vec F S5000x64 .f32 :=
  View.canon [⟨rRows3, k3_pay1 (k3_pay3 (View.ld x0 rRows3) (View.ld x4 rW3) (View.ld x1 rRows3) (View.ld x5 rW3) (View.ld x2 rRows3) (View.ld x6 rW3) (View.ld x3 rRows3) (View.ld x7 rW3) (View.ld x8 rB3))
    (k3_pay4 (F := F)) (View.ld x9 rWb3) (View.ld x10 rBb3) (View.ld x11 rWc3) (View.ld x12 rB3)⟩]

/-- What the body leaves in the second output block: its one store there, of the whole block — the first output
    plus the residual block x₁₃. -/
def out3_15 (x0 : Vec F S5000x64 .f32) (x1 : Vec F S5000x64 .f32) (x2 : Vec F S5000x64 .f32) (x3 : Vec F S5000x64 .f32)
    (x4 : Vec F S64x64 .f32) (x5 : Vec F S64x64 .f32) (x6 : Vec F S64x64 .f32) (x7 : Vec F S64x64 .f32) (x8 : Vec F S1x64 .f32)
    (x9 : Vec F S64x32 .f32) (x10 : Vec F S1x32 .f32) (x11 : Vec F S32x64 .f32) (x12 : Vec F S1x64 .f32) (x13 : Vec F S5000x64 .f32) :
    Vec F S5000x64 .f32 :=
  View.canon [⟨rRows3, k3_pay2 (k3_pay3 (View.ld x0 rRows3) (View.ld x4 rW3) (View.ld x1 rRows3) (View.ld x5 rW3) (View.ld x2 rRows3) (View.ld x6 rW3) (View.ld x3 rRows3) (View.ld x7 rW3) (View.ld x8 rB3))
    (k3_pay4 (F := F)) (View.ld x9 rWb3) (View.ld x10 rBb3) (View.ld x11 rWc3) (View.ld x12 rB3) (View.ld x13 rRows3)⟩]

/-- The one store into each output covers its block. -/
theorem cover3_14 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y
theorem cover3_15 (p0 : Vec F S5000x64 .f32) (y : S5000x64.Idx) :
    ∃ pc ∈ ([⟨rRows3, p0⟩] : List (View.Piece (Elt F) S5000x64 .f32)), y ∈ pc.1.set :=
  View.cover_of_tiled [⟨rRows3, p0⟩] S5000x64.size (by rfl) y

set_option maxHeartbeats 1000000 in
/-- The body on whole staging memrefs, the inputs at read contents x₀ … x₁₃ and the two outputs at anything, runs to
    the continuation with the inputs as they were and the outputs at out3_14 and out3_15 of the inputs. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S5000x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S1x64 .f32) (harg9 : arg9.IsWhole) (arg10 : Memref sig .tc .vmem S64x32 .f32) (harg10 : arg10.IsWhole)
    (arg11 : Memref sig .tc .vmem S1x32 .f32) (harg11 : arg11.IsWhole) (arg12 : Memref sig .tc .vmem S32x64 .f32) (harg12 : arg12.IsWhole)
    (arg13 : Memref sig .tc .vmem S1x64 .f32) (harg13 : arg13.IsWhole) (arg14 : Memref sig .tc .vmem S5000x64 .f32) (harg14 : arg14.IsWhole)
    (arg15 : Memref sig .tc .vmem S5000x64 .f32) (harg15 : arg15.IsWhole) (arg16 : Memref sig .tc .vmem S5000x64 .f32) (harg16 : arg16.IsWhole)
    (x0 : Vec F S5000x64 .f32) (x1 : Vec F S5000x64 .f32) (x2 : Vec F S5000x64 .f32) (x3 : Vec F S5000x64 .f32)
    (x4 : Vec F S64x64 .f32) (x5 : Vec F S64x64 .f32) (x6 : Vec F S64x64 .f32) (x7 : Vec F S64x64 .f32) (x8 : Vec F S1x64 .f32)
    (x9 : Vec F S64x32 .f32) (x10 : Vec F S1x32 .f32) (x11 : Vec F S32x64 .f32) (x12 : Vec F S1x64 .f32) (x13 : Vec F S5000x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare (out3_14 x0 x1 x2 x3 x4 x5 x6 x7 x8 x9 x10 x11 x12 x13)
            ∗ owns (c : Thread nD τ) arg16 fullShare (out3_15 x0 x1 x2 x3 x4 x5 x6 x7 x8 x9 x10 x11 x12 x13)) -∗ K ⟨⟩))
      ⊢ wp frame (wpE (defs₀ (F := F)) Variants.none c none) E
          (cc3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover3_14 _)
  iexists _; isplitr
  swap; · iexact H15
  ipureintro
  exact View.read_writes_eq_canon _ _ _ (cover3_15 _)

/-- The proof data of pipeline 3 on core c: the arrays as the region finds them; after the body at point t each
    input's buffer at its block and the outputs' at out3_14 and out3_15 of the input blocks; nothing owed. The
    bonds' array lies behind windows 2 and 13: window 2 holds the left half of its full share, window 13 the
    right half; every other window's array is held at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
    | ⟨_ + 16, h⟩ => absurd h (Nat.not_lt.2 (Nat.le_add_left _ _))
  Φ _ := Pipeline.ΦA spec3 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare.right
    | ⟨14, _⟩ => fullShare
    | ⟨15, _⟩ => fullShare
    | ⟨_ + 16, h⟩ => absurd h (Nat.not_lt.2 (Nat.le_add_left _ _))
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t
    = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]
theorem after3_15 (c : Dev nD) (t : Fin cfg3.N) : (dat3 V c).after 15 t
    = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d

/-- The shares of the proof data: the bonds' array, read through windows 2 and 13, is held by halves; -/
theorem share3_a (c : Dev nD) : (dat3 V c).share 2 = fullShare.left := by dsimp only [Dat.share, dat3]; rfl
theorem share3_b (c : Dev nD) : (dat3 V c).share 13 = fullShare.right := by dsimp only [Dat.share, dat3]; rfl
/-- every other array whole. -/
theorem share3_rest (c : Dev nD) : ∀ w, w ≠ 2 → w ≠ 13 → (dat3 V c).share w = fullShare := fun w => match w with
  | ⟨0, _⟩ => fun _ _ => by dsimp only [Dat.share, dat3]; rfl
  | ⟨1, _⟩ => fun _ _ => by dsimp only [Dat.share, dat3]; rfl
  | ⟨2, _⟩ => fun h _ => absurd rfl h
  | ⟨3, _⟩ => fun _ _ => by dsimp only [Dat.share, dat3]; rfl
  | ⟨4, _⟩ => fun _ _ => by dsimp only [Dat.share, dat3]; rfl
  | ⟨5, _⟩ => fun _ _ => by dsimp only [Dat.share, dat3]; rfl
  | ⟨6, _⟩ => fun _ _ => by dsimp only [Dat.share, dat3]; rfl
  | ⟨7, _⟩ => fun _ _ => by dsimp only [Dat.share, dat3]; rfl
  | ⟨8, _⟩ => fun _ _ => by dsimp only [Dat.share, dat3]; rfl
  | ⟨9, _⟩ => fun _ _ => by dsimp only [Dat.share, dat3]; rfl
  | ⟨10, _⟩ => fun _ _ => by dsimp only [Dat.share, dat3]; rfl
  | ⟨11, _⟩ => fun _ _ => by dsimp only [Dat.share, dat3]; rfl
  | ⟨12, _⟩ => fun _ _ => by dsimp only [Dat.share, dat3]; rfl
  | ⟨13, _⟩ => fun _ h => absurd rfl h
  | ⟨14, _⟩ => fun _ _ => by dsimp only [Dat.share, dat3]; rfl
  | ⟨15, _⟩ => fun _ _ => by dsimp only [Dat.share, dat3]; rfl
  | ⟨_ + 16, h⟩ => absurd h (Nat.not_lt.2 (Nat.le_add_left _ _))

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

/-- The body at any point: the inputs' memrefs hold their blocks, so sound_kernel3 applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel3 c Set.univ _ _ _ _ _ _ _ _ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KiReg4.lean ====
/-
  Region 4 of the idealized kernel: the three-layer perceptron block with a residual, on a block of 5000 site rows.
  One grid point loads three 5000×64 row blocks (the pooled bonds, the sites, the gathered graph states), the three
  64×64 slices of the first layer's weight with its 1×64 bias, the 64×32 second weight with its 1×32 bias, the 32×64
  third weight with its 1×64 bias, and the residual's 5000×64 block (the sites again). With
  h₁ = relu(x₀·W₀ + x₁·W₁ + x₂·W₂ + b₁), h₂ = relu(h₁·W' + b₂), y = relu(h₂·W'' + b₃), it stores y over the whole
  first output block and y + r (r the residual block) over the whole second. Stated at a parameter V, the contents
  every buffer holds when the region is entered: the blocks a point reads, what the body leaves in the two output
  blocks, the body's triple, the pipeline's proof data and the body obligation.
-/
import proofs.«424920_j53549652246920_2_alg».proof.Proof.Gen.KernelIdeal.Launch
import proofs.«424920_j53549652246920_2_alg».proof.Proof.Gen.KernelIdeal.Skeleton
import proofs.«424920_j53549652246920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: an unfetched
    window's block index has not moved since the point that fetched it. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through: the row blocks, the first layer's weight slices,
    the 1×64 bias rows, the second weight, its bias row, the third weight. -/
abbrev rRows4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0
abbrev rWm4 : Rect S64x32 := Rect.unit (s := S64x32) ![0, 0] S64x32.size inb_S64x32_S64x32_0_0
abbrev rBm4 : Rect S1x32 := Rect.unit (s := S1x32) ![0, 0] S1x32.size inb_S1x32_S1x32_0_0
abbrev rWo4 : Rect S32x64 := Rect.unit (s := S32x64) ![0, 0] S32x64.size inb_S32x64_S32x64_0_0

/-- What the body leaves in the first output block, from the twelve input blocks: its one store there, of the whole
    block, the relu of the third layer on the second layer's pre-activation (the product and the broadcast bias). -/
def out4_12 (xa : Vec F S5000x64 .f32) (xb : Vec F S5000x64 .f32) (xc : Vec F S5000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S5000x64 .f32) :
    Vec F S5000x64 .f32 :=
  View.canon [⟨rRows4, k4_pay1 (k4_pay3 (View.ld xa rRows4) (View.ld xd rW4) (View.ld xb rRows4) (View.ld xe rW4) (View.ld xc rRows4) (View.ld xf rW4) (View.ld xg rB4) (View.ld xh rWm4))
      (k4_pay4 (View.ld xi rBm4)) (View.ld xj rWo4) (View.ld xk rB4)⟩]

/-- What the body leaves in the second output block: its one store there, the same value plus the residual block. -/
def out4_13 (xa : Vec F S5000x64 .f32) (xb : Vec F S5000x64 .f32) (xc : Vec F S5000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S5000x64 .f32) :
    Vec F S5000x64 .f32 :=
  View.canon [⟨rRows4, k4_pay2 (k4_pay3 (View.ld xa rRows4) (View.ld xd rW4) (View.ld xb rRows4) (View.ld xe rW4) (View.ld xc rRows4) (View.ld xf rW4) (View.ld xg rB4) (View.ld xh rWm4))
      (k4_pay4 (View.ld xi rBm4)) (View.ld xj rWo4) (View.ld xk rB4) (View.ld xl rRows4)⟩]

/-- The one store covers the block, in either output. -/
theorem cover4_12 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y
theorem cover4_13 (p0 : Vec F S5000x64 .f32) (y : S5000x64.Idx) :
    ∃ pc ∈ ([⟨rRows4, p0⟩] : List (View.Piece (Elt F) S5000x64 .f32)), y ∈ pc.1.set :=
  View.cover_of_tiled [⟨rRows4, p0⟩] S5000x64.size (by rfl) y

set_option maxHeartbeats 1000000 in
/-- The body on whole staging memrefs, the inputs at read contents and each output at anything, runs to the
    continuation with the inputs as they were and the outputs at out4_12 and out4_13 of the inputs. -/
theorem sound_kernel4 (c : Dev nD) (E : Set ℕ) (i : grid4.Coords)
    (ma : Memref sig .tc .vmem S5000x64 .f32) (hma : ma.IsWhole) (mb : Memref sig .tc .vmem S5000x64 .f32) (hmb : mb.IsWhole)
    (mc : Memref sig .tc .vmem S5000x64 .f32) (hmc : mc.IsWhole) (md : Memref sig .tc .vmem S64x64 .f32) (hmd : md.IsWhole)
    (me : Memref sig .tc .vmem S64x64 .f32) (hme : me.IsWhole) (mf : Memref sig .tc .vmem S64x64 .f32) (hmf : mf.IsWhole)
    (mg : Memref sig .tc .vmem S1x64 .f32) (hmg : mg.IsWhole) (mh : Memref sig .tc .vmem S64x32 .f32) (hmh : mh.IsWhole)
    (mi : Memref sig .tc .vmem S1x32 .f32) (hmi : mi.IsWhole) (mj : Memref sig .tc .vmem S32x64 .f32) (hmj : mj.IsWhole)
    (mk : Memref sig .tc .vmem S1x64 .f32) (hmk : mk.IsWhole) (ml : Memref sig .tc .vmem S5000x64 .f32) (hml : ml.IsWhole)
    (mm : Memref sig .tc .vmem S5000x64 .f32) (hmm : mm.IsWhole) (mn : Memref sig .tc .vmem S5000x64 .f32) (hmn : mn.IsWhole)
    (xa : Vec F S5000x64 .f32) (xb : Vec F S5000x64 .f32) (xc : Vec F S5000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S5000x64 .f32)
    (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe ∗ owns (c : Thread nD τ) mf fullShare xf
        ∗ owns (c : Thread nD τ) mg fullShare xg ∗ owns (c : Thread nD τ) mh fullShare xh ∗ owns (c : Thread nD τ) mi fullShare xi
        ∗ owns (c : Thread nD τ) mj fullShare xj ∗ owns (c : Thread nD τ) mk fullShare xk ∗ owns (c : Thread nD τ) ml fullShare xl
        ∗ (∃ d, owns (c : Thread nD τ) mm fullShare d) ∗ (∃ d, owns (c : Thread nD τ) mn fullShare d)
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg ∗ owns (c : Thread nD τ) mh fullShare xh ∗ owns (c : Thread nD τ) mi fullShare xi
            ∗ owns (c : Thread nD τ) mj fullShare xj ∗ owns (c : Thread nD τ) mk fullShare xk ∗ owns (c : Thread nD τ) ml fullShare xl
            ∗ owns (c : Thread nD τ) mm fullShare (out4_12 xa xb xc xd xe xf xg xh xi xj xk xl)
            ∗ owns (c : Thread nD τ) mn fullShare (out4_13 xa xb xc xd xe xf xg xh xi xj xk xl)) -∗ K ⟨⟩))
      ⊢ wp frame (wpE (defs₀ (F := F)) Variants.none c none) E
          (cc4_kernel i ma hma mb hmb mc hmc md hmd me hme mf hmf mg hmg mh hmh mi hmi mj hmj mk hmk ml hml mm hmm mn hmn) K := by
  simp only [cc4_kernel_eq_skeleton]; unfold cc4_kernel_skel
  simp only [k4_part1_eq_skeleton]; unfold k4_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, ⟨%dm, %fm, -, Hm⟩, ⟨%dn, %fn, -, Hn⟩, Hk⟩
  subst hfa; subst hfb; subst hfc; subst hfd; subst hfe; subst hff; subst hfg; subst hfh; subst hfi; subst hfj; subst hfk; subst hfl
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists fk; isplitr; · ipureintro; rfl
    iexact Hk
  isplitl [Hl]
  · iexists fl; isplitr; · ipureintro; rfl
    iexact Hl
  isplitl [Hm]
  · iexists _; isplitr
    swap; · iexact Hm
    ipureintro
    exact View.read_writes_eq_canon _ _ _ (cover4_12 _)
  iexists _; isplitr
  swap; · iexact Hn
  ipureintro
  exact View.read_writes_eq_canon _ _ _ (cover4_13 _)

/-- The proof data of pipeline 4 on core c: the arrays as the region finds them; after the body at point t each
    input's buffer at its block and each output's at its out4 of the input blocks; nothing owed; the sites' array,
    read through two windows (the second row block and the residual), is held at the two halves of the full share,
    every other array at the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
    | ⟨13, _⟩ => out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t)
  Φ _ := Pipeline.ΦA spec4 c
  q w := match w with
    | ⟨0, _⟩ => fullShare
    | ⟨1, _⟩ => fullShare.left
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare.right
    | ⟨12, _⟩ => fullShare
    | ⟨13, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t
    = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]
theorem after4_13 (c : Dev nD) (t : Fin cfg4.N) : (dat4 V c).after 13 t
    = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d

/-- The shares the arrays are held at: the sites' array at the left half through the second row block's window and at
    the right half through the residual's, every other array at the full share. -/
theorem share4_a (c : Dev nD) : (dat4 V c).share 1 = fullShare.left := rfl
theorem share4_b (c : Dev nD) : (dat4 V c).share 11 = fullShare.right := rfl
theorem share4_rest (c : Dev nD) : ∀ w, w ≠ 1 → w ≠ 11 → (dat4 V c).share w = fullShare := fun w => match w with
    | ⟨0, _⟩ => fun _ _ => rfl
    | ⟨1, _⟩ => fun h _ => absurd rfl h
    | ⟨2, _⟩ => fun _ _ => rfl
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ h => absurd rfl h
    | ⟨12, _⟩ => fun _ _ => rfl
    | ⟨13, _⟩ => fun _ _ => rfl

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t))

/-- The body at any point: the inputs' memrefs hold their blocks, so sound_kernel4 applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩, ⟨%dl, Hl⟩, ⟨%dm, Hm⟩, ⟨%dn, Hn⟩⟩
  iapply (sound_kernel4 c Set.univ _ _ _ _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexists _; iexact Hm
  isplitl [Hn]; · iexists _; iexact Hn
  iintro ⟨Ha, Hb, Hc, Hd, He, Hf, Hg, Hh, Hi, Hj, Hk, Hl, Hm, Hn⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexact Hm
  iexact Hn

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KiReg5.lean ====
/-
  Region 5 of the idealized kernel: the three-layer perceptron block with a residual, on the one block of 1000 state rows.
  One grid point loads three 1000×64 row blocks (the bonds pooled by graph, the sites pooled by graph, the states), the three
  64×64 slices of the first layer's weight with its 1×64 bias, the 64×32 second weight with its 1×32 bias, the 32×64
  third weight with its 1×64 bias, and the residual's 1000×64 block (the states again). With
  h₁ = relu(x₀·W₀ + x₁·W₁ + x₂·W₂ + b₁), h₂ = relu(h₁·W' + b₂), y = relu(h₂·W'' + b₃), it stores y over the whole
  first output block and y + r (r the residual block) over the whole second. Stated at a parameter V, the contents
  every buffer holds when the region is entered: the blocks a point reads, what the body leaves in the two output
  blocks, the body's triple, the pipeline's proof data and the body obligation.
-/
import proofs.«424920_j53549652246920_2_alg».proof.Proof.Gen.KernelIdeal.Launch
import proofs.«424920_j53549652246920_2_alg».proof.Proof.Gen.KernelIdeal.Skeleton
import proofs.«424920_j53549652246920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not: an unfetched
    window's block index has not moved since the point that fetched it. One statement per input window. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through: the row blocks, the first layer's weight slices,
    the 1×64 bias rows, the second weight, its bias row, the third weight. -/
abbrev rRows5 : Rect S1000x64 := Rect.unit (s := S1000x64) ![0, 0] S1000x64.size inb_S1000x64_S1000x64_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0
abbrev rWm5 : Rect S64x32 := Rect.unit (s := S64x32) ![0, 0] S64x32.size inb_S64x32_S64x32_0_0
abbrev rBm5 : Rect S1x32 := Rect.unit (s := S1x32) ![0, 0] S1x32.size inb_S1x32_S1x32_0_0
abbrev rWo5 : Rect S32x64 := Rect.unit (s := S32x64) ![0, 0] S32x64.size inb_S32x64_S32x64_0_0

/-- What the body leaves in the first output block, from the twelve input blocks: its one store there, of the whole
    block, the relu of the third layer on the second layer's pre-activation (the product and the broadcast bias). -/
def out5_12 (xa : Vec F S1000x64 .f32) (xb : Vec F S1000x64 .f32) (xc : Vec F S1000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S1000x64 .f32) :
    Vec F S1000x64 .f32 :=
  View.canon [⟨rRows5, k5_pay1 (k5_pay3 (View.ld xa rRows5) (View.ld xd rW5) (View.ld xb rRows5) (View.ld xe rW5) (View.ld xc rRows5) (View.ld xf rW5) (View.ld xg rB5) (View.ld xh rWm5))
      (k5_pay4 (View.ld xi rBm5)) (View.ld xj rWo5) (View.ld xk rB5)⟩]

/-- What the body leaves in the second output block: its one store there, the same value plus the residual block. -/
def out5_13 (xa : Vec F S1000x64 .f32) (xb : Vec F S1000x64 .f32) (xc : Vec F S1000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S1000x64 .f32) :
    Vec F S1000x64 .f32 :=
  View.canon [⟨rRows5, k5_pay2 (k5_pay3 (View.ld xa rRows5) (View.ld xd rW5) (View.ld xb rRows5) (View.ld xe rW5) (View.ld xc rRows5) (View.ld xf rW5) (View.ld xg rB5) (View.ld xh rWm5))
      (k5_pay4 (View.ld xi rBm5)) (View.ld xj rWo5) (View.ld xk rB5) (View.ld xl rRows5)⟩]

/-- The one store covers the block, in either output. -/
theorem cover5_12 (p0 : Vec F S1000x64 .f32) (y : S1000x64.Idx) :
    ∃ pc ∈ ([⟨rRows5, p0⟩] : List (View.Piece (Elt F) S1000x64 .f32)), y ∈ pc.1.set :=
  View.cover_of_tiled [⟨rRows5, p0⟩] S1000x64.size (by rfl) y
theorem cover5_13 (p0 : Vec F S1000x64 .f32) (y : S1000x64.Idx) :
    ∃ pc ∈ ([⟨rRows5, p0⟩] : List (View.Piece (Elt F) S1000x64 .f32)), y ∈ pc.1.set :=
  View.cover_of_tiled [⟨rRows5, p0⟩] S1000x64.size (by rfl) y

set_option maxHeartbeats 1000000 in
/-- The body on whole staging memrefs, the inputs at read contents and each output at anything, runs to the
    continuation with the inputs as they were and the outputs at out5_12 and out5_13 of the inputs. -/
theorem sound_kernel5 (c : Dev nD) (E : Set ℕ) (i : grid5.Coords)
    (ma : Memref sig .tc .vmem S1000x64 .f32) (hma : ma.IsWhole) (mb : Memref sig .tc .vmem S1000x64 .f32) (hmb : mb.IsWhole)
    (mc : Memref sig .tc .vmem S1000x64 .f32) (hmc : mc.IsWhole) (md : Memref sig .tc .vmem S64x64 .f32) (hmd : md.IsWhole)
    (me : Memref sig .tc .vmem S64x64 .f32) (hme : me.IsWhole) (mf : Memref sig .tc .vmem S64x64 .f32) (hmf : mf.IsWhole)
    (mg : Memref sig .tc .vmem S1x64 .f32) (hmg : mg.IsWhole) (mh : Memref sig .tc .vmem S64x32 .f32) (hmh : mh.IsWhole)
    (mi : Memref sig .tc .vmem S1x32 .f32) (hmi : mi.IsWhole) (mj : Memref sig .tc .vmem S32x64 .f32) (hmj : mj.IsWhole)
    (mk : Memref sig .tc .vmem S1x64 .f32) (hmk : mk.IsWhole) (ml : Memref sig .tc .vmem S1000x64 .f32) (hml : ml.IsWhole)
    (mm : Memref sig .tc .vmem S1000x64 .f32) (hmm : mm.IsWhole) (mn : Memref sig .tc .vmem S1000x64 .f32) (hmn : mn.IsWhole)
    (xa : Vec F S1000x64 .f32) (xb : Vec F S1000x64 .f32) (xc : Vec F S1000x64 .f32) (xd : Vec F S64x64 .f32) (xe : Vec F S64x64 .f32) (xf : Vec F S64x64 .f32)
    (xg : Vec F S1x64 .f32) (xh : Vec F S64x32 .f32) (xi : Vec F S1x32 .f32) (xj : Vec F S32x64 .f32) (xk : Vec F S1x64 .f32) (xl : Vec F S1000x64 .f32)
    (K : PUnit → sProp 𝕄) :
    iprop(owns (c : Thread nD τ) ma fullShare xa ∗ owns (c : Thread nD τ) mb fullShare xb ∗ owns (c : Thread nD τ) mc fullShare xc
        ∗ owns (c : Thread nD τ) md fullShare xd ∗ owns (c : Thread nD τ) me fullShare xe ∗ owns (c : Thread nD τ) mf fullShare xf
        ∗ owns (c : Thread nD τ) mg fullShare xg ∗ owns (c : Thread nD τ) mh fullShare xh ∗ owns (c : Thread nD τ) mi fullShare xi
        ∗ owns (c : Thread nD τ) mj fullShare xj ∗ owns (c : Thread nD τ) mk fullShare xk ∗ owns (c : Thread nD τ) ml fullShare xl
        ∗ (∃ d, owns (c : Thread nD τ) mm fullShare d) ∗ (∃ d, owns (c : Thread nD τ) mn fullShare d)
        ∗ (iprop(owns (c : Thread nD τ) ma fullShare xa ∗ owns (c : Thread nD τ) mb fullShare xb ∗ owns (c : Thread nD τ) mc fullShare xc
            ∗ owns (c : Thread nD τ) md fullShare xd ∗ owns (c : Thread nD τ) me fullShare xe ∗ owns (c : Thread nD τ) mf fullShare xf
            ∗ owns (c : Thread nD τ) mg fullShare xg ∗ owns (c : Thread nD τ) mh fullShare xh ∗ owns (c : Thread nD τ) mi fullShare xi
            ∗ owns (c : Thread nD τ) mj fullShare xj ∗ owns (c : Thread nD τ) mk fullShare xk ∗ owns (c : Thread nD τ) ml fullShare xl
            ∗ owns (c : Thread nD τ) mm fullShare (out5_12 xa xb xc xd xe xf xg xh xi xj xk xl)
            ∗ owns (c : Thread nD τ) mn fullShare (out5_13 xa xb xc xd xe xf xg xh xi xj xk xl)) -∗ K ⟨⟩))
      ⊢ wp frame (wpE (defs₀ (F := F)) Variants.none c none) E
          (cc5_kernel i ma hma mb hmb mc hmc md hmd me hme mf hmf mg hmg mh hmh mi hmi mj hmj mk hmk ml hml mm hmm mn hmn) K := by
  simp only [cc5_kernel_eq_skeleton]; unfold cc5_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, ⟨%dm, %fm, -, Hm⟩, ⟨%dn, %fn, -, Hn⟩, Hk⟩
  subst hfa; subst hfb; subst hfc; subst hfd; subst hfe; subst hff; subst hfg; subst hfh; subst hfi; subst hfj; subst hfk; subst hfl
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists fk; isplitr; · ipureintro; rfl
    iexact Hk
  isplitl [Hl]
  · iexists fl; isplitr; · ipureintro; rfl
    iexact Hl
  isplitl [Hm]
  · iexists _; isplitr
    swap; · iexact Hm
    ipureintro
    exact View.read_writes_eq_canon _ _ _ (cover5_12 _)
  iexists _; isplitr
  swap; · iexact Hn
  ipureintro
  exact View.read_writes_eq_canon _ _ _ (cover5_13 _)

/-- The proof data of pipeline 5 on core c: the arrays as the region finds them; after the body at point t each
    input's buffer at its block and each output's at its out5 of the input blocks; nothing owed; the states' array,
    read through two windows (the third row block and the residual), is held at the two halves of the full share,
    every other array at the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t)
    | ⟨13, _⟩ => out5_13 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t)
  Φ _ := Pipeline.ΦA spec5 c
  q w := match w with
    | ⟨0, _⟩ => fullShare
    | ⟨1, _⟩ => fullShare
    | ⟨2, _⟩ => fullShare.left
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare.right
    | ⟨12, _⟩ => fullShare
    | ⟨13, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t
    = out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) := by dsimp only [dat5]
theorem after5_13 (c : Dev nD) (t : Fin cfg5.N) : (dat5 V c).after 13 t
    = out5_13 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d

/-- The shares the arrays are held at: the states' array at the left half through the third row block's window and at
    the right half through the residual's, every other array at the full share. -/
theorem share5_a (c : Dev nD) : (dat5 V c).share 2 = fullShare.left := rfl
theorem share5_b (c : Dev nD) : (dat5 V c).share 11 = fullShare.right := rfl
theorem share5_rest (c : Dev nD) : ∀ w, w ≠ 2 → w ≠ 11 → (dat5 V c).share w = fullShare := fun w => match w with
    | ⟨0, _⟩ => fun _ _ => rfl
    | ⟨1, _⟩ => fun _ _ => rfl
    | ⟨2, _⟩ => fun h _ => absurd rfl h
    | ⟨3, _⟩ => fun _ _ => rfl
    | ⟨4, _⟩ => fun _ _ => rfl
    | ⟨5, _⟩ => fun _ _ => rfl
    | ⟨6, _⟩ => fun _ _ => rfl
    | ⟨7, _⟩ => fun _ _ => rfl
    | ⟨8, _⟩ => fun _ _ => rfl
    | ⟨9, _⟩ => fun _ _ => rfl
    | ⟨10, _⟩ => fun _ _ => rfl
    | ⟨11, _⟩ => fun _ h => absurd rfl h
    | ⟨12, _⟩ => fun _ _ => rfl
    | ⟨13, _⟩ => fun _ _ => rfl

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t))

/-- The body at any point: the inputs' memrefs hold their blocks, so sound_kernel5 applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩, ⟨%dl, Hl⟩, ⟨%dm, Hm⟩, ⟨%dn, Hn⟩⟩
  iapply (sound_kernel5 c Set.univ _ _ _ _ _ _ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) _)
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexists _; iexact Hm
  isplitl [Hn]; · iexists _; iexact Hn
  iintro ⟨Ha, Hb, Hc, Hd, He, Hf, Hg, Hh, Hi, Hj, Hk, Hl, Hm, Hn⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  isplitl [Hj]; · iexact Hj
  isplitl [Hk]; · iexact Hk
  isplitl [Hl]; · iexact Hl
  isplitl [Hm]; · iexact Hm
  iexact Hn

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.KiChain.lean ====
/-
  The buffers' contents at every boundary of the idealized kernel's @main, folded from the launch memory:
  a stretch of host operations applies them in order; a kernel region leaves every buffer as it found it
  except its output arrays, which end at what the pipeline's write-backs leave (the proof data's array
  after the last point). Each region's proof data is taken at the contents its region is entered from.
  Proved here: at a region's exit each of its arrays holds what the pipeline leaves and every other buffer
  what it held at entry; no item of @main writes an argument, so the last boundary holds each argument as
  launched.
-/
import proofs.«424920_j53549652246920_2_alg».proof.Proof.KiReg0
import proofs.«424920_j53549652246920_2_alg».proof.Proof.KiReg1
import proofs.«424920_j53549652246920_2_alg».proof.Proof.KiReg2
import proofs.«424920_j53549652246920_2_alg».proof.Proof.KiReg3
import proofs.«424920_j53549652246920_2_alg».proof.Proof.KiReg4
import proofs.«424920_j53549652246920_2_alg».proof.Proof.KiReg5
import proofs.«424920_j53549652246920_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A boundary's contents read at the TensorCore's references. -/
abbrev atTc (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
/-- What region 0 leaves in its output array. -/
def o2 (c : Dev nD) : Buf (Elt F) ((c : Thread nD τ).loc main_v2) := (dat0 (atTc (W1 m)) c).arrAt 5 cfg0.N
/-- At region 0's exit. -/
def W2 : Dev nD → Valuation τ sig (Elt F) := fun c => Function.update (W1 m c) main_v2 (o2 m c)
abbrev W3 : Dev nD → Valuation τ sig (Elt F) := fun c => StableHlo.after hostOps1 (W2 m c)
def o4 (c : Dev nD) : Buf (Elt F) ((c : Thread nD τ).loc main_v5) := (dat1 (atTc (W3 m)) c).arrAt 5 cfg1.N
def W4 : Dev nD → Valuation τ sig (Elt F) := fun c => Function.update (W3 m c) main_v5 (o4 m c)
abbrev W5 : Dev nD → Valuation τ sig (Elt F) := fun c => StableHlo.after hostOps2 (W4 m c)
def o6 (c : Dev nD) : Buf (Elt F) ((c : Thread nD τ).loc main_v8) := (dat2 (atTc (W5 m)) c).arrAt 5 cfg2.N
def W6 : Dev nD → Valuation τ sig (Elt F) := fun c => Function.update (W5 m c) main_v8 (o6 m c)
abbrev W7 : Dev nD → Valuation τ sig (Elt F) := fun c => StableHlo.after hostOps3 (W6 m c)
abbrev W8 : Dev nD → Valuation τ sig (Elt F) := fun c => StableHlo.after hostOps3_1 (W7 m c)
abbrev W9 : Dev nD → Valuation τ sig (Elt F) := fun c => StableHlo.after hostOps3_2 (W8 m c)
abbrev W10 : Dev nD → Valuation τ sig (Elt F) := fun c => StableHlo.after hostOps3_3 (W9 m c)
def o11a (c : Dev nD) : Buf (Elt F) ((c : Thread nD τ).loc main_v19_0) := (dat3 (atTc (W10 m)) c).arrAt 14 cfg3.N
def o11b (c : Dev nD) : Buf (Elt F) ((c : Thread nD τ).loc main_v19_1) := (dat3 (atTc (W10 m)) c).arrAt 15 cfg3.N
def W11 : Dev nD → Valuation τ sig (Elt F) := fun c =>
  Function.update (Function.update (W10 m c) main_v19_0 (o11a m c)) main_v19_1 (o11b m c)
abbrev W12 : Dev nD → Valuation τ sig (Elt F) := fun c => StableHlo.after hostOps4 (W11 m c)
abbrev W13 : Dev nD → Valuation τ sig (Elt F) := fun c => StableHlo.after hostOps4_1 (W12 m c)
abbrev W14 : Dev nD → Valuation τ sig (Elt F) := fun c => StableHlo.after hostOps4_2 (W13 m c)
def o15a (c : Dev nD) : Buf (Elt F) ((c : Thread nD τ).loc main_v39_0) := (dat4 (atTc (W14 m)) c).arrAt 12 cfg4.N
def o15b (c : Dev nD) : Buf (Elt F) ((c : Thread nD τ).loc main_v39_1) := (dat4 (atTc (W14 m)) c).arrAt 13 cfg4.N
def W15 : Dev nD → Valuation τ sig (Elt F) := fun c =>
  Function.update (Function.update (W14 m c) main_v39_0 (o15a m c)) main_v39_1 (o15b m c)
abbrev W16 : Dev nD → Valuation τ sig (Elt F) := fun c => StableHlo.after hostOps5 (W15 m c)
def o17a (c : Dev nD) : Buf (Elt F) ((c : Thread nD τ).loc main_v70_0) := (dat5 (atTc (W16 m)) c).arrAt 12 cfg5.N
def o17b (c : Dev nD) : Buf (Elt F) ((c : Thread nD τ).loc main_v70_1) := (dat5 (atTc (W16 m)) c).arrAt 13 cfg5.N
def W17 : Dev nD → Valuation τ sig (Elt F) := fun c =>
  Function.update (Function.update (W16 m c) main_v70_0 (o17a m c)) main_v70_1 (o17b m c)

/-! ## A region's exit: its outputs at what it leaves, every other reference as entered -/

theorem W2_out (c : Dev nD) : W2 m c main_v2 = o2 m c := by unfold W2; exact Function.update_self _ _ _
theorem W2_of (c : Dev nD) (r : Ref sig .tc) (h : r ≠ main_v2) : W2 m c r = W1 m c r := by
  unfold W2; exact Function.update_of_ne (StableHlo.devRef_ne_of_ne h) _ _
theorem W4_out (c : Dev nD) : W4 m c main_v5 = o4 m c := by unfold W4; exact Function.update_self _ _ _
theorem W4_of (c : Dev nD) (r : Ref sig .tc) (h : r ≠ main_v5) : W4 m c r = W3 m c r := by
  unfold W4; exact Function.update_of_ne (StableHlo.devRef_ne_of_ne h) _ _
theorem W6_out (c : Dev nD) : W6 m c main_v8 = o6 m c := by unfold W6; exact Function.update_self _ _ _
theorem W6_of (c : Dev nD) (r : Ref sig .tc) (h : r ≠ main_v8) : W6 m c r = W5 m c r := by
  unfold W6; exact Function.update_of_ne (StableHlo.devRef_ne_of_ne h) _ _
theorem W11_outb (c : Dev nD) : W11 m c main_v19_1 = o11b m c := by unfold W11; exact Function.update_self _ _ _
theorem W11_outa (c : Dev nD) : W11 m c main_v19_0 = o11a m c := by
  unfold W11; rw [Function.update_of_ne (StableHlo.devRef_ne_of_ne (by decide))]; exact Function.update_self _ _ _
theorem W11_of (c : Dev nD) (r : Ref sig .tc) (h0 : r ≠ main_v19_0) (h1 : r ≠ main_v19_1) : W11 m c r = W10 m c r := by
  unfold W11; rw [Function.update_of_ne (StableHlo.devRef_ne_of_ne h1), Function.update_of_ne (StableHlo.devRef_ne_of_ne h0)]
theorem W15_outb (c : Dev nD) : W15 m c main_v39_1 = o15b m c := by unfold W15; exact Function.update_self _ _ _
theorem W15_outa (c : Dev nD) : W15 m c main_v39_0 = o15a m c := by
  unfold W15; rw [Function.update_of_ne (StableHlo.devRef_ne_of_ne (by decide))]; exact Function.update_self _ _ _
theorem W15_of (c : Dev nD) (r : Ref sig .tc) (h0 : r ≠ main_v39_0) (h1 : r ≠ main_v39_1) : W15 m c r = W14 m c r := by
  unfold W15; rw [Function.update_of_ne (StableHlo.devRef_ne_of_ne h1), Function.update_of_ne (StableHlo.devRef_ne_of_ne h0)]
theorem W17_outb (c : Dev nD) : W17 m c main_v70_1 = o17b m c := by unfold W17; exact Function.update_self _ _ _
theorem W17_outa (c : Dev nD) : W17 m c main_v70_0 = o17a m c := by
  unfold W17; rw [Function.update_of_ne (StableHlo.devRef_ne_of_ne (by decide))]; exact Function.update_self _ _ _
theorem W17_of (c : Dev nD) (r : Ref sig .tc) (h0 : r ≠ main_v70_0) (h1 : r ≠ main_v70_1) : W17 m c r = W16 m c r := by
  unfold W17; rw [Function.update_of_ne (StableHlo.devRef_ne_of_ne h1), Function.update_of_ne (StableHlo.devRef_ne_of_ne h0)]

/-! ## A host stretch leaves every reference it does not write -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h
theorem W8_of (c : Dev nD) (r : Ref sig .tc) (h : r ∉ hostOps3_1_W) : W8 m c r = W7 m c r :=
  StableHlo.after_of_writes_sub hostOps3_1 _ hostOps3_1_writes h
theorem W9_of (c : Dev nD) (r : Ref sig .tc) (h : r ∉ hostOps3_2_W) : W9 m c r = W8 m c r :=
  StableHlo.after_of_writes_sub hostOps3_2 _ hostOps3_2_writes h
theorem W10_of (c : Dev nD) (r : Ref sig .tc) (h : r ∉ hostOps3_3_W) : W10 m c r = W9 m c r :=
  StableHlo.after_of_writes_sub hostOps3_3 _ hostOps3_3_writes h
theorem W12_of (c : Dev nD) (r : Ref sig .tc) (h : r ∉ hostOps4_W) : W12 m c r = W11 m c r :=
  StableHlo.after_of_writes_sub hostOps4 _ hostOps4_writes h
theorem W13_of (c : Dev nD) (r : Ref sig .tc) (h : r ∉ hostOps4_1_W) : W13 m c r = W12 m c r :=
  StableHlo.after_of_writes_sub hostOps4_1 _ hostOps4_1_writes h
theorem W14_of (c : Dev nD) (r : Ref sig .tc) (h : r ∉ hostOps4_2_W) : W14 m c r = W13 m c r :=
  StableHlo.after_of_writes_sub hostOps4_2 _ hostOps4_2_writes h
theorem W16_of (c : Dev nD) (r : Ref sig .tc) (h : r ∉ hostOps5_W) : W16 m c r = W15 m c r :=
  StableHlo.after_of_writes_sub hostOps5 _ hostOps5_writes h

/-- Every reference some item of @main may write: the host stretches' results and the regions' outputs. -/
abbrev written : List (Ref sig .tc) :=
  hostOps0_W ++ hostOps1_W ++ hostOps2_W ++ hostOps3_W ++ hostOps3_1_W ++ hostOps3_2_W ++ hostOps3_3_W ++ hostOps4_W
    ++ hostOps4_1_W ++ hostOps4_2_W ++ hostOps5_W
    ++ [main_v2, main_v5, main_v8, main_v19_0, main_v19_1, main_v39_0, main_v39_1, main_v70_0, main_v70_1]

/-- A reference no item writes holds at the last boundary what the launch memory holds. -/
theorem W17_unwritten (c : Dev nD) (r : Ref sig .tc)
    (h0 : r ∉ hostOps0_W) (h1 : r ∉ hostOps1_W) (h2 : r ∉ hostOps2_W) (h3 : r ∉ hostOps3_W) (h31 : r ∉ hostOps3_1_W)
    (h32 : r ∉ hostOps3_2_W) (h33 : r ∉ hostOps3_3_W) (h4 : r ∉ hostOps4_W) (h41 : r ∉ hostOps4_1_W) (h42 : r ∉ hostOps4_2_W)
    (h5 : r ∉ hostOps5_W)
    (ho : r ∉ ([main_v2, main_v5, main_v8, main_v19_0, main_v19_1, main_v39_0, main_v39_1, main_v70_0, main_v70_1] : List (Ref sig .tc))) :
    W17 m c r = m ((c : Thread nD τ).loc r) := by
  have hne : ∀ x ∈ ([main_v2, main_v5, main_v8, main_v19_0, main_v19_1, main_v39_0, main_v39_1, main_v70_0, main_v70_1] : List (Ref sig .tc)), r ≠ x :=
    fun x hx e => ho (e ▸ hx)
  rw [W17_of m c r (hne _ (by simp)) (hne _ (by simp)), W16_of m c r h5,
    W15_of m c r (hne _ (by simp)) (hne _ (by simp)), W14_of m c r h42, W13_of m c r h41, W12_of m c r h4,
    W11_of m c r (hne _ (by simp)) (hne _ (by simp)), W10_of m c r h33, W9_of m c r h32, W8_of m c r h31, W7_of m c r h3,
    W6_of m c r (hne _ (by simp)), W5_of m c r h2, W4_of m c r (hne _ (by simp)), W3_of m c r h1,
    W2_of m c r (hne _ (by simp)), W1_of m c r h0]

end Cert.KernelIdeal.Frame

end
-- ==== Proof.KiRun.lean ====
/-
  The idealized kernel's run: @main as six kernel regions among stretches of host operations, composed by the
  library's several-regions launch. Each region is a record over the thread state "every unscoped buffer at the
  boundary's contents, the generator register at some state, nothing owed"; each host stretch carries the same
  state from one boundary's contents to the next. Conclusion: every weakly fair execution from a memory with zero
  counters terminates, without a fault, with every unscoped buffer at the last boundary's contents.
-/
import proofs.«424920_j53549652246920_2_alg».proof.Proof.KiChain
import proofs.«424920_j53549652246920_2_alg».proof.Proof.LibSharedArrays

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' arrays at their exits -/

/-- At region 0's exit each of its arrays holds what the pipeline leaves: an input's array is never written and is no
    output of the region, so it holds its entry contents; an output's is what the update put there. -/
theorem hF0 (c : Dev nD) (w : Fin cfg0.W) :
    (dat0 (atTc (W1 m)) c).arrAt w cfg0.N = atTc (W2 m) c (Pipeline.arrRef spec0 w) :=
  match w with
  | ⟨0, _⟩ => ((dat0 (atTc (W1 m)) c).arrAt_in 0 rfl _).trans ((A_eq0 (atTc (W1 m)) c 0).trans (W2_of m c main_arg0 (by decide)).symm)
  | ⟨1, _⟩ => ((dat0 (atTc (W1 m)) c).arrAt_in 1 rfl _).trans ((A_eq0 (atTc (W1 m)) c 1).trans (W2_of m c main_arg3 (by decide)).symm)
  | ⟨2, _⟩ => ((dat0 (atTc (W1 m)) c).arrAt_in 2 rfl _).trans ((A_eq0 (atTc (W1 m)) c 2).trans (W2_of m c main_v0 (by decide)).symm)
  | ⟨3, _⟩ => ((dat0 (atTc (W1 m)) c).arrAt_in 3 rfl _).trans ((A_eq0 (atTc (W1 m)) c 3).trans (W2_of m c main_arg5 (by decide)).symm)
  | ⟨4, _⟩ => ((dat0 (atTc (W1 m)) c).arrAt_in 4 rfl _).trans ((A_eq0 (atTc (W1 m)) c 4).trans (W2_of m c main_v1 (by decide)).symm)
  | ⟨5, _⟩ => (W2_out m c).symm
/-- and every reference that is none of its arrays holds what it held at entry. -/
theorem hrest0 (c : Dev nD) : ∀ b, b ∉ Finset.univ.image (Pipeline.arrRef spec0) → atTc (W2 m) c b = atTc (W1 m) c b :=
  fun b hb => W2_of m c b (fun e => hb (e ▸ Finset.mem_image.mpr ⟨5, Finset.mem_univ _, rfl⟩))

/-- At region 1's exit each of its arrays holds what the pipeline leaves: an input's array is never written and is no
    output of the region, so it holds its entry contents; an output's is what the update put there. -/
theorem hF1 (c : Dev nD) (w : Fin cfg1.W) :
    (dat1 (atTc (W3 m)) c).arrAt w cfg1.N = atTc (W4 m) c (Pipeline.arrRef spec1 w) :=
  match w with
  | ⟨0, _⟩ => ((dat1 (atTc (W3 m)) c).arrAt_in 0 rfl _).trans ((A_eq1 (atTc (W3 m)) c 0).trans (W4_of m c main_arg1 (by decide)).symm)
  | ⟨1, _⟩ => ((dat1 (atTc (W3 m)) c).arrAt_in 1 rfl _).trans ((A_eq1 (atTc (W3 m)) c 1).trans (W4_of m c main_arg7 (by decide)).symm)
  | ⟨2, _⟩ => ((dat1 (atTc (W3 m)) c).arrAt_in 2 rfl _).trans ((A_eq1 (atTc (W3 m)) c 2).trans (W4_of m c main_v3 (by decide)).symm)
  | ⟨3, _⟩ => ((dat1 (atTc (W3 m)) c).arrAt_in 3 rfl _).trans ((A_eq1 (atTc (W3 m)) c 3).trans (W4_of m c main_arg9 (by decide)).symm)
  | ⟨4, _⟩ => ((dat1 (atTc (W3 m)) c).arrAt_in 4 rfl _).trans ((A_eq1 (atTc (W3 m)) c 4).trans (W4_of m c main_v4 (by decide)).symm)
  | ⟨5, _⟩ => (W4_out m c).symm
/-- and every reference that is none of its arrays holds what it held at entry. -/
theorem hrest1 (c : Dev nD) : ∀ b, b ∉ Finset.univ.image (Pipeline.arrRef spec1) → atTc (W4 m) c b = atTc (W3 m) c b :=
  fun b hb => W4_of m c b (fun e => hb (e ▸ Finset.mem_image.mpr ⟨5, Finset.mem_univ _, rfl⟩))

/-- At region 2's exit each of its arrays holds what the pipeline leaves: an input's array is never written and is no
    output of the region, so it holds its entry contents; an output's is what the update put there. -/
theorem hF2 (c : Dev nD) (w : Fin cfg2.W) :
    (dat2 (atTc (W5 m)) c).arrAt w cfg2.N = atTc (W6 m) c (Pipeline.arrRef spec2 w) :=
  match w with
  | ⟨0, _⟩ => ((dat2 (atTc (W5 m)) c).arrAt_in 0 rfl _).trans ((A_eq2 (atTc (W5 m)) c 0).trans (W6_of m c main_arg2 (by decide)).symm)
  | ⟨1, _⟩ => ((dat2 (atTc (W5 m)) c).arrAt_in 1 rfl _).trans ((A_eq2 (atTc (W5 m)) c 1).trans (W6_of m c main_arg11 (by decide)).symm)
  | ⟨2, _⟩ => ((dat2 (atTc (W5 m)) c).arrAt_in 2 rfl _).trans ((A_eq2 (atTc (W5 m)) c 2).trans (W6_of m c main_v6 (by decide)).symm)
  | ⟨3, _⟩ => ((dat2 (atTc (W5 m)) c).arrAt_in 3 rfl _).trans ((A_eq2 (atTc (W5 m)) c 3).trans (W6_of m c main_arg13 (by decide)).symm)
  | ⟨4, _⟩ => ((dat2 (atTc (W5 m)) c).arrAt_in 4 rfl _).trans ((A_eq2 (atTc (W5 m)) c 4).trans (W6_of m c main_v7 (by decide)).symm)
  | ⟨5, _⟩ => (W6_out m c).symm
/-- and every reference that is none of its arrays holds what it held at entry. -/
theorem hrest2 (c : Dev nD) : ∀ b, b ∉ Finset.univ.image (Pipeline.arrRef spec2) → atTc (W6 m) c b = atTc (W5 m) c b :=
  fun b hb => W6_of m c b (fun e => hb (e ▸ Finset.mem_image.mpr ⟨5, Finset.mem_univ _, rfl⟩))

set_option maxHeartbeats 4000000 in
/-- At region 3's exit each of its arrays holds what the pipeline leaves: an input's array is never written and is no
    output of the region, so it holds its entry contents; an output's is what the update put there. -/
theorem hF3 (c : Dev nD) (w : Fin cfg3.W) :
    (dat3 (atTc (W10 m)) c).arrAt w cfg3.N = atTc (W11 m) c (Pipeline.arrRef spec3 w) :=
  match w with
  | ⟨0, _⟩ => ((dat3 (atTc (W10 m)) c).arrAt_in 0 rfl _).trans ((A_eq3 (atTc (W10 m)) c 0).trans (W11_of m c main_v9 (by decide) (by decide)).symm)
  | ⟨1, _⟩ => ((dat3 (atTc (W10 m)) c).arrAt_in 1 rfl _).trans ((A_eq3 (atTc (W10 m)) c 1).trans (W11_of m c main_v10 (by decide) (by decide)).symm)
  | ⟨2, _⟩ => ((dat3 (atTc (W10 m)) c).arrAt_in 2 rfl _).trans ((A_eq3 (atTc (W10 m)) c 2).trans (W11_of m c main_v5 (by decide) (by decide)).symm)
  | ⟨3, _⟩ => ((dat3 (atTc (W10 m)) c).arrAt_in 3 rfl _).trans ((A_eq3 (atTc (W10 m)) c 3).trans (W11_of m c main_v11 (by decide) (by decide)).symm)
  | ⟨4, _⟩ => ((dat3 (atTc (W10 m)) c).arrAt_in 4 rfl _).trans ((A_eq3 (atTc (W10 m)) c 4).trans (W11_of m c main_v12 (by decide) (by decide)).symm)
  | ⟨5, _⟩ => ((dat3 (atTc (W10 m)) c).arrAt_in 5 rfl _).trans ((A_eq3 (atTc (W10 m)) c 5).trans (W11_of m c main_v13 (by decide) (by decide)).symm)
  | ⟨6, _⟩ => ((dat3 (atTc (W10 m)) c).arrAt_in 6 rfl _).trans ((A_eq3 (atTc (W10 m)) c 6).trans (W11_of m c main_v14 (by decide) (by decide)).symm)
  | ⟨7, _⟩ => ((dat3 (atTc (W10 m)) c).arrAt_in 7 rfl _).trans ((A_eq3 (atTc (W10 m)) c 7).trans (W11_of m c main_v15 (by decide) (by decide)).symm)
  | ⟨8, _⟩ => ((dat3 (atTc (W10 m)) c).arrAt_in 8 rfl _).trans ((A_eq3 (atTc (W10 m)) c 8).trans (W11_of m c main_v16 (by decide) (by decide)).symm)
  | ⟨9, _⟩ => ((dat3 (atTc (W10 m)) c).arrAt_in 9 rfl _).trans ((A_eq3 (atTc (W10 m)) c 9).trans (W11_of m c main_arg17 (by decide) (by decide)).symm)
  | ⟨10, _⟩ => ((dat3 (atTc (W10 m)) c).arrAt_in 10 rfl _).trans ((A_eq3 (atTc (W10 m)) c 10).trans (W11_of m c main_v17 (by decide) (by decide)).symm)
  | ⟨11, _⟩ => ((dat3 (atTc (W10 m)) c).arrAt_in 11 rfl _).trans ((A_eq3 (atTc (W10 m)) c 11).trans (W11_of m c main_arg19 (by decide) (by decide)).symm)
  | ⟨12, _⟩ => ((dat3 (atTc (W10 m)) c).arrAt_in 12 rfl _).trans ((A_eq3 (atTc (W10 m)) c 12).trans (W11_of m c main_v18 (by decide) (by decide)).symm)
  | ⟨13, _⟩ => ((dat3 (atTc (W10 m)) c).arrAt_in 13 rfl _).trans ((A_eq3 (atTc (W10 m)) c 13).trans (W11_of m c main_v5 (by decide) (by decide)).symm)
  | ⟨14, _⟩ => (W11_outa m c).symm
  | ⟨15, _⟩ => (W11_outb m c).symm
  | ⟨_ + 16, h⟩ => absurd h (Nat.not_lt.2 (Nat.le_add_left _ _))
/-- and every reference that is none of its arrays holds what it held at entry. -/
theorem hrest3 (c : Dev nD) : ∀ b, b ∉ Finset.univ.image (Pipeline.arrRef spec3) → atTc (W11 m) c b = atTc (W10 m) c b :=
  fun b hb => W11_of m c b (fun e => hb (e ▸ Finset.mem_image.mpr ⟨14, Finset.mem_univ _, rfl⟩)) (fun e => hb (e ▸ Finset.mem_image.mpr ⟨15, Finset.mem_univ _, rfl⟩))

set_option maxHeartbeats 4000000 in
/-- At region 4's exit each of its arrays holds what the pipeline leaves: an input's array is never written and is no
    output of the region, so it holds its entry contents; an output's is what the update put there. -/
theorem hF4 (c : Dev nD) (w : Fin cfg4.W) :
    (dat4 (atTc (W14 m)) c).arrAt w cfg4.N = atTc (W15 m) c (Pipeline.arrRef spec4 w) :=
  match w with
  | ⟨0, _⟩ => ((dat4 (atTc (W14 m)) c).arrAt_in 0 rfl _).trans ((A_eq4 (atTc (W14 m)) c 0).trans (W15_of m c main_v31 (by decide) (by decide)).symm)
  | ⟨1, _⟩ => ((dat4 (atTc (W14 m)) c).arrAt_in 1 rfl _).trans ((A_eq4 (atTc (W14 m)) c 1).trans (W15_of m c main_v2 (by decide) (by decide)).symm)
  | ⟨2, _⟩ => ((dat4 (atTc (W14 m)) c).arrAt_in 2 rfl _).trans ((A_eq4 (atTc (W14 m)) c 2).trans (W15_of m c main_v32 (by decide) (by decide)).symm)
  | ⟨3, _⟩ => ((dat4 (atTc (W14 m)) c).arrAt_in 3 rfl _).trans ((A_eq4 (atTc (W14 m)) c 3).trans (W15_of m c main_v33 (by decide) (by decide)).symm)
  | ⟨4, _⟩ => ((dat4 (atTc (W14 m)) c).arrAt_in 4 rfl _).trans ((A_eq4 (atTc (W14 m)) c 4).trans (W15_of m c main_v34 (by decide) (by decide)).symm)
  | ⟨5, _⟩ => ((dat4 (atTc (W14 m)) c).arrAt_in 5 rfl _).trans ((A_eq4 (atTc (W14 m)) c 5).trans (W15_of m c main_v35 (by decide) (by decide)).symm)
  | ⟨6, _⟩ => ((dat4 (atTc (W14 m)) c).arrAt_in 6 rfl _).trans ((A_eq4 (atTc (W14 m)) c 6).trans (W15_of m c main_v36 (by decide) (by decide)).symm)
  | ⟨7, _⟩ => ((dat4 (atTc (W14 m)) c).arrAt_in 7 rfl _).trans ((A_eq4 (atTc (W14 m)) c 7).trans (W15_of m c main_arg23 (by decide) (by decide)).symm)
  | ⟨8, _⟩ => ((dat4 (atTc (W14 m)) c).arrAt_in 8 rfl _).trans ((A_eq4 (atTc (W14 m)) c 8).trans (W15_of m c main_v37 (by decide) (by decide)).symm)
  | ⟨9, _⟩ => ((dat4 (atTc (W14 m)) c).arrAt_in 9 rfl _).trans ((A_eq4 (atTc (W14 m)) c 9).trans (W15_of m c main_arg25 (by decide) (by decide)).symm)
  | ⟨10, _⟩ => ((dat4 (atTc (W14 m)) c).arrAt_in 10 rfl _).trans ((A_eq4 (atTc (W14 m)) c 10).trans (W15_of m c main_v38 (by decide) (by decide)).symm)
  | ⟨11, _⟩ => ((dat4 (atTc (W14 m)) c).arrAt_in 11 rfl _).trans ((A_eq4 (atTc (W14 m)) c 11).trans (W15_of m c main_v2 (by decide) (by decide)).symm)
  | ⟨12, _⟩ => (W15_outa m c).symm
  | ⟨13, _⟩ => (W15_outb m c).symm
/-- and every reference that is none of its arrays holds what it held at entry. -/
theorem hrest4 (c : Dev nD) : ∀ b, b ∉ Finset.univ.image (Pipeline.arrRef spec4) → atTc (W15 m) c b = atTc (W14 m) c b :=
  fun b hb => W15_of m c b (fun e => hb (e ▸ Finset.mem_image.mpr ⟨12, Finset.mem_univ _, rfl⟩)) (fun e => hb (e ▸ Finset.mem_image.mpr ⟨13, Finset.mem_univ _, rfl⟩))

set_option maxHeartbeats 4000000 in
/-- At region 5's exit each of its arrays holds what the pipeline leaves: an input's array is never written and is no
    output of the region, so it holds its entry contents; an output's is what the update put there. -/
theorem hF5 (c : Dev nD) (w : Fin cfg5.W) :
    (dat5 (atTc (W16 m)) c).arrAt w cfg5.N = atTc (W17 m) c (Pipeline.arrRef spec5 w) :=
  match w with
  | ⟨0, _⟩ => ((dat5 (atTc (W16 m)) c).arrAt_in 0 rfl _).trans ((A_eq5 (atTc (W16 m)) c 0).trans (W17_of m c main_v51 (by decide) (by decide)).symm)
  | ⟨1, _⟩ => ((dat5 (atTc (W16 m)) c).arrAt_in 1 rfl _).trans ((A_eq5 (atTc (W16 m)) c 1).trans (W17_of m c main_v63 (by decide) (by decide)).symm)
  | ⟨2, _⟩ => ((dat5 (atTc (W16 m)) c).arrAt_in 2 rfl _).trans ((A_eq5 (atTc (W16 m)) c 2).trans (W17_of m c main_v8 (by decide) (by decide)).symm)
  | ⟨3, _⟩ => ((dat5 (atTc (W16 m)) c).arrAt_in 3 rfl _).trans ((A_eq5 (atTc (W16 m)) c 3).trans (W17_of m c main_v64 (by decide) (by decide)).symm)
  | ⟨4, _⟩ => ((dat5 (atTc (W16 m)) c).arrAt_in 4 rfl _).trans ((A_eq5 (atTc (W16 m)) c 4).trans (W17_of m c main_v65 (by decide) (by decide)).symm)
  | ⟨5, _⟩ => ((dat5 (atTc (W16 m)) c).arrAt_in 5 rfl _).trans ((A_eq5 (atTc (W16 m)) c 5).trans (W17_of m c main_v66 (by decide) (by decide)).symm)
  | ⟨6, _⟩ => ((dat5 (atTc (W16 m)) c).arrAt_in 6 rfl _).trans ((A_eq5 (atTc (W16 m)) c 6).trans (W17_of m c main_v67 (by decide) (by decide)).symm)
  | ⟨7, _⟩ => ((dat5 (atTc (W16 m)) c).arrAt_in 7 rfl _).trans ((A_eq5 (atTc (W16 m)) c 7).trans (W17_of m c main_arg29 (by decide) (by decide)).symm)
  | ⟨8, _⟩ => ((dat5 (atTc (W16 m)) c).arrAt_in 8 rfl _).trans ((A_eq5 (atTc (W16 m)) c 8).trans (W17_of m c main_v68 (by decide) (by decide)).symm)
  | ⟨9, _⟩ => ((dat5 (atTc (W16 m)) c).arrAt_in 9 rfl _).trans ((A_eq5 (atTc (W16 m)) c 9).trans (W17_of m c main_arg31 (by decide) (by decide)).symm)
  | ⟨10, _⟩ => ((dat5 (atTc (W16 m)) c).arrAt_in 10 rfl _).trans ((A_eq5 (atTc (W16 m)) c 10).trans (W17_of m c main_v69 (by decide) (by decide)).symm)
  | ⟨11, _⟩ => ((dat5 (atTc (W16 m)) c).arrAt_in 11 rfl _).trans ((A_eq5 (atTc (W16 m)) c 11).trans (W17_of m c main_v8 (by decide) (by decide)).symm)
  | ⟨12, _⟩ => (W17_outa m c).symm
  | ⟨13, _⟩ => (W17_outb m c).symm
/-- and every reference that is none of its arrays holds what it held at entry. -/
theorem hrest5 (c : Dev nD) : ∀ b, b ∉ Finset.univ.image (Pipeline.arrRef spec5) → atTc (W17 m) c b = atTc (W16 m) c b :=
  fun b hb => W17_of m c b (fun e => hb (e ▸ Finset.mem_image.mpr ⟨12, Finset.mem_univ _, rfl⟩)) (fun e => hb (e ▸ Finset.mem_image.mpr ⟨13, Finset.mem_univ _, rfl⟩))

/-! ## The two windows on one array, in the regions that have them -/

theorem shared3_ne : (2 : Fin cfg3.W) ≠ 13 := by decide
theorem shared3_eq : Pipeline.arrRef spec3 13 = Pipeline.arrRef spec3 2 := by decide
theorem shared3_inj : ∀ w w' : Fin cfg3.W, w ≠ 13 → w' ≠ 13 → Pipeline.arrRef spec3 w = Pipeline.arrRef spec3 w' → w = w' := by decide
theorem shared4_ne : (1 : Fin cfg4.W) ≠ 11 := by decide
theorem shared4_eq : Pipeline.arrRef spec4 11 = Pipeline.arrRef spec4 1 := by decide
theorem shared4_inj : ∀ w w' : Fin cfg4.W, w ≠ 11 → w' ≠ 11 → Pipeline.arrRef spec4 w = Pipeline.arrRef spec4 w' → w = w' := by decide
theorem shared5_ne : (2 : Fin cfg5.W) ≠ 11 := by decide
theorem shared5_eq : Pipeline.arrRef spec5 11 = Pipeline.arrRef spec5 2 := by decide
theorem shared5_inj : ∀ w w' : Fin cfg5.W, w ≠ 11 → w' ≠ 11 → Pipeline.arrRef spec5 w = Pipeline.arrRef spec5 w' → w = w' := by decide

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W10 m)) c
  | ⟨4, _⟩ => fun c => dat4 (atTc (W14 m)) c
  | ⟨5, _⟩ => fun c => dat5 (atTc (W16 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W17 m c) ∗ ∃ r, prngReg c r)

/-! ## The regions as segments -/

set_option backward.isDefEq.respectTransparency.types false in
/-- Region 0 over the thread state: entered from every unscoped buffer at the boundary before it, left at the boundary
    after it. Its arrays are split out of the unscoped buffers at entry and put back at the exit contents; the
    generator register goes into the pipeline's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the boundary
    after it. Its arrays are split out of the unscoped buffers at entry and put back at the exit contents; the
    generator register goes into the pipeline's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the boundary
    after it. Its arrays are split out of the unscoped buffers at entry and put back at the exit contents; the
    generator register goes into the pipeline's invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (atTc (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W5 m) c) (atTc (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state. Two of its input windows (2 and 13) read ONE array: at entry that array's full
    share is dealt between them, a half each, and at exit the halves are joined again; every other array is held whole. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (atTc (W10 m)) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (atTc (W10 m) c)
  hentry c := by
    rw [Pipeline.ownSems0_none]
    have hsplit := Pipeline.SharedArrays.arrays_of_unscopedBufs_shared (Ix := Unit) (Name := ℕ) (U := UR sig nD τ) (Lvl := ℕ)
      (pdats m 3 c) winFacts₀3.arr_unscoped arr_whole3 2 13 shared3_ne shared3_eq shared3_inj
      (share3_a (atTc (W10 m)) c) (share3_b (atTc (W10 m)) c) (share3_rest (atTc (W10 m)) c)
      (atTc (W10 m) c) ((pdats m 3 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.SharedArrays.unscopedBufs_of_arrays_shared (Ix := Unit) (Name := ℕ) (U := UR sig nD τ) (Lvl := ℕ)
      (pdats m 3 c) winFacts₀3.arr_unscoped arr_whole3 2 13 shared3_ne shared3_eq shared3_inj
      (share3_a (atTc (W10 m)) c) (share3_b (atTc (W10 m)) c) (share3_rest (atTc (W10 m)) c)
      (atTc (W10 m) c) (atTc (W11 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state. Two of its input windows (1 and 11) read ONE array: at entry that array's full
    share is dealt between them, a half each, and at exit the halves are joined again; every other array is held whole. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (atTc (W14 m)) c).loose
  hwaits := Pipeline.hwaits_of_owed_zero _ _ _ _ L lv 4 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec4 c (atTc (W14 m) c)
  hentry c := by
    rw [Pipeline.ownSems0_none]
    have hsplit := Pipeline.SharedArrays.arrays_of_unscopedBufs_shared (Ix := Unit) (Name := ℕ) (U := UR sig nD τ) (Lvl := ℕ)
      (pdats m 4 c) winFacts₀4.arr_unscoped arr_whole4 1 11 shared4_ne shared4_eq shared4_inj
      (share4_a (atTc (W14 m)) c) (share4_b (atTc (W14 m)) c) (share4_rest (atTc (W14 m)) c)
      (atTc (W14 m) c) ((pdats m 4 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.SharedArrays.unscopedBufs_of_arrays_shared (Ix := Unit) (Name := ℕ) (U := UR sig nD τ) (Lvl := ℕ)
      (pdats m 4 c) winFacts₀4.arr_unscoped arr_whole4 1 11 shared4_ne shared4_eq shared4_inj
      (share4_a (atTc (W14 m)) c) (share4_b (atTc (W14 m)) c) (share4_rest (atTc (W14 m)) c)
      (atTc (W14 m) c) (atTc (W15 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state. Two of its input windows (2 and 11) read ONE array: at entry that array's full
    share is dealt between them, a half each, and at exit the halves are joined again; every other array is held whole. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (atTc (W16 m)) c).loose
  hwaits := Pipeline.hwaits_of_owed_zero _ _ _ _ L lv 5 fun _ _ => rfl
  pre c := iprop(StableHlo.held (c : Thread nD τ) (Pipeline.ucRefs τ sig) (W16 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (atTc (W16 m) c)
  hentry c := by
    rw [Pipeline.ownSems0_none]
    have hsplit := Pipeline.SharedArrays.arrays_of_unscopedBufs_shared (Ix := Unit) (Name := ℕ) (U := UR sig nD τ) (Lvl := ℕ)
      (pdats m 5 c) winFacts₀5.arr_unscoped arr_whole5 2 11 shared5_ne shared5_eq shared5_inj
      (share5_a (atTc (W16 m)) c) (share5_b (atTc (W16 m)) c) (share5_rest (atTc (W16 m)) c)
      (atTc (W16 m) c) ((pdats m 5 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.SharedArrays.unscopedBufs_of_arrays_shared (Ix := Unit) (Name := ℕ) (U := UR sig nD τ) (Lvl := ℕ)
      (pdats m 5 c) winFacts₀5.arr_unscoped arr_whole5 2 11 shared5_ne shared5_eq shared5_inj
      (share5_a (atTc (W16 m)) c) (share5_b (atTc (W16 m)) c) (share5_rest (atTc (W16 m)) c)
      (atTc (W16 m) c) (atTc (W17 m) c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 17 items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)),
    .host (hseg hostOps3_2 hostOps3_2_sub hostOps3_2_fresh (W8 m)),
    .host (hseg hostOps3_3 hostOps3_3_sub hostOps3_3_fresh (W9 m)),
    .region (reg3 m),
    .host (hseg hostOps4 hostOps4_sub hostOps4_fresh (W11 m)),
    .host (hseg hostOps4_1 hostOps4_1_sub hostOps4_1_fresh (W12 m)),
    .host (hseg hostOps4_2 hostOps4_2_sub hostOps4_2_fresh (W13 m)),
    .region (reg4 m),
    .host (hseg hostOps5 hostOps5_sub hostOps5_fresh (W15 m)),
    .region (reg5 m) ]

/-- @main IS the run of the segments: the program's chain of items, then the segments' run against that chain by
    definitional unfolding. -/
theorem main_run (c : Dev nD) : main (F := F) c = Pipeline.Seg.run (segs m) := (main_chain c).trans (by chain_rfl)

set_option backward.isDefEq.respectTransparency.types false in
/-- Every weakly fair execution of @main from memory m with zero counters terminates, nothing faulting, and every
    final state holds each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c => h c)

/-- The frame: every argument array ends as launched (no item of @main writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c => ⟨(h c _ (mem_uc main_arg0 (by decide))).trans (W17_unwritten m c main_arg0 (by decide) (by decide) (by decide) (by decide) (by decide) (by decide) (by decide) (by decide) (by decide) (by decide) (by decide) (by decide)),
    (h c _ (mem_uc main_arg1 (by decide))).trans (W17_unwritten m c main_arg1 (by decide) (by decide) (by decide) (by decide) (by decide) (by decide) (by decide) (by decide) (by decide) (by decide) (by decide) (by decide)),
    (h c _ (mem_uc main_arg2 (by decide))).trans (W17_unwritten m c main_arg2 (by decide) (by decide) (by decide) (by decide) (by decide) (by decide) (by decide) (by decide) (by decide) (by decide) (by decide) (by decide)),
    (h c _ (mem_uc main_arg3 (by decide))).trans (W17_unwritten m c main_arg3 (by decide) (by decide) (by decide) (by decide) (by decide) (by decide) (by decide) (by decide) (by decide) (by decide) (by decide) (by decide)),
    (h c _ (mem_uc main_arg4 (by decide))).trans (W17_unwritten m c main_arg4 (by decide) (by decide) (by decide) (by decide) (by decide) (by decide) (by decide) (by decide) (by decide) (by decide) (by decide) (by decide)),
    (h c _ (mem_uc main_arg5 (by decide))).trans (W17_unwritten m c main_arg5 (by decide) (by decide) (by decide) (by decide) (by decide) (by decide) (by decide) (by decide) (by decide) (by decide) (by decide) (by decide)),
    (h c _ (mem_uc main_arg6 (by decide))).trans (W17_unwritten m c main_arg6 (by decide) (by decide) (by decide) (by decide) (by decide) (by decide) (by decide) (by decide) (by decide) (by decide) (by decide) (by decide)),
    (h c _ (mem_uc main_arg7 (by decide))).trans (W17_unwritten m c main_arg7 (by decide) (by decide) (by decide) (by decide) (by decide) (by decide) (by decide) (by decide) (by decide) (by decide) (by decide) (by decide)),
    (h c _ (mem_uc main_arg8 (by decide))).trans (W17_unwritten m c main_arg8 (by decide) (by decide) (by decide) (by decide) (by decide) (by decide) (by decide) (by decide) (by decide) (by decide) (by decide) (by decide)),
    (h c _ (mem_uc main_arg9 (by decide))).trans (W17_unwritten m c main_arg9 (by decide) (by decide) (by decide) (by decide) (by decide) (by decide) (by decide) (by decide) (by decide) (by decide) (by decide) (by decide)),
    (h c _ (mem_uc main_arg10 (by decide))).trans (W17_unwritten m c main_arg10 (by decide) (by decide) (by decide) (by decide) (by decide) (by decide) (by decide) (by decide) (by decide) (by decide) (by decide) (by decide)),
    (h c _ (mem_uc main_arg11 (by decide))).trans (W17_unwritten m c main_arg11 (by decide) (by decide) (by decide) (by decide) (by decide) (by decide) (by decide) (by decide) (by decide) (by decide) (by decide) (by decide)),
    (h c _ (mem_uc main_arg12 (by decide))).trans (W17_unwritten m c main_arg12 (by decide) (by decide) (by decide) (by decide) (by decide) (by decide) (by decide) (by decide) (by decide) (by decide) (by decide) (by decide)),
    (h c _ (mem_uc main_arg13 (by decide))).trans (W17_unwritten m c main_arg13 (by decide) (by decide) (by decide) (by decide) (by decide) (by decide) (by decide) (by decide) (by decide) (by decide) (by decide) (by decide)),
    (h c _ (mem_uc main_arg14 (by decide))).trans (W17_unwritten m c main_arg14 (by decide) (by decide) (by decide) (by decide) (by decide) (by decide) (by decide) (by decide) (by decide) (by decide) (by decide) (by decide)),
    (h c _ (mem_uc main_arg15 (by decide))).trans (W17_unwritten m c main_arg15 (by decide) (by decide) (by decide) (by decide) (by decide) (by decide) (by decide) (by decide) (by decide) (by decide) (by decide) (by decide)),
    (h c _ (mem_uc main_arg16 (by decide))).trans (W17_unwritten m c main_arg16 (by decide) (by decide) (by decide) (by decide) (by decide) (by decide) (by decide) (by decide) (by decide) (by decide) (by decide) (by decide)),
    (h c _ (mem_uc main_arg17 (by decide))).trans (W17_unwritten m c main_arg17 (by decide) (by decide) (by decide) (by decide) (by decide) (by decide) (by decide) (by decide) (by decide) (by decide) (by decide) (by decide)),
    (h c _ (mem_uc main_arg18 (by decide))).trans (W17_unwritten m c main_arg18 (by decide) (by decide) (by decide) (by decide) (by decide) (by decide) (by decide) (by decide) (by decide) (by decide) (by decide) (by decide)),
    (h c _ (mem_uc main_arg19 (by decide))).trans (W17_unwritten m c main_arg19 (by decide) (by decide) (by decide) (by decide) (by decide) (by decide) (by decide) (by decide) (by decide) (by decide) (by decide) (by decide)),
    (h c _ (mem_uc main_arg20 (by decide))).trans (W17_unwritten m c main_arg20 (by decide) (by decide) (by decide) (by decide) (by decide) (by decide) (by decide) (by decide) (by decide) (by decide) (by decide) (by decide)),
    (h c _ (mem_uc main_arg21 (by decide))).trans (W17_unwritten m c main_arg21 (by decide) (by decide) (by decide) (by decide) (by decide) (by decide) (by decide) (by decide) (by decide) (by decide) (by decide) (by decide)),
    (h c _ (mem_uc main_arg22 (by decide))).trans (W17_unwritten m c main_arg22 (by decide) (by decide) (by decide) (by decide) (by decide) (by decide) (by decide) (by decide) (by decide) (by decide) (by decide) (by decide)),
    (h c _ (mem_uc main_arg23 (by decide))).trans (W17_unwritten m c main_arg23 (by decide) (by decide) (by decide) (by decide) (by decide) (by decide) (by decide) (by decide) (by decide) (by decide) (by decide) (by decide)),
    (h c _ (mem_uc main_arg24 (by decide))).trans (W17_unwritten m c main_arg24 (by decide) (by decide) (by decide) (by decide) (by decide) (by decide) (by decide) (by decide) (by decide) (by decide) (by decide) (by decide)),
    (h c _ (mem_uc main_arg25 (by decide))).trans (W17_unwritten m c main_arg25 (by decide) (by decide) (by decide) (by decide) (by decide) (by decide) (by decide) (by decide) (by decide) (by decide) (by decide) (by decide)),
    (h c _ (mem_uc main_arg26 (by decide))).trans (W17_unwritten m c main_arg26 (by decide) (by decide) (by decide) (by decide) (by decide) (by decide) (by decide) (by decide) (by decide) (by decide) (by decide) (by decide)),
    (h c _ (mem_uc main_arg27 (by decide))).trans (W17_unwritten m c main_arg27 (by decide) (by decide) (by decide) (by decide) (by decide) (by decide) (by decide) (by decide) (by decide) (by decide) (by decide) (by decide)),
    (h c _ (mem_uc main_arg28 (by decide))).trans (W17_unwritten m c main_arg28 (by decide) (by decide) (by decide) (by decide) (by decide) (by decide) (by decide) (by decide) (by decide) (by decide) (by decide) (by decide)),
    (h c _ (mem_uc main_arg29 (by decide))).trans (W17_unwritten m c main_arg29 (by decide) (by decide) (by decide) (by decide) (by decide) (by decide) (by decide) (by decide) (by decide) (by decide) (by decide) (by decide)),
    (h c _ (mem_uc main_arg30 (by decide))).trans (W17_unwritten m c main_arg30 (by decide) (by decide) (by decide) (by decide) (by decide) (by decide) (by decide) (by decide) (by decide) (by decide) (by decide) (by decide)),
    (h c _ (mem_uc main_arg31 (by decide))).trans (W17_unwritten m c main_arg31 (by decide) (by decide) (by decide) (by decide) (by decide) (by decide) (by decide) (by decide) (by decide) (by decide) (by decide) (by decide)),
    (h c _ (mem_uc main_arg32 (by decide))).trans (W17_unwritten m c main_arg32 (by decide) (by decide) (by decide) (by decide) (by decide) (by decide) (by decide) (by decide) (by decide) (by decide) (by decide) (by decide)),
    (h c _ (mem_uc main_arg33 (by decide))).trans (W17_unwritten m c main_arg33 (by decide) (by decide) (by decide) (by decide) (by decide) (by decide) (by decide) (by decide) (by decide) (by decide) (by decide) (by decide)),
    (h c _ (mem_uc main_arg34 (by decide))).trans (W17_unwritten m c main_arg34 (by decide) (by decide) (by decide) (by decide) (by decide) (by decide) (by decide) (by decide) (by decide) (by decide) (by decide) (by decide)),
    (h c _ (mem_uc main_arg35 (by decide))).trans (W17_unwritten m c main_arg35 (by decide) (by decide) (by decide) (by decide) (by decide) (by decide) (by decide) (by decide) (by decide) (by decide) (by decide) (by decide)),
    (h c _ (mem_uc main_arg36 (by decide))).trans (W17_unwritten m c main_arg36 (by decide) (by decide) (by decide) (by decide) (by decide) (by decide) (by decide) (by decide) (by decide) (by decide) (by decide) (by decide))⟩) (run_all m ρ)

/-- The run with its three results named: each result array ends at the last boundary's contents, the arguments as launched. -/
theorem run_results : θ_run defs (onTc (τ := τ) (main (F := F))) ⟨m, fun _ => 0, ρ⟩ (fun r => ∀ c : Dev nD,
      r.2.mem ((c.tc : Thread nD τ).loc main_v39_1) = W17 m c main_v39_1
      ∧ r.2.mem ((c.tc : Thread nD τ).loc main_v19_1) = W17 m c main_v19_1
      ∧ r.2.mem ((c.tc : Thread nD τ).loc main_v70_1) = W17 m c main_v70_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c => ⟨h c _ (mem_uc main_v39_1 (by decide)), h c _ (mem_uc main_v19_1 (by decide)), h c _ (mem_uc main_v70_1 (by decide)),
    (h c _ (mem_uc main_arg0 (by decide))).trans (W17_unwritten m c main_arg0 (by decide) (by decide) (by decide) (by decide) (by decide) (by decide) (by decide) (by decide) (by decide) (by decide) (by decide) (by decide)),
    (h c _ (mem_uc main_arg1 (by decide))).trans (W17_unwritten m c main_arg1 (by decide) (by decide) (by decide) (by decide) (by decide) (by decide) (by decide) (by decide) (by decide) (by decide) (by decide) (by decide)),
    (h c _ (mem_uc main_arg2 (by decide))).trans (W17_unwritten m c main_arg2 (by decide) (by decide) (by decide) (by decide) (by decide) (by decide) (by decide) (by decide) (by decide) (by decide) (by decide) (by decide)),
    (h c _ (mem_uc main_arg3 (by decide))).trans (W17_unwritten m c main_arg3 (by decide) (by decide) (by decide) (by decide) (by decide) (by decide) (by decide) (by decide) (by decide) (by decide) (by decide) (by decide)),
    (h c _ (mem_uc main_arg4 (by decide))).trans (W17_unwritten m c main_arg4 (by decide) (by decide) (by decide) (by decide) (by decide) (by decide) (by decide) (by decide) (by decide) (by decide) (by decide) (by decide)),
    (h c _ (mem_uc main_arg5 (by decide))).trans (W17_unwritten m c main_arg5 (by decide) (by decide) (by decide) (by decide) (by decide) (by decide) (by decide) (by decide) (by decide) (by decide) (by decide) (by decide)),
    (h c _ (mem_uc main_arg6 (by decide))).trans (W17_unwritten m c main_arg6 (by decide) (by decide) (by decide) (by decide) (by decide) (by decide) (by decide) (by decide) (by decide) (by decide) (by decide) (by decide)),
    (h c _ (mem_uc main_arg7 (by decide))).trans (W17_unwritten m c main_arg7 (by decide) (by decide) (by decide) (by decide) (by decide) (by decide) (by decide) (by decide) (by decide) (by decide) (by decide) (by decide)),
    (h c _ (mem_uc main_arg8 (by decide))).trans (W17_unwritten m c main_arg8 (by decide) (by decide) (by decide) (by decide) (by decide) (by decide) (by decide) (by decide) (by decide) (by decide) (by decide) (by decide)),
    (h c _ (mem_uc main_arg9 (by decide))).trans (W17_unwritten m c main_arg9 (by decide) (by decide) (by decide) (by decide) (by decide) (by decide) (by decide) (by decide) (by decide) (by decide) (by decide) (by decide)),
    (h c _ (mem_uc main_arg10 (by decide))).trans (W17_unwritten m c main_arg10 (by decide) (by decide) (by decide) (by decide) (by decide) (by decide) (by decide) (by decide) (by decide) (by decide) (by decide) (by decide)),
    (h c _ (mem_uc main_arg11 (by decide))).trans (W17_unwritten m c main_arg11 (by decide) (by decide) (by decide) (by decide) (by decide) (by decide) (by decide) (by decide) (by decide) (by decide) (by decide) (by decide)),
    (h c _ (mem_uc main_arg12 (by decide))).trans (W17_unwritten m c main_arg12 (by decide) (by decide) (by decide) (by decide) (by decide) (by decide) (by decide) (by decide) (by decide) (by decide) (by decide) (by decide)),
    (h c _ (mem_uc main_arg13 (by decide))).trans (W17_unwritten m c main_arg13 (by decide) (by decide) (by decide) (by decide) (by decide) (by decide) (by decide) (by decide) (by decide) (by decide) (by decide) (by decide)),
    (h c _ (mem_uc main_arg14 (by decide))).trans (W17_unwritten m c main_arg14 (by decide) (by decide) (by decide) (by decide) (by decide) (by decide) (by decide) (by decide) (by decide) (by decide) (by decide) (by decide)),
    (h c _ (mem_uc main_arg15 (by decide))).trans (W17_unwritten m c main_arg15 (by decide) (by decide) (by decide) (by decide) (by decide) (by decide) (by decide) (by decide) (by decide) (by decide) (by decide) (by decide)),
    (h c _ (mem_uc main_arg16 (by decide))).trans (W17_unwritten m c main_arg16 (by decide) (by decide) (by decide) (by decide) (by decide) (by decide) (by decide) (by decide) (by decide) (by decide) (by decide) (by decide)),
    (h c _ (mem_uc main_arg17 (by decide))).trans (W17_unwritten m c main_arg17 (by decide) (by decide) (by decide) (by decide) (by decide) (by decide) (by decide) (by decide) (by decide) (by decide) (by decide) (by decide)),
    (h c _ (mem_uc main_arg18 (by decide))).trans (W17_unwritten m c main_arg18 (by decide) (by decide) (by decide) (by decide) (by decide) (by decide) (by decide) (by decide) (by decide) (by decide) (by decide) (by decide)),
    (h c _ (mem_uc main_arg19 (by decide))).trans (W17_unwritten m c main_arg19 (by decide) (by decide) (by decide) (by decide) (by decide) (by decide) (by decide) (by decide) (by decide) (by decide) (by decide) (by decide)),
    (h c _ (mem_uc main_arg20 (by decide))).trans (W17_unwritten m c main_arg20 (by decide) (by decide) (by decide) (by decide) (by decide) (by decide) (by decide) (by decide) (by decide) (by decide) (by decide) (by decide)),
    (h c _ (mem_uc main_arg21 (by decide))).trans (W17_unwritten m c main_arg21 (by decide) (by decide) (by decide) (by decide) (by decide) (by decide) (by decide) (by decide) (by decide) (by decide) (by decide) (by decide)),
    (h c _ (mem_uc main_arg22 (by decide))).trans (W17_unwritten m c main_arg22 (by decide) (by decide) (by decide) (by decide) (by decide) (by decide) (by decide) (by decide) (by decide) (by decide) (by decide) (by decide)),
    (h c _ (mem_uc main_arg23 (by decide))).trans (W17_unwritten m c main_arg23 (by decide) (by decide) (by decide) (by decide) (by decide) (by decide) (by decide) (by decide) (by decide) (by decide) (by decide) (by decide)),
    (h c _ (mem_uc main_arg24 (by decide))).trans (W17_unwritten m c main_arg24 (by decide) (by decide) (by decide) (by decide) (by decide) (by decide) (by decide) (by decide) (by decide) (by decide) (by decide) (by decide)),
    (h c _ (mem_uc main_arg25 (by decide))).trans (W17_unwritten m c main_arg25 (by decide) (by decide) (by decide) (by decide) (by decide) (by decide) (by decide) (by decide) (by decide) (by decide) (by decide) (by decide)),
    (h c _ (mem_uc main_arg26 (by decide))).trans (W17_unwritten m c main_arg26 (by decide) (by decide) (by decide) (by decide) (by decide) (by decide) (by decide) (by decide) (by decide) (by decide) (by decide) (by decide)),
    (h c _ (mem_uc main_arg27 (by decide))).trans (W17_unwritten m c main_arg27 (by decide) (by decide) (by decide) (by decide) (by decide) (by decide) (by decide) (by decide) (by decide) (by decide) (by decide) (by decide)),
    (h c _ (mem_uc main_arg28 (by decide))).trans (W17_unwritten m c main_arg28 (by decide) (by decide) (by decide) (by decide) (by decide) (by decide) (by decide) (by decide) (by decide) (by decide) (by decide) (by decide)),
    (h c _ (mem_uc main_arg29 (by decide))).trans (W17_unwritten m c main_arg29 (by decide) (by decide) (by decide) (by decide) (by decide) (by decide) (by decide) (by decide) (by decide) (by decide) (by decide) (by decide)),
    (h c _ (mem_uc main_arg30 (by decide))).trans (W17_unwritten m c main_arg30 (by decide) (by decide) (by decide) (by decide) (by decide) (by decide) (by decide) (by decide) (by decide) (by decide) (by decide) (by decide)),
    (h c _ (mem_uc main_arg31 (by decide))).trans (W17_unwritten m c main_arg31 (by decide) (by decide) (by decide) (by decide) (by decide) (by decide) (by decide) (by decide) (by decide) (by decide) (by decide) (by decide)),
    (h c _ (mem_uc main_arg32 (by decide))).trans (W17_unwritten m c main_arg32 (by decide) (by decide) (by decide) (by decide) (by decide) (by decide) (by decide) (by decide) (by decide) (by decide) (by decide) (by decide)),
    (h c _ (mem_uc main_arg33 (by decide))).trans (W17_unwritten m c main_arg33 (by decide) (by decide) (by decide) (by decide) (by decide) (by decide) (by decide) (by decide) (by decide) (by decide) (by decide) (by decide)),
    (h c _ (mem_uc main_arg34 (by decide))).trans (W17_unwritten m c main_arg34 (by decide) (by decide) (by decide) (by decide) (by decide) (by decide) (by decide) (by decide) (by decide) (by decide) (by decide) (by decide)),
    (h c _ (mem_uc main_arg35 (by decide))).trans (W17_unwritten m c main_arg35 (by decide) (by decide) (by decide) (by decide) (by decide) (by decide) (by decide) (by decide) (by decide) (by decide) (by decide) (by decide)),
    (h c _ (mem_uc main_arg36 (by decide))).trans (W17_unwritten m c main_arg36 (by decide) (by decide) (by decide) (by decide) (by decide) (by decide) (by decide) (by decide) (by decide) (by decide) (by decide) (by decide))⟩) (run_all m ρ)

end Cert.KernelIdeal.Frame

end
-- ==== Proof.SpecMlp.lean ====
/-
  The perceptron blocks of the graph-network layer, as plain functions on families of extended reals
  indexed by row and column. One dense layer is "rows of x times w, plus the bias row"; relu is the
  maximum with zero; the two-layer block is relu ∘ dense ∘ relu ∘ dense. The three-layer update blocks
  take their first layer over several row families side by side (the concatenated input is never formed):
  the sum of the partial products, in the order the kernel adds them, plus the bias. The residual output
  adds the block's input-side value back. Both programs are read against these functions.
-/
import Mathlib.Data.EReal.Operations
import Mathlib.Algebra.BigOperators.Fin

noncomputable section

namespace Cert.Spec

open BigOperators

variable {n K K' d : ℕ}

/-- One dense layer: entry (r, j) is the sum over k of x r k · w k j, plus b j. -/
def lin (x : Fin n → Fin K → EReal) (w : Fin K → Fin d → EReal) (b : Fin d → EReal) : Fin n → Fin d → EReal :=
  fun r j => (∑ k : Fin K, x r k * w k j) + b j

/-- The maximum with zero, entry by entry. -/
def relu (z : Fin n → Fin d → EReal) : Fin n → Fin d → EReal := fun r j => max (z r j) 0

/-- The two-layer block. -/
def mlp2 (x : Fin n → Fin K → EReal) (w1 : Fin K → Fin K' → EReal) (b1 : Fin K' → EReal)
    (w2 : Fin K' → Fin d → EReal) (b2 : Fin d → EReal) : Fin n → Fin d → EReal :=
  relu (lin (relu (lin x w1 b1)) w2 b2)

/-- A first layer over three row families: the partial products summed left to right, plus the bias. -/
def lin3 (x0 x1 x2 : Fin n → Fin K → EReal) (w0 w1 w2 : Fin K → Fin d → EReal) (b : Fin d → EReal) :
    Fin n → Fin d → EReal :=
  fun r j => (((∑ k : Fin K, x0 r k * w0 k j) + (∑ k : Fin K, x1 r k * w1 k j)) + (∑ k : Fin K, x2 r k * w2 k j)) + b j

/-- A first layer over four row families. -/
def lin4 (x0 x1 x2 x3 : Fin n → Fin K → EReal) (w0 w1 w2 w3 : Fin K → Fin d → EReal) (b : Fin d → EReal) :
    Fin n → Fin d → EReal :=
  fun r j => ((((∑ k : Fin K, x0 r k * w0 k j) + (∑ k : Fin K, x1 r k * w1 k j)) + (∑ k : Fin K, x2 r k * w2 k j))
    + (∑ k : Fin K, x3 r k * w3 k j)) + b j

/-- The two upper layers of an update block, from the first layer's value before its relu. -/
def upper (h1 : Fin n → Fin K → EReal) (w2 : Fin K → Fin K' → EReal) (b2 : Fin K' → EReal)
    (w3 : Fin K' → Fin d → EReal) (b3 : Fin d → EReal) : Fin n → Fin d → EReal :=
  relu (lin (relu (lin (relu h1) w2 b2)) w3 b3)

/-- The residual output: the block's value plus what it is added back to. -/
def plus (z init : Fin n → Fin d → EReal) : Fin n → Fin d → EReal := fun r j => z r j + init r j

/-- A sum over the first K₁ + K₂ indices splits at K₁. -/
theorem sum_split (K₁ K₂ : ℕ) (f : Fin (K₁ + K₂) → EReal) :
    (∑ k : Fin (K₁ + K₂), f k) = (∑ k : Fin K₁, f (Fin.castAdd K₂ k)) + ∑ k : Fin K₂, f (Fin.natAdd K₁ k) :=
  Fin.sum_univ_add f

end Cert.Spec

end
-- ==== Proof.SpecIdx.lean ====
/-
  Reading a rank-2 or rank-1 array of the idealized programs as a family indexed by row and column:
  the form the perceptron blocks of the specification take their operands in.
-/
import proofs.«424920_j53549652246920_2_alg».proof.Proof.SpecMlp
import Idealize.ShloMosaic.PureOps.Ideal
import Idealize.ShloMosaic.Lib.ValueIdx

noncomputable section

namespace Cert.Spec

open Idealize.ShloMosaic Idealize.ShloMosaic.ValueIdx

/-- A rank-2 array as a family over (row, column). -/
def tab2 {n K : ℕ} (A : Vec Ideal (⟨2, ![n, K]⟩ : Shape) .f32) : Fin n → Fin K → EReal := fun r k => A (ix2 r k)

/-- A rank-1 array as a family over its one coordinate. -/
def tab1 {d : ℕ} (b : Vec Ideal (⟨1, ![d]⟩ : Shape) .f32) : Fin d → EReal := fun j => b (ix1 j)

/-- A one-row rank-2 array as a family over its columns. -/
def row0 {d : ℕ} (b : Vec Ideal (⟨2, ![1, d]⟩ : Shape) .f32) : Fin d → EReal := fun j => b (ix2 0 j)

/-- A family over (row, column) as a rank-2 array. -/
def arr2 {n d : ℕ} (f : Fin n → Fin d → EReal) : Vec Ideal (⟨2, ![n, d]⟩ : Shape) .f32 := fun i => f (i 0) (i 1)

theorem tab2_arr2 {n d : ℕ} (f : Fin n → Fin d → EReal) : tab2 (arr2 f) = f := rfl

theorem arr2_tab2 {n d : ℕ} (A : Vec Ideal (⟨2, ![n, d]⟩ : Shape) .f32) : arr2 (tab2 A) = A := by
  funext i; exact congrArg A (eq_ix2 i).symm

/-- Rows K₁ … K₁ + K₂ - 1 of a weight table, as a table of their own (a slice of the first layer's weight). -/
def rowsFrom {K₂ d : ℕ} (K₁ : ℕ) {Kt : ℕ} (h : K₁ + K₂ ≤ Kt) (w : Fin Kt → Fin d → EReal) : Fin K₂ → Fin d → EReal :=
  fun k j => w ⟨K₁ + k.val, Nat.lt_of_lt_of_le (Nat.add_lt_add_left k.isLt K₁) h⟩ j

end Cert.Spec

end
-- ==== Proof.SpecBlock.lean ====
/-
  The whole graph-network block as ONE function of its argument arrays, at the extended reals.
  Sites, bonds and graph states first go through their two-layer blocks. A bond's update reads its two
  endpoint sites and its graph's state (rows gathered at the wrapped index), its own features, and applies
  the three-layer block; the new bonds are averaged onto their first endpoint (a scattered sum divided by
  the scattered count, at least one), and a site's update reads that pool, the site and its graph's state;
  the new bonds and new sites are averaged per graph, and a state's update reads the two pools and the
  state. Each result adds the two-layer value back. The gathers, scattered sums and the quotient are the
  host's own operations, spelt as both printed programs spell them.
-/
import proofs.«424920_j53549652246920_2_alg».proof.Proof.Gen.KernelIdeal
import proofs.«424920_j53549652246920_2_alg».proof.Proof.SpecIdx

noncomputable section

namespace Cert.Block

open Cert.KernelIdeal Cert.KernelIdeal.Facts₀ Cert.KernelIdeal.Facts Idealize.ShloMosaic Cert.Spec

/-- The argument arrays, in the order of @main's parameters. -/
structure Args where
  x0 : Vec Ideal S100000x64 .f32
  x1 : Vec Ideal S800000x64 .f32
  x2 : Vec Ideal S1000x64 .f32
  x3 : Vec Ideal S64x64 .f32
  x4 : Vec Ideal S64 .f32
  x5 : Vec Ideal S64x64 .f32
  x6 : Vec Ideal S64 .f32
  x7 : Vec Ideal S64x64 .f32
  x8 : Vec Ideal S64 .f32
  x9 : Vec Ideal S64x64 .f32
  x10 : Vec Ideal S64 .f32
  x11 : Vec Ideal S64x64 .f32
  x12 : Vec Ideal S64 .f32
  x13 : Vec Ideal S64x64 .f32
  x14 : Vec Ideal S64 .f32
  x15 : Vec Ideal S256x64 .f32
  x16 : Vec Ideal S64 .f32
  x17 : Vec Ideal S64x32 .f32
  x18 : Vec Ideal S32 .f32
  x19 : Vec Ideal S32x64 .f32
  x20 : Vec Ideal S64 .f32
  x21 : Vec Ideal S192x64 .f32
  x22 : Vec Ideal S64 .f32
  x23 : Vec Ideal S64x32 .f32
  x24 : Vec Ideal S32 .f32
  x25 : Vec Ideal S32x64 .f32
  x26 : Vec Ideal S64 .f32
  x27 : Vec Ideal S192x64 .f32
  x28 : Vec Ideal S64 .f32
  x29 : Vec Ideal S64x32 .f32
  x30 : Vec Ideal S32 .f32
  x31 : Vec Ideal S32x64 .f32
  x32 : Vec Ideal S64 .f32
  x33 : IVec S800000 32
  x34 : IVec S800000 32
  x35 : IVec S100000 32
  x36 : IVec S800000 32

variable (a : Args)

/-- The two-layer blocks. -/
def sitesP : Vec Ideal S100000x64 .f32 := arr2 (mlp2 (tab2 a.x0) (tab2 a.x3) (tab1 a.x4) (tab2 a.x5) (tab1 a.x6))
def bondsP : Vec Ideal S800000x64 .f32 := arr2 (mlp2 (tab2 a.x1) (tab2 a.x7) (tab1 a.x8) (tab2 a.x9) (tab1 a.x10))
def statesP : Vec Ideal S1000x64 .f32 := arr2 (mlp2 (tab2 a.x2) (tab2 a.x11) (tab1 a.x12) (tab2 a.x13) (tab1 a.x14))

/-- An index vector with negative entries wrapped by the table's row count N, as a column of start indices. -/
def wrapBonds (N : BitVec 32) (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 N))) idx)
def wrapSites (N : BitVec 32) (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 N))) idx)

/-- Each bond's two endpoint sites and its graph's state. -/
def end1 : Vec Ideal S800000x64 .f32 := Host.gather gather_S100000x64_S800000x1_S800000x64_1_0_n_n_0_1_164 (sitesP a) (wrapBonds 100000#32 a.x33)
def end2 : Vec Ideal S800000x64 .f32 := Host.gather gather_S100000x64_S800000x1_S800000x64_1_0_n_n_0_1_164 (sitesP a) (wrapBonds 100000#32 a.x34)
def stateOfBond : Vec Ideal S800000x64 .f32 := Host.gather gather_S1000x64_S800000x1_S800000x64_1_0_n_n_0_1_164 (statesP a) (wrapBonds 1000#32 a.x36)

/-- The bond update and its residual output. -/
def bondsNew : Vec Ideal S800000x64 .f32 :=
  arr2 (upper (lin4 (tab2 (end1 a)) (tab2 (end2 a)) (tab2 (bondsP a)) (tab2 (stateOfBond a))
      (rowsFrom 0 (by decide) (tab2 a.x15)) (rowsFrom 64 (by decide) (tab2 a.x15)) (rowsFrom 128 (by decide) (tab2 a.x15)) (rowsFrom 192 (by decide) (tab2 a.x15)) (tab1 a.x16))
    (tab2 a.x17) (tab1 a.x18) (tab2 a.x19) (tab1 a.x20))
def bondsFinal : Vec Ideal S800000x64 .f32 := arr2 (plus (tab2 (bondsNew a)) (tab2 (bondsP a)))

/-- The new bonds averaged onto their first endpoint: the scattered sum over the scattered count, at least one. -/
def bondsAtSite : Vec Ideal S100000x64 .f32 :=
  Host.divf (F := Ideal)
    (Host.scatterAdd (F := Ideal) scatter_S100000x64_S800000x1_S800000x64_1_0_0_1 (broadcastInDim S100000x64 ![] bcast_S_S100000x64 (constant (F := Ideal) S_ .f32 0x00000000#32))
      (broadcastInDim S800000x1 ![0] bcast_S800000_S800000x1_0 a.x33) (bondsNew a))
    (broadcastInDim S100000x64 ![0, 1] bcast_S100000x1_S100000x64_0_1 (broadcastInDim S100000x1 ![0] bcast_S100000_S100000x1_0
      (maximumf (F := Ideal)
        (Host.scatterAdd (F := Ideal) scatter_S100000_S800000x1_S800000_n_0_0_1 (broadcastInDim S100000 ![] bcast_S_S100000 (constant (F := Ideal) S_ .f32 0x00000000#32))
          (broadcastInDim S800000x1 ![0] bcast_S800000_S800000x1_0 a.x33) (broadcastInDim S800000 ![] bcast_S_S800000 (constant (F := Ideal) S_ .f32 0x3F800000#32)))
        (broadcastInDim S100000 ![] bcast_S_S100000 (constant (F := Ideal) S_ .f32 0x3F800000#32)))))

/-- Each site's graph's state. -/
def stateOfSite : Vec Ideal S100000x64 .f32 := Host.gather gather_S1000x64_S100000x1_S100000x64_1_0_n_n_0_1_164 (statesP a) (wrapSites 1000#32 a.x35)

/-- The site update and its residual output. -/
def sitesNew : Vec Ideal S100000x64 .f32 :=
  arr2 (upper (lin3 (tab2 (bondsAtSite a)) (tab2 (sitesP a)) (tab2 (stateOfSite a))
      (rowsFrom 0 (by decide) (tab2 a.x21)) (rowsFrom 64 (by decide) (tab2 a.x21)) (rowsFrom 128 (by decide) (tab2 a.x21)) (tab1 a.x22))
    (tab2 a.x23) (tab1 a.x24) (tab2 a.x25) (tab1 a.x26))
def sitesFinal : Vec Ideal S100000x64 .f32 := arr2 (plus (tab2 (sitesNew a)) (tab2 (sitesP a)))

/-- The new bonds and the new sites averaged per graph. -/
def bondsAtGraph : Vec Ideal S1000x64 .f32 :=
  Host.divf (F := Ideal)
    (Host.scatterAdd (F := Ideal) scatter_S1000x64_S800000x1_S800000x64_1_0_0_1 (broadcastInDim S1000x64 ![] bcast_S_S1000x64 (constant (F := Ideal) S_ .f32 0x00000000#32))
      (broadcastInDim S800000x1 ![0] bcast_S800000_S800000x1_0 a.x36) (bondsNew a))
    (broadcastInDim S1000x64 ![0, 1] bcast_S1000x1_S1000x64_0_1 (broadcastInDim S1000x1 ![0] bcast_S1000_S1000x1_0
      (maximumf (F := Ideal)
        (Host.scatterAdd (F := Ideal) scatter_S1000_S800000x1_S800000_n_0_0_1 (broadcastInDim S1000 ![] bcast_S_S1000 (constant (F := Ideal) S_ .f32 0x00000000#32))
          (broadcastInDim S800000x1 ![0] bcast_S800000_S800000x1_0 a.x36) (broadcastInDim S800000 ![] bcast_S_S800000 (constant (F := Ideal) S_ .f32 0x3F800000#32)))
        (broadcastInDim S1000 ![] bcast_S_S1000 (constant (F := Ideal) S_ .f32 0x3F800000#32)))))
def sitesAtGraph : Vec Ideal S1000x64 .f32 :=
  Host.divf (F := Ideal)
    (Host.scatterAdd (F := Ideal) scatter_S1000x64_S100000x1_S100000x64_1_0_0_1 (broadcastInDim S1000x64 ![] bcast_S_S1000x64 (constant (F := Ideal) S_ .f32 0x00000000#32))
      (broadcastInDim S100000x1 ![0] bcast_S100000_S100000x1_0 a.x35) (sitesNew a))
    (broadcastInDim S1000x64 ![0, 1] bcast_S1000x1_S1000x64_0_1 (broadcastInDim S1000x1 ![0] bcast_S1000_S1000x1_0
      (maximumf (F := Ideal)
        (Host.scatterAdd (F := Ideal) scatter_S1000_S100000x1_S100000_n_0_0_1 (broadcastInDim S1000 ![] bcast_S_S1000 (constant (F := Ideal) S_ .f32 0x00000000#32))
          (broadcastInDim S100000x1 ![0] bcast_S100000_S100000x1_0 a.x35) (broadcastInDim S100000 ![] bcast_S_S100000 (constant (F := Ideal) S_ .f32 0x3F800000#32)))
        (broadcastInDim S1000 ![] bcast_S_S1000 (constant (F := Ideal) S_ .f32 0x3F800000#32)))))

/-- The state update and its residual output. -/
def statesNew : Vec Ideal S1000x64 .f32 :=
  arr2 (upper (lin3 (tab2 (bondsAtGraph a)) (tab2 (sitesAtGraph a)) (tab2 (statesP a))
      (rowsFrom 0 (by decide) (tab2 a.x27)) (rowsFrom 64 (by decide) (tab2 a.x27)) (rowsFrom 128 (by decide) (tab2 a.x27)) (tab1 a.x28))
    (tab2 a.x29) (tab1 a.x30) (tab2 a.x31) (tab1 a.x32))
def statesFinal : Vec Ideal S1000x64 .f32 := arr2 (plus (tab2 (statesNew a)) (tab2 (statesP a)))

end Cert.Block

end
-- ==== Proof.KiArgs.lean ====
/-
  The idealized kernel's argument arrays, read off a launch memory on core c, as the block's arguments.
-/
import proofs.«424920_j53549652246920_2_alg».proof.Proof.SpecBlock

noncomputable section

namespace Cert.KernelIdeal.Bridge

open Cert.KernelIdeal Idealize.ShloMosaic Idealize.ShloMosaic.TcCoe Idealize.SL.Sem

/-- The argument arrays of @main in the launch memory m on core c. -/
def argsOf (m : (ℓ : Loc nD τ sig) → Buf (Elt Ideal) ℓ) (c : Dev nD) : Cert.Block.Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)
  x26 := m ((c : Thread nD τ).loc main_arg26)
  x27 := m ((c : Thread nD τ).loc main_arg27)
  x28 := m ((c : Thread nD τ).loc main_arg28)
  x29 := m ((c : Thread nD τ).loc main_arg29)
  x30 := m ((c : Thread nD τ).loc main_arg30)
  x31 := m ((c : Thread nD τ).loc main_arg31)
  x32 := m ((c : Thread nD τ).loc main_arg32)
  x33 := m ((c : Thread nD τ).loc main_arg33)
  x34 := m ((c : Thread nD τ).loc main_arg34)
  x35 := m ((c : Thread nD τ).loc main_arg35)
  x36 := m ((c : Thread nD τ).loc main_arg36)

end Cert.KernelIdeal.Bridge

end
-- ==== Proof.KiVal0.lean ====
/-
  The value of region 0 of the idealized kernel at the extended reals: after its last grid point the output array holds
  the specification's two-layer perceptron block of the five arrays the region reads, as ONE whole-array function.

  The payload at an entry. A block is a family of rows; the body's payload is one layer applied twice, a layer being
  "narrow the operands (the identity on extended reals), multiply into a zero accumulator, add the bias row to every
  row, take the maximum with zero". The product at entry (r, j) is the sum over the 64 contraction coordinates k of
  x (r, k) · w (k, j): the contraction's index set is re-indexed by its one coordinate, and the operand indices are read
  axis by axis. So one layer at an entry is the specification's dense layer followed by its relu, and the payload the
  two-layer block of the five loaded blocks.

  From blocks to the array. At point t the first input's window and the output's window sit at block (t, 0), so row p
  of either block is row t · B + p of its array (B the block's row count); the weight and bias windows stay at block
  (0, 0), their whole arrays. The two-layer block reads its first operand one row at a time, so the payload of the blocks
  at point t, at entry (p, j), is the block of the whole arrays at entry (t · B + p, j): what point t writes back is block
  t of one whole-array function. Row r of the array lies in the block of point r / B, which is a point because the
  array's row count is B times the number of points; so the blocks cover the array and it ends holding that function.
-/
import proofs.«424920_j53549652246920_2_alg».proof.Proof.KiReg0
import proofs.«424920_j53549652246920_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

/-! ## The contraction's operand indices, axis by axis

Output entry (r, j) and contraction coordinate k read the left operand at (r, k) and the right one at (k, j). -/

theorem lhs0_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs0_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs0_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs0_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix product into a zero accumulator, at an entry: the sum over the 64 contraction coordinates of the
    products of the operands' entries, whatever the operands' formats. -/
theorem mm0_apply {φ₁ φ₂ : FTy} (x : FVec Ideal S5000x64 φ₁) (w : FVec Ideal S64x64 φ₂) (j : S5000x64.Idx) :
    matmul (F := Ideal) dot_S5000x64_S64x64_S5000x64_1_0_0_1_n_n none x w (constant (F := Ideal) S5000x64 .f32 0x00000000#32) j
      = ∑ k : Fin 64, x (ix2 (j 0) k) * w (ix2 k (j 1)) := by
  refine (Ideal.matmul_constant_zero_apply dot_S5000x64_S64x64_S5000x64_1_0_0_1_n_n none x w j).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = ix2 (j 0) k :=
    funext fun a => Fin.ext (by
      match a with
      | ⟨0, _⟩ => exact lhs0_row _ _
      | ⟨1, _⟩ => exact (lhs0_col _ _).trans hk)
  have er : dot_S5000x64_S64x64_S5000x64_1_0_0_1_n_n.rhsIdx j ((contrEquiv1 dot_S5000x64_S64x64_S5000x64_1_0_0_1_n_n 64 rfl rfl).symm k) = ix2 k (j 1) :=
    funext fun a => Fin.ext (by
      match a with
      | ⟨0, _⟩ => exact (rhs0_row _ _).trans hk
      | ⟨1, _⟩ => exact rhs0_col _ _)
  rw [el, er]
  rfl

/-! ## The payload: two layers, each "rows times weights, plus the bias row, maximum with zero" -/

/-- One layer of the payload as a function of whole blocks: the operands narrowed, multiplied into a zero accumulator,
    the bias row added to every row, the maximum with zero taken. -/
def layer0 {F : FTy → Type} [FloatOps F] (x : Vec F S5000x64 .f32) (w : Vec F S64x64 .f32) (b : Vec F S1x64 .f32) : FVec F S5000x64 .f32 :=
  maximumf
    (addf (matmul dot_S5000x64_S64x64_S5000x64_1_0_0_1_n_n none (truncf .bf16 x bitsLt_bf16_f32) (truncf .bf16 w bitsLt_bf16_f32) (constant S5000x64 .f32 0x00000000#32))
      (broadcastTo S5000x64 (shapeCast S1x64 b shapeCasts_S1x64_S1x64) broadcasts_S1x64_S5000x64))
    (broadcast S5000x64 (Scalar.ofBits .f32 0x00000000#32))

/-- The payload is the layer applied twice. -/
theorem pay0_eq_layers {F : FTy → Type} [FloatOps F] (x0 : Vec F S5000x64 .f32) (x1 : Vec F S64x64 .f32) (x2 : Vec F S1x64 .f32)
    (x3 : Vec F S64x64 .f32) (x4 : Vec F S1x64 .f32) :
    k0_pay1 x0 x1 x2 x3 x4 = layer0 (layer0 x0 x1 x2) x3 x4 := rfl

/-- The broadcast bias row at an entry is the row's entry in that column. -/
theorem bias0_apply (b : Vec Ideal S1x64 .f32) (j : S5000x64.Idx) :
    broadcastTo S5000x64 (shapeCast S1x64 b shapeCasts_S1x64_S1x64) broadcasts_S1x64_S5000x64 j = Cert.Spec.row0 b (j 1) := by
  rw [shapeCast_self]
  exact broadcastTo_apply b broadcasts_S1x64_S5000x64 j (ix2 0 (j 1)) (fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)])

/-- One layer at an entry, at the extended reals: the specification's dense layer followed by its relu. -/
theorem layer0_apply (x : Vec Ideal S5000x64 .f32) (w : Vec Ideal S64x64 .f32) (b : Vec Ideal S1x64 .f32) (j : S5000x64.Idx) :
    layer0 (F := Ideal) x w b j = Cert.Spec.relu (Cert.Spec.lin (Cert.Spec.tab2 x) (Cert.Spec.tab2 w) (Cert.Spec.row0 b)) (j 0) (j 1) := by
  unfold layer0
  show max (matmul (F := Ideal) dot_S5000x64_S64x64_S5000x64_1_0_0_1_n_n none (truncf .bf16 x bitsLt_bf16_f32) (truncf .bf16 w bitsLt_bf16_f32) (constant (F := Ideal) S5000x64 .f32 0x00000000#32) j
        + broadcastTo S5000x64 (shapeCast S1x64 b shapeCasts_S1x64_S1x64) broadcasts_S1x64_S5000x64 j) (Ideal.ofBits .f32 0x00000000#32)
      = max ((∑ k : Fin 64, Cert.Spec.tab2 x (j 0) k * Cert.Spec.tab2 w k (j 1)) + Cert.Spec.row0 b (j 1)) 0
  rw [mm0_apply, bias0_apply, Ideal.ofBits_zero_f32]
  rfl

/-- One layer as a whole block. -/
theorem layer0_eq (x : Vec Ideal S5000x64 .f32) (w : Vec Ideal S64x64 .f32) (b : Vec Ideal S1x64 .f32) :
    layer0 (F := Ideal) x w b = Cert.Spec.arr2 (Cert.Spec.relu (Cert.Spec.lin (Cert.Spec.tab2 x) (Cert.Spec.tab2 w) (Cert.Spec.row0 b))) :=
  funext fun j => layer0_apply x w b j

/-- THE PAYLOAD AT AN ENTRY: the specification's two-layer block of the five loaded blocks, at that row and column. -/
theorem kpay0_apply (x0 : Vec Ideal S5000x64 .f32) (x1 : Vec Ideal S64x64 .f32) (x2 : Vec Ideal S1x64 .f32)
    (x3 : Vec Ideal S64x64 .f32) (x4 : Vec Ideal S1x64 .f32) (j : S5000x64.Idx) :
    k0_pay1 (F := Ideal) x0 x1 x2 x3 x4 j
      = Cert.Spec.mlp2 (Cert.Spec.tab2 x0) (Cert.Spec.tab2 x1) (Cert.Spec.row0 x2) (Cert.Spec.tab2 x3) (Cert.Spec.row0 x4) (j 0) (j 1) := by
  rw [pay0_eq_layers, layer0_apply, layer0_eq, Cert.Spec.tab2_arr2]
  rfl

/-! ## The two-layer block reads its first operand one row at a time -/

/-- Two row families that agree on one row each give the block the same value on those rows. -/
theorem mlp2_row0 {n n' K K' d : ℕ} (x : Fin n → Fin K → EReal) (x' : Fin n' → Fin K → EReal) (w1 : Fin K → Fin K' → EReal)
    (b1 : Fin K' → EReal) (w2 : Fin K' → Fin d → EReal) (b2 : Fin d → EReal) (r : Fin n) (r' : Fin n')
    (h : ∀ k, x r k = x' r' k) (j : Fin d) :
    Cert.Spec.mlp2 x w1 b1 w2 b2 r j = Cert.Spec.mlp2 x' w1 b1 w2 b2 r' j := by
  unfold Cert.Spec.mlp2 Cert.Spec.relu Cert.Spec.lin
  simp only [h]

/-- The payload of a block whose row p is row r of a taller array, at an entry of that row: the specification's block
    of the taller array at row r. -/
theorem entry0_of_rows (x0 : Vec Ideal S5000x64 .f32) (A0 : Vec Ideal S100000x64 .f32) (x1 : Vec Ideal S64x64 .f32)
    (x2 : Vec Ideal S1x64 .f32) (x3 : Vec Ideal S64x64 .f32) (x4 : Vec Ideal S1x64 .f32) (y : S5000x64.Idx) (k : S100000x64.Idx)
    (hrow : ∀ q : Fin 64, x0 (ix2 (y 0) q) = A0 (ix2 (k 0) q)) (hcol : (k 1).val = (y 1).val) :
    k0_pay1 (F := Ideal) x0 x1 x2 x3 x4 y
      = Cert.Spec.arr2 (Cert.Spec.mlp2 (Cert.Spec.tab2 A0) (Cert.Spec.tab2 x1) (Cert.Spec.row0 x2) (Cert.Spec.tab2 x3) (Cert.Spec.row0 x4)) k := by
  rw [kpay0_apply]
  have e1 : (y 1 : Fin 64) = k 1 := Fin.ext hcol.symm
  show Cert.Spec.mlp2 _ _ _ _ _ (y 0) (y 1 : Fin 64) = Cert.Spec.mlp2 _ _ _ _ _ (k 0) (k 1 : Fin 64)
  rw [e1]
  exact mlp2_row0 _ _ _ _ _ _ (y 0) (k 0) hrow (k 1)

/-! ## The blocks a point reads and the block it writes back -/

variable (V : (c : Dev nD) → (b : Ref sig .tc) → Buf (Elt Ideal) ((c : Thread nD τ).loc b))

theorem hz0 : (![0, 0] : Fin 2 → Nat) = fun _ => 0 := funext fun a => by fin_cases a <;> rfl

/-- The body loads whole blocks and stores the whole output block once: what it leaves there is the payload of the
    five blocks. -/
theorem out0_eq_pay {F : FTy → Type} [FloatOps F] (x0 : Vec F S5000x64 .f32) (x1 : Vec F S64x64 .f32) (x2 : Vec F S1x64 .f32)
    (x3 : Vec F S64x64 .f32) (x4 : Vec F S1x64 .f32) : out0_5 x0 x1 x2 x3 x4 = k0_pay1 x0 x1 x2 x3 x4 := by
  unfold out0_5
  rw [View.canon_unit_zero hz0]
  simp only [View.ld_unit_zero (S := S5000x64) hz0, View.ld_unit_zero (S := S64x64) hz0, View.ld_unit_zero (S := S1x64) hz0]

/-- The index maps, decided over the grid: the row windows (the first input and the output) are at block (t, 0) at
    point t; the weight and bias windows stay at block (0, 0). -/
theorem idx0_facts : ∀ t : Fin cfg0.N,
    win0_0.index t (0 : Fin 2) = t.val ∧ win0_0.index t (1 : Fin 2) = 0
    ∧ win0_5.index t (0 : Fin 2) = t.val ∧ win0_5.index t (1 : Fin 2) = 0
    ∧ (∀ a : Fin 2, win0_1.index t a = 0) ∧ (∀ a : Fin 2, win0_2.index t a = 0)
    ∧ (∀ a : Fin 2, win0_3.index t a = 0) ∧ (∀ a : Fin 2, win0_4.index t a = 0) :=
  (by decide +kernel : ∀ t : Fin grid0.N, _)

/-- Row p of the first input's block at point t is row t · (block rows) + p of its array. -/
theorem iblk0_rows (c : Dev nD) (t : Fin cfg0.N) (y : S5000x64.Idx) (k : S100000x64.Idx)
    (hk0 : (k 0).val = t.val * S5000x64.size 0 + (y 0).val) (hk1 : (k 1).val = (y 1).val) :
    (iblk0 V c 0 t : Vec Ideal S5000x64 .f32) y = (V c main_arg0 : Vec Ideal S100000x64 .f32) k := by
  obtain ⟨e0, e1, -⟩ := idx0_facts t
  unfold iblk0
  rw [View.read_apply]
  show V c main_arg0 _ = V c main_arg0 _
  congr 1
  funext a
  apply Fin.ext
  match a with
  | ⟨0, _⟩ =>
    show win0_0.index t (0 : Fin 2) * S5000x64.size 0 + 1 * (y 0).val = (k 0).val
    rw [e0, hk0, Nat.one_mul]
  | ⟨1, _⟩ =>
    show win0_0.index t (1 : Fin 2) * S5000x64.size 1 + 1 * (y 1).val = (k 1).val
    rw [e1, hk1, Nat.zero_mul, Nat.zero_add, Nat.one_mul]

/-- The weight and bias windows' blocks are their whole arrays, at every point. -/
theorem iblk0_1 (c : Dev nD) (t : Fin cfg0.N) : (iblk0 V c 1 t : Vec Ideal S64x64 .f32) = (V c main_arg3 : Vec Ideal S64x64 .f32) := by
  obtain ⟨-, -, -, -, e, -⟩ := idx0_facts t
  funext y
  unfold iblk0
  rw [View.read_apply]
  show V c main_arg3 _ = V c main_arg3 y
  congr 1
  funext a
  apply Fin.ext
  show win0_1.index t a * S64x64.size a + 1 * (y a).val = (y a).val
  rw [e a, Nat.zero_mul, Nat.zero_add, Nat.one_mul]
theorem iblk0_2 (c : Dev nD) (t : Fin cfg0.N) : (iblk0 V c 2 t : Vec Ideal S1x64 .f32) = (V c main_v0 : Vec Ideal S1x64 .f32) := by
  obtain ⟨-, -, -, -, -, e, -⟩ := idx0_facts t
  funext y
  unfold iblk0
  rw [View.read_apply]
  show V c main_v0 _ = V c main_v0 y
  congr 1
  funext a
  apply Fin.ext
  show win0_2.index t a * S1x64.size a + 1 * (y a).val = (y a).val
  rw [e a, Nat.zero_mul, Nat.zero_add, Nat.one_mul]
theorem iblk0_3 (c : Dev nD) (t : Fin cfg0.N) : (iblk0 V c 3 t : Vec Ideal S64x64 .f32) = (V c main_arg5 : Vec Ideal S64x64 .f32) := by
  obtain ⟨-, -, -, -, -, -, e, -⟩ := idx0_facts t
  funext y
  unfold iblk0
  rw [View.read_apply]
  show V c main_arg5 _ = V c main_arg5 y
  congr 1
  funext a
  apply Fin.ext
  show win0_3.index t a * S64x64.size a + 1 * (y a).val = (y a).val
  rw [e a, Nat.zero_mul, Nat.zero_add, Nat.one_mul]
theorem iblk0_4 (c : Dev nD) (t : Fin cfg0.N) : (iblk0 V c 4 t : Vec Ideal S1x64 .f32) = (V c main_v1 : Vec Ideal S1x64 .f32) := by
  obtain ⟨-, -, -, -, -, -, -, e⟩ := idx0_facts t
  funext y
  unfold iblk0
  rw [View.read_apply]
  show V c main_v1 _ = V c main_v1 y
  congr 1
  funext a
  apply Fin.ext
  show win0_4.index t a * S1x64.size a + 1 * (y a).val = (y a).val
  rw [e a, Nat.zero_mul, Nat.zero_add, Nat.one_mul]

/-- The region's value: the specification's two-layer block of the five arrays the region reads, as one array. -/
abbrev G0 (c : Dev nD) : Vec Ideal S100000x64 .f32 :=
  Cert.Spec.arr2 (Cert.Spec.mlp2 (Cert.Spec.tab2 (V c main_arg0 : Vec Ideal S100000x64 .f32)) (Cert.Spec.tab2 (V c main_arg3 : Vec Ideal S64x64 .f32))
    (Cert.Spec.row0 (V c main_v0 : Vec Ideal S1x64 .f32)) (Cert.Spec.tab2 (V c main_arg5 : Vec Ideal S64x64 .f32)) (Cert.Spec.row0 (V c main_v1 : Vec Ideal S1x64 .f32)))

/-- The payload of the blocks at point t, at an entry of the block, is the region's value at the array entry the
    block's entry sits at. -/
theorem block0_entry (c : Dev nD) (t : Fin cfg0.N) (y : S5000x64.Idx) (k : S100000x64.Idx)
    (hk0 : (k 0).val = t.val * S5000x64.size 0 + (y 0).val) (hk1 : (k 1).val = (y 1).val) :
    k0_pay1 (F := Ideal) (iblk0 V c 0 t) (iblk0 V c 1 t) (iblk0 V c 2 t) (iblk0 V c 3 t) (iblk0 V c 4 t) y = G0 V c k := by
  refine (entry0_of_rows (iblk0 V c 0 t) (V c main_arg0) (iblk0 V c 1 t) (iblk0 V c 2 t) (iblk0 V c 3 t) (iblk0 V c 4 t) y k
    (fun q => iblk0_rows V c t (ix2 (y 0) q) (ix2 (k 0) q) hk0 rfl) hk1).trans ?_
  rw [iblk0_1 V c t, iblk0_2 V c t, iblk0_3 V c t, iblk0_4 V c t]

/-- WHAT POINT t WRITES BACK is block t of the region's value. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5, out0_eq_pay]
  obtain ⟨-, -, e2, e3, -⟩ := idx0_facts t
  funext y
  rw [View.read_apply]
  refine block0_entry V c t _ _ ?_ ?_
  · show win0_5.index t (0 : Fin 2) * S5000x64.size 0 + 1 * (y 0).val = t.val * S5000x64.size 0 + (y 0).val
    rw [e2, Nat.one_mul]
  · show win0_5.index t (1 : Fin 2) * S5000x64.size 1 + 1 * (y 1).val = (y 1).val
    rw [e3, Nat.zero_mul, Nat.zero_add, Nat.one_mul]

/-! ## The cover, and the array after the last point -/

/-- An index of the array is in point t's block iff each coordinate is in the block's range on its axis. -/
theorem mem_blk0 (t : Fin cfg0.N) (i : S100000x64.Idx) :
    i ∈ ((cfg0.win 5).blk t).view.set
      ↔ ∀ a : Fin 2, win0_5.index t a * S5000x64.size a ≤ (i a).val ∧ (i a).val < win0_5.index t a * S5000x64.size a + S5000x64.size a := by
  show i ∈ ((View.whole main_v2).slice (win0_5.rect t)).set ↔ _
  rw [View.set_slice_whole, Rect.mem_set_unit]
  exact Iff.rfl

/-- The blocks tile the array's rows: its row count is the block's times the number of points. -/
theorem tile0 : S100000x64.size 0 = S5000x64.size 0 * cfg0.N := by decide

/-- Every index of the array is in the block of the point its row divided by the block's row count names. -/
theorem cover0 (i : S100000x64.Idx) : ∃ t : Fin cfg0.N, (cfg0.win 5).flush t = true ∧ i ∈ ((cfg0.win 5).blk t).view.set := by
  have hB : 0 < S5000x64.size 0 := by decide
  have hi0 : (i 0).val < S5000x64.size 0 * cfg0.N := lt_of_lt_of_eq (i 0).isLt tile0
  have ht : (i 0).val / S5000x64.size 0 < cfg0.N := Nat.div_lt_of_lt_mul hi0
  obtain ⟨-, -, e2, e3, -⟩ := idx0_facts ⟨(i 0).val / S5000x64.size 0, ht⟩
  refine ⟨⟨(i 0).val / S5000x64.size 0, ht⟩, flush0_5 _, (mem_blk0 _ i).mpr fun a => ?_⟩
  match a with
  | ⟨0, _⟩ =>
    show win0_5.index ⟨(i 0).val / S5000x64.size 0, ht⟩ (0 : Fin 2) * S5000x64.size 0 ≤ (i 0).val
      ∧ (i 0).val < win0_5.index ⟨(i 0).val / S5000x64.size 0, ht⟩ (0 : Fin 2) * S5000x64.size 0 + S5000x64.size 0
    rw [e2]
    exact ⟨Nat.div_mul_le_self _ _, Nat.lt_div_mul_add hB⟩
  | ⟨1, _⟩ =>
    show win0_5.index ⟨(i 0).val / S5000x64.size 0, ht⟩ (1 : Fin 2) * S5000x64.size 1 ≤ (i 1).val
      ∧ (i 1).val < win0_5.index ⟨(i 0).val / S5000x64.size 0, ht⟩ (1 : Fin 2) * S5000x64.size 1 + S5000x64.size 1
    rw [e3, Nat.zero_mul, Nat.zero_add]
    exact ⟨Nat.zero_le _, (i 1).isLt⟩

/-- THE REGION'S VALUE: after the last point the output array holds the specification's two-layer block of the five
    arrays the region reads. -/
theorem arrAt0 (c : Dev nD) :
    ((dat0 (F := Ideal) V c).arrAt 5 cfg0.N : Vec Ideal S100000x64 .f32)
      = Cert.Spec.arr2 (Cert.Spec.mlp2 (Cert.Spec.tab2 (V c main_arg0 : Vec Ideal S100000x64 .f32)) (Cert.Spec.tab2 (V c main_arg3 : Vec Ideal S64x64 .f32))
          (Cert.Spec.row0 (V c main_v0 : Vec Ideal S1x64 .f32)) (Cert.Spec.tab2 (V c main_arg5 : Vec Ideal S64x64 .f32)) (Cert.Spec.row0 (V c main_v1 : Vec Ideal S1x64 .f32))) :=
  (dat0 (F := Ideal) V c).arrAt_eq_of_cover 5 (G0 V c) (fun t _ => flushed0_eq V c t) cover0

end Cert.KernelIdeal.RegVal

end
-- ==== Proof.KiVal1.lean ====
/-
  The value of region 1 of the idealized kernel at the extended reals: after its last grid point the output array holds
  the specification's two-layer perceptron block of the five arrays the region reads, as ONE whole-array function.

  The payload at an entry. A block is a family of rows; the body's payload is one layer applied twice, a layer being
  "narrow the operands (the identity on extended reals), multiply into a zero accumulator, add the bias row to every
  row, take the maximum with zero". The product at entry (r, j) is the sum over the 64 contraction coordinates k of
  x (r, k) · w (k, j): the contraction's index set is re-indexed by its one coordinate, and the operand indices are read
  axis by axis. So one layer at an entry is the specification's dense layer followed by its relu, and the payload the
  two-layer block of the five loaded blocks.

  From blocks to the array. At point t the first input's window and the output's window sit at block (t, 0), so row p
  of either block is row t · B + p of its array (B the block's row count); the weight and bias windows stay at block
  (0, 0), their whole arrays. The two-layer block reads its first operand one row at a time, so the payload of the blocks
  at point t, at entry (p, j), is the block of the whole arrays at entry (t · B + p, j): what point t writes back is block
  t of one whole-array function. Row r of the array lies in the block of point r / B, which is a point because the
  array's row count is B times the number of points; so the blocks cover the array and it ends holding that function.
-/
import proofs.«424920_j53549652246920_2_alg».proof.Proof.KiReg1
import proofs.«424920_j53549652246920_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

/-! ## The contraction's operand indices, axis by axis

Output entry (r, j) and contraction coordinate k read the left operand at (r, k) and the right one at (k, j). -/

theorem lhs1_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs1_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs1_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix product into a zero accumulator, at an entry: the sum over the 64 contraction coordinates of the
    products of the operands' entries, whatever the operands' formats. -/
theorem mm1_apply {φ₁ φ₂ : FTy} (x : FVec Ideal S5000x64 φ₁) (w : FVec Ideal S64x64 φ₂) (j : S5000x64.Idx) :
    matmul (F := Ideal) dot_S5000x64_S64x64_S5000x64_1_0_0_1_n_n none x w (constant (F := Ideal) S5000x64 .f32 0x00000000#32) j
      = ∑ k : Fin 64, x (ix2 (j 0) k) * w (ix2 k (j 1)) := by
  refine (Ideal.matmul_constant_zero_apply dot_S5000x64_S64x64_S5000x64_1_0_0_1_n_n none x w j).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = ix2 (j 0) k :=
    funext fun a => Fin.ext (by
      match a with
      | ⟨0, _⟩ => exact lhs1_row _ _
      | ⟨1, _⟩ => exact (lhs1_col _ _).trans hk)
  have er : dot_S5000x64_S64x64_S5000x64_1_0_0_1_n_n.rhsIdx j ((contrEquiv1 dot_S5000x64_S64x64_S5000x64_1_0_0_1_n_n 64 rfl rfl).symm k) = ix2 k (j 1) :=
    funext fun a => Fin.ext (by
      match a with
      | ⟨0, _⟩ => exact (rhs1_row _ _).trans hk
      | ⟨1, _⟩ => exact rhs1_col _ _)
  rw [el, er]
  rfl

/-! ## The payload: two layers, each "rows times weights, plus the bias row, maximum with zero" -/

/-- One layer of the payload as a function of whole blocks: the operands narrowed, multiplied into a zero accumulator,
    the bias row added to every row, the maximum with zero taken. -/
def layer1 {F : FTy → Type} [FloatOps F] (x : Vec F S5000x64 .f32) (w : Vec F S64x64 .f32) (b : Vec F S1x64 .f32) : FVec F S5000x64 .f32 :=
  maximumf
    (addf (matmul dot_S5000x64_S64x64_S5000x64_1_0_0_1_n_n none (truncf .bf16 x bitsLt_bf16_f32) (truncf .bf16 w bitsLt_bf16_f32) (constant S5000x64 .f32 0x00000000#32))
      (broadcastTo S5000x64 (shapeCast S1x64 b shapeCasts_S1x64_S1x64) broadcasts_S1x64_S5000x64))
    (broadcast S5000x64 (Scalar.ofBits .f32 0x00000000#32))

/-- The payload is the layer applied twice. -/
theorem pay1_eq_layers {F : FTy → Type} [FloatOps F] (x0 : Vec F S5000x64 .f32) (x1 : Vec F S64x64 .f32) (x2 : Vec F S1x64 .f32)
    (x3 : Vec F S64x64 .f32) (x4 : Vec F S1x64 .f32) :
    k1_pay1 x0 x1 x2 x3 x4 = layer1 (layer1 x0 x1 x2) x3 x4 := rfl

/-- The broadcast bias row at an entry is the row's entry in that column. -/
theorem bias1_apply (b : Vec Ideal S1x64 .f32) (j : S5000x64.Idx) :
    broadcastTo S5000x64 (shapeCast S1x64 b shapeCasts_S1x64_S1x64) broadcasts_S1x64_S5000x64 j = Cert.Spec.row0 b (j 1) := by
  rw [shapeCast_self]
  exact broadcastTo_apply b broadcasts_S1x64_S5000x64 j (ix2 0 (j 1)) (fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)])

/-- One layer at an entry, at the extended reals: the specification's dense layer followed by its relu. -/
theorem layer1_apply (x : Vec Ideal S5000x64 .f32) (w : Vec Ideal S64x64 .f32) (b : Vec Ideal S1x64 .f32) (j : S5000x64.Idx) :
    layer1 (F := Ideal) x w b j = Cert.Spec.relu (Cert.Spec.lin (Cert.Spec.tab2 x) (Cert.Spec.tab2 w) (Cert.Spec.row0 b)) (j 0) (j 1) := by
  unfold layer1
  show max (matmul (F := Ideal) dot_S5000x64_S64x64_S5000x64_1_0_0_1_n_n none (truncf .bf16 x bitsLt_bf16_f32) (truncf .bf16 w bitsLt_bf16_f32) (constant (F := Ideal) S5000x64 .f32 0x00000000#32) j
        + broadcastTo S5000x64 (shapeCast S1x64 b shapeCasts_S1x64_S1x64) broadcasts_S1x64_S5000x64 j) (Ideal.ofBits .f32 0x00000000#32)
      = max ((∑ k : Fin 64, Cert.Spec.tab2 x (j 0) k * Cert.Spec.tab2 w k (j 1)) + Cert.Spec.row0 b (j 1)) 0
  rw [mm1_apply, bias1_apply, Ideal.ofBits_zero_f32]
  rfl

/-- One layer as a whole block. -/
theorem layer1_eq (x : Vec Ideal S5000x64 .f32) (w : Vec Ideal S64x64 .f32) (b : Vec Ideal S1x64 .f32) :
    layer1 (F := Ideal) x w b = Cert.Spec.arr2 (Cert.Spec.relu (Cert.Spec.lin (Cert.Spec.tab2 x) (Cert.Spec.tab2 w) (Cert.Spec.row0 b))) :=
  funext fun j => layer1_apply x w b j

/-- THE PAYLOAD AT AN ENTRY: the specification's two-layer block of the five loaded blocks, at that row and column. -/
theorem kpay1_apply (x0 : Vec Ideal S5000x64 .f32) (x1 : Vec Ideal S64x64 .f32) (x2 : Vec Ideal S1x64 .f32)
    (x3 : Vec Ideal S64x64 .f32) (x4 : Vec Ideal S1x64 .f32) (j : S5000x64.Idx) :
    k1_pay1 (F := Ideal) x0 x1 x2 x3 x4 j
      = Cert.Spec.mlp2 (Cert.Spec.tab2 x0) (Cert.Spec.tab2 x1) (Cert.Spec.row0 x2) (Cert.Spec.tab2 x3) (Cert.Spec.row0 x4) (j 0) (j 1) := by
  rw [pay1_eq_layers, layer1_apply, layer1_eq, Cert.Spec.tab2_arr2]
  rfl

/-! ## The two-layer block reads its first operand one row at a time -/

/-- Two row families that agree on one row each give the block the same value on those rows. -/
theorem mlp2_row1 {n n' K K' d : ℕ} (x : Fin n → Fin K → EReal) (x' : Fin n' → Fin K → EReal) (w1 : Fin K → Fin K' → EReal)
    (b1 : Fin K' → EReal) (w2 : Fin K' → Fin d → EReal) (b2 : Fin d → EReal) (r : Fin n) (r' : Fin n')
    (h : ∀ k, x r k = x' r' k) (j : Fin d) :
    Cert.Spec.mlp2 x w1 b1 w2 b2 r j = Cert.Spec.mlp2 x' w1 b1 w2 b2 r' j := by
  unfold Cert.Spec.mlp2 Cert.Spec.relu Cert.Spec.lin
  simp only [h]

/-- The payload of a block whose row p is row r of a taller array, at an entry of that row: the specification's block
    of the taller array at row r. -/
theorem entry1_of_rows (x0 : Vec Ideal S5000x64 .f32) (A0 : Vec Ideal S800000x64 .f32) (x1 : Vec Ideal S64x64 .f32)
    (x2 : Vec Ideal S1x64 .f32) (x3 : Vec Ideal S64x64 .f32) (x4 : Vec Ideal S1x64 .f32) (y : S5000x64.Idx) (k : S800000x64.Idx)
    (hrow : ∀ q : Fin 64, x0 (ix2 (y 0) q) = A0 (ix2 (k 0) q)) (hcol : (k 1).val = (y 1).val) :
    k1_pay1 (F := Ideal) x0 x1 x2 x3 x4 y
      = Cert.Spec.arr2 (Cert.Spec.mlp2 (Cert.Spec.tab2 A0) (Cert.Spec.tab2 x1) (Cert.Spec.row0 x2) (Cert.Spec.tab2 x3) (Cert.Spec.row0 x4)) k := by
  rw [kpay1_apply]
  have e1 : (y 1 : Fin 64) = k 1 := Fin.ext hcol.symm
  show Cert.Spec.mlp2 _ _ _ _ _ (y 0) (y 1 : Fin 64) = Cert.Spec.mlp2 _ _ _ _ _ (k 0) (k 1 : Fin 64)
  rw [e1]
  exact mlp2_row1 _ _ _ _ _ _ (y 0) (k 0) hrow (k 1)

/-! ## The blocks a point reads and the block it writes back -/

variable (V : (c : Dev nD) → (b : Ref sig .tc) → Buf (Elt Ideal) ((c : Thread nD τ).loc b))

theorem hz1 : (![0, 0] : Fin 2 → Nat) = fun _ => 0 := funext fun a => by fin_cases a <;> rfl

/-- The body loads whole blocks and stores the whole output block once: what it leaves there is the payload of the
    five blocks. -/
theorem out1_eq_pay {F : FTy → Type} [FloatOps F] (x0 : Vec F S5000x64 .f32) (x1 : Vec F S64x64 .f32) (x2 : Vec F S1x64 .f32)
    (x3 : Vec F S64x64 .f32) (x4 : Vec F S1x64 .f32) : out1_5 x0 x1 x2 x3 x4 = k1_pay1 x0 x1 x2 x3 x4 := by
  unfold out1_5
  rw [View.canon_unit_zero hz1]
  simp only [View.ld_unit_zero (S := S5000x64) hz1, View.ld_unit_zero (S := S64x64) hz1, View.ld_unit_zero (S := S1x64) hz1]

/-- The index maps, decided over the grid: the row windows (the first input and the output) are at block (t, 0) at
    point t; the weight and bias windows stay at block (0, 0). -/
theorem idx1_facts : ∀ t : Fin cfg1.N,
    win1_0.index t (0 : Fin 2) = t.val ∧ win1_0.index t (1 : Fin 2) = 0
    ∧ win1_5.index t (0 : Fin 2) = t.val ∧ win1_5.index t (1 : Fin 2) = 0
    ∧ (∀ a : Fin 2, win1_1.index t a = 0) ∧ (∀ a : Fin 2, win1_2.index t a = 0)
    ∧ (∀ a : Fin 2, win1_3.index t a = 0) ∧ (∀ a : Fin 2, win1_4.index t a = 0) :=
  (by decide +kernel : ∀ t : Fin grid1.N, _)

/-- Row p of the first input's block at point t is row t · (block rows) + p of its array. -/
theorem iblk1_rows (c : Dev nD) (t : Fin cfg1.N) (y : S5000x64.Idx) (k : S800000x64.Idx)
    (hk0 : (k 0).val = t.val * S5000x64.size 0 + (y 0).val) (hk1 : (k 1).val = (y 1).val) :
    (iblk1 V c 0 t : Vec Ideal S5000x64 .f32) y = (V c main_arg1 : Vec Ideal S800000x64 .f32) k := by
  obtain ⟨e0, e1, -⟩ := idx1_facts t
  unfold iblk1
  rw [View.read_apply]
  show V c main_arg1 _ = V c main_arg1 _
  congr 1
  funext a
  apply Fin.ext
  match a with
  | ⟨0, _⟩ =>
    show win1_0.index t (0 : Fin 2) * S5000x64.size 0 + 1 * (y 0).val = (k 0).val
    rw [e0, hk0, Nat.one_mul]
  | ⟨1, _⟩ =>
    show win1_0.index t (1 : Fin 2) * S5000x64.size 1 + 1 * (y 1).val = (k 1).val
    rw [e1, hk1, Nat.zero_mul, Nat.zero_add, Nat.one_mul]

/-- The weight and bias windows' blocks are their whole arrays, at every point. -/
theorem iblk1_1 (c : Dev nD) (t : Fin cfg1.N) : (iblk1 V c 1 t : Vec Ideal S64x64 .f32) = (V c main_arg7 : Vec Ideal S64x64 .f32) := by
  obtain ⟨-, -, -, -, e, -⟩ := idx1_facts t
  funext y
  unfold iblk1
  rw [View.read_apply]
  show V c main_arg7 _ = V c main_arg7 y
  congr 1
  funext a
  apply Fin.ext
  show win1_1.index t a * S64x64.size a + 1 * (y a).val = (y a).val
  rw [e a, Nat.zero_mul, Nat.zero_add, Nat.one_mul]
theorem iblk1_2 (c : Dev nD) (t : Fin cfg1.N) : (iblk1 V c 2 t : Vec Ideal S1x64 .f32) = (V c main_v3 : Vec Ideal S1x64 .f32) := by
  obtain ⟨-, -, -, -, -, e, -⟩ := idx1_facts t
  funext y
  unfold iblk1
  rw [View.read_apply]
  show V c main_v3 _ = V c main_v3 y
  congr 1
  funext a
  apply Fin.ext
  show win1_2.index t a * S1x64.size a + 1 * (y a).val = (y a).val
  rw [e a, Nat.zero_mul, Nat.zero_add, Nat.one_mul]
theorem iblk1_3 (c : Dev nD) (t : Fin cfg1.N) : (iblk1 V c 3 t : Vec Ideal S64x64 .f32) = (V c main_arg9 : Vec Ideal S64x64 .f32) := by
  obtain ⟨-, -, -, -, -, -, e, -⟩ := idx1_facts t
  funext y
  unfold iblk1
  rw [View.read_apply]
  show V c main_arg9 _ = V c main_arg9 y
  congr 1
  funext a
  apply Fin.ext
  show win1_3.index t a * S64x64.size a + 1 * (y a).val = (y a).val
  rw [e a, Nat.zero_mul, Nat.zero_add, Nat.one_mul]
theorem iblk1_4 (c : Dev nD) (t : Fin cfg1.N) : (iblk1 V c 4 t : Vec Ideal S1x64 .f32) = (V c main_v4 : Vec Ideal S1x64 .f32) := by
  obtain ⟨-, -, -, -, -, -, -, e⟩ := idx1_facts t
  funext y
  unfold iblk1
  rw [View.read_apply]
  show V c main_v4 _ = V c main_v4 y
  congr 1
  funext a
  apply Fin.ext
  show win1_4.index t a * S1x64.size a + 1 * (y a).val = (y a).val
  rw [e a, Nat.zero_mul, Nat.zero_add, Nat.one_mul]

/-- The region's value: the specification's two-layer block of the five arrays the region reads, as one array. -/
abbrev G1 (c : Dev nD) : Vec Ideal S800000x64 .f32 :=
  Cert.Spec.arr2 (Cert.Spec.mlp2 (Cert.Spec.tab2 (V c main_arg1 : Vec Ideal S800000x64 .f32)) (Cert.Spec.tab2 (V c main_arg7 : Vec Ideal S64x64 .f32))
    (Cert.Spec.row0 (V c main_v3 : Vec Ideal S1x64 .f32)) (Cert.Spec.tab2 (V c main_arg9 : Vec Ideal S64x64 .f32)) (Cert.Spec.row0 (V c main_v4 : Vec Ideal S1x64 .f32)))

/-- The payload of the blocks at point t, at an entry of the block, is the region's value at the array entry the
    block's entry sits at. -/
theorem block1_entry (c : Dev nD) (t : Fin cfg1.N) (y : S5000x64.Idx) (k : S800000x64.Idx)
    (hk0 : (k 0).val = t.val * S5000x64.size 0 + (y 0).val) (hk1 : (k 1).val = (y 1).val) :
    k1_pay1 (F := Ideal) (iblk1 V c 0 t) (iblk1 V c 1 t) (iblk1 V c 2 t) (iblk1 V c 3 t) (iblk1 V c 4 t) y = G1 V c k := by
  refine (entry1_of_rows (iblk1 V c 0 t) (V c main_arg1) (iblk1 V c 1 t) (iblk1 V c 2 t) (iblk1 V c 3 t) (iblk1 V c 4 t) y k
    (fun q => iblk1_rows V c t (ix2 (y 0) q) (ix2 (k 0) q) hk0 rfl) hk1).trans ?_
  rw [iblk1_1 V c t, iblk1_2 V c t, iblk1_3 V c t, iblk1_4 V c t]

/-- WHAT POINT t WRITES BACK is block t of the region's value. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5, out1_eq_pay]
  obtain ⟨-, -, e2, e3, -⟩ := idx1_facts t
  funext y
  rw [View.read_apply]
  refine block1_entry V c t _ _ ?_ ?_
  · show win1_5.index t (0 : Fin 2) * S5000x64.size 0 + 1 * (y 0).val = t.val * S5000x64.size 0 + (y 0).val
    rw [e2, Nat.one_mul]
  · show win1_5.index t (1 : Fin 2) * S5000x64.size 1 + 1 * (y 1).val = (y 1).val
    rw [e3, Nat.zero_mul, Nat.zero_add, Nat.one_mul]

/-! ## The cover, and the array after the last point -/

/-- An index of the array is in point t's block iff each coordinate is in the block's range on its axis. -/
theorem mem_blk1 (t : Fin cfg1.N) (i : S800000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v5).slice (win1_5.rect t)).set ↔ _
  rw [View.set_slice_whole, Rect.mem_set_unit]
  exact Iff.rfl

/-- The blocks tile the array's rows: its row count is the block's times the number of points. -/
theorem tile1 : S800000x64.size 0 = S5000x64.size 0 * cfg1.N := by decide

/-- Every index of the array is in the block of the point its row divided by the block's row count names. -/
theorem cover1 (i : S800000x64.Idx) : ∃ t : Fin cfg1.N, (cfg1.win 5).flush t = true ∧ i ∈ ((cfg1.win 5).blk t).view.set := by
  have hB : 0 < S5000x64.size 0 := by decide
  have hi0 : (i 0).val < S5000x64.size 0 * cfg1.N := lt_of_lt_of_eq (i 0).isLt tile1
  have ht : (i 0).val / S5000x64.size 0 < cfg1.N := Nat.div_lt_of_lt_mul hi0
  obtain ⟨-, -, e2, e3, -⟩ := idx1_facts ⟨(i 0).val / S5000x64.size 0, ht⟩
  refine ⟨⟨(i 0).val / S5000x64.size 0, ht⟩, flush1_5 _, (mem_blk1 _ i).mpr fun a => ?_⟩
  match a with
  | ⟨0, _⟩ =>
    show win1_5.index ⟨(i 0).val / S5000x64.size 0, ht⟩ (0 : Fin 2) * S5000x64.size 0 ≤ (i 0).val
      ∧ (i 0).val < win1_5.index ⟨(i 0).val / S5000x64.size 0, ht⟩ (0 : Fin 2) * S5000x64.size 0 + S5000x64.size 0
    rw [e2]
    exact ⟨Nat.div_mul_le_self _ _, Nat.lt_div_mul_add hB⟩
  | ⟨1, _⟩ =>
    show win1_5.index ⟨(i 0).val / S5000x64.size 0, ht⟩ (1 : Fin 2) * S5000x64.size 1 ≤ (i 1).val
      ∧ (i 1).val < win1_5.index ⟨(i 0).val / S5000x64.size 0, ht⟩ (1 : Fin 2) * S5000x64.size 1 + S5000x64.size 1
    rw [e3, Nat.zero_mul, Nat.zero_add]
    exact ⟨Nat.zero_le _, (i 1).isLt⟩

/-- THE REGION'S VALUE: after the last point the output array holds the specification's two-layer block of the five
    arrays the region reads. -/
theorem arrAt1 (c : Dev nD) :
    ((dat1 (F := Ideal) V c).arrAt 5 cfg1.N : Vec Ideal S800000x64 .f32)
      = Cert.Spec.arr2 (Cert.Spec.mlp2 (Cert.Spec.tab2 (V c main_arg1 : Vec Ideal S800000x64 .f32)) (Cert.Spec.tab2 (V c main_arg7 : Vec Ideal S64x64 .f32))
          (Cert.Spec.row0 (V c main_v3 : Vec Ideal S1x64 .f32)) (Cert.Spec.tab2 (V c main_arg9 : Vec Ideal S64x64 .f32)) (Cert.Spec.row0 (V c main_v4 : Vec Ideal S1x64 .f32))) :=
  (dat1 (F := Ideal) V c).arrAt_eq_of_cover 5 (G1 V c) (fun t _ => flushed1_eq V c t) cover1

end Cert.KernelIdeal.RegVal

end
-- ==== Proof.KiVal2.lean ====
/-
  The value of region 2 of the idealized kernel at the extended reals: after its last grid point the output array holds
  the specification's two-layer perceptron block of the five arrays the region reads, as ONE whole-array function.

  The payload at an entry. A block is a family of rows; the body's payload is one layer applied twice, a layer being
  "narrow the operands (the identity on extended reals), multiply into a zero accumulator, add the bias row to every
  row, take the maximum with zero". The product at entry (r, j) is the sum over the 64 contraction coordinates k of
  x (r, k) · w (k, j): the contraction's index set is re-indexed by its one coordinate, and the operand indices are read
  axis by axis. So one layer at an entry is the specification's dense layer followed by its relu, and the payload the
  two-layer block of the five loaded blocks.

  From blocks to the array. At point t the first input's window and the output's window sit at block (t, 0), so row p
  of either block is row t · B + p of its array (B the block's row count); the weight and bias windows stay at block
  (0, 0), their whole arrays. The two-layer block reads its first operand one row at a time, so the payload of the blocks
  at point t, at entry (p, j), is the block of the whole arrays at entry (t · B + p, j): what point t writes back is block
  t of one whole-array function. Row r of the array lies in the block of point r / B, which is a point because the
  array's row count is B times the number of points; so the blocks cover the array and it ends holding that function.
-/
import proofs.«424920_j53549652246920_2_alg».proof.Proof.KiReg2
import proofs.«424920_j53549652246920_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

/-! ## The contraction's operand indices, axis by axis

Output entry (r, j) and contraction coordinate k read the left operand at (r, k) and the right one at (k, j). -/

theorem lhs2_row (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide),
    dif_pos (show (0 : Fin S1000x64.rank) ∈ dot_S1000x64_S64x64_S1000x64_1_0_0_1_n_n.lhsNonContracting by decide)]
  rfl
theorem lhs2_col (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs2_row (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs2_col (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide),
    dif_pos (show (1 : Fin S64x64.rank) ∈ dot_S1000x64_S64x64_S1000x64_1_0_0_1_n_n.rhsNonContracting by decide)]
  rfl

/-- The matrix product into a zero accumulator, at an entry: the sum over the 64 contraction coordinates of the
    products of the operands' entries, whatever the operands' formats. -/
theorem mm2_apply {φ₁ φ₂ : FTy} (x : FVec Ideal S1000x64 φ₁) (w : FVec Ideal S64x64 φ₂) (j : S1000x64.Idx) :
    matmul (F := Ideal) dot_S1000x64_S64x64_S1000x64_1_0_0_1_n_n none x w (constant (F := Ideal) S1000x64 .f32 0x00000000#32) j
      = ∑ k : Fin 64, x (ix2 (j 0) k) * w (ix2 k (j 1)) := by
  refine (Ideal.matmul_constant_zero_apply dot_S1000x64_S64x64_S1000x64_1_0_0_1_n_n none x w j).trans ?_
  rw [← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx j ((contrEquiv1 dot_S1000x64_S64x64_S1000x64_1_0_0_1_n_n 64 rfl rfl).symm k) = ix2 (j 0) k :=
    funext fun a => Fin.ext (by
      match a with
      | ⟨0, _⟩ => exact lhs2_row _ _
      | ⟨1, _⟩ => exact (lhs2_col _ _).trans hk)
  have er : dot_S1000x64_S64x64_S1000x64_1_0_0_1_n_n.rhsIdx j ((contrEquiv1 dot_S1000x64_S64x64_S1000x64_1_0_0_1_n_n 64 rfl rfl).symm k) = ix2 k (j 1) :=
    funext fun a => Fin.ext (by
      match a with
      | ⟨0, _⟩ => exact (rhs2_row _ _).trans hk
      | ⟨1, _⟩ => exact rhs2_col _ _)
  rw [el, er]
  rfl

/-! ## The payload: two layers, each "rows times weights, plus the bias row, maximum with zero" -/

/-- One layer of the payload as a function of whole blocks: the operands narrowed, multiplied into a zero accumulator,
    the bias row added to every row, the maximum with zero taken. -/
def layer2 {F : FTy → Type} [FloatOps F] (x : Vec F S1000x64 .f32) (w : Vec F S64x64 .f32) (b : Vec F S1x64 .f32) : FVec F S1000x64 .f32 :=
  maximumf
    (addf (matmul dot_S1000x64_S64x64_S1000x64_1_0_0_1_n_n none (truncf .bf16 x bitsLt_bf16_f32) (truncf .bf16 w bitsLt_bf16_f32) (constant S1000x64 .f32 0x00000000#32))
      (broadcastTo S1000x64 (shapeCast S1x64 b shapeCasts_S1x64_S1x64) broadcasts_S1x64_S1000x64))
    (broadcast S1000x64 (Scalar.ofBits .f32 0x00000000#32))

/-- The payload is the layer applied twice. -/
theorem pay2_eq_layers {F : FTy → Type} [FloatOps F] (x0 : Vec F S1000x64 .f32) (x1 : Vec F S64x64 .f32) (x2 : Vec F S1x64 .f32)
    (x3 : Vec F S64x64 .f32) (x4 : Vec F S1x64 .f32) :
    k2_pay1 x0 x1 x2 x3 x4 = layer2 (layer2 x0 x1 x2) x3 x4 := rfl

/-- The broadcast bias row at an entry is the row's entry in that column. -/
theorem bias2_apply (b : Vec Ideal S1x64 .f32) (j : S1000x64.Idx) :
    broadcastTo S1000x64 (shapeCast S1x64 b shapeCasts_S1x64_S1x64) broadcasts_S1x64_S1000x64 j = Cert.Spec.row0 b (j 1) := by
  rw [shapeCast_self]
  exact broadcastTo_apply b broadcasts_S1x64_S1000x64 j (ix2 0 (j 1)) (fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)])

/-- One layer at an entry, at the extended reals: the specification's dense layer followed by its relu. -/
theorem layer2_apply (x : Vec Ideal S1000x64 .f32) (w : Vec Ideal S64x64 .f32) (b : Vec Ideal S1x64 .f32) (j : S1000x64.Idx) :
    layer2 (F := Ideal) x w b j = Cert.Spec.relu (Cert.Spec.lin (Cert.Spec.tab2 x) (Cert.Spec.tab2 w) (Cert.Spec.row0 b)) (j 0) (j 1) := by
  unfold layer2
  show max (matmul (F := Ideal) dot_S1000x64_S64x64_S1000x64_1_0_0_1_n_n none (truncf .bf16 x bitsLt_bf16_f32) (truncf .bf16 w bitsLt_bf16_f32) (constant (F := Ideal) S1000x64 .f32 0x00000000#32) j
        + broadcastTo S1000x64 (shapeCast S1x64 b shapeCasts_S1x64_S1x64) broadcasts_S1x64_S1000x64 j) (Ideal.ofBits .f32 0x00000000#32)
      = max ((∑ k : Fin 64, Cert.Spec.tab2 x (j 0) k * Cert.Spec.tab2 w k (j 1)) + Cert.Spec.row0 b (j 1)) 0
  rw [mm2_apply, bias2_apply, Ideal.ofBits_zero_f32]
  rfl

/-- One layer as a whole block. -/
theorem layer2_eq (x : Vec Ideal S1000x64 .f32) (w : Vec Ideal S64x64 .f32) (b : Vec Ideal S1x64 .f32) :
    layer2 (F := Ideal) x w b = Cert.Spec.arr2 (Cert.Spec.relu (Cert.Spec.lin (Cert.Spec.tab2 x) (Cert.Spec.tab2 w) (Cert.Spec.row0 b))) :=
  funext fun j => layer2_apply x w b j

/-- THE PAYLOAD AT AN ENTRY: the specification's two-layer block of the five loaded blocks, at that row and column. -/
theorem kpay2_apply (x0 : Vec Ideal S1000x64 .f32) (x1 : Vec Ideal S64x64 .f32) (x2 : Vec Ideal S1x64 .f32)
    (x3 : Vec Ideal S64x64 .f32) (x4 : Vec Ideal S1x64 .f32) (j : S1000x64.Idx) :
    k2_pay1 (F := Ideal) x0 x1 x2 x3 x4 j
      = Cert.Spec.mlp2 (Cert.Spec.tab2 x0) (Cert.Spec.tab2 x1) (Cert.Spec.row0 x2) (Cert.Spec.tab2 x3) (Cert.Spec.row0 x4) (j 0) (j 1) := by
  rw [pay2_eq_layers, layer2_apply, layer2_eq, Cert.Spec.tab2_arr2]
  rfl

/-! ## The two-layer block reads its first operand one row at a time -/

/-- Two row families that agree on one row each give the block the same value on those rows. -/
theorem mlp2_row2 {n n' K K' d : ℕ} (x : Fin n → Fin K → EReal) (x' : Fin n' → Fin K → EReal) (w1 : Fin K → Fin K' → EReal)
    (b1 : Fin K' → EReal) (w2 : Fin K' → Fin d → EReal) (b2 : Fin d → EReal) (r : Fin n) (r' : Fin n')
    (h : ∀ k, x r k = x' r' k) (j : Fin d) :
    Cert.Spec.mlp2 x w1 b1 w2 b2 r j = Cert.Spec.mlp2 x' w1 b1 w2 b2 r' j := by
  unfold Cert.Spec.mlp2 Cert.Spec.relu Cert.Spec.lin
  simp only [h]

/-- The payload of a block whose row p is row r of a taller array, at an entry of that row: the specification's block
    of the taller array at row r. -/
theorem entry2_of_rows (x0 : Vec Ideal S1000x64 .f32) (A0 : Vec Ideal S1000x64 .f32) (x1 : Vec Ideal S64x64 .f32)
    (x2 : Vec Ideal S1x64 .f32) (x3 : Vec Ideal S64x64 .f32) (x4 : Vec Ideal S1x64 .f32) (y : S1000x64.Idx) (k : S1000x64.Idx)
    (hrow : ∀ q : Fin 64, x0 (ix2 (y 0) q) = A0 (ix2 (k 0) q)) (hcol : (k 1).val = (y 1).val) :
    k2_pay1 (F := Ideal) x0 x1 x2 x3 x4 y
      = Cert.Spec.arr2 (Cert.Spec.mlp2 (Cert.Spec.tab2 A0) (Cert.Spec.tab2 x1) (Cert.Spec.row0 x2) (Cert.Spec.tab2 x3) (Cert.Spec.row0 x4)) k := by
  rw [kpay2_apply]
  have e1 : (y 1 : Fin 64) = k 1 := Fin.ext hcol.symm
  show Cert.Spec.mlp2 _ _ _ _ _ (y 0) (y 1 : Fin 64) = Cert.Spec.mlp2 _ _ _ _ _ (k 0) (k 1 : Fin 64)
  rw [e1]
  exact mlp2_row2 _ _ _ _ _ _ (y 0) (k 0) hrow (k 1)

/-! ## The blocks a point reads and the block it writes back -/

variable (V : (c : Dev nD) → (b : Ref sig .tc) → Buf (Elt Ideal) ((c : Thread nD τ).loc b))

theorem hz2 : (![0, 0] : Fin 2 → Nat) = fun _ => 0 := funext fun a => by fin_cases a <;> rfl

/-- The body loads whole blocks and stores the whole output block once: what it leaves there is the payload of the
    five blocks. -/
theorem out2_eq_pay {F : FTy → Type} [FloatOps F] (x0 : Vec F S1000x64 .f32) (x1 : Vec F S64x64 .f32) (x2 : Vec F S1x64 .f32)
    (x3 : Vec F S64x64 .f32) (x4 : Vec F S1x64 .f32) : out2_5 x0 x1 x2 x3 x4 = k2_pay1 x0 x1 x2 x3 x4 := by
  unfold out2_5
  rw [View.canon_unit_zero hz2]
  simp only [View.ld_unit_zero (S := S1000x64) hz2, View.ld_unit_zero (S := S64x64) hz2, View.ld_unit_zero (S := S1x64) hz2]

/-- The index maps, decided over the grid: the row windows (the first input and the output) are at block (t, 0) at
    point t; the weight and bias windows stay at block (0, 0). -/
theorem idx2_facts : ∀ t : Fin cfg2.N,
    win2_0.index t (0 : Fin 2) = t.val ∧ win2_0.index t (1 : Fin 2) = 0
    ∧ win2_5.index t (0 : Fin 2) = t.val ∧ win2_5.index t (1 : Fin 2) = 0
    ∧ (∀ a : Fin 2, win2_1.index t a = 0) ∧ (∀ a : Fin 2, win2_2.index t a = 0)
    ∧ (∀ a : Fin 2, win2_3.index t a = 0) ∧ (∀ a : Fin 2, win2_4.index t a = 0) :=
  (by decide +kernel : ∀ t : Fin grid2.N, _)

/-- Row p of the first input's block at point t is row t · (block rows) + p of its array. -/
theorem iblk2_rows (c : Dev nD) (t : Fin cfg2.N) (y : S1000x64.Idx) (k : S1000x64.Idx)
    (hk0 : (k 0).val = t.val * S1000x64.size 0 + (y 0).val) (hk1 : (k 1).val = (y 1).val) :
    (iblk2 V c 0 t : Vec Ideal S1000x64 .f32) y = (V c main_arg2 : Vec Ideal S1000x64 .f32) k := by
  obtain ⟨e0, e1, -⟩ := idx2_facts t
  unfold iblk2
  rw [View.read_apply]
  show V c main_arg2 _ = V c main_arg2 _
  congr 1
  funext a
  apply Fin.ext
  match a with
  | ⟨0, _⟩ =>
    show win2_0.index t (0 : Fin 2) * S1000x64.size 0 + 1 * (y 0).val = (k 0).val
    rw [e0, hk0, Nat.one_mul]
  | ⟨1, _⟩ =>
    show win2_0.index t (1 : Fin 2) * S1000x64.size 1 + 1 * (y 1).val = (k 1).val
    rw [e1, hk1, Nat.zero_mul, Nat.zero_add, Nat.one_mul]

/-- The weight and bias windows' blocks are their whole arrays, at every point. -/
theorem iblk2_1 (c : Dev nD) (t : Fin cfg2.N) : (iblk2 V c 1 t : Vec Ideal S64x64 .f32) = (V c main_arg11 : Vec Ideal S64x64 .f32) := by
  obtain ⟨-, -, -, -, e, -⟩ := idx2_facts t
  funext y
  unfold iblk2
  rw [View.read_apply]
  show V c main_arg11 _ = V c main_arg11 y
  congr 1
  funext a
  apply Fin.ext
  show win2_1.index t a * S64x64.size a + 1 * (y a).val = (y a).val
  rw [e a, Nat.zero_mul, Nat.zero_add, Nat.one_mul]
theorem iblk2_2 (c : Dev nD) (t : Fin cfg2.N) : (iblk2 V c 2 t : Vec Ideal S1x64 .f32) = (V c main_v6 : Vec Ideal S1x64 .f32) := by
  obtain ⟨-, -, -, -, -, e, -⟩ := idx2_facts t
  funext y
  unfold iblk2
  rw [View.read_apply]
  show V c main_v6 _ = V c main_v6 y
  congr 1
  funext a
  apply Fin.ext
  show win2_2.index t a * S1x64.size a + 1 * (y a).val = (y a).val
  rw [e a, Nat.zero_mul, Nat.zero_add, Nat.one_mul]
theorem iblk2_3 (c : Dev nD) (t : Fin cfg2.N) : (iblk2 V c 3 t : Vec Ideal S64x64 .f32) = (V c main_arg13 : Vec Ideal S64x64 .f32) := by
  obtain ⟨-, -, -, -, -, -, e, -⟩ := idx2_facts t
  funext y
  unfold iblk2
  rw [View.read_apply]
  show V c main_arg13 _ = V c main_arg13 y
  congr 1
  funext a
  apply Fin.ext
  show win2_3.index t a * S64x64.size a + 1 * (y a).val = (y a).val
  rw [e a, Nat.zero_mul, Nat.zero_add, Nat.one_mul]
theorem iblk2_4 (c : Dev nD) (t : Fin cfg2.N) : (iblk2 V c 4 t : Vec Ideal S1x64 .f32) = (V c main_v7 : Vec Ideal S1x64 .f32) := by
  obtain ⟨-, -, -, -, -, -, -, e⟩ := idx2_facts t
  funext y
  unfold iblk2
  rw [View.read_apply]
  show V c main_v7 _ = V c main_v7 y
  congr 1
  funext a
  apply Fin.ext
  show win2_4.index t a * S1x64.size a + 1 * (y a).val = (y a).val
  rw [e a, Nat.zero_mul, Nat.zero_add, Nat.one_mul]

/-- The region's value: the specification's two-layer block of the five arrays the region reads, as one array. -/
abbrev G2 (c : Dev nD) : Vec Ideal S1000x64 .f32 :=
  Cert.Spec.arr2 (Cert.Spec.mlp2 (Cert.Spec.tab2 (V c main_arg2 : Vec Ideal S1000x64 .f32)) (Cert.Spec.tab2 (V c main_arg11 : Vec Ideal S64x64 .f32))
    (Cert.Spec.row0 (V c main_v6 : Vec Ideal S1x64 .f32)) (Cert.Spec.tab2 (V c main_arg13 : Vec Ideal S64x64 .f32)) (Cert.Spec.row0 (V c main_v7 : Vec Ideal S1x64 .f32)))

/-- The payload of the blocks at point t, at an entry of the block, is the region's value at the array entry the
    block's entry sits at. -/
theorem block2_entry (c : Dev nD) (t : Fin cfg2.N) (y : S1000x64.Idx) (k : S1000x64.Idx)
    (hk0 : (k 0).val = t.val * S1000x64.size 0 + (y 0).val) (hk1 : (k 1).val = (y 1).val) :
    k2_pay1 (F := Ideal) (iblk2 V c 0 t) (iblk2 V c 1 t) (iblk2 V c 2 t) (iblk2 V c 3 t) (iblk2 V c 4 t) y = G2 V c k := by
  refine (entry2_of_rows (iblk2 V c 0 t) (V c main_arg2) (iblk2 V c 1 t) (iblk2 V c 2 t) (iblk2 V c 3 t) (iblk2 V c 4 t) y k
    (fun q => iblk2_rows V c t (ix2 (y 0) q) (ix2 (k 0) q) hk0 rfl) hk1).trans ?_
  rw [iblk2_1 V c t, iblk2_2 V c t, iblk2_3 V c t, iblk2_4 V c t]

/-- WHAT POINT t WRITES BACK is block t of the region's value. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5, out2_eq_pay]
  obtain ⟨-, -, e2, e3, -⟩ := idx2_facts t
  funext y
  rw [View.read_apply]
  refine block2_entry V c t _ _ ?_ ?_
  · show win2_5.index t (0 : Fin 2) * S1000x64.size 0 + 1 * (y 0).val = t.val * S1000x64.size 0 + (y 0).val
    rw [e2, Nat.one_mul]
  · show win2_5.index t (1 : Fin 2) * S1000x64.size 1 + 1 * (y 1).val = (y 1).val
    rw [e3, Nat.zero_mul, Nat.zero_add, Nat.one_mul]

/-! ## The cover, and the array after the last point -/

/-- An index of the array is in point t's block iff each coordinate is in the block's range on its axis. -/
theorem mem_blk2 (t : Fin cfg2.N) (i : S1000x64.Idx) :
    i ∈ ((cfg2.win 5).blk t).view.set
      ↔ ∀ a : Fin 2, win2_5.index t a * S1000x64.size a ≤ (i a).val ∧ (i a).val < win2_5.index t a * S1000x64.size a + S1000x64.size a := by
  show i ∈ ((View.whole main_v8).slice (win2_5.rect t)).set ↔ _
  rw [View.set_slice_whole, Rect.mem_set_unit]
  exact Iff.rfl

/-- The blocks tile the array's rows: its row count is the block's times the number of points. -/
theorem tile2 : S1000x64.size 0 = S1000x64.size 0 * cfg2.N := by decide

/-- Every index of the array is in the block of the point its row divided by the block's row count names. -/
theorem cover2 (i : S1000x64.Idx) : ∃ t : Fin cfg2.N, (cfg2.win 5).flush t = true ∧ i ∈ ((cfg2.win 5).blk t).view.set := by
  have hB : 0 < S1000x64.size 0 := by decide
  have hi0 : (i 0).val < S1000x64.size 0 * cfg2.N := lt_of_lt_of_eq (i 0).isLt tile2
  have ht : (i 0).val / S1000x64.size 0 < cfg2.N := Nat.div_lt_of_lt_mul hi0
  obtain ⟨-, -, e2, e3, -⟩ := idx2_facts ⟨(i 0).val / S1000x64.size 0, ht⟩
  refine ⟨⟨(i 0).val / S1000x64.size 0, ht⟩, flush2_5 _, (mem_blk2 _ i).mpr fun a => ?_⟩
  match a with
  | ⟨0, _⟩ =>
    show win2_5.index ⟨(i 0).val / S1000x64.size 0, ht⟩ (0 : Fin 2) * S1000x64.size 0 ≤ (i 0).val
      ∧ (i 0).val < win2_5.index ⟨(i 0).val / S1000x64.size 0, ht⟩ (0 : Fin 2) * S1000x64.size 0 + S1000x64.size 0
    rw [e2]
    exact ⟨Nat.div_mul_le_self _ _, Nat.lt_div_mul_add hB⟩
  | ⟨1, _⟩ =>
    show win2_5.index ⟨(i 0).val / S1000x64.size 0, ht⟩ (1 : Fin 2) * S1000x64.size 1 ≤ (i 1).val
      ∧ (i 1).val < win2_5.index ⟨(i 0).val / S1000x64.size 0, ht⟩ (1 : Fin 2) * S1000x64.size 1 + S1000x64.size 1
    rw [e3, Nat.zero_mul, Nat.zero_add]
    exact ⟨Nat.zero_le _, (i 1).isLt⟩

/-- THE REGION'S VALUE: after the last point the output array holds the specification's two-layer block of the five
    arrays the region reads. -/
theorem arrAt2 (c : Dev nD) :
    ((dat2 (F := Ideal) V c).arrAt 5 cfg2.N : Vec Ideal S1000x64 .f32)
      = Cert.Spec.arr2 (Cert.Spec.mlp2 (Cert.Spec.tab2 (V c main_arg2 : Vec Ideal S1000x64 .f32)) (Cert.Spec.tab2 (V c main_arg11 : Vec Ideal S64x64 .f32))
          (Cert.Spec.row0 (V c main_v6 : Vec Ideal S1x64 .f32)) (Cert.Spec.tab2 (V c main_arg13 : Vec Ideal S64x64 .f32)) (Cert.Spec.row0 (V c main_v7 : Vec Ideal S1x64 .f32))) :=
  (dat2 (F := Ideal) V c).arrAt_eq_of_cover 5 (G2 V c) (fun t _ => flushed2_eq V c t) cover2

end Cert.KernelIdeal.RegVal

end
-- ==== Proof.KiVal3.lean ====
/-
  The value of region 3 at the ideal reals: what its two output arrays hold after the last grid point, as
  functions of the arrays the region reads. The body's payloads are read entry by entry — each matrix product
  into a zero accumulator is a sum over the contracted index, a rounding to sixteen bits and a cast to the same
  shape are the identity, a broadcast row reads its one row — which makes the first output block at entry (p, q)
  the three-layer perceptron of row p of the four row blocks, and the second that plus the residual block's
  entry. A row block at grid point t is rows 5000 t … 5000 t + 4999 of its array and a weight or bias block is its
  whole array, so what point t writes back is block t of one function of the whole arrays; the 160 blocks tile
  the 800000 rows, so each output array ends holding that function: the specification's update block, and the
  update block plus the bonds.
-/
import proofs.«424920_j53549652246920_2_alg».proof.Proof.KiReg3
import proofs.«424920_j53549652246920_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)
open Cert.Spec
open BigOperators

/-! ## The three matrix products at an entry -/

theorem lhsA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000×64 by 64×64 product into the zero accumulator, at entry (p, j): the sum over k of x p k · w k j. -/
theorem mmA_apply (x : FVec Ideal S5000x64 .bf16) (w : FVec Ideal S64x64 .bf16) (p : Fin 5000) (j : Fin 64) :
    matmul (F := Ideal) dot_S5000x64_S64x64_S5000x64_1_0_0_1_n_n none x w (constant (F := Ideal) S5000x64 .f32 0x00000000#32) (ix2 p j)
      = ∑ k : Fin 64, x (ix2 p k) * w (ix2 k j) := by
  refine (Ideal.matmul_constant_zero_apply dot_S5000x64_S64x64_S5000x64_1_0_0_1_n_n none x w (ix2 p j)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (rhsA_0 _ _).trans hk
    | ⟨1, _⟩ => exact rhsA_1 _ _)
  rw [el, er]

theorem lhsB_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhsB_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhsB_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhsB_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A 5000×64 by 64×32 product into the zero accumulator, at entry (p, j). -/
theorem mmB_apply (x : FVec Ideal S5000x64 .bf16) (w : FVec Ideal S64x32 .bf16) (p : Fin 5000) (j : Fin 32) :
    matmul (F := Ideal) dot_S5000x64_S64x32_S5000x32_1_0_0_1_n_n none x w (constant (F := Ideal) S5000x32 .f32 0x00000000#32) (ix2 p j)
      = ∑ k : Fin 64, x (ix2 p k) * w (ix2 k j) := by
  refine (Ideal.matmul_constant_zero_apply dot_S5000x64_S64x32_S5000x32_1_0_0_1_n_n none x w (ix2 p j)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p j) ((ValueIdx.contrEquiv1 dot_S5000x64_S64x32_S5000x32_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x32_S5000x32_1_0_0_1_n_n.rhsIdx (ix2 p j) ((ValueIdx.contrEquiv1 dot_S5000x64_S64x32_S5000x32_1_0_0_1_n_n 64 rfl rfl).symm k) = ix2 k j := funext fun a => Fin.ext (by
    match a with
    | ⟨0, _⟩ => exact (rhsB_0 _ _).trans hk
    | ⟨1, _⟩ => exact rhsB_1 _ _)
  rw [el, er]

theorem lhsC_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhsC_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhsC_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhsC_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- A 5000×32 by 32×64 product into the zero accumulator, at entry (p, j). -/
theorem mmC_apply (x : FVec Ideal S5000x32 .bf16) (w : FVec Ideal S32x64 .bf16) (p : Fin 5000) (j : Fin 64) :
    matmul (F := Ideal) dot_S5000x32_S32x64_S5000x64_1_0_0_1_n_n none x w (constant (F := Ideal) S5000x64 .f32 0x00000000#32) (ix2 p j)
      = ∑ k : Fin 32, x (ix2 p k) * w (ix2 k j) := by
  refine (Ideal.matmul_constant_zero_apply dot_S5000x32_S32x64_S5000x64_1_0_0_1_n_n none x w (ix2 p j)).trans ?_
  rw [← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p j) ((ValueIdx.contrEquiv1 dot_S5000x32_S32x64_S5000x64_1_0_0_1_n_n 32 rfl rfl).symm k) = ix2 p k := funext fun a => Fin.ext (by
    match a with
    | ⟨0, _⟩ => exact lhsC_0 _ _
    | ⟨1, _⟩ => exact (lhsC_1 _ _).trans hk)
  have er : dot_S5000x32_S32x64_S5000x64_1_0_0_1_n_n.rhsIdx (ix2 p j) ((ValueIdx.contrEquiv1 dot_S5000x32_S32x64_S5000x64_1_0_0_1_n_n 32 rfl rfl).symm k) = ix2 k j := funext fun a => Fin.ext (by
    match a with
    | ⟨0, _⟩ => exact (rhsC_0 _ _).trans hk
    | ⟨1, _⟩ => exact rhsC_1 _ _)
  rw [el, er]

/-! ## The payloads at an entry -/

/-- The first layer before its relu, at entry (p, j) of a block: the four row blocks' products with their weight
    slices, summed left to right, plus the bias row. -/
theorem pay3_apply (v0 : Vec Ideal S5000x64 .f32) (v3 : Vec Ideal S64x64 .f32) (v7 : Vec Ideal S5000x64 .f32) (v10 : Vec Ideal S64x64 .f32)
    (v15 : Vec Ideal S5000x64 .f32) (v18 : Vec Ideal S64x64 .f32) (v23 : Vec Ideal S5000x64 .f32) (v26 : Vec Ideal S64x64 .f32) (v31 : Vec Ideal S1x64 .f32)
    (p : Fin 5000) (j : Fin 64) :
    k3_pay3 (F := Ideal) v0 v3 v7 v10 v15 v18 v23 v26 v31 (ix2 p j)
      = lin4 (tab2 v0) (tab2 v7) (tab2 v15) (tab2 v23) (tab2 v3) (tab2 v10) (tab2 v18) (tab2 v26) (row0 v31) p j := by
  unfold k3_pay3
  simp only [shapeCast_self]
  show ((((matmul (F := Ideal) dot_S5000x64_S64x64_S5000x64_1_0_0_1_n_n none v0 v3 (constant (F := Ideal) S5000x64 .f32 0x00000000#32) (ix2 p j)
      + matmul (F := Ideal) dot_S5000x64_S64x64_S5000x64_1_0_0_1_n_n none v7 v10 (constant (F := Ideal) S5000x64 .f32 0x00000000#32) (ix2 p j))
      + matmul (F := Ideal) dot_S5000x64_S64x64_S5000x64_1_0_0_1_n_n none v15 v18 (constant (F := Ideal) S5000x64 .f32 0x00000000#32) (ix2 p j))
      + matmul (F := Ideal) dot_S5000x64_S64x64_S5000x64_1_0_0_1_n_n none v23 v26 (constant (F := Ideal) S5000x64 .f32 0x00000000#32) (ix2 p j))
      + broadcastTo S5000x64 v31 broadcasts_S1x64_S5000x64 (ix2 p j)) = _
  rw [mmA_apply, mmA_apply, mmA_apply, mmA_apply, broadcastTo_1b_ab_apply]
  rfl

/-- The first output's payload at entry (p, q): the relu of the third layer over the relu of the second over the
    relu of the first layer's value. -/
theorem pay1_apply (v34 : Vec Ideal S5000x64 .f32) (v37 : Vec Ideal S64x32 .f32) (v41 : Vec Ideal S1x32 .f32) (v47 : Vec Ideal S32x64 .f32) (v51 : Vec Ideal S1x64 .f32)
    (p : Fin 5000) (q : Fin 64) :
    k3_pay1 (F := Ideal) v34 (k3_pay4 (F := Ideal)) v37 v41 v47 v51 (ix2 p q)
      = upper (tab2 v34) (tab2 v37) (row0 v41) (tab2 v47) (row0 v51) p q := by
  unfold k3_pay1 k3_pay4 upper relu lin tab2 row0
  simp only [shapeCast_self, maximumf_apply, addf_apply, broadcast_apply, mmC_apply, mmB_apply, truncf_apply,
    broadcastTo_1b_ab_apply, Ideal.ofBits_def, Ideal.ofBits_zero_f32]

/-- The second output's payload at entry (p, q): the first output's plus the residual block's entry. -/
theorem pay2_apply (v34 : Vec Ideal S5000x64 .f32) (v37 : Vec Ideal S64x32 .f32) (v41 : Vec Ideal S1x32 .f32) (v47 : Vec Ideal S32x64 .f32) (v51 : Vec Ideal S1x64 .f32)
    (v58 : Vec Ideal S5000x64 .f32) (p : Fin 5000) (q : Fin 64) :
    k3_pay2 (F := Ideal) v34 (k3_pay4 (F := Ideal)) v37 v41 v47 v51 v58 (ix2 p q)
      = upper (tab2 v34) (tab2 v37) (row0 v41) (tab2 v47) (row0 v51) p q + v58 (ix2 p q) := by
  unfold k3_pay2
  simp only [shapeCast_self]
  show k3_pay1 (F := Ideal) v34 (k3_pay4 (F := Ideal)) v37 v41 v47 v51 (ix2 p q) + v58 (ix2 p q) = _
  rw [pay1_apply]

/-! ## The perceptron reads its operands row by row -/

/-- The first layer's value at row r depends on row r of the four row families only. -/
theorem lin4_row {n n' K d : ℕ} (x0 x1 x2 x3 : Fin n → Fin K → EReal) (y0 y1 y2 y3 : Fin n' → Fin K → EReal)
    (w0 w1 w2 w3 : Fin K → Fin d → EReal) (b : Fin d → EReal) (r : Fin n) (r' : Fin n')
    (h0 : ∀ k, x0 r k = y0 r' k) (h1 : ∀ k, x1 r k = y1 r' k) (h2 : ∀ k, x2 r k = y2 r' k) (h3 : ∀ k, x3 r k = y3 r' k)
    (j : Fin d) : lin4 x0 x1 x2 x3 w0 w1 w2 w3 b r j = lin4 y0 y1 y2 y3 w0 w1 w2 w3 b r' j := by
  unfold lin4
  simp only [h0, h1, h2, h3]

/-- The two upper layers at row r depend on row r of the first layer's value only. -/
theorem upper_row {n n' K K' d : ℕ} (h : Fin n → Fin K → EReal) (h' : Fin n' → Fin K → EReal)
    (w2 : Fin K → Fin K' → EReal) (b2 : Fin K' → EReal) (w3 : Fin K' → Fin d → EReal) (b3 : Fin d → EReal)
    (r : Fin n) (r' : Fin n') (hh : ∀ k, h r k = h' r' k) (j : Fin d) :
    upper h w2 b2 w3 b3 r j = upper h' w2 b2 w3 b3 r' j := by
  unfold upper relu lin
  simp only [hh]

/-! ## The windows' block indices over the grid -/

theorem hz3 : (![0, 0] : Fin 2 → Nat) = fun _ => 0 := funext fun a => by fin_cases a <;> rfl

/-- The row-blocked windows (the four row inputs, the residual, the two outputs) are at block (t, 0) at point t. -/
theorem idx_rows3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_13.index t (0 : Fin 2) = t.val ∧ win3_13.index t (1 : Fin 2) = 0)
    ∧ (win3_14.index t (0 : Fin 2) = t.val ∧ win3_14.index t (1 : Fin 2) = 0)
    ∧ (win3_15.index t (0 : Fin 2) = t.val ∧ win3_15.index t (1 : Fin 2) = 0) :=
  (by decide +kernel : ∀ t : Fin grid3.N, _)

/-- The weights' and biases' windows are at block (0, 0) at every point: each is its whole array. -/
theorem idx_whole3 : ∀ t : Fin cfg3.N,
    (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = 0 ∧ win3_11.index t (1 : Fin 2) = 0)
    ∧ (win3_12.index t (0 : Fin 2) = 0 ∧ win3_12.index t (1 : Fin 2) = 0) :=
  (by decide +kernel : ∀ t : Fin grid3.N, _)

theorem row_lt (t : Fin cfg3.N) (p : Fin 5000) : 5000 * t.val + p.val < 800000 := by
  have ht : t.val < 160 := lt_of_lt_of_eq t.isLt N_3
  have hp := p.isLt
  omega

/-- Entry (p, q) of a row-blocked window's block at point t sits in the array at row 5000 t + p, column q. -/
theorem emb3_0 (t : Fin cfg3.N) (p : Fin 5000) (q : Fin 64) :
    (((cfg3.win 0).blk t).view.emb (ix2 p q) : S800000x64.Idx) = ix2 ⟨5000 * t.val + p.val, row_lt t p⟩ q := by
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  funext a; apply Fin.ext
  match a with
  | ⟨0, _⟩ => show win3_0.index t (0 : Fin 2) * 5000 + 1 * p.val = 5000 * t.val + p.val; omega
  | ⟨1, _⟩ => show win3_0.index t (1 : Fin 2) * 64 + 1 * q.val = q.val; omega
theorem emb3_1 (t : Fin cfg3.N) (p : Fin 5000) (q : Fin 64) :
    (((cfg3.win 1).blk t).view.emb (ix2 p q) : S800000x64.Idx) = ix2 ⟨5000 * t.val + p.val, row_lt t p⟩ q := by
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  funext a; apply Fin.ext
  match a with
  | ⟨0, _⟩ => show win3_1.index t (0 : Fin 2) * 5000 + 1 * p.val = 5000 * t.val + p.val; omega
  | ⟨1, _⟩ => show win3_1.index t (1 : Fin 2) * 64 + 1 * q.val = q.val; omega
theorem emb3_2 (t : Fin cfg3.N) (p : Fin 5000) (q : Fin 64) :
    (((cfg3.win 2).blk t).view.emb (ix2 p q) : S800000x64.Idx) = ix2 ⟨5000 * t.val + p.val, row_lt t p⟩ q := by
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  funext a; apply Fin.ext
  match a with
  | ⟨0, _⟩ => show win3_2.index t (0 : Fin 2) * 5000 + 1 * p.val = 5000 * t.val + p.val; omega
  | ⟨1, _⟩ => show win3_2.index t (1 : Fin 2) * 64 + 1 * q.val = q.val; omega
theorem emb3_3 (t : Fin cfg3.N) (p : Fin 5000) (q : Fin 64) :
    (((cfg3.win 3).blk t).view.emb (ix2 p q) : S800000x64.Idx) = ix2 ⟨5000 * t.val + p.val, row_lt t p⟩ q := by
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  funext a; apply Fin.ext
  match a with
  | ⟨0, _⟩ => show win3_3.index t (0 : Fin 2) * 5000 + 1 * p.val = 5000 * t.val + p.val; omega
  | ⟨1, _⟩ => show win3_3.index t (1 : Fin 2) * 64 + 1 * q.val = q.val; omega
theorem emb3_13 (t : Fin cfg3.N) (p : Fin 5000) (q : Fin 64) :
    (((cfg3.win 13).blk t).view.emb (ix2 p q) : S800000x64.Idx) = ix2 ⟨5000 * t.val + p.val, row_lt t p⟩ q := by
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  funext a; apply Fin.ext
  match a with
  | ⟨0, _⟩ => show win3_13.index t (0 : Fin 2) * 5000 + 1 * p.val = 5000 * t.val + p.val; omega
  | ⟨1, _⟩ => show win3_13.index t (1 : Fin 2) * 64 + 1 * q.val = q.val; omega
theorem emb3_14 (t : Fin cfg3.N) (p : Fin 5000) (q : Fin 64) :
    (((cfg3.win 14).blk t).view.emb (ix2 p q) : S800000x64.Idx) = ix2 ⟨5000 * t.val + p.val, row_lt t p⟩ q := by
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  funext a; apply Fin.ext
  match a with
  | ⟨0, _⟩ => show win3_14.index t (0 : Fin 2) * 5000 + 1 * p.val = 5000 * t.val + p.val; omega
  | ⟨1, _⟩ => show win3_14.index t (1 : Fin 2) * 64 + 1 * q.val = q.val; omega
theorem emb3_15 (t : Fin cfg3.N) (p : Fin 5000) (q : Fin 64) :
    (((cfg3.win 15).blk t).view.emb (ix2 p q) : S800000x64.Idx) = ix2 ⟨5000 * t.val + p.val, row_lt t p⟩ q := by
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  funext a; apply Fin.ext
  match a with
  | ⟨0, _⟩ => show win3_15.index t (0 : Fin 2) * 5000 + 1 * p.val = 5000 * t.val + p.val; omega
  | ⟨1, _⟩ => show win3_15.index t (1 : Fin 2) * 64 + 1 * q.val = q.val; omega

/-! ## The input blocks as parts of their arrays -/

variable (V : (c : Dev nD) → (b : Ref sig .tc) → Buf (Elt Ideal) ((c : Thread nD τ).loc b))

/-- Entry (p, q) of a row-blocked input's block at point t is its array's entry at row 5000 t + p, column q. -/
theorem iblk3_0_apply (c : Dev nD) (t : Fin cfg3.N) (p : Fin 5000) (q : Fin 64) :
    (iblk3 V c 0 t : Vec Ideal S5000x64 .f32) (ix2 p q)
      = (V c main_v9 : Vec Ideal S800000x64 .f32) (ix2 ⟨5000 * t.val + p.val, row_lt t p⟩ q) := by
  unfold iblk3
  rw [View.read_apply]
  show V c main_v9 _ = V c main_v9 _
  exact congrArg _ (emb3_0 t p q)
theorem iblk3_1_apply (c : Dev nD) (t : Fin cfg3.N) (p : Fin 5000) (q : Fin 64) :
    (iblk3 V c 1 t : Vec Ideal S5000x64 .f32) (ix2 p q)
      = (V c main_v10 : Vec Ideal S800000x64 .f32) (ix2 ⟨5000 * t.val + p.val, row_lt t p⟩ q) := by
  unfold iblk3
  rw [View.read_apply]
  show V c main_v10 _ = V c main_v10 _
  exact congrArg _ (emb3_1 t p q)
theorem iblk3_2_apply (c : Dev nD) (t : Fin cfg3.N) (p : Fin 5000) (q : Fin 64) :
    (iblk3 V c 2 t : Vec Ideal S5000x64 .f32) (ix2 p q)
      = (V c main_v5 : Vec Ideal S800000x64 .f32) (ix2 ⟨5000 * t.val + p.val, row_lt t p⟩ q) := by
  unfold iblk3
  rw [View.read_apply]
  show V c main_v5 _ = V c main_v5 _
  exact congrArg _ (emb3_2 t p q)
theorem iblk3_3_apply (c : Dev nD) (t : Fin cfg3.N) (p : Fin 5000) (q : Fin 64) :
    (iblk3 V c 3 t : Vec Ideal S5000x64 .f32) (ix2 p q)
      = (V c main_v11 : Vec Ideal S800000x64 .f32) (ix2 ⟨5000 * t.val + p.val, row_lt t p⟩ q) := by
  unfold iblk3
  rw [View.read_apply]
  show V c main_v11 _ = V c main_v11 _
  exact congrArg _ (emb3_3 t p q)
theorem iblk3_13_apply (c : Dev nD) (t : Fin cfg3.N) (p : Fin 5000) (q : Fin 64) :
    (iblk3 V c 13 t : Vec Ideal S5000x64 .f32) (ix2 p q)
      = (V c main_v5 : Vec Ideal S800000x64 .f32) (ix2 ⟨5000 * t.val + p.val, row_lt t p⟩ q) := by
  unfold iblk3
  rw [View.read_apply]
  show V c main_v5 _ = V c main_v5 _
  exact congrArg _ (emb3_13 t p q)

/-- A weight's or bias's block at any point is its whole array. -/
theorem iblk3_4_eq (c : Dev nD) (t : Fin cfg3.N) :
    (iblk3 V c 4 t : Vec Ideal S64x64 .f32) = (V c main_v12 : Vec Ideal S64x64 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_v12 _ = V c main_v12 _
  refine congrArg _ (funext fun a => Fin.ext ?_)
  match a with
  | ⟨0, _⟩ => show win3_4.index t (0 : Fin 2) * 64 + 1 * (j 0).val = (j 0).val; omega
  | ⟨1, _⟩ => show win3_4.index t (1 : Fin 2) * 64 + 1 * (j 1).val = (j 1).val; omega
theorem iblk3_5_eq (c : Dev nD) (t : Fin cfg3.N) :
    (iblk3 V c 5 t : Vec Ideal S64x64 .f32) = (V c main_v13 : Vec Ideal S64x64 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_v13 _ = V c main_v13 _
  refine congrArg _ (funext fun a => Fin.ext ?_)
  match a with
  | ⟨0, _⟩ => show win3_5.index t (0 : Fin 2) * 64 + 1 * (j 0).val = (j 0).val; omega
  | ⟨1, _⟩ => show win3_5.index t (1 : Fin 2) * 64 + 1 * (j 1).val = (j 1).val; omega
theorem iblk3_6_eq (c : Dev nD) (t : Fin cfg3.N) :
    (iblk3 V c 6 t : Vec Ideal S64x64 .f32) = (V c main_v14 : Vec Ideal S64x64 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_v14 _ = V c main_v14 _
  refine congrArg _ (funext fun a => Fin.ext ?_)
  match a with
  | ⟨0, _⟩ => show win3_6.index t (0 : Fin 2) * 64 + 1 * (j 0).val = (j 0).val; omega
  | ⟨1, _⟩ => show win3_6.index t (1 : Fin 2) * 64 + 1 * (j 1).val = (j 1).val; omega
theorem iblk3_7_eq (c : Dev nD) (t : Fin cfg3.N) :
    (iblk3 V c 7 t : Vec Ideal S64x64 .f32) = (V c main_v15 : Vec Ideal S64x64 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_v15 _ = V c main_v15 _
  refine congrArg _ (funext fun a => Fin.ext ?_)
  match a with
  | ⟨0, _⟩ => show win3_7.index t (0 : Fin 2) * 64 + 1 * (j 0).val = (j 0).val; omega
  | ⟨1, _⟩ => show win3_7.index t (1 : Fin 2) * 64 + 1 * (j 1).val = (j 1).val; omega
theorem iblk3_8_eq (c : Dev nD) (t : Fin cfg3.N) :
    (iblk3 V c 8 t : Vec Ideal S1x64 .f32) = (V c main_v16 : Vec Ideal S1x64 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_v16 _ = V c main_v16 _
  refine congrArg _ (funext fun a => Fin.ext ?_)
  match a with
  | ⟨0, _⟩ => show win3_8.index t (0 : Fin 2) * 1 + 1 * (j 0).val = (j 0).val; omega
  | ⟨1, _⟩ => show win3_8.index t (1 : Fin 2) * 64 + 1 * (j 1).val = (j 1).val; omega
theorem iblk3_9_eq (c : Dev nD) (t : Fin cfg3.N) :
    (iblk3 V c 9 t : Vec Ideal S64x32 .f32) = (V c main_arg17 : Vec Ideal S64x32 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_arg17 _ = V c main_arg17 _
  refine congrArg _ (funext fun a => Fin.ext ?_)
  match a with
  | ⟨0, _⟩ => show win3_9.index t (0 : Fin 2) * 64 + 1 * (j 0).val = (j 0).val; omega
  | ⟨1, _⟩ => show win3_9.index t (1 : Fin 2) * 32 + 1 * (j 1).val = (j 1).val; omega
theorem iblk3_10_eq (c : Dev nD) (t : Fin cfg3.N) :
    (iblk3 V c 10 t : Vec Ideal S1x32 .f32) = (V c main_v17 : Vec Ideal S1x32 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_v17 _ = V c main_v17 _
  refine congrArg _ (funext fun a => Fin.ext ?_)
  match a with
  | ⟨0, _⟩ => show win3_10.index t (0 : Fin 2) * 1 + 1 * (j 0).val = (j 0).val; omega
  | ⟨1, _⟩ => show win3_10.index t (1 : Fin 2) * 32 + 1 * (j 1).val = (j 1).val; omega
theorem iblk3_11_eq (c : Dev nD) (t : Fin cfg3.N) :
    (iblk3 V c 11 t : Vec Ideal S32x64 .f32) = (V c main_arg19 : Vec Ideal S32x64 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_arg19 _ = V c main_arg19 _
  refine congrArg _ (funext fun a => Fin.ext ?_)
  match a with
  | ⟨0, _⟩ => show win3_11.index t (0 : Fin 2) * 32 + 1 * (j 0).val = (j 0).val; omega
  | ⟨1, _⟩ => show win3_11.index t (1 : Fin 2) * 64 + 1 * (j 1).val = (j 1).val; omega
theorem iblk3_12_eq (c : Dev nD) (t : Fin cfg3.N) :
    (iblk3 V c 12 t : Vec Ideal S1x64 .f32) = (V c main_v18 : Vec Ideal S1x64 .f32) := by
  obtain ⟨⟨e4a, e4b⟩, ⟨e5a, e5b⟩, ⟨e6a, e6b⟩, ⟨e7a, e7b⟩, ⟨e8a, e8b⟩, ⟨e9a, e9b⟩, ⟨e10a, e10b⟩, ⟨e11a, e11b⟩, ⟨e12a, e12b⟩⟩ := idx_whole3 t
  funext j
  unfold iblk3
  rw [View.read_apply]
  show V c main_v18 _ = V c main_v18 _
  refine congrArg _ (funext fun a => Fin.ext ?_)
  match a with
  | ⟨0, _⟩ => show win3_12.index t (0 : Fin 2) * 1 + 1 * (j 0).val = (j 0).val; omega
  | ⟨1, _⟩ => show win3_12.index t (1 : Fin 2) * 64 + 1 * (j 1).val = (j 1).val; omega

/-! ## What a point writes back, and the arrays after the last point -/

/-- The first layer's value at row p of the blocks at point t is its value at row 5000 t + p of the arrays. -/
theorem h1_blk (c : Dev nD) (t : Fin cfg3.N) (p : Fin 5000) (k : Fin 64) :
    tab2 (k3_pay3 (F := Ideal) (iblk3 V c 0 t) (iblk3 V c 4 t) (iblk3 V c 1 t) (iblk3 V c 5 t) (iblk3 V c 2 t) (iblk3 V c 6 t) (iblk3 V c 3 t) (iblk3 V c 7 t) (iblk3 V c 8 t)) p k
      = (lin4 (tab2 (V c main_v9)) (tab2 (V c main_v10)) (tab2 (V c main_v5)) (tab2 (V c main_v11)) (tab2 (V c main_v12)) (tab2 (V c main_v13)) (tab2 (V c main_v14)) (tab2 (V c main_v15)) (row0 (V c main_v16))) ⟨5000 * t.val + p.val, row_lt t p⟩ k := by
  refine (pay3_apply _ _ _ _ _ _ _ _ _ p k).trans ?_
  rw [iblk3_4_eq, iblk3_5_eq, iblk3_6_eq, iblk3_7_eq, iblk3_8_eq]
  exact lin4_row _ _ _ _ _ _ _ _ _ _ _ _ _ _ _ (fun k' => iblk3_0_apply V c t p k') (fun k' => iblk3_1_apply V c t p k')
    (fun k' => iblk3_2_apply V c t p k') (fun k' => iblk3_3_apply V c t p k') k

/-- What point t writes back through the first output window is block t of the update block of the whole arrays. -/
theorem flushed3_14_eq (c : Dev nD) (t : Fin cfg3.N) :
    (dat3 (F := Ideal) V c).flushed 14 t = ((cfg3.win 14).blk t).view.read (Elt Ideal)
      (arr2 (upper (lin4 (tab2 (V c main_v9)) (tab2 (V c main_v10)) (tab2 (V c main_v5)) (tab2 (V c main_v11)) (tab2 (V c main_v12)) (tab2 (V c main_v13)) (tab2 (V c main_v14)) (tab2 (V c main_v15)) (row0 (V c main_v16))) (tab2 (V c main_arg17)) (row0 (V c main_v17)) (tab2 (V c main_arg19)) (row0 (V c main_v18)))) := by
  show (cfg3.win 14).cut (grid3.coords t) ((dat3 (F := Ideal) V c).after 14 t) = _
  rw [after3_14]
  unfold out3_14
  rw [View.canon_unit_zero hz3]
  simp only [View.ld_unit_zero (S := S5000x64) hz3, View.ld_unit_zero (S := S64x64) hz3, View.ld_unit_zero (S := S1x64) hz3,
    View.ld_unit_zero (S := S64x32) hz3, View.ld_unit_zero (S := S1x32) hz3, View.ld_unit_zero (S := S32x64) hz3]
  refine funext fun (j : S5000x64.Idx) => ?_
  obtain ⟨p, q, rfl⟩ : ∃ (p : Fin 5000) (q : Fin 64), j = ix2 p q := ⟨j 0, j 1, eq_ix2 j⟩
  rw [View.read_apply]
  show k3_pay1 (F := Ideal) (k3_pay3 (F := Ideal) (iblk3 V c 0 t) (iblk3 V c 4 t) (iblk3 V c 1 t) (iblk3 V c 5 t) (iblk3 V c 2 t) (iblk3 V c 6 t) (iblk3 V c 3 t) (iblk3 V c 7 t) (iblk3 V c 8 t)) (k3_pay4 (F := Ideal)) (iblk3 V c 9 t) (iblk3 V c 10 t) (iblk3 V c 11 t) (iblk3 V c 12 t) (ix2 p q)
    = arr2 (upper (lin4 (tab2 (V c main_v9)) (tab2 (V c main_v10)) (tab2 (V c main_v5)) (tab2 (V c main_v11)) (tab2 (V c main_v12)) (tab2 (V c main_v13)) (tab2 (V c main_v14)) (tab2 (V c main_v15)) (row0 (V c main_v16))) (tab2 (V c main_arg17)) (row0 (V c main_v17)) (tab2 (V c main_arg19)) (row0 (V c main_v18))) (((cfg3.win 14).blk t).view.emb (ix2 p q))
  rw [emb3_14 t p q]
  refine (pay1_apply _ _ _ _ _ p q).trans ?_
  rw [iblk3_9_eq, iblk3_10_eq, iblk3_11_eq, iblk3_12_eq]
  exact upper_row _ _ _ _ _ _ p ⟨5000 * t.val + p.val, row_lt t p⟩ (fun k => h1_blk V c t p k) q

/-- What point t writes back through the second output window is block t of the update block plus the bonds. -/
theorem flushed3_15_eq (c : Dev nD) (t : Fin cfg3.N) :
    (dat3 (F := Ideal) V c).flushed 15 t = ((cfg3.win 15).blk t).view.read (Elt Ideal)
      (arr2 (plus (upper (lin4 (tab2 (V c main_v9)) (tab2 (V c main_v10)) (tab2 (V c main_v5)) (tab2 (V c main_v11)) (tab2 (V c main_v12)) (tab2 (V c main_v13)) (tab2 (V c main_v14)) (tab2 (V c main_v15)) (row0 (V c main_v16))) (tab2 (V c main_arg17)) (row0 (V c main_v17)) (tab2 (V c main_arg19)) (row0 (V c main_v18))) (tab2 (V c main_v5)))) := by
  show (cfg3.win 15).cut (grid3.coords t) ((dat3 (F := Ideal) V c).after 15 t) = _
  rw [after3_15]
  unfold out3_15
  rw [View.canon_unit_zero hz3]
  simp only [View.ld_unit_zero (S := S5000x64) hz3, View.ld_unit_zero (S := S64x64) hz3, View.ld_unit_zero (S := S1x64) hz3,
    View.ld_unit_zero (S := S64x32) hz3, View.ld_unit_zero (S := S1x32) hz3, View.ld_unit_zero (S := S32x64) hz3]
  refine funext fun (j : S5000x64.Idx) => ?_
  obtain ⟨p, q, rfl⟩ : ∃ (p : Fin 5000) (q : Fin 64), j = ix2 p q := ⟨j 0, j 1, eq_ix2 j⟩
  rw [View.read_apply]
  show k3_pay2 (F := Ideal) (k3_pay3 (F := Ideal) (iblk3 V c 0 t) (iblk3 V c 4 t) (iblk3 V c 1 t) (iblk3 V c 5 t) (iblk3 V c 2 t) (iblk3 V c 6 t) (iblk3 V c 3 t) (iblk3 V c 7 t) (iblk3 V c 8 t)) (k3_pay4 (F := Ideal)) (iblk3 V c 9 t) (iblk3 V c 10 t) (iblk3 V c 11 t) (iblk3 V c 12 t) (iblk3 V c 13 t) (ix2 p q)
    = arr2 (plus (upper (lin4 (tab2 (V c main_v9)) (tab2 (V c main_v10)) (tab2 (V c main_v5)) (tab2 (V c main_v11)) (tab2 (V c main_v12)) (tab2 (V c main_v13)) (tab2 (V c main_v14)) (tab2 (V c main_v15)) (row0 (V c main_v16))) (tab2 (V c main_arg17)) (row0 (V c main_v17)) (tab2 (V c main_arg19)) (row0 (V c main_v18))) (tab2 (V c main_v5))) (((cfg3.win 15).blk t).view.emb (ix2 p q))
  rw [emb3_15 t p q]
  refine (pay2_apply _ _ _ _ _ _ p q).trans ?_
  rw [iblk3_9_eq, iblk3_10_eq, iblk3_11_eq, iblk3_12_eq, iblk3_13_apply]
  exact congrArg (fun z => z + (V c main_v5 : Vec Ideal S800000x64 .f32) (ix2 ⟨5000 * t.val + p.val, row_lt t p⟩ q))
    (upper_row _ _ _ _ _ _ p ⟨5000 * t.val + p.val, row_lt t p⟩ (fun k => h1_blk V c t p k) q)

/-! ## The output blocks tile their arrays -/

/-- An index of an output array is in point t's block iff each coordinate is in the block's range on its axis; the
    point whose block holds row r is r / 5000. -/
theorem mem_blk3_14 (t : Fin cfg3.N) (i : S800000x64.Idx) :
    i ∈ ((cfg3.win 14).blk t).view.set ↔ ∀ a : Fin 2, win3_14.index t a * S5000x64.size a ≤ (i a).val
      ∧ (i a).val < win3_14.index t a * S5000x64.size a + S5000x64.size a := by
  show i ∈ ((View.whole main_v19_0).slice (win3_14.rect t)).set ↔ _
  rw [View.set_slice_whole, Rect.mem_set_unit]
  exact Iff.rfl

theorem tiles3_14 (i : S800000x64.Idx) :
    ∃ t : Fin cfg3.N, (cfg3.win 14).flush t = true ∧ i ∈ ((cfg3.win 14).blk t).view.set := by
  have hi0 : (i 0).val < 800000 := (i 0).isLt
  have hi1 : (i 1).val < 64 := (i 1).isLt
  have hN : cfg3.N = 160 := N_3
  obtain ⟨t, ht⟩ : ∃ t : Fin cfg3.N, t.val = (i 0).val / 5000 := ⟨⟨(i 0).val / 5000, by rw [hN]; omega⟩, rfl⟩
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  refine ⟨t, flush3_14 t, (mem_blk3_14 t i).mpr fun a => ?_⟩
  match a with
  | ⟨0, _⟩ =>
    show win3_14.index t (0 : Fin 2) * 5000 ≤ (i 0).val ∧ (i 0).val < win3_14.index t (0 : Fin 2) * 5000 + 5000
    omega
  | ⟨1, _⟩ =>
    show win3_14.index t (1 : Fin 2) * 64 ≤ (i 1).val ∧ (i 1).val < win3_14.index t (1 : Fin 2) * 64 + 64
    omega

theorem mem_blk3_15 (t : Fin cfg3.N) (i : S800000x64.Idx) :
    i ∈ ((cfg3.win 15).blk t).view.set ↔ ∀ a : Fin 2, win3_15.index t a * S5000x64.size a ≤ (i a).val
      ∧ (i a).val < win3_15.index t a * S5000x64.size a + S5000x64.size a := by
  show i ∈ ((View.whole main_v19_1).slice (win3_15.rect t)).set ↔ _
  rw [View.set_slice_whole, Rect.mem_set_unit]
  exact Iff.rfl

theorem tiles3_15 (i : S800000x64.Idx) :
    ∃ t : Fin cfg3.N, (cfg3.win 15).flush t = true ∧ i ∈ ((cfg3.win 15).blk t).view.set := by
  have hi0 : (i 0).val < 800000 := (i 0).isLt
  have hi1 : (i 1).val < 64 := (i 1).isLt
  have hN : cfg3.N = 160 := N_3
  obtain ⟨t, ht⟩ : ∃ t : Fin cfg3.N, t.val = (i 0).val / 5000 := ⟨⟨(i 0).val / 5000, by rw [hN]; omega⟩, rfl⟩
  obtain ⟨⟨e0a, e0b⟩, ⟨e1a, e1b⟩, ⟨e2a, e2b⟩, ⟨e3a, e3b⟩, ⟨e13a, e13b⟩, ⟨e14a, e14b⟩, ⟨e15a, e15b⟩⟩ := idx_rows3 t
  refine ⟨t, flush3_15 t, (mem_blk3_15 t i).mpr fun a => ?_⟩
  match a with
  | ⟨0, _⟩ =>
    show win3_15.index t (0 : Fin 2) * 5000 ≤ (i 0).val ∧ (i 0).val < win3_15.index t (0 : Fin 2) * 5000 + 5000
    omega
  | ⟨1, _⟩ =>
    show win3_15.index t (1 : Fin 2) * 64 ≤ (i 1).val ∧ (i 1).val < win3_15.index t (1 : Fin 2) * 64 + 64
    omega

/-! ## The arrays after the last point -/

/-- The new bonds: the first output array ends holding the update block of the arrays the region reads. -/
theorem arrAt3_new (c : Dev nD) :
    ((dat3 (F := Ideal) V c).arrAt 14 cfg3.N : Vec Ideal S800000x64 .f32)
      = arr2 (upper (lin4 (tab2 (V c main_v9)) (tab2 (V c main_v10)) (tab2 (V c main_v5)) (tab2 (V c main_v11)) (tab2 (V c main_v12)) (tab2 (V c main_v13)) (tab2 (V c main_v14)) (tab2 (V c main_v15)) (row0 (V c main_v16))) (tab2 (V c main_arg17)) (row0 (V c main_v17)) (tab2 (V c main_arg19)) (row0 (V c main_v18))) :=
  (dat3 (F := Ideal) V c).arrAt_eq_of_cover 14 _ (fun t _ => flushed3_14_eq V c t) tiles3_14

/-- The residual output: the second output array ends holding the update block plus the bonds. -/
theorem arrAt3_final (c : Dev nD) :
    ((dat3 (F := Ideal) V c).arrAt 15 cfg3.N : Vec Ideal S800000x64 .f32)
      = arr2 (plus (upper (lin4 (tab2 (V c main_v9)) (tab2 (V c main_v10)) (tab2 (V c main_v5)) (tab2 (V c main_v11)) (tab2 (V c main_v12)) (tab2 (V c main_v13)) (tab2 (V c main_v14)) (tab2 (V c main_v15)) (row0 (V c main_v16))) (tab2 (V c main_arg17)) (row0 (V c main_v17)) (tab2 (V c main_arg19)) (row0 (V c main_v18))) (tab2 (V c main_v5))) :=
  (dat3 (F := Ideal) V c).arrAt_eq_of_cover 15 _ (fun t _ => flushed3_15_eq V c t) tiles3_15

end Cert.KernelIdeal.RegVal

end
-- ==== Proof.KiTake.lean ====
/-
  The row gathers of the kernel's host stretches: the take in fill mode.

  A take in fill mode wraps a negative index by the table's row count, gathers the rows at the wrapped index and
  replaces by a NaN row every row whose wrapped index lies outside the table. The replacement is a select on a mask:
  per row, the conjunction over the index vector of `0 ≤ index` and `index ≤ N − 1`, signed. When every index lies
  in `[0, N − 1]` the mask is all ones and the select returns the gathered rows: the take is the plain gather of the
  wrapped index.
-/
import proofs.«424920_j53549652246920_2_alg».proof.Proof.Gen.KernelIdeal.Launch
import Idealize.ShloMosaic.Lib.ReduceAll
import Idealize.ShloMosaic.Lib.StableHlo.Run

set_option maxRecDepth 3720

noncomputable section

namespace Cert.KernelIdeal.Take

open Idealize.ShloMosaic Idealize.SL.Sem
open Cert.KernelIdeal Cert.KernelIdeal.Gen

/-! ## The mask is all ones -/

/-- A left fold by `and` over `i1` words from 1 that meets only 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl => by
    refine foldl_andi_ones f l _ ?_ (fun n hn => hl n (List.mem_cons_of_mem _ hn))
    show IntOp.andi init (f a) = 1#1
    rw [hi, hl a (List.mem_cons_self ..)]; decide

/-- A reduce by `and` of an all-ones `i1` array from 1 is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact foldl_andi_ones x _ _ (hinit _) (fun n _ => hx n)

/-- THE MASK. For start indices `v5` all in `[0, c]` signed, the take's select on its range mask — per row the
    conjunction of `0 ≤ v5` and `v5 ≤ c` reduced by `and`, then laid along the rows — returns its first branch. -/
theorem select_take_mask {α : Type} {sI sR sO : Shape} {axes : List (Fin sI.rank)}
    {dz : Fin S_.rank → Fin sI.rank} (bz : S_.BroadcastsInDim sI dz)
    {d1 : Fin S1.rank → Fin S1x1.rank} (b1 : S1.BroadcastsInDim S1x1 d1)
    {d2 : Fin S1x1.rank → Fin sI.rank} (b2 : S1x1.BroadcastsInDim sI d2)
    (hred : sI.ReducesTo axes sR) (hu : 0 < S_.numel)
    {d3 : Fin sR.rank → Fin sO.rank} (b3 : sR.BroadcastsInDim sO d3)
    (v5 : IVec sI 32) (c : BitVec 32)
    (h0 : ∀ j, IntOp.cmpi .sge (v5 j) 0#32 = 1#1) (h1 : ∀ j, IntOp.cmpi .sle (v5 j) c = 1#1)
    (g d : sO.Idx → α) :
    select (broadcastInDim sO d3 b3 (Host.reduce IntOp.andi
        (andi (cmpi .sge v5 (broadcastInDim sI dz bz (constantI S_ 32 0#32)))
          (cmpi .sle v5 (broadcastInDim sI d2 b2 (broadcastInDim S1x1 d1 b1 (constantI S1 32 c)))))
        (constantI S_ 1 1#1) hred hu)) g d = g := by
  funext i
  have hm : ∀ j, Host.reduce IntOp.andi
        (andi (cmpi .sge v5 (broadcastInDim sI dz bz (constantI S_ 32 0#32)))
          (cmpi .sle v5 (broadcastInDim sI d2 b2 (broadcastInDim S1x1 d1 b1 (constantI S1 32 c)))))
        (constantI S_ 1 1#1) hred hu j = 1#1 := fun j =>
    reduce_andi_ones _ _ hred hu (fun k => by
      show IntOp.andi (IntOp.cmpi .sge (v5 k) 0#32) (IntOp.cmpi .sle (v5 k) c) = 1#1
      rw [h0 k, h1 k]; decide) (fun _ => rfl) j
  show Scalar.select (Host.reduce IntOp.andi _ _ hred hu _) (g i) (d i) = g i
  rw [hm]; rfl

/-! ## The wrapped index -/

/-- A word that is `≥ 0` signed is not `< 0` signed. -/
theorem not_slt_zero {w : BitVec 32} (h : IntOp.cmpi .sge w 0#32 = 1#1) : ¬ IntOp.cmpi .slt w 0#32 = 1 := by
  rw [IntOp.cmpi_sge] at h
  intro h'
  have h'' : IntOp.cmpi .slt w 0#32 = 1#1 := h'
  rw [IntOp.cmpi_slt] at h''
  omega

/-- THE WRAP IS IDLE. The index wrapped by the row count where negative is the index, every index being `≥ 0`. -/
theorem wrap_eq {sV : Shape} {dz : Fin S_.rank → Fin sV.rank} (bz : S_.BroadcastsInDim sV dz) (idx : IVec sV 32) (N : BitVec 32)
    (h0 : ∀ e, IntOp.cmpi .sge (idx e) 0#32 = 1#1) :
    select (cmpi .slt idx (broadcastInDim sV dz bz (constantI S_ 32 0#32))) (addi idx (broadcastInDim sV dz bz (constantI S_ 32 N))) idx
      = idx := by
  funext e
  show Scalar.select (IntOp.cmpi .slt (idx e) 0#32) _ (idx e) = idx e
  unfold Scalar.select
  rw [if_neg (not_slt_zero (h0 e))]

/-- The take's start indices — the wrapped index as a column — are in range where the index is. -/
theorem wrap_range {sV sI : Shape} {dz : Fin S_.rank → Fin sV.rank} (bz : S_.BroadcastsInDim sV dz)
    {dv : Fin sV.rank → Fin sI.rank} (bv : sV.BroadcastsInDim sI dv) (idx : IVec sV 32) (N c : BitVec 32)
    (h0 : ∀ e, IntOp.cmpi .sge (idx e) 0#32 = 1#1) (h1 : ∀ e, IntOp.cmpi .sle (idx e) c = 1#1) (j : sI.Idx) :
    IntOp.cmpi .sge (broadcastInDim sI dv bv (select (cmpi .slt idx (broadcastInDim sV dz bz (constantI S_ 32 0#32)))
        (addi idx (broadcastInDim sV dz bz (constantI S_ 32 N))) idx) j) 0#32 = 1#1
      ∧ IntOp.cmpi .sle (broadcastInDim sI dv bv (select (cmpi .slt idx (broadcastInDim sV dz bz (constantI S_ 32 0#32)))
        (addi idx (broadcastInDim sV dz bz (constantI S_ 32 N))) idx) j) c = 1#1 := by
  rw [wrap_eq bz idx N h0]
  exact ⟨h0 _, h1 _⟩

/-! ## Typed references -/

/-- Contents carried to a typed reference's buffer and back are the contents. -/
theorem ofBuf_toBuf {Val : EltTy → Type} {T : BufTy} (x : StableHlo.TRef sig T) (v : T.Contents Val) : x.ofBuf (x.toBuf v) = v := by
  obtain ⟨r, h, a, b⟩ := x
  subst h
  rfl

/-! ## The take as printed, and its value -/

variable {F : FTy → Type} [FloatOps F]

/-- The take's start indices: the index wrapped by the row count `N` where negative, laid as a column. -/
abbrev wrapCol {sV sI : Shape} {dz : Fin S_.rank → Fin sV.rank} (bz : S_.BroadcastsInDim sV dz)
    {dv : Fin sV.rank → Fin sI.rank} (bv : sV.BroadcastsInDim sI dv) (idx : IVec sV 32) (N : BitVec 32) : IVec sI 32 :=
  broadcastInDim sI dv bv (select (cmpi .slt idx (broadcastInDim sV dz bz (constantI S_ 32 0#32)))
    (addi idx (broadcastInDim sV dz bz (constantI S_ 32 N))) idx)

/-- A take in fill mode as the programs print it: the rows of `x` gathered at the wrapped index, a NaN row wherever
    the wrapped index lies outside `[0, c]`. -/
abbrev takeFill {sX sV sI sR sO : Shape} {axes : List (Fin sI.rank)} (gd : GatherDims sX sI sO)
    {dz : Fin S_.rank → Fin sV.rank} (bzV : S_.BroadcastsInDim sV dz)
    {dv : Fin sV.rank → Fin sI.rank} (bv : sV.BroadcastsInDim sI dv)
    {dzI : Fin S_.rank → Fin sI.rank} (bzI : S_.BroadcastsInDim sI dzI)
    {d1 : Fin S1.rank → Fin S1x1.rank} (b1 : S1.BroadcastsInDim S1x1 d1)
    {d2 : Fin S1x1.rank → Fin sI.rank} (b2 : S1x1.BroadcastsInDim sI d2)
    (hred : sI.ReducesTo axes sR) (hu : 0 < S_.numel)
    {d3 : Fin sR.rank → Fin sO.rank} (b3 : sR.BroadcastsInDim sO d3)
    {dzO : Fin S_.rank → Fin sO.rank} (bzO : S_.BroadcastsInDim sO dzO)
    (x : FVec F sX .f32) (idx : IVec sV 32) (N c : BitVec 32) : FVec F sO .f32 :=
  select (broadcastInDim sO d3 b3 (Host.reduce IntOp.andi
      (andi (cmpi .sge (wrapCol bzV bv idx N) (broadcastInDim sI dzI bzI (constantI S_ 32 0#32)))
        (cmpi .sle (wrapCol bzV bv idx N) (broadcastInDim sI d2 b2 (broadcastInDim S1x1 d1 b1 (constantI S1 32 c)))))
      (constantI S_ 1 1#1) hred hu))
    (Host.gather gd x (wrapCol bzV bv idx N))
    (broadcastInDim sO dzO bzO (constant S_ .f32 0x7FC00000#32))

/-- THE TAKE IN RANGE. With every index in `[0, c]` signed, the take in fill mode is the plain gather of the
    wrapped index: the range mask is all ones and the select never takes the NaN row. -/
theorem takeFill_eq {sX sV sI sR sO : Shape} {axes : List (Fin sI.rank)} (gd : GatherDims sX sI sO)
    {dz : Fin S_.rank → Fin sV.rank} (bzV : S_.BroadcastsInDim sV dz)
    {dv : Fin sV.rank → Fin sI.rank} (bv : sV.BroadcastsInDim sI dv)
    {dzI : Fin S_.rank → Fin sI.rank} (bzI : S_.BroadcastsInDim sI dzI)
    {d1 : Fin S1.rank → Fin S1x1.rank} (b1 : S1.BroadcastsInDim S1x1 d1)
    {d2 : Fin S1x1.rank → Fin sI.rank} (b2 : S1x1.BroadcastsInDim sI d2)
    (hred : sI.ReducesTo axes sR) (hu : 0 < S_.numel)
    {d3 : Fin sR.rank → Fin sO.rank} (b3 : sR.BroadcastsInDim sO d3)
    {dzO : Fin S_.rank → Fin sO.rank} (bzO : S_.BroadcastsInDim sO dzO)
    (x : FVec F sX .f32) (idx : IVec sV 32) (N c : BitVec 32)
    (h0 : ∀ e, IntOp.cmpi .sge (idx e) 0#32 = 1#1) (h1 : ∀ e, IntOp.cmpi .sle (idx e) c = 1#1) :
    takeFill gd bzV bv bzI b1 b2 hred hu b3 bzO x idx N c
      = Host.gather gd x (broadcastInDim sI dv bv (select (cmpi .slt idx (broadcastInDim sV dz bzV (constantI S_ 32 0#32)))
          (addi idx (broadcastInDim sV dz bzV (constantI S_ 32 N))) idx)) :=
  select_take_mask bzI b1 b2 hred hu b3 (wrapCol bzV bv idx N) c
    (fun j => (wrap_range bzV bv idx N c h0 h1 j).1) (fun j => (wrap_range bzV bv idx N c h0 h1 j).2) _ _

/-! ## The four takes of the host stretches -/

set_option maxHeartbeats 4000000 in
/-- The first take as printed: `main_v9` after its stretch is the take in fill mode of `main_v2` at `indices1`. -/
theorem after_main_v9 (W : Valuation τ sig (Elt F)) :
    StableHlo.after (hostOps3 (F := F)) W (Proc.devRef .tc main_v9)
      = takeFill gather_S100000x64_S800000x1_S800000x64_1_0_n_n_0_1_164 bcast_S_S800000 bcast_S800000_S800000x1_0 bcast_S_S800000x1
          bcast_S1_S1x1_1 bcast_S1x1_S800000x1_0_1 reducesTo_S800000x1_S800000_d1 h_S_ bcast_S800000_S800000x64_0 bcast_S_S800000x64
          (W (Proc.devRef .tc main_v2) : FVec F S100000x64 .f32) (W (Proc.devRef .tc main_arg33) : IVec S800000 32) 100000#32 99999#32 := by
  open StableHlo in after_results_simp
  have ei : (StableHlo.TRef.of main_arg33 : StableHlo.TRef sig ⟨S800000, .i32⟩).ofBuf (W (Proc.devRef .tc main_arg33)) = (W (Proc.devRef .tc main_arg33) : IVec S800000 32) := rfl
  have ex : (StableHlo.TRef.of main_v2 : StableHlo.TRef sig ⟨S100000x64, .f32⟩).ofBuf (W (Proc.devRef .tc main_v2)) = (W (Proc.devRef .tc main_v2) : FVec F S100000x64 .f32) := rfl
  have eo : ∀ v : (⟨S800000x64, .f32⟩ : BufTy).Contents (Elt F), (StableHlo.TRef.of main_v9 : StableHlo.TRef sig ⟨S800000x64, .f32⟩).toBuf v = v := fun v => rfl
  simp only [ofBuf_toBuf, ei, ex, eo]

/-- The first take in range: with every word of `indices1` in `[0, 99999]` signed, `main_v9` after its stretch is the
    plain gather of `main_v2`'s rows at the wrapped index. -/
theorem take_main_v9 (W : Valuation τ sig (Elt F))
    (h0 : ∀ e, IntOp.cmpi .sge ((W (Proc.devRef .tc main_arg33) : IVec S800000 32) e) 0#32 = 1#1)
    (h1 : ∀ e, IntOp.cmpi .sle ((W (Proc.devRef .tc main_arg33) : IVec S800000 32) e) 99999#32 = 1#1) :
    StableHlo.after (hostOps3 (F := F)) W (Proc.devRef .tc main_v9)
      = (Host.gather gather_S100000x64_S800000x1_S800000x64_1_0_n_n_0_1_164 (W (Proc.devRef .tc main_v2) : FVec F S100000x64 .f32)
          (broadcastInDim S800000x1 ![0] bcast_S800000_S800000x1_0
            (select (cmpi .slt (W (Proc.devRef .tc main_arg33) : IVec S800000 32) (broadcastInDim S800000 ![] bcast_S_S800000 (constantI S_ 32 0#32)))
              (addi (W (Proc.devRef .tc main_arg33) : IVec S800000 32) (broadcastInDim S800000 ![] bcast_S_S800000 (constantI S_ 32 100000#32)))
              (W (Proc.devRef .tc main_arg33) : IVec S800000 32))) : FVec F S800000x64 .f32) :=
  (after_main_v9 W).trans (takeFill_eq _ _ _ _ _ _ _ _ _ _ _ _ _ _ h0 h1)

set_option maxHeartbeats 4000000 in
/-- The second take as printed: `main_v10` after its stretch is the take in fill mode of `main_v2` at `indices2`. -/
theorem after_main_v10 (W : Valuation τ sig (Elt F)) :
    StableHlo.after (hostOps3_1 (F := F)) W (Proc.devRef .tc main_v10)
      = takeFill gather_S100000x64_S800000x1_S800000x64_1_0_n_n_0_1_164 bcast_S_S800000 bcast_S800000_S800000x1_0 bcast_S_S800000x1
          bcast_S1_S1x1_1 bcast_S1x1_S800000x1_0_1 reducesTo_S800000x1_S800000_d1 h_S_ bcast_S800000_S800000x64_0 bcast_S_S800000x64
          (W (Proc.devRef .tc main_v2) : FVec F S100000x64 .f32) (W (Proc.devRef .tc main_arg34) : IVec S800000 32) 100000#32 99999#32 := by
  open StableHlo in after_results_simp
  have ei : (StableHlo.TRef.of main_arg34 : StableHlo.TRef sig ⟨S800000, .i32⟩).ofBuf (W (Proc.devRef .tc main_arg34)) = (W (Proc.devRef .tc main_arg34) : IVec S800000 32) := rfl
  have ex : (StableHlo.TRef.of main_v2 : StableHlo.TRef sig ⟨S100000x64, .f32⟩).ofBuf (W (Proc.devRef .tc main_v2)) = (W (Proc.devRef .tc main_v2) : FVec F S100000x64 .f32) := rfl
  have eo : ∀ v : (⟨S800000x64, .f32⟩ : BufTy).Contents (Elt F), (StableHlo.TRef.of main_v10 : StableHlo.TRef sig ⟨S800000x64, .f32⟩).toBuf v = v := fun v => rfl
  simp only [ofBuf_toBuf, ei, ex, eo]

/-- The second take in range: with every word of `indices2` in `[0, 99999]` signed, `main_v10` after its stretch is the
    plain gather of `main_v2`'s rows at the wrapped index. -/
theorem take_main_v10 (W : Valuation τ sig (Elt F))
    (h0 : ∀ e, IntOp.cmpi .sge ((W (Proc.devRef .tc main_arg34) : IVec S800000 32) e) 0#32 = 1#1)
    (h1 : ∀ e, IntOp.cmpi .sle ((W (Proc.devRef .tc main_arg34) : IVec S800000 32) e) 99999#32 = 1#1) :
    StableHlo.after (hostOps3_1 (F := F)) W (Proc.devRef .tc main_v10)
      = (Host.gather gather_S100000x64_S800000x1_S800000x64_1_0_n_n_0_1_164 (W (Proc.devRef .tc main_v2) : FVec F S100000x64 .f32)
          (broadcastInDim S800000x1 ![0] bcast_S800000_S800000x1_0
            (select (cmpi .slt (W (Proc.devRef .tc main_arg34) : IVec S800000 32) (broadcastInDim S800000 ![] bcast_S_S800000 (constantI S_ 32 0#32)))
              (addi (W (Proc.devRef .tc main_arg34) : IVec S800000 32) (broadcastInDim S800000 ![] bcast_S_S800000 (constantI S_ 32 100000#32)))
              (W (Proc.devRef .tc main_arg34) : IVec S800000 32))) : FVec F S800000x64 .f32) :=
  (after_main_v10 W).trans (takeFill_eq _ _ _ _ _ _ _ _ _ _ _ _ _ _ h0 h1)

set_option maxHeartbeats 4000000 in
/-- The third take as printed: `main_v11` after its stretch is the take in fill mode of `main_v8` at `graph_to_bonds`. -/
theorem after_main_v11 (W : Valuation τ sig (Elt F)) :
    StableHlo.after (hostOps3_2 (F := F)) W (Proc.devRef .tc main_v11)
      = takeFill gather_S1000x64_S800000x1_S800000x64_1_0_n_n_0_1_164 bcast_S_S800000 bcast_S800000_S800000x1_0 bcast_S_S800000x1
          bcast_S1_S1x1_1 bcast_S1x1_S800000x1_0_1 reducesTo_S800000x1_S800000_d1 h_S_ bcast_S800000_S800000x64_0 bcast_S_S800000x64
          (W (Proc.devRef .tc main_v8) : FVec F S1000x64 .f32) (W (Proc.devRef .tc main_arg36) : IVec S800000 32) 1000#32 999#32 := by
  open StableHlo in after_results_simp
  have ei : (StableHlo.TRef.of main_arg36 : StableHlo.TRef sig ⟨S800000, .i32⟩).ofBuf (W (Proc.devRef .tc main_arg36)) = (W (Proc.devRef .tc main_arg36) : IVec S800000 32) := rfl
  have ex : (StableHlo.TRef.of main_v8 : StableHlo.TRef sig ⟨S1000x64, .f32⟩).ofBuf (W (Proc.devRef .tc main_v8)) = (W (Proc.devRef .tc main_v8) : FVec F S1000x64 .f32) := rfl
  have eo : ∀ v : (⟨S800000x64, .f32⟩ : BufTy).Contents (Elt F), (StableHlo.TRef.of main_v11 : StableHlo.TRef sig ⟨S800000x64, .f32⟩).toBuf v = v := fun v => rfl
  simp only [ofBuf_toBuf, ei, ex, eo]

/-- The third take in range: with every word of `graph_to_bonds` in `[0, 999]` signed, `main_v11` after its stretch is the
    plain gather of `main_v8`'s rows at the wrapped index. -/
theorem take_main_v11 (W : Valuation τ sig (Elt F))
    (h0 : ∀ e, IntOp.cmpi .sge ((W (Proc.devRef .tc main_arg36) : IVec S800000 32) e) 0#32 = 1#1)
    (h1 : ∀ e, IntOp.cmpi .sle ((W (Proc.devRef .tc main_arg36) : IVec S800000 32) e) 999#32 = 1#1) :
    StableHlo.after (hostOps3_2 (F := F)) W (Proc.devRef .tc main_v11)
      = (Host.gather gather_S1000x64_S800000x1_S800000x64_1_0_n_n_0_1_164 (W (Proc.devRef .tc main_v8) : FVec F S1000x64 .f32)
          (broadcastInDim S800000x1 ![0] bcast_S800000_S800000x1_0
            (select (cmpi .slt (W (Proc.devRef .tc main_arg36) : IVec S800000 32) (broadcastInDim S800000 ![] bcast_S_S800000 (constantI S_ 32 0#32)))
              (addi (W (Proc.devRef .tc main_arg36) : IVec S800000 32) (broadcastInDim S800000 ![] bcast_S_S800000 (constantI S_ 32 1000#32)))
              (W (Proc.devRef .tc main_arg36) : IVec S800000 32))) : FVec F S800000x64 .f32) :=
  (after_main_v11 W).trans (takeFill_eq _ _ _ _ _ _ _ _ _ _ _ _ _ _ h0 h1)

set_option maxHeartbeats 4000000 in
/-- The fourth take as printed: `main_v32` after its stretch is the take in fill mode of `main_v8` at `graph_to_sites`. -/
theorem after_main_v32 (W : Valuation τ sig (Elt F)) :
    StableHlo.after (hostOps4_1 (F := F)) W (Proc.devRef .tc main_v32)
      = takeFill gather_S1000x64_S100000x1_S100000x64_1_0_n_n_0_1_164 bcast_S_S100000 bcast_S100000_S100000x1_0 bcast_S_S100000x1
          bcast_S1_S1x1_1 bcast_S1x1_S100000x1_0_1 reducesTo_S100000x1_S100000_d1 h_S_ bcast_S100000_S100000x64_0 bcast_S_S100000x64
          (W (Proc.devRef .tc main_v8) : FVec F S1000x64 .f32) (W (Proc.devRef .tc main_arg35) : IVec S100000 32) 1000#32 999#32 := by
  open StableHlo in after_results_simp
  have ei : (StableHlo.TRef.of main_arg35 : StableHlo.TRef sig ⟨S100000, .i32⟩).ofBuf (W (Proc.devRef .tc main_arg35)) = (W (Proc.devRef .tc main_arg35) : IVec S100000 32) := rfl
  have ex : (StableHlo.TRef.of main_v8 : StableHlo.TRef sig ⟨S1000x64, .f32⟩).ofBuf (W (Proc.devRef .tc main_v8)) = (W (Proc.devRef .tc main_v8) : FVec F S1000x64 .f32) := rfl
  have eo : ∀ v : (⟨S100000x64, .f32⟩ : BufTy).Contents (Elt F), (StableHlo.TRef.of main_v32 : StableHlo.TRef sig ⟨S100000x64, .f32⟩).toBuf v = v := fun v => rfl
  simp only [ofBuf_toBuf, ei, ex, eo]

/-- The fourth take in range: with every word of `graph_to_sites` in `[0, 999]` signed, `main_v32` after its stretch is the
    plain gather of `main_v8`'s rows at the wrapped index. -/
theorem take_main_v32 (W : Valuation τ sig (Elt F))
    (h0 : ∀ e, IntOp.cmpi .sge ((W (Proc.devRef .tc main_arg35) : IVec S100000 32) e) 0#32 = 1#1)
    (h1 : ∀ e, IntOp.cmpi .sle ((W (Proc.devRef .tc main_arg35) : IVec S100000 32) e) 999#32 = 1#1) :
    StableHlo.after (hostOps4_1 (F := F)) W (Proc.devRef .tc main_v32)
      = (Host.gather gather_S1000x64_S100000x1_S100000x64_1_0_n_n_0_1_164 (W (Proc.devRef .tc main_v8) : FVec F S1000x64 .f32)
          (broadcastInDim S100000x1 ![0] bcast_S100000_S100000x1_0
            (select (cmpi .slt (W (Proc.devRef .tc main_arg35) : IVec S100000 32) (broadcastInDim S100000 ![] bcast_S_S100000 (constantI S_ 32 0#32)))
              (addi (W (Proc.devRef .tc main_arg35) : IVec S100000 32) (broadcastInDim S100000 ![] bcast_S_S100000 (constantI S_ 32 1000#32)))
              (W (Proc.devRef .tc main_arg35) : IVec S100000 32))) : FVec F S100000x64 .f32) :=
  (after_main_v32 W).trans (takeFill_eq _ _ _ _ _ _ _ _ _ _ _ _ _ _ h0 h1)

end Cert.KernelIdeal.Take

end
-- ==== Proof.KiPre.lean ====
/-
  The index ranges, read out of the precondition.

  The precondition is a conjunction, by `and` of `i1` scalars, of one all-reduction by `and` per argument: thirty-three finiteness
  tests of the float arguments, then one range test per integer index argument, `0 ≤ index ≤ N − 1` signed at every
  position. That the conjunction is 1 gives each conjunct 1; an all-reduction that is 1 gives its operand 1 at every
  position; the operand at a position is the `and` of the two signed compares of the index word there.
-/
import proofs.«424920_j53549652246920_2_alg».proof.Defs
import proofs.«424920_j53549652246920_2_alg».proof.Proof.Gen.Pre_finite_inputs
import Idealize.ShloMosaic.Lib.ReduceAll
import Idealize.ShloMosaic.Lib.ValueIdx

set_option maxRecDepth 8192

noncomputable section

namespace Cert.KernelIdeal.PreFacts

open Idealize.ShloMosaic Idealize.ShloMosaic.TcCoe Idealize.SL.Sem
open Cert.Pre_finite_inputs

/-- A rank-0 array has one index. -/
instance subsingleton_S_Idx : Subsingleton S_.Idx := ⟨fun a b => funext fun d => d.elim0⟩

/-- ONE RANGE TEST READ BACK. The all-reduction of `(a ≥ lo) & (a ≤ hi)` being 1 says both signed compares hold of the word at
    every position. -/
theorem range_of_all {s : Shape} {axes : List (Fin s.rank)} (a : IVec s 32)
    {dz : Fin S_.rank → Fin s.rank} (bz : S_.BroadcastsInDim s dz) (lo hi : BitVec 32)
    (hred : s.ReducesTo axes S_) (hu : 0 < S_.numel) (i : S_.Idx)
    (h : Host.reduce IntOp.andi
        (andi (cmpi .sge a (broadcastInDim s dz bz (constantI S_ 32 lo))) (cmpi .sle a (broadcastInDim s dz bz (constantI S_ 32 hi))))
        (constantI S_ 1 1#1) hred hu i = 1#1) (e : s.Idx) :
    IntOp.cmpi .sge (a e) lo = 1#1 ∧ IntOp.cmpi .sle (a e) hi = 1#1 :=
  IntOp.andi_eq_one.1 (Host.reduce_andi_all _ _ hred hu i h e)

section Parts

variable [Facts] {F : FTy → Type} [FloatOps F]

/-- The last three range tests, out of the tail of the conjunction. -/
theorem part10 (a34 : IVec S800000 32) (a35 : IVec S100000 32) (a36 : IVec S800000 32) (v170 : IVec S_ 1) (i : S_.Idx)
    (h : fn_part10 (F := F) a34 a35 a36 v170 i = 1#1) :
    v170 i = 1#1
      ∧ (∀ e, IntOp.cmpi .sge (a34 e) 0#32 = 1#1 ∧ IntOp.cmpi .sle (a34 e) 99999#32 = 1#1)
      ∧ (∀ e, IntOp.cmpi .sge (a35 e) 0#32 = 1#1 ∧ IntOp.cmpi .sle (a35 e) 999#32 = 1#1)
      ∧ (∀ e, IntOp.cmpi .sge (a36 e) 0#32 = 1#1 ∧ IntOp.cmpi .sle (a36 e) 999#32 = 1#1) := by
  have h' : IntOp.andi (IntOp.andi (IntOp.andi (v170 i) _) _) _ = 1#1 := h
  obtain ⟨h1, h36⟩ := IntOp.andi_eq_one.1 h'
  obtain ⟨h2, h35⟩ := IntOp.andi_eq_one.1 h1
  obtain ⟨h3, h34⟩ := IntOp.andi_eq_one.1 h2
  exact ⟨h3, fun e => range_of_all a34 _ _ _ _ _ i h34 e, fun e => range_of_all a35 _ _ _ _ _ i h35 e,
    fun e => range_of_all a36 _ _ _ _ _ i h36 e⟩

/-- All four range tests, out of the tail of the conjunction. -/
theorem part9 (a31 : FVec F S32x64 .f32) (a32 : FVec F S64 .f32) (a33 : IVec S800000 32) (a34 : IVec S800000 32)
    (a35 : IVec S100000 32) (a36 : IVec S800000 32) (v153 : IVec S_ 1) (i : S_.Idx)
    (h : fn_part9 (F := F) a31 a32 a33 a34 a35 a36 v153 i = 1#1) :
    (∀ e, IntOp.cmpi .sge (a33 e) 0#32 = 1#1 ∧ IntOp.cmpi .sle (a33 e) 99999#32 = 1#1)
      ∧ (∀ e, IntOp.cmpi .sge (a34 e) 0#32 = 1#1 ∧ IntOp.cmpi .sle (a34 e) 99999#32 = 1#1)
      ∧ (∀ e, IntOp.cmpi .sge (a35 e) 0#32 = 1#1 ∧ IntOp.cmpi .sle (a35 e) 999#32 = 1#1)
      ∧ (∀ e, IntOp.cmpi .sge (a36 e) 0#32 = 1#1 ∧ IntOp.cmpi .sle (a36 e) 999#32 = 1#1) := by
  have h10 : fn_part10 (F := F) a34 a35 a36 _ i = 1#1 := h
  obtain ⟨h170, f34, f35, f36⟩ := part10 _ _ _ _ i h10
  have h' : IntOp.andi _ _ = 1#1 := h170
  obtain ⟨-, h33⟩ := IntOp.andi_eq_one.1 h'
  exact ⟨fun e => range_of_all a33 _ _ _ _ _ i h33 e, f34, f35, f36⟩

end Parts

/-- THE INDEX RANGES. Under the precondition, on every core, every word of each integer index argument lies in
    its table's row range, as the two signed compares the programs print: `indices1`, `indices2` (arguments 33, 34)
    in `[0, 99999]`, `graph_to_sites`, `graph_to_bonds` (arguments 35, 36) in `[0, 999]`. -/
theorem ranges [Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : Cert.KernelIdeal.S800000.Idx,
        IntOp.cmpi .sge ((m ((c.tc : Thread Cert.KernelIdeal.nD Cert.KernelIdeal.τ).loc Cert.KernelIdeal.main_arg33) : IVec Cert.KernelIdeal.S800000 32) e) 0#32 = 1#1
        ∧ IntOp.cmpi .sle ((m ((c.tc : Thread Cert.KernelIdeal.nD Cert.KernelIdeal.τ).loc Cert.KernelIdeal.main_arg33) : IVec Cert.KernelIdeal.S800000 32) e) 99999#32 = 1#1)
      ∧ (∀ e : Cert.KernelIdeal.S800000.Idx,
        IntOp.cmpi .sge ((m ((c.tc : Thread Cert.KernelIdeal.nD Cert.KernelIdeal.τ).loc Cert.KernelIdeal.main_arg34) : IVec Cert.KernelIdeal.S800000 32) e) 0#32 = 1#1
        ∧ IntOp.cmpi .sle ((m ((c.tc : Thread Cert.KernelIdeal.nD Cert.KernelIdeal.τ).loc Cert.KernelIdeal.main_arg34) : IVec Cert.KernelIdeal.S800000 32) e) 99999#32 = 1#1)
      ∧ (∀ e : Cert.KernelIdeal.S100000.Idx,
        IntOp.cmpi .sge ((m ((c.tc : Thread Cert.KernelIdeal.nD Cert.KernelIdeal.τ).loc Cert.KernelIdeal.main_arg35) : IVec Cert.KernelIdeal.S100000 32) e) 0#32 = 1#1
        ∧ IntOp.cmpi .sle ((m ((c.tc : Thread Cert.KernelIdeal.nD Cert.KernelIdeal.τ).loc Cert.KernelIdeal.main_arg35) : IVec Cert.KernelIdeal.S100000 32) e) 999#32 = 1#1)
      ∧ (∀ e : Cert.KernelIdeal.S800000.Idx,
        IntOp.cmpi .sge ((m ((c.tc : Thread Cert.KernelIdeal.nD Cert.KernelIdeal.τ).loc Cert.KernelIdeal.main_arg36) : IVec Cert.KernelIdeal.S800000 32) e) 0#32 = 1#1
        ∧ IntOp.cmpi .sle ((m ((c.tc : Thread Cert.KernelIdeal.nD Cert.KernelIdeal.τ).loc Cert.KernelIdeal.main_arg36) : IVec Cert.KernelIdeal.S800000 32) e) 999#32 = 1#1) := by
  have e9 : fn_part9 (F := Ideal)
      (m ((c.tc : Thread Cert.KernelIdeal.nD Cert.KernelIdeal.τ).loc Cert.KernelIdeal.main_arg31))
      (m ((c.tc : Thread Cert.KernelIdeal.nD Cert.KernelIdeal.τ).loc Cert.KernelIdeal.main_arg32))
      (m ((c.tc : Thread Cert.KernelIdeal.nD Cert.KernelIdeal.τ).loc Cert.KernelIdeal.main_arg33))
      (m ((c.tc : Thread Cert.KernelIdeal.nD Cert.KernelIdeal.τ).loc Cert.KernelIdeal.main_arg34))
      (m ((c.tc : Thread Cert.KernelIdeal.nD Cert.KernelIdeal.τ).loc Cert.KernelIdeal.main_arg35))
      (m ((c.tc : Thread Cert.KernelIdeal.nD Cert.KernelIdeal.τ).loc Cert.KernelIdeal.main_arg36)) _ ValueIdx.ix0 = 1#1 :=
    congrFun (h c) ValueIdx.ix0
  exact part9 _ _ _ _ _ _ _ ValueIdx.ix0 e9

end Cert.KernelIdeal.PreFacts

end
-- ==== Proof.KiHost.lean ====
/-
  The host stretches of the kernel's @main, read back.

  Between its kernel regions the program runs host operations on whole arrays: biases reshaped to rows, stacked weight
  matrices cut into their 64-row blocks, and the pooled means — rows scattered onto their target by addition, divided by
  the number of rows that landed there (at least one). For any contents `W` of the buffers before a stretch, each buffer
  a later region reads holds after the stretch the composed value of the stretch's operations over `W`'s values at the
  stretch's inputs.
-/
import proofs.«424920_j53549652246920_2_alg».proof.Proof.Gen.KernelIdeal.Launch
import Idealize.ShloMosaic.Lib.StableHlo.Run

set_option maxRecDepth 3720

noncomputable section

namespace Cert.KernelIdeal.HostRead

open Idealize.ShloMosaic Idealize.SL.Sem
open Cert.KernelIdeal Cert.KernelIdeal.Gen

variable {F : FTy → Type} [FloatOps F]

/-! ## Biases as rows -/

set_option maxHeartbeats 4000000 in
/-- `main_v0` after its stretch: `main_arg4` as a row. -/
theorem host_main_v0 (W : Valuation τ sig (Elt F)) :
    StableHlo.after (hostOps0 (F := F)) W (Proc.devRef .tc main_v0)
      = (shapeCast S1x64 (W (Proc.devRef .tc main_arg4) : FVec F S64 .f32) shapeCasts_S64_S1x64 : FVec F S1x64 .f32) := by
  open StableHlo in after_results_simp
  <;> rfl

set_option maxHeartbeats 4000000 in
/-- `main_v1` after its stretch: `main_arg6` as a row. -/
theorem host_main_v1 (W : Valuation τ sig (Elt F)) :
    StableHlo.after (hostOps0 (F := F)) W (Proc.devRef .tc main_v1)
      = (shapeCast S1x64 (W (Proc.devRef .tc main_arg6) : FVec F S64 .f32) shapeCasts_S64_S1x64 : FVec F S1x64 .f32) := by
  open StableHlo in after_results_simp
  <;> rfl

set_option maxHeartbeats 4000000 in
/-- `main_v3` after its stretch: `main_arg8` as a row. -/
theorem host_main_v3 (W : Valuation τ sig (Elt F)) :
    StableHlo.after (hostOps1 (F := F)) W (Proc.devRef .tc main_v3)
      = (shapeCast S1x64 (W (Proc.devRef .tc main_arg8) : FVec F S64 .f32) shapeCasts_S64_S1x64 : FVec F S1x64 .f32) := by
  open StableHlo in after_results_simp
  <;> rfl

set_option maxHeartbeats 4000000 in
/-- `main_v4` after its stretch: `main_arg10` as a row. -/
theorem host_main_v4 (W : Valuation τ sig (Elt F)) :
    StableHlo.after (hostOps1 (F := F)) W (Proc.devRef .tc main_v4)
      = (shapeCast S1x64 (W (Proc.devRef .tc main_arg10) : FVec F S64 .f32) shapeCasts_S64_S1x64 : FVec F S1x64 .f32) := by
  open StableHlo in after_results_simp
  <;> rfl

set_option maxHeartbeats 4000000 in
/-- `main_v6` after its stretch: `main_arg12` as a row. -/
theorem host_main_v6 (W : Valuation τ sig (Elt F)) :
    StableHlo.after (hostOps2 (F := F)) W (Proc.devRef .tc main_v6)
      = (shapeCast S1x64 (W (Proc.devRef .tc main_arg12) : FVec F S64 .f32) shapeCasts_S64_S1x64 : FVec F S1x64 .f32) := by
  open StableHlo in after_results_simp
  <;> rfl

set_option maxHeartbeats 4000000 in
/-- `main_v7` after its stretch: `main_arg14` as a row. -/
theorem host_main_v7 (W : Valuation τ sig (Elt F)) :
    StableHlo.after (hostOps2 (F := F)) W (Proc.devRef .tc main_v7)
      = (shapeCast S1x64 (W (Proc.devRef .tc main_arg14) : FVec F S64 .f32) shapeCasts_S64_S1x64 : FVec F S1x64 .f32) := by
  open StableHlo in after_results_simp
  <;> rfl

set_option maxHeartbeats 4000000 in
/-- `main_v16` after its stretch: `main_arg16` as a row. -/
theorem host_main_v16 (W : Valuation τ sig (Elt F)) :
    StableHlo.after (hostOps3_3 (F := F)) W (Proc.devRef .tc main_v16)
      = (shapeCast S1x64 (W (Proc.devRef .tc main_arg16) : FVec F S64 .f32) shapeCasts_S64_S1x64 : FVec F S1x64 .f32) := by
  open StableHlo in after_results_simp
  <;> rfl

set_option maxHeartbeats 4000000 in
/-- `main_v17` after its stretch: `main_arg18` as a row. -/
theorem host_main_v17 (W : Valuation τ sig (Elt F)) :
    StableHlo.after (hostOps3_3 (F := F)) W (Proc.devRef .tc main_v17)
      = (shapeCast S1x32 (W (Proc.devRef .tc main_arg18) : FVec F S32 .f32) shapeCasts_S32_S1x32 : FVec F S1x32 .f32) := by
  open StableHlo in after_results_simp
  <;> rfl

set_option maxHeartbeats 4000000 in
/-- `main_v18` after its stretch: `main_arg20` as a row. -/
theorem host_main_v18 (W : Valuation τ sig (Elt F)) :
    StableHlo.after (hostOps3_3 (F := F)) W (Proc.devRef .tc main_v18)
      = (shapeCast S1x64 (W (Proc.devRef .tc main_arg20) : FVec F S64 .f32) shapeCasts_S64_S1x64 : FVec F S1x64 .f32) := by
  open StableHlo in after_results_simp
  <;> rfl

set_option maxHeartbeats 4000000 in
/-- `main_v36` after its stretch: `main_arg22` as a row. -/
theorem host_main_v36 (W : Valuation τ sig (Elt F)) :
    StableHlo.after (hostOps4_2 (F := F)) W (Proc.devRef .tc main_v36)
      = (shapeCast S1x64 (W (Proc.devRef .tc main_arg22) : FVec F S64 .f32) shapeCasts_S64_S1x64 : FVec F S1x64 .f32) := by
  open StableHlo in after_results_simp
  <;> rfl

set_option maxHeartbeats 4000000 in
/-- `main_v37` after its stretch: `main_arg24` as a row. -/
theorem host_main_v37 (W : Valuation τ sig (Elt F)) :
    StableHlo.after (hostOps4_2 (F := F)) W (Proc.devRef .tc main_v37)
      = (shapeCast S1x32 (W (Proc.devRef .tc main_arg24) : FVec F S32 .f32) shapeCasts_S32_S1x32 : FVec F S1x32 .f32) := by
  open StableHlo in after_results_simp
  <;> rfl

set_option maxHeartbeats 4000000 in
/-- `main_v38` after its stretch: `main_arg26` as a row. -/
theorem host_main_v38 (W : Valuation τ sig (Elt F)) :
    StableHlo.after (hostOps4_2 (F := F)) W (Proc.devRef .tc main_v38)
      = (shapeCast S1x64 (W (Proc.devRef .tc main_arg26) : FVec F S64 .f32) shapeCasts_S64_S1x64 : FVec F S1x64 .f32) := by
  open StableHlo in after_results_simp
  <;> rfl

set_option maxHeartbeats 4000000 in
/-- `main_v67` after its stretch: `main_arg28` as a row. -/
theorem host_main_v67 (W : Valuation τ sig (Elt F)) :
    StableHlo.after (hostOps5 (F := F)) W (Proc.devRef .tc main_v67)
      = (shapeCast S1x64 (W (Proc.devRef .tc main_arg28) : FVec F S64 .f32) shapeCasts_S64_S1x64 : FVec F S1x64 .f32) := by
  open StableHlo in after_results_simp
  <;> rfl

set_option maxHeartbeats 4000000 in
/-- `main_v68` after its stretch: `main_arg30` as a row. -/
theorem host_main_v68 (W : Valuation τ sig (Elt F)) :
    StableHlo.after (hostOps5 (F := F)) W (Proc.devRef .tc main_v68)
      = (shapeCast S1x32 (W (Proc.devRef .tc main_arg30) : FVec F S32 .f32) shapeCasts_S32_S1x32 : FVec F S1x32 .f32) := by
  open StableHlo in after_results_simp
  <;> rfl

set_option maxHeartbeats 4000000 in
/-- `main_v69` after its stretch: `main_arg32` as a row. -/
theorem host_main_v69 (W : Valuation τ sig (Elt F)) :
    StableHlo.after (hostOps5 (F := F)) W (Proc.devRef .tc main_v69)
      = (shapeCast S1x64 (W (Proc.devRef .tc main_arg32) : FVec F S64 .f32) shapeCasts_S64_S1x64 : FVec F S1x64 .f32) := by
  open StableHlo in after_results_simp
  <;> rfl

/-! ## Stacked weights cut into their blocks -/

set_option maxHeartbeats 4000000 in
/-- `main_v12` after its stretch: the 64 rows of `main_arg15` from row 0. -/
theorem host_main_v12 (W : Valuation τ sig (Elt F)) :
    StableHlo.after (hostOps3_3 (F := F)) W (Proc.devRef .tc main_v12)
      = (extractStridedSlice S64x64 ![0, 0] (W (Proc.devRef .tc main_arg15) : FVec F S256x64 .f32) slices_S256x64_S64x64_0_0 : FVec F S64x64 .f32) := by
  open StableHlo in after_results_simp
  <;> rfl

set_option maxHeartbeats 4000000 in
/-- `main_v13` after its stretch: the 64 rows of `main_arg15` from row 64. -/
theorem host_main_v13 (W : Valuation τ sig (Elt F)) :
    StableHlo.after (hostOps3_3 (F := F)) W (Proc.devRef .tc main_v13)
      = (extractStridedSlice S64x64 ![64, 0] (W (Proc.devRef .tc main_arg15) : FVec F S256x64 .f32) slices_S256x64_S64x64_64_0 : FVec F S64x64 .f32) := by
  open StableHlo in after_results_simp
  <;> rfl

set_option maxHeartbeats 4000000 in
/-- `main_v14` after its stretch: the 64 rows of `main_arg15` from row 128. -/
theorem host_main_v14 (W : Valuation τ sig (Elt F)) :
    StableHlo.after (hostOps3_3 (F := F)) W (Proc.devRef .tc main_v14)
      = (extractStridedSlice S64x64 ![128, 0] (W (Proc.devRef .tc main_arg15) : FVec F S256x64 .f32) slices_S256x64_S64x64_128_0 : FVec F S64x64 .f32) := by
  open StableHlo in after_results_simp
  <;> rfl

set_option maxHeartbeats 4000000 in
/-- `main_v15` after its stretch: the 64 rows of `main_arg15` from row 192. -/
theorem host_main_v15 (W : Valuation τ sig (Elt F)) :
    StableHlo.after (hostOps3_3 (F := F)) W (Proc.devRef .tc main_v15)
      = (extractStridedSlice S64x64 ![192, 0] (W (Proc.devRef .tc main_arg15) : FVec F S256x64 .f32) slices_S256x64_S64x64_192_0 : FVec F S64x64 .f32) := by
  open StableHlo in after_results_simp
  <;> rfl

set_option maxHeartbeats 4000000 in
/-- `main_v33` after its stretch: the 64 rows of `main_arg21` from row 0. -/
theorem host_main_v33 (W : Valuation τ sig (Elt F)) :
    StableHlo.after (hostOps4_2 (F := F)) W (Proc.devRef .tc main_v33)
      = (extractStridedSlice S64x64 ![0, 0] (W (Proc.devRef .tc main_arg21) : FVec F S192x64 .f32) slices_S192x64_S64x64_0_0 : FVec F S64x64 .f32) := by
  open StableHlo in after_results_simp
  <;> rfl

set_option maxHeartbeats 4000000 in
/-- `main_v34` after its stretch: the 64 rows of `main_arg21` from row 64. -/
theorem host_main_v34 (W : Valuation τ sig (Elt F)) :
    StableHlo.after (hostOps4_2 (F := F)) W (Proc.devRef .tc main_v34)
      = (extractStridedSlice S64x64 ![64, 0] (W (Proc.devRef .tc main_arg21) : FVec F S192x64 .f32) slices_S192x64_S64x64_64_0 : FVec F S64x64 .f32) := by
  open StableHlo in after_results_simp
  <;> rfl

set_option maxHeartbeats 4000000 in
/-- `main_v35` after its stretch: the 64 rows of `main_arg21` from row 128. -/
theorem host_main_v35 (W : Valuation τ sig (Elt F)) :
    StableHlo.after (hostOps4_2 (F := F)) W (Proc.devRef .tc main_v35)
      = (extractStridedSlice S64x64 ![128, 0] (W (Proc.devRef .tc main_arg21) : FVec F S192x64 .f32) slices_S192x64_S64x64_128_0 : FVec F S64x64 .f32) := by
  open StableHlo in after_results_simp
  <;> rfl

set_option maxHeartbeats 4000000 in
/-- `main_v64` after its stretch: the 64 rows of `main_arg27` from row 0. -/
theorem host_main_v64 (W : Valuation τ sig (Elt F)) :
    StableHlo.after (hostOps5 (F := F)) W (Proc.devRef .tc main_v64)
      = (extractStridedSlice S64x64 ![0, 0] (W (Proc.devRef .tc main_arg27) : FVec F S192x64 .f32) slices_S192x64_S64x64_0_0 : FVec F S64x64 .f32) := by
  open StableHlo in after_results_simp
  <;> rfl

set_option maxHeartbeats 4000000 in
/-- `main_v65` after its stretch: the 64 rows of `main_arg27` from row 64. -/
theorem host_main_v65 (W : Valuation τ sig (Elt F)) :
    StableHlo.after (hostOps5 (F := F)) W (Proc.devRef .tc main_v65)
      = (extractStridedSlice S64x64 ![64, 0] (W (Proc.devRef .tc main_arg27) : FVec F S192x64 .f32) slices_S192x64_S64x64_64_0 : FVec F S64x64 .f32) := by
  open StableHlo in after_results_simp
  <;> rfl

set_option maxHeartbeats 4000000 in
/-- `main_v66` after its stretch: the 64 rows of `main_arg27` from row 128. -/
theorem host_main_v66 (W : Valuation τ sig (Elt F)) :
    StableHlo.after (hostOps5 (F := F)) W (Proc.devRef .tc main_v66)
      = (extractStridedSlice S64x64 ![128, 0] (W (Proc.devRef .tc main_arg27) : FVec F S192x64 .f32) slices_S192x64_S64x64_128_0 : FVec F S64x64 .f32) := by
  open StableHlo in after_results_simp
  <;> rfl

/-! ## The pooled means -/

set_option maxHeartbeats 4000000 in
/-- `main_v31` after its stretch: the rows of `main_v19_0` added onto the row their word of `indices1` names, each sum divided by the number of rows added there, at least one. -/
theorem host_main_v31 (W : Valuation τ sig (Elt F)) :
    StableHlo.after (hostOps4 (F := F)) W (Proc.devRef .tc main_v31)
      = (Host.divf
          (Host.scatterAdd scatter_S100000x64_S800000x1_S800000x64_1_0_0_1
            (broadcastInDim S100000x64 ![] bcast_S_S100000x64 (constant S_ .f32 0x00000000#32))
            (broadcastInDim S800000x1 ![0] bcast_S800000_S800000x1_0 (W (Proc.devRef .tc main_arg33) : IVec S800000 32))
            (W (Proc.devRef .tc main_v19_0) : FVec F S800000x64 .f32))
          (broadcastInDim S100000x64 ![0, 1] bcast_S100000x1_S100000x64_0_1
            (broadcastInDim S100000x1 ![0] bcast_S100000_S100000x1_0
              (maximumf
                (Host.scatterAdd scatter_S100000_S800000x1_S800000_n_0_0_1
                  (broadcastInDim S100000 ![] bcast_S_S100000 (constant S_ .f32 0x00000000#32))
                  (broadcastInDim S800000x1 ![0] bcast_S800000_S800000x1_0 (W (Proc.devRef .tc main_arg33) : IVec S800000 32))
                  (broadcastInDim S800000 ![] bcast_S_S800000 (constant S_ .f32 0x3F800000#32)))
                (broadcastInDim S100000 ![] bcast_S_S100000 (constant S_ .f32 0x3F800000#32))))) : FVec F S100000x64 .f32) := by
  open StableHlo in after_results_simp
  <;> rfl

set_option maxHeartbeats 4000000 in
/-- `main_v51` after its stretch: the rows of `main_v19_0` added onto the row their word of `graph_to_bonds` names, each sum divided by the number of rows added there, at least one. -/
theorem host_main_v51 (W : Valuation τ sig (Elt F)) :
    StableHlo.after (hostOps5 (F := F)) W (Proc.devRef .tc main_v51)
      = (Host.divf
          (Host.scatterAdd scatter_S1000x64_S800000x1_S800000x64_1_0_0_1
            (broadcastInDim S1000x64 ![] bcast_S_S1000x64 (constant S_ .f32 0x00000000#32))
            (broadcastInDim S800000x1 ![0] bcast_S800000_S800000x1_0 (W (Proc.devRef .tc main_arg36) : IVec S800000 32))
            (W (Proc.devRef .tc main_v19_0) : FVec F S800000x64 .f32))
          (broadcastInDim S1000x64 ![0, 1] bcast_S1000x1_S1000x64_0_1
            (broadcastInDim S1000x1 ![0] bcast_S1000_S1000x1_0
              (maximumf
                (Host.scatterAdd scatter_S1000_S800000x1_S800000_n_0_0_1
                  (broadcastInDim S1000 ![] bcast_S_S1000 (constant S_ .f32 0x00000000#32))
                  (broadcastInDim S800000x1 ![0] bcast_S800000_S800000x1_0 (W (Proc.devRef .tc main_arg36) : IVec S800000 32))
                  (broadcastInDim S800000 ![] bcast_S_S800000 (constant S_ .f32 0x3F800000#32)))
                (broadcastInDim S1000 ![] bcast_S_S1000 (constant S_ .f32 0x3F800000#32))))) : FVec F S1000x64 .f32) := by
  open StableHlo in after_results_simp
  <;> rfl

set_option maxHeartbeats 4000000 in
/-- `main_v63` after its stretch: the rows of `main_v39_0` added onto the row their word of `graph_to_sites` names, each sum divided by the number of rows added there, at least one. -/
theorem host_main_v63 (W : Valuation τ sig (Elt F)) :
    StableHlo.after (hostOps5 (F := F)) W (Proc.devRef .tc main_v63)
      = (Host.divf
          (Host.scatterAdd scatter_S1000x64_S100000x1_S100000x64_1_0_0_1
            (broadcastInDim S1000x64 ![] bcast_S_S1000x64 (constant S_ .f32 0x00000000#32))
            (broadcastInDim S100000x1 ![0] bcast_S100000_S100000x1_0 (W (Proc.devRef .tc main_arg35) : IVec S100000 32))
            (W (Proc.devRef .tc main_v39_0) : FVec F S100000x64 .f32))
          (broadcastInDim S1000x64 ![0, 1] bcast_S1000x1_S1000x64_0_1
            (broadcastInDim S1000x1 ![0] bcast_S1000_S1000x1_0
              (maximumf
                (Host.scatterAdd scatter_S1000_S100000x1_S100000_n_0_0_1
                  (broadcastInDim S1000 ![] bcast_S_S1000 (constant S_ .f32 0x00000000#32))
                  (broadcastInDim S100000x1 ![0] bcast_S100000_S100000x1_0 (W (Proc.devRef .tc main_arg35) : IVec S100000 32))
                  (broadcastInDim S100000 ![] bcast_S_S100000 (constant S_ .f32 0x3F800000#32)))
                (broadcastInDim S1000 ![] bcast_S_S1000 (constant S_ .f32 0x3F800000#32))))) : FVec F S1000x64 .f32) := by
  open StableHlo in after_results_simp
  <;> rfl

end Cert.KernelIdeal.HostRead

end
-- ==== Proof.SpecHost.lean ====
/-
  Two host layout operations read as families: a length-d vector reshaped to one row is that vector, column by
  column; a block of consecutive rows cut out of a weight table is the table's rows from the block's first row on.
-/
import proofs.«424920_j53549652246920_2_alg».proof.Proof.SpecIdx
import Idealize.ShloMosaic.Lib.Pipeline.Value

noncomputable section

namespace Cert.Spec

open Idealize.ShloMosaic Idealize.ShloMosaic.ValueIdx

/-- A [d] vector reshaped to [1, d]: the row's column j is the vector's entry j. -/
theorem row0_shapeCast {d : ℕ} (b : Vec Ideal (⟨1, ![d]⟩ : Shape) .f32)
    (h : (⟨1, ![d]⟩ : Shape).ShapeCasts (⟨2, ![1, d]⟩ : Shape)) :
    row0 (shapeCast (⟨2, ![1, d]⟩ : Shape) b h) = tab1 b := by
  funext j
  unfold row0 tab1
  refine shapeCast_apply b h (ix2 0 j) (ix1 j) ?_
  rw [Shape.rowMajor_val_one, Shape.rowMajor_val_two]
  show j.val = (0 : Fin 1).val * d + j.val
  simp

/-- Rows K₁ … K₁ + K₂ - 1 of a [Kt, d] table, cut out as a [K₂, d] table. -/
theorem tab2_slice {Kt K₂ d : ℕ} (K₁ : ℕ) (hle : K₁ + K₂ ≤ Kt) (x : Vec Ideal (⟨2, ![Kt, d]⟩ : Shape) .f32)
    (h : (⟨2, ![Kt, d]⟩ : Shape).Slices ![K₁, 0] (⟨2, ![K₂, d]⟩ : Shape)) :
    tab2 (extractStridedSlice (⟨2, ![K₂, d]⟩ : Shape) ![K₁, 0] x h) = rowsFrom K₁ hle (tab2 x) := by
  funext k j
  unfold tab2 rowsFrom
  refine extractStridedSlice_apply ![K₁, 0] x h (ix2 k j) (ix2 ⟨K₁ + k.val, Nat.lt_of_lt_of_le (Nat.add_lt_add_left k.isLt K₁) hle⟩ j) ?_
  intro a
  match a with
  | ⟨0, _⟩ => rfl
  | ⟨1, _⟩ => show j.val = 0 + j.val; simp

end Cert.Spec

end
-- ==== Proof.KiBridgeA.lean ====
/-
  The kernel-side value bridge, first half: from the launch to region 3's exit.

  The contents of every buffer at each boundary of @main are folded from the launch memory: a host stretch applies its
  operations, a kernel region overwrites its output arrays with what its pipeline leaves. Walking the fold one boundary
  at a time: a buffer no item writes in between is carried unchanged, so every argument is read as launched; a bias row
  is its argument reshaped, which the specification reads as the same vector; a 64-row block of a stacked weight matrix
  is the stack's rows from the block's first row on; a take at indices inside the table's range is the plain gather at the
  wrapped indices. So the three two-layer regions leave the specification's two-layer blocks of the arguments, the three
  takes read them at the bond's two endpoint sites and at its graph's state, and region 3 leaves the bond update of
  those, and that plus the two-layer bonds.
-/
import proofs.«424920_j53549652246920_2_alg».proof.Proof.KiChain
import proofs.«424920_j53549652246920_2_alg».proof.Proof.KiArgs
import proofs.«424920_j53549652246920_2_alg».proof.Proof.KiVal0
import proofs.«424920_j53549652246920_2_alg».proof.Proof.KiVal1
import proofs.«424920_j53549652246920_2_alg».proof.Proof.KiVal2
import proofs.«424920_j53549652246920_2_alg».proof.Proof.KiVal3
import proofs.«424920_j53549652246920_2_alg».proof.Proof.KiTake
import proofs.«424920_j53549652246920_2_alg».proof.Proof.KiPre
import proofs.«424920_j53549652246920_2_alg».proof.Proof.KiHost
import proofs.«424920_j53549652246920_2_alg».proof.Proof.SpecHost

set_option maxRecDepth 16384

noncomputable section

namespace Cert.KernelIdeal.Bridge

open Cert.KernelIdeal Cert.KernelIdeal.Gen Cert.KernelIdeal.Frame
open Idealize.ShloMosaic Idealize.ShloMosaic.TcCoe
open Idealize.SL Idealize.SL.Sem

variable (m : (ℓ : Loc nD τ sig) → Buf (Elt Ideal) ℓ) (c : Dev nD)

/-! ## A buffer no item has written yet holds what the launch memory holds -/

theorem carry1 (r : Ref sig .tc) (h0 : r ∉ hostOps0_W) : W1 m c r = m ((c : Thread nD τ).loc r) := by
  rw [W1_of m c r h0]
theorem carry2 (r : Ref sig .tc) (h0 : r ∉ hostOps0_W) (ha : r ≠ main_v2) : W2 m c r = m ((c : Thread nD τ).loc r) := by
  rw [W2_of m c r ha, carry1 m c r h0]
theorem carry3 (r : Ref sig .tc) (h0 : r ∉ hostOps0_W) (ha : r ≠ main_v2) (h1 : r ∉ hostOps1_W) :
    W3 m c r = m ((c : Thread nD τ).loc r) := by
  rw [W3_of m c r h1, carry2 m c r h0 ha]
theorem carry4 (r : Ref sig .tc) (h0 : r ∉ hostOps0_W) (ha : r ≠ main_v2) (h1 : r ∉ hostOps1_W) (hb : r ≠ main_v5) :
    W4 m c r = m ((c : Thread nD τ).loc r) := by
  rw [W4_of m c r hb, carry3 m c r h0 ha h1]
theorem carry5 (r : Ref sig .tc) (h0 : r ∉ hostOps0_W) (ha : r ≠ main_v2) (h1 : r ∉ hostOps1_W) (hb : r ≠ main_v5)
    (h2 : r ∉ hostOps2_W) : W5 m c r = m ((c : Thread nD τ).loc r) := by
  rw [W5_of m c r h2, carry4 m c r h0 ha h1 hb]
theorem carry6 (r : Ref sig .tc) (h0 : r ∉ hostOps0_W) (ha : r ≠ main_v2) (h1 : r ∉ hostOps1_W) (hb : r ≠ main_v5)
    (h2 : r ∉ hostOps2_W) (hc : r ≠ main_v8) : W6 m c r = m ((c : Thread nD τ).loc r) := by
  rw [W6_of m c r hc, carry5 m c r h0 ha h1 hb h2]
theorem carry7 (r : Ref sig .tc) (h0 : r ∉ hostOps0_W) (ha : r ≠ main_v2) (h1 : r ∉ hostOps1_W) (hb : r ≠ main_v5)
    (h2 : r ∉ hostOps2_W) (hc : r ≠ main_v8) (h3 : r ∉ hostOps3_W) : W7 m c r = m ((c : Thread nD τ).loc r) := by
  rw [W7_of m c r h3, carry6 m c r h0 ha h1 hb h2 hc]
theorem carry8 (r : Ref sig .tc) (h0 : r ∉ hostOps0_W) (ha : r ≠ main_v2) (h1 : r ∉ hostOps1_W) (hb : r ≠ main_v5)
    (h2 : r ∉ hostOps2_W) (hc : r ≠ main_v8) (h3 : r ∉ hostOps3_W) (h31 : r ∉ hostOps3_1_W) :
    W8 m c r = m ((c : Thread nD τ).loc r) := by
  rw [W8_of m c r h31, carry7 m c r h0 ha h1 hb h2 hc h3]
theorem carry9 (r : Ref sig .tc) (h0 : r ∉ hostOps0_W) (ha : r ≠ main_v2) (h1 : r ∉ hostOps1_W) (hb : r ≠ main_v5)
    (h2 : r ∉ hostOps2_W) (hc : r ≠ main_v8) (h3 : r ∉ hostOps3_W) (h31 : r ∉ hostOps3_1_W) (h32 : r ∉ hostOps3_2_W) :
    W9 m c r = m ((c : Thread nD τ).loc r) := by
  rw [W9_of m c r h32, carry8 m c r h0 ha h1 hb h2 hc h3 h31]
theorem carry10 (r : Ref sig .tc) (h0 : r ∉ hostOps0_W) (ha : r ≠ main_v2) (h1 : r ∉ hostOps1_W) (hb : r ≠ main_v5)
    (h2 : r ∉ hostOps2_W) (hc : r ≠ main_v8) (h3 : r ∉ hostOps3_W) (h31 : r ∉ hostOps3_1_W) (h32 : r ∉ hostOps3_2_W)
    (h33 : r ∉ hostOps3_3_W) : W10 m c r = m ((c : Thread nD τ).loc r) := by
  rw [W10_of m c r h33, carry9 m c r h0 ha h1 hb h2 hc h3 h31 h32]

/-! ## The three two-layer regions -/

/-- Region 0 leaves the sites' two-layer block. -/
theorem at_v2 : (W2 m c main_v2 : Vec Ideal S100000x64 .f32) = Cert.Block.sitesP (argsOf m c) := by
  rw [W2_out]
  unfold o2
  rw [Cert.KernelIdeal.RegVal.arrAt0 (atTc (W1 m)) c]
  have e0 : (atTc (W1 m) c main_arg0 : Vec Ideal S100000x64 .f32) = (argsOf m c).x0 := carry1 m c main_arg0 (by decide)
  have e3 : (atTc (W1 m) c main_arg3 : Vec Ideal S64x64 .f32) = (argsOf m c).x3 := carry1 m c main_arg3 (by decide)
  have e5 : (atTc (W1 m) c main_arg5 : Vec Ideal S64x64 .f32) = (argsOf m c).x5 := carry1 m c main_arg5 (by decide)
  have b1 : Cert.Spec.row0 (atTc (W1 m) c main_v0 : Vec Ideal S1x64 .f32) = Cert.Spec.tab1 (argsOf m c).x4 :=
    (congrArg Cert.Spec.row0 (Cert.KernelIdeal.HostRead.host_main_v0 (W0 m c))).trans (Cert.Spec.row0_shapeCast _ _)
  have b2 : Cert.Spec.row0 (atTc (W1 m) c main_v1 : Vec Ideal S1x64 .f32) = Cert.Spec.tab1 (argsOf m c).x6 :=
    (congrArg Cert.Spec.row0 (Cert.KernelIdeal.HostRead.host_main_v1 (W0 m c))).trans (Cert.Spec.row0_shapeCast _ _)
  rw [e0, e3, e5, b1, b2]
  rfl

/-- Region 1 leaves the bonds' two-layer block. -/
theorem at_v5 : (W4 m c main_v5 : Vec Ideal S800000x64 .f32) = Cert.Block.bondsP (argsOf m c) := by
  rw [W4_out]
  unfold o4
  rw [Cert.KernelIdeal.RegVal.arrAt1 (atTc (W3 m)) c]
  have e1 : (atTc (W3 m) c main_arg1 : Vec Ideal S800000x64 .f32) = (argsOf m c).x1 :=
    carry3 m c main_arg1 (by decide) (by decide) (by decide)
  have e7 : (atTc (W3 m) c main_arg7 : Vec Ideal S64x64 .f32) = (argsOf m c).x7 :=
    carry3 m c main_arg7 (by decide) (by decide) (by decide)
  have e9 : (atTc (W3 m) c main_arg9 : Vec Ideal S64x64 .f32) = (argsOf m c).x9 :=
    carry3 m c main_arg9 (by decide) (by decide) (by decide)
  have b1 : Cert.Spec.row0 (atTc (W3 m) c main_v3 : Vec Ideal S1x64 .f32) = Cert.Spec.tab1 (argsOf m c).x8 :=
    ((congrArg Cert.Spec.row0 (Cert.KernelIdeal.HostRead.host_main_v3 (W2 m c))).trans (Cert.Spec.row0_shapeCast _ _)).trans
      (congrArg Cert.Spec.tab1 (carry2 m c main_arg8 (by decide) (by decide)))
  have b2 : Cert.Spec.row0 (atTc (W3 m) c main_v4 : Vec Ideal S1x64 .f32) = Cert.Spec.tab1 (argsOf m c).x10 :=
    ((congrArg Cert.Spec.row0 (Cert.KernelIdeal.HostRead.host_main_v4 (W2 m c))).trans (Cert.Spec.row0_shapeCast _ _)).trans
      (congrArg Cert.Spec.tab1 (carry2 m c main_arg10 (by decide) (by decide)))
  rw [e1, e7, e9, b1, b2]
  rfl

/-- Region 2 leaves the graph states' two-layer block. -/
theorem at_v8 : (W6 m c main_v8 : Vec Ideal S1000x64 .f32) = Cert.Block.statesP (argsOf m c) := by
  rw [W6_out]
  unfold o6
  rw [Cert.KernelIdeal.RegVal.arrAt2 (atTc (W5 m)) c]
  have e2 : (atTc (W5 m) c main_arg2 : Vec Ideal S1000x64 .f32) = (argsOf m c).x2 :=
    carry5 m c main_arg2 (by decide) (by decide) (by decide) (by decide) (by decide)
  have e11 : (atTc (W5 m) c main_arg11 : Vec Ideal S64x64 .f32) = (argsOf m c).x11 :=
    carry5 m c main_arg11 (by decide) (by decide) (by decide) (by decide) (by decide)
  have e13 : (atTc (W5 m) c main_arg13 : Vec Ideal S64x64 .f32) = (argsOf m c).x13 :=
    carry5 m c main_arg13 (by decide) (by decide) (by decide) (by decide) (by decide)
  have b1 : Cert.Spec.row0 (atTc (W5 m) c main_v6 : Vec Ideal S1x64 .f32) = Cert.Spec.tab1 (argsOf m c).x12 :=
    ((congrArg Cert.Spec.row0 (Cert.KernelIdeal.HostRead.host_main_v6 (W4 m c))).trans (Cert.Spec.row0_shapeCast _ _)).trans
      (congrArg Cert.Spec.tab1 (carry4 m c main_arg12 (by decide) (by decide) (by decide) (by decide)))
  have b2 : Cert.Spec.row0 (atTc (W5 m) c main_v7 : Vec Ideal S1x64 .f32) = Cert.Spec.tab1 (argsOf m c).x14 :=
    ((congrArg Cert.Spec.row0 (Cert.KernelIdeal.HostRead.host_main_v7 (W4 m c))).trans (Cert.Spec.row0_shapeCast _ _)).trans
      (congrArg Cert.Spec.tab1 (carry4 m c main_arg14 (by decide) (by decide) (by decide) (by decide)))
  rw [e2, e11, e13, b1, b2]
  rfl

/-! ## The three takes: each two-layer block is still in its buffer, and the index words are in range -/

/-- The sites' block when the takes run. -/
theorem v2_at6 : (W6 m c main_v2 : Vec Ideal S100000x64 .f32) = Cert.Block.sitesP (argsOf m c) := by
  rw [W6_of m c main_v2 (by decide), W5_of m c main_v2 (by decide), W4_of m c main_v2 (by decide), W3_of m c main_v2 (by decide)]
  exact at_v2 m c

/-- Each bond's first endpoint site. -/
theorem at_v9 (h : Cert.Pre_KernelIdeal m) : (W10 m c main_v9 : Vec Ideal S800000x64 .f32) = Cert.Block.end1 (argsOf m c) := by
  obtain ⟨r33, -, -, -⟩ := Cert.KernelIdeal.PreFacts.ranges m h c
  have e33 : (W6 m c main_arg33 : IVec S800000 32) = (argsOf m c).x33 :=
    carry6 m c main_arg33 (by decide) (by decide) (by decide) (by decide) (by decide) (by decide)
  rw [W10_of m c main_v9 (by decide), W9_of m c main_v9 (by decide), W8_of m c main_v9 (by decide)]
  refine (Cert.KernelIdeal.Take.take_main_v9 (W6 m c) (fun e => ?_) (fun e => ?_)).trans ?_
  · rw [e33]; exact (r33 e).1
  · rw [e33]; exact (r33 e).2
  · rw [e33, v2_at6 m c]; rfl

/-- Each bond's second endpoint site. -/
theorem at_v10 (h : Cert.Pre_KernelIdeal m) : (W10 m c main_v10 : Vec Ideal S800000x64 .f32) = Cert.Block.end2 (argsOf m c) := by
  obtain ⟨-, r34, -, -⟩ := Cert.KernelIdeal.PreFacts.ranges m h c
  have e34 : (W7 m c main_arg34 : IVec S800000 32) = (argsOf m c).x34 :=
    carry7 m c main_arg34 (by decide) (by decide) (by decide) (by decide) (by decide) (by decide) (by decide)
  have e2 : (W7 m c main_v2 : Vec Ideal S100000x64 .f32) = Cert.Block.sitesP (argsOf m c) := by
    rw [W7_of m c main_v2 (by decide)]; exact v2_at6 m c
  rw [W10_of m c main_v10 (by decide), W9_of m c main_v10 (by decide)]
  refine (Cert.KernelIdeal.Take.take_main_v10 (W7 m c) (fun e => ?_) (fun e => ?_)).trans ?_
  · rw [e34]; exact (r34 e).1
  · rw [e34]; exact (r34 e).2
  · rw [e34, e2]; rfl

/-- Each bond's graph's state. -/
theorem at_v11 (h : Cert.Pre_KernelIdeal m) : (W10 m c main_v11 : Vec Ideal S800000x64 .f32) = Cert.Block.stateOfBond (argsOf m c) := by
  obtain ⟨-, -, -, r36⟩ := Cert.KernelIdeal.PreFacts.ranges m h c
  have e36 : (W8 m c main_arg36 : IVec S800000 32) = (argsOf m c).x36 :=
    carry8 m c main_arg36 (by decide) (by decide) (by decide) (by decide) (by decide) (by decide) (by decide) (by decide)
  have e8 : (W8 m c main_v8 : Vec Ideal S1000x64 .f32) = Cert.Block.statesP (argsOf m c) := by
    rw [W8_of m c main_v8 (by decide), W7_of m c main_v8 (by decide)]; exact at_v8 m c
  rw [W10_of m c main_v11 (by decide)]
  refine (Cert.KernelIdeal.Take.take_main_v11 (W8 m c) (fun e => ?_) (fun e => ?_)).trans ?_
  · rw [e36]; exact (r36 e).1
  · rw [e36]; exact (r36 e).2
  · rw [e36, e8]; rfl

/-! ## Region 3: the bond update -/

/-- The bonds' block is still in its buffer when region 3 is entered. -/
theorem v5_at10 : (W10 m c main_v5 : Vec Ideal S800000x64 .f32) = Cert.Block.bondsP (argsOf m c) := by
  rw [W10_of m c main_v5 (by decide), W9_of m c main_v5 (by decide), W8_of m c main_v5 (by decide), W7_of m c main_v5 (by decide),
    W6_of m c main_v5 (by decide), W5_of m c main_v5 (by decide)]
  exact at_v5 m c

/-- The four 64-row blocks of the first layer's stacked weight, as region 3 finds them. -/
theorem w12_at10 : Cert.Spec.tab2 (W10 m c main_v12 : Vec Ideal S64x64 .f32) = Cert.Spec.rowsFrom 0 (by decide) (Cert.Spec.tab2 (argsOf m c).x15) :=
  ((congrArg Cert.Spec.tab2 (Cert.KernelIdeal.HostRead.host_main_v12 (W9 m c))).trans (Cert.Spec.tab2_slice 0 (by decide) _ _)).trans
    (congrArg (fun x : Vec Ideal S256x64 .f32 => Cert.Spec.rowsFrom 0 (by decide) (Cert.Spec.tab2 x))
      (carry9 m c main_arg15 (by decide) (by decide) (by decide) (by decide) (by decide) (by decide) (by decide) (by decide) (by decide)))
theorem w13_at10 : Cert.Spec.tab2 (W10 m c main_v13 : Vec Ideal S64x64 .f32) = Cert.Spec.rowsFrom 64 (by decide) (Cert.Spec.tab2 (argsOf m c).x15) :=
  ((congrArg Cert.Spec.tab2 (Cert.KernelIdeal.HostRead.host_main_v13 (W9 m c))).trans (Cert.Spec.tab2_slice 64 (by decide) _ _)).trans
    (congrArg (fun x : Vec Ideal S256x64 .f32 => Cert.Spec.rowsFrom 64 (by decide) (Cert.Spec.tab2 x))
      (carry9 m c main_arg15 (by decide) (by decide) (by decide) (by decide) (by decide) (by decide) (by decide) (by decide) (by decide)))
theorem w14_at10 : Cert.Spec.tab2 (W10 m c main_v14 : Vec Ideal S64x64 .f32) = Cert.Spec.rowsFrom 128 (by decide) (Cert.Spec.tab2 (argsOf m c).x15) :=
  ((congrArg Cert.Spec.tab2 (Cert.KernelIdeal.HostRead.host_main_v14 (W9 m c))).trans (Cert.Spec.tab2_slice 128 (by decide) _ _)).trans
    (congrArg (fun x : Vec Ideal S256x64 .f32 => Cert.Spec.rowsFrom 128 (by decide) (Cert.Spec.tab2 x))
      (carry9 m c main_arg15 (by decide) (by decide) (by decide) (by decide) (by decide) (by decide) (by decide) (by decide) (by decide)))
theorem w15_at10 : Cert.Spec.tab2 (W10 m c main_v15 : Vec Ideal S64x64 .f32) = Cert.Spec.rowsFrom 192 (by decide) (Cert.Spec.tab2 (argsOf m c).x15) :=
  ((congrArg Cert.Spec.tab2 (Cert.KernelIdeal.HostRead.host_main_v15 (W9 m c))).trans (Cert.Spec.tab2_slice 192 (by decide) _ _)).trans
    (congrArg (fun x : Vec Ideal S256x64 .f32 => Cert.Spec.rowsFrom 192 (by decide) (Cert.Spec.tab2 x))
      (carry9 m c main_arg15 (by decide) (by decide) (by decide) (by decide) (by decide) (by decide) (by decide) (by decide) (by decide)))

/-- The three bias rows, as region 3 finds them. -/
theorem b16_at10 : Cert.Spec.row0 (W10 m c main_v16 : Vec Ideal S1x64 .f32) = Cert.Spec.tab1 (argsOf m c).x16 :=
  ((congrArg Cert.Spec.row0 (Cert.KernelIdeal.HostRead.host_main_v16 (W9 m c))).trans (Cert.Spec.row0_shapeCast _ _)).trans
    (congrArg Cert.Spec.tab1 (carry9 m c main_arg16 (by decide) (by decide) (by decide) (by decide) (by decide) (by decide) (by decide) (by decide) (by decide)))
theorem b17_at10 : Cert.Spec.row0 (W10 m c main_v17 : Vec Ideal S1x32 .f32) = Cert.Spec.tab1 (argsOf m c).x18 :=
  ((congrArg Cert.Spec.row0 (Cert.KernelIdeal.HostRead.host_main_v17 (W9 m c))).trans (Cert.Spec.row0_shapeCast _ _)).trans
    (congrArg Cert.Spec.tab1 (carry9 m c main_arg18 (by decide) (by decide) (by decide) (by decide) (by decide) (by decide) (by decide) (by decide) (by decide)))
theorem b18_at10 : Cert.Spec.row0 (W10 m c main_v18 : Vec Ideal S1x64 .f32) = Cert.Spec.tab1 (argsOf m c).x20 :=
  ((congrArg Cert.Spec.row0 (Cert.KernelIdeal.HostRead.host_main_v18 (W9 m c))).trans (Cert.Spec.row0_shapeCast _ _)).trans
    (congrArg Cert.Spec.tab1 (carry9 m c main_arg20 (by decide) (by decide) (by decide) (by decide) (by decide) (by decide) (by decide) (by decide) (by decide)))

/-- The two upper layers' weights are arguments, read as launched. -/
theorem a17_at10 : (W10 m c main_arg17 : Vec Ideal S64x32 .f32) = (argsOf m c).x17 :=
  carry10 m c main_arg17 (by decide) (by decide) (by decide) (by decide) (by decide) (by decide) (by decide) (by decide) (by decide) (by decide)
theorem a19_at10 : (W10 m c main_arg19 : Vec Ideal S32x64 .f32) = (argsOf m c).x19 :=
  carry10 m c main_arg19 (by decide) (by decide) (by decide) (by decide) (by decide) (by decide) (by decide) (by decide) (by decide) (by decide)

/-- Region 3 leaves the bond update in its first output array … -/
theorem new_bonds (h : Cert.Pre_KernelIdeal m) : (W11 m c main_v19_0 : Vec Ideal S800000x64 .f32) = Cert.Block.bondsNew (argsOf m c) := by
  rw [W11_outa]
  unfold o11a
  rw [Cert.KernelIdeal.RegVal.arrAt3_new (atTc (W10 m)) c]
  show Cert.Spec.arr2 (Cert.Spec.upper (Cert.Spec.lin4 (Cert.Spec.tab2 (W10 m c main_v9 : Vec Ideal S800000x64 .f32)) (Cert.Spec.tab2 (W10 m c main_v10 : Vec Ideal S800000x64 .f32))
      (Cert.Spec.tab2 (W10 m c main_v5 : Vec Ideal S800000x64 .f32)) (Cert.Spec.tab2 (W10 m c main_v11 : Vec Ideal S800000x64 .f32))
      (Cert.Spec.tab2 (W10 m c main_v12 : Vec Ideal S64x64 .f32)) (Cert.Spec.tab2 (W10 m c main_v13 : Vec Ideal S64x64 .f32))
      (Cert.Spec.tab2 (W10 m c main_v14 : Vec Ideal S64x64 .f32)) (Cert.Spec.tab2 (W10 m c main_v15 : Vec Ideal S64x64 .f32))
      (Cert.Spec.row0 (W10 m c main_v16 : Vec Ideal S1x64 .f32)))
      (Cert.Spec.tab2 (W10 m c main_arg17 : Vec Ideal S64x32 .f32)) (Cert.Spec.row0 (W10 m c main_v17 : Vec Ideal S1x32 .f32))
      (Cert.Spec.tab2 (W10 m c main_arg19 : Vec Ideal S32x64 .f32)) (Cert.Spec.row0 (W10 m c main_v18 : Vec Ideal S1x64 .f32))) = _
  rw [at_v9 m c h, at_v10 m c h, v5_at10 m c, at_v11 m c h, w12_at10 m c, w13_at10 m c, w14_at10 m c, w15_at10 m c, b16_at10 m c,
    a17_at10 m c, b17_at10 m c, a19_at10 m c, b18_at10 m c]
  rfl

/-- … and the update plus the two-layer bonds in its second. -/
theorem final_bonds (h : Cert.Pre_KernelIdeal m) : (W11 m c main_v19_1 : Vec Ideal S800000x64 .f32) = Cert.Block.bondsFinal (argsOf m c) := by
  rw [W11_outb]
  unfold o11b
  rw [Cert.KernelIdeal.RegVal.arrAt3_final (atTc (W10 m)) c]
  show Cert.Spec.arr2 (Cert.Spec.plus (Cert.Spec.upper (Cert.Spec.lin4 (Cert.Spec.tab2 (W10 m c main_v9 : Vec Ideal S800000x64 .f32)) (Cert.Spec.tab2 (W10 m c main_v10 : Vec Ideal S800000x64 .f32))
      (Cert.Spec.tab2 (W10 m c main_v5 : Vec Ideal S800000x64 .f32)) (Cert.Spec.tab2 (W10 m c main_v11 : Vec Ideal S800000x64 .f32))
      (Cert.Spec.tab2 (W10 m c main_v12 : Vec Ideal S64x64 .f32)) (Cert.Spec.tab2 (W10 m c main_v13 : Vec Ideal S64x64 .f32))
      (Cert.Spec.tab2 (W10 m c main_v14 : Vec Ideal S64x64 .f32)) (Cert.Spec.tab2 (W10 m c main_v15 : Vec Ideal S64x64 .f32))
      (Cert.Spec.row0 (W10 m c main_v16 : Vec Ideal S1x64 .f32)))
      (Cert.Spec.tab2 (W10 m c main_arg17 : Vec Ideal S64x32 .f32)) (Cert.Spec.row0 (W10 m c main_v17 : Vec Ideal S1x32 .f32))
      (Cert.Spec.tab2 (W10 m c main_arg19 : Vec Ideal S32x64 .f32)) (Cert.Spec.row0 (W10 m c main_v18 : Vec Ideal S1x64 .f32)))
      (Cert.Spec.tab2 (W10 m c main_v5 : Vec Ideal S800000x64 .f32))) = _
  rw [at_v9 m c h, at_v10 m c h, v5_at10 m c, at_v11 m c h, w12_at10 m c, w13_at10 m c, w14_at10 m c, w15_at10 m c, b16_at10 m c,
    a17_at10 m c, b17_at10 m c, a19_at10 m c, b18_at10 m c]
  rfl

/-! ## What the second half needs carried to region 3's exit -/

theorem v2_at11 : (W11 m c main_v2 : Vec Ideal S100000x64 .f32) = Cert.Block.sitesP (argsOf m c) := by
  rw [W11_of m c main_v2 (by decide) (by decide), W10_of m c main_v2 (by decide), W9_of m c main_v2 (by decide),
    W8_of m c main_v2 (by decide), W7_of m c main_v2 (by decide)]
  exact v2_at6 m c

theorem v8_at11 : (W11 m c main_v8 : Vec Ideal S1000x64 .f32) = Cert.Block.statesP (argsOf m c) := by
  rw [W11_of m c main_v8 (by decide) (by decide), W10_of m c main_v8 (by decide), W9_of m c main_v8 (by decide),
    W8_of m c main_v8 (by decide), W7_of m c main_v8 (by decide)]
  exact at_v8 m c

end Cert.KernelIdeal.Bridge

end
-- ==== Proof.KiVal4.lean ====
/-
  The value of region 4 of the idealized kernel at the extended reals: the two arrays its output windows leave after
  the last grid point, each as one function of the region's input arrays. Row r of the first output is the
  specification's three-layer block at row r — the first layer over the three row families side by side, the partial
  products summed left to right —, and row r of the second is that plus row r of the residual's array.
  The road: a matrix product into the zero accumulator read at an entry is the plain sum over the contracted
  coordinate; so each payload at an entry is the specification's expression on the tables of the blocks it was handed;
  row p of the block at point t is row 5000 · t + p of its array, and the weight and bias windows' blocks are their
  whole arrays; so what point t writes back is block t of one whole-array function; the blocks cover the array.
-/
import proofs.«424920_j53549652246920_2_alg».proof.Proof.KiReg4
import proofs.«424920_j53549652246920_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx
open Idealize.ShloMosaic.Pipeline (Dat)
open scoped BigOperators

/-! ## A matrix product into the zero accumulator, read at an entry -/

/-- The first layer's products: a 5000×64 block by a 64×64 weight slice. The four coordinate facts of the dimension numbers, then the product at entry (p, q):
    the sum over k of a (p, k) · b (k, q). -/
theorem lhs4a_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs4a_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs4a_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs4a_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
theorem mm4a_apply {φ₁ φ₂ : FTy} (a : FVec Ideal S5000x64 φ₁) (b : FVec Ideal S64x64 φ₂) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs4a_0 _ _
    | ⟨1, _⟩ => exact (lhs4a_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs4a_0 _ _).trans hk
    | ⟨1, _⟩ => exact rhs4a_1 _ _)
  rw [el, er]

/-- The second layer's product: the 5000×64 hidden block by the 64×32 weight. The four coordinate facts of the dimension numbers, then the product at entry (p, q):
    the sum over k of a (p, k) · b (k, q). -/
theorem lhs4b_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs4b_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs4b_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs4b_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl
theorem mm4b_apply {φ₁ φ₂ : FTy} (a : FVec Ideal S5000x64 φ₁) (b : FVec Ideal S64x32 φ₂) (p : Fin 5000) (q : Fin 32) :
    matmul dot_S5000x64_S64x32_S5000x32_1_0_0_1_n_n none a b (constant (F := Ideal) S5000x32 .f32 0x00000000#32) (ix2 p q)
      = ∑ k : Fin 64, a (ix2 p k) * b (ix2 k q) := by
  refine (Ideal.matmul_constant_zero_apply dot_S5000x64_S64x32_S5000x32_1_0_0_1_n_n none a b (ix2 p q)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs4b_0 _ _
    | ⟨1, _⟩ => exact (lhs4b_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs4b_0 _ _).trans hk
    | ⟨1, _⟩ => exact rhs4b_1 _ _)
  rw [el, er]

/-- The third layer's product: the 5000×32 hidden block by the 32×64 weight. The four coordinate facts of the dimension numbers, then the product at entry (p, q):
    the sum over k of a (p, k) · b (k, q). -/
theorem lhs4c_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs4c_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs4c_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs4c_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl
theorem mm4c_apply {φ₁ φ₂ : FTy} (a : FVec Ideal S5000x32 φ₁) (b : FVec Ideal S32x64 φ₂) (p : Fin 5000) (q : Fin 64) :
    matmul dot_S5000x32_S32x64_S5000x64_1_0_0_1_n_n none a b (constant (F := Ideal) S5000x64 .f32 0x00000000#32) (ix2 p q)
      = ∑ k : Fin 32, a (ix2 p k) * b (ix2 k q) := by
  refine (Ideal.matmul_constant_zero_apply dot_S5000x32_S32x64_S5000x64_1_0_0_1_n_n none a b (ix2 p q)).trans ?_
  rw [← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p q) ((ValueIdx.contrEquiv1 dot_S5000x32_S32x64_S5000x64_1_0_0_1_n_n 32 rfl rfl).symm k) = ix2 p k := funext fun a => Fin.ext (by
    match a with
    | ⟨0, _⟩ => exact lhs4c_0 _ _
    | ⟨1, _⟩ => exact (lhs4c_1 _ _).trans hk)
  have er : dot_S5000x32_S32x64_S5000x64_1_0_0_1_n_n.rhsIdx (ix2 p q) ((ValueIdx.contrEquiv1 dot_S5000x32_S32x64_S5000x64_1_0_0_1_n_n 32 rfl rfl).symm k) = ix2 k q := funext fun a => Fin.ext (by
    match a with
    | ⟨0, _⟩ => exact (rhs4c_0 _ _).trans hk
    | ⟨1, _⟩ => exact rhs4c_1 _ _)
  rw [el, er]

/-! ## The payloads at an entry -/

/-- The broadcast of a one-row bias over the rows, at an entry: the bias at the column. -/
theorem bias4a_apply (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])
theorem bias4b_apply (b : Vec Ideal S1x32 .f32) (p : Fin 5000) (q : Fin 32) :
    broadcastTo S5000x32 (shapeCast S1x32 b shapeCasts_S1x32_S1x32) broadcasts_S1x32_S5000x32 (ix2 p q) = b (ix2 0 q) := by
  rw [shapeCast_self]
  exact broadcastTo_apply b broadcasts_S1x32_S5000x32 (ix2 p q) (ix2 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- The second layer's bias, broadcast over the rows. -/
theorem secondBias4_apply (b2 : Vec Ideal S1x32 .f32) (p : Fin 5000) (k : Fin 32) :
    k4_pay4 (F := Ideal) b2 (ix2 p k) = b2 (ix2 0 k) := by
  unfold k4_pay4
  exact bias4b_apply b2 p k

/-- The second layer's product at entry (p, k): over the relu of the first layer, whose pre-activation is the
    three partial products summed left to right plus the bias. -/
theorem second4_apply (x0 : Vec Ideal S5000x64 .f32) (w0 : Vec Ideal S64x64 .f32) (x1 : Vec Ideal S5000x64 .f32) (w1 : Vec Ideal S64x64 .f32)
    (x2 : Vec Ideal S5000x64 .f32) (w2 : Vec Ideal S64x64 .f32) (b1 : Vec Ideal S1x64 .f32) (wm : Vec Ideal S64x32 .f32)
    (p : Fin 5000) (k : Fin 32) :
    k4_pay3 (F := Ideal) x0 w0 x1 w1 x2 w2 b1 wm (ix2 p k)
      = ∑ k' : Fin 64, max ((((∑ j : Fin 64, x0 (ix2 p j) * w0 (ix2 j k')) + (∑ j : Fin 64, x1 (ix2 p j) * w1 (ix2 j k')))
          + (∑ j : Fin 64, x2 (ix2 p j) * w2 (ix2 j k'))) + b1 (ix2 0 k')) 0 * wm (ix2 k' k) := by
  unfold k4_pay3
  refine (mm4b_apply _ _ p k).trans ?_
  refine Finset.sum_congr rfl fun k' _ => ?_
  refine congrArg (· * wm (ix2 k' k)) ?_
  show max (((matmul (F := Ideal) dot_S5000x64_S64x64_S5000x64_1_0_0_1_n_n none _ _ _ (ix2 p k') + matmul (F := Ideal) dot_S5000x64_S64x64_S5000x64_1_0_0_1_n_n none _ _ _ (ix2 p k'))
      + matmul (F := Ideal) dot_S5000x64_S64x64_S5000x64_1_0_0_1_n_n none _ _ _ (ix2 p k')) + broadcastTo S5000x64 (shapeCast S1x64 b1 shapeCasts_S1x64_S1x64) broadcasts_S1x64_S5000x64 (ix2 p k'))
      (Ideal.ofBits .f32 0x00000000#32) = _
  rw [mm4a_apply, mm4a_apply, mm4a_apply, bias4a_apply, Ideal.ofBits_zero_f32]
  simp only [shapeCast_self]
  rfl

/-- The third layer at entry (p, q), from the second layer's product and broadcast bias: the relu of the second
    layer, times the third weight, plus the third bias, and the relu of that. -/
theorem third4_apply (v32 v35 : FVec Ideal S5000x32 .f32) (wo : Vec Ideal S32x64 .f32) (b3 : Vec Ideal S1x64 .f32)
    (p : Fin 5000) (q : Fin 64) :
    k4_pay1 (F := Ideal) v32 v35 wo b3 (ix2 p q)
      = max ((∑ k : Fin 32, max (v32 (ix2 p k) + v35 (ix2 p k)) 0 * wo (ix2 k q)) + b3 (ix2 0 q)) 0 := by
  unfold k4_pay1
  show max (matmul (F := Ideal) dot_S5000x32_S32x64_S5000x64_1_0_0_1_n_n none _ _ _ (ix2 p q)
      + broadcastTo S5000x64 (shapeCast S1x64 b3 shapeCasts_S1x64_S1x64) broadcasts_S1x64_S5000x64 (ix2 p q))
      (Ideal.ofBits .f32 0x00000000#32) = _
  rw [mm4c_apply, bias4a_apply, Ideal.ofBits_zero_f32]
  refine congrArg (fun s => max (s + b3 (ix2 0 q)) 0) (Finset.sum_congr rfl fun k _ => ?_)
  show max (v32 (ix2 p k) + v35 (ix2 p k)) (Ideal.ofBits .f32 0x00000000#32) * wo (ix2 k q) = _
  rw [Ideal.ofBits_zero_f32]

/-- The residual output at an entry: the third layer's value plus the residual block's entry. -/
theorem resid4_apply (v32 v35 : FVec Ideal S5000x32 .f32) (wo : Vec Ideal S32x64 .f32) (b3 : Vec Ideal S1x64 .f32)
    (r : Vec Ideal S5000x64 .f32) (p : Fin 5000) (q : Fin 64) :
    k4_pay2 (F := Ideal) v32 v35 wo b3 r (ix2 p q) = k4_pay1 (F := Ideal) v32 v35 wo b3 (ix2 p q) + r (ix2 p q) := by
  unfold k4_pay2
  show k4_pay1 (F := Ideal) v32 v35 wo b3 (ix2 p q) + shapeCast S5000x64 r shapeCasts_S5000x64_S5000x64 (ix2 p q) = _
  rw [shapeCast_self]

/-- The three layers together are the specification's block on the tables read off the loaded blocks, row by row. -/
theorem pay_upper4 (x0 : Vec Ideal S5000x64 .f32) (w0 : Vec Ideal S64x64 .f32) (x1 : Vec Ideal S5000x64 .f32) (w1 : Vec Ideal S64x64 .f32)
    (x2 : Vec Ideal S5000x64 .f32) (w2 : Vec Ideal S64x64 .f32) (b1 : Vec Ideal S1x64 .f32) (wm : Vec Ideal S64x32 .f32)
    (b2 : Vec Ideal S1x32 .f32) (wo : Vec Ideal S32x64 .f32) (b3 : Vec Ideal S1x64 .f32) (p : Fin 5000) (q : Fin 64) :
    k4_pay1 (F := Ideal) (k4_pay3 x0 w0 x1 w1 x2 w2 b1 wm) (k4_pay4 b2) wo b3 (ix2 p q)
      = Cert.Spec.upper (Cert.Spec.lin3 (Cert.Spec.tab2 x0) (Cert.Spec.tab2 x1) (Cert.Spec.tab2 x2) (Cert.Spec.tab2 w0) (Cert.Spec.tab2 w1)
          (Cert.Spec.tab2 w2) (Cert.Spec.row0 b1)) (Cert.Spec.tab2 wm) (Cert.Spec.row0 b2) (Cert.Spec.tab2 wo) (Cert.Spec.row0 b3) p q := by
  rw [third4_apply]
  simp only [second4_apply, secondBias4_apply]
  rfl

/-! ## The blocks a point reads and writes, as rows of the arrays -/

variable (V : (c : Dev nD) → (b : Ref sig .tc) → Buf (Elt Ideal) ((c : Thread nD τ).loc b))

/-- The block index maps, decided over the grid: a row-blocked window sits at block (t, 0) at point t, every other
    window at block (0, 0). -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_11.index t (0 : Fin 2) = t.val ∧ win4_11.index t (1 : Fin 2) = 0)
    ∧ (win4_12.index t (0 : Fin 2) = t.val ∧ win4_12.index t (1 : Fin 2) = 0)
    ∧ (win4_13.index t (0 : Fin 2) = t.val ∧ win4_13.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0) :=
  (by decide +kernel : ∀ t : Fin grid4.N, _)

/-- Row p of the block at point t is row 5000 · t + p of the array. -/
def row4 (t : Fin cfg4.N) (p : Fin 5000) : Fin 100000 :=
  ⟨5000 * t.val + p.val, by have ht : t.val < grid4.N := t.isLt; rw [N_4] at ht; have hp := p.isLt; omega⟩

/-- Where a block's entry sits in its array: for a row-blocked window, entry (p, k) of the block at point t is entry
    (5000 · t + p, k); one statement per window. -/
theorem emb4_0 (t : Fin cfg4.N) (p : Fin 5000) (k : Fin 64) :
    ((cfg4.win 0).blk t).view.emb (ix2 p k) = (ix2 (row4 t p) k : S100000x64.Idx) := by
  obtain ⟨⟨e0, e1⟩, -, -, -, -, -, -⟩ := idx_facts4 t
  funext a; apply Fin.ext
  match a with
  | ⟨0, _⟩ => show win4_0.index t (0 : Fin 2) * 5000 + 1 * p.val = 5000 * t.val + p.val; rw [e0]; omega
  | ⟨1, _⟩ => show win4_0.index t (1 : Fin 2) * 64 + 1 * k.val = k.val; rw [e1]; omega
theorem emb4_1 (t : Fin cfg4.N) (p : Fin 5000) (k : Fin 64) :
    ((cfg4.win 1).blk t).view.emb (ix2 p k) = (ix2 (row4 t p) k : S100000x64.Idx) := by
  obtain ⟨-, ⟨e0, e1⟩, -, -, -, -, -⟩ := idx_facts4 t
  funext a; apply Fin.ext
  match a with
  | ⟨0, _⟩ => show win4_1.index t (0 : Fin 2) * 5000 + 1 * p.val = 5000 * t.val + p.val; rw [e0]; omega
  | ⟨1, _⟩ => show win4_1.index t (1 : Fin 2) * 64 + 1 * k.val = k.val; rw [e1]; omega
theorem emb4_2 (t : Fin cfg4.N) (p : Fin 5000) (k : Fin 64) :
    ((cfg4.win 2).blk t).view.emb (ix2 p k) = (ix2 (row4 t p) k : S100000x64.Idx) := by
  obtain ⟨-, -, ⟨e0, e1⟩, -, -, -, -⟩ := idx_facts4 t
  funext a; apply Fin.ext
  match a with
  | ⟨0, _⟩ => show win4_2.index t (0 : Fin 2) * 5000 + 1 * p.val = 5000 * t.val + p.val; rw [e0]; omega
  | ⟨1, _⟩ => show win4_2.index t (1 : Fin 2) * 64 + 1 * k.val = k.val; rw [e1]; omega
theorem emb4_11 (t : Fin cfg4.N) (p : Fin 5000) (k : Fin 64) :
    ((cfg4.win 11).blk t).view.emb (ix2 p k) = (ix2 (row4 t p) k : S100000x64.Idx) := by
  obtain ⟨-, -, -, ⟨e0, e1⟩, -, -, -⟩ := idx_facts4 t
  funext a; apply Fin.ext
  match a with
  | ⟨0, _⟩ => show win4_11.index t (0 : Fin 2) * 5000 + 1 * p.val = 5000 * t.val + p.val; rw [e0]; omega
  | ⟨1, _⟩ => show win4_11.index t (1 : Fin 2) * 64 + 1 * k.val = k.val; rw [e1]; omega
theorem emb4_12 (t : Fin cfg4.N) (p : Fin 5000) (k : Fin 64) :
    ((cfg4.win 12).blk t).view.emb (ix2 p k) = (ix2 (row4 t p) k : S100000x64.Idx) := by
  obtain ⟨-, -, -, -, ⟨e0, e1⟩, -, -⟩ := idx_facts4 t
  funext a; apply Fin.ext
  match a with
  | ⟨0, _⟩ => show win4_12.index t (0 : Fin 2) * 5000 + 1 * p.val = 5000 * t.val + p.val; rw [e0]; omega
  | ⟨1, _⟩ => show win4_12.index t (1 : Fin 2) * 64 + 1 * k.val = k.val; rw [e1]; omega
theorem emb4_13 (t : Fin cfg4.N) (p : Fin 5000) (k : Fin 64) :
    ((cfg4.win 13).blk t).view.emb (ix2 p k) = (ix2 (row4 t p) k : S100000x64.Idx) := by
  obtain ⟨-, -, -, -, -, ⟨e0, e1⟩, -⟩ := idx_facts4 t
  funext a; apply Fin.ext
  match a with
  | ⟨0, _⟩ => show win4_13.index t (0 : Fin 2) * 5000 + 1 * p.val = 5000 * t.val + p.val; rw [e0]; omega
  | ⟨1, _⟩ => show win4_13.index t (1 : Fin 2) * 64 + 1 * k.val = k.val; rw [e1]; omega

/-- A window whose block is its whole array: the block's entry is the array's. -/
theorem emb4_3 (t : Fin cfg4.N) (k : Fin 64) (j : Fin 64) :
    ((cfg4.win 3).blk t).view.emb (ix2 k j) = (ix2 k j : S64x64.Idx) := by
  obtain ⟨-, -, -, -, -, -, ⟨e0, e1⟩, -, -, -, -, -, -, -⟩ := idx_facts4 t
  funext a; apply Fin.ext
  match a with
  | ⟨0, _⟩ => show win4_3.index t (0 : Fin 2) * 64 + 1 * k.val = k.val; rw [e0]; omega
  | ⟨1, _⟩ => show win4_3.index t (1 : Fin 2) * 64 + 1 * j.val = j.val; rw [e1]; omega
theorem emb4_4 (t : Fin cfg4.N) (k : Fin 64) (j : Fin 64) :
    ((cfg4.win 4).blk t).view.emb (ix2 k j) = (ix2 k j : S64x64.Idx) := by
  obtain ⟨-, -, -, -, -, -, -, ⟨e0, e1⟩, -, -, -, -, -, -⟩ := idx_facts4 t
  funext a; apply Fin.ext
  match a with
  | ⟨0, _⟩ => show win4_4.index t (0 : Fin 2) * 64 + 1 * k.val = k.val; rw [e0]; omega
  | ⟨1, _⟩ => show win4_4.index t (1 : Fin 2) * 64 + 1 * j.val = j.val; rw [e1]; omega
theorem emb4_5 (t : Fin cfg4.N) (k : Fin 64) (j : Fin 64) :
    ((cfg4.win 5).blk t).view.emb (ix2 k j) = (ix2 k j : S64x64.Idx) := by
  obtain ⟨-, -, -, -, -, -, -, -, ⟨e0, e1⟩, -, -, -, -, -⟩ := idx_facts4 t
  funext a; apply Fin.ext
  match a with
  | ⟨0, _⟩ => show win4_5.index t (0 : Fin 2) * 64 + 1 * k.val = k.val; rw [e0]; omega
  | ⟨1, _⟩ => show win4_5.index t (1 : Fin 2) * 64 + 1 * j.val = j.val; rw [e1]; omega
theorem emb4_6 (t : Fin cfg4.N) (k : Fin 1) (j : Fin 64) :
    ((cfg4.win 6).blk t).view.emb (ix2 k j) = (ix2 k j : S1x64.Idx) := by
  obtain ⟨-, -, -, -, -, -, -, -, -, ⟨e0, e1⟩, -, -, -, -⟩ := idx_facts4 t
  funext a; apply Fin.ext
  match a with
  | ⟨0, _⟩ => show win4_6.index t (0 : Fin 2) * 1 + 1 * k.val = k.val; rw [e0]; omega
  | ⟨1, _⟩ => show win4_6.index t (1 : Fin 2) * 64 + 1 * j.val = j.val; rw [e1]; omega
theorem emb4_7 (t : Fin cfg4.N) (k : Fin 64) (j : Fin 32) :
    ((cfg4.win 7).blk t).view.emb (ix2 k j) = (ix2 k j : S64x32.Idx) := by
  obtain ⟨-, -, -, -, -, -, -, -, -, -, ⟨e0, e1⟩, -, -, -⟩ := idx_facts4 t
  funext a; apply Fin.ext
  match a with
  | ⟨0, _⟩ => show win4_7.index t (0 : Fin 2) * 64 + 1 * k.val = k.val; rw [e0]; omega
  | ⟨1, _⟩ => show win4_7.index t (1 : Fin 2) * 32 + 1 * j.val = j.val; rw [e1]; omega
theorem emb4_8 (t : Fin cfg4.N) (k : Fin 1) (j : Fin 32) :
    ((cfg4.win 8).blk t).view.emb (ix2 k j) = (ix2 k j : S1x32.Idx) := by
  obtain ⟨-, -, -, -, -, -, -, -, -, -, -, ⟨e0, e1⟩, -, -⟩ := idx_facts4 t
  funext a; apply Fin.ext
  match a with
  | ⟨0, _⟩ => show win4_8.index t (0 : Fin 2) * 1 + 1 * k.val = k.val; rw [e0]; omega
  | ⟨1, _⟩ => show win4_8.index t (1 : Fin 2) * 32 + 1 * j.val = j.val; rw [e1]; omega
theorem emb4_9 (t : Fin cfg4.N) (k : Fin 32) (j : Fin 64) :
    ((cfg4.win 9).blk t).view.emb (ix2 k j) = (ix2 k j : S32x64.Idx) := by
  obtain ⟨-, -, -, -, -, -, -, -, -, -, -, -, ⟨e0, e1⟩, -⟩ := idx_facts4 t
  funext a; apply Fin.ext
  match a with
  | ⟨0, _⟩ => show win4_9.index t (0 : Fin 2) * 32 + 1 * k.val = k.val; rw [e0]; omega
  | ⟨1, _⟩ => show win4_9.index t (1 : Fin 2) * 64 + 1 * j.val = j.val; rw [e1]; omega
theorem emb4_10 (t : Fin cfg4.N) (k : Fin 1) (j : Fin 64) :
    ((cfg4.win 10).blk t).view.emb (ix2 k j) = (ix2 k j : S1x64.Idx) := by
  obtain ⟨-, -, -, -, -, -, -, -, -, -, -, -, -, ⟨e0, e1⟩⟩ := idx_facts4 t
  funext a; apply Fin.ext
  match a with
  | ⟨0, _⟩ => show win4_10.index t (0 : Fin 2) * 1 + 1 * k.val = k.val; rw [e0]; omega
  | ⟨1, _⟩ => show win4_10.index t (1 : Fin 2) * 64 + 1 * j.val = j.val; rw [e1]; omega

/-- The arrays the windows read, as the region finds them. -/
abbrev arr4_0 (c : Dev nD) : Vec Ideal S100000x64 .f32 := V c main_v31
abbrev arr4_1 (c : Dev nD) : Vec Ideal S100000x64 .f32 := V c main_v2
abbrev arr4_2 (c : Dev nD) : Vec Ideal S100000x64 .f32 := V c main_v32
abbrev arr4_3 (c : Dev nD) : Vec Ideal S64x64 .f32 := V c main_v33
abbrev arr4_4 (c : Dev nD) : Vec Ideal S64x64 .f32 := V c main_v34
abbrev arr4_5 (c : Dev nD) : Vec Ideal S64x64 .f32 := V c main_v35
abbrev arr4_6 (c : Dev nD) : Vec Ideal S1x64 .f32 := V c main_v36
abbrev arr4_7 (c : Dev nD) : Vec Ideal S64x32 .f32 := V c main_arg23
abbrev arr4_8 (c : Dev nD) : Vec Ideal S1x32 .f32 := V c main_v37
abbrev arr4_9 (c : Dev nD) : Vec Ideal S32x64 .f32 := V c main_arg25
abbrev arr4_10 (c : Dev nD) : Vec Ideal S1x64 .f32 := V c main_v38
abbrev arr4_11 (c : Dev nD) : Vec Ideal S100000x64 .f32 := V c main_v2

/-- An input block's entry, read off its array. -/
theorem iblk4_0_apply (c : Dev nD) (t : Fin cfg4.N) (p : Fin 5000) (k : Fin 64) :
    (Frame.iblk4 V c 0 t : Vec Ideal S5000x64 .f32) (ix2 p k) = arr4_0 V c (ix2 (row4 t p) k) := by
  show arr4_0 V c (((cfg4.win 0).blk t).view.emb (ix2 p k)) = _
  rw [emb4_0]
theorem iblk4_1_apply (c : Dev nD) (t : Fin cfg4.N) (p : Fin 5000) (k : Fin 64) :
    (Frame.iblk4 V c 1 t : Vec Ideal S5000x64 .f32) (ix2 p k) = arr4_1 V c (ix2 (row4 t p) k) := by
  show arr4_1 V c (((cfg4.win 1).blk t).view.emb (ix2 p k)) = _
  rw [emb4_1]
theorem iblk4_2_apply (c : Dev nD) (t : Fin cfg4.N) (p : Fin 5000) (k : Fin 64) :
    (Frame.iblk4 V c 2 t : Vec Ideal S5000x64 .f32) (ix2 p k) = arr4_2 V c (ix2 (row4 t p) k) := by
  show arr4_2 V c (((cfg4.win 2).blk t).view.emb (ix2 p k)) = _
  rw [emb4_2]
theorem iblk4_11_apply (c : Dev nD) (t : Fin cfg4.N) (p : Fin 5000) (k : Fin 64) :
    (Frame.iblk4 V c 11 t : Vec Ideal S5000x64 .f32) (ix2 p k) = arr4_11 V c (ix2 (row4 t p) k) := by
  show arr4_11 V c (((cfg4.win 11).blk t).view.emb (ix2 p k)) = _
  rw [emb4_11]
theorem iblk4_3_apply (c : Dev nD) (t : Fin cfg4.N) (k : Fin 64) (j : Fin 64) :
    (Frame.iblk4 V c 3 t : Vec Ideal S64x64 .f32) (ix2 k j) = arr4_3 V c (ix2 k j) := by
  show arr4_3 V c (((cfg4.win 3).blk t).view.emb (ix2 k j)) = _
  rw [emb4_3]
theorem iblk4_4_apply (c : Dev nD) (t : Fin cfg4.N) (k : Fin 64) (j : Fin 64) :
    (Frame.iblk4 V c 4 t : Vec Ideal S64x64 .f32) (ix2 k j) = arr4_4 V c (ix2 k j) := by
  show arr4_4 V c (((cfg4.win 4).blk t).view.emb (ix2 k j)) = _
  rw [emb4_4]
theorem iblk4_5_apply (c : Dev nD) (t : Fin cfg4.N) (k : Fin 64) (j : Fin 64) :
    (Frame.iblk4 V c 5 t : Vec Ideal S64x64 .f32) (ix2 k j) = arr4_5 V c (ix2 k j) := by
  show arr4_5 V c (((cfg4.win 5).blk t).view.emb (ix2 k j)) = _
  rw [emb4_5]
theorem iblk4_6_apply (c : Dev nD) (t : Fin cfg4.N) (k : Fin 1) (j : Fin 64) :
    (Frame.iblk4 V c 6 t : Vec Ideal S1x64 .f32) (ix2 k j) = arr4_6 V c (ix2 k j) := by
  show arr4_6 V c (((cfg4.win 6).blk t).view.emb (ix2 k j)) = _
  rw [emb4_6]
theorem iblk4_7_apply (c : Dev nD) (t : Fin cfg4.N) (k : Fin 64) (j : Fin 32) :
    (Frame.iblk4 V c 7 t : Vec Ideal S64x32 .f32) (ix2 k j) = arr4_7 V c (ix2 k j) := by
  show arr4_7 V c (((cfg4.win 7).blk t).view.emb (ix2 k j)) = _
  rw [emb4_7]
theorem iblk4_8_apply (c : Dev nD) (t : Fin cfg4.N) (k : Fin 1) (j : Fin 32) :
    (Frame.iblk4 V c 8 t : Vec Ideal S1x32 .f32) (ix2 k j) = arr4_8 V c (ix2 k j) := by
  show arr4_8 V c (((cfg4.win 8).blk t).view.emb (ix2 k j)) = _
  rw [emb4_8]
theorem iblk4_9_apply (c : Dev nD) (t : Fin cfg4.N) (k : Fin 32) (j : Fin 64) :
    (Frame.iblk4 V c 9 t : Vec Ideal S32x64 .f32) (ix2 k j) = arr4_9 V c (ix2 k j) := by
  show arr4_9 V c (((cfg4.win 9).blk t).view.emb (ix2 k j)) = _
  rw [emb4_9]
theorem iblk4_10_apply (c : Dev nD) (t : Fin cfg4.N) (k : Fin 1) (j : Fin 64) :
    (Frame.iblk4 V c 10 t : Vec Ideal S1x64 .f32) (ix2 k j) = arr4_10 V c (ix2 k j) := by
  show arr4_10 V c (((cfg4.win 10).blk t).view.emb (ix2 k j)) = _
  rw [emb4_10]

/-! ## What a point writes back, and the arrays after the last point -/

theorem hz4 : (![0, 0] : Fin 2 → Nat) = fun _ => 0 := funext fun a => by fin_cases a <;> rfl

/-- What the body leaves in the first output block, at an entry: the specification's block on the loaded blocks' tables. -/
theorem out4_12_apply (xa : Vec Ideal S5000x64 .f32) (xb : Vec Ideal S5000x64 .f32) (xc : Vec Ideal S5000x64 .f32) (xd : Vec Ideal S64x64 .f32) (xe : Vec Ideal S64x64 .f32) (xf : Vec Ideal S64x64 .f32)
    (xg : Vec Ideal S1x64 .f32) (xh : Vec Ideal S64x32 .f32) (xi : Vec Ideal S1x32 .f32) (xj : Vec Ideal S32x64 .f32) (xk : Vec Ideal S1x64 .f32) (xl : Vec Ideal S5000x64 .f32)
    (p : Fin 5000) (q : Fin 64) :
    Frame.out4_12 xa xb xc xd xe xf xg xh xi xj xk xl (ix2 p q)
      = Cert.Spec.upper (Cert.Spec.lin3 (Cert.Spec.tab2 xa) (Cert.Spec.tab2 xb) (Cert.Spec.tab2 xc) (Cert.Spec.tab2 xd) (Cert.Spec.tab2 xe)
        (Cert.Spec.tab2 xf) (Cert.Spec.row0 xg)) (Cert.Spec.tab2 xh) (Cert.Spec.row0 xi) (Cert.Spec.tab2 xj) (Cert.Spec.row0 xk) p q := by
  unfold Frame.out4_12
  rw [View.canon_unit_zero hz4]
  simp only [View.ld_unit_zero (S := S5000x64) hz4, View.ld_unit_zero (S := S64x64) hz4, View.ld_unit_zero (S := S1x64) hz4, View.ld_unit_zero (S := S64x32) hz4, View.ld_unit_zero (S := S1x32) hz4, View.ld_unit_zero (S := S32x64) hz4]
  exact pay_upper4 xa xd xb xe xc xf xg xh xi xj xk p q

/-- In the second output block: the same plus the residual block's entry. -/
theorem out4_13_apply (xa : Vec Ideal S5000x64 .f32) (xb : Vec Ideal S5000x64 .f32) (xc : Vec Ideal S5000x64 .f32) (xd : Vec Ideal S64x64 .f32) (xe : Vec Ideal S64x64 .f32) (xf : Vec Ideal S64x64 .f32)
    (xg : Vec Ideal S1x64 .f32) (xh : Vec Ideal S64x32 .f32) (xi : Vec Ideal S1x32 .f32) (xj : Vec Ideal S32x64 .f32) (xk : Vec Ideal S1x64 .f32) (xl : Vec Ideal S5000x64 .f32)
    (p : Fin 5000) (q : Fin 64) :
    Frame.out4_13 xa xb xc xd xe xf xg xh xi xj xk xl (ix2 p q)
      = Cert.Spec.plus (Cert.Spec.upper (Cert.Spec.lin3 (Cert.Spec.tab2 xa) (Cert.Spec.tab2 xb) (Cert.Spec.tab2 xc) (Cert.Spec.tab2 xd) (Cert.Spec.tab2 xe)
        (Cert.Spec.tab2 xf) (Cert.Spec.row0 xg)) (Cert.Spec.tab2 xh) (Cert.Spec.row0 xi) (Cert.Spec.tab2 xj) (Cert.Spec.row0 xk)) (Cert.Spec.tab2 xl) p q := by
  unfold Frame.out4_13
  rw [View.canon_unit_zero hz4]
  simp only [View.ld_unit_zero (S := S5000x64) hz4, View.ld_unit_zero (S := S64x64) hz4, View.ld_unit_zero (S := S1x64) hz4, View.ld_unit_zero (S := S64x32) hz4, View.ld_unit_zero (S := S1x32) hz4, View.ld_unit_zero (S := S32x64) hz4]
  rw [resid4_apply, pay_upper4]
  rfl

/-- The block's value at a row reads the three row families at that row only: equal rows give equal values. -/
theorem upper_lin3_congr {n n' K K' K'' d : ℕ} (x0 x1 x2 : Fin n → Fin K → EReal) (y0 y1 y2 : Fin n' → Fin K → EReal)
    (w0 w1 w2 : Fin K → Fin K' → EReal) (b1 : Fin K' → EReal) (wm : Fin K' → Fin K'' → EReal) (b2 : Fin K'' → EReal)
    (wo : Fin K'' → Fin d → EReal) (b3 : Fin d → EReal) (r : Fin n) (r' : Fin n')
    (h0 : ∀ k, x0 r k = y0 r' k) (h1 : ∀ k, x1 r k = y1 r' k) (h2 : ∀ k, x2 r k = y2 r' k) (q : Fin d) :
    Cert.Spec.upper (Cert.Spec.lin3 x0 x1 x2 w0 w1 w2 b1) wm b2 wo b3 r q
      = Cert.Spec.upper (Cert.Spec.lin3 y0 y1 y2 w0 w1 w2 b1) wm b2 wo b3 r' q := by
  unfold Cert.Spec.upper Cert.Spec.lin Cert.Spec.relu Cert.Spec.lin3
  simp only [h0, h1, h2]

/-- The first output array after the last point, as one function of the input arrays: the specification's block. -/
abbrev G4_12 (c : Dev nD) : Vec Ideal S100000x64 .f32 :=
  Cert.Spec.arr2 (Cert.Spec.upper (Cert.Spec.lin3 (Cert.Spec.tab2 (arr4_0 V c)) (Cert.Spec.tab2 (arr4_1 V c)) (Cert.Spec.tab2 (arr4_2 V c)) (Cert.Spec.tab2 (arr4_3 V c)) (Cert.Spec.tab2 (arr4_4 V c))
        (Cert.Spec.tab2 (arr4_5 V c)) (Cert.Spec.row0 (arr4_6 V c))) (Cert.Spec.tab2 (arr4_7 V c)) (Cert.Spec.row0 (arr4_8 V c)) (Cert.Spec.tab2 (arr4_9 V c)) (Cert.Spec.row0 (arr4_10 V c)))

/-- The second: that plus the residual's array. -/
abbrev G4_13 (c : Dev nD) : Vec Ideal S100000x64 .f32 :=
  Cert.Spec.arr2 (Cert.Spec.plus (Cert.Spec.upper (Cert.Spec.lin3 (Cert.Spec.tab2 (arr4_0 V c)) (Cert.Spec.tab2 (arr4_1 V c)) (Cert.Spec.tab2 (arr4_2 V c)) (Cert.Spec.tab2 (arr4_3 V c)) (Cert.Spec.tab2 (arr4_4 V c))
        (Cert.Spec.tab2 (arr4_5 V c)) (Cert.Spec.row0 (arr4_6 V c))) (Cert.Spec.tab2 (arr4_7 V c)) (Cert.Spec.row0 (arr4_8 V c)) (Cert.Spec.tab2 (arr4_9 V c)) (Cert.Spec.row0 (arr4_10 V c))) (Cert.Spec.tab2 (arr4_11 V c)))

/-- The weight and bias windows' blocks are their arrays, as tables. -/
theorem tab4_3 (c : Dev nD) (t : Fin cfg4.N) : Cert.Spec.tab2 (Frame.iblk4 V c 3 t : Vec Ideal S64x64 .f32) = Cert.Spec.tab2 (arr4_3 V c) :=
  funext fun k => funext fun j => iblk4_3_apply V c t k j
theorem tab4_4 (c : Dev nD) (t : Fin cfg4.N) : Cert.Spec.tab2 (Frame.iblk4 V c 4 t : Vec Ideal S64x64 .f32) = Cert.Spec.tab2 (arr4_4 V c) :=
  funext fun k => funext fun j => iblk4_4_apply V c t k j
theorem tab4_5 (c : Dev nD) (t : Fin cfg4.N) : Cert.Spec.tab2 (Frame.iblk4 V c 5 t : Vec Ideal S64x64 .f32) = Cert.Spec.tab2 (arr4_5 V c) :=
  funext fun k => funext fun j => iblk4_5_apply V c t k j
theorem tab4_7 (c : Dev nD) (t : Fin cfg4.N) : Cert.Spec.tab2 (Frame.iblk4 V c 7 t : Vec Ideal S64x32 .f32) = Cert.Spec.tab2 (arr4_7 V c) :=
  funext fun k => funext fun j => iblk4_7_apply V c t k j
theorem tab4_9 (c : Dev nD) (t : Fin cfg4.N) : Cert.Spec.tab2 (Frame.iblk4 V c 9 t : Vec Ideal S32x64 .f32) = Cert.Spec.tab2 (arr4_9 V c) :=
  funext fun k => funext fun j => iblk4_9_apply V c t k j
theorem tab4_6 (c : Dev nD) (t : Fin cfg4.N) : Cert.Spec.row0 (Frame.iblk4 V c 6 t : Vec Ideal S1x64 .f32) = Cert.Spec.row0 (arr4_6 V c) :=
  funext fun j => iblk4_6_apply V c t 0 j
theorem tab4_8 (c : Dev nD) (t : Fin cfg4.N) : Cert.Spec.row0 (Frame.iblk4 V c 8 t : Vec Ideal S1x32 .f32) = Cert.Spec.row0 (arr4_8 V c) :=
  funext fun j => iblk4_8_apply V c t 0 j
theorem tab4_10 (c : Dev nD) (t : Fin cfg4.N) : Cert.Spec.row0 (Frame.iblk4 V c 10 t : Vec Ideal S1x64 .f32) = Cert.Spec.row0 (arr4_10 V c) :=
  funext fun j => iblk4_10_apply V c t 0 j

/-- What point t writes back to the first output's array is block t of G4_12. -/
theorem flushed4_12_eq (c : Dev nD) (t : Fin cfg4.N) :
    (Frame.dat4 V c).flushed 12 t = ((cfg4.win 12).blk t).view.read (Elt Ideal) (G4_12 V c) := by
  show (cfg4.win 12).cut (grid4.coords t) ((Frame.dat4 V c).after 12 t) = _
  rw [Frame.after4_12]
  funext j
  obtain ⟨p, q, rfl⟩ : ∃ p q, j = ix2 p q := ⟨j 0, j 1, eq_ix2 j⟩
  show Frame.out4_12 (Frame.iblk4 V c 0 t) (Frame.iblk4 V c 1 t) (Frame.iblk4 V c 2 t) (Frame.iblk4 V c 3 t) (Frame.iblk4 V c 4 t) (Frame.iblk4 V c 5 t) (Frame.iblk4 V c 6 t) (Frame.iblk4 V c 7 t) (Frame.iblk4 V c 8 t) (Frame.iblk4 V c 9 t) (Frame.iblk4 V c 10 t) (Frame.iblk4 V c 11 t) (ix2 p q)
    = G4_12 V c (((cfg4.win 12).blk t).view.emb (ix2 p q))
  rw [out4_12_apply, emb4_12, tab4_3, tab4_4, tab4_5, tab4_6, tab4_7, tab4_8, tab4_9, tab4_10]
  exact upper_lin3_congr _ _ _ _ _ _ _ _ _ _ _ _ _ _ p (row4 t p)
    (fun k => iblk4_0_apply V c t p k) (fun k => iblk4_1_apply V c t p k) (fun k => iblk4_2_apply V c t p k) q

/-- To the second output's array: block t of G4_13. -/
theorem flushed4_13_eq (c : Dev nD) (t : Fin cfg4.N) :
    (Frame.dat4 V c).flushed 13 t = ((cfg4.win 13).blk t).view.read (Elt Ideal) (G4_13 V c) := by
  show (cfg4.win 13).cut (grid4.coords t) ((Frame.dat4 V c).after 13 t) = _
  rw [Frame.after4_13]
  funext j
  obtain ⟨p, q, rfl⟩ : ∃ p q, j = ix2 p q := ⟨j 0, j 1, eq_ix2 j⟩
  show Frame.out4_13 (Frame.iblk4 V c 0 t) (Frame.iblk4 V c 1 t) (Frame.iblk4 V c 2 t) (Frame.iblk4 V c 3 t) (Frame.iblk4 V c 4 t) (Frame.iblk4 V c 5 t) (Frame.iblk4 V c 6 t) (Frame.iblk4 V c 7 t) (Frame.iblk4 V c 8 t) (Frame.iblk4 V c 9 t) (Frame.iblk4 V c 10 t) (Frame.iblk4 V c 11 t) (ix2 p q)
    = G4_13 V c (((cfg4.win 13).blk t).view.emb (ix2 p q))
  rw [out4_13_apply, emb4_13, tab4_3, tab4_4, tab4_5, tab4_6, tab4_7, tab4_8, tab4_9, tab4_10]
  show _ + _ = _ + _
  exact congrArg₂ (· + ·) (upper_lin3_congr _ _ _ _ _ _ _ _ _ _ _ _ _ _ p (row4 t p)
    (fun k => iblk4_0_apply V c t p k) (fun k => iblk4_1_apply V c t p k) (fun k => iblk4_2_apply V c t p k) q)
    (iblk4_11_apply V c t p q)

/-- An index of an output array is in point t's block iff each coordinate is in the block's range on its axis. -/
theorem mem_blk4_12 (t : Fin cfg4.N) (i : S100000x64.Idx) :
    i ∈ ((cfg4.win 12).blk t).view.set ↔ ∀ a : Fin 2, win4_12.index t a * S5000x64.size a ≤ (i a).val ∧ (i a).val < win4_12.index t a * S5000x64.size a + S5000x64.size a := by
  show i ∈ ((View.whole main_v39_0).slice (win4_12.rect t)).set ↔ _
  rw [View.set_slice_whole, Rect.mem_set_unit]
  exact Iff.rfl
theorem mem_blk4_13 (t : Fin cfg4.N) (i : S100000x64.Idx) :
    i ∈ ((cfg4.win 13).blk t).view.set ↔ ∀ a : Fin 2, win4_13.index t a * S5000x64.size a ≤ (i a).val ∧ (i a).val < win4_13.index t a * S5000x64.size a + S5000x64.size a := by
  show i ∈ ((View.whole main_v39_1).slice (win4_13.rect t)).set ↔ _
  rw [View.set_slice_whole, Rect.mem_set_unit]
  exact Iff.rfl

/-- Every index of an output array is in some point's block: row r is in the block of point r / 5000. -/
theorem covered4_12 (i : S100000x64.Idx) :
    ∃ t : Fin cfg4.N, (cfg4.win 12).flush t = true ∧ i ∈ ((cfg4.win 12).blk t).view.set := by
  have hi0 : (i 0).val < 100000 := (i 0).isLt
  have hi1 : (i 1).val < 64 := (i 1).isLt
  have ht : (i 0).val / 5000 < grid4.N := by rw [N_4]; omega
  obtain ⟨-, -, -, -, ⟨e0, e1⟩, -, -⟩ := idx_facts4 ⟨(i 0).val / 5000, ht⟩
  refine ⟨⟨(i 0).val / 5000, ht⟩, flush4_12 _, ?_⟩
  rw [mem_blk4_12]
  intro a
  match a with
  | ⟨0, _⟩ =>
    show win4_12.index ⟨(i 0).val / 5000, ht⟩ (0 : Fin 2) * 5000 ≤ (i 0).val ∧ (i 0).val < win4_12.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_12.index ⟨(i 0).val / 5000, ht⟩ (1 : Fin 2) * 64 ≤ (i 1).val ∧ (i 1).val < win4_12.index ⟨(i 0).val / 5000, ht⟩ (1 : Fin 2) * 64 + 64
    rw [e1]; omega
theorem covered4_13 (i : S100000x64.Idx) :
    ∃ t : Fin cfg4.N, (cfg4.win 13).flush t = true ∧ i ∈ ((cfg4.win 13).blk t).view.set := by
  have hi0 : (i 0).val < 100000 := (i 0).isLt
  have hi1 : (i 1).val < 64 := (i 1).isLt
  have ht : (i 0).val / 5000 < grid4.N := by rw [N_4]; omega
  obtain ⟨-, -, -, -, -, ⟨e0, e1⟩, -⟩ := idx_facts4 ⟨(i 0).val / 5000, ht⟩
  refine ⟨⟨(i 0).val / 5000, ht⟩, flush4_13 _, ?_⟩
  rw [mem_blk4_13]
  intro a
  match a with
  | ⟨0, _⟩ =>
    show win4_13.index ⟨(i 0).val / 5000, ht⟩ (0 : Fin 2) * 5000 ≤ (i 0).val ∧ (i 0).val < win4_13.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_13.index ⟨(i 0).val / 5000, ht⟩ (1 : Fin 2) * 64 ≤ (i 1).val ∧ (i 1).val < win4_13.index ⟨(i 0).val / 5000, ht⟩ (1 : Fin 2) * 64 + 64
    rw [e1]; omega

/-- THE ARRAYS AFTER THE LAST POINT: the first output is the specification's three-layer block on the input arrays'
    tables, the second that plus the residual's array. -/
theorem arrAt4_new (c : Dev nD) :
    ((Frame.dat4 (F := Ideal) V c).arrAt 12 cfg4.N : Vec Ideal S100000x64 .f32)
      = Cert.Spec.arr2 (Cert.Spec.upper (Cert.Spec.lin3 (Cert.Spec.tab2 (V c main_v31 : Vec Ideal S100000x64 .f32)) (Cert.Spec.tab2 (V c main_v2 : Vec Ideal S100000x64 .f32)) (Cert.Spec.tab2 (V c main_v32 : Vec Ideal S100000x64 .f32)) (Cert.Spec.tab2 (V c main_v33 : Vec Ideal S64x64 .f32)) (Cert.Spec.tab2 (V c main_v34 : Vec Ideal S64x64 .f32))
        (Cert.Spec.tab2 (V c main_v35 : Vec Ideal S64x64 .f32)) (Cert.Spec.row0 (V c main_v36 : Vec Ideal S1x64 .f32))) (Cert.Spec.tab2 (V c main_arg23 : Vec Ideal S64x32 .f32)) (Cert.Spec.row0 (V c main_v37 : Vec Ideal S1x32 .f32)) (Cert.Spec.tab2 (V c main_arg25 : Vec Ideal S32x64 .f32)) (Cert.Spec.row0 (V c main_v38 : Vec Ideal S1x64 .f32))) :=
  (Frame.dat4 V c).arrAt_eq_of_cover 12 (G4_12 V c) (fun t _ => flushed4_12_eq V c t) covered4_12

theorem arrAt4_final (c : Dev nD) :
    ((Frame.dat4 (F := Ideal) V c).arrAt 13 cfg4.N : Vec Ideal S100000x64 .f32)
      = Cert.Spec.arr2 (Cert.Spec.plus (Cert.Spec.upper (Cert.Spec.lin3 (Cert.Spec.tab2 (V c main_v31 : Vec Ideal S100000x64 .f32)) (Cert.Spec.tab2 (V c main_v2 : Vec Ideal S100000x64 .f32)) (Cert.Spec.tab2 (V c main_v32 : Vec Ideal S100000x64 .f32)) (Cert.Spec.tab2 (V c main_v33 : Vec Ideal S64x64 .f32)) (Cert.Spec.tab2 (V c main_v34 : Vec Ideal S64x64 .f32))
        (Cert.Spec.tab2 (V c main_v35 : Vec Ideal S64x64 .f32)) (Cert.Spec.row0 (V c main_v36 : Vec Ideal S1x64 .f32))) (Cert.Spec.tab2 (V c main_arg23 : Vec Ideal S64x32 .f32)) (Cert.Spec.row0 (V c main_v37 : Vec Ideal S1x32 .f32)) (Cert.Spec.tab2 (V c main_arg25 : Vec Ideal S32x64 .f32)) (Cert.Spec.row0 (V c main_v38 : Vec Ideal S1x64 .f32)))
          (Cert.Spec.tab2 (V c main_v2 : Vec Ideal S100000x64 .f32))) :=
  (Frame.dat4 V c).arrAt_eq_of_cover 13 (G4_13 V c) (fun t _ => flushed4_13_eq V c t) covered4_13

end Cert.KernelIdeal.RegVal

end
-- ==== Proof.KiVal5.lean ====
/-
  The value of region 5 of the idealized kernel at the extended reals: the two arrays its output windows leave after
  the last grid point, each as one function of the region's input arrays. Row r of the first output is the
  specification's three-layer block at row r — the first layer over the three row families side by side, the partial
  products summed left to right —, and row r of the second is that plus row r of the residual's array.
  The road: a matrix product into the zero accumulator read at an entry is the plain sum over the contracted
  coordinate; so each payload at an entry is the specification's expression on the tables of the blocks it was handed;
  row p of the block at point t is row 1000 · t + p of its array, and the weight and bias windows' blocks are their
  whole arrays; so what point t writes back is block t of one whole-array function; the blocks cover the array.
-/
import proofs.«424920_j53549652246920_2_alg».proof.Proof.KiReg5
import proofs.«424920_j53549652246920_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx
open Idealize.ShloMosaic.Pipeline (Dat)
open scoped BigOperators

/-! ## A matrix product into the zero accumulator, read at an entry -/

/-- The first layer's products: a 1000×64 block by a 64×64 weight slice. The four coordinate facts of the dimension numbers, then the product at entry (p, q):
    the sum over k of a (p, k) · b (k, q). -/
theorem lhs5a_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs5a_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhs5a_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhs5a_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl
theorem mm5a_apply {φ₁ φ₂ : FTy} (a : FVec Ideal S1000x64 φ₁) (b : FVec Ideal S64x64 φ₂) (p : Fin 1000) (q : Fin 64) :
    matmul dot_S1000x64_S64x64_S1000x64_1_0_0_1_n_n none a b (constant (F := Ideal) S1000x64 .f32 0x00000000#32) (ix2 p q)
      = ∑ k : Fin 64, a (ix2 p k) * b (ix2 k q) := by
  refine (Ideal.matmul_constant_zero_apply dot_S1000x64_S64x64_S1000x64_1_0_0_1_n_n none a b (ix2 p q)).trans ?_
  rw [← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 p q) ((ValueIdx.contrEquiv1 dot_S1000x64_S64x64_S1000x64_1_0_0_1_n_n 64 rfl rfl).symm k) = ix2 p k := funext fun a => Fin.ext (by
    match a with
    | ⟨0, _⟩ => exact lhs5a_0 _ _
    | ⟨1, _⟩ => exact (lhs5a_1 _ _).trans hk)
  have er : dot_S1000x64_S64x64_S1000x64_1_0_0_1_n_n.rhsIdx (ix2 p q) ((ValueIdx.contrEquiv1 dot_S1000x64_S64x64_S1000x64_1_0_0_1_n_n 64 rfl rfl).symm k) = ix2 k q := funext fun a => Fin.ext (by
    match a with
    | ⟨0, _⟩ => exact (rhs5a_0 _ _).trans hk
    | ⟨1, _⟩ => exact rhs5a_1 _ _)
  rw [el, er]

/-- The second layer's product: the 1000×64 hidden block by the 64×32 weight. The four coordinate facts of the dimension numbers, then the product at entry (p, q):
    the sum over k of a (p, k) · b (k, q). -/
theorem lhs5b_0 (i : S1000x32.Idx) (q : dot_S1000x64_S64x32_S1000x32_1_0_0_1_n_n.contr.Idx) :
    (dot_S1000x64_S64x32_S1000x32_1_0_0_1_n_n.lhsIdx i q 0).val = (i 0).val := by
  unfold DotDims.lhsIdx
  rw [dif_neg (show ¬(0 : Fin S1000x64.rank) ∈ dot_S1000x64_S64x32_S1000x32_1_0_0_1_n_n.lhsBatch by decide), dif_pos (show (0 : Fin S1000x64.rank) ∈ dot_S1000x64_S64x32_S1000x32_1_0_0_1_n_n.lhsNonContracting by decide)]
  rfl
theorem lhs5b_1 (i : S1000x32.Idx) (q : dot_S1000x64_S64x32_S1000x32_1_0_0_1_n_n.contr.Idx) :
    (dot_S1000x64_S64x32_S1000x32_1_0_0_1_n_n.lhsIdx i q 1).val = (q ⟨0, by decide⟩).val :=
  dot_S1000x64_S64x32_S1000x32_1_0_0_1_n_n.lhsIdx_val_of_single rfl i q
theorem rhs5b_0 (i : S1000x32.Idx) (q : dot_S1000x64_S64x32_S1000x32_1_0_0_1_n_n.contr.Idx) :
    (dot_S1000x64_S64x32_S1000x32_1_0_0_1_n_n.rhsIdx i q 0).val = (q ⟨0, by decide⟩).val :=
  dot_S1000x64_S64x32_S1000x32_1_0_0_1_n_n.rhsIdx_val_of_single rfl i q
theorem rhs5b_1 (i : S1000x32.Idx) (q : dot_S1000x64_S64x32_S1000x32_1_0_0_1_n_n.contr.Idx) :
    (dot_S1000x64_S64x32_S1000x32_1_0_0_1_n_n.rhsIdx i q 1).val = (i 1).val := by
  unfold DotDims.rhsIdx
  rw [dif_neg (show ¬(1 : Fin S64x32.rank) ∈ dot_S1000x64_S64x32_S1000x32_1_0_0_1_n_n.rhsBatch by decide), dif_pos (show (1 : Fin S64x32.rank) ∈ dot_S1000x64_S64x32_S1000x32_1_0_0_1_n_n.rhsNonContracting by decide)]
  rfl
theorem mm5b_apply {φ₁ φ₂ : FTy} (a : FVec Ideal S1000x64 φ₁) (b : FVec Ideal S64x32 φ₂) (p : Fin 1000) (q : Fin 32) :
    matmul dot_S1000x64_S64x32_S1000x32_1_0_0_1_n_n none a b (constant (F := Ideal) S1000x32 .f32 0x00000000#32) (ix2 p q)
      = ∑ k : Fin 64, a (ix2 p k) * b (ix2 k q) := by
  refine (Ideal.matmul_constant_zero_apply dot_S1000x64_S64x32_S1000x32_1_0_0_1_n_n none a b (ix2 p q)).trans ?_
  rw [← Equiv.sum_comp (ValueIdx.contrEquiv1 dot_S1000x64_S64x32_S1000x32_1_0_0_1_n_n 64 rfl rfl).symm]
  refine Finset.sum_congr rfl fun k _ => ?_
  have hk := ValueIdx.contrEquiv1_symm_val dot_S1000x64_S64x32_S1000x32_1_0_0_1_n_n 64 rfl rfl k
  have el : dot_S1000x64_S64x32_S1000x32_1_0_0_1_n_n.lhsIdx (ix2 p q) ((ValueIdx.contrEquiv1 dot_S1000x64_S64x32_S1000x32_1_0_0_1_n_n 64 rfl rfl).symm k) = ix2 p k := funext fun a => Fin.ext (by
    match a with
    | ⟨0, _⟩ => exact lhs5b_0 _ _
    | ⟨1, _⟩ => exact (lhs5b_1 _ _).trans hk)
  have er : dot_S1000x64_S64x32_S1000x32_1_0_0_1_n_n.rhsIdx (ix2 p q) ((ValueIdx.contrEquiv1 dot_S1000x64_S64x32_S1000x32_1_0_0_1_n_n 64 rfl rfl).symm k) = ix2 k q := funext fun a => Fin.ext (by
    match a with
    | ⟨0, _⟩ => exact (rhs5b_0 _ _).trans hk
    | ⟨1, _⟩ => exact rhs5b_1 _ _)
  rw [el, er]

/-- The third layer's product: the 1000×32 hidden block by the 32×64 weight. The four coordinate facts of the dimension numbers, then the product at entry (p, q):
    the sum over k of a (p, k) · b (k, q). -/
theorem lhs5c_0 (i : S1000x64.Idx) (q : dot_S1000x32_S32x64_S1000x64_1_0_0_1_n_n.contr.Idx) :
    (dot_S1000x32_S32x64_S1000x64_1_0_0_1_n_n.lhsIdx i q 0).val = (i 0).val := by
  unfold DotDims.lhsIdx
  rw [dif_neg (show ¬(0 : Fin S1000x32.rank) ∈ dot_S1000x32_S32x64_S1000x64_1_0_0_1_n_n.lhsBatch by decide), dif_pos (show (0 : Fin S1000x32.rank) ∈ dot_S1000x32_S32x64_S1000x64_1_0_0_1_n_n.lhsNonContracting by decide)]
  rfl
theorem lhs5c_1 (i : S1000x64.Idx) (q : dot_S1000x32_S32x64_S1000x64_1_0_0_1_n_n.contr.Idx) :
    (dot_S1000x32_S32x64_S1000x64_1_0_0_1_n_n.lhsIdx i q 1).val = (q ⟨0, by decide⟩).val :=
  dot_S1000x32_S32x64_S1000x64_1_0_0_1_n_n.lhsIdx_val_of_single rfl i q
theorem rhs5c_0 (i : S1000x64.Idx) (q : dot_S1000x32_S32x64_S1000x64_1_0_0_1_n_n.contr.Idx) :
    (dot_S1000x32_S32x64_S1000x64_1_0_0_1_n_n.rhsIdx i q 0).val = (q ⟨0, by decide⟩).val :=
  dot_S1000x32_S32x64_S1000x64_1_0_0_1_n_n.rhsIdx_val_of_single rfl i q
theorem rhs5c_1 (i : S1000x64.Idx) (q : dot_S1000x32_S32x64_S1000x64_1_0_0_1_n_n.contr.Idx) :
    (dot_S1000x32_S32x64_S1000x64_1_0_0_1_n_n.rhsIdx i q 1).val = (i 1).val := by
  unfold DotDims.rhsIdx
  rw [dif_neg (show ¬(1 : Fin S32x64.rank) ∈ dot_S1000x32_S32x64_S1000x64_1_0_0_1_n_n.rhsBatch by decide), dif_pos (show (1 : Fin S32x64.rank) ∈ dot_S1000x32_S32x64_S1000x64_1_0_0_1_n_n.rhsNonContracting by decide)]
  rfl
theorem mm5c_apply {φ₁ φ₂ : FTy} (a : FVec Ideal S1000x32 φ₁) (b : FVec Ideal S32x64 φ₂) (p : Fin 1000) (q : Fin 64) :
    matmul dot_S1000x32_S32x64_S1000x64_1_0_0_1_n_n none a b (constant (F := Ideal) S1000x64 .f32 0x00000000#32) (ix2 p q)
      = ∑ k : Fin 32, a (ix2 p k) * b (ix2 k q) := by
  refine (Ideal.matmul_constant_zero_apply dot_S1000x32_S32x64_S1000x64_1_0_0_1_n_n none a b (ix2 p q)).trans ?_
  rw [← Equiv.sum_comp (ValueIdx.contrEquiv1 dot_S1000x32_S32x64_S1000x64_1_0_0_1_n_n 32 rfl rfl).symm]
  refine Finset.sum_congr rfl fun k _ => ?_
  have hk := ValueIdx.contrEquiv1_symm_val dot_S1000x32_S32x64_S1000x64_1_0_0_1_n_n 32 rfl rfl k
  have el : dot_S1000x32_S32x64_S1000x64_1_0_0_1_n_n.lhsIdx (ix2 p q) ((ValueIdx.contrEquiv1 dot_S1000x32_S32x64_S1000x64_1_0_0_1_n_n 32 rfl rfl).symm k) = ix2 p k := funext fun a => Fin.ext (by
    match a with
    | ⟨0, _⟩ => exact lhs5c_0 _ _
    | ⟨1, _⟩ => exact (lhs5c_1 _ _).trans hk)
  have er : dot_S1000x32_S32x64_S1000x64_1_0_0_1_n_n.rhsIdx (ix2 p q) ((ValueIdx.contrEquiv1 dot_S1000x32_S32x64_S1000x64_1_0_0_1_n_n 32 rfl rfl).symm k) = ix2 k q := funext fun a => Fin.ext (by
    match a with
    | ⟨0, _⟩ => exact (rhs5c_0 _ _).trans hk
    | ⟨1, _⟩ => exact rhs5c_1 _ _)
  rw [el, er]

/-! ## The payloads at an entry -/

/-- The broadcast of a one-row bias over the rows, at an entry: the bias at the column. -/
theorem bias5a_apply (b : Vec Ideal S1x64 .f32) (p : Fin 1000) (q : Fin 64) :
    broadcastTo S1000x64 (shapeCast S1x64 b shapeCasts_S1x64_S1x64) broadcasts_S1x64_S1000x64 (ix2 p q) = b (ix2 0 q) := by
  rw [shapeCast_self]
  exact broadcastTo_apply b broadcasts_S1x64_S1000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])
theorem bias5b_apply (b : Vec Ideal S1x32 .f32) (p : Fin 1000) (q : Fin 32) :
    broadcastTo S1000x32 (shapeCast S1x32 b shapeCasts_S1x32_S1x32) broadcasts_S1x32_S1000x32 (ix2 p q) = b (ix2 0 q) := by
  rw [shapeCast_self]
  exact broadcastTo_apply b broadcasts_S1x32_S1000x32 (ix2 p q) (ix2 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- The second layer's bias, broadcast over the rows. -/
theorem secondBias5_apply (b2 : Vec Ideal S1x32 .f32) (p : Fin 1000) (k : Fin 32) :
    k5_pay4 (F := Ideal) b2 (ix2 p k) = b2 (ix2 0 k) := by
  unfold k5_pay4
  exact bias5b_apply b2 p k

/-- The second layer's product at entry (p, k): over the relu of the first layer, whose pre-activation is the
    three partial products summed left to right plus the bias. -/
theorem second5_apply (x0 : Vec Ideal S1000x64 .f32) (w0 : Vec Ideal S64x64 .f32) (x1 : Vec Ideal S1000x64 .f32) (w1 : Vec Ideal S64x64 .f32)
    (x2 : Vec Ideal S1000x64 .f32) (w2 : Vec Ideal S64x64 .f32) (b1 : Vec Ideal S1x64 .f32) (wm : Vec Ideal S64x32 .f32)
    (p : Fin 1000) (k : Fin 32) :
    k5_pay3 (F := Ideal) x0 w0 x1 w1 x2 w2 b1 wm (ix2 p k)
      = ∑ k' : Fin 64, max ((((∑ j : Fin 64, x0 (ix2 p j) * w0 (ix2 j k')) + (∑ j : Fin 64, x1 (ix2 p j) * w1 (ix2 j k')))
          + (∑ j : Fin 64, x2 (ix2 p j) * w2 (ix2 j k'))) + b1 (ix2 0 k')) 0 * wm (ix2 k' k) := by
  unfold k5_pay3
  refine (mm5b_apply _ _ p k).trans ?_
  refine Finset.sum_congr rfl fun k' _ => ?_
  refine congrArg (· * wm (ix2 k' k)) ?_
  show max (((matmul (F := Ideal) dot_S1000x64_S64x64_S1000x64_1_0_0_1_n_n none _ _ _ (ix2 p k') + matmul (F := Ideal) dot_S1000x64_S64x64_S1000x64_1_0_0_1_n_n none _ _ _ (ix2 p k'))
      + matmul (F := Ideal) dot_S1000x64_S64x64_S1000x64_1_0_0_1_n_n none _ _ _ (ix2 p k')) + broadcastTo S1000x64 (shapeCast S1x64 b1 shapeCasts_S1x64_S1x64) broadcasts_S1x64_S1000x64 (ix2 p k'))
      (Ideal.ofBits .f32 0x00000000#32) = _
  rw [mm5a_apply, mm5a_apply, mm5a_apply, bias5a_apply, Ideal.ofBits_zero_f32]
  simp only [shapeCast_self]
  rfl

/-- The third layer at entry (p, q), from the second layer's product and broadcast bias: the relu of the second
    layer, times the third weight, plus the third bias, and the relu of that. -/
theorem third5_apply (v32 v35 : FVec Ideal S1000x32 .f32) (wo : Vec Ideal S32x64 .f32) (b3 : Vec Ideal S1x64 .f32)
    (p : Fin 1000) (q : Fin 64) :
    k5_pay1 (F := Ideal) v32 v35 wo b3 (ix2 p q)
      = max ((∑ k : Fin 32, max (v32 (ix2 p k) + v35 (ix2 p k)) 0 * wo (ix2 k q)) + b3 (ix2 0 q)) 0 := by
  unfold k5_pay1
  show max (matmul (F := Ideal) dot_S1000x32_S32x64_S1000x64_1_0_0_1_n_n none _ _ _ (ix2 p q)
      + broadcastTo S1000x64 (shapeCast S1x64 b3 shapeCasts_S1x64_S1x64) broadcasts_S1x64_S1000x64 (ix2 p q))
      (Ideal.ofBits .f32 0x00000000#32) = _
  rw [mm5c_apply, bias5a_apply, Ideal.ofBits_zero_f32]
  refine congrArg (fun s => max (s + b3 (ix2 0 q)) 0) (Finset.sum_congr rfl fun k _ => ?_)
  show max (v32 (ix2 p k) + v35 (ix2 p k)) (Ideal.ofBits .f32 0x00000000#32) * wo (ix2 k q) = _
  rw [Ideal.ofBits_zero_f32]

/-- The residual output at an entry: the third layer's value plus the residual block's entry. -/
theorem resid5_apply (v32 v35 : FVec Ideal S1000x32 .f32) (wo : Vec Ideal S32x64 .f32) (b3 : Vec Ideal S1x64 .f32)
    (r : Vec Ideal S1000x64 .f32) (p : Fin 1000) (q : Fin 64) :
    k5_pay2 (F := Ideal) v32 v35 wo b3 r (ix2 p q) = k5_pay1 (F := Ideal) v32 v35 wo b3 (ix2 p q) + r (ix2 p q) := by
  unfold k5_pay2
  show k5_pay1 (F := Ideal) v32 v35 wo b3 (ix2 p q) + shapeCast S1000x64 r shapeCasts_S1000x64_S1000x64 (ix2 p q) = _
  rw [shapeCast_self]

/-- The three layers together are the specification's block on the tables read off the loaded blocks, row by row. -/
theorem pay_upper5 (x0 : Vec Ideal S1000x64 .f32) (w0 : Vec Ideal S64x64 .f32) (x1 : Vec Ideal S1000x64 .f32) (w1 : Vec Ideal S64x64 .f32)
    (x2 : Vec Ideal S1000x64 .f32) (w2 : Vec Ideal S64x64 .f32) (b1 : Vec Ideal S1x64 .f32) (wm : Vec Ideal S64x32 .f32)
    (b2 : Vec Ideal S1x32 .f32) (wo : Vec Ideal S32x64 .f32) (b3 : Vec Ideal S1x64 .f32) (p : Fin 1000) (q : Fin 64) :
    k5_pay1 (F := Ideal) (k5_pay3 x0 w0 x1 w1 x2 w2 b1 wm) (k5_pay4 b2) wo b3 (ix2 p q)
      = Cert.Spec.upper (Cert.Spec.lin3 (Cert.Spec.tab2 x0) (Cert.Spec.tab2 x1) (Cert.Spec.tab2 x2) (Cert.Spec.tab2 w0) (Cert.Spec.tab2 w1)
          (Cert.Spec.tab2 w2) (Cert.Spec.row0 b1)) (Cert.Spec.tab2 wm) (Cert.Spec.row0 b2) (Cert.Spec.tab2 wo) (Cert.Spec.row0 b3) p q := by
  rw [third5_apply]
  simp only [second5_apply, secondBias5_apply]
  rfl

/-! ## The blocks a point reads and writes, as rows of the arrays -/

variable (V : (c : Dev nD) → (b : Ref sig .tc) → Buf (Elt Ideal) ((c : Thread nD τ).loc b))

/-- The block index maps, decided over the grid: a row-blocked window sits at block (t, 0) at point t, every other
    window at block (0, 0). -/
theorem idx_facts5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_11.index t (0 : Fin 2) = t.val ∧ win5_11.index t (1 : Fin 2) = 0)
    ∧ (win5_12.index t (0 : Fin 2) = t.val ∧ win5_12.index t (1 : Fin 2) = 0)
    ∧ (win5_13.index t (0 : Fin 2) = t.val ∧ win5_13.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = 0 ∧ win5_9.index t (1 : Fin 2) = 0)
    ∧ (win5_10.index t (0 : Fin 2) = 0 ∧ win5_10.index t (1 : Fin 2) = 0) :=
  (by decide +kernel : ∀ t : Fin grid5.N, _)

/-- Row p of the block at point t is row 1000 · t + p of the array. -/
def row5 (t : Fin cfg5.N) (p : Fin 1000) : Fin 1000 :=
  ⟨1000 * t.val + p.val, by have ht : t.val < grid5.N := t.isLt; rw [N_5] at ht; have hp := p.isLt; omega⟩

/-- Where a block's entry sits in its array: for a row-blocked window, entry (p, k) of the block at point t is entry
    (1000 · t + p, k); one statement per window. -/
theorem emb5_0 (t : Fin cfg5.N) (p : Fin 1000) (k : Fin 64) :
    ((cfg5.win 0).blk t).view.emb (ix2 p k) = (ix2 (row5 t p) k : S1000x64.Idx) := by
  obtain ⟨⟨e0, e1⟩, -, -, -, -, -, -⟩ := idx_facts5 t
  funext a; apply Fin.ext
  match a with
  | ⟨0, _⟩ => show win5_0.index t (0 : Fin 2) * 1000 + 1 * p.val = 1000 * t.val + p.val; rw [e0]; omega
  | ⟨1, _⟩ => show win5_0.index t (1 : Fin 2) * 64 + 1 * k.val = k.val; rw [e1]; omega
theorem emb5_1 (t : Fin cfg5.N) (p : Fin 1000) (k : Fin 64) :
    ((cfg5.win 1).blk t).view.emb (ix2 p k) = (ix2 (row5 t p) k : S1000x64.Idx) := by
  obtain ⟨-, ⟨e0, e1⟩, -, -, -, -, -⟩ := idx_facts5 t
  funext a; apply Fin.ext
  match a with
  | ⟨0, _⟩ => show win5_1.index t (0 : Fin 2) * 1000 + 1 * p.val = 1000 * t.val + p.val; rw [e0]; omega
  | ⟨1, _⟩ => show win5_1.index t (1 : Fin 2) * 64 + 1 * k.val = k.val; rw [e1]; omega
theorem emb5_2 (t : Fin cfg5.N) (p : Fin 1000) (k : Fin 64) :
    ((cfg5.win 2).blk t).view.emb (ix2 p k) = (ix2 (row5 t p) k : S1000x64.Idx) := by
  obtain ⟨-, -, ⟨e0, e1⟩, -, -, -, -⟩ := idx_facts5 t
  funext a; apply Fin.ext
  match a with
  | ⟨0, _⟩ => show win5_2.index t (0 : Fin 2) * 1000 + 1 * p.val = 1000 * t.val + p.val; rw [e0]; omega
  | ⟨1, _⟩ => show win5_2.index t (1 : Fin 2) * 64 + 1 * k.val = k.val; rw [e1]; omega
theorem emb5_11 (t : Fin cfg5.N) (p : Fin 1000) (k : Fin 64) :
    ((cfg5.win 11).blk t).view.emb (ix2 p k) = (ix2 (row5 t p) k : S1000x64.Idx) := by
  obtain ⟨-, -, -, ⟨e0, e1⟩, -, -, -⟩ := idx_facts5 t
  funext a; apply Fin.ext
  match a with
  | ⟨0, _⟩ => show win5_11.index t (0 : Fin 2) * 1000 + 1 * p.val = 1000 * t.val + p.val; rw [e0]; omega
  | ⟨1, _⟩ => show win5_11.index t (1 : Fin 2) * 64 + 1 * k.val = k.val; rw [e1]; omega
theorem emb5_12 (t : Fin cfg5.N) (p : Fin 1000) (k : Fin 64) :
    ((cfg5.win 12).blk t).view.emb (ix2 p k) = (ix2 (row5 t p) k : S1000x64.Idx) := by
  obtain ⟨-, -, -, -, ⟨e0, e1⟩, -, -⟩ := idx_facts5 t
  funext a; apply Fin.ext
  match a with
  | ⟨0, _⟩ => show win5_12.index t (0 : Fin 2) * 1000 + 1 * p.val = 1000 * t.val + p.val; rw [e0]; omega
  | ⟨1, _⟩ => show win5_12.index t (1 : Fin 2) * 64 + 1 * k.val = k.val; rw [e1]; omega
theorem emb5_13 (t : Fin cfg5.N) (p : Fin 1000) (k : Fin 64) :
    ((cfg5.win 13).blk t).view.emb (ix2 p k) = (ix2 (row5 t p) k : S1000x64.Idx) := by
  obtain ⟨-, -, -, -, -, ⟨e0, e1⟩, -⟩ := idx_facts5 t
  funext a; apply Fin.ext
  match a with
  | ⟨0, _⟩ => show win5_13.index t (0 : Fin 2) * 1000 + 1 * p.val = 1000 * t.val + p.val; rw [e0]; omega
  | ⟨1, _⟩ => show win5_13.index t (1 : Fin 2) * 64 + 1 * k.val = k.val; rw [e1]; omega

/-- A window whose block is its whole array: the block's entry is the array's. -/
theorem emb5_3 (t : Fin cfg5.N) (k : Fin 64) (j : Fin 64) :
    ((cfg5.win 3).blk t).view.emb (ix2 k j) = (ix2 k j : S64x64.Idx) := by
  obtain ⟨-, -, -, -, -, -, ⟨e0, e1⟩, -, -, -, -, -, -, -⟩ := idx_facts5 t
  funext a; apply Fin.ext
  match a with
  | ⟨0, _⟩ => show win5_3.index t (0 : Fin 2) * 64 + 1 * k.val = k.val; rw [e0]; omega
  | ⟨1, _⟩ => show win5_3.index t (1 : Fin 2) * 64 + 1 * j.val = j.val; rw [e1]; omega
theorem emb5_4 (t : Fin cfg5.N) (k : Fin 64) (j : Fin 64) :
    ((cfg5.win 4).blk t).view.emb (ix2 k j) = (ix2 k j : S64x64.Idx) := by
  obtain ⟨-, -, -, -, -, -, -, ⟨e0, e1⟩, -, -, -, -, -, -⟩ := idx_facts5 t
  funext a; apply Fin.ext
  match a with
  | ⟨0, _⟩ => show win5_4.index t (0 : Fin 2) * 64 + 1 * k.val = k.val; rw [e0]; omega
  | ⟨1, _⟩ => show win5_4.index t (1 : Fin 2) * 64 + 1 * j.val = j.val; rw [e1]; omega
theorem emb5_5 (t : Fin cfg5.N) (k : Fin 64) (j : Fin 64) :
    ((cfg5.win 5).blk t).view.emb (ix2 k j) = (ix2 k j : S64x64.Idx) := by
  obtain ⟨-, -, -, -, -, -, -, -, ⟨e0, e1⟩, -, -, -, -, -⟩ := idx_facts5 t
  funext a; apply Fin.ext
  match a with
  | ⟨0, _⟩ => show win5_5.index t (0 : Fin 2) * 64 + 1 * k.val = k.val; rw [e0]; omega
  | ⟨1, _⟩ => show win5_5.index t (1 : Fin 2) * 64 + 1 * j.val = j.val; rw [e1]; omega
theorem emb5_6 (t : Fin cfg5.N) (k : Fin 1) (j : Fin 64) :
    ((cfg5.win 6).blk t).view.emb (ix2 k j) = (ix2 k j : S1x64.Idx) := by
  obtain ⟨-, -, -, -, -, -, -, -, -, ⟨e0, e1⟩, -, -, -, -⟩ := idx_facts5 t
  funext a; apply Fin.ext
  match a with
  | ⟨0, _⟩ => show win5_6.index t (0 : Fin 2) * 1 + 1 * k.val = k.val; rw [e0]; omega
  | ⟨1, _⟩ => show win5_6.index t (1 : Fin 2) * 64 + 1 * j.val = j.val; rw [e1]; omega
theorem emb5_7 (t : Fin cfg5.N) (k : Fin 64) (j : Fin 32) :
    ((cfg5.win 7).blk t).view.emb (ix2 k j) = (ix2 k j : S64x32.Idx) := by
  obtain ⟨-, -, -, -, -, -, -, -, -, -, ⟨e0, e1⟩, -, -, -⟩ := idx_facts5 t
  funext a; apply Fin.ext
  match a with
  | ⟨0, _⟩ => show win5_7.index t (0 : Fin 2) * 64 + 1 * k.val = k.val; rw [e0]; omega
  | ⟨1, _⟩ => show win5_7.index t (1 : Fin 2) * 32 + 1 * j.val = j.val; rw [e1]; omega
theorem emb5_8 (t : Fin cfg5.N) (k : Fin 1) (j : Fin 32) :
    ((cfg5.win 8).blk t).view.emb (ix2 k j) = (ix2 k j : S1x32.Idx) := by
  obtain ⟨-, -, -, -, -, -, -, -, -, -, -, ⟨e0, e1⟩, -, -⟩ := idx_facts5 t
  funext a; apply Fin.ext
  match a with
  | ⟨0, _⟩ => show win5_8.index t (0 : Fin 2) * 1 + 1 * k.val = k.val; rw [e0]; omega
  | ⟨1, _⟩ => show win5_8.index t (1 : Fin 2) * 32 + 1 * j.val = j.val; rw [e1]; omega
theorem emb5_9 (t : Fin cfg5.N) (k : Fin 32) (j : Fin 64) :
    ((cfg5.win 9).blk t).view.emb (ix2 k j) = (ix2 k j : S32x64.Idx) := by
  obtain ⟨-, -, -, -, -, -, -, -, -, -, -, -, ⟨e0, e1⟩, -⟩ := idx_facts5 t
  funext a; apply Fin.ext
  match a with
  | ⟨0, _⟩ => show win5_9.index t (0 : Fin 2) * 32 + 1 * k.val = k.val; rw [e0]; omega
  | ⟨1, _⟩ => show win5_9.index t (1 : Fin 2) * 64 + 1 * j.val = j.val; rw [e1]; omega
theorem emb5_10 (t : Fin cfg5.N) (k : Fin 1) (j : Fin 64) :
    ((cfg5.win 10).blk t).view.emb (ix2 k j) = (ix2 k j : S1x64.Idx) := by
  obtain ⟨-, -, -, -, -, -, -, -, -, -, -, -, -, ⟨e0, e1⟩⟩ := idx_facts5 t
  funext a; apply Fin.ext
  match a with
  | ⟨0, _⟩ => show win5_10.index t (0 : Fin 2) * 1 + 1 * k.val = k.val; rw [e0]; omega
  | ⟨1, _⟩ => show win5_10.index t (1 : Fin 2) * 64 + 1 * j.val = j.val; rw [e1]; omega

/-- The arrays the windows read, as the region finds them. -/
abbrev arr5_0 (c : Dev nD) : Vec Ideal S1000x64 .f32 := V c main_v51
abbrev arr5_1 (c : Dev nD) : Vec Ideal S1000x64 .f32 := V c main_v63
abbrev arr5_2 (c : Dev nD) : Vec Ideal S1000x64 .f32 := V c main_v8
abbrev arr5_3 (c : Dev nD) : Vec Ideal S64x64 .f32 := V c main_v64
abbrev arr5_4 (c : Dev nD) : Vec Ideal S64x64 .f32 := V c main_v65
abbrev arr5_5 (c : Dev nD) : Vec Ideal S64x64 .f32 := V c main_v66
abbrev arr5_6 (c : Dev nD) : Vec Ideal S1x64 .f32 := V c main_v67
abbrev arr5_7 (c : Dev nD) : Vec Ideal S64x32 .f32 := V c main_arg29
abbrev arr5_8 (c : Dev nD) : Vec Ideal S1x32 .f32 := V c main_v68
abbrev arr5_9 (c : Dev nD) : Vec Ideal S32x64 .f32 := V c main_arg31
abbrev arr5_10 (c : Dev nD) : Vec Ideal S1x64 .f32 := V c main_v69
abbrev arr5_11 (c : Dev nD) : Vec Ideal S1000x64 .f32 := V c main_v8

/-- An input block's entry, read off its array. -/
theorem iblk5_0_apply (c : Dev nD) (t : Fin cfg5.N) (p : Fin 1000) (k : Fin 64) :
    (Frame.iblk5 V c 0 t : Vec Ideal S1000x64 .f32) (ix2 p k) = arr5_0 V c (ix2 (row5 t p) k) := by
  show arr5_0 V c (((cfg5.win 0).blk t).view.emb (ix2 p k)) = _
  rw [emb5_0]
theorem iblk5_1_apply (c : Dev nD) (t : Fin cfg5.N) (p : Fin 1000) (k : Fin 64) :
    (Frame.iblk5 V c 1 t : Vec Ideal S1000x64 .f32) (ix2 p k) = arr5_1 V c (ix2 (row5 t p) k) := by
  show arr5_1 V c (((cfg5.win 1).blk t).view.emb (ix2 p k)) = _
  rw [emb5_1]
theorem iblk5_2_apply (c : Dev nD) (t : Fin cfg5.N) (p : Fin 1000) (k : Fin 64) :
    (Frame.iblk5 V c 2 t : Vec Ideal S1000x64 .f32) (ix2 p k) = arr5_2 V c (ix2 (row5 t p) k) := by
  show arr5_2 V c (((cfg5.win 2).blk t).view.emb (ix2 p k)) = _
  rw [emb5_2]
theorem iblk5_11_apply (c : Dev nD) (t : Fin cfg5.N) (p : Fin 1000) (k : Fin 64) :
    (Frame.iblk5 V c 11 t : Vec Ideal S1000x64 .f32) (ix2 p k) = arr5_11 V c (ix2 (row5 t p) k) := by
  show arr5_11 V c (((cfg5.win 11).blk t).view.emb (ix2 p k)) = _
  rw [emb5_11]
theorem iblk5_3_apply (c : Dev nD) (t : Fin cfg5.N) (k : Fin 64) (j : Fin 64) :
    (Frame.iblk5 V c 3 t : Vec Ideal S64x64 .f32) (ix2 k j) = arr5_3 V c (ix2 k j) := by
  show arr5_3 V c (((cfg5.win 3).blk t).view.emb (ix2 k j)) = _
  rw [emb5_3]
theorem iblk5_4_apply (c : Dev nD) (t : Fin cfg5.N) (k : Fin 64) (j : Fin 64) :
    (Frame.iblk5 V c 4 t : Vec Ideal S64x64 .f32) (ix2 k j) = arr5_4 V c (ix2 k j) := by
  show arr5_4 V c (((cfg5.win 4).blk t).view.emb (ix2 k j)) = _
  rw [emb5_4]
theorem iblk5_5_apply (c : Dev nD) (t : Fin cfg5.N) (k : Fin 64) (j : Fin 64) :
    (Frame.iblk5 V c 5 t : Vec Ideal S64x64 .f32) (ix2 k j) = arr5_5 V c (ix2 k j) := by
  show arr5_5 V c (((cfg5.win 5).blk t).view.emb (ix2 k j)) = _
  rw [emb5_5]
theorem iblk5_6_apply (c : Dev nD) (t : Fin cfg5.N) (k : Fin 1) (j : Fin 64) :
    (Frame.iblk5 V c 6 t : Vec Ideal S1x64 .f32) (ix2 k j) = arr5_6 V c (ix2 k j) := by
  show arr5_6 V c (((cfg5.win 6).blk t).view.emb (ix2 k j)) = _
  rw [emb5_6]
theorem iblk5_7_apply (c : Dev nD) (t : Fin cfg5.N) (k : Fin 64) (j : Fin 32) :
    (Frame.iblk5 V c 7 t : Vec Ideal S64x32 .f32) (ix2 k j) = arr5_7 V c (ix2 k j) := by
  show arr5_7 V c (((cfg5.win 7).blk t).view.emb (ix2 k j)) = _
  rw [emb5_7]
theorem iblk5_8_apply (c : Dev nD) (t : Fin cfg5.N) (k : Fin 1) (j : Fin 32) :
    (Frame.iblk5 V c 8 t : Vec Ideal S1x32 .f32) (ix2 k j) = arr5_8 V c (ix2 k j) := by
  show arr5_8 V c (((cfg5.win 8).blk t).view.emb (ix2 k j)) = _
  rw [emb5_8]
theorem iblk5_9_apply (c : Dev nD) (t : Fin cfg5.N) (k : Fin 32) (j : Fin 64) :
    (Frame.iblk5 V c 9 t : Vec Ideal S32x64 .f32) (ix2 k j) = arr5_9 V c (ix2 k j) := by
  show arr5_9 V c (((cfg5.win 9).blk t).view.emb (ix2 k j)) = _
  rw [emb5_9]
theorem iblk5_10_apply (c : Dev nD) (t : Fin cfg5.N) (k : Fin 1) (j : Fin 64) :
    (Frame.iblk5 V c 10 t : Vec Ideal S1x64 .f32) (ix2 k j) = arr5_10 V c (ix2 k j) := by
  show arr5_10 V c (((cfg5.win 10).blk t).view.emb (ix2 k j)) = _
  rw [emb5_10]

/-! ## What a point writes back, and the arrays after the last point -/

theorem hz5 : (![0, 0] : Fin 2 → Nat) = fun _ => 0 := funext fun a => by fin_cases a <;> rfl

/-- What the body leaves in the first output block, at an entry: the specification's block on the loaded blocks' tables. -/
theorem out5_12_apply (xa : Vec Ideal S1000x64 .f32) (xb : Vec Ideal S1000x64 .f32) (xc : Vec Ideal S1000x64 .f32) (xd : Vec Ideal S64x64 .f32) (xe : Vec Ideal S64x64 .f32) (xf : Vec Ideal S64x64 .f32)
    (xg : Vec Ideal S1x64 .f32) (xh : Vec Ideal S64x32 .f32) (xi : Vec Ideal S1x32 .f32) (xj : Vec Ideal S32x64 .f32) (xk : Vec Ideal S1x64 .f32) (xl : Vec Ideal S1000x64 .f32)
    (p : Fin 1000) (q : Fin 64) :
    Frame.out5_12 xa xb xc xd xe xf xg xh xi xj xk xl (ix2 p q)
      = Cert.Spec.upper (Cert.Spec.lin3 (Cert.Spec.tab2 xa) (Cert.Spec.tab2 xb) (Cert.Spec.tab2 xc) (Cert.Spec.tab2 xd) (Cert.Spec.tab2 xe)
        (Cert.Spec.tab2 xf) (Cert.Spec.row0 xg)) (Cert.Spec.tab2 xh) (Cert.Spec.row0 xi) (Cert.Spec.tab2 xj) (Cert.Spec.row0 xk) p q := by
  unfold Frame.out5_12
  rw [View.canon_unit_zero hz5]
  simp only [View.ld_unit_zero (S := S1000x64) hz5, View.ld_unit_zero (S := S64x64) hz5, View.ld_unit_zero (S := S1x64) hz5, View.ld_unit_zero (S := S64x32) hz5, View.ld_unit_zero (S := S1x32) hz5, View.ld_unit_zero (S := S32x64) hz5]
  exact pay_upper5 xa xd xb xe xc xf xg xh xi xj xk p q

/-- In the second output block: the same plus the residual block's entry. -/
theorem out5_13_apply (xa : Vec Ideal S1000x64 .f32) (xb : Vec Ideal S1000x64 .f32) (xc : Vec Ideal S1000x64 .f32) (xd : Vec Ideal S64x64 .f32) (xe : Vec Ideal S64x64 .f32) (xf : Vec Ideal S64x64 .f32)
    (xg : Vec Ideal S1x64 .f32) (xh : Vec Ideal S64x32 .f32) (xi : Vec Ideal S1x32 .f32) (xj : Vec Ideal S32x64 .f32) (xk : Vec Ideal S1x64 .f32) (xl : Vec Ideal S1000x64 .f32)
    (p : Fin 1000) (q : Fin 64) :
    Frame.out5_13 xa xb xc xd xe xf xg xh xi xj xk xl (ix2 p q)
      = Cert.Spec.plus (Cert.Spec.upper (Cert.Spec.lin3 (Cert.Spec.tab2 xa) (Cert.Spec.tab2 xb) (Cert.Spec.tab2 xc) (Cert.Spec.tab2 xd) (Cert.Spec.tab2 xe)
        (Cert.Spec.tab2 xf) (Cert.Spec.row0 xg)) (Cert.Spec.tab2 xh) (Cert.Spec.row0 xi) (Cert.Spec.tab2 xj) (Cert.Spec.row0 xk)) (Cert.Spec.tab2 xl) p q := by
  unfold Frame.out5_13
  rw [View.canon_unit_zero hz5]
  simp only [View.ld_unit_zero (S := S1000x64) hz5, View.ld_unit_zero (S := S64x64) hz5, View.ld_unit_zero (S := S1x64) hz5, View.ld_unit_zero (S := S64x32) hz5, View.ld_unit_zero (S := S1x32) hz5, View.ld_unit_zero (S := S32x64) hz5]
  rw [resid5_apply, pay_upper5]
  rfl

/-- The block's value at a row reads the three row families at that row only: equal rows give equal values. -/
theorem upper_lin3_congr5 {n n' K K' K'' d : ℕ} (x0 x1 x2 : Fin n → Fin K → EReal) (y0 y1 y2 : Fin n' → Fin K → EReal)
    (w0 w1 w2 : Fin K → Fin K' → EReal) (b1 : Fin K' → EReal) (wm : Fin K' → Fin K'' → EReal) (b2 : Fin K'' → EReal)
    (wo : Fin K'' → Fin d → EReal) (b3 : Fin d → EReal) (r : Fin n) (r' : Fin n')
    (h0 : ∀ k, x0 r k = y0 r' k) (h1 : ∀ k, x1 r k = y1 r' k) (h2 : ∀ k, x2 r k = y2 r' k) (q : Fin d) :
    Cert.Spec.upper (Cert.Spec.lin3 x0 x1 x2 w0 w1 w2 b1) wm b2 wo b3 r q
      = Cert.Spec.upper (Cert.Spec.lin3 y0 y1 y2 w0 w1 w2 b1) wm b2 wo b3 r' q := by
  unfold Cert.Spec.upper Cert.Spec.lin Cert.Spec.relu Cert.Spec.lin3
  simp only [h0, h1, h2]

/-- The first output array after the last point, as one function of the input arrays: the specification's block. -/
abbrev G5_12 (c : Dev nD) : Vec Ideal S1000x64 .f32 :=
  Cert.Spec.arr2 (Cert.Spec.upper (Cert.Spec.lin3 (Cert.Spec.tab2 (arr5_0 V c)) (Cert.Spec.tab2 (arr5_1 V c)) (Cert.Spec.tab2 (arr5_2 V c)) (Cert.Spec.tab2 (arr5_3 V c)) (Cert.Spec.tab2 (arr5_4 V c))
        (Cert.Spec.tab2 (arr5_5 V c)) (Cert.Spec.row0 (arr5_6 V c))) (Cert.Spec.tab2 (arr5_7 V c)) (Cert.Spec.row0 (arr5_8 V c)) (Cert.Spec.tab2 (arr5_9 V c)) (Cert.Spec.row0 (arr5_10 V c)))

/-- The second: that plus the residual's array. -/
abbrev G5_13 (c : Dev nD) : Vec Ideal S1000x64 .f32 :=
  Cert.Spec.arr2 (Cert.Spec.plus (Cert.Spec.upper (Cert.Spec.lin3 (Cert.Spec.tab2 (arr5_0 V c)) (Cert.Spec.tab2 (arr5_1 V c)) (Cert.Spec.tab2 (arr5_2 V c)) (Cert.Spec.tab2 (arr5_3 V c)) (Cert.Spec.tab2 (arr5_4 V c))
        (Cert.Spec.tab2 (arr5_5 V c)) (Cert.Spec.row0 (arr5_6 V c))) (Cert.Spec.tab2 (arr5_7 V c)) (Cert.Spec.row0 (arr5_8 V c)) (Cert.Spec.tab2 (arr5_9 V c)) (Cert.Spec.row0 (arr5_10 V c))) (Cert.Spec.tab2 (arr5_11 V c)))

/-- The weight and bias windows' blocks are their arrays, as tables. -/
theorem tab5_3 (c : Dev nD) (t : Fin cfg5.N) : Cert.Spec.tab2 (Frame.iblk5 V c 3 t : Vec Ideal S64x64 .f32) = Cert.Spec.tab2 (arr5_3 V c) :=
  funext fun k => funext fun j => iblk5_3_apply V c t k j
theorem tab5_4 (c : Dev nD) (t : Fin cfg5.N) : Cert.Spec.tab2 (Frame.iblk5 V c 4 t : Vec Ideal S64x64 .f32) = Cert.Spec.tab2 (arr5_4 V c) :=
  funext fun k => funext fun j => iblk5_4_apply V c t k j
theorem tab5_5 (c : Dev nD) (t : Fin cfg5.N) : Cert.Spec.tab2 (Frame.iblk5 V c 5 t : Vec Ideal S64x64 .f32) = Cert.Spec.tab2 (arr5_5 V c) :=
  funext fun k => funext fun j => iblk5_5_apply V c t k j
theorem tab5_7 (c : Dev nD) (t : Fin cfg5.N) : Cert.Spec.tab2 (Frame.iblk5 V c 7 t : Vec Ideal S64x32 .f32) = Cert.Spec.tab2 (arr5_7 V c) :=
  funext fun k => funext fun j => iblk5_7_apply V c t k j
theorem tab5_9 (c : Dev nD) (t : Fin cfg5.N) : Cert.Spec.tab2 (Frame.iblk5 V c 9 t : Vec Ideal S32x64 .f32) = Cert.Spec.tab2 (arr5_9 V c) :=
  funext fun k => funext fun j => iblk5_9_apply V c t k j
theorem tab5_6 (c : Dev nD) (t : Fin cfg5.N) : Cert.Spec.row0 (Frame.iblk5 V c 6 t : Vec Ideal S1x64 .f32) = Cert.Spec.row0 (arr5_6 V c) :=
  funext fun j => iblk5_6_apply V c t 0 j
theorem tab5_8 (c : Dev nD) (t : Fin cfg5.N) : Cert.Spec.row0 (Frame.iblk5 V c 8 t : Vec Ideal S1x32 .f32) = Cert.Spec.row0 (arr5_8 V c) :=
  funext fun j => iblk5_8_apply V c t 0 j
theorem tab5_10 (c : Dev nD) (t : Fin cfg5.N) : Cert.Spec.row0 (Frame.iblk5 V c 10 t : Vec Ideal S1x64 .f32) = Cert.Spec.row0 (arr5_10 V c) :=
  funext fun j => iblk5_10_apply V c t 0 j

/-- What point t writes back to the first output's array is block t of G5_12. -/
theorem flushed5_12_eq (c : Dev nD) (t : Fin cfg5.N) :
    (Frame.dat5 V c).flushed 12 t = ((cfg5.win 12).blk t).view.read (Elt Ideal) (G5_12 V c) := by
  show (cfg5.win 12).cut (grid5.coords t) ((Frame.dat5 V c).after 12 t) = _
  rw [Frame.after5_12]
  funext j
  obtain ⟨p, q, rfl⟩ : ∃ p q, j = ix2 p q := ⟨j 0, j 1, eq_ix2 j⟩
  show Frame.out5_12 (Frame.iblk5 V c 0 t) (Frame.iblk5 V c 1 t) (Frame.iblk5 V c 2 t) (Frame.iblk5 V c 3 t) (Frame.iblk5 V c 4 t) (Frame.iblk5 V c 5 t) (Frame.iblk5 V c 6 t) (Frame.iblk5 V c 7 t) (Frame.iblk5 V c 8 t) (Frame.iblk5 V c 9 t) (Frame.iblk5 V c 10 t) (Frame.iblk5 V c 11 t) (ix2 p q)
    = G5_12 V c (((cfg5.win 12).blk t).view.emb (ix2 p q))
  rw [out5_12_apply, emb5_12, tab5_3, tab5_4, tab5_5, tab5_6, tab5_7, tab5_8, tab5_9, tab5_10]
  exact upper_lin3_congr5 _ _ _ _ _ _ _ _ _ _ _ _ _ _ p (row5 t p)
    (fun k => iblk5_0_apply V c t p k) (fun k => iblk5_1_apply V c t p k) (fun k => iblk5_2_apply V c t p k) q

/-- To the second output's array: block t of G5_13. -/
theorem flushed5_13_eq (c : Dev nD) (t : Fin cfg5.N) :
    (Frame.dat5 V c).flushed 13 t = ((cfg5.win 13).blk t).view.read (Elt Ideal) (G5_13 V c) := by
  show (cfg5.win 13).cut (grid5.coords t) ((Frame.dat5 V c).after 13 t) = _
  rw [Frame.after5_13]
  funext j
  obtain ⟨p, q, rfl⟩ : ∃ p q, j = ix2 p q := ⟨j 0, j 1, eq_ix2 j⟩
  show Frame.out5_13 (Frame.iblk5 V c 0 t) (Frame.iblk5 V c 1 t) (Frame.iblk5 V c 2 t) (Frame.iblk5 V c 3 t) (Frame.iblk5 V c 4 t) (Frame.iblk5 V c 5 t) (Frame.iblk5 V c 6 t) (Frame.iblk5 V c 7 t) (Frame.iblk5 V c 8 t) (Frame.iblk5 V c 9 t) (Frame.iblk5 V c 10 t) (Frame.iblk5 V c 11 t) (ix2 p q)
    = G5_13 V c (((cfg5.win 13).blk t).view.emb (ix2 p q))
  rw [out5_13_apply, emb5_13, tab5_3, tab5_4, tab5_5, tab5_6, tab5_7, tab5_8, tab5_9, tab5_10]
  show _ + _ = _ + _
  exact congrArg₂ (· + ·) (upper_lin3_congr5 _ _ _ _ _ _ _ _ _ _ _ _ _ _ p (row5 t p)
    (fun k => iblk5_0_apply V c t p k) (fun k => iblk5_1_apply V c t p k) (fun k => iblk5_2_apply V c t p k) q)
    (iblk5_11_apply V c t p q)

/-- An index of an output array is in point t's block iff each coordinate is in the block's range on its axis. -/
theorem mem_blk5_12 (t : Fin cfg5.N) (i : S1000x64.Idx) :
    i ∈ ((cfg5.win 12).blk t).view.set ↔ ∀ a : Fin 2, win5_12.index t a * S1000x64.size a ≤ (i a).val ∧ (i a).val < win5_12.index t a * S1000x64.size a + S1000x64.size a := by
  show i ∈ ((View.whole main_v70_0).slice (win5_12.rect t)).set ↔ _
  rw [View.set_slice_whole, Rect.mem_set_unit]
  exact Iff.rfl
theorem mem_blk5_13 (t : Fin cfg5.N) (i : S1000x64.Idx) :
    i ∈ ((cfg5.win 13).blk t).view.set ↔ ∀ a : Fin 2, win5_13.index t a * S1000x64.size a ≤ (i a).val ∧ (i a).val < win5_13.index t a * S1000x64.size a + S1000x64.size a := by
  show i ∈ ((View.whole main_v70_1).slice (win5_13.rect t)).set ↔ _
  rw [View.set_slice_whole, Rect.mem_set_unit]
  exact Iff.rfl

/-- Every index of an output array is in some point's block: row r is in the block of point r / 1000. -/
theorem covered5_12 (i : S1000x64.Idx) :
    ∃ t : Fin cfg5.N, (cfg5.win 12).flush t = true ∧ i ∈ ((cfg5.win 12).blk t).view.set := by
  have hi0 : (i 0).val < 1000 := (i 0).isLt
  have hi1 : (i 1).val < 64 := (i 1).isLt
  have ht : (i 0).val / 1000 < grid5.N := by rw [N_5]; omega
  obtain ⟨-, -, -, -, ⟨e0, e1⟩, -, -⟩ := idx_facts5 ⟨(i 0).val / 1000, ht⟩
  refine ⟨⟨(i 0).val / 1000, ht⟩, flush5_12 _, ?_⟩
  rw [mem_blk5_12]
  intro a
  match a with
  | ⟨0, _⟩ =>
    show win5_12.index ⟨(i 0).val / 1000, ht⟩ (0 : Fin 2) * 1000 ≤ (i 0).val ∧ (i 0).val < win5_12.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win5_12.index ⟨(i 0).val / 1000, ht⟩ (1 : Fin 2) * 64 ≤ (i 1).val ∧ (i 1).val < win5_12.index ⟨(i 0).val / 1000, ht⟩ (1 : Fin 2) * 64 + 64
    rw [e1]; omega
theorem covered5_13 (i : S1000x64.Idx) :
    ∃ t : Fin cfg5.N, (cfg5.win 13).flush t = true ∧ i ∈ ((cfg5.win 13).blk t).view.set := by
  have hi0 : (i 0).val < 1000 := (i 0).isLt
  have hi1 : (i 1).val < 64 := (i 1).isLt
  have ht : (i 0).val / 1000 < grid5.N := by rw [N_5]; omega
  obtain ⟨-, -, -, -, -, ⟨e0, e1⟩, -⟩ := idx_facts5 ⟨(i 0).val / 1000, ht⟩
  refine ⟨⟨(i 0).val / 1000, ht⟩, flush5_13 _, ?_⟩
  rw [mem_blk5_13]
  intro a
  match a with
  | ⟨0, _⟩ =>
    show win5_13.index ⟨(i 0).val / 1000, ht⟩ (0 : Fin 2) * 1000 ≤ (i 0).val ∧ (i 0).val < win5_13.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win5_13.index ⟨(i 0).val / 1000, ht⟩ (1 : Fin 2) * 64 ≤ (i 1).val ∧ (i 1).val < win5_13.index ⟨(i 0).val / 1000, ht⟩ (1 : Fin 2) * 64 + 64
    rw [e1]; omega

/-- THE ARRAYS AFTER THE LAST POINT: the first output is the specification's three-layer block on the input arrays'
    tables, the second that plus the residual's array. -/
theorem arrAt5_new (c : Dev nD) :
    ((Frame.dat5 (F := Ideal) V c).arrAt 12 cfg5.N : Vec Ideal S1000x64 .f32)
      = Cert.Spec.arr2 (Cert.Spec.upper (Cert.Spec.lin3 (Cert.Spec.tab2 (V c main_v51 : Vec Ideal S1000x64 .f32)) (Cert.Spec.tab2 (V c main_v63 : Vec Ideal S1000x64 .f32)) (Cert.Spec.tab2 (V c main_v8 : Vec Ideal S1000x64 .f32)) (Cert.Spec.tab2 (V c main_v64 : Vec Ideal S64x64 .f32)) (Cert.Spec.tab2 (V c main_v65 : Vec Ideal S64x64 .f32))
        (Cert.Spec.tab2 (V c main_v66 : Vec Ideal S64x64 .f32)) (Cert.Spec.row0 (V c main_v67 : Vec Ideal S1x64 .f32))) (Cert.Spec.tab2 (V c main_arg29 : Vec Ideal S64x32 .f32)) (Cert.Spec.row0 (V c main_v68 : Vec Ideal S1x32 .f32)) (Cert.Spec.tab2 (V c main_arg31 : Vec Ideal S32x64 .f32)) (Cert.Spec.row0 (V c main_v69 : Vec Ideal S1x64 .f32))) :=
  (Frame.dat5 V c).arrAt_eq_of_cover 12 (G5_12 V c) (fun t _ => flushed5_12_eq V c t) covered5_12

theorem arrAt5_final (c : Dev nD) :
    ((Frame.dat5 (F := Ideal) V c).arrAt 13 cfg5.N : Vec Ideal S1000x64 .f32)
      = Cert.Spec.arr2 (Cert.Spec.plus (Cert.Spec.upper (Cert.Spec.lin3 (Cert.Spec.tab2 (V c main_v51 : Vec Ideal S1000x64 .f32)) (Cert.Spec.tab2 (V c main_v63 : Vec Ideal S1000x64 .f32)) (Cert.Spec.tab2 (V c main_v8 : Vec Ideal S1000x64 .f32)) (Cert.Spec.tab2 (V c main_v64 : Vec Ideal S64x64 .f32)) (Cert.Spec.tab2 (V c main_v65 : Vec Ideal S64x64 .f32))
        (Cert.Spec.tab2 (V c main_v66 : Vec Ideal S64x64 .f32)) (Cert.Spec.row0 (V c main_v67 : Vec Ideal S1x64 .f32))) (Cert.Spec.tab2 (V c main_arg29 : Vec Ideal S64x32 .f32)) (Cert.Spec.row0 (V c main_v68 : Vec Ideal S1x32 .f32)) (Cert.Spec.tab2 (V c main_arg31 : Vec Ideal S32x64 .f32)) (Cert.Spec.row0 (V c main_v69 : Vec Ideal S1x64 .f32)))
          (Cert.Spec.tab2 (V c main_v8 : Vec Ideal S1000x64 .f32))) :=
  (Frame.dat5 V c).arrAt_eq_of_cover 13 (G5_13 V c) (fun t _ => flushed5_13_eq V c t) covered5_13

end Cert.KernelIdeal.RegVal

end
-- ==== Proof.KiBridgeB.lean ====
/-
  The kernel-side value bridge, second half: from the exit of the bond-update region to the last boundary of @main.

  Taken from the first half: at the bond-update region's exit the new bonds, the two-layer sites and the two-layer
  graph states are the block's. From there: the new bonds pooled onto their first endpoint and each site's graph state
  (the take in range, by the precondition) enter the site-update region, whose outputs are the block's new sites and
  final sites; the new bonds and new sites pooled per graph enter the state-update region, whose second output is the
  block's final states. Every buffer is carried across the boundaries that do not write it.
-/
import proofs.«424920_j53549652246920_2_alg».proof.Proof.KiChain
import proofs.«424920_j53549652246920_2_alg».proof.Proof.KiArgs
import proofs.«424920_j53549652246920_2_alg».proof.Proof.KiVal4
import proofs.«424920_j53549652246920_2_alg».proof.Proof.KiVal5
import proofs.«424920_j53549652246920_2_alg».proof.Proof.KiTake
import proofs.«424920_j53549652246920_2_alg».proof.Proof.KiPre
import proofs.«424920_j53549652246920_2_alg».proof.Proof.KiHost
import proofs.«424920_j53549652246920_2_alg».proof.Proof.SpecHost

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem
open Cert.Spec

variable (m : (ℓ : Loc nD τ sig) → Buf (Elt Ideal) ℓ) (c : Dev nD)

/-! ## Buffers carried across boundaries -/

/-- A reference no item up to the bond-update region's exit writes holds there what the launch memory holds. -/
theorem at11_launch (r : Ref sig .tc)
    (h0 : r ∉ hostOps0_W) (h1 : r ∉ hostOps1_W) (h2 : r ∉ hostOps2_W) (h3 : r ∉ hostOps3_W) (h31 : r ∉ hostOps3_1_W)
    (h32 : r ∉ hostOps3_2_W) (h33 : r ∉ hostOps3_3_W)
    (ho : r ∉ ([main_v2, main_v5, main_v8, main_v19_0, main_v19_1] : List (Ref sig .tc))) :
    W11 m c r = m ((c : Thread nD τ).loc r) := by
  have hne : ∀ x ∈ ([main_v2, main_v5, main_v8, main_v19_0, main_v19_1] : List (Ref sig .tc)), r ≠ x :=
    fun x hx e => ho (e ▸ hx)
  rw [W11_of m c r (hne _ (by simp)) (hne _ (by simp)), W10_of m c r h33, W9_of m c r h32, W8_of m c r h31, W7_of m c r h3,
    W6_of m c r (hne _ (by simp)), W5_of m c r h2, W4_of m c r (hne _ (by simp)), W3_of m c r h1,
    W2_of m c r (hne _ (by simp)), W1_of m c r h0]

/-- An argument array at a boundary is the launch memory's: no item writes it. Each step down one boundary. -/
macro "at11" : tactic => `(tactic| exact at11_launch _ _ _ (by decide) (by decide) (by decide) (by decide) (by decide) (by decide) (by decide) (by decide))
macro "at12" : tactic => `(tactic| exact (W12_of _ _ _ (by decide)).trans (by at11))
macro "at13" : tactic => `(tactic| exact (W13_of _ _ _ (by decide)).trans (by at12))
macro "at14" : tactic => `(tactic| exact (W14_of _ _ _ (by decide)).trans (by at13))
macro "at15" : tactic => `(tactic| exact (W15_of _ _ _ (by decide) (by decide)).trans (by at14))
macro "at16" : tactic => `(tactic| exact (W16_of _ _ _ (by decide)).trans (by at15))

/-- From the bond-update region's exit to the site-update region's entry, a buffer the three host stretches between do
    not write is carried. -/
theorem at14_of11 (r : Ref sig .tc) (h4 : r ∉ hostOps4_W) (h41 : r ∉ hostOps4_1_W) (h42 : r ∉ hostOps4_2_W) :
    W14 m c r = W11 m c r :=
  (W14_of m c r h42).trans ((W13_of m c r h41).trans (W12_of m c r h4))

/-- From the site-update region's entry to the state-update region's entry, a buffer that is no output of the
    site-update region and that the host stretch between does not write is carried. -/
theorem at16_of14 (r : Ref sig .tc) (ha : r ≠ main_v39_0) (hb : r ≠ main_v39_1) (h5 : r ∉ hostOps5_W) :
    W16 m c r = W14 m c r :=
  (W16_of m c r h5).trans (W15_of m c r ha hb)

/-! ## Into the site-update region -/

section Sites

variable (hb : W11 m c main_v19_0 = Cert.Block.bondsNew (argsOf m c))
  (hs : W11 m c main_v2 = Cert.Block.sitesP (argsOf m c))
  (hg : W11 m c main_v8 = Cert.Block.statesP (argsOf m c))
  (h : Cert.Pre_KernelIdeal m)

include hb in
/-- The new bonds pooled onto their first endpoint, at the site-update region's entry. -/
theorem at_v31 : W14 m c main_v31 = Cert.Block.bondsAtSite (argsOf m c) := by
  have e33 : W11 m c main_arg33 = m ((c : Thread nD τ).loc main_arg33) := by at11
  have e : W12 m c main_v31 = Cert.Block.bondsAtSite (argsOf m c) := by
    refine (HostRead.host_main_v31 (W11 m c)).trans ?_
    rw [hb, e33]
    rfl
  exact ((W14_of m c main_v31 (by decide)).trans (W13_of m c main_v31 (by decide))).trans e

include hg h in
/-- Each site's graph state, at the site-update region's entry: the take is in range by the precondition. -/
theorem at_v32 : W14 m c main_v32 = Cert.Block.stateOfSite (argsOf m c) := by
  have e35 : W12 m c main_arg35 = m ((c : Thread nD τ).loc main_arg35) := by at12
  have e8 : W12 m c main_v8 = Cert.Block.statesP (argsOf m c) := (W12_of m c main_v8 (by decide)).trans hg
  obtain ⟨-, -, r35, -⟩ := PreFacts.ranges m h c
  have e : W13 m c main_v32 = Cert.Block.stateOfSite (argsOf m c) := by
    refine (Take.take_main_v32 (W12 m c) ?_ ?_).trans ?_
    · rw [e35]; exact fun e => (r35 e).1
    · rw [e35]; exact fun e => (r35 e).2
    · rw [e8, e35]
      rfl
  exact (W14_of m c main_v32 (by decide)).trans e

end Sites

/-! ## The site-update region -/

section SiteRegion

variable (hb : W11 m c main_v19_0 = Cert.Block.bondsNew (argsOf m c))
  (hs : W11 m c main_v2 = Cert.Block.sitesP (argsOf m c))
  (hg : W11 m c main_v8 = Cert.Block.statesP (argsOf m c))
  (h : Cert.Pre_KernelIdeal m)

include hs in
/-- The two-layer sites at the site-update region's entry. -/
theorem v2_at14 : W14 m c main_v2 = Cert.Block.sitesP (argsOf m c) :=
  (at14_of11 m c main_v2 (by decide) (by decide) (by decide)).trans hs

/-- The first layer's three weight blocks and the three bias rows, at the site-update region's entry. -/
theorem v33_at14 : tab2 (W14 m c main_v33 : Vec Ideal S64x64 .f32) = rowsFrom 0 (by decide) (tab2 (argsOf m c).x21) := by
  have e21 : W13 m c main_arg21 = m ((c : Thread nD τ).loc main_arg21) := by at13
  have e : W14 m c main_v33 = _ := HostRead.host_main_v33 (W13 m c)
  rw [e, e21]
  exact tab2_slice 0 (by decide) _ _
theorem v34_at14 : tab2 (W14 m c main_v34 : Vec Ideal S64x64 .f32) = rowsFrom 64 (by decide) (tab2 (argsOf m c).x21) := by
  have e21 : W13 m c main_arg21 = m ((c : Thread nD τ).loc main_arg21) := by at13
  have e : W14 m c main_v34 = _ := HostRead.host_main_v34 (W13 m c)
  rw [e, e21]
  exact tab2_slice 64 (by decide) _ _
theorem v35_at14 : tab2 (W14 m c main_v35 : Vec Ideal S64x64 .f32) = rowsFrom 128 (by decide) (tab2 (argsOf m c).x21) := by
  have e21 : W13 m c main_arg21 = m ((c : Thread nD τ).loc main_arg21) := by at13
  have e : W14 m c main_v35 = _ := HostRead.host_main_v35 (W13 m c)
  rw [e, e21]
  exact tab2_slice 128 (by decide) _ _
theorem v36_at14 : row0 (W14 m c main_v36 : Vec Ideal S1x64 .f32) = tab1 (argsOf m c).x22 := by
  have ea : W13 m c main_arg22 = m ((c : Thread nD τ).loc main_arg22) := by at13
  have e : W14 m c main_v36 = _ := HostRead.host_main_v36 (W13 m c)
  rw [e, ea]
  exact row0_shapeCast _ _
theorem v37_at14 : row0 (W14 m c main_v37 : Vec Ideal S1x32 .f32) = tab1 (argsOf m c).x24 := by
  have ea : W13 m c main_arg24 = m ((c : Thread nD τ).loc main_arg24) := by at13
  have e : W14 m c main_v37 = _ := HostRead.host_main_v37 (W13 m c)
  rw [e, ea]
  exact row0_shapeCast _ _
theorem v38_at14 : row0 (W14 m c main_v38 : Vec Ideal S1x64 .f32) = tab1 (argsOf m c).x26 := by
  have ea : W13 m c main_arg26 = m ((c : Thread nD τ).loc main_arg26) := by at13
  have e : W14 m c main_v38 = _ := HostRead.host_main_v38 (W13 m c)
  rw [e, ea]
  exact row0_shapeCast _ _

include hb hs hg h in
/-- The site-update region's first output is the block's new sites. -/
theorem new_sites : W15 m c main_v39_0 = Cert.Block.sitesNew (argsOf m c) := by
  have e23 : W14 m c main_arg23 = m ((c : Thread nD τ).loc main_arg23) := by at14
  have e25 : W14 m c main_arg25 = m ((c : Thread nD τ).loc main_arg25) := by at14
  rw [W15_outa]
  unfold o15a
  refine (RegVal.arrAt4_new (atTc (W14 m)) c).trans ?_
  dsimp only [atTc]
  rw [at_v31 m c hb, v2_at14 m c hs, at_v32 m c hg h, v33_at14 m c, v34_at14 m c, v35_at14 m c, v36_at14 m c, v37_at14 m c,
    v38_at14 m c, e23, e25]
  rfl

include hb hs hg h in
/-- The site-update region's second output, kept to the last boundary, is the block's final sites. -/
theorem final_sites : W17 m c main_v39_1 = Cert.Block.sitesFinal (argsOf m c) := by
  have e23 : W14 m c main_arg23 = m ((c : Thread nD τ).loc main_arg23) := by at14
  have e25 : W14 m c main_arg25 = m ((c : Thread nD τ).loc main_arg25) := by at14
  rw [W17_of m c main_v39_1 (by decide) (by decide), W16_of m c main_v39_1 (by decide), W15_outb]
  unfold o15b
  refine (RegVal.arrAt4_final (atTc (W14 m)) c).trans ?_
  dsimp only [atTc]
  rw [at_v31 m c hb, v2_at14 m c hs, at_v32 m c hg h, v33_at14 m c, v34_at14 m c, v35_at14 m c, v36_at14 m c, v37_at14 m c,
    v38_at14 m c, e23, e25]
  rfl

end SiteRegion

/-! ## Into the state-update region -/

section States

variable (hb : W11 m c main_v19_0 = Cert.Block.bondsNew (argsOf m c))
  (hs : W11 m c main_v2 = Cert.Block.sitesP (argsOf m c))
  (hg : W11 m c main_v8 = Cert.Block.statesP (argsOf m c))
  (h : Cert.Pre_KernelIdeal m)

include hb in
/-- The new bonds pooled per graph, at the state-update region's entry. -/
theorem at_v51 : W16 m c main_v51 = Cert.Block.bondsAtGraph (argsOf m c) := by
  have e36 : W15 m c main_arg36 = m ((c : Thread nD τ).loc main_arg36) := by at15
  have e19 : W15 m c main_v19_0 = Cert.Block.bondsNew (argsOf m c) :=
    ((W15_of m c main_v19_0 (by decide) (by decide)).trans (at14_of11 m c main_v19_0 (by decide) (by decide) (by decide))).trans hb
  refine (HostRead.host_main_v51 (W15 m c)).trans ?_
  rw [e19, e36]
  rfl

include hb hs hg h in
/-- The new sites pooled per graph, at the state-update region's entry. -/
theorem at_v63 : W16 m c main_v63 = Cert.Block.sitesAtGraph (argsOf m c) := by
  have e35 : W15 m c main_arg35 = m ((c : Thread nD τ).loc main_arg35) := by at15
  refine (HostRead.host_main_v63 (W15 m c)).trans ?_
  rw [new_sites m c hb hs hg h, e35]
  rfl

include hg in
/-- The two-layer graph states at the state-update region's entry. -/
theorem v8_at16 : W16 m c main_v8 = Cert.Block.statesP (argsOf m c) :=
  ((at16_of14 m c main_v8 (by decide) (by decide) (by decide)).trans (at14_of11 m c main_v8 (by decide) (by decide) (by decide))).trans hg

/-- The first layer's three weight blocks and the three bias rows, at the state-update region's entry. -/
theorem v64_at16 : tab2 (W16 m c main_v64 : Vec Ideal S64x64 .f32) = rowsFrom 0 (by decide) (tab2 (argsOf m c).x27) := by
  have ea : W15 m c main_arg27 = m ((c : Thread nD τ).loc main_arg27) := by at15
  have e : W16 m c main_v64 = _ := HostRead.host_main_v64 (W15 m c)
  rw [e, ea]
  exact tab2_slice 0 (by decide) _ _
theorem v65_at16 : tab2 (W16 m c main_v65 : Vec Ideal S64x64 .f32) = rowsFrom 64 (by decide) (tab2 (argsOf m c).x27) := by
  have ea : W15 m c main_arg27 = m ((c : Thread nD τ).loc main_arg27) := by at15
  have e : W16 m c main_v65 = _ := HostRead.host_main_v65 (W15 m c)
  rw [e, ea]
  exact tab2_slice 64 (by decide) _ _
theorem v66_at16 : tab2 (W16 m c main_v66 : Vec Ideal S64x64 .f32) = rowsFrom 128 (by decide) (tab2 (argsOf m c).x27) := by
  have ea : W15 m c main_arg27 = m ((c : Thread nD τ).loc main_arg27) := by at15
  have e : W16 m c main_v66 = _ := HostRead.host_main_v66 (W15 m c)
  rw [e, ea]
  exact tab2_slice 128 (by decide) _ _
theorem v67_at16 : row0 (W16 m c main_v67 : Vec Ideal S1x64 .f32) = tab1 (argsOf m c).x28 := by
  have ea : W15 m c main_arg28 = m ((c : Thread nD τ).loc main_arg28) := by at15
  have e : W16 m c main_v67 = _ := HostRead.host_main_v67 (W15 m c)
  rw [e, ea]
  exact row0_shapeCast _ _
theorem v68_at16 : row0 (W16 m c main_v68 : Vec Ideal S1x32 .f32) = tab1 (argsOf m c).x30 := by
  have ea : W15 m c main_arg30 = m ((c : Thread nD τ).loc main_arg30) := by at15
  have e : W16 m c main_v68 = _ := HostRead.host_main_v68 (W15 m c)
  rw [e, ea]
  exact row0_shapeCast _ _
theorem v69_at16 : row0 (W16 m c main_v69 : Vec Ideal S1x64 .f32) = tab1 (argsOf m c).x32 := by
  have ea : W15 m c main_arg32 = m ((c : Thread nD τ).loc main_arg32) := by at15
  have e : W16 m c main_v69 = _ := HostRead.host_main_v69 (W15 m c)
  rw [e, ea]
  exact row0_shapeCast _ _

include hb hs hg h in
/-- The state-update region's second output, at the last boundary, is the block's final states. -/
theorem final_states : W17 m c main_v70_1 = Cert.Block.statesFinal (argsOf m c) := by
  have e29 : W16 m c main_arg29 = m ((c : Thread nD τ).loc main_arg29) := by at16
  have e31 : W16 m c main_arg31 = m ((c : Thread nD τ).loc main_arg31) := by at16
  rw [W17_outb]
  unfold o17b
  refine (RegVal.arrAt5_final (atTc (W16 m)) c).trans ?_
  dsimp only [atTc]
  rw [at_v51 m c hb, at_v63 m c hb hs hg h, v8_at16 m c hg, v64_at16 m c, v65_at16 m c, v66_at16 m c, v67_at16 m c, v68_at16 m c,
    v69_at16 m c, e29, e31]
  rfl

/-- The bond-update region's second output is kept to the last boundary: no later item writes it. -/
theorem bonds_kept : W17 m c main_v19_1 = W11 m c main_v19_1 :=
  (W17_of m c main_v19_1 (by decide) (by decide)).trans
    ((at16_of14 m c main_v19_1 (by decide) (by decide) (by decide)).trans (at14_of11 m c main_v19_1 (by decide) (by decide) (by decide)))

end States

end Cert.KernelIdeal.Bridge

end
-- ==== Proof.RefLayer.lean ====
/-
  Dense layers of the idealized reference program read as the specification's functions, for arrays of any extents.

  A dense layer is a contraction over the shared axis, a bias row broadcast over the rows, an entrywise sum and the
  maximum with zero: at (row r, column j) it is max (∑ k, x r k · w k j + b j) 0, the specification's relu ∘ lin.
  Where the left operand is a concatenation of 64-column row families along the column axis, column 64 p + k of the
  joined rows is column k of the p-th family, so the contraction over 256 (or 192) columns splits at the multiples of
  64 into the partial products of the families with the corresponding 64 rows of the weight, summed left to right.
  A contraction over one axis of extent K is a sum over k < K once the contraction's index is named by its coordinate.
-/
import proofs.«424920_j53549652246920_2_alg».proof.Proof.SpecIdx
import Idealize.ShloMosaic.Lib.Pipeline.Value
import Idealize.ShloMosaic.Lib.ValueIdx
import Idealize.ShloMosaic.PureOps.Ideal
import Idealize.ShloMosaic.PureOps.Ideal.Laws
import Mathlib.Algebra.BigOperators.Fin

noncomputable section

namespace Cert.ReferenceIdeal.RefVal

open Cert.Spec Idealize.ShloMosaic Idealize.ShloMosaic.ValueIdx BigOperators

/-- Two index functions given coordinate by coordinate are equal when their coordinates are. -/
macro "idx_eq" : tactic =>
  `(tactic| exact funext fun a => Fin.ext (by match a with | ⟨0, _⟩ => rfl | ⟨1, _⟩ => rfl))

/-- The same for an index with one coordinate. -/
macro "idx_eq1" : tactic => `(tactic| exact funext fun a => Fin.ext (by match a with | ⟨0, _⟩ => rfl))

/-! ## Arrays as families, a dense layer at an index -/

section generic
variable {n K d : ℕ}

/-- A rank-2 array is the array of its own family over (row, column). -/
theorem arr_tab (A : Vec Ideal ⟨2, ![n, d]⟩ .f32) : A = arr2 (tab2 A) := by
  funext i; exact congrArg A (eq_ix2 i)

/-- The entrywise sum of two arrays is the specification's residual output of their families. -/
theorem plus_of (Z I : Vec Ideal ⟨2, ![n, d]⟩ .f32) :
    addf (F := Ideal) (φ := .f32) Z I = arr2 (plus (tab2 Z) (tab2 I)) := by
  funext i
  obtain ⟨r, j, rfl⟩ : ∃ r j, i = ix2 r j := ⟨i 0, i 1, eq_ix2 i⟩
  rfl

/-- One dense layer followed by relu, read as the specification's function: an array whose entry at i is the
    maximum with zero of the sum over k of X (row of i, k) · W (k, column of i), plus b (column of i). -/
theorem layer_of (X : Vec Ideal ⟨2, ![n, K]⟩ .f32) (W : Vec Ideal ⟨2, ![K, d]⟩ .f32) (b : Vec Ideal ⟨1, ![d]⟩ .f32)
    (Y : Vec Ideal ⟨2, ![n, d]⟩ .f32)
    (li : (⟨2, ![n, d]⟩ : Shape).Idx → Fin K → (⟨2, ![n, K]⟩ : Shape).Idx)
    (ri : (⟨2, ![n, d]⟩ : Shape).Idx → Fin K → (⟨2, ![K, d]⟩ : Shape).Idx)
    (bi : (⟨2, ![n, d]⟩ : Shape).Idx → (⟨1, ![d]⟩ : Shape).Idx)
    (hY : ∀ i, Y i = max ((∑ k, X (li i k) * W (ri i k)) + b (bi i)) 0)
    (hl : ∀ i k, li i k = ix2 (i 0) k) (hr : ∀ i k, ri i k = ix2 k (i 1)) (hb : ∀ i, bi i = ix1 (i 1)) :
    tab2 Y = relu (lin (tab2 X) (tab2 W) (tab1 b)) := by
  funext r j
  show Y (ix2 r j) = _
  rw [hY]
  simp only [hl, hr, hb]
  rfl

end generic

/-! ## Row families side by side: the joined rows' product with the weight splits into the partial products -/

/-! ## A contraction over one axis at an index -/

/-- The host's contraction of two arrays over ONE axis of extent K, at the extended reals and at an index i: the sum
    over k < K of the left operand at li i k times the right at ri i k, where li and ri name the operands' indices
    the contraction's index with coordinate k reaches. -/
theorem dot_of {sl sr so : Shape} (D : DotDims sl sr so) (K : ℕ) (hr : D.contr.rank = 1)
    (hs : D.contr.size ⟨0, by omega⟩ = K) (li : so.Idx → Fin K → sl.Idx) (ri : so.Idx → Fin K → sr.Idx)
    (hl : ∀ i k, D.lhsIdx i ((contrEquiv1 D K hr hs).symm k) = li i k)
    (hri : ∀ i k, D.rhsIdx i ((contrEquiv1 D K hr hs).symm k) = ri i k)
    (y : FVec Ideal sl .f32) (w : FVec Ideal sr .f32) (i : so.Idx) :
    Host.dotGeneral D none y w i = ∑ k : Fin K, y (li i k) * w (ri i k) := by
  simp only [Host.dotGeneral]
  rw [Ideal.dotGeneral_apply, ← Equiv.sum_comp (contrEquiv1 D K hr hs).symm]
  exact Finset.sum_congr rfl fun k _ => by rw [hl, hri]

/-! ## A dense layer as the program composes it -/

/-- A dense layer as the program composes it from host operations: the contraction of the input with the weight, plus the
    bias array, then the maximum with the zero array. -/
def hostLayer {sl sr so : Shape} (D : DotDims sl sr so) (y : FVec Ideal sl .f32) (w : FVec Ideal sr .f32)
    (bias zero : FVec Ideal so .f32) : FVec Ideal so .f32 :=
  maximumf (addf (Host.dotGeneral D none y w) bias) zero

/-! ## Row families side by side -/

/-- A sum over 256 indices, cut into its four consecutive runs of 64. -/
theorem sum_four (f : Fin 256 → EReal) :
    ∑ k, f k = (((∑ k : Fin 64, f ⟨0 + k.val, by omega⟩) + ∑ k : Fin 64, f ⟨64 + k.val, by omega⟩)
      + ∑ k : Fin 64, f ⟨128 + k.val, by omega⟩) + ∑ k : Fin 64, f ⟨192 + k.val, by omega⟩ := by
  rw [Cert.Spec.sum_split 192 64 f, Cert.Spec.sum_split 128 64 (fun k => f (Fin.castAdd 64 k)),
    Cert.Spec.sum_split 64 64 (fun k => f (Fin.castAdd 64 (Fin.castAdd 64 k)))]
  refine congrArg₂ (· + ·) (congrArg₂ (· + ·) (congrArg₂ (· + ·) ?_ ?_) ?_) ?_ <;>
    exact Finset.sum_congr rfl fun k _ => congrArg f (Fin.ext (by simp <;> omega))

/-- A sum over 192 indices, cut into its three consecutive runs of 64. -/
theorem sum_three (f : Fin 192 → EReal) :
    ∑ k, f k = ((∑ k : Fin 64, f ⟨0 + k.val, by omega⟩) + ∑ k : Fin 64, f ⟨64 + k.val, by omega⟩)
      + ∑ k : Fin 64, f ⟨128 + k.val, by omega⟩ := by
  rw [Cert.Spec.sum_split 128 64 f, Cert.Spec.sum_split 64 64 (fun k => f (Fin.castAdd 64 k))]
  refine congrArg₂ (· + ·) (congrArg₂ (· + ·) ?_ ?_) ?_ <;>
    exact Finset.sum_congr rfl fun k _ => congrArg f (Fin.ext (by simp <;> omega))

section cat
variable {n : ℕ}

/-- The list of four 64-column pieces. -/
abbrev four (A B C D : Vec Ideal ⟨2, ![n, 64]⟩ .f32) : List ((s : Shape) × (s.Idx → EReal)) :=
  [⟨⟨2, ![n, 64]⟩, A⟩, ⟨⟨2, ![n, 64]⟩, B⟩, ⟨⟨2, ![n, 64]⟩, C⟩, ⟨⟨2, ![n, 64]⟩, D⟩]

theorem cat4_0 (A B C D : Vec Ideal ⟨2, ![n, 64]⟩ .f32) (h : Shape.Concatenates ((four A B C D).map (·.1)) ⟨2, ![n, 256]⟩ 1)
    (r : Fin n) (k : Fin 64) :
    concatenate ⟨2, ![n, 256]⟩ 1 (four A B C D) h (ix2 r ⟨0 + k.val, by omega⟩) = A (ix2 r k) :=
  concatenate_apply_piece (t := ⟨2, ![n, 256]⟩) 1 (four A B C D) h _ 0 (by show (0 : ℕ) < 4; omega) ⟨2, ![n, 64]⟩ A rfl rfl 0 rfl (ix2 r k)
    (fun b hb => by match b with | ⟨0, _⟩ => rfl | ⟨1, _⟩ => exact absurd (Fin.ext rfl) hb) rfl

theorem cat4_1 (A B C D : Vec Ideal ⟨2, ![n, 64]⟩ .f32) (h : Shape.Concatenates ((four A B C D).map (·.1)) ⟨2, ![n, 256]⟩ 1)
    (r : Fin n) (k : Fin 64) :
    concatenate ⟨2, ![n, 256]⟩ 1 (four A B C D) h (ix2 r ⟨64 + k.val, by omega⟩) = B (ix2 r k) :=
  concatenate_apply_piece (t := ⟨2, ![n, 256]⟩) 1 (four A B C D) h _ 1 (by show (1 : ℕ) < 4; omega) ⟨2, ![n, 64]⟩ B rfl rfl 64 rfl (ix2 r k)
    (fun b hb => by match b with | ⟨0, _⟩ => rfl | ⟨1, _⟩ => exact absurd (Fin.ext rfl) hb) rfl

theorem cat4_2 (A B C D : Vec Ideal ⟨2, ![n, 64]⟩ .f32) (h : Shape.Concatenates ((four A B C D).map (·.1)) ⟨2, ![n, 256]⟩ 1)
    (r : Fin n) (k : Fin 64) :
    concatenate ⟨2, ![n, 256]⟩ 1 (four A B C D) h (ix2 r ⟨128 + k.val, by omega⟩) = C (ix2 r k) :=
  concatenate_apply_piece (t := ⟨2, ![n, 256]⟩) 1 (four A B C D) h _ 2 (by show (2 : ℕ) < 4; omega) ⟨2, ![n, 64]⟩ C rfl rfl 128 rfl (ix2 r k)
    (fun b hb => by match b with | ⟨0, _⟩ => rfl | ⟨1, _⟩ => exact absurd (Fin.ext rfl) hb) rfl

theorem cat4_3 (A B C D : Vec Ideal ⟨2, ![n, 64]⟩ .f32) (h : Shape.Concatenates ((four A B C D).map (·.1)) ⟨2, ![n, 256]⟩ 1)
    (r : Fin n) (k : Fin 64) :
    concatenate ⟨2, ![n, 256]⟩ 1 (four A B C D) h (ix2 r ⟨192 + k.val, by omega⟩) = D (ix2 r k) :=
  concatenate_apply_piece (t := ⟨2, ![n, 256]⟩) 1 (four A B C D) h _ 3 (by show (3 : ℕ) < 4; omega) ⟨2, ![n, 64]⟩ D rfl rfl 192 rfl (ix2 r k)
    (fun b hb => by match b with | ⟨0, _⟩ => rfl | ⟨1, _⟩ => exact absurd (Fin.ext rfl) hb) rfl

/-- The list of three 64-column pieces. -/
abbrev three (A B C : Vec Ideal ⟨2, ![n, 64]⟩ .f32) : List ((s : Shape) × (s.Idx → EReal)) :=
  [⟨⟨2, ![n, 64]⟩, A⟩, ⟨⟨2, ![n, 64]⟩, B⟩, ⟨⟨2, ![n, 64]⟩, C⟩]

theorem cat3_0 (A B C : Vec Ideal ⟨2, ![n, 64]⟩ .f32) (h : Shape.Concatenates ((three A B C).map (·.1)) ⟨2, ![n, 192]⟩ 1)
    (r : Fin n) (k : Fin 64) :
    concatenate ⟨2, ![n, 192]⟩ 1 (three A B C) h (ix2 r ⟨0 + k.val, by omega⟩) = A (ix2 r k) :=
  concatenate_apply_piece (t := ⟨2, ![n, 192]⟩) 1 (three A B C) h _ 0 (by show (0 : ℕ) < 3; omega) ⟨2, ![n, 64]⟩ A rfl rfl 0 rfl (ix2 r k)
    (fun b hb => by match b with | ⟨0, _⟩ => rfl | ⟨1, _⟩ => exact absurd (Fin.ext rfl) hb) rfl

theorem cat3_1 (A B C : Vec Ideal ⟨2, ![n, 64]⟩ .f32) (h : Shape.Concatenates ((three A B C).map (·.1)) ⟨2, ![n, 192]⟩ 1)
    (r : Fin n) (k : Fin 64) :
    concatenate ⟨2, ![n, 192]⟩ 1 (three A B C) h (ix2 r ⟨64 + k.val, by omega⟩) = B (ix2 r k) :=
  concatenate_apply_piece (t := ⟨2, ![n, 192]⟩) 1 (three A B C) h _ 1 (by show (1 : ℕ) < 3; omega) ⟨2, ![n, 64]⟩ B rfl rfl 64 rfl (ix2 r k)
    (fun b hb => by match b with | ⟨0, _⟩ => rfl | ⟨1, _⟩ => exact absurd (Fin.ext rfl) hb) rfl

theorem cat3_2 (A B C : Vec Ideal ⟨2, ![n, 64]⟩ .f32) (h : Shape.Concatenates ((three A B C).map (·.1)) ⟨2, ![n, 192]⟩ 1)
    (r : Fin n) (k : Fin 64) :
    concatenate ⟨2, ![n, 192]⟩ 1 (three A B C) h (ix2 r ⟨128 + k.val, by omega⟩) = C (ix2 r k) :=
  concatenate_apply_piece (t := ⟨2, ![n, 192]⟩) 1 (three A B C) h _ 2 (by show (2 : ℕ) < 3; omega) ⟨2, ![n, 64]⟩ C rfl rfl 128 rfl (ix2 r k)
    (fun b hb => by match b with | ⟨0, _⟩ => rfl | ⟨1, _⟩ => exact absurd (Fin.ext rfl) hb) rfl

variable {d : ℕ}

/-- The first layer of an update block over four row families side by side, followed by relu: the product of the
    joined rows with the 256-row weight is the sum of the four 64-row partial products. -/
theorem layer4_of (A B C D : Vec Ideal ⟨2, ![n, 64]⟩ .f32) (h : Shape.Concatenates ((four A B C D).map (·.1)) ⟨2, ![n, 256]⟩ 1)
    (W : Vec Ideal ⟨2, ![256, d]⟩ .f32) (b : Vec Ideal ⟨1, ![d]⟩ .f32) (Y : Vec Ideal ⟨2, ![n, d]⟩ .f32)
    (li : (⟨2, ![n, d]⟩ : Shape).Idx → Fin 256 → (⟨2, ![n, 256]⟩ : Shape).Idx)
    (ri : (⟨2, ![n, d]⟩ : Shape).Idx → Fin 256 → (⟨2, ![256, d]⟩ : Shape).Idx)
    (bi : (⟨2, ![n, d]⟩ : Shape).Idx → (⟨1, ![d]⟩ : Shape).Idx)
    (hY : ∀ i, Y i = max ((∑ k, concatenate ⟨2, ![n, 256]⟩ 1 (four A B C D) h (li i k) * W (ri i k)) + b (bi i)) 0)
    (hl : ∀ i k, li i k = ix2 (i 0) k) (hr : ∀ i k, ri i k = ix2 k (i 1)) (hb : ∀ i, bi i = ix1 (i 1)) :
    tab2 Y = relu (lin4 (tab2 A) (tab2 B) (tab2 C) (tab2 D) (rowsFrom 0 (by decide) (tab2 W)) (rowsFrom 64 (by decide) (tab2 W))
      (rowsFrom 128 (by decide) (tab2 W)) (rowsFrom 192 (by decide) (tab2 W)) (tab1 b)) := by
  funext r j
  show Y (ix2 r j) = _
  rw [hY]
  simp only [hl, hr, hb]
  show max ((∑ k : Fin 256, concatenate ⟨2, ![n, 256]⟩ 1 (four A B C D) h (ix2 r k) * W (ix2 k j)) + b (ix1 j)) 0 = _
  rw [sum_four]
  simp only [cat4_0, cat4_1, cat4_2, cat4_3]
  rfl

/-- The same over three row families and a 192-row weight. -/
theorem layer3_of (A B C : Vec Ideal ⟨2, ![n, 64]⟩ .f32) (h : Shape.Concatenates ((three A B C).map (·.1)) ⟨2, ![n, 192]⟩ 1)
    (W : Vec Ideal ⟨2, ![192, d]⟩ .f32) (b : Vec Ideal ⟨1, ![d]⟩ .f32) (Y : Vec Ideal ⟨2, ![n, d]⟩ .f32)
    (li : (⟨2, ![n, d]⟩ : Shape).Idx → Fin 192 → (⟨2, ![n, 192]⟩ : Shape).Idx)
    (ri : (⟨2, ![n, d]⟩ : Shape).Idx → Fin 192 → (⟨2, ![192, d]⟩ : Shape).Idx)
    (bi : (⟨2, ![n, d]⟩ : Shape).Idx → (⟨1, ![d]⟩ : Shape).Idx)
    (hY : ∀ i, Y i = max ((∑ k, concatenate ⟨2, ![n, 192]⟩ 1 (three A B C) h (li i k) * W (ri i k)) + b (bi i)) 0)
    (hl : ∀ i k, li i k = ix2 (i 0) k) (hr : ∀ i k, ri i k = ix2 k (i 1)) (hb : ∀ i, bi i = ix1 (i 1)) :
    tab2 Y = relu (lin3 (tab2 A) (tab2 B) (tab2 C) (rowsFrom 0 (by decide) (tab2 W)) (rowsFrom 64 (by decide) (tab2 W))
      (rowsFrom 128 (by decide) (tab2 W)) (tab1 b)) := by
  funext r j
  show Y (ix2 r j) = _
  rw [hY]
  simp only [hl, hr, hb]
  show max ((∑ k : Fin 192, concatenate ⟨2, ![n, 192]⟩ 1 (three A B C) h (ix2 r k) * W (ix2 k j)) + b (ix1 j)) 0 = _
  rw [sum_three]
  simp only [cat3_0, cat3_1, cat3_2]
  rfl

end cat

end Cert.ReferenceIdeal.RefVal

end
-- ==== Proof.RefMlp2.lean ====
/-
  The three two-layer perceptron blocks of the idealized reference program, at the extended reals, are the
  specification's two-layer block of their operands: each of the two dense layers of a block, read at an index through
  the generated reading of its contraction, its bias broadcasts and its maximum with the broadcast zero, is
  relu ∘ lin of its input, its weight and its bias.
-/
import proofs.«424920_j53549652246920_2_alg».proof.Proof.RefRead
import proofs.«424920_j53549652246920_2_alg».proof.Proof.RefLayer

noncomputable section

namespace Cert.ReferenceIdeal.RefVal

open Cert.ReferenceIdeal Cert.ReferenceIdeal.Gen Cert.ReferenceIdeal.Read Cert.Spec
open Idealize.ShloMosaic Idealize.ShloMosaic.ValueIdx BigOperators

section stages

variable (x0 : Vec Ideal S100000x64 .f32) (x1 : Vec Ideal S800000x64 .f32) (x2 : Vec Ideal S1000x64 .f32)
  (x3 : Vec Ideal S64x64 .f32) (x4 : Vec Ideal S64 .f32) (x5 : Vec Ideal S64x64 .f32) (x6 : Vec Ideal S64 .f32)
  (x7 : Vec Ideal S64x64 .f32) (x8 : Vec Ideal S64 .f32) (x9 : Vec Ideal S64x64 .f32) (x10 : Vec Ideal S64 .f32)
  (x11 : Vec Ideal S64x64 .f32) (x12 : Vec Ideal S64 .f32) (x13 : Vec Ideal S64x64 .f32) (x14 : Vec Ideal S64 .f32)

local notation "st4" => val_main_v4 (F := Ideal) x0 x3 x4
local notation "st9" => val_main_v9 (F := Ideal) x0 x3 x4 x5 x6
local notation "st14" => val_main_v14 (F := Ideal) x1 x7 x8
local notation "st19" => val_main_v19 (F := Ideal) x1 x7 x8 x9 x10
local notation "st24" => val_main_v24 (F := Ideal) x2 x11 x12
local notation "st29" => val_main_v29 (F := Ideal) x2 x11 x12 x13 x14

/-! ## The three two-layer blocks -/

/-- The first layer of the sites' block and its relu. -/
theorem layer_v4 : tab2 st4 = relu (lin (tab2 x0) (tab2 x3) (tab1 x4)) :=
  layer_of x0 x3 x4 _ lidx_main_v0 ridx_main_v0 (fun i => idx_main_v1 (idx_main_v2 i))
    (fun i => by simp only [val_main_v4_apply, val_main_v3_apply, val_main_v2_apply, val_main_v1_apply, val_main_v0_apply,
      val_main_call0_v0_apply, val_main_call0_cst_apply, Ideal.addf_def, Ideal.maximumf_def, Ideal.ofBits_def,
      Ideal.ofBits_zero_f32])
    (fun i k => by idx_eq) (fun i k => by idx_eq) (fun i => by idx_eq1)

/-- The second layer of the sites' block and its relu. -/
theorem layer_v9 : tab2 st9 = relu (lin (tab2 st4) (tab2 x5) (tab1 x6)) :=
  layer_of st4 x5 x6 _ lidx_main_v5 ridx_main_v5 (fun i => idx_main_v6 (idx_main_v7 i))
    (fun i => by simp only [val_main_v9_apply, val_main_v8_apply, val_main_v7_apply, val_main_v6_apply, val_main_v5_apply,
      val_main_call1_v0_apply, val_main_call1_cst_apply, Ideal.addf_def, Ideal.maximumf_def, Ideal.ofBits_def,
      Ideal.ofBits_zero_f32])
    (fun i k => by idx_eq) (fun i k => by idx_eq) (fun i => by idx_eq1)

/-- The sites' block is the specification's two-layer block of its operands. -/
theorem mlp2_v9 : st9 = arr2 (mlp2 (tab2 x0) (tab2 x3) (tab1 x4) (tab2 x5) (tab1 x6)) :=
  (arr_tab st9).trans (congrArg arr2 (by rw [layer_v9, layer_v4]; rfl))

/-- The first layer of the bonds' block and its relu. -/
theorem layer_v14 : tab2 st14 = relu (lin (tab2 x1) (tab2 x7) (tab1 x8)) :=
  layer_of x1 x7 x8 _ lidx_main_v10 ridx_main_v10 (fun i => idx_main_v11 (idx_main_v12 i))
    (fun i => by simp only [val_main_v14_apply, val_main_v13_apply, val_main_v12_apply, val_main_v11_apply, val_main_v10_apply,
      val_main_call2_v0_apply, val_main_call2_cst_apply, Ideal.addf_def, Ideal.maximumf_def, Ideal.ofBits_def,
      Ideal.ofBits_zero_f32])
    (fun i k => by idx_eq) (fun i k => by idx_eq) (fun i => by idx_eq1)

/-- The second layer of the bonds' block and its relu. -/
theorem layer_v19 : tab2 st19 = relu (lin (tab2 st14) (tab2 x9) (tab1 x10)) :=
  layer_of st14 x9 x10 _ lidx_main_v15 ridx_main_v15 (fun i => idx_main_v16 (idx_main_v17 i))
    (fun i => by simp only [val_main_v19_apply, val_main_v18_apply, val_main_v17_apply, val_main_v16_apply, val_main_v15_apply,
      val_main_call3_v0_apply, val_main_call3_cst_apply, Ideal.addf_def, Ideal.maximumf_def, Ideal.ofBits_def,
      Ideal.ofBits_zero_f32])
    (fun i k => by idx_eq) (fun i k => by idx_eq) (fun i => by idx_eq1)

/-- The bonds' block is the specification's two-layer block of its operands. -/
theorem mlp2_v19 : st19 = arr2 (mlp2 (tab2 x1) (tab2 x7) (tab1 x8) (tab2 x9) (tab1 x10)) :=
  (arr_tab st19).trans (congrArg arr2 (by rw [layer_v19, layer_v14]; rfl))

/-- The first layer of the states' block and its relu. -/
theorem layer_v24 : tab2 st24 = relu (lin (tab2 x2) (tab2 x11) (tab1 x12)) :=
  layer_of x2 x11 x12 _ lidx_main_v20 ridx_main_v20 (fun i => idx_main_v21 (idx_main_v22 i))
    (fun i => by simp only [val_main_v24_apply, val_main_v23_apply, val_main_v22_apply, val_main_v21_apply, val_main_v20_apply,
      val_main_call4_v0_apply, val_main_call4_cst_apply, Ideal.addf_def, Ideal.maximumf_def, Ideal.ofBits_def,
      Ideal.ofBits_zero_f32])
    (fun i k => by idx_eq) (fun i k => by idx_eq) (fun i => by idx_eq1)

/-- The second layer of the states' block and its relu. -/
theorem layer_v29 : tab2 st29 = relu (lin (tab2 st24) (tab2 x13) (tab1 x14)) :=
  layer_of st24 x13 x14 _ lidx_main_v25 ridx_main_v25 (fun i => idx_main_v26 (idx_main_v27 i))
    (fun i => by simp only [val_main_v29_apply, val_main_v28_apply, val_main_v27_apply, val_main_v26_apply, val_main_v25_apply,
      val_main_call5_v0_apply, val_main_call5_cst_apply, Ideal.addf_def, Ideal.maximumf_def, Ideal.ofBits_def,
      Ideal.ofBits_zero_f32])
    (fun i k => by idx_eq) (fun i k => by idx_eq) (fun i => by idx_eq1)

/-- The states' block is the specification's two-layer block of its operands. -/
theorem mlp2_v29 : st29 = arr2 (mlp2 (tab2 x2) (tab2 x11) (tab1 x12) (tab2 x13) (tab1 x14)) :=
  (arr_tab st29).trans (congrArg arr2 (by rw [layer_v29, layer_v24]; rfl))

end stages

end Cert.ReferenceIdeal.RefVal

end
-- ==== Proof.RefMlp3.lean ====
/-
  The three update blocks of the idealized reference program, at the extended reals, are the specification's update
  block of their row families, and the three results are the residual sums.

  Each update block is stated first over ANY row families in place of the gathered and pooled ones: the first layer
  contracts the concatenation of the families along the column axis with a 256- (or 192-) row weight, which splits
  into the 64-row partial products summed left to right; the two upper layers are plain dense layers. The contraction
  at an index, for any operands, is the sum the generated reading states for the program's own operands (its
  coordinate lemmas for the contraction's index maps are about the dimension numbers alone). The program's stage is
  that composition at its own row families, whose values are left as they are.
-/
import proofs.«424920_j53549652246920_2_alg».proof.Proof.RefRead
import proofs.«424920_j53549652246920_2_alg».proof.Proof.RefLayer

noncomputable section

namespace Cert.ReferenceIdeal.RefVal

open Cert.ReferenceIdeal Cert.ReferenceIdeal.Gen Cert.ReferenceIdeal.Read Cert.Spec
open Idealize.ShloMosaic Idealize.ShloMosaic.ValueIdx BigOperators

/-! ## The bond update -/

/-- The contraction of stage 52 at an index, for any operands. -/
theorem dot52 (y : FVec Ideal S800000x256 .f32) (w : FVec Ideal S256x64 .f32) (i : S800000x64.Idx) :
    Host.dotGeneral dot_S800000x256_S256x64_S800000x64_1_0_0_1_n_n none y w i
      = ∑ k : Fin 256, y (lidx_main_v52 i k) * w (ridx_main_v52 i k) :=
  dot_of _ 256 rfl rfl lidx_main_v52 ridx_main_v52
    (fun i k => funext fun a => Fin.ext (by
      match a with
      | ⟨0, _⟩ => exact lhs_main_v52_0 _ _
      | ⟨1, _⟩ => exact (lhs_main_v52_1 _ _).trans (contrEquiv1_symm_val _ 256 rfl rfl k)))
    (fun i k => funext fun a => Fin.ext (by
      match a with
      | ⟨0, _⟩ => exact (rhs_main_v52_0 _ _).trans (contrEquiv1_symm_val _ 256 rfl rfl k)
      | ⟨1, _⟩ => exact rhs_main_v52_1 _ _)) y w i

/-- The contraction of stage 57 at an index, for any operands. -/
theorem dot57 (y : FVec Ideal S800000x64 .f32) (w : FVec Ideal S64x32 .f32) (i : S800000x32.Idx) :
    Host.dotGeneral dot_S800000x64_S64x32_S800000x32_1_0_0_1_n_n none y w i
      = ∑ k : Fin 64, y (lidx_main_v57 i k) * w (ridx_main_v57 i k) :=
  dot_of _ 64 rfl rfl lidx_main_v57 ridx_main_v57
    (fun i k => funext fun a => Fin.ext (by
      match a with
      | ⟨0, _⟩ => exact lhs_main_v57_0 _ _
      | ⟨1, _⟩ => exact (lhs_main_v57_1 _ _).trans (contrEquiv1_symm_val _ 64 rfl rfl k)))
    (fun i k => funext fun a => Fin.ext (by
      match a with
      | ⟨0, _⟩ => exact (rhs_main_v57_0 _ _).trans (contrEquiv1_symm_val _ 64 rfl rfl k)
      | ⟨1, _⟩ => exact rhs_main_v57_1 _ _)) y w i

/-- The contraction of stage 62 at an index, for any operands. -/
theorem dot62 (y : FVec Ideal S800000x32 .f32) (w : FVec Ideal S32x64 .f32) (i : S800000x64.Idx) :
    Host.dotGeneral dot_S800000x32_S32x64_S800000x64_1_0_0_1_n_n none y w i
      = ∑ k : Fin 32, y (lidx_main_v62 i k) * w (ridx_main_v62 i k) :=
  dot_of _ 32 rfl rfl lidx_main_v62 ridx_main_v62
    (fun i k => funext fun a => Fin.ext (by
      match a with
      | ⟨0, _⟩ => exact lhs_main_v62_0 _ _
      | ⟨1, _⟩ => exact (lhs_main_v62_1 _ _).trans (contrEquiv1_symm_val _ 32 rfl rfl k)))
    (fun i k => funext fun a => Fin.ext (by
      match a with
      | ⟨0, _⟩ => exact (rhs_main_v62_0 _ _).trans (contrEquiv1_symm_val _ 32 rfl rfl k)
      | ⟨1, _⟩ => exact rhs_main_v62_1 _ _)) y w i

/-- The first layer of the bond update over any four row families side by side, and its relu. -/
theorem bondL1_tab (a b c d : Vec Ideal S800000x64 .f32) (x15 : Vec Ideal S256x64 .f32) (x16 : Vec Ideal S64 .f32) :
    tab2 (hostLayer dot_S800000x256_S256x64_S800000x64_1_0_0_1_n_n
        (concatenate S800000x256 1 [⟨S800000x64, a⟩, ⟨S800000x64, b⟩, ⟨S800000x64, c⟩, ⟨S800000x64, d⟩]
          concatenates_S800000x64_S800000x64_S800000x64_S800000x64_S800000x256_d1)
        x15 (val_main_v54 (F := Ideal) x16) (val_main_call6_v0 (F := Ideal)))
      = relu (lin4 (tab2 a) (tab2 b) (tab2 c) (tab2 d)
          (rowsFrom 0 (by decide) (tab2 x15)) (rowsFrom 64 (by decide) (tab2 x15)) (rowsFrom 128 (by decide) (tab2 x15)) (rowsFrom 192 (by decide) (tab2 x15)) (tab1 x16)) :=
  layer4_of a b c d concatenates_S800000x64_S800000x64_S800000x64_S800000x64_S800000x256_d1 x15 x16 _
    lidx_main_v52 ridx_main_v52 (fun i => idx_main_v53 (idx_main_v54 i))
    (fun i => by simp only [hostLayer, maximumf_apply, addf_apply, dot52, val_main_v54_apply, val_main_v53_apply, val_main_call6_v0_apply,
      val_main_call6_cst_apply, Ideal.ofBits_def, Ideal.ofBits_zero_f32])
    (fun i k => by idx_eq) (fun i k => by idx_eq) (fun i => by idx_eq1)

/-- The second layer of the bond update over any input, and its relu. -/
theorem bondL2_tab (h : Vec Ideal S800000x64 .f32) (x17 : Vec Ideal S64x32 .f32) (x18 : Vec Ideal S32 .f32) :
    tab2 (hostLayer dot_S800000x64_S64x32_S800000x32_1_0_0_1_n_n h x17 (val_main_v59 (F := Ideal) x18) (val_main_call7_v0 (F := Ideal)))
      = relu (lin (tab2 h) (tab2 x17) (tab1 x18)) :=
  layer_of h x17 x18 _ lidx_main_v57 ridx_main_v57 (fun i => idx_main_v58 (idx_main_v59 i))
    (fun i => by simp only [hostLayer, maximumf_apply, addf_apply, dot57, val_main_v59_apply, val_main_v58_apply, val_main_call7_v0_apply,
      val_main_call7_cst_apply, Ideal.ofBits_def, Ideal.ofBits_zero_f32])
    (fun i k => by idx_eq) (fun i k => by idx_eq) (fun i => by idx_eq1)

/-- The third layer of the bond update over any input, and its relu. -/
theorem bondL3_tab (h : Vec Ideal S800000x32 .f32) (x19 : Vec Ideal S32x64 .f32) (x20 : Vec Ideal S64 .f32) :
    tab2 (hostLayer dot_S800000x32_S32x64_S800000x64_1_0_0_1_n_n h x19 (val_main_v64 (F := Ideal) x20) (val_main_call8_v0 (F := Ideal)))
      = relu (lin (tab2 h) (tab2 x19) (tab1 x20)) :=
  layer_of h x19 x20 _ lidx_main_v62 ridx_main_v62 (fun i => idx_main_v63 (idx_main_v64 i))
    (fun i => by simp only [hostLayer, maximumf_apply, addf_apply, dot62, val_main_v64_apply, val_main_v63_apply, val_main_call8_v0_apply,
      val_main_call8_cst_apply, Ideal.ofBits_def, Ideal.ofBits_zero_f32])
    (fun i k => by idx_eq) (fun i k => by idx_eq) (fun i => by idx_eq1)

/-- The bond update as the program composes it, over any four row families in place of the gathered and pooled ones. -/
def bondUpd (a b c d : Vec Ideal S800000x64 .f32) (x15 : Vec Ideal S256x64 .f32) (x16 : Vec Ideal S64 .f32) (x17 : Vec Ideal S64x32 .f32) (x18 : Vec Ideal S32 .f32)
    (x19 : Vec Ideal S32x64 .f32) (x20 : Vec Ideal S64 .f32) :
    Vec Ideal S800000x64 .f32 :=
  hostLayer dot_S800000x32_S32x64_S800000x64_1_0_0_1_n_n
    (hostLayer dot_S800000x64_S64x32_S800000x32_1_0_0_1_n_n
      (hostLayer dot_S800000x256_S256x64_S800000x64_1_0_0_1_n_n
        (concatenate S800000x256 1 [⟨S800000x64, a⟩, ⟨S800000x64, b⟩, ⟨S800000x64, c⟩, ⟨S800000x64, d⟩]
          concatenates_S800000x64_S800000x64_S800000x64_S800000x64_S800000x256_d1)
        x15 (val_main_v54 (F := Ideal) x16) (val_main_call6_v0 (F := Ideal)))
      x17 (val_main_v59 (F := Ideal) x18) (val_main_call7_v0 (F := Ideal)))
    x19 (val_main_v64 (F := Ideal) x20) (val_main_call8_v0 (F := Ideal))

/-- Over any row families the bond update is the specification's update block. -/
theorem bondUpd_eq (a b c d : Vec Ideal S800000x64 .f32) (x15 : Vec Ideal S256x64 .f32) (x16 : Vec Ideal S64 .f32) (x17 : Vec Ideal S64x32 .f32) (x18 : Vec Ideal S32 .f32)
    (x19 : Vec Ideal S32x64 .f32) (x20 : Vec Ideal S64 .f32) :
    bondUpd a b c d x15 x16 x17 x18 x19 x20
      = arr2 (upper (lin4 (tab2 a) (tab2 b) (tab2 c) (tab2 d)
        (rowsFrom 0 (by decide) (tab2 x15)) (rowsFrom 64 (by decide) (tab2 x15)) (rowsFrom 128 (by decide) (tab2 x15)) (rowsFrom 192 (by decide) (tab2 x15)) (tab1 x16))
      (tab2 x17) (tab1 x18) (tab2 x19) (tab1 x20)) := by
  refine (arr_tab _).trans (congrArg arr2 ?_)
  unfold bondUpd
  rw [bondL3_tab, bondL2_tab, bondL1_tab]
  rfl

/-! ## The site update -/

/-- The contraction of stage 87 at an index, for any operands. -/
theorem dot87 (y : FVec Ideal S100000x192 .f32) (w : FVec Ideal S192x64 .f32) (i : S100000x64.Idx) :
    Host.dotGeneral dot_S100000x192_S192x64_S100000x64_1_0_0_1_n_n none y w i
      = ∑ k : Fin 192, y (lidx_main_v87 i k) * w (ridx_main_v87 i k) :=
  dot_of _ 192 rfl rfl lidx_main_v87 ridx_main_v87
    (fun i k => funext fun a => Fin.ext (by
      match a with
      | ⟨0, _⟩ => exact lhs_main_v87_0 _ _
      | ⟨1, _⟩ => exact (lhs_main_v87_1 _ _).trans (contrEquiv1_symm_val _ 192 rfl rfl k)))
    (fun i k => funext fun a => Fin.ext (by
      match a with
      | ⟨0, _⟩ => exact (rhs_main_v87_0 _ _).trans (contrEquiv1_symm_val _ 192 rfl rfl k)
      | ⟨1, _⟩ => exact rhs_main_v87_1 _ _)) y w i

/-- The contraction of stage 92 at an index, for any operands. -/
theorem dot92 (y : FVec Ideal S100000x64 .f32) (w : FVec Ideal S64x32 .f32) (i : S100000x32.Idx) :
    Host.dotGeneral dot_S100000x64_S64x32_S100000x32_1_0_0_1_n_n none y w i
      = ∑ k : Fin 64, y (lidx_main_v92 i k) * w (ridx_main_v92 i k) :=
  dot_of _ 64 rfl rfl lidx_main_v92 ridx_main_v92
    (fun i k => funext fun a => Fin.ext (by
      match a with
      | ⟨0, _⟩ => exact lhs_main_v92_0 _ _
      | ⟨1, _⟩ => exact (lhs_main_v92_1 _ _).trans (contrEquiv1_symm_val _ 64 rfl rfl k)))
    (fun i k => funext fun a => Fin.ext (by
      match a with
      | ⟨0, _⟩ => exact (rhs_main_v92_0 _ _).trans (contrEquiv1_symm_val _ 64 rfl rfl k)
      | ⟨1, _⟩ => exact rhs_main_v92_1 _ _)) y w i

/-- The contraction of stage 97 at an index, for any operands. -/
theorem dot97 (y : FVec Ideal S100000x32 .f32) (w : FVec Ideal S32x64 .f32) (i : S100000x64.Idx) :
    Host.dotGeneral dot_S100000x32_S32x64_S100000x64_1_0_0_1_n_n none y w i
      = ∑ k : Fin 32, y (lidx_main_v97 i k) * w (ridx_main_v97 i k) :=
  dot_of _ 32 rfl rfl lidx_main_v97 ridx_main_v97
    (fun i k => funext fun a => Fin.ext (by
      match a with
      | ⟨0, _⟩ => exact lhs_main_v97_0 _ _
      | ⟨1, _⟩ => exact (lhs_main_v97_1 _ _).trans (contrEquiv1_symm_val _ 32 rfl rfl k)))
    (fun i k => funext fun a => Fin.ext (by
      match a with
      | ⟨0, _⟩ => exact (rhs_main_v97_0 _ _).trans (contrEquiv1_symm_val _ 32 rfl rfl k)
      | ⟨1, _⟩ => exact rhs_main_v97_1 _ _)) y w i

/-- The first layer of the site update over any three row families side by side, and its relu. -/
theorem siteL1_tab (a b c : Vec Ideal S100000x64 .f32) (x21 : Vec Ideal S192x64 .f32) (x22 : Vec Ideal S64 .f32) :
    tab2 (hostLayer dot_S100000x192_S192x64_S100000x64_1_0_0_1_n_n
        (concatenate S100000x192 1 [⟨S100000x64, a⟩, ⟨S100000x64, b⟩, ⟨S100000x64, c⟩]
          concatenates_S100000x64_S100000x64_S100000x64_S100000x192_d1)
        x21 (val_main_v89 (F := Ideal) x22) (val_main_call9_v0 (F := Ideal)))
      = relu (lin3 (tab2 a) (tab2 b) (tab2 c)
          (rowsFrom 0 (by decide) (tab2 x21)) (rowsFrom 64 (by decide) (tab2 x21)) (rowsFrom 128 (by decide) (tab2 x21)) (tab1 x22)) :=
  layer3_of a b c concatenates_S100000x64_S100000x64_S100000x64_S100000x192_d1 x21 x22 _
    lidx_main_v87 ridx_main_v87 (fun i => idx_main_v88 (idx_main_v89 i))
    (fun i => by simp only [hostLayer, maximumf_apply, addf_apply, dot87, val_main_v89_apply, val_main_v88_apply, val_main_call9_v0_apply,
      val_main_call9_cst_apply, Ideal.ofBits_def, Ideal.ofBits_zero_f32])
    (fun i k => by idx_eq) (fun i k => by idx_eq) (fun i => by idx_eq1)

/-- The second layer of the site update over any input, and its relu. -/
theorem siteL2_tab (h : Vec Ideal S100000x64 .f32) (x23 : Vec Ideal S64x32 .f32) (x24 : Vec Ideal S32 .f32) :
    tab2 (hostLayer dot_S100000x64_S64x32_S100000x32_1_0_0_1_n_n h x23 (val_main_v94 (F := Ideal) x24) (val_main_call10_v0 (F := Ideal)))
      = relu (lin (tab2 h) (tab2 x23) (tab1 x24)) :=
  layer_of h x23 x24 _ lidx_main_v92 ridx_main_v92 (fun i => idx_main_v93 (idx_main_v94 i))
    (fun i => by simp only [hostLayer, maximumf_apply, addf_apply, dot92, val_main_v94_apply, val_main_v93_apply, val_main_call10_v0_apply,
      val_main_call10_cst_apply, Ideal.ofBits_def, Ideal.ofBits_zero_f32])
    (fun i k => by idx_eq) (fun i k => by idx_eq) (fun i => by idx_eq1)

/-- The third layer of the site update over any input, and its relu. -/
theorem siteL3_tab (h : Vec Ideal S100000x32 .f32) (x25 : Vec Ideal S32x64 .f32) (x26 : Vec Ideal S64 .f32) :
    tab2 (hostLayer dot_S100000x32_S32x64_S100000x64_1_0_0_1_n_n h x25 (val_main_v99 (F := Ideal) x26) (val_main_call11_v0 (F := Ideal)))
      = relu (lin (tab2 h) (tab2 x25) (tab1 x26)) :=
  layer_of h x25 x26 _ lidx_main_v97 ridx_main_v97 (fun i => idx_main_v98 (idx_main_v99 i))
    (fun i => by simp only [hostLayer, maximumf_apply, addf_apply, dot97, val_main_v99_apply, val_main_v98_apply, val_main_call11_v0_apply,
      val_main_call11_cst_apply, Ideal.ofBits_def, Ideal.ofBits_zero_f32])
    (fun i k => by idx_eq) (fun i k => by idx_eq) (fun i => by idx_eq1)

/-- The site update as the program composes it, over any three row families in place of the gathered and pooled ones. -/
def siteUpd (a b c : Vec Ideal S100000x64 .f32) (x21 : Vec Ideal S192x64 .f32) (x22 : Vec Ideal S64 .f32) (x23 : Vec Ideal S64x32 .f32) (x24 : Vec Ideal S32 .f32)
    (x25 : Vec Ideal S32x64 .f32) (x26 : Vec Ideal S64 .f32) :
    Vec Ideal S100000x64 .f32 :=
  hostLayer dot_S100000x32_S32x64_S100000x64_1_0_0_1_n_n
    (hostLayer dot_S100000x64_S64x32_S100000x32_1_0_0_1_n_n
      (hostLayer dot_S100000x192_S192x64_S100000x64_1_0_0_1_n_n
        (concatenate S100000x192 1 [⟨S100000x64, a⟩, ⟨S100000x64, b⟩, ⟨S100000x64, c⟩]
          concatenates_S100000x64_S100000x64_S100000x64_S100000x192_d1)
        x21 (val_main_v89 (F := Ideal) x22) (val_main_call9_v0 (F := Ideal)))
      x23 (val_main_v94 (F := Ideal) x24) (val_main_call10_v0 (F := Ideal)))
    x25 (val_main_v99 (F := Ideal) x26) (val_main_call11_v0 (F := Ideal))

/-- Over any row families the site update is the specification's update block. -/
theorem siteUpd_eq (a b c : Vec Ideal S100000x64 .f32) (x21 : Vec Ideal S192x64 .f32) (x22 : Vec Ideal S64 .f32) (x23 : Vec Ideal S64x32 .f32) (x24 : Vec Ideal S32 .f32)
    (x25 : Vec Ideal S32x64 .f32) (x26 : Vec Ideal S64 .f32) :
    siteUpd a b c x21 x22 x23 x24 x25 x26
      = arr2 (upper (lin3 (tab2 a) (tab2 b) (tab2 c)
        (rowsFrom 0 (by decide) (tab2 x21)) (rowsFrom 64 (by decide) (tab2 x21)) (rowsFrom 128 (by decide) (tab2 x21)) (tab1 x22))
      (tab2 x23) (tab1 x24) (tab2 x25) (tab1 x26)) := by
  refine (arr_tab _).trans (congrArg arr2 ?_)
  unfold siteUpd
  rw [siteL3_tab, siteL2_tab, siteL1_tab]
  rfl

/-! ## The state update -/

/-- The contraction of stage 127 at an index, for any operands. -/
theorem dot127 (y : FVec Ideal S1000x192 .f32) (w : FVec Ideal S192x64 .f32) (i : S1000x64.Idx) :
    Host.dotGeneral dot_S1000x192_S192x64_S1000x64_1_0_0_1_n_n none y w i
      = ∑ k : Fin 192, y (lidx_main_v127 i k) * w (ridx_main_v127 i k) :=
  dot_of _ 192 rfl rfl lidx_main_v127 ridx_main_v127
    (fun i k => funext fun a => Fin.ext (by
      match a with
      | ⟨0, _⟩ => exact lhs_main_v127_0 _ _
      | ⟨1, _⟩ => exact (lhs_main_v127_1 _ _).trans (contrEquiv1_symm_val _ 192 rfl rfl k)))
    (fun i k => funext fun a => Fin.ext (by
      match a with
      | ⟨0, _⟩ => exact (rhs_main_v127_0 _ _).trans (contrEquiv1_symm_val _ 192 rfl rfl k)
      | ⟨1, _⟩ => exact rhs_main_v127_1 _ _)) y w i

/-- The contraction of stage 132 at an index, for any operands. -/
theorem dot132 (y : FVec Ideal S1000x64 .f32) (w : FVec Ideal S64x32 .f32) (i : S1000x32.Idx) :
    Host.dotGeneral dot_S1000x64_S64x32_S1000x32_1_0_0_1_n_n none y w i
      = ∑ k : Fin 64, y (lidx_main_v132 i k) * w (ridx_main_v132 i k) :=
  dot_of _ 64 rfl rfl lidx_main_v132 ridx_main_v132
    (fun i k => funext fun a => Fin.ext (by
      match a with
      | ⟨0, _⟩ => exact lhs_main_v132_0 _ _
      | ⟨1, _⟩ => exact (lhs_main_v132_1 _ _).trans (contrEquiv1_symm_val _ 64 rfl rfl k)))
    (fun i k => funext fun a => Fin.ext (by
      match a with
      | ⟨0, _⟩ => exact (rhs_main_v132_0 _ _).trans (contrEquiv1_symm_val _ 64 rfl rfl k)
      | ⟨1, _⟩ => exact rhs_main_v132_1 _ _)) y w i

/-- The contraction of stage 137 at an index, for any operands. -/
theorem dot137 (y : FVec Ideal S1000x32 .f32) (w : FVec Ideal S32x64 .f32) (i : S1000x64.Idx) :
    Host.dotGeneral dot_S1000x32_S32x64_S1000x64_1_0_0_1_n_n none y w i
      = ∑ k : Fin 32, y (lidx_main_v137 i k) * w (ridx_main_v137 i k) :=
  dot_of _ 32 rfl rfl lidx_main_v137 ridx_main_v137
    (fun i k => funext fun a => Fin.ext (by
      match a with
      | ⟨0, _⟩ => exact lhs_main_v137_0 _ _
      | ⟨1, _⟩ => exact (lhs_main_v137_1 _ _).trans (contrEquiv1_symm_val _ 32 rfl rfl k)))
    (fun i k => funext fun a => Fin.ext (by
      match a with
      | ⟨0, _⟩ => exact (rhs_main_v137_0 _ _).trans (contrEquiv1_symm_val _ 32 rfl rfl k)
      | ⟨1, _⟩ => exact rhs_main_v137_1 _ _)) y w i

/-- The first layer of the state update over any three row families side by side, and its relu. -/
theorem stateL1_tab (a b c : Vec Ideal S1000x64 .f32) (x27 : Vec Ideal S192x64 .f32) (x28 : Vec Ideal S64 .f32) :
    tab2 (hostLayer dot_S1000x192_S192x64_S1000x64_1_0_0_1_n_n
        (concatenate S1000x192 1 [⟨S1000x64, a⟩, ⟨S1000x64, b⟩, ⟨S1000x64, c⟩]
          concatenates_S1000x64_S1000x64_S1000x64_S1000x192_d1)
        x27 (val_main_v129 (F := Ideal) x28) (val_main_call12_v0 (F := Ideal)))
      = relu (lin3 (tab2 a) (tab2 b) (tab2 c)
          (rowsFrom 0 (by decide) (tab2 x27)) (rowsFrom 64 (by decide) (tab2 x27)) (rowsFrom 128 (by decide) (tab2 x27)) (tab1 x28)) :=
  layer3_of a b c concatenates_S1000x64_S1000x64_S1000x64_S1000x192_d1 x27 x28 _
    lidx_main_v127 ridx_main_v127 (fun i => idx_main_v128 (idx_main_v129 i))
    (fun i => by simp only [hostLayer, maximumf_apply, addf_apply, dot127, val_main_v129_apply, val_main_v128_apply,
      val_main_call12_v0_apply, val_main_call12_cst_apply, Ideal.ofBits_def, Ideal.ofBits_zero_f32])
    (fun i k => by idx_eq) (fun i k => by idx_eq) (fun i => by idx_eq1)

/-- The second layer of the state update over any input, and its relu. -/
theorem stateL2_tab (h : Vec Ideal S1000x64 .f32) (x29 : Vec Ideal S64x32 .f32) (x30 : Vec Ideal S32 .f32) :
    tab2 (hostLayer dot_S1000x64_S64x32_S1000x32_1_0_0_1_n_n h x29 (val_main_v134 (F := Ideal) x30) (val_main_call13_v0 (F := Ideal)))
      = relu (lin (tab2 h) (tab2 x29) (tab1 x30)) :=
  layer_of h x29 x30 _ lidx_main_v132 ridx_main_v132 (fun i => idx_main_v133 (idx_main_v134 i))
    (fun i => by simp only [hostLayer, maximumf_apply, addf_apply, dot132, val_main_v134_apply, val_main_v133_apply,
      val_main_call13_v0_apply, val_main_call13_cst_apply, Ideal.ofBits_def, Ideal.ofBits_zero_f32])
    (fun i k => by idx_eq) (fun i k => by idx_eq) (fun i => by idx_eq1)

/-- The third layer of the state update over any input, and its relu. -/
theorem stateL3_tab (h : Vec Ideal S1000x32 .f32) (x31 : Vec Ideal S32x64 .f32) (x32 : Vec Ideal S64 .f32) :
    tab2 (hostLayer dot_S1000x32_S32x64_S1000x64_1_0_0_1_n_n h x31 (val_main_v139 (F := Ideal) x32) (val_main_call14_v0 (F := Ideal)))
      = relu (lin (tab2 h) (tab2 x31) (tab1 x32)) :=
  layer_of h x31 x32 _ lidx_main_v137 ridx_main_v137 (fun i => idx_main_v138 (idx_main_v139 i))
    (fun i => by simp only [hostLayer, maximumf_apply, addf_apply, dot137, val_main_v139_apply, val_main_v138_apply,
      val_main_call14_v0_apply, val_main_call14_cst_apply, Ideal.ofBits_def, Ideal.ofBits_zero_f32])
    (fun i k => by idx_eq) (fun i k => by idx_eq) (fun i => by idx_eq1)

/-- The state update as the program composes it, over any three row families in place of the gathered and pooled ones. -/
def stateUpd (a b c : Vec Ideal S1000x64 .f32) (x27 : Vec Ideal S192x64 .f32) (x28 : Vec Ideal S64 .f32) (x29 : Vec Ideal S64x32 .f32) (x30 : Vec Ideal S32 .f32)
    (x31 : Vec Ideal S32x64 .f32) (x32 : Vec Ideal S64 .f32) :
    Vec Ideal S1000x64 .f32 :=
  hostLayer dot_S1000x32_S32x64_S1000x64_1_0_0_1_n_n
    (hostLayer dot_S1000x64_S64x32_S1000x32_1_0_0_1_n_n
      (hostLayer dot_S1000x192_S192x64_S1000x64_1_0_0_1_n_n
        (concatenate S1000x192 1 [⟨S1000x64, a⟩, ⟨S1000x64, b⟩, ⟨S1000x64, c⟩]
          concatenates_S1000x64_S1000x64_S1000x64_S1000x192_d1)
        x27 (val_main_v129 (F := Ideal) x28) (val_main_call12_v0 (F := Ideal)))
      x29 (val_main_v134 (F := Ideal) x30) (val_main_call13_v0 (F := Ideal)))
    x31 (val_main_v139 (F := Ideal) x32) (val_main_call14_v0 (F := Ideal))

/-- Over any row families the state update is the specification's update block. -/
theorem stateUpd_eq (a b c : Vec Ideal S1000x64 .f32) (x27 : Vec Ideal S192x64 .f32) (x28 : Vec Ideal S64 .f32) (x29 : Vec Ideal S64x32 .f32) (x30 : Vec Ideal S32 .f32)
    (x31 : Vec Ideal S32x64 .f32) (x32 : Vec Ideal S64 .f32) :
    stateUpd a b c x27 x28 x29 x30 x31 x32
      = arr2 (upper (lin3 (tab2 a) (tab2 b) (tab2 c)
        (rowsFrom 0 (by decide) (tab2 x27)) (rowsFrom 64 (by decide) (tab2 x27)) (rowsFrom 128 (by decide) (tab2 x27)) (tab1 x28))
      (tab2 x29) (tab1 x30) (tab2 x31) (tab1 x32)) := by
  refine (arr_tab _).trans (congrArg arr2 ?_)
  unfold stateUpd
  rw [stateL3_tab, stateL2_tab, stateL1_tab]
  rfl

/-! ## The program's own stages -/

section stages

variable (x0 : Vec Ideal S100000x64 .f32) (x1 : Vec Ideal S800000x64 .f32) (x2 : Vec Ideal S1000x64 .f32)
  (x3 : Vec Ideal S64x64 .f32) (x4 : Vec Ideal S64 .f32) (x5 : Vec Ideal S64x64 .f32) (x6 : Vec Ideal S64 .f32)
  (x7 : Vec Ideal S64x64 .f32) (x8 : Vec Ideal S64 .f32) (x9 : Vec Ideal S64x64 .f32) (x10 : Vec Ideal S64 .f32)
  (x11 : Vec Ideal S64x64 .f32) (x12 : Vec Ideal S64 .f32) (x13 : Vec Ideal S64x64 .f32) (x14 : Vec Ideal S64 .f32)
  (x15 : Vec Ideal S256x64 .f32) (x16 : Vec Ideal S64 .f32) (x17 : Vec Ideal S64x32 .f32) (x18 : Vec Ideal S32 .f32)
  (x19 : Vec Ideal S32x64 .f32) (x20 : Vec Ideal S64 .f32) (x21 : Vec Ideal S192x64 .f32) (x22 : Vec Ideal S64 .f32)
  (x23 : Vec Ideal S64x32 .f32) (x24 : Vec Ideal S32 .f32) (x25 : Vec Ideal S32x64 .f32) (x26 : Vec Ideal S64 .f32)
  (x27 : Vec Ideal S192x64 .f32) (x28 : Vec Ideal S64 .f32) (x29 : Vec Ideal S64x32 .f32) (x30 : Vec Ideal S32 .f32)
  (x31 : Vec Ideal S32x64 .f32) (x32 : Vec Ideal S64 .f32) (x33 : Vec Ideal S800000 .i32)
  (x34 : Vec Ideal S800000 .i32) (x35 : Vec Ideal S100000 .i32) (x36 : Vec Ideal S800000 .i32)

local notation "st9" => val_main_v9 (F := Ideal) x0 x3 x4 x5 x6
local notation "st19" => val_main_v19 (F := Ideal) x1 x7 x8 x9 x10
local notation "st29" => val_main_v29 (F := Ideal) x2 x11 x12 x13 x14
local notation "st36" => val_main_v36 (F := Ideal) x0 x3 x4 x5 x6 x33
local notation "st43" => val_main_v43 (F := Ideal) x0 x3 x4 x5 x6 x34
local notation "st50" => val_main_v50 (F := Ideal) x2 x11 x12 x13 x14 x36
local notation "st66" => val_main_v66 (F := Ideal) x0 x1 x2 x3 x4 x5 x6 x7 x8 x9 x10 x11 x12 x13 x14 x15 x16 x17 x18 x19 x20 x33 x34 x36
local notation "st78" => val_main_v78 (F := Ideal) x0 x1 x2 x3 x4 x5 x6 x7 x8 x9 x10 x11 x12 x13 x14 x15 x16 x17 x18 x19 x20 x33 x34 x36
local notation "st85" => val_main_v85 (F := Ideal) x2 x11 x12 x13 x14 x35
local notation "st101" => val_main_v101 (F := Ideal) x0 x1 x2 x3 x4 x5 x6 x7 x8 x9 x10 x11 x12 x13 x14 x15 x16 x17 x18 x19 x20 x21 x22 x23 x24 x25 x26 x33 x34 x35 x36
local notation "st113" => val_main_v113 (F := Ideal) x0 x1 x2 x3 x4 x5 x6 x7 x8 x9 x10 x11 x12 x13 x14 x15 x16 x17 x18 x19 x20 x33 x34 x36
local notation "st125" => val_main_v125 (F := Ideal) x0 x1 x2 x3 x4 x5 x6 x7 x8 x9 x10 x11 x12 x13 x14 x15 x16 x17 x18 x19 x20 x21 x22 x23 x24 x25 x26 x33 x34 x35 x36
local notation "st141" => val_main_v141 (F := Ideal) x0 x1 x2 x3 x4 x5 x6 x7 x8 x9 x10 x11 x12 x13 x14 x15 x16 x17 x18 x19 x20 x21 x22 x23 x24 x25 x26 x27 x28 x29 x30 x31 x32 x33 x34 x35 x36
local notation "st142" => val_main_v142 (F := Ideal) x0 x1 x2 x3 x4 x5 x6 x7 x8 x9 x10 x11 x12 x13 x14 x15 x16 x17 x18 x19 x20 x21 x22 x23 x24 x25 x26 x33 x34 x35 x36
local notation "st143" => val_main_v143 (F := Ideal) x0 x1 x2 x3 x4 x5 x6 x7 x8 x9 x10 x11 x12 x13 x14 x15 x16 x17 x18 x19 x20 x33 x34 x36
local notation "st144" => val_main_v144 (F := Ideal) x0 x1 x2 x3 x4 x5 x6 x7 x8 x9 x10 x11 x12 x13 x14 x15 x16 x17 x18 x19 x20 x21 x22 x23 x24 x25 x26 x27 x28 x29 x30 x31 x32 x33 x34 x35 x36

/-- The program's stage is that composition at its own row families. -/
theorem val_main_v66_eq_bondUpd : st66 = bondUpd st36 st43 st19 st50 x15 x16 x17 x18 x19 x20 := rfl

/-- The bond update of the program is the specification's update block of its row families. -/
theorem upd_v66 : st66
      = arr2 (upper (lin4 (tab2 st36) (tab2 st43) (tab2 st19) (tab2 st50)
        (rowsFrom 0 (by decide) (tab2 x15)) (rowsFrom 64 (by decide) (tab2 x15)) (rowsFrom 128 (by decide) (tab2 x15)) (rowsFrom 192 (by decide) (tab2 x15)) (tab1 x16))
      (tab2 x17) (tab1 x18) (tab2 x19) (tab1 x20)) :=
  (val_main_v66_eq_bondUpd x0 x1 x2 x3 x4 x5 x6 x7 x8 x9 x10 x11 x12 x13 x14 x15 x16 x17 x18 x19 x20 x33 x34 x36).trans (bondUpd_eq _ _ _ _ _ _ _ _ _ _)

/-- The new bonds: the update plus the bonds' own block. -/
theorem plus_v143 : st143 = arr2 (plus (tab2 st66) (tab2 st19)) := plus_of _ _

/-- The program's stage is that composition at its own row families. -/
theorem val_main_v101_eq_siteUpd : st101 = siteUpd st78 st9 st85 x21 x22 x23 x24 x25 x26 := rfl

/-- The site update of the program is the specification's update block of its row families. -/
theorem upd_v101 : st101
      = arr2 (upper (lin3 (tab2 st78) (tab2 st9) (tab2 st85)
        (rowsFrom 0 (by decide) (tab2 x21)) (rowsFrom 64 (by decide) (tab2 x21)) (rowsFrom 128 (by decide) (tab2 x21)) (tab1 x22))
      (tab2 x23) (tab1 x24) (tab2 x25) (tab1 x26)) :=
  (val_main_v101_eq_siteUpd x0 x1 x2 x3 x4 x5 x6 x7 x8 x9 x10 x11 x12 x13 x14 x15 x16 x17 x18 x19 x20 x21 x22 x23 x24 x25 x26 x33 x34 x35 x36).trans (siteUpd_eq _ _ _ _ _ _ _ _ _)

/-- The new sites: the update plus the sites' own block. -/
theorem plus_v142 : st142 = arr2 (plus (tab2 st101) (tab2 st9)) := plus_of _ _

/-- The program's stage is that composition at its own row families. -/
theorem val_main_v141_eq_stateUpd : st141 = stateUpd st113 st125 st29 x27 x28 x29 x30 x31 x32 := rfl

/-- The state update of the program is the specification's update block of its row families. -/
theorem upd_v141 : st141
      = arr2 (upper (lin3 (tab2 st113) (tab2 st125) (tab2 st29)
        (rowsFrom 0 (by decide) (tab2 x27)) (rowsFrom 64 (by decide) (tab2 x27)) (rowsFrom 128 (by decide) (tab2 x27)) (tab1 x28))
      (tab2 x29) (tab1 x30) (tab2 x31) (tab1 x32)) :=
  (val_main_v141_eq_stateUpd x0 x1 x2 x3 x4 x5 x6 x7 x8 x9 x10 x11 x12 x13 x14 x15 x16 x17 x18 x19 x20 x21 x22 x23 x24 x25 x26 x27 x28 x29 x30 x31 x32 x33 x34 x35 x36).trans (stateUpd_eq _ _ _ _ _ _ _ _ _)

/-- The new states: the update plus the states' own block. -/
theorem plus_v144 : st144 = arr2 (plus (tab2 st141) (tab2 st29)) := plus_of _ _

end stages

end Cert.ReferenceIdeal.RefVal

end
-- ==== Proof.RefBridge.lean ====
/-
  The reference's three results as the block function of the argument arrays. The reference is read stage by
  stage in program order: its three two-layer blocks are the block function's; each index column wrapped by its
  table's row count, and so each gathered table; the bond update over the four gathered or computed row
  families; the new bonds averaged onto their first endpoint (the scattered sum over the scattered count, at
  least one); the site update; the two per-graph averages; the state update; and each result, its update plus
  its two-layer value.
-/
import proofs.«424920_j53549652246920_2_alg».proof.Proof.RefRead
import proofs.«424920_j53549652246920_2_alg».proof.Proof.SpecBlock
import proofs.«424920_j53549652246920_2_alg».proof.Proof.RefMlp2
import proofs.«424920_j53549652246920_2_alg».proof.Proof.RefMlp3
import Idealize.ShloMosaic.Lib.ValueIdx

noncomputable section

namespace Cert.ReferenceIdeal.RefVal

open Cert.ReferenceIdeal Cert.ReferenceIdeal.Gen Cert.ReferenceIdeal.Read
open Idealize.ShloMosaic Idealize.ShloMosaic.ValueIdx
open Cert.Spec

variable (a : Cert.Block.Args)

/-! ## The two-layer blocks -/

theorem v9_eq : val_main_v9 (F := Ideal) a.x0 a.x3 a.x4 a.x5 a.x6 = Cert.Block.sitesP a := (mlp2_v9 a.x0 a.x3 a.x4 a.x5 a.x6).trans rfl
theorem v19_eq : val_main_v19 (F := Ideal) a.x1 a.x7 a.x8 a.x9 a.x10 = Cert.Block.bondsP a := (mlp2_v19 a.x1 a.x7 a.x8 a.x9 a.x10).trans rfl
theorem v29_eq : val_main_v29 (F := Ideal) a.x2 a.x11 a.x12 a.x13 a.x14 = Cert.Block.statesP a := (mlp2_v29 a.x2 a.x11 a.x12 a.x13 a.x14).trans rfl

/-! ## The wrapped index columns and the gathered tables -/

theorem v35_eq : val_main_v35 (F := Ideal) a.x33 = Cert.Block.wrapBonds 100000#32 a.x33 := by
  unfold val_main_v35 val_main_v34 val_main_v31 val_main_v30 val_main_c val_main_v33 val_main_v32 val_main_c_0 Cert.Block.wrapBonds
  rfl
theorem v42_eq : val_main_v42 (F := Ideal) a.x34 = Cert.Block.wrapBonds 100000#32 a.x34 := by
  unfold val_main_v42 val_main_v41 val_main_v38 val_main_v37 val_main_c_1 val_main_v40 val_main_v39 val_main_c_2 Cert.Block.wrapBonds
  rfl
theorem v49_eq : val_main_v49 (F := Ideal) a.x36 = Cert.Block.wrapBonds 1000#32 a.x36 := by
  unfold val_main_v49 val_main_v48 val_main_v45 val_main_v44 val_main_c_3 val_main_v47 val_main_v46 val_main_c_4 Cert.Block.wrapBonds
  rfl
theorem v84_eq : val_main_v84 (F := Ideal) a.x35 = Cert.Block.wrapSites 1000#32 a.x35 := by
  unfold val_main_v84 val_main_v83 val_main_v80 val_main_v79 val_main_c_8 val_main_v82 val_main_v81 val_main_c_9 Cert.Block.wrapSites
  rfl

theorem v36_eq : val_main_v36 (F := Ideal) a.x0 a.x3 a.x4 a.x5 a.x6 a.x33 = Cert.Block.end1 a := by
  unfold val_main_v36 Cert.Block.end1
  rw [v9_eq a, v35_eq a]
  rfl
theorem v43_eq : val_main_v43 (F := Ideal) a.x0 a.x3 a.x4 a.x5 a.x6 a.x34 = Cert.Block.end2 a := by
  unfold val_main_v43 Cert.Block.end2
  rw [v9_eq a, v42_eq a]
  rfl
theorem v50_eq : val_main_v50 (F := Ideal) a.x2 a.x11 a.x12 a.x13 a.x14 a.x36 = Cert.Block.stateOfBond a := by
  unfold val_main_v50 Cert.Block.stateOfBond
  rw [v29_eq a, v49_eq a]
  rfl
theorem v85_eq : val_main_v85 (F := Ideal) a.x2 a.x11 a.x12 a.x13 a.x14 a.x35 = Cert.Block.stateOfSite a := by
  unfold val_main_v85 Cert.Block.stateOfSite
  rw [v29_eq a, v84_eq a]
  rfl

/-! ## The bond update, its pool by first endpoint, the site update -/

theorem v66_eq : val_main_v66 (F := Ideal) a.x0 a.x1 a.x2 a.x3 a.x4 a.x5 a.x6 a.x7 a.x8 a.x9 a.x10 a.x11 a.x12 a.x13 a.x14 a.x15 a.x16 a.x17 a.x18 a.x19 a.x20 a.x33 a.x34 a.x36 = Cert.Block.bondsNew a := by
  refine (upd_v66 a.x0 a.x1 a.x2 a.x3 a.x4 a.x5 a.x6 a.x7 a.x8 a.x9 a.x10 a.x11 a.x12 a.x13 a.x14 a.x15 a.x16 a.x17 a.x18 a.x19 a.x20 a.x33 a.x34 a.x36).trans ?_
  rw [v36_eq a, v43_eq a, v19_eq a, v50_eq a]
  rfl

theorem v78_eq : val_main_v78 (F := Ideal) a.x0 a.x1 a.x2 a.x3 a.x4 a.x5 a.x6 a.x7 a.x8 a.x9 a.x10 a.x11 a.x12 a.x13 a.x14 a.x15 a.x16 a.x17 a.x18 a.x19 a.x20 a.x33 a.x34 a.x36 = Cert.Block.bondsAtSite a := by
  unfold val_main_v78 val_main_v69
  rw [v66_eq a]
  unfold val_main_v67 val_main_cst val_main_v68 val_main_v77 val_main_v76 val_main_v75 val_main_v73 val_main_v71 val_main_cst_6 val_main_v72 val_main_v70 val_main_cst_5 val_main_v74 val_main_cst_7 Cert.Block.bondsAtSite
  rfl

theorem v101_eq : val_main_v101 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x33 a.x34 a.x35 a.x36 = Cert.Block.sitesNew a := by
  refine (upd_v101 a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x33 a.x34 a.x35 a.x36).trans ?_
  rw [v78_eq a, v9_eq a, v85_eq a]
  rfl

/-! ## The per-graph pools and the state update -/

theorem v113_eq : val_main_v113 (F := Ideal) a.x0 a.x1 a.x2 a.x3 a.x4 a.x5 a.x6 a.x7 a.x8 a.x9 a.x10 a.x11 a.x12 a.x13 a.x14 a.x15 a.x16 a.x17 a.x18 a.x19 a.x20 a.x33 a.x34 a.x36 = Cert.Block.bondsAtGraph a := by
  unfold val_main_v113 val_main_v104
  rw [v66_eq a]
  unfold val_main_v102 val_main_cst_10 val_main_v103 val_main_v112 val_main_v111 val_main_v110 val_main_v108 val_main_v106 val_main_cst_12 val_main_v107 val_main_v105 val_main_cst_11 val_main_v109 val_main_cst_13 Cert.Block.bondsAtGraph
  rfl

theorem v125_eq : val_main_v125 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x33 a.x34 a.x35 a.x36 = Cert.Block.sitesAtGraph a := by
  unfold val_main_v125 val_main_v116
  rw [v101_eq a]
  unfold val_main_v114 val_main_cst_14 val_main_v115 val_main_v124 val_main_v123 val_main_v122 val_main_v120 val_main_v118 val_main_cst_16 val_main_v119 val_main_v117 val_main_cst_15 val_main_v121 val_main_cst_17 Cert.Block.sitesAtGraph
  rfl

theorem v141_eq : val_main_v141 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29 a.x30 a.x31 a.x32 a.x33 a.x34 a.x35 a.x36 = Cert.Block.statesNew a := by
  refine (upd_v141 a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29 a.x30 a.x31 a.x32 a.x33 a.x34 a.x35 a.x36).trans ?_
  rw [v113_eq a, v125_eq a, v29_eq a]
  rfl

/-! ## The three results -/

/-- The reference's new sites. -/
theorem ref_sites : val_main_v142 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x33 a.x34 a.x35 a.x36 = Cert.Block.sitesFinal a := by
  refine (plus_v142 a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x33 a.x34 a.x35 a.x36).trans ?_
  rw [v101_eq a, v9_eq a]
  rfl

/-- The reference's new bonds. -/
theorem ref_bonds : val_main_v143 (F := Ideal) a.x0 a.x1 a.x2 a.x3 a.x4 a.x5 a.x6 a.x7 a.x8 a.x9 a.x10 a.x11 a.x12 a.x13 a.x14 a.x15 a.x16 a.x17 a.x18 a.x19 a.x20 a.x33 a.x34 a.x36 = Cert.Block.bondsFinal a := by
  refine (plus_v143 a.x0 a.x1 a.x2 a.x3 a.x4 a.x5 a.x6 a.x7 a.x8 a.x9 a.x10 a.x11 a.x12 a.x13 a.x14 a.x15 a.x16 a.x17 a.x18 a.x19 a.x20 a.x33 a.x34 a.x36).trans ?_
  rw [v66_eq a, v19_eq a]
  rfl

/-- The reference's new graph states. -/
theorem ref_states : val_main_v144 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29 a.x30 a.x31 a.x32 a.x33 a.x34 a.x35 a.x36 = Cert.Block.statesFinal a := by
  refine (plus_v144 a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29 a.x30 a.x31 a.x32 a.x33 a.x34 a.x35 a.x36).trans ?_
  rw [v141_eq a, v29_eq a]
  rfl

end Cert.ReferenceIdeal.RefVal

end
-- ==== Proof.lean ====
/-
  The certificate of the graph-network block: the Pallas kernel (six pallas_calls among host gathers and pooled means)
  against its jnp reference, over the extended reals.
  * The three frames. The kernel's @main, at the word level and idealized, is run as six kernel regions among host
    stretches; every region's body is executed symbolically and its arrays are carried from boundary to boundary
    (in three regions one array is read through two windows and its share is split between them); no item writes
    an argument. The reference's frame is its run with the results dropped.
  * The idealization's ledger is empty: nothing to preserve.
  * The values. Each region's output array is the specification's perceptron block of its input arrays, row by row
    (a block-by-block product is the whole product; a change of float format is the identity at the extended
    reals); the first layer over several row families is the reference's one product with the concatenated
    operand, the sum over the concatenated axis split at the joins (addition of extended reals is associative
    and commutative, so no finiteness is needed). The kernel gathers rows with a fill for out-of-range indices,
    the reference with a clamp: under the precondition that every index is in range the fill's mask is all
    true and both gathers return the same rows. The pooled means are the same host operations on both sides.
    Both programs' results are one function of the argument arrays.
-/
import proofs.«424920_j53549652246920_2_alg».proof.Defs
import proofs.«424920_j53549652246920_2_alg».proof.Proof.Gen.Kernel
import proofs.«424920_j53549652246920_2_alg».proof.Proof.Gen.KernelIdeal
import proofs.«424920_j53549652246920_2_alg».proof.Proof.Gen.ReferenceIdeal
import proofs.«424920_j53549652246920_2_alg».proof.Proof.Gen.Pre_finite_inputs
import proofs.«424920_j53549652246920_2_alg».proof.Proof.RefRead
import proofs.«424920_j53549652246920_2_alg».proof.Proof.RefRun
import proofs.«424920_j53549652246920_2_alg».proof.Proof.KRun
import proofs.«424920_j53549652246920_2_alg».proof.Proof.KiRun
import proofs.«424920_j53549652246920_2_alg».proof.Proof.KiBridgeA
import proofs.«424920_j53549652246920_2_alg».proof.Proof.KiBridgeB
import proofs.«424920_j53549652246920_2_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2.2.2) (Cert.ReferenceIdeal.HandRun.run (F := Ideal) m ρ)

/-- The idealization rewrote nothing: its ledger is empty. -/
theorem preserves : Cert.preserves_Kernel_KernelIdeal := trivial

set_option maxHeartbeats 4000000 in
/-- Run from memories that agree on the arguments, under the precondition, the idealized kernel ends with its three
    result arrays at the last boundary's contents, and the idealized reference with its three results at its stages'
    terms; both are the block's function of the argument arrays. -/
theorem algebraic : Cert.algebraic_KernelIdeal_ReferenceIdeal := by
  intro m ρ m' ρ' hpre hagree
  refine ⟨fun c => Cert.KernelIdeal.Frame.W17 m c Cert.KernelIdeal.main_v39_1,
    fun c => Cert.KernelIdeal.Frame.W17 m c Cert.KernelIdeal.main_v19_1,
    fun c => Cert.KernelIdeal.Frame.W17 m c Cert.KernelIdeal.main_v70_1,
    Cert.KernelIdeal.Frame.run_results (F := Ideal) m ρ, ?_⟩
  refine (θ_run Cert.ReferenceIdeal.defs _ _).mono (fun r h c => ?_) (Cert.ReferenceIdeal.HandRun.run (F := Ideal) m' ρ')
  obtain ⟨h1, h2, h3, hargs⟩ := h c
  obtain ⟨e0, e1, e2, e3, e4, e5, e6, e7, e8, e9, e10, e11, e12, e13, e14, e15, e16, e17, e18, e19, e20, e21, e22, e23, e24, e25, e26, e27, e28, e29, e30, e31, e32, e33, e34, e35, e36⟩ := hagree c
  have hb := Cert.KernelIdeal.Bridge.new_bonds m c hpre
  have hs := Cert.KernelIdeal.Bridge.v2_at11 m c
  have hg := Cert.KernelIdeal.Bridge.v8_at11 m c
  refine ⟨h1.trans ?_, h2.trans ?_, h3.trans ?_, hargs⟩
  · rw [e0, e1, e2, e3, e4, e5, e6, e7, e8, e9, e10, e11, e12, e13, e14, e15, e16, e17, e18, e19, e20, e21, e22, e23, e24, e25, e26, e33, e34, e35, e36]
    exact (Cert.ReferenceIdeal.RefVal.ref_sites (Cert.KernelIdeal.Bridge.argsOf m c)).trans
      (Cert.KernelIdeal.Bridge.final_sites m c hb hs hg hpre).symm
  · rw [e0, e1, e2, e3, e4, e5, e6, e7, e8, e9, e10, e11, e12, e13, e14, e15, e16, e17, e18, e19, e20, e33, e34, e36]
    exact (Cert.ReferenceIdeal.RefVal.ref_bonds (Cert.KernelIdeal.Bridge.argsOf m c)).trans
      (((Cert.KernelIdeal.Bridge.bonds_kept m c).trans (Cert.KernelIdeal.Bridge.final_bonds m c hpre)).symm)
  · rw [e0, e1, e2, e3, e4, e5, e6, e7, e8, e9, e10, e11, e12, e13, e14, e15, e16, e17, e18, e19, e20, e21, e22, e23, e24, e25, e26, e27, e28, e29, e30, e31, e32, e33, e34, e35, e36]
    exact (Cert.ReferenceIdeal.RefVal.ref_states (Cert.KernelIdeal.Bridge.argsOf m c)).trans
      (Cert.KernelIdeal.Bridge.final_states m c hb hs hg hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
